-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x20 : Shape := ⟨2, ![16384, 20]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_
  bcast_S_S16384x20 : S_.BroadcastsInDim S16384x20 (![] : Fin 0 → Fin S16384x20.rank)
  reducesTo_S16384x20_S_d0_1 : S16384x20.ReducesTo [0, 1] S_

variable [Facts]

def fn_part2 {F : FTy → Type} [FloatOps F] (main_arg3 : IVec S16384x20 32) (main_v29 : IVec S_ 1) (main_v31 : IVec S16384x20 1) (main_v32 : IVec S16384x20 32) : IVec S_ 1 :=
  let main_v33 : IVec S16384x20 1 := cmpi .slt main_arg3 main_v32
  let main_v34 : IVec S16384x20 1 := andi main_v31 main_v33
  let main_c_13 : IVec S_ 1 := constantI S_ 1 1#1
  let main_v35 : IVec S_ 1 := (fun x v => Host.reduce IntOp.andi x v reducesTo_S16384x20_S_d0_1 h_S_) main_v34 main_c_13
  let main_v36 : IVec S_ 1 := andi main_v29 main_v35
  main_v36

def fn_part1 {F : FTy → Type} [FloatOps F] (main_arg1 : IVec S16384 32) (main_arg2 : IVec S16384x20 32) (main_arg3 : IVec S16384x20 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 1000000#32
  let main_v18 : IVec S16384 32 := broadcastInDim S16384 ![] bcast_S_S16384 main_c_6
  let main_v19 : IVec S16384 1 := cmpi .slt main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 0#32
  let main_v23 : IVec S16384x20 32 := broadcastInDim S16384x20 ![] bcast_S_S16384x20 main_c_8
  let main_v24 : IVec S16384x20 1 := cmpi .sge main_arg2 main_v23
  let main_c_9 : IVec S_ 32 := constantI S_ 32 1000000#32
  let main_v25 : IVec S16384x20 32 := broadcastInDim S16384x20 ![] bcast_S_S16384x20 main_c_9
  let main_v26 : IVec S16384x20 1 := cmpi .slt main_arg2 main_v25
  let main_v27 : IVec S16384x20 1 := andi main_v24 main_v26
  let main_c_10 : IVec S_ 1 := constantI S_ 1 1#1
  let main_v28 : IVec S_ 1 := (fun x v => Host.reduce IntOp.andi x v reducesTo_S16384x20_S_d0_1 h_S_) main_v27 main_c_10
  let main_v29 : IVec S_ 1 := andi main_v22 main_v28
  let main_c_11 : IVec S_ 32 := constantI S_ 32 0#32
  let main_v30 : IVec S16384x20 32 := broadcastInDim S16384x20 ![] bcast_S_S16384x20 main_c_11
  let main_v31 : IVec S16384x20 1 := cmpi .sge main_arg3 main_v30
  let main_c_12 : IVec S_ 32 := constantI S_ 32 1000000#32
  let main_v32 : IVec S16384x20 32 := broadcastInDim S16384x20 ![] bcast_S_S16384x20 main_c_12
  fn_part2 (F := F) main_arg3 main_v29 main_v31 main_v32

def fn {F : FTy → Type} [FloatOps F] (main_arg0 : IVec S16384 32) (main_arg1 : IVec S16384 32) (main_arg2 : IVec S16384x20 32) (main_arg3 : IVec S16384x20 32) (main_arg4 : FVec F S1000000x64 .f32) (main_arg5 : FVec F S1000000x64 .f32) : IVec S_ 1 :=
  let main_v0 : FVec F S1000000x64 .f32 := Host.absf main_arg4
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg5
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 1000000#32
  let main_v11 : IVec S16384 32 := broadcastInDim S16384 ![] bcast_S_S16384 main_c_3
  let main_v12 : IVec S16384 1 := cmpi .slt main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg1 main_arg2 main_arg3 main_v15 main_c_5
-- ==== Kernel.lean ====
abbrev S16384 : Shape := ⟨1, ![16384]⟩
abbrev S16384x20 : Shape := ⟨2, ![16384, 20]⟩
abbrev S1000000x64 : Shape := ⟨2, ![1000000, 64]⟩
abbrev S327680 : Shape := ⟨1, ![327680]⟩
abbrev S344064 : Shape := ⟨1, ![344064]⟩
abbrev S8x43008 : Shape := ⟨2, ![8, 43008]⟩
abbrev S1000000x1x64 : Shape := ⟨3, ![1000000, 1, 64]⟩
abbrev S1x43008 : Shape := ⟨2, ![1, 43008]⟩
abbrev S43008 : Shape := ⟨1, ![43008]⟩
abbrev S1x1 : Shape := ⟨2, ![1, 1]⟩
abbrev S1x1x64 : Shape := ⟨3, ![1, 1, 64]⟩
abbrev S1 : Shape := ⟨1, ![1]⟩
abbrev S1x64 : Shape := ⟨2, ![1, 64]⟩
abbrev S_ : Shape := ⟨0, ![]⟩

abbrev nBuf : Space → Nat
  | .hbm => 55
  | .vmem => 48
  | .smem => 16
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x20, .i32⟩
  | .hbm, ⟨3, _⟩ => ⟨S16384x20, .i32⟩
  | .hbm, ⟨4, _⟩ => ⟨S1000000x64, .f32⟩
  | .hbm, ⟨5, _⟩ => ⟨S1000000x64, .f32⟩
  | .hbm, ⟨6, _⟩ => ⟨S327680, .i32⟩
  | .hbm, ⟨7, _⟩ => ⟨S344064, .i32⟩
  | .hbm, ⟨8, _⟩ => ⟨S327680, .i32⟩
  | .hbm, ⟨9, _⟩ => ⟨S344064, .i32⟩
  | .hbm, ⟨10, _⟩ => ⟨S8x43008, .i32⟩
  | .hbm, ⟨11, _⟩ => ⟨S8x43008, .i32⟩
  | .hbm, ⟨12, _⟩ => ⟨S1000000x1x64, .f32⟩
  | .hbm, ⟨13, _⟩ => ⟨S1000000x1x64, .f32⟩
  | .hbm, ⟨14, _⟩ => ⟨S1x43008, .i32⟩
  | .hbm, ⟨15, _⟩ => ⟨S1x43008, .i32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x43008, .i32⟩
  | .hbm, ⟨21, _⟩ => ⟨S1x43008, .i32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S1x43008, .i32⟩
  | .hbm, ⟨26, _⟩ => ⟨S1x43008, .i32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S1x43008, .i32⟩
  | .hbm, ⟨31, _⟩ => ⟨S1x43008, .i32⟩
  | .hbm, ⟨32, _⟩ => ⟨S1x1, .f32⟩
  | .hbm, ⟨33, _⟩ => ⟨S_, .f32⟩
  | .hbm, ⟨34, _⟩ => ⟨S_, .f32⟩
  | .hbm, ⟨35, _⟩ => ⟨S1x43008, .i32⟩
  | .hbm, ⟨36, _⟩ => ⟨S1x43008, .i32⟩
  | .hbm, ⟨37, _⟩ => ⟨S1x1, .f32⟩
  | .hbm, ⟨38, _⟩ => ⟨S_, .f32⟩
  | .hbm, ⟨39, _⟩ => ⟨S_, .f32⟩
  | .hbm, ⟨40, _⟩ => ⟨S1x43008, .i32⟩
  | .hbm, ⟨41, _⟩ => ⟨S1x43008, .i32⟩
  | .hbm, ⟨42, _⟩ => ⟨S1x1, .f32⟩
  | .hbm, ⟨43, _⟩ => ⟨S_, .f32⟩
  | .hbm, ⟨44, _⟩ => ⟨S_, .f32⟩
  | .hbm, ⟨45, _⟩ => ⟨S1x43008, .i32⟩
  | .hbm, ⟨46, _⟩ => ⟨S1x43008, .i32⟩
  | .hbm, ⟨47, _⟩ => ⟨S1x1, .f32⟩
  | .hbm, ⟨48, _⟩ => ⟨S_, .f32⟩
  | .hbm, ⟨49, _⟩ => ⟨S_, .f32⟩
  | .hbm, ⟨50, _⟩ => ⟨S1x43008, .i32⟩
  | .hbm, ⟨51, _⟩ => ⟨S1x43008, .i32⟩
  | .hbm, ⟨52, _⟩ => ⟨S1x1, .f32⟩
  | .hbm, ⟨53, _⟩ => ⟨S_, .f32⟩
  | .hbm, ⟨54, _⟩ => ⟨S_, .f32⟩
  | .local _ .vmem, ⟨0, _⟩ => ⟨S1x1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1, .f32⟩
  | .local _ .vmem, ⟨5, _⟩ => ⟨S1x1, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S1x1, .f32⟩
  | .local _ .vmem, ⟨11, _⟩ => ⟨S1x1, .f32⟩
  | .local _ .vmem, ⟨12, _⟩ => ⟨S1x1x64, .f32⟩
  | .local _ .vmem, ⟨13, _⟩ => ⟨S1x1x64, .f32⟩
  | .local _ .vmem, ⟨14, _⟩ => ⟨S1x1x64, .f32⟩
  | .local _ .vmem, ⟨15, _⟩ => ⟨S1x1x64, .f32⟩
  | .local _ .vmem, ⟨16, _⟩ => ⟨S1x1, .f32⟩
  | .local _ .vmem, ⟨17, _⟩ => ⟨S1x1, .f32⟩
  | .local _ .vmem, ⟨18, _⟩ => ⟨S1x1x64, .f32⟩
  | .local _ .vmem, ⟨19, _⟩ => ⟨S1x1x64, .f32⟩
  | .local _ .vmem, ⟨20, _⟩ => ⟨S1x1x64, .f32⟩
  | .local _ .vmem, ⟨21, _⟩ => ⟨S1x1x64, .f32⟩
  | .local _ .vmem, ⟨22, _⟩ => ⟨S1x1, .f32⟩
  | .local _ .vmem, ⟨23, _⟩ => ⟨S1x1, .f32⟩
  | .local _ .vmem, ⟨24, _⟩ => ⟨S1x1x64, .f32⟩
  | .local _ .vmem, ⟨25, _⟩ => ⟨S1x1x64, .f32⟩
  | .local _ .vmem, ⟨26, _⟩ => ⟨S1x1x64, .f32⟩
  | .local _ .vmem, ⟨27, _⟩ => ⟨S1x1x64, .f32⟩
  | .local _ .vmem, ⟨28, _⟩ => ⟨S1x1, .f32⟩
  | .local _ .vmem, ⟨29, _⟩ => ⟨S1x1, .f32⟩
  | .local _ .vmem, ⟨30, _⟩ => ⟨S1x1x64, .f32⟩
  | .local _ .vmem, ⟨31, _⟩ => ⟨S1x1x64, .f32⟩
  | .local _ .vmem, ⟨32, _⟩ => ⟨S1x1x64, .f32⟩
  | .local _ .vmem, ⟨33, _⟩ => ⟨S1x1x64, .f32⟩
  | .local _ .vmem, ⟨34, _⟩ => ⟨S1x1, .f32⟩
  | .local _ .vmem, ⟨35, _⟩ => ⟨S1x1, .f32⟩
  | .local _ .vmem, ⟨36, _⟩ => ⟨S1x1x64, .f32⟩
  | .local _ .vmem, ⟨37, _⟩ => ⟨S1x1x64, .f32⟩
  | .local _ .vmem, ⟨38, _⟩ => ⟨S1x1x64, .f32⟩
  | .local _ .vmem, ⟨39, _⟩ => ⟨S1x1x64, .f32⟩
  | .local _ .vmem, ⟨40, _⟩ => ⟨S1x1, .f32⟩
  | .local _ .vmem, ⟨41, _⟩ => ⟨S1x1, .f32⟩
  | .local _ .vmem, ⟨42, _⟩ => ⟨S1x1x64, .f32⟩
  | .local _ .vmem, ⟨43, _⟩ => ⟨S1x1x64, .f32⟩
  | .local _ .vmem, ⟨44, _⟩ => ⟨S1x1x64, .f32⟩
  | .local _ .vmem, ⟨45, _⟩ => ⟨S1x1x64, .f32⟩
  | .local _ .vmem, ⟨46, _⟩ => ⟨S1x1, .f32⟩
  | .local _ .vmem, ⟨47, _⟩ => ⟨S1x1, .f32⟩
  | .local _ .smem, ⟨0, _⟩ => ⟨S43008, .i32⟩
  | .local _ .smem, ⟨1, _⟩ => ⟨S43008, .i32⟩
  | .local _ .smem, ⟨2, _⟩ => ⟨S43008, .i32⟩
  | .local _ .smem, ⟨3, _⟩ => ⟨S43008, .i32⟩
  | .local _ .smem, ⟨4, _⟩ => ⟨S43008, .i32⟩
  | .local _ .smem, ⟨5, _⟩ => ⟨S43008, .i32⟩
  | .local _ .smem, ⟨6, _⟩ => ⟨S43008, .i32⟩
  | .local _ .smem, ⟨7, _⟩ => ⟨S43008, .i32⟩
  | .local _ .smem, ⟨8, _⟩ => ⟨S43008, .i32⟩
  | .local _ .smem, ⟨9, _⟩ => ⟨S43008, .i32⟩
  | .local _ .smem, ⟨10, _⟩ => ⟨S43008, .i32⟩
  | .local _ .smem, ⟨11, _⟩ => ⟨S43008, .i32⟩
  | .local _ .smem, ⟨12, _⟩ => ⟨S43008, .i32⟩
  | .local _ .smem, ⟨13, _⟩ => ⟨S43008, .i32⟩
  | .local _ .smem, ⟨14, _⟩ => ⟨S43008, .i32⟩
  | .local _ .smem, ⟨15, _⟩ => ⟨S43008, .i32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v10 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v17 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v24 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v31 : Ref sig .tc := ⟨.hbm, 31, rfl⟩
abbrev main_v33 : Ref sig .tc := ⟨.hbm, 32, rfl⟩
abbrev main_v34 : Ref sig .tc := ⟨.hbm, 33, rfl⟩
abbrev main_v35 : Ref sig .tc := ⟨.hbm, 34, rfl⟩
abbrev main_v36 : Ref sig .tc := ⟨.hbm, 35, rfl⟩
abbrev main_v38 : Ref sig .tc := ⟨.hbm, 36, rfl⟩
abbrev main_v40 : Ref sig .tc := ⟨.hbm, 37, rfl⟩
abbrev main_v41 : Ref sig .tc := ⟨.hbm, 38, rfl⟩
abbrev main_v42 : Ref sig .tc := ⟨.hbm, 39, rfl⟩
abbrev main_v43 : Ref sig .tc := ⟨.hbm, 40, rfl⟩
abbrev main_v45 : Ref sig .tc := ⟨.hbm, 41, rfl⟩
abbrev main_v47 : Ref sig .tc := ⟨.hbm, 42, rfl⟩
abbrev main_v48 : Ref sig .tc := ⟨.hbm, 43, rfl⟩
abbrev main_v49 : Ref sig .tc := ⟨.hbm, 44, rfl⟩
abbrev main_v50 : Ref sig .tc := ⟨.hbm, 45, rfl⟩
abbrev main_v52 : Ref sig .tc := ⟨.hbm, 46, rfl⟩
abbrev main_v54 : Ref sig .tc := ⟨.hbm, 47, rfl⟩
abbrev main_v55 : Ref sig .tc := ⟨.hbm, 48, rfl⟩
abbrev main_v56 : Ref sig .tc := ⟨.hbm, 49, rfl⟩
abbrev main_v57 : Ref sig .tc := ⟨.hbm, 50, rfl⟩
abbrev main_v59 : Ref sig .tc := ⟨.hbm, 51, rfl⟩
abbrev main_v61 : Ref sig .tc := ⟨.hbm, 52, rfl⟩
abbrev main_v62 : Ref sig .tc := ⟨.hbm, 53, rfl⟩
abbrev main_v63 : Ref sig .tc := ⟨.hbm, 54, rfl⟩
abbrev main_v9 : Ref sig .tc := ⟨.smem, 0, rfl⟩
abbrev main_v11 : Ref sig .tc := ⟨.smem, 1, rfl⟩
abbrev main_v16 : Ref sig .tc := ⟨.smem, 2, rfl⟩
abbrev main_v18 : Ref sig .tc := ⟨.smem, 3, rfl⟩
abbrev main_v23 : Ref sig .tc := ⟨.smem, 4, rfl⟩
abbrev main_v25 : Ref sig .tc := ⟨.smem, 5, rfl⟩
abbrev main_v30 : Ref sig .tc := ⟨.smem, 6, rfl⟩
abbrev main_v32 : Ref sig .tc := ⟨.smem, 7, rfl⟩
abbrev main_v37 : Ref sig .tc := ⟨.smem, 8, rfl⟩
abbrev main_v39 : Ref sig .tc := ⟨.smem, 9, rfl⟩
abbrev main_v44 : Ref sig .tc := ⟨.smem, 10, rfl⟩
abbrev main_v46 : Ref sig .tc := ⟨.smem, 11, rfl⟩
abbrev main_v51 : Ref sig .tc := ⟨.smem, 12, rfl⟩
abbrev main_v53 : Ref sig .tc := ⟨.smem, 13, rfl⟩
abbrev main_v58 : Ref sig .tc := ⟨.smem, 14, rfl⟩
abbrev main_v60 : Ref sig .tc := ⟨.smem, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_scratch0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_scratch0 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_scratch0 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc7_sem0_0 : DmaSem sig := 35
abbrev cc7_sem0_1 : DmaSem sig := 36
abbrev cc7_sem1_0 : DmaSem sig := 37
abbrev cc7_sem1_1 : DmaSem sig := 38
abbrev cc7_sem2_0 : DmaSem sig := 39

abbrev nD : Nat := 1
abbrev τ : Topo := Topo.v7x

variable {F : FTy → Type} [FloatOps F]

abbrev grid0 : Pipeline.Grid := ⟨1, ![43008], ![false]⟩

abbrev pre0 : Pipeline.Prefetch sig := ⟨2, ![main_v9.idx, main_v11.idx], fun | 0 => main_v9.names | 1 => main_v11.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c43007_i32 : BitVec 32 := 43007#32
  let v35 : BitVec 1 := Scalar.cmpi .eq arg0 c43007_i32
  let v36 : BitVec 32 := Scalar.extui v35
  let c0_i32_15 : BitVec 32 := 0#32
  let v37 : BitVec 1 := Scalar.cmpi .ne v36 c0_i32_15
  v37

def cc0_transform_0 (k0_off1_inb : ∀ i : grid0.Coords, ∀ a, (k0_off1 i) a + S1.size a ≤ S43008.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S43008) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S43008.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S43008) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![43008], ![false]⟩

abbrev pre1 : Pipeline.Prefetch sig := ⟨2, ![main_v16.idx, main_v18.idx], fun | 0 => main_v16.names | 1 => main_v18.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_cond2 (i : grid1.Coords) : BitVec 1 :=
  let arg0 : BitVec 32 := BitVec.ofNat 32 (i 0).val
  let c43007_i32 : BitVec 32 := 43007#32
  let v35 : BitVec 1 := Scalar.cmpi .eq arg0 c43007_i32
  let v36 : BitVec 32 := Scalar.extui v35
  let c0_i32_15 : BitVec 32 := 0#32
  let v37 : BitVec 1 := Scalar.cmpi .ne v36 c0_i32_15
  v37

def cc1_transform_0 (k1_off1_inb : ∀ i : grid1.Coords, ∀ a, (k1_off1 i) a + S1.size a ≤ S43008.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S43008) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S43008.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S43008) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![43008], ![false]⟩

abbrev pre2 : Pipeline.Prefetch sig := ⟨2, ![main_v23.idx, main_v25.idx], fun | 0 => main_v23.names | 1 => main_v25.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond2 (i : grid2.Coords) : BitVec 1 :=
  let arg0 : BitVec 32 := BitVec.ofNat 32 (i 0).val
  let c43007_i32 : BitVec 32 := 43007#32
  let v35 : BitVec 1 := Scalar.cmpi .eq arg0 c43007_i32
  let v36 : BitVec 32 := Scalar.extui v35
  let c0_i32_15 : BitVec 32 := 0#32
  let v37 : BitVec 1 := Scalar.cmpi .ne v36 c0_i32_15
  v37

def cc2_transform_0 (k2_off1_inb : ∀ i : grid2.Coords, ∀ a, (k2_off1 i) a + S1.size a ≤ S43008.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S43008) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S43008.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S43008) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![43008], ![false]⟩

abbrev pre3 : Pipeline.Prefetch sig := ⟨2, ![main_v30.idx, main_v32.idx], fun | 0 => main_v30.names | 1 => main_v32.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def k3_cond2 (i : grid3.Coords) : BitVec 1 :=
  let arg0 : BitVec 32 := BitVec.ofNat 32 (i 0).val
  let c43007_i32 : BitVec 32 := 43007#32
  let v35 : BitVec 1 := Scalar.cmpi .eq arg0 c43007_i32
  let v36 : BitVec 32 := Scalar.extui v35
  let c0_i32_15 : BitVec 32 := 0#32
  let v37 : BitVec 1 := Scalar.cmpi .ne v36 c0_i32_15
  v37

def cc3_transform_0 (k3_off1_inb : ∀ i : grid3.Coords, ∀ a, (k3_off1 i) a + S1.size a ≤ S43008.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S43008) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S43008.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S43008) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x1x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![43008], ![false]⟩

abbrev pre4 : Pipeline.Prefetch sig := ⟨2, ![main_v37.idx, main_v39.idx], fun | 0 => main_v37.names | 1 => main_v39.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def k4_cond2 (i : grid4.Coords) : BitVec 1 :=
  let arg0 : BitVec 32 := BitVec.ofNat 32 (i 0).val
  let c43007_i32 : BitVec 32 := 43007#32
  let v35 : BitVec 1 := Scalar.cmpi .eq arg0 c43007_i32
  let v36 : BitVec 32 := Scalar.extui v35
  let c0_i32_15 : BitVec 32 := 0#32
  let v37 : BitVec 1 := Scalar.cmpi .ne v36 c0_i32_15
  v37

def cc4_transform_0 (k4_off1_inb : ∀ i : grid4.Coords, ∀ a, (k4_off1 i) a + S1.size a ≤ S43008.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S43008) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (k4_off1_inb : ∀ i : grid4.Coords, ∀ a, (k4_off1 i) a + S1.size a ≤ S43008.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 1 (Rect.unit (s := S43008) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x1x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![43008], ![false]⟩

abbrev pre5 : Pipeline.Prefetch sig := ⟨2, ![main_v44.idx, main_v46.idx], fun | 0 => main_v44.names | 1 => main_v46.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def k5_cond2 (i : grid5.Coords) : BitVec 1 :=
  let arg0 : BitVec 32 := BitVec.ofNat 32 (i 0).val
  let c43007_i32 : BitVec 32 := 43007#32
  let v35 : BitVec 1 := Scalar.cmpi .eq arg0 c43007_i32
  let v36 : BitVec 32 := Scalar.extui v35
  let c0_i32_15 : BitVec 32 := 0#32
  let v37 : BitVec 1 := Scalar.cmpi .ne v36 c0_i32_15
  v37

def cc5_transform_0 (k5_off1_inb : ∀ i : grid5.Coords, ∀ a, (k5_off1 i) a + S1.size a ≤ S43008.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S43008) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (k5_off1_inb : ∀ i : grid5.Coords, ∀ a, (k5_off1 i) a + S1.size a ≤ S43008.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 1 (Rect.unit (s := S43008) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1x1x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![43008], ![false]⟩

abbrev pre6 : Pipeline.Prefetch sig := ⟨2, ![main_v51.idx, main_v53.idx], fun | 0 => main_v51.names | 1 => main_v53.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def k6_cond2 (i : grid6.Coords) : BitVec 1 :=
  let arg0 : BitVec 32 := BitVec.ofNat 32 (i 0).val
  let c43007_i32 : BitVec 32 := 43007#32
  let v35 : BitVec 1 := Scalar.cmpi .eq arg0 c43007_i32
  let v36 : BitVec 32 := Scalar.extui v35
  let c0_i32_15 : BitVec 32 := 0#32
  let v37 : BitVec 1 := Scalar.cmpi .ne v36 c0_i32_15
  v37

def cc6_transform_0 (k6_off1_inb : ∀ i : grid6.Coords, ∀ a, (k6_off1 i) a + S1.size a ≤ S43008.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S43008) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (k6_off1_inb : ∀ i : grid6.Coords, ∀ a, (k6_off1 i) a + S1.size a ≤ S43008.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S43008) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1x1x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![43008], ![false]⟩

abbrev pre7 : Pipeline.Prefetch sig := ⟨2, ![main_v58.idx, main_v60.idx], fun | 0 => main_v58.names | 1 => main_v60.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def k7_cond2 (i : grid7.Coords) : BitVec 1 :=
  let arg0 : BitVec 32 := BitVec.ofNat 32 (i 0).val
  let c43007_i32 : BitVec 32 := 43007#32
  let v35 : BitVec 1 := Scalar.cmpi .eq arg0 c43007_i32
  let v36 : BitVec 32 := Scalar.extui v35
  let c0_i32_15 : BitVec 32 := 0#32
  let v37 : BitVec 1 := Scalar.cmpi .ne v36 c0_i32_15
  v37

def cc7_transform_0 (k7_off1_inb : ∀ i : grid7.Coords, ∀ a, (k7_off1 i) a + S1.size a ≤ S43008.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S43008) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (k7_off1_inb : ∀ i : grid7.Coords, ∀ a, (k7_off1 i) a + S1.size a ≤ S43008.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 1 (Rect.unit (s := S43008) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1x1x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

class Facts₀ : Prop where
  shapeCasts_S16384x20_S327680 : S16384x20.ShapeCasts S327680
  concatenates_S16384_S327680_S344064_d0 : Shape.Concatenates [S16384, S327680] S344064 0
  shapeCasts_S344064_S8x43008 : S344064.ShapeCasts S8x43008
  shapeCasts_S1000000x64_S1000000x1x64 : S1000000x64.ShapeCasts S1000000x1x64
  slices_S8x43008_S1x43008_0_0 : S8x43008.Slices ![0, 0] S1x43008
  shapeCasts_S1x43008_S43008 : S1x43008.ShapeCasts S43008
  numel1_S1 : S1.numel = 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  reduces_S1x64_S1 : S1x64.Reduces [1] S1
  shapeCasts_S1_S1x1 : S1.ShapeCasts S1x1
  shapeCasts_S1x1_S_ : S1x1.ShapeCasts S_
  slices_S8x43008_S1x43008_1_0 : S8x43008.Slices ![1, 0] S1x43008
  slices_S8x43008_S1x43008_2_0 : S8x43008.Slices ![2, 0] S1x43008
  slices_S8x43008_S1x43008_3_0 : S8x43008.Slices ![3, 0] S1x43008
  slices_S8x43008_S1x43008_4_0 : S8x43008.Slices ![4, 0] S1x43008
  slices_S8x43008_S1x43008_5_0 : S8x43008.Slices ![5, 0] S1x43008
  slices_S8x43008_S1x43008_6_0 : S8x43008.Slices ![6, 0] S1x43008
  slices_S8x43008_S1x43008_7_0 : S8x43008.Slices ![7, 0] S1x43008
  hrank0 : 0 < grid0.rank
  k0_off1_inb : ∀ i : grid0.Coords, ∀ a, (k0_off1 i) a + S1.size a ≤ S43008.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  k1_off1_inb : ∀ i : grid1.Coords, ∀ a, (k1_off1 i) a + S1.size a ≤ S43008.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  k2_off1_inb : ∀ i : grid2.Coords, ∀ a, (k2_off1 i) a + S1.size a ≤ S43008.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hrank3 : 0 < grid3.rank
  k3_off1_inb : ∀ i : grid3.Coords, ∀ a, (k3_off1 i) a + S1.size a ≤ S43008.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hrank4 : 0 < grid4.rank
  k4_off1_inb : ∀ i : grid4.Coords, ∀ a, (k4_off1 i) a + S1.size a ≤ S43008.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hrank5 : 0 < grid5.rank
  k5_off1_inb : ∀ i : grid5.Coords, ∀ a, (k5_off1 i) a + S1.size a ≤ S43008.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ {F : FTy → Type} [FloatOps F] (pf : pre5.Contents (Elt F)) (i i' : grid5.Coords), (∀ a, reads5_1 a = true → i a = i' a) → cc5_transform_1 k5_off1_inb numel1_S1 pf i = cc5_transform_1 k5_off1_inb numel1_S1 pf i'
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hrank6 : 0 < grid6.rank
  k6_off1_inb : ∀ i : grid6.Coords, ∀ a, (k6_off1 i) a + S1.size a ≤ S43008.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ {F : FTy → Type} [FloatOps F] (pf : pre6.Contents (Elt F)) (i i' : grid6.Coords), (∀ a, reads6_1 a = true → i a = i' a) → cc6_transform_1 k6_off1_inb numel1_S1 pf i = cc6_transform_1 k6_off1_inb numel1_S1 pf i'
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hrank7 : 0 < grid7.rank
  k7_off1_inb : ∀ i : grid7.Coords, ∀ a, (k7_off1 i) a + S1.size a ≤ S43008.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ {F : FTy → Type} [FloatOps F] (pf : pre7.Contents (Elt F)) (i i' : grid7.Coords), (∀ a, reads7_1 a = true → i a = i' a) → cc7_transform_1 k7_off1_inb numel1_S1 pf i = cc7_transform_1 k7_off1_inb numel1_S1 pf i'
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)

variable [Facts₀]

abbrev spec0_0 : Pipeline.WinSpec sig grid0.rank :=
  Pipeline.WinSpec.ofSpec (Memref.whole main_v6) S1x1x64.size reads0_0 false false 2 stage0_0 sem0_0 nbuf0_0 hstage0_0

abbrev spec0_1 : Pipeline.WinSpec sig grid0.rank :=
  Pipeline.WinSpec.ofSpec (Memref.whole main_v7) S1x1x64.size reads0_1 false false 2 stage0_1 sem0_1 nbuf0_1 hstage0_1

abbrev spec0_2 : Pipeline.WinSpec sig grid0.rank :=
  Pipeline.WinSpec.ofSpec (Memref.whole main_v12) S1x1.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x64.size a ≤ S1000000x1x64.size a), EltTy.bits .f32 = 32 ∨ (Rect.block (s := S1000000x1x64) S1x1x64.size (cc0_transform_0 k0_off1_inb numel1_S1 pf i) h).WholeWords (EltTy.packing .f32)) ∧
  (∀ i : grid0.Coords, ∃ h : (∀ a, (cc0_transform_1 k0_off1_inb numel1_S1 pf i a + 1) * S1x1x64.size a ≤ S1000000x1x64.size a), EltTy.bits .f32 = 32 ∨ (Rect.block (s := S1000000x1x64) S1x1x64.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev spec1_0 : Pipeline.WinSpec sig grid1.rank :=
  Pipeline.WinSpec.ofSpec (Memref.whole main_v6) S1x1x64.size reads1_0 false false 2 stage1_0 sem1_0 nbuf1_0 hstage1_0

abbrev spec1_1 : Pipeline.WinSpec sig grid1.rank :=
  Pipeline.WinSpec.ofSpec (Memref.whole main_v7) S1x1x64.size reads1_1 false false 2 stage1_1 sem1_1 nbuf1_1 hstage1_1

abbrev spec1_2 : Pipeline.WinSpec sig grid1.rank :=
  Pipeline.WinSpec.ofSpec (Memref.whole main_v19) S1x1.size reads1_2 true true 1 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 k1_off1_inb numel1_S1 pf | 1 => cc1_transform_1 k1_off1_inb numel1_S1 pf | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x64.size a ≤ S1000000x1x64.size a), EltTy.bits .f32 = 32 ∨ (Rect.block (s := S1000000x1x64) S1x1x64.size (cc1_transform_0 k1_off1_inb numel1_S1 pf i) h).WholeWords (EltTy.packing .f32)) ∧
  (∀ i : grid1.Coords, ∃ h : (∀ a, (cc1_transform_1 k1_off1_inb numel1_S1 pf i a + 1) * S1x1x64.size a ≤ S1000000x1x64.size a), EltTy.bits .f32 = 32 ∨ (Rect.block (s := S1000000x1x64) S1x1x64.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | ⟨_ + 3, h⟩ => absurd h (Nat.not_lt.2 (Nat.le_add_left _ _))
abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev spec2_0 : Pipeline.WinSpec sig grid2.rank :=
  Pipeline.WinSpec.ofSpec (Memref.whole main_v6) S1x1x64.size reads2_0 false false 2 stage2_0 sem2_0 nbuf2_0 hstage2_0

abbrev spec2_1 : Pipeline.WinSpec sig grid2.rank :=
  Pipeline.WinSpec.ofSpec (Memref.whole main_v7) S1x1x64.size reads2_1 false false 2 stage2_1 sem2_1 nbuf2_1 hstage2_1

abbrev spec2_2 : Pipeline.WinSpec sig grid2.rank :=
  Pipeline.WinSpec.ofSpec (Memref.whole main_v26) S1x1.size reads2_2 true true 1 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 k2_off1_inb numel1_S1 pf | 1 => cc2_transform_1 k2_off1_inb numel1_S1 pf | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 | ⟨_ + 3, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x64.size a ≤ S1000000x1x64.size a), EltTy.bits .f32 = 32 ∨ (Rect.block (s := S1000000x1x64) S1x1x64.size (cc2_transform_0 k2_off1_inb numel1_S1 pf i) h).WholeWords (EltTy.packing .f32)) ∧
  (∀ i : grid2.Coords, ∃ h : (∀ a, (cc2_transform_1 k2_off1_inb numel1_S1 pf i a + 1) * S1x1x64.size a ≤ S1000000x1x64.size a), EltTy.bits .f32 = 32 ∨ (Rect.block (s := S1000000x1x64) S1x1x64.size (cc2_transform_1 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2 i).elim fun h _ => h a | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2 i).elim fun _ h => h | 2 => hwx2_2 | ⟨_ + 3, h⟩ => absurd h (Nat.not_lt.2 (Nat.le_add_left _ _))
abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev spec3_0 : Pipeline.WinSpec sig grid3.rank :=
  Pipeline.WinSpec.ofSpec (Memref.whole main_v6) S1x1x64.size reads3_0 false false 2 stage3_0 sem3_0 nbuf3_0 hstage3_0

abbrev spec3_1 : Pipeline.WinSpec sig grid3.rank :=
  Pipeline.WinSpec.ofSpec (Memref.whole main_v7) S1x1x64.size reads3_1 false false 2 stage3_1 sem3_1 nbuf3_1 hstage3_1

abbrev spec3_2 : Pipeline.WinSpec sig grid3.rank :=
  Pipeline.WinSpec.ofSpec (Memref.whole main_v33) S1x1.size reads3_2 true true 1 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 k3_off1_inb numel1_S1 pf | 1 => cc3_transform_1 k3_off1_inb numel1_S1 pf | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 | ⟨_ + 3, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x64.size a ≤ S1000000x1x64.size a), EltTy.bits .f32 = 32 ∨ (Rect.block (s := S1000000x1x64) S1x1x64.size (cc3_transform_0 k3_off1_inb numel1_S1 pf i) h).WholeWords (EltTy.packing .f32)) ∧
  (∀ i : grid3.Coords, ∃ h : (∀ a, (cc3_transform_1 k3_off1_inb numel1_S1 pf i a + 1) * S1x1x64.size a ≤ S1000000x1x64.size a), EltTy.bits .f32 = 32 ∨ (Rect.block (s := S1000000x1x64) S1x1x64.size (cc3_transform_1 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2 i).elim fun h _ => h a | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2 i).elim fun _ h => h | 2 => hwx3_2 | ⟨_ + 3, h⟩ => absurd h (Nat.not_lt.2 (Nat.le_add_left _ _))
abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev spec4_0 : Pipeline.WinSpec sig grid4.rank :=
  Pipeline.WinSpec.ofSpec (Memref.whole main_v6) S1x1x64.size reads4_0 false false 2 stage4_0 sem4_0 nbuf4_0 hstage4_0

abbrev spec4_1 : Pipeline.WinSpec sig grid4.rank :=
  Pipeline.WinSpec.ofSpec (Memref.whole main_v7) S1x1x64.size reads4_1 false false 2 stage4_1 sem4_1 nbuf4_1 hstage4_1

abbrev spec4_2 : Pipeline.WinSpec sig grid4.rank :=
  Pipeline.WinSpec.ofSpec (Memref.whole main_v40) S1x1.size reads4_2 true true 1 stage4_2 sem4_2 nbuf4_2 hstage4_2

abbrev spec4 : Fin 3 → Pipeline.WinSpec sig grid4.rank := fun | 0 => spec4_0 | 1 => spec4_1 | 2 => spec4_2 | ⟨_ + 3, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | ⟨_ + 3, h⟩ => absurd h (Nat.not_lt.2 (Nat.le_add_left _ _))
abbrev ix4 (pf : pre4.Contents (Elt F)) : (w : Fin 3) → grid4.Coords → Fin (spec4 w).shape.rank → Nat := fun | 0 => cc4_transform_0 k4_off1_inb numel1_S1 pf | 1 => cc4_transform_1 k4_off1_inb numel1_S1 pf | 2 => cc4_transform_2 | ⟨_ + 3, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 pf | 2 => hreads4_2 | ⟨_ + 3, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x64.size a ≤ S1000000x1x64.size a), EltTy.bits .f32 = 32 ∨ (Rect.block (s := S1000000x1x64) S1x1x64.size (cc4_transform_0 k4_off1_inb numel1_S1 pf i) h).WholeWords (EltTy.packing .f32)) ∧
  (∀ i : grid4.Coords, ∃ h : (∀ a, (cc4_transform_1 k4_off1_inb numel1_S1 pf i a + 1) * S1x1x64.size a ≤ S1000000x1x64.size a), EltTy.bits .f32 = 32 ∨ (Rect.block (s := S1000000x1x64) S1x1x64.size (cc4_transform_1 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok.1 i).elim fun h _ => h a | 1 => fun i a => (hok.2 i).elim fun h _ => h a | 2 => hinb4_2 | ⟨_ + 3, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok.1 i).elim fun _ h => h | 1 => fun i => (hok.2 i).elim fun _ h => h | 2 => hwx4_2 | ⟨_ + 3, h⟩ => absurd h (Nat.not_lt.2 (Nat.le_add_left _ _))
abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev spec5_0 : Pipeline.WinSpec sig grid5.rank :=
  Pipeline.WinSpec.ofSpec (Memref.whole main_v6) S1x1x64.size reads5_0 false false 2 stage5_0 sem5_0 nbuf5_0 hstage5_0

abbrev spec5_1 : Pipeline.WinSpec sig grid5.rank :=
  Pipeline.WinSpec.ofSpec (Memref.whole main_v7) S1x1x64.size reads5_1 false false 2 stage5_1 sem5_1 nbuf5_1 hstage5_1

abbrev spec5_2 : Pipeline.WinSpec sig grid5.rank :=
  Pipeline.WinSpec.ofSpec (Memref.whole main_v47) S1x1.size reads5_2 true true 1 stage5_2 sem5_2 nbuf5_2 hstage5_2

abbrev spec5 : Fin 3 → Pipeline.WinSpec sig grid5.rank := fun | 0 => spec5_0 | 1 => spec5_1 | 2 => spec5_2 | ⟨_ + 3, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | ⟨_ + 3, h⟩ => absurd h (Nat.not_lt.2 (Nat.le_add_left _ _))
abbrev ix5 (pf : pre5.Contents (Elt F)) : (w : Fin 3) → grid5.Coords → Fin (spec5 w).shape.rank → Nat := fun | 0 => cc5_transform_0 k5_off1_inb numel1_S1 pf | 1 => cc5_transform_1 k5_off1_inb numel1_S1 pf | 2 => cc5_transform_2 | ⟨_ + 3, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 pf | 2 => hreads5_2 | ⟨_ + 3, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x64.size a ≤ S1000000x1x64.size a), EltTy.bits .f32 = 32 ∨ (Rect.block (s := S1000000x1x64) S1x1x64.size (cc5_transform_0 k5_off1_inb numel1_S1 pf i) h).WholeWords (EltTy.packing .f32)) ∧
  (∀ i : grid5.Coords, ∃ h : (∀ a, (cc5_transform_1 k5_off1_inb numel1_S1 pf i a + 1) * S1x1x64.size a ≤ S1000000x1x64.size a), EltTy.bits .f32 = 32 ∨ (Rect.block (s := S1000000x1x64) S1x1x64.size (cc5_transform_1 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok.1 i).elim fun h _ => h a | 1 => fun i a => (hok.2 i).elim fun h _ => h a | 2 => hinb5_2 | ⟨_ + 3, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok.1 i).elim fun _ h => h | 1 => fun i => (hok.2 i).elim fun _ h => h | 2 => hwx5_2 | ⟨_ + 3, h⟩ => absurd h (Nat.not_lt.2 (Nat.le_add_left _ _))
abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev spec6_0 : Pipeline.WinSpec sig grid6.rank :=
  Pipeline.WinSpec.ofSpec (Memref.whole main_v6) S1x1x64.size reads6_0 false false 2 stage6_0 sem6_0 nbuf6_0 hstage6_0

abbrev spec6_1 : Pipeline.WinSpec sig grid6.rank :=
  Pipeline.WinSpec.ofSpec (Memref.whole main_v7) S1x1x64.size reads6_1 false false 2 stage6_1 sem6_1 nbuf6_1 hstage6_1

abbrev spec6_2 : Pipeline.WinSpec sig grid6.rank :=
  Pipeline.WinSpec.ofSpec (Memref.whole main_v54) S1x1.size reads6_2 true true 1 stage6_2 sem6_2 nbuf6_2 hstage6_2

abbrev spec6 : Fin 3 → Pipeline.WinSpec sig grid6.rank := fun | 0 => spec6_0 | 1 => spec6_1 | 2 => spec6_2 | ⟨_ + 3, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | ⟨_ + 3, h⟩ => absurd h (Nat.not_lt.2 (Nat.le_add_left _ _))
abbrev ix6 (pf : pre6.Contents (Elt F)) : (w : Fin 3) → grid6.Coords → Fin (spec6 w).shape.rank → Nat := fun | 0 => cc6_transform_0 k6_off1_inb numel1_S1 pf | 1 => cc6_transform_1 k6_off1_inb numel1_S1 pf | 2 => cc6_transform_2 | ⟨_ + 3, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 pf | 2 => hreads6_2 | ⟨_ + 3, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x64.size a ≤ S1000000x1x64.size a), EltTy.bits .f32 = 32 ∨ (Rect.block (s := S1000000x1x64) S1x1x64.size (cc6_transform_0 k6_off1_inb numel1_S1 pf i) h).WholeWords (EltTy.packing .f32)) ∧
  (∀ i : grid6.Coords, ∃ h : (∀ a, (cc6_transform_1 k6_off1_inb numel1_S1 pf i a + 1) * S1x1x64.size a ≤ S1000000x1x64.size a), EltTy.bits .f32 = 32 ∨ (Rect.block (s := S1000000x1x64) S1x1x64.size (cc6_transform_1 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok.1 i).elim fun h _ => h a | 1 => fun i a => (hok.2 i).elim fun h _ => h a | 2 => hinb6_2 | ⟨_ + 3, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok.1 i).elim fun _ h => h | 1 => fun i => (hok.2 i).elim fun _ h => h | 2 => hwx6_2 | ⟨_ + 3, h⟩ => absurd h (Nat.not_lt.2 (Nat.le_add_left _ _))
abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev spec7_0 : Pipeline.WinSpec sig grid7.rank :=
  Pipeline.WinSpec.ofSpec (Memref.whole main_v6) S1x1x64.size reads7_0 false false 2 stage7_0 sem7_0 nbuf7_0 hstage7_0

abbrev spec7_1 : Pipeline.WinSpec sig grid7.rank :=
  Pipeline.WinSpec.ofSpec (Memref.whole main_v7) S1x1x64.size reads7_1 false false 2 stage7_1 sem7_1 nbuf7_1 hstage7_1

abbrev spec7_2 : Pipeline.WinSpec sig grid7.rank :=
  Pipeline.WinSpec.ofSpec (Memref.whole main_v61) S1x1.size reads7_2 true true 1 stage7_2 sem7_2 nbuf7_2 hstage7_2

abbrev spec7 : Fin 3 → Pipeline.WinSpec sig grid7.rank := fun | 0 => spec7_0 | 1 => spec7_1 | 2 => spec7_2 | ⟨_ + 3, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | ⟨_ + 3, h⟩ => absurd h (Nat.not_lt.2 (Nat.le_add_left _ _))
abbrev ix7 (pf : pre7.Contents (Elt F)) : (w : Fin 3) → grid7.Coords → Fin (spec7 w).shape.rank → Nat := fun | 0 => cc7_transform_0 k7_off1_inb numel1_S1 pf | 1 => cc7_transform_1 k7_off1_inb numel1_S1 pf | 2 => cc7_transform_2 | ⟨_ + 3, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 pf | 2 => hreads7_2 | ⟨_ + 3, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x64.size a ≤ S1000000x1x64.size a), EltTy.bits .f32 = 32 ∨ (Rect.block (s := S1000000x1x64) S1x1x64.size (cc7_transform_0 k7_off1_inb numel1_S1 pf i) h).WholeWords (EltTy.packing .f32)) ∧
  (∀ i : grid7.Coords, ∃ h : (∀ a, (cc7_transform_1 k7_off1_inb numel1_S1 pf i a + 1) * S1x1x64.size a ≤ S1000000x1x64.size a), EltTy.bits .f32 = 32 ∨ (Rect.block (s := S1000000x1x64) S1x1x64.size (cc7_transform_1 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok.1 i).elim fun h _ => h a | 1 => fun i a => (hok.2 i).elim fun h _ => h a | 2 => hinb7_2 | ⟨_ + 3, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok.1 i).elim fun _ h => h | 1 => fun i => (hok.2 i).elim fun _ h => h | 2 => hwx7_2 | ⟨_ + 3, h⟩ => absurd h (Nat.not_lt.2 (Nat.le_add_left _ _))
abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole

variable [Facts]
-- ==== ReferenceIdeal.lean ====
abbrev S16384 : Shape := ⟨1, ![16384]⟩
abbrev S16384x20 : Shape := ⟨2, ![16384, 20]⟩
abbrev S1000000x64 : Shape := ⟨2, ![1000000, 64]⟩
abbrev S_ : Shape := ⟨0, ![]⟩
abbrev S16384x1 : Shape := ⟨2, ![16384, 1]⟩
abbrev S16384x64 : Shape := ⟨2, ![16384, 64]⟩
abbrev S16384x20x1 : Shape := ⟨3, ![16384, 20, 1]⟩
abbrev S16384x20x64 : Shape := ⟨3, ![16384, 20, 64]⟩

abbrev nBuf : Space → Nat
  | .hbm => 86
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x20, .i32⟩
  | .hbm, ⟨3, _⟩ => ⟨S16384x20, .i32⟩
  | .hbm, ⟨4, _⟩ => ⟨S1000000x64, .f32⟩
  | .hbm, ⟨5, _⟩ => ⟨S1000000x64, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384x64, .f32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S16384x64, .f32⟩
  | .hbm, ⟨24, _⟩ => ⟨S16384x64, .f32⟩
  | .hbm, ⟨25, _⟩ => ⟨S_, .f32⟩
  | .hbm, ⟨26, _⟩ => ⟨S16384, .f32⟩
  | .hbm, ⟨27, _⟩ => ⟨S_, .i32⟩
  | .hbm, ⟨28, _⟩ => ⟨S16384x20, .i32⟩
  | .hbm, ⟨29, _⟩ => ⟨S16384x20, .i1⟩
  | .hbm, ⟨30, _⟩ => ⟨S_, .i32⟩
  | .hbm, ⟨31, _⟩ => ⟨S16384x20, .i32⟩
  | .hbm, ⟨32, _⟩ => ⟨S16384x20, .i32⟩
  | .hbm, ⟨33, _⟩ => ⟨S16384x20, .i32⟩
  | .hbm, ⟨34, _⟩ => ⟨S16384x20x1, .i32⟩
  | .hbm, ⟨35, _⟩ => ⟨S16384x20x64, .f32⟩
  | .hbm, ⟨36, _⟩ => ⟨S_, .i32⟩
  | .hbm, ⟨37, _⟩ => ⟨S16384x20, .i32⟩
  | .hbm, ⟨38, _⟩ => ⟨S16384x20, .i1⟩
  | .hbm, ⟨39, _⟩ => ⟨S_, .i32⟩
  | .hbm, ⟨40, _⟩ => ⟨S16384x20, .i32⟩
  | .hbm, ⟨41, _⟩ => ⟨S16384x20, .i32⟩
  | .hbm, ⟨42, _⟩ => ⟨S16384x20, .i32⟩
  | .hbm, ⟨43, _⟩ => ⟨S16384x20x1, .i32⟩
  | .hbm, ⟨44, _⟩ => ⟨S16384x20x64, .f32⟩
  | .hbm, ⟨45, _⟩ => ⟨S16384x20x64, .f32⟩
  | .hbm, ⟨46, _⟩ => ⟨S_, .f32⟩
  | .hbm, ⟨47, _⟩ => ⟨S16384x20, .f32⟩
  | .hbm, ⟨48, _⟩ => ⟨S16384, .f32⟩
  | .hbm, ⟨49, _⟩ => ⟨S_, .f32⟩
  | .hbm, ⟨50, _⟩ => ⟨S16384, .f32⟩
  | .hbm, ⟨51, _⟩ => ⟨S16384, .f32⟩
  | .hbm, ⟨52, _⟩ => ⟨S16384, .f32⟩
  | .hbm, ⟨53, _⟩ => ⟨S16384, .f32⟩
  | .hbm, ⟨54, _⟩ => ⟨S16384, .i1⟩
  | .hbm, ⟨55, _⟩ => ⟨S16384, .f32⟩
  | .hbm, ⟨56, _⟩ => ⟨S16384, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S16384, .f32⟩
  | .hbm, ⟨63, _⟩ => ⟨S16384, .f32⟩
  | .hbm, ⟨64, _⟩ => ⟨S16384, .f32⟩
  | .hbm, ⟨65, _⟩ => ⟨S16384x20, .f32⟩
  | .hbm, ⟨66, _⟩ => ⟨S_, .f32⟩
  | .hbm, ⟨67, _⟩ => ⟨S16384x20, .f32⟩
  | .hbm, ⟨68, _⟩ => ⟨S16384x20, .f32⟩
  | .hbm, ⟨69, _⟩ => ⟨S16384x20, .f32⟩
  | .hbm, ⟨70, _⟩ => ⟨S16384x20, .f32⟩
  | .hbm, ⟨71, _⟩ => ⟨S16384x20, .i1⟩
  | .hbm, ⟨72, _⟩ => ⟨S16384x20, .f32⟩
  | .hbm, ⟨73, _⟩ => ⟨S16384x20, .f32⟩
  | .hbm, ⟨74, _⟩ => ⟨S16384x20, .f32⟩
  | .hbm, ⟨75, _⟩ => ⟨S16384x20, .f32⟩
  | .hbm, ⟨76, _⟩ => ⟨S16384x20, .f32⟩
  | .hbm, ⟨77, _⟩ => ⟨S16384x20, .f32⟩
  | .hbm, ⟨78, _⟩ => ⟨S16384x20, .f32⟩
  | .hbm, ⟨79, _⟩ => ⟨S16384x20, .f32⟩
  | .hbm, ⟨80, _⟩ => ⟨S16384x20, .f32⟩
  | .hbm, ⟨81, _⟩ => ⟨S_, .f32⟩
  | .hbm, ⟨82, _⟩ => ⟨S16384, .f32⟩
  | .hbm, ⟨83, _⟩ => ⟨S16384, .f32⟩
  | .hbm, ⟨84, _⟩ => ⟨S_, .f32⟩
  | .hbm, ⟨85, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_call0_v0 : Ref sig .tc := ⟨.hbm, 48, rfl⟩
abbrev main_call0_call0_cst : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_call0_v2 : Ref sig .tc := ⟨.hbm, 52, rfl⟩
abbrev main_call0_call0_v3 : Ref sig .tc := ⟨.hbm, 53, rfl⟩
abbrev main_call0_call0_v4 : Ref sig .tc := ⟨.hbm, 54, rfl⟩
abbrev main_call0_call0_v5 : Ref sig .tc := ⟨.hbm, 55, rfl⟩
abbrev main_call0_call0_v6 : Ref sig .tc := ⟨.hbm, 56, rfl⟩
abbrev main_call0_call0_v7 : Ref sig .tc := ⟨.hbm, 57, rfl⟩
abbrev main_call0_call0_v8 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_v1 : Ref sig .tc := ⟨.hbm, 62, rfl⟩
abbrev main_v32 : Ref sig .tc := ⟨.hbm, 63, rfl⟩
abbrev main_v33 : Ref sig .tc := ⟨.hbm, 64, rfl⟩
abbrev main_call1_v0 : Ref sig .tc := ⟨.hbm, 65, rfl⟩
abbrev main_call1_call0_cst : Ref sig .tc := ⟨.hbm, 66, rfl⟩
abbrev main_call1_call0_v0 : Ref sig .tc := ⟨.hbm, 67, rfl⟩
abbrev main_call1_call0_v1 : Ref sig .tc := ⟨.hbm, 68, rfl⟩
abbrev main_call1_call0_v2 : Ref sig .tc := ⟨.hbm, 69, rfl⟩
abbrev main_call1_call0_v3 : Ref sig .tc := ⟨.hbm, 70, rfl⟩
abbrev main_call1_call0_v4 : Ref sig .tc := ⟨.hbm, 71, rfl⟩
abbrev main_call1_call0_v5 : Ref sig .tc := ⟨.hbm, 72, rfl⟩
abbrev main_call1_call0_v6 : Ref sig .tc := ⟨.hbm, 73, rfl⟩
abbrev main_call1_call0_v7 : Ref sig .tc := ⟨.hbm, 74, rfl⟩
abbrev main_call1_call0_v8 : Ref sig .tc := ⟨.hbm, 75, rfl⟩
abbrev main_call1_call0_v9 : Ref sig .tc := ⟨.hbm, 76, rfl⟩
abbrev main_call1_call0_v10 : Ref sig .tc := ⟨.hbm, 77, rfl⟩
abbrev main_call1_call0_v11 : Ref sig .tc := ⟨.hbm, 78, rfl⟩
abbrev main_call1_v1 : Ref sig .tc := ⟨.hbm, 79, rfl⟩
abbrev main_v34 : Ref sig .tc := ⟨.hbm, 80, rfl⟩
abbrev main_cst_8 : Ref sig .tc := ⟨.hbm, 81, rfl⟩
abbrev main_v35 : Ref sig .tc := ⟨.hbm, 82, rfl⟩
abbrev main_v36 : Ref sig .tc := ⟨.hbm, 83, rfl⟩
abbrev main_cst_9 : Ref sig .tc := ⟨.hbm, 84, rfl⟩
abbrev main_v37 : Ref sig .tc := ⟨.hbm, 85, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  reducesTo_S16384x20x64_S16384x20_d2 : S16384x20x64.ReducesTo [2] S16384x20
  reducesTo_S16384x20_S16384_d1 : S16384x20.ReducesTo [1] S16384
  reducesTo_S16384_S_d0 : S16384.ReducesTo [0] S_
  gather_S1000000x64_S16384x1_S16384x64_1_0_n_n_0_1_164_wf : GatherDims.WF S1000000x64 S16384x1 S16384x64 [1] [0] [] [0] [] 1 ![1, 64]
  gather_S1000000x64_S16384x20x1_S16384x20x64_2_0_n_n_0_2_164_wf : GatherDims.WF S1000000x64 S16384x20x1 S16384x20x64 [2] [0] [] [0] [] 2 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S1000000x64_S16384x20x1_S16384x20x64_2_0_n_n_0_2_164 : GatherDims S1000000x64 S16384x20x1 S16384x20x64 where
  offsetDims := [2]
  collapsedSliceDims := [0]
  operandBatchingDims := []
  startIndicesBatchingDims := []
  startIndexMap := [0]
  indexVectorDim := 2
  sliceSizes := ![1, 64]
  wf := gather_S1000000x64_S16384x20x1_S16384x20x64_2_0_n_n_0_2_164_wf

class Facts : Prop extends Facts₀ where

variable [Facts]
-- ==== Proof.AssembleK.lean ====
import proofs.«425429_j48773648614109_2_alg».proof.Proof.ValueCondK
import Idealize.ShloMosaic.Lib.Pipeline.Kit
import Idealize.ShloMosaic.Lib.Pipeline.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-! ## The launch's fixed choices

One copy of the rounds algebra as the whole user component; no pair carries a level and no core owes anything at
launch; between two items a core holds, beside its unscoped buffers, its generator register at some state and
owes nothing. -/

/-- No pair of a semaphore and a duty carries a level. -/
abbrev L₀ : GSem nD τ sig → Finset Unit := fun _ => ∅
/-- The level assignment (read nowhere: `L₀` is empty). -/
abbrev lv₀ : GSem nD τ sig → Unit → ℕ := fun _ _ => 0

/-- What core `c` holds between two items beside its unscoped buffers: its generator register at some state, and
    nothing owed. -/
abbrev Rst (c : Dev nD) : sProp 𝕄 :=
  iprop((∃ r, prngReg c r) ∗ ∃ W, owes (c : Thread nD τ) (0 : CellTallies nD τ sig Unit) W)

variable (m : (ℓ : Loc nD τ sig) → Buf (Elt F) ℓ) (ρ : Dev nD → PrngReg) (outs : Outs (F := F))
variable (a : (p : Fin 8) → (pcfgs (F := F) p).Adm)
variable (pdats : (p : Fin 8) → (c : Dev nD) → Dat τ (Elt F) Unit ℕ (UR sig nD τ) ℕ (Pipeline.pin (pcfgs (F := F)) a p) c)

/-- The launch element: the rounds algebra's initial element at the pinned pipelines' staging cells and launch
    tokens. -/
abbrev u₀ : UR sig nD τ :=
  initOf (Pipeline.cells (Pipeline.pin (pcfgs (F := F)) a) (cellOf_inj a)) (Pipeline.launchToks (Pipeline.pin (pcfgs (F := F)) a) (cellOf_inj a))

/-- Owning the launch element is owning it through the embedding of the whole user component, beside nothing per
    core. -/
theorem hu₀_launch :
    (ownU (u₀ a) : sProp 𝕄) ⊢ |={Set.univ}=> iprop(BI.own ((emb₁ : Emb (URounds (GSem nD τ sig) Unit) 𝕄) (u₀ a)) ∗ bigSep Finset.univ fun _ : Dev nD => (BI.emp : sProp 𝕄)) := by
  rw [ownU_emb₁, BI.bigSep_emp_const]
  iintro H
  imodintro
  isplitl [H]; · iexact H
  iempintro

/-- The first rest state on every core at once: core by core (no state is shared between cores), the register the
    launch deals is the register at some state, and the empty debt is a debt of nothing; the semaphores' zero counters
    and the launch credit are let go. -/
theorem hE0_launch :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L₀ lv₀)
      ⊢ (|={Set.univ}=> bigSep Finset.univ (fun c : Dev nD => Rst (F := F) c) : sProp 𝕄) := by
  refine Pipeline.initEach L₀ lv₀ fun c => ?_
  iintro ⟨⟨-, HO, -, Hp, -⟩, -⟩
  imodintro
  isplitl [Hp]; · iexists _; iexact Hp
  iexists ∅; iexact HO

/-- The last rest state owes nothing. -/
theorem hE8_rest (c : Dev nD) :
    (Rst (F := F) c) ⊢ (iprop(∃ W, owes (c : Thread nD τ) (0 : CellTallies nD τ sig Unit) W) : sProp 𝕄) := by
  iintro ⟨-, H⟩; iexact H

/-! ## The launch, given the regions' records -/

/-- THE FRAME FROM THE REGIONS' RECORDS. At the fixed choices above, for any contents the regions leave (`outs`), any
    admissible tables and any proof data: given per region a segment record entered from the unscoped buffers at the
    valuation before it beside `Rst` and left at the valuation after it beside `Rst`, every weakly fair execution of @main
    from `m` with zero counters terminates and every final memory holds each argument as launched. -/
theorem frame_of_regs
    (R0 : RegionSeg (pcfgs (F := F)) a pdats () defs₀ Variants.none L₀ lv₀ 0)
    (hpre0 : ∀ c : Dev nD, iprop(StableHlo.held (c : Thread nD τ) (Pipeline.ucRefs τ sig) (V1 m c) ∗ Rst c) ⊢ R0.pre c)
    (hpost0 : ∀ c : Dev nD, R0.post c ⊢ iprop(StableHlo.held (c : Thread nD τ) (Pipeline.ucRefs τ sig) (V2 m outs c) ∗ Rst c))
    (R1 : RegionSeg (pcfgs (F := F)) a pdats () defs₀ Variants.none L₀ lv₀ 1)
    (hpre1 : ∀ c : Dev nD, iprop(StableHlo.held (c : Thread nD τ) (Pipeline.ucRefs τ sig) (V3 m outs c) ∗ Rst c) ⊢ R1.pre c)
    (hpost1 : ∀ c : Dev nD, R1.post c ⊢ iprop(StableHlo.held (c : Thread nD τ) (Pipeline.ucRefs τ sig) (V4 m outs c) ∗ Rst c))
    (R2 : RegionSeg (pcfgs (F := F)) a pdats () defs₀ Variants.none L₀ lv₀ 2)
    (hpre2 : ∀ c : Dev nD, iprop(StableHlo.held (c : Thread nD τ) (Pipeline.ucRefs τ sig) (V5 m outs c) ∗ Rst c) ⊢ R2.pre c)
    (hpost2 : ∀ c : Dev nD, R2.post c ⊢ iprop(StableHlo.held (c : Thread nD τ) (Pipeline.ucRefs τ sig) (V6 m outs c) ∗ Rst c))
    (R3 : RegionSeg (pcfgs (F := F)) a pdats () defs₀ Variants.none L₀ lv₀ 3)
    (hpre3 : ∀ c : Dev nD, iprop(StableHlo.held (c : Thread nD τ) (Pipeline.ucRefs τ sig) (V7 m outs c) ∗ Rst c) ⊢ R3.pre c)
    (hpost3 : ∀ c : Dev nD, R3.post c ⊢ iprop(StableHlo.held (c : Thread nD τ) (Pipeline.ucRefs τ sig) (V8 m outs c) ∗ Rst c))
    (R4 : RegionSeg (pcfgs (F := F)) a pdats () defs₀ Variants.none L₀ lv₀ 4)
    (hpre4 : ∀ c : Dev nD, iprop(StableHlo.held (c : Thread nD τ) (Pipeline.ucRefs τ sig) (V9 m outs c) ∗ Rst c) ⊢ R4.pre c)
    (hpost4 : ∀ c : Dev nD, R4.post c ⊢ iprop(StableHlo.held (c : Thread nD τ) (Pipeline.ucRefs τ sig) (V10 m outs c) ∗ Rst c))
    (R5 : RegionSeg (pcfgs (F := F)) a pdats () defs₀ Variants.none L₀ lv₀ 5)
    (hpre5 : ∀ c : Dev nD, iprop(StableHlo.held (c : Thread nD τ) (Pipeline.ucRefs τ sig) (V11 m outs c) ∗ Rst c) ⊢ R5.pre c)
    (hpost5 : ∀ c : Dev nD, R5.post c ⊢ iprop(StableHlo.held (c : Thread nD τ) (Pipeline.ucRefs τ sig) (V12 m outs c) ∗ Rst c))
    (R6 : RegionSeg (pcfgs (F := F)) a pdats () defs₀ Variants.none L₀ lv₀ 6)
    (hpre6 : ∀ c : Dev nD, iprop(StableHlo.held (c : Thread nD τ) (Pipeline.ucRefs τ sig) (V13 m outs c) ∗ Rst c) ⊢ R6.pre c)
    (hpost6 : ∀ c : Dev nD, R6.post c ⊢ iprop(StableHlo.held (c : Thread nD τ) (Pipeline.ucRefs τ sig) (V14 m outs c) ∗ Rst c))
    (R7 : RegionSeg (pcfgs (F := F)) a pdats () defs₀ Variants.none L₀ lv₀ 7)
    (hpre7 : ∀ c : Dev nD, iprop(StableHlo.held (c : Thread nD τ) (Pipeline.ucRefs τ sig) (V15 m outs c) ∗ Rst c) ⊢ R7.pre c)
    (hpost7 : ∀ c : Dev nD, R7.post c ⊢ iprop(StableHlo.held (c : Thread nD τ) (Pipeline.ucRefs τ sig) (V16 m outs c) ∗ Rst c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m (emb₁ : Emb (URounds (GSem nD τ sig) Unit) 𝕄) () Variants.none L₀ lv₀ (fun _ _ => rfl) ρ outs a pdats 0 (fun _ => BI.emp) (u₀ a)
    (hu₀_launch a) (fun _ c => Rst c) (hE0_launch ρ) hE8_rest
    R0 hpre0 hpost0 R1 hpre1 hpost1 R2 hpre2 hpost2 R3 hpre3 hpost3 R4 hpre4 hpost4 R5 hpre5 hpost5 R6 hpre6 hpost6 R7 hpre7 hpost7

/-- THE VALUE FROM THE REGIONS' RECORDS: the same, and every final memory holds in the result buffer `main_v63` what
    the last valuation says. -/
theorem value_of_regs
    (R0 : RegionSeg (pcfgs (F := F)) a pdats () defs₀ Variants.none L₀ lv₀ 0)
    (hpre0 : ∀ c : Dev nD, iprop(StableHlo.held (c : Thread nD τ) (Pipeline.ucRefs τ sig) (V1 m c) ∗ Rst c) ⊢ R0.pre c)
    (hpost0 : ∀ c : Dev nD, R0.post c ⊢ iprop(StableHlo.held (c : Thread nD τ) (Pipeline.ucRefs τ sig) (V2 m outs c) ∗ Rst c))
    (R1 : RegionSeg (pcfgs (F := F)) a pdats () defs₀ Variants.none L₀ lv₀ 1)
    (hpre1 : ∀ c : Dev nD, iprop(StableHlo.held (c : Thread nD τ) (Pipeline.ucRefs τ sig) (V3 m outs c) ∗ Rst c) ⊢ R1.pre c)
    (hpost1 : ∀ c : Dev nD, R1.post c ⊢ iprop(StableHlo.held (c : Thread nD τ) (Pipeline.ucRefs τ sig) (V4 m outs c) ∗ Rst c))
    (R2 : RegionSeg (pcfgs (F := F)) a pdats () defs₀ Variants.none L₀ lv₀ 2)
    (hpre2 : ∀ c : Dev nD, iprop(StableHlo.held (c : Thread nD τ) (Pipeline.ucRefs τ sig) (V5 m outs c) ∗ Rst c) ⊢ R2.pre c)
    (hpost2 : ∀ c : Dev nD, R2.post c ⊢ iprop(StableHlo.held (c : Thread nD τ) (Pipeline.ucRefs τ sig) (V6 m outs c) ∗ Rst c))
    (R3 : RegionSeg (pcfgs (F := F)) a pdats () defs₀ Variants.none L₀ lv₀ 3)
    (hpre3 : ∀ c : Dev nD, iprop(StableHlo.held (c : Thread nD τ) (Pipeline.ucRefs τ sig) (V7 m outs c) ∗ Rst c) ⊢ R3.pre c)
    (hpost3 : ∀ c : Dev nD, R3.post c ⊢ iprop(StableHlo.held (c : Thread nD τ) (Pipeline.ucRefs τ sig) (V8 m outs c) ∗ Rst c))
    (R4 : RegionSeg (pcfgs (F := F)) a pdats () defs₀ Variants.none L₀ lv₀ 4)
    (hpre4 : ∀ c : Dev nD, iprop(StableHlo.held (c : Thread nD τ) (Pipeline.ucRefs τ sig) (V9 m outs c) ∗ Rst c) ⊢ R4.pre c)
    (hpost4 : ∀ c : Dev nD, R4.post c ⊢ iprop(StableHlo.held (c : Thread nD τ) (Pipeline.ucRefs τ sig) (V10 m outs c) ∗ Rst c))
    (R5 : RegionSeg (pcfgs (F := F)) a pdats () defs₀ Variants.none L₀ lv₀ 5)
    (hpre5 : ∀ c : Dev nD, iprop(StableHlo.held (c : Thread nD τ) (Pipeline.ucRefs τ sig) (V11 m outs c) ∗ Rst c) ⊢ R5.pre c)
    (hpost5 : ∀ c : Dev nD, R5.post c ⊢ iprop(StableHlo.held (c : Thread nD τ) (Pipeline.ucRefs τ sig) (V12 m outs c) ∗ Rst c))
    (R6 : RegionSeg (pcfgs (F := F)) a pdats () defs₀ Variants.none L₀ lv₀ 6)
    (hpre6 : ∀ c : Dev nD, iprop(StableHlo.held (c : Thread nD τ) (Pipeline.ucRefs τ sig) (V13 m outs c) ∗ Rst c) ⊢ R6.pre c)
    (hpost6 : ∀ c : Dev nD, R6.post c ⊢ iprop(StableHlo.held (c : Thread nD τ) (Pipeline.ucRefs τ sig) (V14 m outs c) ∗ Rst c))
    (R7 : RegionSeg (pcfgs (F := F)) a pdats () defs₀ Variants.none L₀ lv₀ 7)
    (hpre7 : ∀ c : Dev nD, iprop(StableHlo.held (c : Thread nD τ) (Pipeline.ucRefs τ sig) (V15 m outs c) ∗ Rst c) ⊢ R7.pre c)
    (hpost7 : ∀ c : Dev nD, R7.post c ⊢ iprop(StableHlo.held (c : Thread nD τ) (Pipeline.ucRefs τ sig) (V16 m outs c) ∗ Rst c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v63) = V17 m outs c main_v63) :=
  value_cond m (emb₁ : Emb (URounds (GSem nD τ sig) Unit) 𝕄) () Variants.none L₀ lv₀ (fun _ _ => rfl) ρ outs a pdats 0 (fun _ => BI.emp) (u₀ a)
    (hu₀_launch a) (fun _ c => Rst c) (hE0_launch ρ) hE8_rest
    R0 hpre0 hpost0 R1 hpre1 hpost1 R2 hpre2 hpost2 R3 hpre3 hpost3 R4 hpre4 hpost4 R5 hpre5 hpost5 R6 hpre6 hpost6 R7 hpre7 hpost7

/-! ## The regions' outputs as one family

The valuations read the family `outs` at eight points only: item `2K+2` at region `K`'s output array. Here the family is
built from the eight buffers themselves; anywhere else (read by no valuation) it is the launch contents. -/

section OutsOf

variable (m : (ℓ : Loc nD τ sig) → Buf (Elt F) ℓ)

/-- The family that is `oK` at region `K`'s reading point, the launch contents elsewhere. -/
def outsOf
    (o0 : (c : Dev nD) → Buf (Elt F) ((c : Thread nD τ).loc main_v12))
    (o1 : (c : Dev nD) → Buf (Elt F) ((c : Thread nD τ).loc main_v19))
    (o2 : (c : Dev nD) → Buf (Elt F) ((c : Thread nD τ).loc main_v26))
    (o3 : (c : Dev nD) → Buf (Elt F) ((c : Thread nD τ).loc main_v33))
    (o4 : (c : Dev nD) → Buf (Elt F) ((c : Thread nD τ).loc main_v40))
    (o5 : (c : Dev nD) → Buf (Elt F) ((c : Thread nD τ).loc main_v47))
    (o6 : (c : Dev nD) → Buf (Elt F) ((c : Thread nD τ).loc main_v54))
    (o7 : (c : Dev nD) → Buf (Elt F) ((c : Thread nD τ).loc main_v61)) : Outs (F := F) :=
  fun J r c =>
    if h0 : J = 2 ∧ r = main_v12 then h0.2 ▸ o0 c
    else if h1 : J = 4 ∧ r = main_v19 then h1.2 ▸ o1 c
    else if h2 : J = 6 ∧ r = main_v26 then h2.2 ▸ o2 c
    else if h3 : J = 8 ∧ r = main_v33 then h3.2 ▸ o3 c
    else if h4 : J = 10 ∧ r = main_v40 then h4.2 ▸ o4 c
    else if h5 : J = 12 ∧ r = main_v47 then h5.2 ▸ o5 c
    else if h6 : J = 14 ∧ r = main_v54 then h6.2 ▸ o6 c
    else if h7 : J = 16 ∧ r = main_v61 then h7.2 ▸ o7 c
    else m ((c : Thread nD τ).loc r)

variable
    (o0 : (c : Dev nD) → Buf (Elt F) ((c : Thread nD τ).loc main_v12))
    (o1 : (c : Dev nD) → Buf (Elt F) ((c : Thread nD τ).loc main_v19))
    (o2 : (c : Dev nD) → Buf (Elt F) ((c : Thread nD τ).loc main_v26))
    (o3 : (c : Dev nD) → Buf (Elt F) ((c : Thread nD τ).loc main_v33))
    (o4 : (c : Dev nD) → Buf (Elt F) ((c : Thread nD τ).loc main_v40))
    (o5 : (c : Dev nD) → Buf (Elt F) ((c : Thread nD τ).loc main_v47))
    (o6 : (c : Dev nD) → Buf (Elt F) ((c : Thread nD τ).loc main_v54))
    (o7 : (c : Dev nD) → Buf (Elt F) ((c : Thread nD τ).loc main_v61))

/-- Item 2 reads region 0's buffer. -/
theorem outsOf_0 (c : Dev nD) : outsOf m o0 o1 o2 o3 o4 o5 o6 o7 2 main_v12 c = o0 c := by
  unfold outsOf; rw [dif_pos ⟨rfl, rfl⟩]
/-- Item 4 reads region 1's buffer. -/
theorem outsOf_1 (c : Dev nD) : outsOf m o0 o1 o2 o3 o4 o5 o6 o7 4 main_v19 c = o1 c := by
  unfold outsOf; rw [dif_neg (by decide), dif_pos ⟨rfl, rfl⟩]
/-- Item 6 reads region 2's buffer. -/
theorem outsOf_2 (c : Dev nD) : outsOf m o0 o1 o2 o3 o4 o5 o6 o7 6 main_v26 c = o2 c := by
  unfold outsOf; rw [dif_neg (by decide), dif_neg (by decide), dif_pos ⟨rfl, rfl⟩]
/-- Item 8 reads region 3's buffer. -/
theorem outsOf_3 (c : Dev nD) : outsOf m o0 o1 o2 o3 o4 o5 o6 o7 8 main_v33 c = o3 c := by
  unfold outsOf; rw [dif_neg (by decide), dif_neg (by decide), dif_neg (by decide), dif_pos ⟨rfl, rfl⟩]
/-- Item 10 reads region 4's buffer. -/
theorem outsOf_4 (c : Dev nD) : outsOf m o0 o1 o2 o3 o4 o5 o6 o7 10 main_v40 c = o4 c := by
  unfold outsOf; rw [dif_neg (by decide), dif_neg (by decide), dif_neg (by decide), dif_neg (by decide), dif_pos ⟨rfl, rfl⟩]
/-- Item 12 reads region 5's buffer. -/
theorem outsOf_5 (c : Dev nD) : outsOf m o0 o1 o2 o3 o4 o5 o6 o7 12 main_v47 c = o5 c := by
  unfold outsOf; rw [dif_neg (by decide), dif_neg (by decide), dif_neg (by decide), dif_neg (by decide), dif_neg (by decide), dif_pos ⟨rfl, rfl⟩]
/-- Item 14 reads region 6's buffer. -/
theorem outsOf_6 (c : Dev nD) : outsOf m o0 o1 o2 o3 o4 o5 o6 o7 14 main_v54 c = o6 c := by
  unfold outsOf; rw [dif_neg (by decide), dif_neg (by decide), dif_neg (by decide), dif_neg (by decide), dif_neg (by decide), dif_neg (by decide), dif_pos ⟨rfl, rfl⟩]
/-- Item 16 reads region 7's buffer. -/
theorem outsOf_7 (c : Dev nD) : outsOf m o0 o1 o2 o3 o4 o5 o6 o7 16 main_v61 c = o7 c := by
  unfold outsOf; rw [dif_neg (by decide), dif_neg (by decide), dif_neg (by decide), dif_neg (by decide), dif_neg (by decide), dif_neg (by decide), dif_neg (by decide), dif_pos ⟨rfl, rfl⟩]

end OutsOf

/-! ## The valuations over the buffers themselves

Each valuation reads the family only at the reading points of the regions before it: restated here over those regions'
buffers alone, so that region `K`'s buffer can be DEFINED from the valuation at its entry (which mentions
`o0 … o(K-1)` only) before the family exists. -/

section Staged

variable (m : (ℓ : Loc nD τ sig) → Buf (Elt F) ℓ)

/-- `V2` over the buffers of regions 0 … 0. -/
abbrev Vo2 (o0 : (c : Dev nD) → Buf (Elt F) ((c : Thread nD τ).loc main_v12)) (c : Dev nD) : Valuation τ sig (Elt F) :=
  Function.update (V1 m c) main_v12 (o0 c)
/-- `V3` over the buffers of regions 0 … 0. -/
abbrev Vo3 (o0 : (c : Dev nD) → Buf (Elt F) ((c : Thread nD τ).loc main_v12)) (c : Dev nD) : Valuation τ sig (Elt F) :=
  StableHlo.after hostOps1 (Vo2 m o0 c)
/-- `V4` over the buffers of regions 0 … 1. -/
abbrev Vo4 (o0 : (c : Dev nD) → Buf (Elt F) ((c : Thread nD τ).loc main_v12)) (o1 : (c : Dev nD) → Buf (Elt F) ((c : Thread nD τ).loc main_v19)) (c : Dev nD) : Valuation τ sig (Elt F) :=
  Function.update (Vo3 m o0 c) main_v19 (o1 c)
/-- `V5` over the buffers of regions 0 … 1. -/
abbrev Vo5 (o0 : (c : Dev nD) → Buf (Elt F) ((c : Thread nD τ).loc main_v12)) (o1 : (c : Dev nD) → Buf (Elt F) ((c : Thread nD τ).loc main_v19)) (c : Dev nD) : Valuation τ sig (Elt F) :=
  StableHlo.after hostOps2 (Vo4 m o0 o1 c)
/-- `V6` over the buffers of regions 0 … 2. -/
abbrev Vo6 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (c : Dev nD) : Valuation τ sig (Elt F) :=
  Function.update (Vo5 m o0 o1 c) main_v26 (o2 c)
/-- `V7` over the buffers of regions 0 … 2. -/
abbrev Vo7 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (c : Dev nD) : Valuation τ sig (Elt F) :=
  StableHlo.after hostOps3 (Vo6 m o0 o1 o2 c)
/-- `V8` over the buffers of regions 0 … 3. -/
abbrev Vo8 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (c : Dev nD) : Valuation τ sig (Elt F) :=
  Function.update (Vo7 m o0 o1 o2 c) main_v33 (o3 c)
/-- `V9` over the buffers of regions 0 … 3. -/
abbrev Vo9 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (c : Dev nD) : Valuation τ sig (Elt F) :=
  StableHlo.after hostOps4 (Vo8 m o0 o1 o2 o3 c)
/-- `V10` over the buffers of regions 0 … 4. -/
abbrev Vo10 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (c : Dev nD) : Valuation τ sig (Elt F) :=
  Function.update (Vo9 m o0 o1 o2 o3 c) main_v40 (o4 c)
/-- `V11` over the buffers of regions 0 … 4. -/
abbrev Vo11 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (c : Dev nD) : Valuation τ sig (Elt F) :=
  StableHlo.after hostOps5 (Vo10 m o0 o1 o2 o3 o4 c)
/-- `V12` over the buffers of regions 0 … 5. -/
abbrev Vo12 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (c : Dev nD) : Valuation τ sig (Elt F) :=
  Function.update (Vo11 m o0 o1 o2 o3 o4 c) main_v47 (o5 c)
/-- `V13` over the buffers of regions 0 … 5. -/
abbrev Vo13 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (c : Dev nD) : Valuation τ sig (Elt F) :=
  StableHlo.after hostOps6 (Vo12 m o0 o1 o2 o3 o4 o5 c)
/-- `V14` over the buffers of regions 0 … 6. -/
abbrev Vo14 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (o6 : (c : Dev nD) → Buf (Elt F) ((c : Thread nD τ).loc main_v54)) (c : Dev nD) : Valuation τ sig (Elt F) :=
  Function.update (Vo13 m o0 o1 o2 o3 o4 o5 c) main_v54 (o6 c)
/-- `V15` over the buffers of regions 0 … 6. -/
abbrev Vo15 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (o6 : (c : Dev nD) → Buf (Elt F) ((c : Thread nD τ).loc main_v54)) (c : Dev nD) : Valuation τ sig (Elt F) :=
  StableHlo.after hostOps7 (Vo14 m o0 o1 o2 o3 o4 o5 o6 c)
/-- `V16` over the buffers of regions 0 … 7. -/
abbrev Vo16 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (o6 : (c : Dev nD) → Buf (Elt F) ((c : Thread nD τ).loc main_v54)) (o7 : (c : Dev nD) → Buf (Elt F) ((c : Thread nD τ).loc main_v61)) (c : Dev nD) : Valuation τ sig (Elt F) :=
  Function.update (Vo15 m o0 o1 o2 o3 o4 o5 o6 c) main_v61 (o7 c)
/-- `V17` over the buffers of regions 0 … 7. -/
abbrev Vo17 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (o6 : (c : Dev nD) → Buf (Elt F) ((c : Thread nD τ).loc main_v54)) (o7 : (c : Dev nD) → Buf (Elt F) ((c : Thread nD τ).loc main_v61)) (c : Dev nD) : Valuation τ sig (Elt F) :=
  StableHlo.after hostOps8 (Vo16 m o0 o1 o2 o3 o4 o5 o6 o7 c)

variable
    (o0 : (c : Dev nD) → Buf (Elt F) ((c : Thread nD τ).loc main_v12))
    (o1 : (c : Dev nD) → Buf (Elt F) ((c : Thread nD τ).loc main_v19))
    (o2 : (c : Dev nD) → Buf (Elt F) ((c : Thread nD τ).loc main_v26))
    (o3 : (c : Dev nD) → Buf (Elt F) ((c : Thread nD τ).loc main_v33))
    (o4 : (c : Dev nD) → Buf (Elt F) ((c : Thread nD τ).loc main_v40))
    (o5 : (c : Dev nD) → Buf (Elt F) ((c : Thread nD τ).loc main_v47))
    (o6 : (c : Dev nD) → Buf (Elt F) ((c : Thread nD τ).loc main_v54))
    (o7 : (c : Dev nD) → Buf (Elt F) ((c : Thread nD τ).loc main_v61))

theorem V2_outsOf (c : Dev nD) : V2 m (outsOf m o0 o1 o2 o3 o4 o5 o6 o7) c = Vo2 m o0 c := by
  unfold V2; rw [outsOf_0]
theorem V3_outsOf (c : Dev nD) : V3 m (outsOf m o0 o1 o2 o3 o4 o5 o6 o7) c = Vo3 m o0 c := by
  unfold V3; rw [V2_outsOf]
theorem V4_outsOf (c : Dev nD) : V4 m (outsOf m o0 o1 o2 o3 o4 o5 o6 o7) c = Vo4 m o0 o1 c := by
  unfold V4; rw [V3_outsOf, outsOf_1]
theorem V5_outsOf (c : Dev nD) : V5 m (outsOf m o0 o1 o2 o3 o4 o5 o6 o7) c = Vo5 m o0 o1 c := by
  unfold V5; rw [V4_outsOf]
theorem V6_outsOf (c : Dev nD) : V6 m (outsOf m o0 o1 o2 o3 o4 o5 o6 o7) c = Vo6 m o0 o1 o2 c := by
  unfold V6; rw [V5_outsOf, outsOf_2]
theorem V7_outsOf (c : Dev nD) : V7 m (outsOf m o0 o1 o2 o3 o4 o5 o6 o7) c = Vo7 m o0 o1 o2 c := by
  unfold V7; rw [V6_outsOf]
theorem V8_outsOf (c : Dev nD) : V8 m (outsOf m o0 o1 o2 o3 o4 o5 o6 o7) c = Vo8 m o0 o1 o2 o3 c := by
  unfold V8; rw [V7_outsOf, outsOf_3]
theorem V9_outsOf (c : Dev nD) : V9 m (outsOf m o0 o1 o2 o3 o4 o5 o6 o7) c = Vo9 m o0 o1 o2 o3 c := by
  unfold V9; rw [V8_outsOf]
theorem V10_outsOf (c : Dev nD) : V10 m (outsOf m o0 o1 o2 o3 o4 o5 o6 o7) c = Vo10 m o0 o1 o2 o3 o4 c := by
  unfold V10; rw [V9_outsOf, outsOf_4]
theorem V11_outsOf (c : Dev nD) : V11 m (outsOf m o0 o1 o2 o3 o4 o5 o6 o7) c = Vo11 m o0 o1 o2 o3 o4 c := by
  unfold V11; rw [V10_outsOf]
theorem V12_outsOf (c : Dev nD) : V12 m (outsOf m o0 o1 o2 o3 o4 o5 o6 o7) c = Vo12 m o0 o1 o2 o3 o4 o5 c := by
  unfold V12; rw [V11_outsOf, outsOf_5]
theorem V13_outsOf (c : Dev nD) : V13 m (outsOf m o0 o1 o2 o3 o4 o5 o6 o7) c = Vo13 m o0 o1 o2 o3 o4 o5 c := by
  unfold V13; rw [V12_outsOf]
theorem V14_outsOf (c : Dev nD) : V14 m (outsOf m o0 o1 o2 o3 o4 o5 o6 o7) c = Vo14 m o0 o1 o2 o3 o4 o5 o6 c := by
  unfold V14; rw [V13_outsOf, outsOf_6]
theorem V15_outsOf (c : Dev nD) : V15 m (outsOf m o0 o1 o2 o3 o4 o5 o6 o7) c = Vo15 m o0 o1 o2 o3 o4 o5 o6 c := by
  unfold V15; rw [V14_outsOf]
theorem V16_outsOf (c : Dev nD) : V16 m (outsOf m o0 o1 o2 o3 o4 o5 o6 o7) c = Vo16 m o0 o1 o2 o3 o4 o5 o6 o7 c := by
  unfold V16; rw [V15_outsOf, outsOf_7]
theorem V17_outsOf (c : Dev nD) : V17 m (outsOf m o0 o1 o2 o3 o4 o5 o6 o7) c = Vo17 m o0 o1 o2 o3 o4 o5 o6 o7 c := by
  unfold V17; rw [V16_outsOf]

end Staged

/-! ## Each region's buffer as a function of the valuation at its entry

Region `K` leaves in its output array something determined by the unscoped buffers as it finds them, `V(2K+1)`. Given
those eight functions, the family is built region by region, and it reads at each point as the function says of the
valuation OF THE FAMILY ITSELF at that region's entry. -/

section OutsFrom

variable (m : (ℓ : Loc nD τ sig) → Buf (Elt F) ℓ)

/-- Region 0's buffer: `f0` of the valuation at its entry, over the earlier regions' buffers. -/
abbrev po0 (f0 : (c : Dev nD) → Valuation τ sig (Elt F) → Buf (Elt F) ((c : Thread nD τ).loc main_v12)) (c : Dev nD) : Buf (Elt F) ((c : Thread nD τ).loc main_v12) :=
  f0 c (V1 m c)
/-- Region 1's buffer: `f1` of the valuation at its entry, over the earlier regions' buffers. -/
abbrev po1 (f0 : (c : Dev nD) → Valuation τ sig (Elt F) → Buf (Elt F) ((c : Thread nD τ).loc main_v12)) (f1 : (c : Dev nD) → Valuation τ sig (Elt F) → Buf (Elt F) ((c : Thread nD τ).loc main_v19)) (c : Dev nD) : Buf (Elt F) ((c : Thread nD τ).loc main_v19) :=
  f1 c (Vo3 m (po0 m f0) c)
/-- Region 2's buffer: `f2` of the valuation at its entry, over the earlier regions' buffers. -/
abbrev po2 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (c : Dev nD) : Buf (Elt F) ((c : Thread nD τ).loc main_v26) :=
  f2 c (Vo5 m (po0 m f0) (po1 m f0 f1) c)
/-- Region 3's buffer: `f3` of the valuation at its entry, over the earlier regions' buffers. -/
abbrev po3 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (f3 : (c : Dev nD) → Valuation τ sig (Elt F) → Buf (Elt F) ((c : Thread nD τ).loc main_v33)) (c : Dev nD) : Buf (Elt F) ((c : Thread nD τ).loc main_v33) :=
  f3 c (Vo7 m (po0 m f0) (po1 m f0 f1) (po2 m f0 f1 f2) c)
/-- Region 4's buffer: `f4` of the valuation at its entry, over the earlier regions' buffers. -/
abbrev po4 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (f3 : (c : Dev nD) → Valuation τ sig (Elt F) → Buf (Elt F) ((c : Thread nD τ).loc main_v33)) (f4 : (c : Dev nD) → Valuation τ sig (Elt F) → Buf (Elt F) ((c : Thread nD τ).loc main_v40)) (c : Dev nD) : Buf (Elt F) ((c : Thread nD τ).loc main_v40) :=
  f4 c (Vo9 m (po0 m f0) (po1 m f0 f1) (po2 m f0 f1 f2) (po3 m f0 f1 f2 f3) c)
/-- Region 5's buffer: `f5` of the valuation at its entry, over the earlier regions' buffers. -/
abbrev po5 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (f3 : (c : Dev nD) → Valuation τ sig (Elt F) → Buf (Elt F) ((c : Thread nD τ).loc main_v33)) (f4 : (c : Dev nD) → Valuation τ sig (Elt F) → Buf (Elt F) ((c : Thread nD τ).loc main_v40)) (f5 : (c : Dev nD) → Valuation τ sig (Elt F) → Buf (Elt F) ((c : Thread nD τ).loc main_v47)) (c : Dev nD) : Buf (Elt F) ((c : Thread nD τ).loc main_v47) :=
  f5 c (Vo11 m (po0 m f0) (po1 m f0 f1) (po2 m f0 f1 f2) (po3 m f0 f1 f2 f3) (po4 m f0 f1 f2 f3 f4) c)
/-- Region 6's buffer: `f6` of the valuation at its entry, over the earlier regions' buffers. -/
abbrev po6 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (f3 : (c : Dev nD) → Valuation τ sig (Elt F) → Buf (Elt F) ((c : Thread nD τ).loc main_v33)) (f4 : (c : Dev nD) → Valuation τ sig (Elt F) → Buf (Elt F) ((c : Thread nD τ).loc main_v40)) (f5 : (c : Dev nD) → Valuation τ sig (Elt F) → Buf (Elt F) ((c : Thread nD τ).loc main_v47)) (f6 : (c : Dev nD) → Valuation τ sig (Elt F) → Buf (Elt F) ((c : Thread nD τ).loc main_v54)) (c : Dev nD) : Buf (Elt F) ((c : Thread nD τ).loc main_v54) :=
  f6 c (Vo13 m (po0 m f0) (po1 m f0 f1) (po2 m f0 f1 f2) (po3 m f0 f1 f2 f3) (po4 m f0 f1 f2 f3 f4) (po5 m f0 f1 f2 f3 f4 f5) c)
/-- Region 7's buffer: `f7` of the valuation at its entry, over the earlier regions' buffers. -/
abbrev po7 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (f3 : (c : Dev nD) → Valuation τ sig (Elt F) → Buf (Elt F) ((c : Thread nD τ).loc main_v33)) (f4 : (c : Dev nD) → Valuation τ sig (Elt F) → Buf (Elt F) ((c : Thread nD τ).loc main_v40)) (f5 : (c : Dev nD) → Valuation τ sig (Elt F) → Buf (Elt F) ((c : Thread nD τ).loc main_v47)) (f6 : (c : Dev nD) → Valuation τ sig (Elt F) → Buf (Elt F) ((c : Thread nD τ).loc main_v54)) (f7 : (c : Dev nD) → Valuation τ sig (Elt F) → Buf (Elt F) ((c : Thread nD τ).loc main_v61)) (c : Dev nD) : Buf (Elt F) ((c : Thread nD τ).loc main_v61) :=
  f7 c (Vo15 m (po0 m f0) (po1 m f0 f1) (po2 m f0 f1 f2) (po3 m f0 f1 f2 f3) (po4 m f0 f1 f2 f3 f4) (po5 m f0 f1 f2 f3 f4 f5) (po6 m f0 f1 f2 f3 f4 f5 f6) c)

variable
    (f0 : (c : Dev nD) → Valuation τ sig (Elt F) → Buf (Elt F) ((c : Thread nD τ).loc main_v12))
    (f1 : (c : Dev nD) → Valuation τ sig (Elt F) → Buf (Elt F) ((c : Thread nD τ).loc main_v19))
    (f2 : (c : Dev nD) → Valuation τ sig (Elt F) → Buf (Elt F) ((c : Thread nD τ).loc main_v26))
    (f3 : (c : Dev nD) → Valuation τ sig (Elt F) → Buf (Elt F) ((c : Thread nD τ).loc main_v33))
    (f4 : (c : Dev nD) → Valuation τ sig (Elt F) → Buf (Elt F) ((c : Thread nD τ).loc main_v40))
    (f5 : (c : Dev nD) → Valuation τ sig (Elt F) → Buf (Elt F) ((c : Thread nD τ).loc main_v47))
    (f6 : (c : Dev nD) → Valuation τ sig (Elt F) → Buf (Elt F) ((c : Thread nD τ).loc main_v54))
    (f7 : (c : Dev nD) → Valuation τ sig (Elt F) → Buf (Elt F) ((c : Thread nD τ).loc main_v61))

/-- The family of the eight regions' buffers, each `fK` of the valuation at region `K`'s entry. -/
def outsFrom : Outs (F := F) := outsOf m (po0 m f0) (po1 m f0 f1) (po2 m f0 f1 f2) (po3 m f0 f1 f2 f3) (po4 m f0 f1 f2 f3 f4) (po5 m f0 f1 f2 f3 f4 f5) (po6 m f0 f1 f2 f3 f4 f5 f6) (po7 m f0 f1 f2 f3 f4 f5 f6 f7)

/-- Item 2 reads `f0` of the family's own valuation at region 0's entry. -/
theorem outsFrom_0 (c : Dev nD) : outsFrom m f0 f1 f2 f3 f4 f5 f6 f7 2 main_v12 c = f0 c (V1 m c) := by
  unfold outsFrom; rw [outsOf_0]
/-- Item 4 reads `f1` of the family's own valuation at region 1's entry. -/
theorem outsFrom_1 (c : Dev nD) : outsFrom m f0 f1 f2 f3 f4 f5 f6 f7 4 main_v19 c = f1 c (V3 m (outsFrom m f0 f1 f2 f3 f4 f5 f6 f7) c) := by
  unfold outsFrom; rw [outsOf_1, V3_outsOf]
/-- Item 6 reads `f2` of the family's own valuation at region 2's entry. -/
theorem outsFrom_2 (c : Dev nD) : outsFrom m f0 f1 f2 f3 f4 f5 f6 f7 6 main_v26 c = f2 c (V5 m (outsFrom m f0 f1 f2 f3 f4 f5 f6 f7) c) := by
  unfold outsFrom; rw [outsOf_2, V5_outsOf]
/-- Item 8 reads `f3` of the family's own valuation at region 3's entry. -/
theorem outsFrom_3 (c : Dev nD) : outsFrom m f0 f1 f2 f3 f4 f5 f6 f7 8 main_v33 c = f3 c (V7 m (outsFrom m f0 f1 f2 f3 f4 f5 f6 f7) c) := by
  unfold outsFrom; rw [outsOf_3, V7_outsOf]
/-- Item 10 reads `f4` of the family's own valuation at region 4's entry. -/
theorem outsFrom_4 (c : Dev nD) : outsFrom m f0 f1 f2 f3 f4 f5 f6 f7 10 main_v40 c = f4 c (V9 m (outsFrom m f0 f1 f2 f3 f4 f5 f6 f7) c) := by
  unfold outsFrom; rw [outsOf_4, V9_outsOf]
/-- Item 12 reads `f5` of the family's own valuation at region 5's entry. -/
theorem outsFrom_5 (c : Dev nD) : outsFrom m f0 f1 f2 f3 f4 f5 f6 f7 12 main_v47 c = f5 c (V11 m (outsFrom m f0 f1 f2 f3 f4 f5 f6 f7) c) := by
  unfold outsFrom; rw [outsOf_5, V11_outsOf]
/-- Item 14 reads `f6` of the family's own valuation at region 6's entry. -/
theorem outsFrom_6 (c : Dev nD) : outsFrom m f0 f1 f2 f3 f4 f5 f6 f7 14 main_v54 c = f6 c (V13 m (outsFrom m f0 f1 f2 f3 f4 f5 f6 f7) c) := by
  unfold outsFrom; rw [outsOf_6, V13_outsOf]
/-- Item 16 reads `f7` of the family's own valuation at region 7's entry. -/
theorem outsFrom_7 (c : Dev nD) : outsFrom m f0 f1 f2 f3 f4 f5 f6 f7 16 main_v61 c = f7 c (V15 m (outsFrom m f0 f1 f2 f3 f4 f5 f6 f7) c) := by
  unfold outsFrom; rw [outsOf_7, V15_outsOf]

end OutsFrom

end Cert.Kernel.Gen

end
-- ==== Proof.TieK.lean ====
import proofs.«425429_j48773648614109_2_alg».proof.Proof.RegionsK

noncomputable section

namespace Cert.Kernel.Gen

open Idealize.ShloMosaic Idealize.ShloMosaic.TcCoe

variable {F : FTy → Type} [FloatOps F]

variable (m : (ℓ : Loc nD τ sig) → Buf (Elt F) ℓ) (outs : Outs (F := F))

/-! ## What a region leaves alone

Region `K` may change its output window's array only; that array is one of its windows' arrays, so every unscoped
buffer that is no window's array of region `K` holds after the region what it held before. -/

/-- Outside region 0's arrays nothing changes across it. -/
theorem hrest0 (c : Dev nD) : ∀ b, b ∉ Finset.univ.image (Pipeline.arrRef spec0) → V2 m outs c b = V1 m c b :=
  fun b hb => V2_of m outs c b fun h => hb (by
    rw [List.mem_singleton.mp h]; exact Finset.mem_image.mpr ⟨2, Finset.mem_univ _, rfl⟩)
/-- Outside region 1's arrays nothing changes across it. -/
theorem hrest1 (c : Dev nD) : ∀ b, b ∉ Finset.univ.image (Pipeline.arrRef spec1) → V4 m outs c b = V3 m outs c b :=
  fun b hb => V4_of m outs c b fun h => hb (by
    rw [List.mem_singleton.mp h]; exact Finset.mem_image.mpr ⟨2, Finset.mem_univ _, rfl⟩)
/-- Outside region 2's arrays nothing changes across it. -/
theorem hrest2 (c : Dev nD) : ∀ b, b ∉ Finset.univ.image (Pipeline.arrRef spec2) → V6 m outs c b = V5 m outs c b :=
  fun b hb => V6_of m outs c b fun h => hb (by
    rw [List.mem_singleton.mp h]; exact Finset.mem_image.mpr ⟨2, Finset.mem_univ _, rfl⟩)
/-- Outside region 3's arrays nothing changes across it. -/
theorem hrest3 (c : Dev nD) : ∀ b, b ∉ Finset.univ.image (Pipeline.arrRef spec3) → V8 m outs c b = V7 m outs c b :=
  fun b hb => V8_of m outs c b fun h => hb (by
    rw [List.mem_singleton.mp h]; exact Finset.mem_image.mpr ⟨2, Finset.mem_univ _, rfl⟩)
/-- Outside region 4's arrays nothing changes across it. -/
theorem hrest4 (c : Dev nD) : ∀ b, b ∉ Finset.univ.image (Pipeline.arrRef spec4) → V10 m outs c b = V9 m outs c b :=
  fun b hb => V10_of m outs c b fun h => hb (by
    rw [List.mem_singleton.mp h]; exact Finset.mem_image.mpr ⟨2, Finset.mem_univ _, rfl⟩)
/-- Outside region 5's arrays nothing changes across it. -/
theorem hrest5 (c : Dev nD) : ∀ b, b ∉ Finset.univ.image (Pipeline.arrRef spec5) → V12 m outs c b = V11 m outs c b :=
  fun b hb => V12_of m outs c b fun h => hb (by
    rw [List.mem_singleton.mp h]; exact Finset.mem_image.mpr ⟨2, Finset.mem_univ _, rfl⟩)
/-- Outside region 6's arrays nothing changes across it. -/
theorem hrest6 (c : Dev nD) : ∀ b, b ∉ Finset.univ.image (Pipeline.arrRef spec6) → V14 m outs c b = V13 m outs c b :=
  fun b hb => V14_of m outs c b fun h => hb (by
    rw [List.mem_singleton.mp h]; exact Finset.mem_image.mpr ⟨2, Finset.mem_univ _, rfl⟩)
/-- Outside region 7's arrays nothing changes across it. -/
theorem hrest7 (c : Dev nD) : ∀ b, b ∉ Finset.univ.image (Pipeline.arrRef spec7) → V16 m outs c b = V15 m outs c b :=
  fun b hb => V16_of m outs c b fun h => hb (by
    rw [List.mem_singleton.mp h]; exact Finset.mem_image.mpr ⟨2, Finset.mem_univ _, rfl⟩)

/-! ## The input windows' arrays across a region

Windows 0 and 1 of every region read the two embedding tables `main_v6`, `main_v7`; no region writes them. -/

/-- Region 0 leaves its input windows' arrays (windows 0 and 1) as it found them. -/
theorem hFin0 (c : Dev nD) : ∀ w : Fin 3, w ≠ 2 → V2 m outs c (Pipeline.arrRef spec0 w) = V1 m c (Pipeline.arrRef spec0 w)
  | 0, _ => V2_of m outs c main_v6 (by decide)
  | 1, _ => V2_of m outs c main_v7 (by decide)
  | 2, h => absurd rfl h
  | ⟨_ + 3, h⟩, _ => absurd h (Nat.not_lt.2 (Nat.le_add_left _ _))
/-- Region 1 leaves its input windows' arrays (windows 0 and 1) as it found them. -/
theorem hFin1 (c : Dev nD) : ∀ w : Fin 3, w ≠ 2 → V4 m outs c (Pipeline.arrRef spec1 w) = V3 m outs c (Pipeline.arrRef spec1 w)
  | 0, _ => V4_of m outs c main_v6 (by decide)
  | 1, _ => V4_of m outs c main_v7 (by decide)
  | 2, h => absurd rfl h
  | ⟨_ + 3, h⟩, _ => absurd h (Nat.not_lt.2 (Nat.le_add_left _ _))
/-- Region 2 leaves its input windows' arrays (windows 0 and 1) as it found them. -/
theorem hFin2 (c : Dev nD) : ∀ w : Fin 3, w ≠ 2 → V6 m outs c (Pipeline.arrRef spec2 w) = V5 m outs c (Pipeline.arrRef spec2 w)
  | 0, _ => V6_of m outs c main_v6 (by decide)
  | 1, _ => V6_of m outs c main_v7 (by decide)
  | 2, h => absurd rfl h
  | ⟨_ + 3, h⟩, _ => absurd h (Nat.not_lt.2 (Nat.le_add_left _ _))
/-- Region 3 leaves its input windows' arrays (windows 0 and 1) as it found them. -/
theorem hFin3 (c : Dev nD) : ∀ w : Fin 3, w ≠ 2 → V8 m outs c (Pipeline.arrRef spec3 w) = V7 m outs c (Pipeline.arrRef spec3 w)
  | 0, _ => V8_of m outs c main_v6 (by decide)
  | 1, _ => V8_of m outs c main_v7 (by decide)
  | 2, h => absurd rfl h
  | ⟨_ + 3, h⟩, _ => absurd h (Nat.not_lt.2 (Nat.le_add_left _ _))
/-- Region 4 leaves its input windows' arrays (windows 0 and 1) as it found them. -/
theorem hFin4 (c : Dev nD) : ∀ w : Fin 3, w ≠ 2 → V10 m outs c (Pipeline.arrRef spec4 w) = V9 m outs c (Pipeline.arrRef spec4 w)
  | 0, _ => V10_of m outs c main_v6 (by decide)
  | 1, _ => V10_of m outs c main_v7 (by decide)
  | 2, h => absurd rfl h
  | ⟨_ + 3, h⟩, _ => absurd h (Nat.not_lt.2 (Nat.le_add_left _ _))
/-- Region 5 leaves its input windows' arrays (windows 0 and 1) as it found them. -/
theorem hFin5 (c : Dev nD) : ∀ w : Fin 3, w ≠ 2 → V12 m outs c (Pipeline.arrRef spec5 w) = V11 m outs c (Pipeline.arrRef spec5 w)
  | 0, _ => V12_of m outs c main_v6 (by decide)
  | 1, _ => V12_of m outs c main_v7 (by decide)
  | 2, h => absurd rfl h
  | ⟨_ + 3, h⟩, _ => absurd h (Nat.not_lt.2 (Nat.le_add_left _ _))
/-- Region 6 leaves its input windows' arrays (windows 0 and 1) as it found them. -/
theorem hFin6 (c : Dev nD) : ∀ w : Fin 3, w ≠ 2 → V14 m outs c (Pipeline.arrRef spec6 w) = V13 m outs c (Pipeline.arrRef spec6 w)
  | 0, _ => V14_of m outs c main_v6 (by decide)
  | 1, _ => V14_of m outs c main_v7 (by decide)
  | 2, h => absurd rfl h
  | ⟨_ + 3, h⟩, _ => absurd h (Nat.not_lt.2 (Nat.le_add_left _ _))
/-- Region 7 leaves its input windows' arrays (windows 0 and 1) as it found them. -/
theorem hFin7 (c : Dev nD) : ∀ w : Fin 3, w ≠ 2 → V16 m outs c (Pipeline.arrRef spec7 w) = V15 m outs c (Pipeline.arrRef spec7 w)
  | 0, _ => V16_of m outs c main_v6 (by decide)
  | 1, _ => V16_of m outs c main_v7 (by decide)
  | 2, h => absurd rfl h
  | ⟨_ + 3, h⟩, _ => absurd h (Nat.not_lt.2 (Nat.le_add_left _ _))

/-! ## What the first host stretch prepares stays

The edge lists `main_v4`, `main_v5` (8 chunks of 43008 indices each) and the embedding tables as rank-3 arrays
`main_v6`, `main_v7` are written by the first host stretch and by nothing after it: at every later boundary they hold what
they hold at `V1`. -/

theorem V2_main_v4 (c : Dev nD) : V2 m outs c main_v4 = V1 m c main_v4 := (V2_of m outs c main_v4 (by decide)).trans rfl
theorem V3_main_v4 (c : Dev nD) : V3 m outs c main_v4 = V1 m c main_v4 := (V3_of m outs c main_v4 (by decide)).trans (V2_main_v4 m outs c)
theorem V4_main_v4 (c : Dev nD) : V4 m outs c main_v4 = V1 m c main_v4 := (V4_of m outs c main_v4 (by decide)).trans (V3_main_v4 m outs c)
theorem V5_main_v4 (c : Dev nD) : V5 m outs c main_v4 = V1 m c main_v4 := (V5_of m outs c main_v4 (by decide)).trans (V4_main_v4 m outs c)
theorem V6_main_v4 (c : Dev nD) : V6 m outs c main_v4 = V1 m c main_v4 := (V6_of m outs c main_v4 (by decide)).trans (V5_main_v4 m outs c)
theorem V7_main_v4 (c : Dev nD) : V7 m outs c main_v4 = V1 m c main_v4 := (V7_of m outs c main_v4 (by decide)).trans (V6_main_v4 m outs c)
theorem V8_main_v4 (c : Dev nD) : V8 m outs c main_v4 = V1 m c main_v4 := (V8_of m outs c main_v4 (by decide)).trans (V7_main_v4 m outs c)
theorem V9_main_v4 (c : Dev nD) : V9 m outs c main_v4 = V1 m c main_v4 := (V9_of m outs c main_v4 (by decide)).trans (V8_main_v4 m outs c)
theorem V10_main_v4 (c : Dev nD) : V10 m outs c main_v4 = V1 m c main_v4 := (V10_of m outs c main_v4 (by decide)).trans (V9_main_v4 m outs c)
theorem V11_main_v4 (c : Dev nD) : V11 m outs c main_v4 = V1 m c main_v4 := (V11_of m outs c main_v4 (by decide)).trans (V10_main_v4 m outs c)
theorem V12_main_v4 (c : Dev nD) : V12 m outs c main_v4 = V1 m c main_v4 := (V12_of m outs c main_v4 (by decide)).trans (V11_main_v4 m outs c)
theorem V13_main_v4 (c : Dev nD) : V13 m outs c main_v4 = V1 m c main_v4 := (V13_of m outs c main_v4 (by decide)).trans (V12_main_v4 m outs c)
theorem V14_main_v4 (c : Dev nD) : V14 m outs c main_v4 = V1 m c main_v4 := (V14_of m outs c main_v4 (by decide)).trans (V13_main_v4 m outs c)
theorem V15_main_v4 (c : Dev nD) : V15 m outs c main_v4 = V1 m c main_v4 := (V15_of m outs c main_v4 (by decide)).trans (V14_main_v4 m outs c)
theorem V16_main_v4 (c : Dev nD) : V16 m outs c main_v4 = V1 m c main_v4 := (V16_of m outs c main_v4 (by decide)).trans (V15_main_v4 m outs c)
theorem V17_main_v4 (c : Dev nD) : V17 m outs c main_v4 = V1 m c main_v4 := (V17_of m outs c main_v4 (by decide)).trans (V16_main_v4 m outs c)

theorem V2_main_v5 (c : Dev nD) : V2 m outs c main_v5 = V1 m c main_v5 := (V2_of m outs c main_v5 (by decide)).trans rfl
theorem V3_main_v5 (c : Dev nD) : V3 m outs c main_v5 = V1 m c main_v5 := (V3_of m outs c main_v5 (by decide)).trans (V2_main_v5 m outs c)
theorem V4_main_v5 (c : Dev nD) : V4 m outs c main_v5 = V1 m c main_v5 := (V4_of m outs c main_v5 (by decide)).trans (V3_main_v5 m outs c)
theorem V5_main_v5 (c : Dev nD) : V5 m outs c main_v5 = V1 m c main_v5 := (V5_of m outs c main_v5 (by decide)).trans (V4_main_v5 m outs c)
theorem V6_main_v5 (c : Dev nD) : V6 m outs c main_v5 = V1 m c main_v5 := (V6_of m outs c main_v5 (by decide)).trans (V5_main_v5 m outs c)
theorem V7_main_v5 (c : Dev nD) : V7 m outs c main_v5 = V1 m c main_v5 := (V7_of m outs c main_v5 (by decide)).trans (V6_main_v5 m outs c)
theorem V8_main_v5 (c : Dev nD) : V8 m outs c main_v5 = V1 m c main_v5 := (V8_of m outs c main_v5 (by decide)).trans (V7_main_v5 m outs c)
theorem V9_main_v5 (c : Dev nD) : V9 m outs c main_v5 = V1 m c main_v5 := (V9_of m outs c main_v5 (by decide)).trans (V8_main_v5 m outs c)
theorem V10_main_v5 (c : Dev nD) : V10 m outs c main_v5 = V1 m c main_v5 := (V10_of m outs c main_v5 (by decide)).trans (V9_main_v5 m outs c)
theorem V11_main_v5 (c : Dev nD) : V11 m outs c main_v5 = V1 m c main_v5 := (V11_of m outs c main_v5 (by decide)).trans (V10_main_v5 m outs c)
theorem V12_main_v5 (c : Dev nD) : V12 m outs c main_v5 = V1 m c main_v5 := (V12_of m outs c main_v5 (by decide)).trans (V11_main_v5 m outs c)
theorem V13_main_v5 (c : Dev nD) : V13 m outs c main_v5 = V1 m c main_v5 := (V13_of m outs c main_v5 (by decide)).trans (V12_main_v5 m outs c)
theorem V14_main_v5 (c : Dev nD) : V14 m outs c main_v5 = V1 m c main_v5 := (V14_of m outs c main_v5 (by decide)).trans (V13_main_v5 m outs c)
theorem V15_main_v5 (c : Dev nD) : V15 m outs c main_v5 = V1 m c main_v5 := (V15_of m outs c main_v5 (by decide)).trans (V14_main_v5 m outs c)
theorem V16_main_v5 (c : Dev nD) : V16 m outs c main_v5 = V1 m c main_v5 := (V16_of m outs c main_v5 (by decide)).trans (V15_main_v5 m outs c)
theorem V17_main_v5 (c : Dev nD) : V17 m outs c main_v5 = V1 m c main_v5 := (V17_of m outs c main_v5 (by decide)).trans (V16_main_v5 m outs c)

theorem V2_main_v6 (c : Dev nD) : V2 m outs c main_v6 = V1 m c main_v6 := (V2_of m outs c main_v6 (by decide)).trans rfl
theorem V3_main_v6 (c : Dev nD) : V3 m outs c main_v6 = V1 m c main_v6 := (V3_of m outs c main_v6 (by decide)).trans (V2_main_v6 m outs c)
theorem V4_main_v6 (c : Dev nD) : V4 m outs c main_v6 = V1 m c main_v6 := (V4_of m outs c main_v6 (by decide)).trans (V3_main_v6 m outs c)
theorem V5_main_v6 (c : Dev nD) : V5 m outs c main_v6 = V1 m c main_v6 := (V5_of m outs c main_v6 (by decide)).trans (V4_main_v6 m outs c)
theorem V6_main_v6 (c : Dev nD) : V6 m outs c main_v6 = V1 m c main_v6 := (V6_of m outs c main_v6 (by decide)).trans (V5_main_v6 m outs c)
theorem V7_main_v6 (c : Dev nD) : V7 m outs c main_v6 = V1 m c main_v6 := (V7_of m outs c main_v6 (by decide)).trans (V6_main_v6 m outs c)
theorem V8_main_v6 (c : Dev nD) : V8 m outs c main_v6 = V1 m c main_v6 := (V8_of m outs c main_v6 (by decide)).trans (V7_main_v6 m outs c)
theorem V9_main_v6 (c : Dev nD) : V9 m outs c main_v6 = V1 m c main_v6 := (V9_of m outs c main_v6 (by decide)).trans (V8_main_v6 m outs c)
theorem V10_main_v6 (c : Dev nD) : V10 m outs c main_v6 = V1 m c main_v6 := (V10_of m outs c main_v6 (by decide)).trans (V9_main_v6 m outs c)
theorem V11_main_v6 (c : Dev nD) : V11 m outs c main_v6 = V1 m c main_v6 := (V11_of m outs c main_v6 (by decide)).trans (V10_main_v6 m outs c)
theorem V12_main_v6 (c : Dev nD) : V12 m outs c main_v6 = V1 m c main_v6 := (V12_of m outs c main_v6 (by decide)).trans (V11_main_v6 m outs c)
theorem V13_main_v6 (c : Dev nD) : V13 m outs c main_v6 = V1 m c main_v6 := (V13_of m outs c main_v6 (by decide)).trans (V12_main_v6 m outs c)
theorem V14_main_v6 (c : Dev nD) : V14 m outs c main_v6 = V1 m c main_v6 := (V14_of m outs c main_v6 (by decide)).trans (V13_main_v6 m outs c)
theorem V15_main_v6 (c : Dev nD) : V15 m outs c main_v6 = V1 m c main_v6 := (V15_of m outs c main_v6 (by decide)).trans (V14_main_v6 m outs c)
theorem V16_main_v6 (c : Dev nD) : V16 m outs c main_v6 = V1 m c main_v6 := (V16_of m outs c main_v6 (by decide)).trans (V15_main_v6 m outs c)
theorem V17_main_v6 (c : Dev nD) : V17 m outs c main_v6 = V1 m c main_v6 := (V17_of m outs c main_v6 (by decide)).trans (V16_main_v6 m outs c)

theorem V2_main_v7 (c : Dev nD) : V2 m outs c main_v7 = V1 m c main_v7 := (V2_of m outs c main_v7 (by decide)).trans rfl
theorem V3_main_v7 (c : Dev nD) : V3 m outs c main_v7 = V1 m c main_v7 := (V3_of m outs c main_v7 (by decide)).trans (V2_main_v7 m outs c)
theorem V4_main_v7 (c : Dev nD) : V4 m outs c main_v7 = V1 m c main_v7 := (V4_of m outs c main_v7 (by decide)).trans (V3_main_v7 m outs c)
theorem V5_main_v7 (c : Dev nD) : V5 m outs c main_v7 = V1 m c main_v7 := (V5_of m outs c main_v7 (by decide)).trans (V4_main_v7 m outs c)
theorem V6_main_v7 (c : Dev nD) : V6 m outs c main_v7 = V1 m c main_v7 := (V6_of m outs c main_v7 (by decide)).trans (V5_main_v7 m outs c)
theorem V7_main_v7 (c : Dev nD) : V7 m outs c main_v7 = V1 m c main_v7 := (V7_of m outs c main_v7 (by decide)).trans (V6_main_v7 m outs c)
theorem V8_main_v7 (c : Dev nD) : V8 m outs c main_v7 = V1 m c main_v7 := (V8_of m outs c main_v7 (by decide)).trans (V7_main_v7 m outs c)
theorem V9_main_v7 (c : Dev nD) : V9 m outs c main_v7 = V1 m c main_v7 := (V9_of m outs c main_v7 (by decide)).trans (V8_main_v7 m outs c)
theorem V10_main_v7 (c : Dev nD) : V10 m outs c main_v7 = V1 m c main_v7 := (V10_of m outs c main_v7 (by decide)).trans (V9_main_v7 m outs c)
theorem V11_main_v7 (c : Dev nD) : V11 m outs c main_v7 = V1 m c main_v7 := (V11_of m outs c main_v7 (by decide)).trans (V10_main_v7 m outs c)
theorem V12_main_v7 (c : Dev nD) : V12 m outs c main_v7 = V1 m c main_v7 := (V12_of m outs c main_v7 (by decide)).trans (V11_main_v7 m outs c)
theorem V13_main_v7 (c : Dev nD) : V13 m outs c main_v7 = V1 m c main_v7 := (V13_of m outs c main_v7 (by decide)).trans (V12_main_v7 m outs c)
theorem V14_main_v7 (c : Dev nD) : V14 m outs c main_v7 = V1 m c main_v7 := (V14_of m outs c main_v7 (by decide)).trans (V13_main_v7 m outs c)
theorem V15_main_v7 (c : Dev nD) : V15 m outs c main_v7 = V1 m c main_v7 := (V15_of m outs c main_v7 (by decide)).trans (V14_main_v7 m outs c)
theorem V16_main_v7 (c : Dev nD) : V16 m outs c main_v7 = V1 m c main_v7 := (V16_of m outs c main_v7 (by decide)).trans (V15_main_v7 m outs c)
theorem V17_main_v7 (c : Dev nD) : V17 m outs c main_v7 = V1 m c main_v7 := (V17_of m outs c main_v7 (by decide)).trans (V16_main_v7 m outs c)

end Cert.Kernel.Gen

end
-- ==== Proof.TablesK.lean ====
/-
  The index tables the eight kernel regions prefetch, as functions of the argument arrays.

  The program lists its 344064 = 16384 + 16384·20 edges in one vector: edge e < 16384 is the positive pair
  (pos_u[e], pos_v[e]); edge 16384 + 20 b + k is the negative pair (neg_u[b, k], neg_v[b, k]) (`edgeOf`, `edgeU`, `edgeV`).
  The vector is cut into 8 rows of 43008 (a reshape of a row-major vector: row k holds edges 43008 k … 43008 k + 43007) and region k
  prefetches row k of the u-list and row k of the v-list (`rowU`, `rowV`; `chunksU`, `chunksV` read the two [8, 43008]
  arrays the first host stretch builds at an index). Those two arrays are written once and never again, so a later
  region finds its row whatever the earlier regions left in their outputs (`V2_chunksU` … `V14_chunksV`).

  A region's pipeline fetches, at grid point i, the block [table[i], 0, 0] of extent [1, 1, 64] of a [1000000, 1, 64] array: it lies
  inside the array exactly when the word table[i] is below 1000000 (`block_inb`). `IdxOk` says every edge's two words are; the
  side condition of region 0's pipeline follows from a pointwise bound on the words of ANY contents (`ok0_of_bound`), and so
  holds of the tables computed from the arguments (`ok0_of_idx`, `adm0`).

  The precondition's integer part is four conjuncts `all((0 ≤ x) & (x < 1000000))`, the compares signed; a word in [0, 1000000)
  signed is below 1000000 unsigned (`toNat_lt_of_signed_range`, `range_of_all`, `fn_range`), hence `IdxOk` (`idxOk_of_args`).
  Everything here is for any float instance: no float is touched.
-/
import proofs.«425429_j48773648614109_2_alg».proof.Proof.RegionsK
import proofs.«425429_j48773648614109_2_alg».proof.Proof.Gen.Pre_finite_inputs
import proofs.«425429_j48773648614109_2_alg».proof.Pre_finite_inputs
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.ReduceAll

noncomputable section

namespace Cert.Kernel.Gen

open Idealize.ShloMosaic Idealize.ShloMosaic.TcCoe
open Idealize.SL.Sem

/-! ## The layout operations read at an index -/

/-- Edge `e` of the list: the first 16384 edges are the positive pairs, edge `16384 + 20 b + k` is negative sample `k` of row `b`. -/
def edgeOf (p : S16384.Idx → BitVec 32) (n : S16384x20.Idx → BitVec 32) (e : Nat) : BitVec 32 :=
  if h : e < 16384 then p (ValueIdx.ix1 ⟨e, h⟩)
  else if h2 : e < 344064 then n (ValueIdx.ix2 ⟨(e - 16384) / 20, by omega⟩ ⟨(e - 16384) % 20, Nat.mod_lt _ (by decide)⟩)
  else 0#32

/-- Row `k` of an [8, 43008] array, sliced out and flattened, read at `i` is the array at `(k, i)`. -/
theorem row_apply (x : S8x43008.Idx → BitVec 32) (k : Fin 8) (hs : S8x43008.Slices ![k.val, 0] S1x43008)
    (hc : S1x43008.ShapeCasts S43008) (i : Fin 43008) :
    shapeCast S43008 (extractStridedSlice S1x43008 ![k.val, 0] x hs) hc (ValueIdx.ix1 i) = x (ValueIdx.ix2 k i) := by
  refine (shapeCast_apply _ hc (ValueIdx.ix1 i) (ValueIdx.ix2 (0 : Fin 1) i) ?_).trans ?_
  · rw [Shape.rowMajor_val_two, Shape.rowMajor_val_one]
    show (0 : Nat) * _ + i.val = i.val
    omega
  · refine extractStridedSlice_apply _ x hs _ (ValueIdx.ix2 k i) fun a => ?_
    match a with
    | ⟨0, _⟩ => show k.val = k.val + 0; omega
    | ⟨1, _⟩ => show i.val = 0 + i.val; omega

/-- The concatenation of a 16384-vector with a flattened [16384, 20] array, cut into 8 rows of 43008, holds at `(k, i)` edge
    `43008 k + i` of the list. -/
theorem chunk_apply (p : S16384.Idx → BitVec 32) (n : S16384x20.Idx → BitVec 32)
    (h1 : S16384x20.ShapeCasts S327680) (h2 : Shape.Concatenates [S16384, S327680] S344064 0)
    (h3 : S344064.ShapeCasts S8x43008) (k : Fin 8) (i : Fin 43008) :
    shapeCast S8x43008 (concatenate S344064 0 [⟨S16384, p⟩, ⟨S327680, shapeCast S327680 n h1⟩] h2) h3 (ValueIdx.ix2 k i)
      = edgeOf p n (k.val * 43008 + i.val) := by
  have hk := k.isLt
  have hi := i.isLt
  refine (shapeCast_apply _ h3 (ValueIdx.ix2 k i) (ValueIdx.ix1 ⟨k.val * 43008 + i.val, by omega⟩) ?_).trans ?_
  · rw [Shape.rowMajor_val_two, Shape.rowMajor_val_one]
    rfl
  · unfold edgeOf
    by_cases h : k.val * 43008 + i.val < 16384
    · rw [dif_pos h]
      refine concatenate_pair_apply_left 0 p _ h2 _ rfl (ValueIdx.ix1 ⟨k.val * 43008 + i.val, h⟩) fun b => ?_
      match b with
      | ⟨0, _⟩ => rfl
    · rw [dif_neg h, dif_pos (by omega : k.val * 43008 + i.val < 344064)]
      refine (concatenate_pair_apply_right 0 p _ h2 _ rfl rfl (ValueIdx.ix1 ⟨k.val * 43008 + i.val - 16384, by omega⟩) (fun b hb => ?_) ?_).trans ?_
      · match b with
        | ⟨0, _⟩ => exact absurd rfl hb
      · show (k.val * 43008 + i.val - 16384) + 16384 = k.val * 43008 + i.val
        omega
      · refine shapeCast_apply n h1 _ _ ?_
        rw [Shape.rowMajor_val_two, Shape.rowMajor_val_one]
        show (k.val * 43008 + i.val - 16384) / 20 * 20 + (k.val * 43008 + i.val - 16384) % 20 = k.val * 43008 + i.val - 16384
        omega

/-- An edge's word is below a bound when every word of the two arrays is. -/
theorem edgeOf_lt (p : S16384.Idx → BitVec 32) (n : S16384x20.Idx → BitVec 32) (B : Nat) (hB : 0 < B)
    (hp : ∀ j, (p j).toNat < B) (hn : ∀ j, (n j).toNat < B) (e : Nat) : (edgeOf p n e).toNat < B := by
  unfold edgeOf
  split
  · exact hp _
  · split
    · exact hn _
    · exact hB

variable {F : FTy → Type} [FloatOps F]
variable (m : (ℓ : Loc nD τ sig) → Buf (Elt F) ℓ) (outs : Outs (F := F))

/-! ## The edge list as a function of the argument arrays -/

/-- The u-index of edge `e` on core `c`: `pos_u[e]` for the first 16384 edges, then `neg_u` read row by row. -/
def edgeU (c : Dev nD) (e : Nat) : BitVec 32 :=
  edgeOf (m ((c : Thread nD τ).loc main_arg0)) (m ((c : Thread nD τ).loc main_arg2)) e
/-- The v-index of edge `e` on core `c`: `pos_v[e]` for the first 16384 edges, then `neg_v` read row by row. -/
def edgeV (c : Dev nD) (e : Nat) : BitVec 32 :=
  edgeOf (m ((c : Thread nD τ).loc main_arg1)) (m ((c : Thread nD τ).loc main_arg3)) e

/-- Row `k` of the edge list cut into 8 rows of 43008: the table a region prefetches. -/
def rowU (c : Dev nD) (k : Nat) : S43008.Idx → BitVec 32 := fun i => edgeU m c (k * 43008 + (i 0).val)
def rowV (c : Dev nD) (k : Nat) : S43008.Idx → BitVec 32 := fun i => edgeV m c (k * 43008 + (i 0).val)

/-- The [8, 43008] array of u-indices the first host stretch builds holds edge `43008 k + i` at `(k, i)`. -/
theorem chunksU (c : Dev nD) (k : Fin 8) (i : Fin 43008) :
    (V1 m c main_v4 : S8x43008.Idx → BitVec 32) (ValueIdx.ix2 k i) = edgeU m c (k.val * 43008 + i.val) := by
  show StableHlo.after hostOps0 (V0 m c) (Proc.devRef .tc main_v4) (ValueIdx.ix2 k i) = _
  after_results
  exact chunk_apply _ _ _ _ _ k i
/-- The same for the v-indices. -/
theorem chunksV (c : Dev nD) (k : Fin 8) (i : Fin 43008) :
    (V1 m c main_v5 : S8x43008.Idx → BitVec 32) (ValueIdx.ix2 k i) = edgeV m c (k.val * 43008 + i.val) := by
  show StableHlo.after hostOps0 (V0 m c) (Proc.devRef .tc main_v5) (ValueIdx.ix2 k i) = _
  after_results
  exact chunk_apply _ _ _ _ _ k i

/-! The two chunked arrays are written once, by the first host stretch: no later stretch writes them and no region may
    change them, so every later valuation holds them as the first does. -/
theorem V2_chunksU (c : Dev nD) : V2 m outs c main_v4 = V1 m c main_v4 := V2_of m outs c main_v4 (by decide)
theorem V4_chunksU (c : Dev nD) : V4 m outs c main_v4 = V1 m c main_v4 :=
  (V4_of m outs c main_v4 (by decide)).trans <| (V3_of m outs c main_v4 (by decide)).trans (V2_chunksU m outs c)
theorem V6_chunksU (c : Dev nD) : V6 m outs c main_v4 = V1 m c main_v4 :=
  (V6_of m outs c main_v4 (by decide)).trans <| (V5_of m outs c main_v4 (by decide)).trans (V4_chunksU m outs c)
theorem V8_chunksU (c : Dev nD) : V8 m outs c main_v4 = V1 m c main_v4 :=
  (V8_of m outs c main_v4 (by decide)).trans <| (V7_of m outs c main_v4 (by decide)).trans (V6_chunksU m outs c)
theorem V10_chunksU (c : Dev nD) : V10 m outs c main_v4 = V1 m c main_v4 :=
  (V10_of m outs c main_v4 (by decide)).trans <| (V9_of m outs c main_v4 (by decide)).trans (V8_chunksU m outs c)
theorem V12_chunksU (c : Dev nD) : V12 m outs c main_v4 = V1 m c main_v4 :=
  (V12_of m outs c main_v4 (by decide)).trans <| (V11_of m outs c main_v4 (by decide)).trans (V10_chunksU m outs c)
theorem V14_chunksU (c : Dev nD) : V14 m outs c main_v4 = V1 m c main_v4 :=
  (V14_of m outs c main_v4 (by decide)).trans <| (V13_of m outs c main_v4 (by decide)).trans (V12_chunksU m outs c)
theorem V2_chunksV (c : Dev nD) : V2 m outs c main_v5 = V1 m c main_v5 := V2_of m outs c main_v5 (by decide)
theorem V4_chunksV (c : Dev nD) : V4 m outs c main_v5 = V1 m c main_v5 :=
  (V4_of m outs c main_v5 (by decide)).trans <| (V3_of m outs c main_v5 (by decide)).trans (V2_chunksV m outs c)
theorem V6_chunksV (c : Dev nD) : V6 m outs c main_v5 = V1 m c main_v5 :=
  (V6_of m outs c main_v5 (by decide)).trans <| (V5_of m outs c main_v5 (by decide)).trans (V4_chunksV m outs c)
theorem V8_chunksV (c : Dev nD) : V8 m outs c main_v5 = V1 m c main_v5 :=
  (V8_of m outs c main_v5 (by decide)).trans <| (V7_of m outs c main_v5 (by decide)).trans (V6_chunksV m outs c)
theorem V10_chunksV (c : Dev nD) : V10 m outs c main_v5 = V1 m c main_v5 :=
  (V10_of m outs c main_v5 (by decide)).trans <| (V9_of m outs c main_v5 (by decide)).trans (V8_chunksV m outs c)
theorem V12_chunksV (c : Dev nD) : V12 m outs c main_v5 = V1 m c main_v5 :=
  (V12_of m outs c main_v5 (by decide)).trans <| (V11_of m outs c main_v5 (by decide)).trans (V10_chunksV m outs c)
theorem V14_chunksV (c : Dev nD) : V14 m outs c main_v5 = V1 m c main_v5 :=
  (V14_of m outs c main_v5 (by decide)).trans <| (V13_of m outs c main_v5 (by decide)).trans (V12_chunksV m outs c)

/-- A table-indexed block `[w, 0, 0]` of extent [1, 1, 64] lies inside the [1000000, 1, 64] array when `w < 1000000`. -/
theorem block_inb (w : BitVec 32) (hw : w.toNat < 1000000) (a : Fin 3) :
    ((![w.toNat, 0, 0] : Fin 3 → Nat) a + 1) * S1x1x64.size a ≤ S1000000x1x64.size a := by
  match a with
  | ⟨0, _⟩ => show (w.toNat + 1) * 1 ≤ 1000000; omega
  | ⟨1, _⟩ => show (0 + 1) * 1 ≤ 1; omega
  | ⟨2, _⟩ => show (0 + 1) * 64 ≤ 64; omega

/-- Every edge names rows of the two embedding tables. -/
def IdxOk : Prop := ∀ (c : Dev nD) (e : Nat), (edgeU m c e).toNat < 1000000 ∧ (edgeV m c e).toNat < 1000000

/-- `IdxOk` from a bound on every word of the four index arguments. -/
theorem idxOk_of_args
    (h : ∀ c : Dev nD, (∀ j, BitVec.toNat (w := 32) (m ((c : Thread nD τ).loc main_arg0) j) < 1000000)
      ∧ (∀ j, BitVec.toNat (w := 32) (m ((c : Thread nD τ).loc main_arg1) j) < 1000000)
      ∧ (∀ j, BitVec.toNat (w := 32) (m ((c : Thread nD τ).loc main_arg2) j) < 1000000)
      ∧ (∀ j, BitVec.toNat (w := 32) (m ((c : Thread nD τ).loc main_arg3) j) < 1000000)) : IdxOk m :=
  fun c e => ⟨edgeOf_lt _ _ 1000000 (by decide) (h c).1 (h c).2.2.1 e, edgeOf_lt _ _ 1000000 (by decide) (h c).2.1 (h c).2.2.2 e⟩

/-! ## Region 0: row 0 of the chunked edge list -/

/-- The two tables region 0 prefetches, as functions of the arguments. -/
def tbl0 (c : Dev nD) : pre0.Contents (Elt F) := fun | ⟨0, _⟩ => rowU m c 0 | ⟨1, _⟩ => rowV m c 0

theorem tbl0_apply_u (c : Dev nD) (i : Fin 43008) : tbl0 m c 0 (ValueIdx.ix1 i) = edgeU m c (0 * 43008 + i.val) := rfl
theorem tbl0_apply_v (c : Dev nD) (i : Fin 43008) : tbl0 m c 1 (ValueIdx.ix1 i) = edgeV m c (0 * 43008 + i.val) := rfl

/-- What the region finds in its first table, whatever the earlier regions left in their outputs. -/
theorem tbl0_eq_u (c : Dev nD) : V1 m c main_v9 = tbl0 m c 0 := by
  funext i
  rw [ValueIdx.eq_ix1 i]
  show StableHlo.after hostOps0 (V0 m c) (Proc.devRef .tc main_v9) (ValueIdx.ix1 (i 0)) = _
  after_results
  refine (row_apply _ 0 _ _ (i 0)).trans ?_
  refine (chunk_apply _ _ _ _ _ 0 (i 0)).trans ?_
  rfl
/-- What the region finds in its second table. -/
theorem tbl0_eq_v (c : Dev nD) : V1 m c main_v11 = tbl0 m c 1 := by
  funext i
  rw [ValueIdx.eq_ix1 i]
  show StableHlo.after hostOps0 (V0 m c) (Proc.devRef .tc main_v11) (ValueIdx.ix1 (i 0)) = _
  after_results
  refine (row_apply _ 0 _ _ (i 0)).trans ?_
  refine (chunk_apply _ _ _ _ _ 0 (i 0)).trans ?_
  rfl
theorem tbl0_eq (c : Dev nD) : ∀ k, V1 m c (pre0.ref k) = tbl0 m c k :=
  fun | ⟨0, _⟩ => tbl0_eq_u m c | ⟨1, _⟩ => tbl0_eq_v m c

/-- The pipeline's side condition from a pointwise bound on the tables' words (the contents a variable). -/
theorem ok0_of_bound (pf : pre0.Contents (Elt F)) (hu : ∀ x, BitVec.toNat (w := 32) (pf 0 x) < 1000000)
    (hv : ∀ x, BitVec.toNat (w := 32) (pf 1 x) < 1000000) : ok0 pf := by
  refine ⟨fun i => ?_, fun i => ?_⟩
  · obtain ⟨w, hw, e⟩ : ∃ w : BitVec 32, w.toNat < 1000000 ∧ cc0_transform_0 k0_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc0_transform_1 k0_off1_inb numel1_S1 pf i = ![w.toNat, 0, 0] :=
      ⟨_, hv _, rfl⟩
    exact ⟨fun a => by rw [e]; exact block_inb w hw a, Or.inl rfl⟩

theorem ok0_of_idx (h : IdxOk m) (c : Dev nD) : ok0 (tbl0 m c) :=
  ok0_of_bound _ (fun x => (h c _).1) (fun x => (h c _).2)

/-- Region 0's tables as admissible contents (one core). -/
def adm0 (h : IdxOk m) : (pcfg0 (F := F)).Adm := ⟨tbl0 m 0, ok0_of_idx m h 0⟩

/-! ## The precondition's index ranges, decoded -/

/-- A word that tests `0 ≤ w` and `w < n` as a SIGNED number (`n` below 2³¹) is below `n` read unsigned. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hpos : 2 * w.toNat < 2 ^ 32 := BitVec.toInt_pos_iff.1 h0
  rw [BitVec.toInt_eq_toNat_of_lt hpos] at h1
  omega

/-- The scalar shape has one index. -/
instance : Subsingleton Cert.Pre_finite_inputs.S_.Idx := ⟨fun a b => funext fun d => d.elim0⟩

/-- One conjunct `all((0 ≤ x) & (x < 1000000))` of the predicate, read back at an index. -/
theorem range_of_all {s : Shape} (x : IVec s 32) (hb : Cert.Pre_finite_inputs.S_.BroadcastsInDim s (![] : Fin 0 → Fin s.rank))
    {axes : List (Fin s.rank)} (hr : s.ReducesTo axes Cert.Pre_finite_inputs.S_) (h0 : 0 < Cert.Pre_finite_inputs.S_.numel)
    (e : Host.reduce IntOp.andi
        (andi (cmpi .sge x (broadcastInDim s ![] hb (constantI Cert.Pre_finite_inputs.S_ 32 0#32)))
              (cmpi .slt x (broadcastInDim s ![] hb (constantI Cert.Pre_finite_inputs.S_ 32 1000000#32))))
        (constantI Cert.Pre_finite_inputs.S_ 1 1#1) hr h0 ValueIdx.ix0 = 1#1) (j : s.Idx) : (x j).toNat < 1000000 := by
  have hj := Host.reduce_andi_all _ _ hr h0 ValueIdx.ix0 e j
  obtain ⟨hge, hlt⟩ := IntOp.andi_eq_one.1 hj
  exact toNat_lt_of_signed_range (x j) 1000000 (by decide) hge hlt

/-- The predicate all ones says every word of the four index arrays is below 1000000 (at any float instance: the two
    finiteness conjuncts are dropped unread). -/
theorem fn_range (a0 a1 : IVec Cert.Pre_finite_inputs.S16384 32) (a2 a3 : IVec Cert.Pre_finite_inputs.S16384x20 32)
    (a4 a5 : FVec F Cert.Pre_finite_inputs.S1000000x64 .f32)
    (h : Cert.Pre_finite_inputs.fn (F := F) a0 a1 a2 a3 a4 a5 = fun _ => 1#1) :
    (∀ j, (a0 j).toNat < 1000000) ∧ (∀ j, (a1 j).toNat < 1000000) ∧ (∀ j, (a2 j).toNat < 1000000) ∧ (∀ j, (a3 j).toNat < 1000000) := by
  have e := congrFun h ValueIdx.ix0
  unfold Cert.Pre_finite_inputs.fn Cert.Pre_finite_inputs.fn_part1 Cert.Pre_finite_inputs.fn_part2 at e
  dsimp only at e
  obtain ⟨e4, e3⟩ := IntOp.andi_eq_one.1 e
  obtain ⟨e5, e2⟩ := IntOp.andi_eq_one.1 e4
  obtain ⟨e6, e1⟩ := IntOp.andi_eq_one.1 e5
  obtain ⟨-, e0⟩ := IntOp.andi_eq_one.1 e6
  exact ⟨range_of_all a0 _ _ _ e0, range_of_all a1 _ _ _ e1, range_of_all a2 _ _ _ e2, range_of_all a3 _ _ _ e3⟩

end Cert.Kernel.Gen

end
-- ==== Proof.TblK1.lean ====
/-
  Region 1's index tables: row 1 of the edge list cut into 8 rows of 43008 (place i of row k holds edge 43008 k + i).

  The host stretch before the region slices row 1 out of the two [8, 43008] arrays and flattens it; the arrays are
  those the first stretch built (no stretch writes them again, no region may change them), so the region finds
  `rowU m c 1`, `rowV m c 1` whatever the earlier regions left in their outputs. The pipeline's side condition follows from a
  pointwise bound on the words of any contents, hence holds of these tables when every edge's words are below 1000000.
-/
import proofs.«425429_j48773648614109_2_alg».proof.Proof.TablesK

noncomputable section

namespace Cert.Kernel.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 1: row 1 of the chunked edge list -/

/-- The two tables region 1 prefetches, as functions of the arguments. -/
def tbl1 (c : Dev nD) : pre1.Contents (Elt F) := fun | ⟨0, _⟩ => rowU m c 1 | ⟨1, _⟩ => rowV m c 1

theorem tbl1_apply_u (c : Dev nD) (i : Fin 43008) : tbl1 m c 0 (ValueIdx.ix1 i) = edgeU m c (1 * 43008 + i.val) := rfl
theorem tbl1_apply_v (c : Dev nD) (i : Fin 43008) : tbl1 m c 1 (ValueIdx.ix1 i) = edgeV m c (1 * 43008 + i.val) := rfl

/-- What the region finds in its first table, whatever the earlier regions left in their outputs. -/
theorem tbl1_eq_u (c : Dev nD) : V3 m outs c main_v16 = tbl1 m c 0 := by
  funext i
  rw [ValueIdx.eq_ix1 i]
  show StableHlo.after hostOps1 (V2 m outs c) (Proc.devRef .tc main_v16) (ValueIdx.ix1 (i 0)) = _
  after_results
  refine (row_apply _ 1 _ _ (i 0)).trans ?_
  refine (congrFun (V2_chunksU m outs c) _).trans ?_
  exact chunksU m c 1 (i 0)
/-- What the region finds in its second table. -/
theorem tbl1_eq_v (c : Dev nD) : V3 m outs c main_v18 = tbl1 m c 1 := by
  funext i
  rw [ValueIdx.eq_ix1 i]
  show StableHlo.after hostOps1 (V2 m outs c) (Proc.devRef .tc main_v18) (ValueIdx.ix1 (i 0)) = _
  after_results
  refine (row_apply _ 1 _ _ (i 0)).trans ?_
  refine (congrFun (V2_chunksV m outs c) _).trans ?_
  exact chunksV m c 1 (i 0)
theorem tbl1_eq (c : Dev nD) : ∀ k, V3 m outs c (pre1.ref k) = tbl1 m c k :=
  fun | ⟨0, _⟩ => tbl1_eq_u m outs c | ⟨1, _⟩ => tbl1_eq_v m outs c

/-- The pipeline's side condition from a pointwise bound on the tables' words (the contents a variable). -/
theorem ok1_of_bound (pf : pre1.Contents (Elt F)) (hu : ∀ x, BitVec.toNat (w := 32) (pf 0 x) < 1000000)
    (hv : ∀ x, BitVec.toNat (w := 32) (pf 1 x) < 1000000) : ok1 pf := by
  refine ⟨fun i => ?_, fun i => ?_⟩
  · obtain ⟨w, hw, e⟩ : ∃ w : BitVec 32, w.toNat < 1000000 ∧ cc1_transform_0 k1_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc1_transform_1 k1_off1_inb numel1_S1 pf i = ![w.toNat, 0, 0] :=
      ⟨_, hv _, rfl⟩
    exact ⟨fun a => by rw [e]; exact block_inb w hw a, Or.inl rfl⟩

theorem ok1_of_idx (h : IdxOk m) (c : Dev nD) : ok1 (tbl1 m c) :=
  ok1_of_bound _ (fun x => (h c _).1) (fun x => (h c _).2)

/-- Region 1's tables as admissible contents (one core). -/
def adm1 (h : IdxOk m) : (pcfg1 (F := F)).Adm := ⟨tbl1 m 0, ok1_of_idx m h 0⟩

end Cert.Kernel.Gen

end
-- ==== Proof.TblK2.lean ====
/-
  Region 2's index tables: row 2 of the edge list cut into 8 rows of 43008 (place i of row k holds edge 43008 k + i).

  The host stretch before the region slices row 2 out of the two [8, 43008] arrays and flattens it; the arrays are
  those the first stretch built (no stretch writes them again, no region may change them), so the region finds
  `rowU m c 2`, `rowV m c 2` whatever the earlier regions left in their outputs. The pipeline's side condition follows from a
  pointwise bound on the words of any contents, hence holds of these tables when every edge's words are below 1000000.
-/
import proofs.«425429_j48773648614109_2_alg».proof.Proof.TablesK

noncomputable section

namespace Cert.Kernel.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 2: row 2 of the chunked edge list -/

/-- The two tables region 2 prefetches, as functions of the arguments. -/
def tbl2 (c : Dev nD) : pre2.Contents (Elt F) := fun | ⟨0, _⟩ => rowU m c 2 | ⟨1, _⟩ => rowV m c 2

theorem tbl2_apply_u (c : Dev nD) (i : Fin 43008) : tbl2 m c 0 (ValueIdx.ix1 i) = edgeU m c (2 * 43008 + i.val) := rfl
theorem tbl2_apply_v (c : Dev nD) (i : Fin 43008) : tbl2 m c 1 (ValueIdx.ix1 i) = edgeV m c (2 * 43008 + i.val) := rfl

/-- What the region finds in its first table, whatever the earlier regions left in their outputs. -/
theorem tbl2_eq_u (c : Dev nD) : V5 m outs c main_v23 = tbl2 m c 0 := by
  funext i
  rw [ValueIdx.eq_ix1 i]
  show StableHlo.after hostOps2 (V4 m outs c) (Proc.devRef .tc main_v23) (ValueIdx.ix1 (i 0)) = _
  after_results
  refine (row_apply _ 2 _ _ (i 0)).trans ?_
  refine (congrFun (V4_chunksU m outs c) _).trans ?_
  exact chunksU m c 2 (i 0)
/-- What the region finds in its second table. -/
theorem tbl2_eq_v (c : Dev nD) : V5 m outs c main_v25 = tbl2 m c 1 := by
  funext i
  rw [ValueIdx.eq_ix1 i]
  show StableHlo.after hostOps2 (V4 m outs c) (Proc.devRef .tc main_v25) (ValueIdx.ix1 (i 0)) = _
  after_results
  refine (row_apply _ 2 _ _ (i 0)).trans ?_
  refine (congrFun (V4_chunksV m outs c) _).trans ?_
  exact chunksV m c 2 (i 0)
theorem tbl2_eq (c : Dev nD) : ∀ k, V5 m outs c (pre2.ref k) = tbl2 m c k :=
  fun | ⟨0, _⟩ => tbl2_eq_u m outs c | ⟨1, _⟩ => tbl2_eq_v m outs c

/-- The pipeline's side condition from a pointwise bound on the tables' words (the contents a variable). -/
theorem ok2_of_bound (pf : pre2.Contents (Elt F)) (hu : ∀ x, BitVec.toNat (w := 32) (pf 0 x) < 1000000)
    (hv : ∀ x, BitVec.toNat (w := 32) (pf 1 x) < 1000000) : ok2 pf := by
  refine ⟨fun i => ?_, fun i => ?_⟩
  · obtain ⟨w, hw, e⟩ : ∃ w : BitVec 32, w.toNat < 1000000 ∧ cc2_transform_0 k2_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc2_transform_1 k2_off1_inb numel1_S1 pf i = ![w.toNat, 0, 0] :=
      ⟨_, hv _, rfl⟩
    exact ⟨fun a => by rw [e]; exact block_inb w hw a, Or.inl rfl⟩

theorem ok2_of_idx (h : IdxOk m) (c : Dev nD) : ok2 (tbl2 m c) :=
  ok2_of_bound _ (fun x => (h c _).1) (fun x => (h c _).2)

/-- Region 2's tables as admissible contents (one core). -/
def adm2 (h : IdxOk m) : (pcfg2 (F := F)).Adm := ⟨tbl2 m 0, ok2_of_idx m h 0⟩

end Cert.Kernel.Gen

end
-- ==== Proof.TblK3.lean ====
/-
  Region 3's index tables: row 3 of the edge list cut into 8 rows of 43008 (place i of row k holds edge 43008 k + i).

  The host stretch before the region slices row 3 out of the two [8, 43008] arrays and flattens it; the arrays are
  those the first stretch built (no stretch writes them again, no region may change them), so the region finds
  `rowU m c 3`, `rowV m c 3` whatever the earlier regions left in their outputs. The pipeline's side condition follows from a
  pointwise bound on the words of any contents, hence holds of these tables when every edge's words are below 1000000.
-/
import proofs.«425429_j48773648614109_2_alg».proof.Proof.TablesK

noncomputable section

namespace Cert.Kernel.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 3: row 3 of the chunked edge list -/

/-- The two tables region 3 prefetches, as functions of the arguments. -/
def tbl3 (c : Dev nD) : pre3.Contents (Elt F) := fun | ⟨0, _⟩ => rowU m c 3 | ⟨1, _⟩ => rowV m c 3

theorem tbl3_apply_u (c : Dev nD) (i : Fin 43008) : tbl3 m c 0 (ValueIdx.ix1 i) = edgeU m c (3 * 43008 + i.val) := rfl
theorem tbl3_apply_v (c : Dev nD) (i : Fin 43008) : tbl3 m c 1 (ValueIdx.ix1 i) = edgeV m c (3 * 43008 + i.val) := rfl

/-- What the region finds in its first table, whatever the earlier regions left in their outputs. -/
theorem tbl3_eq_u (c : Dev nD) : V7 m outs c main_v30 = tbl3 m c 0 := by
  funext i
  rw [ValueIdx.eq_ix1 i]
  show StableHlo.after hostOps3 (V6 m outs c) (Proc.devRef .tc main_v30) (ValueIdx.ix1 (i 0)) = _
  after_results
  refine (row_apply _ 3 _ _ (i 0)).trans ?_
  refine (congrFun (V6_chunksU m outs c) _).trans ?_
  exact chunksU m c 3 (i 0)
/-- What the region finds in its second table. -/
theorem tbl3_eq_v (c : Dev nD) : V7 m outs c main_v32 = tbl3 m c 1 := by
  funext i
  rw [ValueIdx.eq_ix1 i]
  show StableHlo.after hostOps3 (V6 m outs c) (Proc.devRef .tc main_v32) (ValueIdx.ix1 (i 0)) = _
  after_results
  refine (row_apply _ 3 _ _ (i 0)).trans ?_
  refine (congrFun (V6_chunksV m outs c) _).trans ?_
  exact chunksV m c 3 (i 0)
theorem tbl3_eq (c : Dev nD) : ∀ k, V7 m outs c (pre3.ref k) = tbl3 m c k :=
  fun | ⟨0, _⟩ => tbl3_eq_u m outs c | ⟨1, _⟩ => tbl3_eq_v m outs c

/-- The pipeline's side condition from a pointwise bound on the tables' words (the contents a variable). -/
theorem ok3_of_bound (pf : pre3.Contents (Elt F)) (hu : ∀ x, BitVec.toNat (w := 32) (pf 0 x) < 1000000)
    (hv : ∀ x, BitVec.toNat (w := 32) (pf 1 x) < 1000000) : ok3 pf := by
  refine ⟨fun i => ?_, fun i => ?_⟩
  · obtain ⟨w, hw, e⟩ : ∃ w : BitVec 32, w.toNat < 1000000 ∧ cc3_transform_0 k3_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc3_transform_1 k3_off1_inb numel1_S1 pf i = ![w.toNat, 0, 0] :=
      ⟨_, hv _, rfl⟩
    exact ⟨fun a => by rw [e]; exact block_inb w hw a, Or.inl rfl⟩

theorem ok3_of_idx (h : IdxOk m) (c : Dev nD) : ok3 (tbl3 m c) :=
  ok3_of_bound _ (fun x => (h c _).1) (fun x => (h c _).2)

/-- Region 3's tables as admissible contents (one core). -/
def adm3 (h : IdxOk m) : (pcfg3 (F := F)).Adm := ⟨tbl3 m 0, ok3_of_idx m h 0⟩

end Cert.Kernel.Gen

end
-- ==== Proof.TblK4.lean ====
/-
  Region 4's index tables: row 4 of the edge list cut into 8 rows of 43008 (place i of row k holds edge 43008 k + i).

  The host stretch before the region slices row 4 out of the two [8, 43008] arrays and flattens it; the arrays are
  those the first stretch built (no stretch writes them again, no region may change them), so the region finds
  `rowU m c 4`, `rowV m c 4` whatever the earlier regions left in their outputs. The pipeline's side condition follows from a
  pointwise bound on the words of any contents, hence holds of these tables when every edge's words are below 1000000.
-/
import proofs.«425429_j48773648614109_2_alg».proof.Proof.TablesK

noncomputable section

namespace Cert.Kernel.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 4: row 4 of the chunked edge list -/

/-- The two tables region 4 prefetches, as functions of the arguments. -/
def tbl4 (c : Dev nD) : pre4.Contents (Elt F) := fun | ⟨0, _⟩ => rowU m c 4 | ⟨1, _⟩ => rowV m c 4

theorem tbl4_apply_u (c : Dev nD) (i : Fin 43008) : tbl4 m c 0 (ValueIdx.ix1 i) = edgeU m c (4 * 43008 + i.val) := rfl
theorem tbl4_apply_v (c : Dev nD) (i : Fin 43008) : tbl4 m c 1 (ValueIdx.ix1 i) = edgeV m c (4 * 43008 + i.val) := rfl

/-- What the region finds in its first table, whatever the earlier regions left in their outputs. -/
theorem tbl4_eq_u (c : Dev nD) : V9 m outs c main_v37 = tbl4 m c 0 := by
  funext i
  rw [ValueIdx.eq_ix1 i]
  show StableHlo.after hostOps4 (V8 m outs c) (Proc.devRef .tc main_v37) (ValueIdx.ix1 (i 0)) = _
  after_results
  refine (row_apply _ 4 _ _ (i 0)).trans ?_
  refine (congrFun (V8_chunksU m outs c) _).trans ?_
  exact chunksU m c 4 (i 0)
/-- What the region finds in its second table. -/
theorem tbl4_eq_v (c : Dev nD) : V9 m outs c main_v39 = tbl4 m c 1 := by
  funext i
  rw [ValueIdx.eq_ix1 i]
  show StableHlo.after hostOps4 (V8 m outs c) (Proc.devRef .tc main_v39) (ValueIdx.ix1 (i 0)) = _
  after_results
  refine (row_apply _ 4 _ _ (i 0)).trans ?_
  refine (congrFun (V8_chunksV m outs c) _).trans ?_
  exact chunksV m c 4 (i 0)
theorem tbl4_eq (c : Dev nD) : ∀ k, V9 m outs c (pre4.ref k) = tbl4 m c k :=
  fun | ⟨0, _⟩ => tbl4_eq_u m outs c | ⟨1, _⟩ => tbl4_eq_v m outs c

/-- The pipeline's side condition from a pointwise bound on the tables' words (the contents a variable). -/
theorem ok4_of_bound (pf : pre4.Contents (Elt F)) (hu : ∀ x, BitVec.toNat (w := 32) (pf 0 x) < 1000000)
    (hv : ∀ x, BitVec.toNat (w := 32) (pf 1 x) < 1000000) : ok4 pf := by
  refine ⟨fun i => ?_, fun i => ?_⟩
  · obtain ⟨w, hw, e⟩ : ∃ w : BitVec 32, w.toNat < 1000000 ∧ cc4_transform_0 k4_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc4_transform_1 k4_off1_inb numel1_S1 pf i = ![w.toNat, 0, 0] :=
      ⟨_, hv _, rfl⟩
    exact ⟨fun a => by rw [e]; exact block_inb w hw a, Or.inl rfl⟩

theorem ok4_of_idx (h : IdxOk m) (c : Dev nD) : ok4 (tbl4 m c) :=
  ok4_of_bound _ (fun x => (h c _).1) (fun x => (h c _).2)

/-- Region 4's tables as admissible contents (one core). -/
def adm4 (h : IdxOk m) : (pcfg4 (F := F)).Adm := ⟨tbl4 m 0, ok4_of_idx m h 0⟩

end Cert.Kernel.Gen

end
-- ==== Proof.TblK5.lean ====
/-
  Region 5's index tables: row 5 of the edge list cut into 8 rows of 43008 (place i of row k holds edge 43008 k + i).

  The host stretch before the region slices row 5 out of the two [8, 43008] arrays and flattens it; the arrays are
  those the first stretch built (no stretch writes them again, no region may change them), so the region finds
  `rowU m c 5`, `rowV m c 5` whatever the earlier regions left in their outputs. The pipeline's side condition follows from a
  pointwise bound on the words of any contents, hence holds of these tables when every edge's words are below 1000000.
-/
import proofs.«425429_j48773648614109_2_alg».proof.Proof.TablesK

noncomputable section

namespace Cert.Kernel.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 5: row 5 of the chunked edge list -/

/-- The two tables region 5 prefetches, as functions of the arguments. -/
def tbl5 (c : Dev nD) : pre5.Contents (Elt F) := fun | ⟨0, _⟩ => rowU m c 5 | ⟨1, _⟩ => rowV m c 5

theorem tbl5_apply_u (c : Dev nD) (i : Fin 43008) : tbl5 m c 0 (ValueIdx.ix1 i) = edgeU m c (5 * 43008 + i.val) := rfl
theorem tbl5_apply_v (c : Dev nD) (i : Fin 43008) : tbl5 m c 1 (ValueIdx.ix1 i) = edgeV m c (5 * 43008 + i.val) := rfl

/-- What the region finds in its first table, whatever the earlier regions left in their outputs. -/
theorem tbl5_eq_u (c : Dev nD) : V11 m outs c main_v44 = tbl5 m c 0 := by
  funext i
  rw [ValueIdx.eq_ix1 i]
  show StableHlo.after hostOps5 (V10 m outs c) (Proc.devRef .tc main_v44) (ValueIdx.ix1 (i 0)) = _
  after_results
  refine (row_apply _ 5 _ _ (i 0)).trans ?_
  refine (congrFun (V10_chunksU m outs c) _).trans ?_
  exact chunksU m c 5 (i 0)
/-- What the region finds in its second table. -/
theorem tbl5_eq_v (c : Dev nD) : V11 m outs c main_v46 = tbl5 m c 1 := by
  funext i
  rw [ValueIdx.eq_ix1 i]
  show StableHlo.after hostOps5 (V10 m outs c) (Proc.devRef .tc main_v46) (ValueIdx.ix1 (i 0)) = _
  after_results
  refine (row_apply _ 5 _ _ (i 0)).trans ?_
  refine (congrFun (V10_chunksV m outs c) _).trans ?_
  exact chunksV m c 5 (i 0)
theorem tbl5_eq (c : Dev nD) : ∀ k, V11 m outs c (pre5.ref k) = tbl5 m c k :=
  fun | ⟨0, _⟩ => tbl5_eq_u m outs c | ⟨1, _⟩ => tbl5_eq_v m outs c

/-- The pipeline's side condition from a pointwise bound on the tables' words (the contents a variable). -/
theorem ok5_of_bound (pf : pre5.Contents (Elt F)) (hu : ∀ x, BitVec.toNat (w := 32) (pf 0 x) < 1000000)
    (hv : ∀ x, BitVec.toNat (w := 32) (pf 1 x) < 1000000) : ok5 pf := by
  refine ⟨fun i => ?_, fun i => ?_⟩
  · obtain ⟨w, hw, e⟩ : ∃ w : BitVec 32, w.toNat < 1000000 ∧ cc5_transform_0 k5_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc5_transform_1 k5_off1_inb numel1_S1 pf i = ![w.toNat, 0, 0] :=
      ⟨_, hv _, rfl⟩
    exact ⟨fun a => by rw [e]; exact block_inb w hw a, Or.inl rfl⟩

theorem ok5_of_idx (h : IdxOk m) (c : Dev nD) : ok5 (tbl5 m c) :=
  ok5_of_bound _ (fun x => (h c _).1) (fun x => (h c _).2)

/-- Region 5's tables as admissible contents (one core). -/
def adm5 (h : IdxOk m) : (pcfg5 (F := F)).Adm := ⟨tbl5 m 0, ok5_of_idx m h 0⟩

end Cert.Kernel.Gen

end
-- ==== Proof.TblK6.lean ====
/-
  Region 6's index tables: row 6 of the edge list cut into 8 rows of 43008 (place i of row k holds edge 43008 k + i).

  The host stretch before the region slices row 6 out of the two [8, 43008] arrays and flattens it; the arrays are
  those the first stretch built (no stretch writes them again, no region may change them), so the region finds
  `rowU m c 6`, `rowV m c 6` whatever the earlier regions left in their outputs. The pipeline's side condition follows from a
  pointwise bound on the words of any contents, hence holds of these tables when every edge's words are below 1000000.
-/
import proofs.«425429_j48773648614109_2_alg».proof.Proof.TablesK

noncomputable section

namespace Cert.Kernel.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 6: row 6 of the chunked edge list -/

/-- The two tables region 6 prefetches, as functions of the arguments. -/
def tbl6 (c : Dev nD) : pre6.Contents (Elt F) := fun | ⟨0, _⟩ => rowU m c 6 | ⟨1, _⟩ => rowV m c 6

theorem tbl6_apply_u (c : Dev nD) (i : Fin 43008) : tbl6 m c 0 (ValueIdx.ix1 i) = edgeU m c (6 * 43008 + i.val) := rfl
theorem tbl6_apply_v (c : Dev nD) (i : Fin 43008) : tbl6 m c 1 (ValueIdx.ix1 i) = edgeV m c (6 * 43008 + i.val) := rfl

/-- What the region finds in its first table, whatever the earlier regions left in their outputs. -/
theorem tbl6_eq_u (c : Dev nD) : V13 m outs c main_v51 = tbl6 m c 0 := by
  funext i
  rw [ValueIdx.eq_ix1 i]
  show StableHlo.after hostOps6 (V12 m outs c) (Proc.devRef .tc main_v51) (ValueIdx.ix1 (i 0)) = _
  after_results
  refine (row_apply _ 6 _ _ (i 0)).trans ?_
  refine (congrFun (V12_chunksU m outs c) _).trans ?_
  exact chunksU m c 6 (i 0)
/-- What the region finds in its second table. -/
theorem tbl6_eq_v (c : Dev nD) : V13 m outs c main_v53 = tbl6 m c 1 := by
  funext i
  rw [ValueIdx.eq_ix1 i]
  show StableHlo.after hostOps6 (V12 m outs c) (Proc.devRef .tc main_v53) (ValueIdx.ix1 (i 0)) = _
  after_results
  refine (row_apply _ 6 _ _ (i 0)).trans ?_
  refine (congrFun (V12_chunksV m outs c) _).trans ?_
  exact chunksV m c 6 (i 0)
theorem tbl6_eq (c : Dev nD) : ∀ k, V13 m outs c (pre6.ref k) = tbl6 m c k :=
  fun | ⟨0, _⟩ => tbl6_eq_u m outs c | ⟨1, _⟩ => tbl6_eq_v m outs c

/-- The pipeline's side condition from a pointwise bound on the tables' words (the contents a variable). -/
theorem ok6_of_bound (pf : pre6.Contents (Elt F)) (hu : ∀ x, BitVec.toNat (w := 32) (pf 0 x) < 1000000)
    (hv : ∀ x, BitVec.toNat (w := 32) (pf 1 x) < 1000000) : ok6 pf := by
  refine ⟨fun i => ?_, fun i => ?_⟩
  · obtain ⟨w, hw, e⟩ : ∃ w : BitVec 32, w.toNat < 1000000 ∧ cc6_transform_0 k6_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc6_transform_1 k6_off1_inb numel1_S1 pf i = ![w.toNat, 0, 0] :=
      ⟨_, hv _, rfl⟩
    exact ⟨fun a => by rw [e]; exact block_inb w hw a, Or.inl rfl⟩

theorem ok6_of_idx (h : IdxOk m) (c : Dev nD) : ok6 (tbl6 m c) :=
  ok6_of_bound _ (fun x => (h c _).1) (fun x => (h c _).2)

/-- Region 6's tables as admissible contents (one core). -/
def adm6 (h : IdxOk m) : (pcfg6 (F := F)).Adm := ⟨tbl6 m 0, ok6_of_idx m h 0⟩

end Cert.Kernel.Gen

end
-- ==== Proof.TblK7.lean ====
/-
  Region 7's index tables: row 7 of the edge list cut into 8 rows of 43008 (place i of row k holds edge 43008 k + i).

  The host stretch before the region slices row 7 out of the two [8, 43008] arrays and flattens it; the arrays are
  those the first stretch built (no stretch writes them again, no region may change them), so the region finds
  `rowU m c 7`, `rowV m c 7` whatever the earlier regions left in their outputs. The pipeline's side condition follows from a
  pointwise bound on the words of any contents, hence holds of these tables when every edge's words are below 1000000.
-/
import proofs.«425429_j48773648614109_2_alg».proof.Proof.TablesK

noncomputable section

namespace Cert.Kernel.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 7: row 7 of the chunked edge list -/

/-- The two tables region 7 prefetches, as functions of the arguments. -/
def tbl7 (c : Dev nD) : pre7.Contents (Elt F) := fun | ⟨0, _⟩ => rowU m c 7 | ⟨1, _⟩ => rowV m c 7

theorem tbl7_apply_u (c : Dev nD) (i : Fin 43008) : tbl7 m c 0 (ValueIdx.ix1 i) = edgeU m c (7 * 43008 + i.val) := rfl
theorem tbl7_apply_v (c : Dev nD) (i : Fin 43008) : tbl7 m c 1 (ValueIdx.ix1 i) = edgeV m c (7 * 43008 + i.val) := rfl

/-- What the region finds in its first table, whatever the earlier regions left in their outputs. -/
theorem tbl7_eq_u (c : Dev nD) : V15 m outs c main_v58 = tbl7 m c 0 := by
  funext i
  rw [ValueIdx.eq_ix1 i]
  show StableHlo.after hostOps7 (V14 m outs c) (Proc.devRef .tc main_v58) (ValueIdx.ix1 (i 0)) = _
  after_results
  refine (row_apply _ 7 _ _ (i 0)).trans ?_
  refine (congrFun (V14_chunksU m outs c) _).trans ?_
  exact chunksU m c 7 (i 0)
/-- What the region finds in its second table. -/
theorem tbl7_eq_v (c : Dev nD) : V15 m outs c main_v60 = tbl7 m c 1 := by
  funext i
  rw [ValueIdx.eq_ix1 i]
  show StableHlo.after hostOps7 (V14 m outs c) (Proc.devRef .tc main_v60) (ValueIdx.ix1 (i 0)) = _
  after_results
  refine (row_apply _ 7 _ _ (i 0)).trans ?_
  refine (congrFun (V14_chunksV m outs c) _).trans ?_
  exact chunksV m c 7 (i 0)
theorem tbl7_eq (c : Dev nD) : ∀ k, V15 m outs c (pre7.ref k) = tbl7 m c k :=
  fun | ⟨0, _⟩ => tbl7_eq_u m outs c | ⟨1, _⟩ => tbl7_eq_v m outs c

/-- The pipeline's side condition from a pointwise bound on the tables' words (the contents a variable). -/
theorem ok7_of_bound (pf : pre7.Contents (Elt F)) (hu : ∀ x, BitVec.toNat (w := 32) (pf 0 x) < 1000000)
    (hv : ∀ x, BitVec.toNat (w := 32) (pf 1 x) < 1000000) : ok7 pf := by
  refine ⟨fun i => ?_, fun i => ?_⟩
  · obtain ⟨w, hw, e⟩ : ∃ w : BitVec 32, w.toNat < 1000000 ∧ cc7_transform_0 k7_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc7_transform_1 k7_off1_inb numel1_S1 pf i = ![w.toNat, 0, 0] :=
      ⟨_, hv _, rfl⟩
    exact ⟨fun a => by rw [e]; exact block_inb w hw a, Or.inl rfl⟩

theorem ok7_of_idx (h : IdxOk m) (c : Dev nD) : ok7 (tbl7 m c) :=
  ok7_of_bound _ (fun x => (h c _).1) (fun x => (h c _).2)

/-- Region 7's tables as admissible contents (one core). -/
def adm7 (h : IdxOk m) : (pcfg7 (F := F)).Adm := ⟨tbl7 m 0, ok7_of_idx m h 0⟩

end Cert.Kernel.Gen

end
-- ==== Proof.AdmsK.lean ====
/-
  The eight regions' tables as one family of admissible contents, under the bound `IdxOk` on the edge list's words.
-/
import proofs.«425429_j48773648614109_2_alg».proof.Proof.TablesK
import proofs.«425429_j48773648614109_2_alg».proof.Proof.TblK1
import proofs.«425429_j48773648614109_2_alg».proof.Proof.TblK2
import proofs.«425429_j48773648614109_2_alg».proof.Proof.TblK3
import proofs.«425429_j48773648614109_2_alg».proof.Proof.TblK4
import proofs.«425429_j48773648614109_2_alg».proof.Proof.TblK5
import proofs.«425429_j48773648614109_2_alg».proof.Proof.TblK6
import proofs.«425429_j48773648614109_2_alg».proof.Proof.TblK7

noncomputable section

namespace Cert.Kernel.Gen

open Idealize.ShloMosaic Idealize.ShloMosaic.TcCoe
open Idealize.SL.Sem

variable {F : FTy → Type} [FloatOps F]
variable (m : (ℓ : Loc nD τ sig) → Buf (Elt F) ℓ) (outs : Outs (F := F))

/-- Pipeline `p`'s tables: row `p` of the u-list and of the v-list. -/
def adms (h : IdxOk m) : (p : Fin 8) → (pcfgs (F := F) p).Adm
  | ⟨0, _⟩ => adm0 m h | ⟨1, _⟩ => adm1 m h | ⟨2, _⟩ => adm2 m h | ⟨3, _⟩ => adm3 m h
  | ⟨4, _⟩ => adm4 m h | ⟨5, _⟩ => adm5 m h | ⟨6, _⟩ => adm6 m h | ⟨7, _⟩ => adm7 m h
  | ⟨_ + 8, hn⟩ => absurd hn (Nat.not_lt.2 (Nat.le_add_left _ _))

/-- One device: every core is core 0. -/
theorem dev_eq_zero (c : Dev nD) : c = 0 := Subsingleton.elim _ _

/-! Each region finds in its tables what the family holds for it. -/

theorem adms_tab0 (h : IdxOk m) (c : Dev nD) (k) : V1 m c (pre0.ref k) = (adms m h 0).1 k := by
  rw [dev_eq_zero c]; exact tbl0_eq m 0 k
theorem adms_tab1 (h : IdxOk m) (c : Dev nD) (k) : V3 m outs c (pre1.ref k) = (adms m h 1).1 k := by
  rw [dev_eq_zero c]; exact tbl1_eq m outs 0 k
theorem adms_tab2 (h : IdxOk m) (c : Dev nD) (k) : V5 m outs c (pre2.ref k) = (adms m h 2).1 k := by
  rw [dev_eq_zero c]; exact tbl2_eq m outs 0 k
theorem adms_tab3 (h : IdxOk m) (c : Dev nD) (k) : V7 m outs c (pre3.ref k) = (adms m h 3).1 k := by
  rw [dev_eq_zero c]; exact tbl3_eq m outs 0 k
theorem adms_tab4 (h : IdxOk m) (c : Dev nD) (k) : V9 m outs c (pre4.ref k) = (adms m h 4).1 k := by
  rw [dev_eq_zero c]; exact tbl4_eq m outs 0 k
theorem adms_tab5 (h : IdxOk m) (c : Dev nD) (k) : V11 m outs c (pre5.ref k) = (adms m h 5).1 k := by
  rw [dev_eq_zero c]; exact tbl5_eq m outs 0 k
theorem adms_tab6 (h : IdxOk m) (c : Dev nD) (k) : V13 m outs c (pre6.ref k) = (adms m h 6).1 k := by
  rw [dev_eq_zero c]; exact tbl6_eq m outs 0 k
theorem adms_tab7 (h : IdxOk m) (c : Dev nD) (k) : V15 m outs c (pre7.ref k) = (adms m h 7).1 k := by
  rw [dev_eq_zero c]; exact tbl7_eq m outs 0 k

end Cert.Kernel.Gen

end
-- ==== Proof.DatK0.lean ====
import proofs.«425429_j48773648614109_2_alg».proof.Proof.LaunchK
import proofs.«425429_j48773648614109_2_alg».proof.Proof.Gen.Kernel.Skeleton
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
  (V : (c : Dev nD) → (b : Ref sig .tc) → Buf (Elt F) ((c : Thread nD τ).loc b))

/-- The pipeline of @main this module is about. -/
abbrev p0 : Fin 8 := 0

/-! ## The grid's points by number -/

/-- The region's grid has a point. -/
theorem N_pos0 : 0 < (cfg0 a).N := by
  rw [show (cfg0 a).N = grid0.N from rfl, N_0]; exact Nat.succ_pos _

/-- The grid point numbered `n`; a number past the grid wraps around (such a point is never consulted). -/
def pt0 (n : ℕ) : Fin (cfg0 a).N := ⟨n % (cfg0 a).N, Nat.mod_lt _ (N_pos0 a)⟩

/-- A grid point is the point of its own number. -/
theorem pt_val0 (t : Fin (cfg0 a).N) : pt0 a t.val = t := Fin.ext (Nat.mod_eq_of_lt t.isLt)

/-! ## The windows' blocks -/

/-- Window `w`'s block at point `t`, read off its array as the region finds it (`V`). -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-! ## The accumulation -/

/-- What the carried scratch holds AFTER the point numbered `n`: the sum so far. After the first point it is that
    point's term added to the zero the first point stores; after a later point, that point's term added to what
    the point before left. -/
def accAt0 (c : Dev nD) : ℕ → Vec F S1x1 .f32
  | 0 => k0_pay2 (iblk0 a V c (0 : Fin 3) (pt0 a 0)) (iblk0 a V c (1 : Fin 3) (pt0 a 0)) (k0_pay1 (F := F))
  | n + 1 => k0_pay2 (iblk0 a V c (0 : Fin 3) (pt0 a (n + 1))) (iblk0 a V c (1 : Fin 3) (pt0 a (n + 1))) (accAt0 c n)

theorem accAt_zero0 (c : Dev nD) :
    accAt0 a V c 0 = k0_pay2 (iblk0 a V c (0 : Fin 3) (pt0 a 0)) (iblk0 a V c (1 : Fin 3) (pt0 a 0)) (k0_pay1 (F := F)) := rfl

theorem accAt_succ0 (c : Dev nD) (n : ℕ) :
    accAt0 a V c (n + 1) = k0_pay2 (iblk0 a V c (0 : Fin 3) (pt0 a (n + 1))) (iblk0 a V c (1 : Fin 3) (pt0 a (n + 1))) (accAt0 a V c n) := rfl

/-! ## The region invariant -/

/-- The region invariant before the position numbered `n`: the generator register at some state and the prefetched
    tables held whole throughout; before the first point every scoped buffer no window stages at anything; afterwards
    the carried scratch at the sum the point before left (`accAt0`), the other such buffers at anything. -/
def Phi0 (c : Dev nD) : ℕ → sProp 𝕄
  | 0 => iprop((∃ r, prngReg c r) ∗ Pipeline.prefHeld pre0 c (fun _ => fullShare) a.1 ∗ Pipeline.scopedRest spec0 c)
  | n + 1 => iprop((∃ r, prngReg c r) ∗ Pipeline.prefHeld pre0 c (fun _ => fullShare) a.1
      ∗ owns (c : Thread nD τ) (Memref.whole cc0_scratch0) fullShare (accAt0 a V c n)
      ∗ Pipeline.scopedRestBut spec0 c [cc0_scratch0])

theorem Phi_zero0 (c : Dev nD) :
    Phi0 a V c 0 = iprop((∃ r, prngReg c r) ∗ Pipeline.prefHeld pre0 c (fun _ => fullShare) a.1 ∗ Pipeline.scopedRest spec0 c) := rfl

theorem Phi_succ0 (c : Dev nD) (n : ℕ) :
    Phi0 a V c (n + 1) = iprop((∃ r, prngReg c r) ∗ Pipeline.prefHeld pre0 c (fun _ => fullShare) a.1
      ∗ owns (c : Thread nD τ) (Memref.whole cc0_scratch0) fullShare (accAt0 a V c n)
      ∗ Pipeline.scopedRestBut spec0 c [cc0_scratch0]) := rfl

theorem Phi_pos0 (c : Dev nD) (n : ℕ) (hn : n ≠ 0) :
    Phi0 a V c n = iprop((∃ r, prngReg c r) ∗ Pipeline.prefHeld pre0 c (fun _ => fullShare) a.1
      ∗ owns (c : Thread nD τ) (Memref.whole cc0_scratch0) fullShare (accAt0 a V c (n - 1))
      ∗ Pipeline.scopedRestBut spec0 c [cc0_scratch0]) := by
  cases n with
  | zero => exact absurd rfl hn
  | succ n => rfl

/-! ## The pipeline's proof data -/

/-- The proof data of region 0's pipeline on core `c`: the arrays as the region finds them (`V`); after the body at
    point `t` each input's buffer at its block and the output's at the sum so far (the output window is idle at
    every point but the last, where this is the total); the invariant `Phi0`; nothing owed; full shares. -/
def dat0 (c : Dev nD) : Dat τ (Elt F) Unit ℕ (UR sig nD τ) ℕ (cfg0 a) c where
  A w := V c (Pipeline.arrRef spec0 w)
  after w t := match w with
    | ⟨0, _⟩ => iblk0 a V c (0 : Fin 3) t
    | ⟨1, _⟩ => iblk0 a V c (1 : Fin 3) t
    | ⟨2, _⟩ => accAt0 a V c t.val
  Φ t := Phi0 a V c t.val
  q _ := fullShare
  owed _ := 0

theorem A_eq0 (c : Dev nD) (w : Fin (cfg0 a).W) : (dat0 a V c).A w = V c (Pipeline.arrRef spec0 w) := by
  dsimp only [dat0]

theorem afterU0 (c : Dev nD) (t : Fin (cfg0 a).N) : (dat0 a V c).after (0 : Fin 3) t = iblk0 a V c (0 : Fin 3) t := by dsimp only [dat0]
theorem afterV0 (c : Dev nD) (t : Fin (cfg0 a).N) : (dat0 a V c).after (1 : Fin 3) t = iblk0 a V c (1 : Fin 3) t := by dsimp only [dat0]
theorem afterO0 (c : Dev nD) (t : Fin (cfg0 a).N) : (dat0 a V c).after (2 : Fin 3) t = accAt0 a V c t.val := by dsimp only [dat0]

theorem dat_Φ0 (c : Dev nD) (t : Fin ((cfg0 a).N + 1)) : (dat0 a V c).Φ t = Phi0 a V c t.val := by dsimp only [dat0]

theorem dat_Φ_castSucc0 (c : Dev nD) (t : Fin (cfg0 a).N) : (dat0 a V c).Φ t.castSucc = Phi0 a V c t.val := by
  rw [dat_Φ0, Fin.coe_castSucc]

theorem dat_Φ_succ0 (c : Dev nD) (t : Fin (cfg0 a).N) : (dat0 a V c).Φ t.succ = Phi0 a V c (t.val + 1) := by
  rw [dat_Φ0, Fin.val_succ]

theorem dat_Φ_zero0 (c : Dev nD) :
    (dat0 a V c).Φ 0 = iprop((∃ r, prngReg c r) ∗ Pipeline.prefHeld pre0 c (fun _ => fullShare) a.1 ∗ Pipeline.scopedRest spec0 c) := by
  rw [dat_Φ0]; rfl

theorem dat_Φ_last0 (c : Dev nD) :
    (dat0 a V c).Φ (Fin.last (cfg0 a).N) = iprop((∃ r, prngReg c r) ∗ Pipeline.prefHeld pre0 c (fun _ => fullShare) a.1
      ∗ owns (c : Thread nD τ) (Memref.whole cc0_scratch0) fullShare (accAt0 a V c ((cfg0 a).N - 1))
      ∗ Pipeline.scopedRestBut spec0 c [cc0_scratch0]) := by
  rw [dat_Φ0, Fin.val_last]
  exact Phi_pos0 a V c _ (Nat.pos_iff_ne_zero.mp (N_pos0 a))

/-! ## The inputs' staging buffers -/

/-- Input window 0's current staging buffer holds its block at every point, fetched there or not: unfetched, the
    block index has not moved since the point before, and the body leaves the block in place. -/
theorem beforeU0 (c : Dev nD) (t : Fin (cfg0 a).N) (d) : (dat0 a V c).before (0 : Fin 3) t d = iblk0 a V c (0 : Fin 3) t :=
  ((dat0 a V c).before_in_eq_fetched (0 : Fin 3) rfl (fun _ => rfl) (fun _ _ _ => rfl)
    (fun t => by rw [afterU0]; unfold Dat.blockOf iblk0; rw [A_eq0]; try rfl) t d).trans
    (by unfold Dat.fetched Dat.blockOf iblk0; rw [A_eq0]; try rfl)

/-- The same for input window 1. -/
theorem beforeV0 (c : Dev nD) (t : Fin (cfg0 a).N) (d) : (dat0 a V c).before (1 : Fin 3) t d = iblk0 a V c (1 : Fin 3) t :=
  ((dat0 a V c).before_in_eq_fetched (1 : Fin 3) rfl (fun _ => rfl) (fun _ _ _ => rfl)
    (fun t => by rw [afterV0]; unfold Dat.blockOf iblk0; rw [A_eq0]; try rfl) t d).trans
    (by unfold Dat.fetched Dat.blockOf iblk0; rw [A_eq0]; try rfl)

end Cert.Kernel.Gen

end
-- ==== Proof.SegK0.lean ====
import proofs.«425429_j48773648614109_2_alg».proof.Proof.DatK0
import Idealize.ShloMosaic.Lib.Pipeline.Frame
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 0 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v12`) and the rest; the rest splits once more into the two
  prefetched index tables (`main_v9`, `main_v11`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg0

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin0 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 0 over the thread state "every unscoped buffer at a valuation, the generator register at some state, nothing
    owed": entered at `Win`, left at `Wout`, for any family of proof data whose member at this pipeline is `dat0` at the
    entry valuation (`hd`), given that the two index tables hold the admissible contents at entry (`htab`), that `Wout`
    has each window's array at what the pipeline leaves there (`hF`) and agrees with `Win` off the arrays (`hrest`), and
    the body obligation (`hb`). -/
def reg0
    (hd : ∀ c, pdats p0 c = dat0 (a p0) (vin0 Win) c)
    (hb : ∀ c, BodyObligation (dat0 (a p0) (vin0 Win) c) (defs₀ (F := F)) Variants.none () Set.univ)
    (htab : ∀ c (k : Fin pre0.K), Win c (pre0.ref k) = (a p0 : (pcfg0 (F := F)).Adm).1 k)
    (hF : ∀ c w, (pdats p0 c).arrAt w (Pipeline.pin (pcfgs (F := F)) a p0).N = Wout c (Pipeline.arrRef spec0 w))
    (hrest : ∀ c (b : Ref sig .tc), b ∉ Finset.univ.image (Pipeline.arrRef spec0) → Wout c b = Win c b) :
    Pipeline.RegionSeg (pcfgs (F := F)) a pdats () defs₀ Variants.none (fun _ => (∅ : Finset Unit)) (fun _ _ => (0 : ℕ)) p0 where
  win := (launch0 (F := F)).win.to₀
  block_pos := (launch0 (F := F)).block_pos
  stage_whole := (launch0 (F := F)).stage_whole
  K := PEmpty
  osem k := k.elim
  ho := Pipeline.OwnSemFacts.none _
  hbody c := by rw [hd c]; exact (hb c).loose
  hwaits := Pipeline.hwaits_of_owed_zero _ _ _ _ _ _ p0 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre0 c (fun _ => fullShare) (a p0 : (pcfg0 (F := F)).Adm).1)
  Z c := Pipeline.unscopedRestP (Ix := Unit) (Name := ℕ) (U := UR sig nD τ) (Lvl := ℕ) pre0 spec0 c (vin0 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p0 c).arrays ((pdats p0 c).arrAt · 0) ∗ Pipeline.prefHeld pre0 c (fun _ => fullShare) (a p0 : (pcfg0 (F := F)).Adm).1
            ∗ Pipeline.unscopedRestP pre0 spec0 c (vin0 Win c)) := by
      have h := Pipeline.arrays_of_unscopedBufs (p := p0) (pcfgs (F := F)) a pdats (launch0 (F := F)).win (launch0 (F := F)).arr_whole c
        (by rw [hd c]; exact (dat0 (a p0) (vin0 Win) c).share_full fun _ => rfl) (vin0 Win c) (by rw [hd c]; exact A_eq0 (a p0) (vin0 Win) c)
      rw [Pipeline.unscopedBufs_held c (Win c), Pipeline.unscopedRest_split (launch0 (F := F)).pre c (vin0 Win c)] at h
      rw [← show (fun k => vin0 Win c (pre0.ref k)) = (a p0 : (pcfg0 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p0 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero0]
    exact .rfl
  hout c := by
    -- the accumulator's points-to at its last value is one of the scoped buffers "at some contents"
    rw [Pipeline.ownSems0_none, hd c,
      show (dat0 (a p0) (vin0 Win) c).Φ (Fin.last (Pipeline.pin (pcfgs (F := F)) a p0).N) = _ from dat_Φ_last0 (a p0) (vin0 Win) c,
      show (Pipeline.scopedRest (Pipeline.pin (pcfgs (F := F)) a p0).spec c : sProp 𝕄) = _ from scopedRest0_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p0 c).arrays ((pdats p0 c).arrAt · (Pipeline.pin (pcfgs (F := F)) a p0).N)
          ∗ Pipeline.prefHeld pre0 c (fun _ => fullShare) (a p0 : (pcfg0 (F := F)).Adm).1 ∗ Pipeline.unscopedRestP pre0 spec0 c (vin0 Win c))
        ⊢ (StableHlo.held (c : Thread nD τ) (Pipeline.ucRefs τ sig) (Wout c) : sProp 𝕄) := by
      have h := Pipeline.unscopedBufs_of_arrays (p := p0) (pcfgs (F := F)) a (Ix := Unit) (Name := ℕ) (U := UR sig nD τ) (Lvl := ℕ)
        (launch0 (F := F)).win (launch0 (F := F)).arr_whole c pdats (by rw [hd c]; exact (dat0 (a p0) (vin0 Win) c).share_full fun _ => rfl)
        (vin0 Win c) (vin0 Wout c) ((pdats p0 c).arrAt · (Pipeline.pin (pcfgs (F := F)) a p0).N) (hF c) (hrest c)
      rw [Pipeline.unscopedBufs_held c (Wout c), Pipeline.unscopedRest_split (launch0 (F := F)).pre c (vin0 Win c)] at h
      rw [← show (fun k => vin0 Win c (pre0.ref k)) = (a p0 : (pcfg0 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p0 c).owed (Fin.last _) = 0 from by rw [hd c]; rfl]
    icases HO with ⟨%W, -, HO⟩; iexists W; iexact HO

end Seg0

end Cert.Kernel.Gen

end
-- ==== Proof.RecK0.lean ====
import proofs.«425429_j48773648614109_2_alg».proof.Proof.SegK0

/-! Region 0's segment record from facts about the two valuations alone.

The region's record (`reg0`) asks, of the valuation at the exit, each window's array at what the pipeline leaves
there. The two input arrays are never written, so they are left as found: that half asks only that the exit
valuation agrees with the entry valuation at them. The output array is left at the contents the write-backs build
(`outArr0`), a function of the entry valuation: that half asks that the exit valuation holds exactly that. -/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec0

/-- What region 0 leaves in its output array, from the admissible tables and the valuation at its entry: the array
    after every point's write-back. -/
def outArr0 (adm : (pcfg0 (F := F)).Adm) (Win : Dev nD → Valuation τ sig (Elt F)) (c : Dev nD) :
    Buf (Elt F) ((c : Thread nD τ).loc (Pipeline.arrRef spec0 (2 : Fin 3))) :=
  (dat0 adm (vin0 Win) c).arrAt (2 : Fin 3) (cfg0 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of0
    (hd : ∀ c, pdats p0 c = dat0 (a p0) (vin0 Win) c)
    (hin : ∀ c (w : Fin 3), w ≠ 2 → Wout c (Pipeline.arrRef spec0 w) = Win c (Pipeline.arrRef spec0 w))
    (hout : ∀ c, Wout c (Pipeline.arrRef spec0 (2 : Fin 3)) = outArr0 (a p0) Win c)
    (c : Dev nD) (w : Fin 3) :
    (pdats p0 c).arrAt w (Pipeline.pin (pcfgs (F := F)) a p0).N = Wout c (Pipeline.arrRef spec0 w) := by
  rw [hd c]
  match w with
  | ⟨0, _⟩ =>
    exact (Dat.arrAt_in (dat0 (a p0) (vin0 Win) c) (0 : Fin 3) rfl _).trans
      ((A_eq0 (a p0) (vin0 Win) c (0 : Fin 3)).trans (hin c (0 : Fin 3) (by decide)).symm)
  | ⟨1, _⟩ =>
    exact (Dat.arrAt_in (dat0 (a p0) (vin0 Win) c) (1 : Fin 3) rfl _).trans
      ((A_eq0 (a p0) (vin0 Win) c (1 : Fin 3)).trans (hin c (1 : Fin 3) (by decide)).symm)
  | ⟨2, _⟩ => exact (hout c).symm

/-- REGION 0's record between two valuations: entered at `Win`, left at `Wout`. -/
def rec0
    (hd : ∀ c, pdats p0 c = dat0 (a p0) (vin0 Win) c)
    (hb : ∀ c, BodyObligation (dat0 (a p0) (vin0 Win) c) (defs₀ (F := F)) Variants.none () Set.univ)
    (htab : ∀ c (k : Fin pre0.K), Win c (pre0.ref k) = (a p0 : (pcfg0 (F := F)).Adm).1 k)
    (hin : ∀ c (w : Fin 3), w ≠ 2 → Wout c (Pipeline.arrRef spec0 w) = Win c (Pipeline.arrRef spec0 w))
    (hout : ∀ c, Wout c (Pipeline.arrRef spec0 (2 : Fin 3)) = outArr0 (a p0) Win c)
    (hrest : ∀ c (b : Ref sig .tc), b ∉ Finset.univ.image (Pipeline.arrRef spec0) → Wout c b = Win c b) :
    Pipeline.RegionSeg (pcfgs (F := F)) a pdats () defs₀ Variants.none (fun _ => (∅ : Finset Unit)) (fun _ _ => (0 : ℕ)) p0 :=
  reg0 a pdats Win Wout hd hb htab (hF_of0 a pdats Win Wout hd hin hout) hrest

end Rec0

end Cert.Kernel.Gen

end
-- ==== Proof.DatK1.lean ====
import proofs.«425429_j48773648614109_2_alg».proof.Proof.LaunchK
import proofs.«425429_j48773648614109_2_alg».proof.Proof.Gen.Kernel.Skeleton
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
  (V : (c : Dev nD) → (b : Ref sig .tc) → Buf (Elt F) ((c : Thread nD τ).loc b))

/-- The pipeline of @main this module is about. -/
abbrev p1 : Fin 8 := 1

/-! ## The grid's points by number -/

/-- The region's grid has a point. -/
theorem N_pos1 : 0 < (cfg1 a).N := by
  rw [show (cfg1 a).N = grid1.N from rfl, N_1]; exact Nat.succ_pos _

/-- The grid point numbered `n`; a number past the grid wraps around (such a point is never consulted). -/
def pt1 (n : ℕ) : Fin (cfg1 a).N := ⟨n % (cfg1 a).N, Nat.mod_lt _ (N_pos1 a)⟩

/-- A grid point is the point of its own number. -/
theorem pt_val1 (t : Fin (cfg1 a).N) : pt1 a t.val = t := Fin.ext (Nat.mod_eq_of_lt t.isLt)

/-! ## The windows' blocks -/

/-- Window `w`'s block at point `t`, read off its array as the region finds it (`V`). -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-! ## The accumulation -/

/-- What the carried scratch holds AFTER the point numbered `n`: the sum so far. After the first point it is that
    point's term added to the zero the first point stores; after a later point, that point's term added to what
    the point before left. -/
def accAt1 (c : Dev nD) : ℕ → Vec F S1x1 .f32
  | 0 => k1_pay2 (iblk1 a V c (0 : Fin 3) (pt1 a 0)) (iblk1 a V c (1 : Fin 3) (pt1 a 0)) (k1_pay1 (F := F))
  | n + 1 => k1_pay2 (iblk1 a V c (0 : Fin 3) (pt1 a (n + 1))) (iblk1 a V c (1 : Fin 3) (pt1 a (n + 1))) (accAt1 c n)

theorem accAt_zero1 (c : Dev nD) :
    accAt1 a V c 0 = k1_pay2 (iblk1 a V c (0 : Fin 3) (pt1 a 0)) (iblk1 a V c (1 : Fin 3) (pt1 a 0)) (k1_pay1 (F := F)) := rfl

theorem accAt_succ1 (c : Dev nD) (n : ℕ) :
    accAt1 a V c (n + 1) = k1_pay2 (iblk1 a V c (0 : Fin 3) (pt1 a (n + 1))) (iblk1 a V c (1 : Fin 3) (pt1 a (n + 1))) (accAt1 a V c n) := rfl

/-! ## The region invariant -/

/-- The region invariant before the position numbered `n`: the generator register at some state and the prefetched
    tables held whole throughout; before the first point every scoped buffer no window stages at anything; afterwards
    the carried scratch at the sum the point before left (`accAt1`), the other such buffers at anything. -/
def Phi1 (c : Dev nD) : ℕ → sProp 𝕄
  | 0 => iprop((∃ r, prngReg c r) ∗ Pipeline.prefHeld pre1 c (fun _ => fullShare) a.1 ∗ Pipeline.scopedRest spec1 c)
  | n + 1 => iprop((∃ r, prngReg c r) ∗ Pipeline.prefHeld pre1 c (fun _ => fullShare) a.1
      ∗ owns (c : Thread nD τ) (Memref.whole cc1_scratch0) fullShare (accAt1 a V c n)
      ∗ Pipeline.scopedRestBut spec1 c [cc1_scratch0])

theorem Phi_zero1 (c : Dev nD) :
    Phi1 a V c 0 = iprop((∃ r, prngReg c r) ∗ Pipeline.prefHeld pre1 c (fun _ => fullShare) a.1 ∗ Pipeline.scopedRest spec1 c) := rfl

theorem Phi_succ1 (c : Dev nD) (n : ℕ) :
    Phi1 a V c (n + 1) = iprop((∃ r, prngReg c r) ∗ Pipeline.prefHeld pre1 c (fun _ => fullShare) a.1
      ∗ owns (c : Thread nD τ) (Memref.whole cc1_scratch0) fullShare (accAt1 a V c n)
      ∗ Pipeline.scopedRestBut spec1 c [cc1_scratch0]) := rfl

theorem Phi_pos1 (c : Dev nD) (n : ℕ) (hn : n ≠ 0) :
    Phi1 a V c n = iprop((∃ r, prngReg c r) ∗ Pipeline.prefHeld pre1 c (fun _ => fullShare) a.1
      ∗ owns (c : Thread nD τ) (Memref.whole cc1_scratch0) fullShare (accAt1 a V c (n - 1))
      ∗ Pipeline.scopedRestBut spec1 c [cc1_scratch0]) := by
  cases n with
  | zero => exact absurd rfl hn
  | succ n => rfl

/-! ## The pipeline's proof data -/

/-- The proof data of region 1's pipeline on core `c`: the arrays as the region finds them (`V`); after the body at
    point `t` each input's buffer at its block and the output's at the sum so far (the output window is idle at
    every point but the last, where this is the total); the invariant `Phi1`; nothing owed; full shares. -/
def dat1 (c : Dev nD) : Dat τ (Elt F) Unit ℕ (UR sig nD τ) ℕ (cfg1 a) c where
  A w := V c (Pipeline.arrRef spec1 w)
  after w t := match w with
    | ⟨0, _⟩ => iblk1 a V c (0 : Fin 3) t
    | ⟨1, _⟩ => iblk1 a V c (1 : Fin 3) t
    | ⟨2, _⟩ => accAt1 a V c t.val
  Φ t := Phi1 a V c t.val
  q _ := fullShare
  owed _ := 0

theorem A_eq1 (c : Dev nD) (w : Fin (cfg1 a).W) : (dat1 a V c).A w = V c (Pipeline.arrRef spec1 w) := by
  dsimp only [dat1]

theorem afterU1 (c : Dev nD) (t : Fin (cfg1 a).N) : (dat1 a V c).after (0 : Fin 3) t = iblk1 a V c (0 : Fin 3) t := by dsimp only [dat1]
theorem afterV1 (c : Dev nD) (t : Fin (cfg1 a).N) : (dat1 a V c).after (1 : Fin 3) t = iblk1 a V c (1 : Fin 3) t := by dsimp only [dat1]
theorem afterO1 (c : Dev nD) (t : Fin (cfg1 a).N) : (dat1 a V c).after (2 : Fin 3) t = accAt1 a V c t.val := by dsimp only [dat1]

theorem dat_Φ1 (c : Dev nD) (t : Fin ((cfg1 a).N + 1)) : (dat1 a V c).Φ t = Phi1 a V c t.val := by dsimp only [dat1]

theorem dat_Φ_castSucc1 (c : Dev nD) (t : Fin (cfg1 a).N) : (dat1 a V c).Φ t.castSucc = Phi1 a V c t.val := by
  rw [dat_Φ1, Fin.coe_castSucc]

theorem dat_Φ_succ1 (c : Dev nD) (t : Fin (cfg1 a).N) : (dat1 a V c).Φ t.succ = Phi1 a V c (t.val + 1) := by
  rw [dat_Φ1, Fin.val_succ]

theorem dat_Φ_zero1 (c : Dev nD) :
    (dat1 a V c).Φ 0 = iprop((∃ r, prngReg c r) ∗ Pipeline.prefHeld pre1 c (fun _ => fullShare) a.1 ∗ Pipeline.scopedRest spec1 c) := by
  rw [dat_Φ1]; rfl

theorem dat_Φ_last1 (c : Dev nD) :
    (dat1 a V c).Φ (Fin.last (cfg1 a).N) = iprop((∃ r, prngReg c r) ∗ Pipeline.prefHeld pre1 c (fun _ => fullShare) a.1
      ∗ owns (c : Thread nD τ) (Memref.whole cc1_scratch0) fullShare (accAt1 a V c ((cfg1 a).N - 1))
      ∗ Pipeline.scopedRestBut spec1 c [cc1_scratch0]) := by
  rw [dat_Φ1, Fin.val_last]
  exact Phi_pos1 a V c _ (Nat.pos_iff_ne_zero.mp (N_pos1 a))

/-! ## The inputs' staging buffers -/

/-- Input window 0's current staging buffer holds its block at every point, fetched there or not: unfetched, the
    block index has not moved since the point before, and the body leaves the block in place. -/
theorem beforeU1 (c : Dev nD) (t : Fin (cfg1 a).N) (d) : (dat1 a V c).before (0 : Fin 3) t d = iblk1 a V c (0 : Fin 3) t :=
  ((dat1 a V c).before_in_eq_fetched (0 : Fin 3) rfl (fun _ => rfl) (fun _ _ _ => rfl)
    (fun t => by rw [afterU1]; unfold Dat.blockOf iblk1; rw [A_eq1]; try rfl) t d).trans
    (by unfold Dat.fetched Dat.blockOf iblk1; rw [A_eq1]; try rfl)

/-- The same for input window 1. -/
theorem beforeV1 (c : Dev nD) (t : Fin (cfg1 a).N) (d) : (dat1 a V c).before (1 : Fin 3) t d = iblk1 a V c (1 : Fin 3) t :=
  ((dat1 a V c).before_in_eq_fetched (1 : Fin 3) rfl (fun _ => rfl) (fun _ _ _ => rfl)
    (fun t => by rw [afterV1]; unfold Dat.blockOf iblk1; rw [A_eq1]; try rfl) t d).trans
    (by unfold Dat.fetched Dat.blockOf iblk1; rw [A_eq1]; try rfl)

end Cert.Kernel.Gen

end
-- ==== Proof.SegK1.lean ====
import proofs.«425429_j48773648614109_2_alg».proof.Proof.DatK1
import Idealize.ShloMosaic.Lib.Pipeline.Frame
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 1 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v19`) and the rest; the rest splits once more into the two
  prefetched index tables (`main_v16`, `main_v18`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg1

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin1 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 1 over the thread state "every unscoped buffer at a valuation, the generator register at some state, nothing
    owed": entered at `Win`, left at `Wout`, for any family of proof data whose member at this pipeline is `dat1` at the
    entry valuation (`hd`), given that the two index tables hold the admissible contents at entry (`htab`), that `Wout`
    has each window's array at what the pipeline leaves there (`hF`) and agrees with `Win` off the arrays (`hrest`), and
    the body obligation (`hb`). -/
def reg1
    (hd : ∀ c, pdats p1 c = dat1 (a p1) (vin1 Win) c)
    (hb : ∀ c, BodyObligation (dat1 (a p1) (vin1 Win) c) (defs₀ (F := F)) Variants.none () Set.univ)
    (htab : ∀ c (k : Fin pre1.K), Win c (pre1.ref k) = (a p1 : (pcfg1 (F := F)).Adm).1 k)
    (hF : ∀ c w, (pdats p1 c).arrAt w (Pipeline.pin (pcfgs (F := F)) a p1).N = Wout c (Pipeline.arrRef spec1 w))
    (hrest : ∀ c (b : Ref sig .tc), b ∉ Finset.univ.image (Pipeline.arrRef spec1) → Wout c b = Win c b) :
    Pipeline.RegionSeg (pcfgs (F := F)) a pdats () defs₀ Variants.none (fun _ => (∅ : Finset Unit)) (fun _ _ => (0 : ℕ)) p1 where
  win := (launch1 (F := F)).win.to₀
  block_pos := (launch1 (F := F)).block_pos
  stage_whole := (launch1 (F := F)).stage_whole
  K := PEmpty
  osem k := k.elim
  ho := Pipeline.OwnSemFacts.none _
  hbody c := by rw [hd c]; exact (hb c).loose
  hwaits := Pipeline.hwaits_of_owed_zero _ _ _ _ _ _ p1 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre1 c (fun _ => fullShare) (a p1 : (pcfg1 (F := F)).Adm).1)
  Z c := Pipeline.unscopedRestP (Ix := Unit) (Name := ℕ) (U := UR sig nD τ) (Lvl := ℕ) pre1 spec1 c (vin1 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p1 c).arrays ((pdats p1 c).arrAt · 0) ∗ Pipeline.prefHeld pre1 c (fun _ => fullShare) (a p1 : (pcfg1 (F := F)).Adm).1
            ∗ Pipeline.unscopedRestP pre1 spec1 c (vin1 Win c)) := by
      have h := Pipeline.arrays_of_unscopedBufs (p := p1) (pcfgs (F := F)) a pdats (launch1 (F := F)).win (launch1 (F := F)).arr_whole c
        (by rw [hd c]; exact (dat1 (a p1) (vin1 Win) c).share_full fun _ => rfl) (vin1 Win c) (by rw [hd c]; exact A_eq1 (a p1) (vin1 Win) c)
      rw [Pipeline.unscopedBufs_held c (Win c), Pipeline.unscopedRest_split (launch1 (F := F)).pre c (vin1 Win c)] at h
      rw [← show (fun k => vin1 Win c (pre1.ref k)) = (a p1 : (pcfg1 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p1 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero1]
    exact .rfl
  hout c := by
    -- the accumulator's points-to at its last value is one of the scoped buffers "at some contents"
    rw [Pipeline.ownSems0_none, hd c,
      show (dat1 (a p1) (vin1 Win) c).Φ (Fin.last (Pipeline.pin (pcfgs (F := F)) a p1).N) = _ from dat_Φ_last1 (a p1) (vin1 Win) c,
      show (Pipeline.scopedRest (Pipeline.pin (pcfgs (F := F)) a p1).spec c : sProp 𝕄) = _ from scopedRest1_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p1 c).arrays ((pdats p1 c).arrAt · (Pipeline.pin (pcfgs (F := F)) a p1).N)
          ∗ Pipeline.prefHeld pre1 c (fun _ => fullShare) (a p1 : (pcfg1 (F := F)).Adm).1 ∗ Pipeline.unscopedRestP pre1 spec1 c (vin1 Win c))
        ⊢ (StableHlo.held (c : Thread nD τ) (Pipeline.ucRefs τ sig) (Wout c) : sProp 𝕄) := by
      have h := Pipeline.unscopedBufs_of_arrays (p := p1) (pcfgs (F := F)) a (Ix := Unit) (Name := ℕ) (U := UR sig nD τ) (Lvl := ℕ)
        (launch1 (F := F)).win (launch1 (F := F)).arr_whole c pdats (by rw [hd c]; exact (dat1 (a p1) (vin1 Win) c).share_full fun _ => rfl)
        (vin1 Win c) (vin1 Wout c) ((pdats p1 c).arrAt · (Pipeline.pin (pcfgs (F := F)) a p1).N) (hF c) (hrest c)
      rw [Pipeline.unscopedBufs_held c (Wout c), Pipeline.unscopedRest_split (launch1 (F := F)).pre c (vin1 Win c)] at h
      rw [← show (fun k => vin1 Win c (pre1.ref k)) = (a p1 : (pcfg1 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p1 c).owed (Fin.last _) = 0 from by rw [hd c]; rfl]
    icases HO with ⟨%W, -, HO⟩; iexists W; iexact HO

end Seg1

end Cert.Kernel.Gen

end
-- ==== Proof.RecK1.lean ====
import proofs.«425429_j48773648614109_2_alg».proof.Proof.SegK1

/-! Region 1's segment record from facts about the two valuations alone.

The region's record (`reg1`) asks, of the valuation at the exit, each window's array at what the pipeline leaves
there. The two input arrays are never written, so they are left as found: that half asks only that the exit
valuation agrees with the entry valuation at them. The output array is left at the contents the write-backs build
(`outArr1`), a function of the entry valuation: that half asks that the exit valuation holds exactly that. -/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec1

/-- What region 1 leaves in its output array, from the admissible tables and the valuation at its entry: the array
    after every point's write-back. -/
def outArr1 (adm : (pcfg1 (F := F)).Adm) (Win : Dev nD → Valuation τ sig (Elt F)) (c : Dev nD) :
    Buf (Elt F) ((c : Thread nD τ).loc (Pipeline.arrRef spec1 (2 : Fin 3))) :=
  (dat1 adm (vin1 Win) c).arrAt (2 : Fin 3) (cfg1 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of1
    (hd : ∀ c, pdats p1 c = dat1 (a p1) (vin1 Win) c)
    (hin : ∀ c (w : Fin 3), w ≠ 2 → Wout c (Pipeline.arrRef spec1 w) = Win c (Pipeline.arrRef spec1 w))
    (hout : ∀ c, Wout c (Pipeline.arrRef spec1 (2 : Fin 3)) = outArr1 (a p1) Win c)
    (c : Dev nD) (w : Fin 3) :
    (pdats p1 c).arrAt w (Pipeline.pin (pcfgs (F := F)) a p1).N = Wout c (Pipeline.arrRef spec1 w) := by
  rw [hd c]
  match w with
  | ⟨0, _⟩ =>
    exact (Dat.arrAt_in (dat1 (a p1) (vin1 Win) c) (0 : Fin 3) rfl _).trans
      ((A_eq1 (a p1) (vin1 Win) c (0 : Fin 3)).trans (hin c (0 : Fin 3) (by decide)).symm)
  | ⟨1, _⟩ =>
    exact (Dat.arrAt_in (dat1 (a p1) (vin1 Win) c) (1 : Fin 3) rfl _).trans
      ((A_eq1 (a p1) (vin1 Win) c (1 : Fin 3)).trans (hin c (1 : Fin 3) (by decide)).symm)
  | ⟨2, _⟩ => exact (hout c).symm

/-- REGION 1's record between two valuations: entered at `Win`, left at `Wout`. -/
def rec1
    (hd : ∀ c, pdats p1 c = dat1 (a p1) (vin1 Win) c)
    (hb : ∀ c, BodyObligation (dat1 (a p1) (vin1 Win) c) (defs₀ (F := F)) Variants.none () Set.univ)
    (htab : ∀ c (k : Fin pre1.K), Win c (pre1.ref k) = (a p1 : (pcfg1 (F := F)).Adm).1 k)
    (hin : ∀ c (w : Fin 3), w ≠ 2 → Wout c (Pipeline.arrRef spec1 w) = Win c (Pipeline.arrRef spec1 w))
    (hout : ∀ c, Wout c (Pipeline.arrRef spec1 (2 : Fin 3)) = outArr1 (a p1) Win c)
    (hrest : ∀ c (b : Ref sig .tc), b ∉ Finset.univ.image (Pipeline.arrRef spec1) → Wout c b = Win c b) :
    Pipeline.RegionSeg (pcfgs (F := F)) a pdats () defs₀ Variants.none (fun _ => (∅ : Finset Unit)) (fun _ _ => (0 : ℕ)) p1 :=
  reg1 a pdats Win Wout hd hb htab (hF_of1 a pdats Win Wout hd hin hout) hrest

end Rec1

end Cert.Kernel.Gen

end
-- ==== Proof.DatK2.lean ====
import proofs.«425429_j48773648614109_2_alg».proof.Proof.LaunchK
import proofs.«425429_j48773648614109_2_alg».proof.Proof.Gen.Kernel.Skeleton
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg2 (F := F)).Adm)
  (V : (c : Dev nD) → (b : Ref sig .tc) → Buf (Elt F) ((c : Thread nD τ).loc b))

/-- The pipeline of @main this module is about. -/
abbrev p2 : Fin 8 := 2

/-! ## The grid's points by number -/

/-- The region's grid has a point. -/
theorem N_pos2 : 0 < (cfg2 a).N := by
  rw [show (cfg2 a).N = grid2.N from rfl, N_2]; exact Nat.succ_pos _

/-- The grid point numbered `n`; a number past the grid wraps around (such a point is never consulted). -/
def pt2 (n : ℕ) : Fin (cfg2 a).N := ⟨n % (cfg2 a).N, Nat.mod_lt _ (N_pos2 a)⟩

/-- A grid point is the point of its own number. -/
theorem pt_val2 (t : Fin (cfg2 a).N) : pt2 a t.val = t := Fin.ext (Nat.mod_eq_of_lt t.isLt)

/-! ## The windows' blocks -/

/-- Window `w`'s block at point `t`, read off its array as the region finds it (`V`). -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-! ## The accumulation -/

/-- What the carried scratch holds AFTER the point numbered `n`: the sum so far. After the first point it is that
    point's term added to the zero the first point stores; after a later point, that point's term added to what
    the point before left. -/
def accAt2 (c : Dev nD) : ℕ → Vec F S1x1 .f32
  | 0 => k2_pay2 (iblk2 a V c (0 : Fin 3) (pt2 a 0)) (iblk2 a V c (1 : Fin 3) (pt2 a 0)) (k2_pay1 (F := F))
  | n + 1 => k2_pay2 (iblk2 a V c (0 : Fin 3) (pt2 a (n + 1))) (iblk2 a V c (1 : Fin 3) (pt2 a (n + 1))) (accAt2 c n)

theorem accAt_zero2 (c : Dev nD) :
    accAt2 a V c 0 = k2_pay2 (iblk2 a V c (0 : Fin 3) (pt2 a 0)) (iblk2 a V c (1 : Fin 3) (pt2 a 0)) (k2_pay1 (F := F)) := rfl

theorem accAt_succ2 (c : Dev nD) (n : ℕ) :
    accAt2 a V c (n + 1) = k2_pay2 (iblk2 a V c (0 : Fin 3) (pt2 a (n + 1))) (iblk2 a V c (1 : Fin 3) (pt2 a (n + 1))) (accAt2 a V c n) := rfl

/-! ## The region invariant -/

/-- The region invariant before the position numbered `n`: the generator register at some state and the prefetched
    tables held whole throughout; before the first point every scoped buffer no window stages at anything; afterwards
    the carried scratch at the sum the point before left (`accAt2`), the other such buffers at anything. -/
def Phi2 (c : Dev nD) : ℕ → sProp 𝕄
  | 0 => iprop((∃ r, prngReg c r) ∗ Pipeline.prefHeld pre2 c (fun _ => fullShare) a.1 ∗ Pipeline.scopedRest spec2 c)
  | n + 1 => iprop((∃ r, prngReg c r) ∗ Pipeline.prefHeld pre2 c (fun _ => fullShare) a.1
      ∗ owns (c : Thread nD τ) (Memref.whole cc2_scratch0) fullShare (accAt2 a V c n)
      ∗ Pipeline.scopedRestBut spec2 c [cc2_scratch0])

theorem Phi_zero2 (c : Dev nD) :
    Phi2 a V c 0 = iprop((∃ r, prngReg c r) ∗ Pipeline.prefHeld pre2 c (fun _ => fullShare) a.1 ∗ Pipeline.scopedRest spec2 c) := rfl

theorem Phi_succ2 (c : Dev nD) (n : ℕ) :
    Phi2 a V c (n + 1) = iprop((∃ r, prngReg c r) ∗ Pipeline.prefHeld pre2 c (fun _ => fullShare) a.1
      ∗ owns (c : Thread nD τ) (Memref.whole cc2_scratch0) fullShare (accAt2 a V c n)
      ∗ Pipeline.scopedRestBut spec2 c [cc2_scratch0]) := rfl

theorem Phi_pos2 (c : Dev nD) (n : ℕ) (hn : n ≠ 0) :
    Phi2 a V c n = iprop((∃ r, prngReg c r) ∗ Pipeline.prefHeld pre2 c (fun _ => fullShare) a.1
      ∗ owns (c : Thread nD τ) (Memref.whole cc2_scratch0) fullShare (accAt2 a V c (n - 1))
      ∗ Pipeline.scopedRestBut spec2 c [cc2_scratch0]) := by
  cases n with
  | zero => exact absurd rfl hn
  | succ n => rfl

/-! ## The pipeline's proof data -/

/-- The proof data of region 2's pipeline on core `c`: the arrays as the region finds them (`V`); after the body at
    point `t` each input's buffer at its block and the output's at the sum so far (the output window is idle at
    every point but the last, where this is the total); the invariant `Phi2`; nothing owed; full shares. -/
def dat2 (c : Dev nD) : Dat τ (Elt F) Unit ℕ (UR sig nD τ) ℕ (cfg2 a) c where
  A w := V c (Pipeline.arrRef spec2 w)
  after w t := match w with
    | ⟨0, _⟩ => iblk2 a V c (0 : Fin 3) t
    | ⟨1, _⟩ => iblk2 a V c (1 : Fin 3) t
    | ⟨2, _⟩ => accAt2 a V c t.val
  Φ t := Phi2 a V c t.val
  q _ := fullShare
  owed _ := 0

theorem A_eq2 (c : Dev nD) (w : Fin (cfg2 a).W) : (dat2 a V c).A w = V c (Pipeline.arrRef spec2 w) := by
  dsimp only [dat2]

theorem afterU2 (c : Dev nD) (t : Fin (cfg2 a).N) : (dat2 a V c).after (0 : Fin 3) t = iblk2 a V c (0 : Fin 3) t := by dsimp only [dat2]
theorem afterV2 (c : Dev nD) (t : Fin (cfg2 a).N) : (dat2 a V c).after (1 : Fin 3) t = iblk2 a V c (1 : Fin 3) t := by dsimp only [dat2]
theorem afterO2 (c : Dev nD) (t : Fin (cfg2 a).N) : (dat2 a V c).after (2 : Fin 3) t = accAt2 a V c t.val := by dsimp only [dat2]

theorem dat_Φ2 (c : Dev nD) (t : Fin ((cfg2 a).N + 1)) : (dat2 a V c).Φ t = Phi2 a V c t.val := by dsimp only [dat2]

theorem dat_Φ_castSucc2 (c : Dev nD) (t : Fin (cfg2 a).N) : (dat2 a V c).Φ t.castSucc = Phi2 a V c t.val := by
  rw [dat_Φ2, Fin.coe_castSucc]

theorem dat_Φ_succ2 (c : Dev nD) (t : Fin (cfg2 a).N) : (dat2 a V c).Φ t.succ = Phi2 a V c (t.val + 1) := by
  rw [dat_Φ2, Fin.val_succ]

theorem dat_Φ_zero2 (c : Dev nD) :
    (dat2 a V c).Φ 0 = iprop((∃ r, prngReg c r) ∗ Pipeline.prefHeld pre2 c (fun _ => fullShare) a.1 ∗ Pipeline.scopedRest spec2 c) := by
  rw [dat_Φ2]; rfl

theorem dat_Φ_last2 (c : Dev nD) :
    (dat2 a V c).Φ (Fin.last (cfg2 a).N) = iprop((∃ r, prngReg c r) ∗ Pipeline.prefHeld pre2 c (fun _ => fullShare) a.1
      ∗ owns (c : Thread nD τ) (Memref.whole cc2_scratch0) fullShare (accAt2 a V c ((cfg2 a).N - 1))
      ∗ Pipeline.scopedRestBut spec2 c [cc2_scratch0]) := by
  rw [dat_Φ2, Fin.val_last]
  exact Phi_pos2 a V c _ (Nat.pos_iff_ne_zero.mp (N_pos2 a))

/-! ## The inputs' staging buffers -/

/-- Input window 0's current staging buffer holds its block at every point, fetched there or not: unfetched, the
    block index has not moved since the point before, and the body leaves the block in place. -/
theorem beforeU2 (c : Dev nD) (t : Fin (cfg2 a).N) (d) : (dat2 a V c).before (0 : Fin 3) t d = iblk2 a V c (0 : Fin 3) t :=
  ((dat2 a V c).before_in_eq_fetched (0 : Fin 3) rfl (fun _ => rfl) (fun _ _ _ => rfl)
    (fun t => by rw [afterU2]; unfold Dat.blockOf iblk2; rw [A_eq2]; try rfl) t d).trans
    (by unfold Dat.fetched Dat.blockOf iblk2; rw [A_eq2]; try rfl)

/-- The same for input window 1. -/
theorem beforeV2 (c : Dev nD) (t : Fin (cfg2 a).N) (d) : (dat2 a V c).before (1 : Fin 3) t d = iblk2 a V c (1 : Fin 3) t :=
  ((dat2 a V c).before_in_eq_fetched (1 : Fin 3) rfl (fun _ => rfl) (fun _ _ _ => rfl)
    (fun t => by rw [afterV2]; unfold Dat.blockOf iblk2; rw [A_eq2]; try rfl) t d).trans
    (by unfold Dat.fetched Dat.blockOf iblk2; rw [A_eq2]; try rfl)

end Cert.Kernel.Gen

end
-- ==== Proof.SegK2.lean ====
import proofs.«425429_j48773648614109_2_alg».proof.Proof.DatK2
import Idealize.ShloMosaic.Lib.Pipeline.Frame
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 2 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v26`) and the rest; the rest splits once more into the two
  prefetched index tables (`main_v23`, `main_v25`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg2

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin2 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 2 over the thread state "every unscoped buffer at a valuation, the generator register at some state, nothing
    owed": entered at `Win`, left at `Wout`, for any family of proof data whose member at this pipeline is `dat2` at the
    entry valuation (`hd`), given that the two index tables hold the admissible contents at entry (`htab`), that `Wout`
    has each window's array at what the pipeline leaves there (`hF`) and agrees with `Win` off the arrays (`hrest`), and
    the body obligation (`hb`). -/
def reg2
    (hd : ∀ c, pdats p2 c = dat2 (a p2) (vin2 Win) c)
    (hb : ∀ c, BodyObligation (dat2 (a p2) (vin2 Win) c) (defs₀ (F := F)) Variants.none () Set.univ)
    (htab : ∀ c (k : Fin pre2.K), Win c (pre2.ref k) = (a p2 : (pcfg2 (F := F)).Adm).1 k)
    (hF : ∀ c w, (pdats p2 c).arrAt w (Pipeline.pin (pcfgs (F := F)) a p2).N = Wout c (Pipeline.arrRef spec2 w))
    (hrest : ∀ c (b : Ref sig .tc), b ∉ Finset.univ.image (Pipeline.arrRef spec2) → Wout c b = Win c b) :
    Pipeline.RegionSeg (pcfgs (F := F)) a pdats () defs₀ Variants.none (fun _ => (∅ : Finset Unit)) (fun _ _ => (0 : ℕ)) p2 where
  win := (launch2 (F := F)).win.to₀
  block_pos := (launch2 (F := F)).block_pos
  stage_whole := (launch2 (F := F)).stage_whole
  K := PEmpty
  osem k := k.elim
  ho := Pipeline.OwnSemFacts.none _
  hbody c := by rw [hd c]; exact (hb c).loose
  hwaits := Pipeline.hwaits_of_owed_zero _ _ _ _ _ _ p2 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre2 c (fun _ => fullShare) (a p2 : (pcfg2 (F := F)).Adm).1)
  Z c := Pipeline.unscopedRestP (Ix := Unit) (Name := ℕ) (U := UR sig nD τ) (Lvl := ℕ) pre2 spec2 c (vin2 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p2 c).arrays ((pdats p2 c).arrAt · 0) ∗ Pipeline.prefHeld pre2 c (fun _ => fullShare) (a p2 : (pcfg2 (F := F)).Adm).1
            ∗ Pipeline.unscopedRestP pre2 spec2 c (vin2 Win c)) := by
      have h := Pipeline.arrays_of_unscopedBufs (p := p2) (pcfgs (F := F)) a pdats (launch2 (F := F)).win (launch2 (F := F)).arr_whole c
        (by rw [hd c]; exact (dat2 (a p2) (vin2 Win) c).share_full fun _ => rfl) (vin2 Win c) (by rw [hd c]; exact A_eq2 (a p2) (vin2 Win) c)
      rw [Pipeline.unscopedBufs_held c (Win c), Pipeline.unscopedRest_split (launch2 (F := F)).pre c (vin2 Win c)] at h
      rw [← show (fun k => vin2 Win c (pre2.ref k)) = (a p2 : (pcfg2 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p2 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero2]
    exact .rfl
  hout c := by
    -- the accumulator's points-to at its last value is one of the scoped buffers "at some contents"
    rw [Pipeline.ownSems0_none, hd c,
      show (dat2 (a p2) (vin2 Win) c).Φ (Fin.last (Pipeline.pin (pcfgs (F := F)) a p2).N) = _ from dat_Φ_last2 (a p2) (vin2 Win) c,
      show (Pipeline.scopedRest (Pipeline.pin (pcfgs (F := F)) a p2).spec c : sProp 𝕄) = _ from scopedRest2_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p2 c).arrays ((pdats p2 c).arrAt · (Pipeline.pin (pcfgs (F := F)) a p2).N)
          ∗ Pipeline.prefHeld pre2 c (fun _ => fullShare) (a p2 : (pcfg2 (F := F)).Adm).1 ∗ Pipeline.unscopedRestP pre2 spec2 c (vin2 Win c))
        ⊢ (StableHlo.held (c : Thread nD τ) (Pipeline.ucRefs τ sig) (Wout c) : sProp 𝕄) := by
      have h := Pipeline.unscopedBufs_of_arrays (p := p2) (pcfgs (F := F)) a (Ix := Unit) (Name := ℕ) (U := UR sig nD τ) (Lvl := ℕ)
        (launch2 (F := F)).win (launch2 (F := F)).arr_whole c pdats (by rw [hd c]; exact (dat2 (a p2) (vin2 Win) c).share_full fun _ => rfl)
        (vin2 Win c) (vin2 Wout c) ((pdats p2 c).arrAt · (Pipeline.pin (pcfgs (F := F)) a p2).N) (hF c) (hrest c)
      rw [Pipeline.unscopedBufs_held c (Wout c), Pipeline.unscopedRest_split (launch2 (F := F)).pre c (vin2 Win c)] at h
      rw [← show (fun k => vin2 Win c (pre2.ref k)) = (a p2 : (pcfg2 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p2 c).owed (Fin.last _) = 0 from by rw [hd c]; rfl]
    icases HO with ⟨%W, -, HO⟩; iexists W; iexact HO

end Seg2

end Cert.Kernel.Gen

end
-- ==== Proof.RecK2.lean ====
import proofs.«425429_j48773648614109_2_alg».proof.Proof.SegK2

/-! Region 2's segment record from facts about the two valuations alone.

The region's record (`reg2`) asks, of the valuation at the exit, each window's array at what the pipeline leaves
there. The two input arrays are never written, so they are left as found: that half asks only that the exit
valuation agrees with the entry valuation at them. The output array is left at the contents the write-backs build
(`outArr2`), a function of the entry valuation: that half asks that the exit valuation holds exactly that. -/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec2

/-- What region 2 leaves in its output array, from the admissible tables and the valuation at its entry: the array
    after every point's write-back. -/
def outArr2 (adm : (pcfg2 (F := F)).Adm) (Win : Dev nD → Valuation τ sig (Elt F)) (c : Dev nD) :
    Buf (Elt F) ((c : Thread nD τ).loc (Pipeline.arrRef spec2 (2 : Fin 3))) :=
  (dat2 adm (vin2 Win) c).arrAt (2 : Fin 3) (cfg2 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of2
    (hd : ∀ c, pdats p2 c = dat2 (a p2) (vin2 Win) c)
    (hin : ∀ c (w : Fin 3), w ≠ 2 → Wout c (Pipeline.arrRef spec2 w) = Win c (Pipeline.arrRef spec2 w))
    (hout : ∀ c, Wout c (Pipeline.arrRef spec2 (2 : Fin 3)) = outArr2 (a p2) Win c)
    (c : Dev nD) (w : Fin 3) :
    (pdats p2 c).arrAt w (Pipeline.pin (pcfgs (F := F)) a p2).N = Wout c (Pipeline.arrRef spec2 w) := by
  rw [hd c]
  match w with
  | ⟨0, _⟩ =>
    exact (Dat.arrAt_in (dat2 (a p2) (vin2 Win) c) (0 : Fin 3) rfl _).trans
      ((A_eq2 (a p2) (vin2 Win) c (0 : Fin 3)).trans (hin c (0 : Fin 3) (by decide)).symm)
  | ⟨1, _⟩ =>
    exact (Dat.arrAt_in (dat2 (a p2) (vin2 Win) c) (1 : Fin 3) rfl _).trans
      ((A_eq2 (a p2) (vin2 Win) c (1 : Fin 3)).trans (hin c (1 : Fin 3) (by decide)).symm)
  | ⟨2, _⟩ => exact (hout c).symm

/-- REGION 2's record between two valuations: entered at `Win`, left at `Wout`. -/
def rec2
    (hd : ∀ c, pdats p2 c = dat2 (a p2) (vin2 Win) c)
    (hb : ∀ c, BodyObligation (dat2 (a p2) (vin2 Win) c) (defs₀ (F := F)) Variants.none () Set.univ)
    (htab : ∀ c (k : Fin pre2.K), Win c (pre2.ref k) = (a p2 : (pcfg2 (F := F)).Adm).1 k)
    (hin : ∀ c (w : Fin 3), w ≠ 2 → Wout c (Pipeline.arrRef spec2 w) = Win c (Pipeline.arrRef spec2 w))
    (hout : ∀ c, Wout c (Pipeline.arrRef spec2 (2 : Fin 3)) = outArr2 (a p2) Win c)
    (hrest : ∀ c (b : Ref sig .tc), b ∉ Finset.univ.image (Pipeline.arrRef spec2) → Wout c b = Win c b) :
    Pipeline.RegionSeg (pcfgs (F := F)) a pdats () defs₀ Variants.none (fun _ => (∅ : Finset Unit)) (fun _ _ => (0 : ℕ)) p2 :=
  reg2 a pdats Win Wout hd hb htab (hF_of2 a pdats Win Wout hd hin hout) hrest

end Rec2

end Cert.Kernel.Gen

end
-- ==== Proof.DatK3.lean ====
import proofs.«425429_j48773648614109_2_alg».proof.Proof.LaunchK
import proofs.«425429_j48773648614109_2_alg».proof.Proof.Gen.Kernel.Skeleton
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
  (V : (c : Dev nD) → (b : Ref sig .tc) → Buf (Elt F) ((c : Thread nD τ).loc b))

/-- The pipeline of @main this module is about. -/
abbrev p3 : Fin 8 := 3

/-! ## The grid's points by number -/

/-- The region's grid has a point. -/
theorem N_pos3 : 0 < (cfg3 a).N := by
  rw [show (cfg3 a).N = grid3.N from rfl, N_3]; exact Nat.succ_pos _

/-- The grid point numbered `n`; a number past the grid wraps around (such a point is never consulted). -/
def pt3 (n : ℕ) : Fin (cfg3 a).N := ⟨n % (cfg3 a).N, Nat.mod_lt _ (N_pos3 a)⟩

/-- A grid point is the point of its own number. -/
theorem pt_val3 (t : Fin (cfg3 a).N) : pt3 a t.val = t := Fin.ext (Nat.mod_eq_of_lt t.isLt)

/-! ## The windows' blocks -/

/-- Window `w`'s block at point `t`, read off its array as the region finds it (`V`). -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-! ## The accumulation -/

/-- What the carried scratch holds AFTER the point numbered `n`: the sum so far. After the first point it is that
    point's term added to the zero the first point stores; after a later point, that point's term added to what
    the point before left. -/
def accAt3 (c : Dev nD) : ℕ → Vec F S1x1 .f32
  | 0 => k3_pay2 (iblk3 a V c (0 : Fin 3) (pt3 a 0)) (iblk3 a V c (1 : Fin 3) (pt3 a 0)) (k3_pay1 (F := F))
  | n + 1 => k3_pay2 (iblk3 a V c (0 : Fin 3) (pt3 a (n + 1))) (iblk3 a V c (1 : Fin 3) (pt3 a (n + 1))) (accAt3 c n)

theorem accAt_zero3 (c : Dev nD) :
    accAt3 a V c 0 = k3_pay2 (iblk3 a V c (0 : Fin 3) (pt3 a 0)) (iblk3 a V c (1 : Fin 3) (pt3 a 0)) (k3_pay1 (F := F)) := rfl

theorem accAt_succ3 (c : Dev nD) (n : ℕ) :
    accAt3 a V c (n + 1) = k3_pay2 (iblk3 a V c (0 : Fin 3) (pt3 a (n + 1))) (iblk3 a V c (1 : Fin 3) (pt3 a (n + 1))) (accAt3 a V c n) := rfl

/-! ## The region invariant -/

/-- The region invariant before the position numbered `n`: the generator register at some state and the prefetched
    tables held whole throughout; before the first point every scoped buffer no window stages at anything; afterwards
    the carried scratch at the sum the point before left (`accAt3`), the other such buffers at anything. -/
def Phi3 (c : Dev nD) : ℕ → sProp 𝕄
  | 0 => iprop((∃ r, prngReg c r) ∗ Pipeline.prefHeld pre3 c (fun _ => fullShare) a.1 ∗ Pipeline.scopedRest spec3 c)
  | n + 1 => iprop((∃ r, prngReg c r) ∗ Pipeline.prefHeld pre3 c (fun _ => fullShare) a.1
      ∗ owns (c : Thread nD τ) (Memref.whole cc3_scratch0) fullShare (accAt3 a V c n)
      ∗ Pipeline.scopedRestBut spec3 c [cc3_scratch0])

theorem Phi_zero3 (c : Dev nD) :
    Phi3 a V c 0 = iprop((∃ r, prngReg c r) ∗ Pipeline.prefHeld pre3 c (fun _ => fullShare) a.1 ∗ Pipeline.scopedRest spec3 c) := rfl

theorem Phi_succ3 (c : Dev nD) (n : ℕ) :
    Phi3 a V c (n + 1) = iprop((∃ r, prngReg c r) ∗ Pipeline.prefHeld pre3 c (fun _ => fullShare) a.1
      ∗ owns (c : Thread nD τ) (Memref.whole cc3_scratch0) fullShare (accAt3 a V c n)
      ∗ Pipeline.scopedRestBut spec3 c [cc3_scratch0]) := rfl

theorem Phi_pos3 (c : Dev nD) (n : ℕ) (hn : n ≠ 0) :
    Phi3 a V c n = iprop((∃ r, prngReg c r) ∗ Pipeline.prefHeld pre3 c (fun _ => fullShare) a.1
      ∗ owns (c : Thread nD τ) (Memref.whole cc3_scratch0) fullShare (accAt3 a V c (n - 1))
      ∗ Pipeline.scopedRestBut spec3 c [cc3_scratch0]) := by
  cases n with
  | zero => exact absurd rfl hn
  | succ n => rfl

/-! ## The pipeline's proof data -/

/-- The proof data of region 3's pipeline on core `c`: the arrays as the region finds them (`V`); after the body at
    point `t` each input's buffer at its block and the output's at the sum so far (the output window is idle at
    every point but the last, where this is the total); the invariant `Phi3`; nothing owed; full shares. -/
def dat3 (c : Dev nD) : Dat τ (Elt F) Unit ℕ (UR sig nD τ) ℕ (cfg3 a) c where
  A w := V c (Pipeline.arrRef spec3 w)
  after w t := match w with
    | ⟨0, _⟩ => iblk3 a V c (0 : Fin 3) t
    | ⟨1, _⟩ => iblk3 a V c (1 : Fin 3) t
    | ⟨2, _⟩ => accAt3 a V c t.val
  Φ t := Phi3 a V c t.val
  q _ := fullShare
  owed _ := 0

theorem A_eq3 (c : Dev nD) (w : Fin (cfg3 a).W) : (dat3 a V c).A w = V c (Pipeline.arrRef spec3 w) := by
  dsimp only [dat3]

theorem afterU3 (c : Dev nD) (t : Fin (cfg3 a).N) : (dat3 a V c).after (0 : Fin 3) t = iblk3 a V c (0 : Fin 3) t := by dsimp only [dat3]
theorem afterV3 (c : Dev nD) (t : Fin (cfg3 a).N) : (dat3 a V c).after (1 : Fin 3) t = iblk3 a V c (1 : Fin 3) t := by dsimp only [dat3]
theorem afterO3 (c : Dev nD) (t : Fin (cfg3 a).N) : (dat3 a V c).after (2 : Fin 3) t = accAt3 a V c t.val := by dsimp only [dat3]

theorem dat_Φ3 (c : Dev nD) (t : Fin ((cfg3 a).N + 1)) : (dat3 a V c).Φ t = Phi3 a V c t.val := by dsimp only [dat3]

theorem dat_Φ_castSucc3 (c : Dev nD) (t : Fin (cfg3 a).N) : (dat3 a V c).Φ t.castSucc = Phi3 a V c t.val := by
  rw [dat_Φ3, Fin.coe_castSucc]

theorem dat_Φ_succ3 (c : Dev nD) (t : Fin (cfg3 a).N) : (dat3 a V c).Φ t.succ = Phi3 a V c (t.val + 1) := by
  rw [dat_Φ3, Fin.val_succ]

theorem dat_Φ_zero3 (c : Dev nD) :
    (dat3 a V c).Φ 0 = iprop((∃ r, prngReg c r) ∗ Pipeline.prefHeld pre3 c (fun _ => fullShare) a.1 ∗ Pipeline.scopedRest spec3 c) := by
  rw [dat_Φ3]; rfl

theorem dat_Φ_last3 (c : Dev nD) :
    (dat3 a V c).Φ (Fin.last (cfg3 a).N) = iprop((∃ r, prngReg c r) ∗ Pipeline.prefHeld pre3 c (fun _ => fullShare) a.1
      ∗ owns (c : Thread nD τ) (Memref.whole cc3_scratch0) fullShare (accAt3 a V c ((cfg3 a).N - 1))
      ∗ Pipeline.scopedRestBut spec3 c [cc3_scratch0]) := by
  rw [dat_Φ3, Fin.val_last]
  exact Phi_pos3 a V c _ (Nat.pos_iff_ne_zero.mp (N_pos3 a))

/-! ## The inputs' staging buffers -/

/-- Input window 0's current staging buffer holds its block at every point, fetched there or not: unfetched, the
    block index has not moved since the point before, and the body leaves the block in place. -/
theorem beforeU3 (c : Dev nD) (t : Fin (cfg3 a).N) (d) : (dat3 a V c).before (0 : Fin 3) t d = iblk3 a V c (0 : Fin 3) t :=
  ((dat3 a V c).before_in_eq_fetched (0 : Fin 3) rfl (fun _ => rfl) (fun _ _ _ => rfl)
    (fun t => by rw [afterU3]; unfold Dat.blockOf iblk3; rw [A_eq3]; try rfl) t d).trans
    (by unfold Dat.fetched Dat.blockOf iblk3; rw [A_eq3]; try rfl)

/-- The same for input window 1. -/
theorem beforeV3 (c : Dev nD) (t : Fin (cfg3 a).N) (d) : (dat3 a V c).before (1 : Fin 3) t d = iblk3 a V c (1 : Fin 3) t :=
  ((dat3 a V c).before_in_eq_fetched (1 : Fin 3) rfl (fun _ => rfl) (fun _ _ _ => rfl)
    (fun t => by rw [afterV3]; unfold Dat.blockOf iblk3; rw [A_eq3]; try rfl) t d).trans
    (by unfold Dat.fetched Dat.blockOf iblk3; rw [A_eq3]; try rfl)

end Cert.Kernel.Gen

end
-- ==== Proof.SegK3.lean ====
import proofs.«425429_j48773648614109_2_alg».proof.Proof.DatK3
import Idealize.ShloMosaic.Lib.Pipeline.Frame
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 3 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v33`) and the rest; the rest splits once more into the two
  prefetched index tables (`main_v30`, `main_v32`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg3

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin3 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 3 over the thread state "every unscoped buffer at a valuation, the generator register at some state, nothing
    owed": entered at `Win`, left at `Wout`, for any family of proof data whose member at this pipeline is `dat3` at the
    entry valuation (`hd`), given that the two index tables hold the admissible contents at entry (`htab`), that `Wout`
    has each window's array at what the pipeline leaves there (`hF`) and agrees with `Win` off the arrays (`hrest`), and
    the body obligation (`hb`). -/
def reg3
    (hd : ∀ c, pdats p3 c = dat3 (a p3) (vin3 Win) c)
    (hb : ∀ c, BodyObligation (dat3 (a p3) (vin3 Win) c) (defs₀ (F := F)) Variants.none () Set.univ)
    (htab : ∀ c (k : Fin pre3.K), Win c (pre3.ref k) = (a p3 : (pcfg3 (F := F)).Adm).1 k)
    (hF : ∀ c w, (pdats p3 c).arrAt w (Pipeline.pin (pcfgs (F := F)) a p3).N = Wout c (Pipeline.arrRef spec3 w))
    (hrest : ∀ c (b : Ref sig .tc), b ∉ Finset.univ.image (Pipeline.arrRef spec3) → Wout c b = Win c b) :
    Pipeline.RegionSeg (pcfgs (F := F)) a pdats () defs₀ Variants.none (fun _ => (∅ : Finset Unit)) (fun _ _ => (0 : ℕ)) p3 where
  win := (launch3 (F := F)).win.to₀
  block_pos := (launch3 (F := F)).block_pos
  stage_whole := (launch3 (F := F)).stage_whole
  K := PEmpty
  osem k := k.elim
  ho := Pipeline.OwnSemFacts.none _
  hbody c := by rw [hd c]; exact (hb c).loose
  hwaits := Pipeline.hwaits_of_owed_zero _ _ _ _ _ _ p3 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre3 c (fun _ => fullShare) (a p3 : (pcfg3 (F := F)).Adm).1)
  Z c := Pipeline.unscopedRestP (Ix := Unit) (Name := ℕ) (U := UR sig nD τ) (Lvl := ℕ) pre3 spec3 c (vin3 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p3 c).arrays ((pdats p3 c).arrAt · 0) ∗ Pipeline.prefHeld pre3 c (fun _ => fullShare) (a p3 : (pcfg3 (F := F)).Adm).1
            ∗ Pipeline.unscopedRestP pre3 spec3 c (vin3 Win c)) := by
      have h := Pipeline.arrays_of_unscopedBufs (p := p3) (pcfgs (F := F)) a pdats (launch3 (F := F)).win (launch3 (F := F)).arr_whole c
        (by rw [hd c]; exact (dat3 (a p3) (vin3 Win) c).share_full fun _ => rfl) (vin3 Win c) (by rw [hd c]; exact A_eq3 (a p3) (vin3 Win) c)
      rw [Pipeline.unscopedBufs_held c (Win c), Pipeline.unscopedRest_split (launch3 (F := F)).pre c (vin3 Win c)] at h
      rw [← show (fun k => vin3 Win c (pre3.ref k)) = (a p3 : (pcfg3 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p3 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero3]
    exact .rfl
  hout c := by
    -- the accumulator's points-to at its last value is one of the scoped buffers "at some contents"
    rw [Pipeline.ownSems0_none, hd c,
      show (dat3 (a p3) (vin3 Win) c).Φ (Fin.last (Pipeline.pin (pcfgs (F := F)) a p3).N) = _ from dat_Φ_last3 (a p3) (vin3 Win) c,
      show (Pipeline.scopedRest (Pipeline.pin (pcfgs (F := F)) a p3).spec c : sProp 𝕄) = _ from scopedRest3_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p3 c).arrays ((pdats p3 c).arrAt · (Pipeline.pin (pcfgs (F := F)) a p3).N)
          ∗ Pipeline.prefHeld pre3 c (fun _ => fullShare) (a p3 : (pcfg3 (F := F)).Adm).1 ∗ Pipeline.unscopedRestP pre3 spec3 c (vin3 Win c))
        ⊢ (StableHlo.held (c : Thread nD τ) (Pipeline.ucRefs τ sig) (Wout c) : sProp 𝕄) := by
      have h := Pipeline.unscopedBufs_of_arrays (p := p3) (pcfgs (F := F)) a (Ix := Unit) (Name := ℕ) (U := UR sig nD τ) (Lvl := ℕ)
        (launch3 (F := F)).win (launch3 (F := F)).arr_whole c pdats (by rw [hd c]; exact (dat3 (a p3) (vin3 Win) c).share_full fun _ => rfl)
        (vin3 Win c) (vin3 Wout c) ((pdats p3 c).arrAt · (Pipeline.pin (pcfgs (F := F)) a p3).N) (hF c) (hrest c)
      rw [Pipeline.unscopedBufs_held c (Wout c), Pipeline.unscopedRest_split (launch3 (F := F)).pre c (vin3 Win c)] at h
      rw [← show (fun k => vin3 Win c (pre3.ref k)) = (a p3 : (pcfg3 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p3 c).owed (Fin.last _) = 0 from by rw [hd c]; rfl]
    icases HO with ⟨%W, -, HO⟩; iexists W; iexact HO

end Seg3

end Cert.Kernel.Gen

end
-- ==== Proof.RecK3.lean ====
import proofs.«425429_j48773648614109_2_alg».proof.Proof.SegK3

/-! Region 3's segment record from facts about the two valuations alone.

The region's record (`reg3`) asks, of the valuation at the exit, each window's array at what the pipeline leaves
there. The two input arrays are never written, so they are left as found: that half asks only that the exit
valuation agrees with the entry valuation at them. The output array is left at the contents the write-backs build
(`outArr3`), a function of the entry valuation: that half asks that the exit valuation holds exactly that. -/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec3

/-- What region 3 leaves in its output array, from the admissible tables and the valuation at its entry: the array
    after every point's write-back. -/
def outArr3 (adm : (pcfg3 (F := F)).Adm) (Win : Dev nD → Valuation τ sig (Elt F)) (c : Dev nD) :
    Buf (Elt F) ((c : Thread nD τ).loc (Pipeline.arrRef spec3 (2 : Fin 3))) :=
  (dat3 adm (vin3 Win) c).arrAt (2 : Fin 3) (cfg3 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of3
    (hd : ∀ c, pdats p3 c = dat3 (a p3) (vin3 Win) c)
    (hin : ∀ c (w : Fin 3), w ≠ 2 → Wout c (Pipeline.arrRef spec3 w) = Win c (Pipeline.arrRef spec3 w))
    (hout : ∀ c, Wout c (Pipeline.arrRef spec3 (2 : Fin 3)) = outArr3 (a p3) Win c)
    (c : Dev nD) (w : Fin 3) :
    (pdats p3 c).arrAt w (Pipeline.pin (pcfgs (F := F)) a p3).N = Wout c (Pipeline.arrRef spec3 w) := by
  rw [hd c]
  match w with
  | ⟨0, _⟩ =>
    exact (Dat.arrAt_in (dat3 (a p3) (vin3 Win) c) (0 : Fin 3) rfl _).trans
      ((A_eq3 (a p3) (vin3 Win) c (0 : Fin 3)).trans (hin c (0 : Fin 3) (by decide)).symm)
  | ⟨1, _⟩ =>
    exact (Dat.arrAt_in (dat3 (a p3) (vin3 Win) c) (1 : Fin 3) rfl _).trans
      ((A_eq3 (a p3) (vin3 Win) c (1 : Fin 3)).trans (hin c (1 : Fin 3) (by decide)).symm)
  | ⟨2, _⟩ => exact (hout c).symm

/-- REGION 3's record between two valuations: entered at `Win`, left at `Wout`. -/
def rec3
    (hd : ∀ c, pdats p3 c = dat3 (a p3) (vin3 Win) c)
    (hb : ∀ c, BodyObligation (dat3 (a p3) (vin3 Win) c) (defs₀ (F := F)) Variants.none () Set.univ)
    (htab : ∀ c (k : Fin pre3.K), Win c (pre3.ref k) = (a p3 : (pcfg3 (F := F)).Adm).1 k)
    (hin : ∀ c (w : Fin 3), w ≠ 2 → Wout c (Pipeline.arrRef spec3 w) = Win c (Pipeline.arrRef spec3 w))
    (hout : ∀ c, Wout c (Pipeline.arrRef spec3 (2 : Fin 3)) = outArr3 (a p3) Win c)
    (hrest : ∀ c (b : Ref sig .tc), b ∉ Finset.univ.image (Pipeline.arrRef spec3) → Wout c b = Win c b) :
    Pipeline.RegionSeg (pcfgs (F := F)) a pdats () defs₀ Variants.none (fun _ => (∅ : Finset Unit)) (fun _ _ => (0 : ℕ)) p3 :=
  reg3 a pdats Win Wout hd hb htab (hF_of3 a pdats Win Wout hd hin hout) hrest

end Rec3

end Cert.Kernel.Gen

end
-- ==== Proof.DatK4.lean ====
import proofs.«425429_j48773648614109_2_alg».proof.Proof.LaunchK
import proofs.«425429_j48773648614109_2_alg».proof.Proof.Gen.Kernel.Skeleton
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg4 (F := F)).Adm)
  (V : (c : Dev nD) → (b : Ref sig .tc) → Buf (Elt F) ((c : Thread nD τ).loc b))

/-- The pipeline of @main this module is about. -/
abbrev p4 : Fin 8 := 4

/-! ## The grid's points by number -/

/-- The region's grid has a point. -/
theorem N_pos4 : 0 < (cfg4 a).N := by
  rw [show (cfg4 a).N = grid4.N from rfl, N_4]; exact Nat.succ_pos _

/-- The grid point numbered `n`; a number past the grid wraps around (such a point is never consulted). -/
def pt4 (n : ℕ) : Fin (cfg4 a).N := ⟨n % (cfg4 a).N, Nat.mod_lt _ (N_pos4 a)⟩

/-- A grid point is the point of its own number. -/
theorem pt_val4 (t : Fin (cfg4 a).N) : pt4 a t.val = t := Fin.ext (Nat.mod_eq_of_lt t.isLt)

/-! ## The windows' blocks -/

/-- Window `w`'s block at point `t`, read off its array as the region finds it (`V`). -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-! ## The accumulation -/

/-- What the carried scratch holds AFTER the point numbered `n`: the sum so far. After the first point it is that
    point's term added to the zero the first point stores; after a later point, that point's term added to what
    the point before left. -/
def accAt4 (c : Dev nD) : ℕ → Vec F S1x1 .f32
  | 0 => k4_pay2 (iblk4 a V c (0 : Fin 3) (pt4 a 0)) (iblk4 a V c (1 : Fin 3) (pt4 a 0)) (k4_pay1 (F := F))
  | n + 1 => k4_pay2 (iblk4 a V c (0 : Fin 3) (pt4 a (n + 1))) (iblk4 a V c (1 : Fin 3) (pt4 a (n + 1))) (accAt4 c n)

theorem accAt_zero4 (c : Dev nD) :
    accAt4 a V c 0 = k4_pay2 (iblk4 a V c (0 : Fin 3) (pt4 a 0)) (iblk4 a V c (1 : Fin 3) (pt4 a 0)) (k4_pay1 (F := F)) := rfl

theorem accAt_succ4 (c : Dev nD) (n : ℕ) :
    accAt4 a V c (n + 1) = k4_pay2 (iblk4 a V c (0 : Fin 3) (pt4 a (n + 1))) (iblk4 a V c (1 : Fin 3) (pt4 a (n + 1))) (accAt4 a V c n) := rfl

/-! ## The region invariant -/

/-- The region invariant before the position numbered `n`: the generator register at some state and the prefetched
    tables held whole throughout; before the first point every scoped buffer no window stages at anything; afterwards
    the carried scratch at the sum the point before left (`accAt4`), the other such buffers at anything. -/
def Phi4 (c : Dev nD) : ℕ → sProp 𝕄
  | 0 => iprop((∃ r, prngReg c r) ∗ Pipeline.prefHeld pre4 c (fun _ => fullShare) a.1 ∗ Pipeline.scopedRest spec4 c)
  | n + 1 => iprop((∃ r, prngReg c r) ∗ Pipeline.prefHeld pre4 c (fun _ => fullShare) a.1
      ∗ owns (c : Thread nD τ) (Memref.whole cc4_scratch0) fullShare (accAt4 a V c n)
      ∗ Pipeline.scopedRestBut spec4 c [cc4_scratch0])

theorem Phi_zero4 (c : Dev nD) :
    Phi4 a V c 0 = iprop((∃ r, prngReg c r) ∗ Pipeline.prefHeld pre4 c (fun _ => fullShare) a.1 ∗ Pipeline.scopedRest spec4 c) := rfl

theorem Phi_succ4 (c : Dev nD) (n : ℕ) :
    Phi4 a V c (n + 1) = iprop((∃ r, prngReg c r) ∗ Pipeline.prefHeld pre4 c (fun _ => fullShare) a.1
      ∗ owns (c : Thread nD τ) (Memref.whole cc4_scratch0) fullShare (accAt4 a V c n)
      ∗ Pipeline.scopedRestBut spec4 c [cc4_scratch0]) := rfl

theorem Phi_pos4 (c : Dev nD) (n : ℕ) (hn : n ≠ 0) :
    Phi4 a V c n = iprop((∃ r, prngReg c r) ∗ Pipeline.prefHeld pre4 c (fun _ => fullShare) a.1
      ∗ owns (c : Thread nD τ) (Memref.whole cc4_scratch0) fullShare (accAt4 a V c (n - 1))
      ∗ Pipeline.scopedRestBut spec4 c [cc4_scratch0]) := by
  cases n with
  | zero => exact absurd rfl hn
  | succ n => rfl

/-! ## The pipeline's proof data -/

/-- The proof data of region 4's pipeline on core `c`: the arrays as the region finds them (`V`); after the body at
    point `t` each input's buffer at its block and the output's at the sum so far (the output window is idle at
    every point but the last, where this is the total); the invariant `Phi4`; nothing owed; full shares. -/
def dat4 (c : Dev nD) : Dat τ (Elt F) Unit ℕ (UR sig nD τ) ℕ (cfg4 a) c where
  A w := V c (Pipeline.arrRef spec4 w)
  after w t := match w with
    | ⟨0, _⟩ => iblk4 a V c (0 : Fin 3) t
    | ⟨1, _⟩ => iblk4 a V c (1 : Fin 3) t
    | ⟨2, _⟩ => accAt4 a V c t.val
  Φ t := Phi4 a V c t.val
  q _ := fullShare
  owed _ := 0

theorem A_eq4 (c : Dev nD) (w : Fin (cfg4 a).W) : (dat4 a V c).A w = V c (Pipeline.arrRef spec4 w) := by
  dsimp only [dat4]

theorem afterU4 (c : Dev nD) (t : Fin (cfg4 a).N) : (dat4 a V c).after (0 : Fin 3) t = iblk4 a V c (0 : Fin 3) t := by dsimp only [dat4]
theorem afterV4 (c : Dev nD) (t : Fin (cfg4 a).N) : (dat4 a V c).after (1 : Fin 3) t = iblk4 a V c (1 : Fin 3) t := by dsimp only [dat4]
theorem afterO4 (c : Dev nD) (t : Fin (cfg4 a).N) : (dat4 a V c).after (2 : Fin 3) t = accAt4 a V c t.val := by dsimp only [dat4]

theorem dat_Φ4 (c : Dev nD) (t : Fin ((cfg4 a).N + 1)) : (dat4 a V c).Φ t = Phi4 a V c t.val := by dsimp only [dat4]

theorem dat_Φ_castSucc4 (c : Dev nD) (t : Fin (cfg4 a).N) : (dat4 a V c).Φ t.castSucc = Phi4 a V c t.val := by
  rw [dat_Φ4, Fin.coe_castSucc]

theorem dat_Φ_succ4 (c : Dev nD) (t : Fin (cfg4 a).N) : (dat4 a V c).Φ t.succ = Phi4 a V c (t.val + 1) := by
  rw [dat_Φ4, Fin.val_succ]

theorem dat_Φ_zero4 (c : Dev nD) :
    (dat4 a V c).Φ 0 = iprop((∃ r, prngReg c r) ∗ Pipeline.prefHeld pre4 c (fun _ => fullShare) a.1 ∗ Pipeline.scopedRest spec4 c) := by
  rw [dat_Φ4]; rfl

theorem dat_Φ_last4 (c : Dev nD) :
    (dat4 a V c).Φ (Fin.last (cfg4 a).N) = iprop((∃ r, prngReg c r) ∗ Pipeline.prefHeld pre4 c (fun _ => fullShare) a.1
      ∗ owns (c : Thread nD τ) (Memref.whole cc4_scratch0) fullShare (accAt4 a V c ((cfg4 a).N - 1))
      ∗ Pipeline.scopedRestBut spec4 c [cc4_scratch0]) := by
  rw [dat_Φ4, Fin.val_last]
  exact Phi_pos4 a V c _ (Nat.pos_iff_ne_zero.mp (N_pos4 a))

/-! ## The inputs' staging buffers -/

/-- Input window 0's current staging buffer holds its block at every point, fetched there or not: unfetched, the
    block index has not moved since the point before, and the body leaves the block in place. -/
theorem beforeU4 (c : Dev nD) (t : Fin (cfg4 a).N) (d) : (dat4 a V c).before (0 : Fin 3) t d = iblk4 a V c (0 : Fin 3) t :=
  ((dat4 a V c).before_in_eq_fetched (0 : Fin 3) rfl (fun _ => rfl) (fun _ _ _ => rfl)
    (fun t => by rw [afterU4]; unfold Dat.blockOf iblk4; rw [A_eq4]; try rfl) t d).trans
    (by unfold Dat.fetched Dat.blockOf iblk4; rw [A_eq4]; try rfl)

/-- The same for input window 1. -/
theorem beforeV4 (c : Dev nD) (t : Fin (cfg4 a).N) (d) : (dat4 a V c).before (1 : Fin 3) t d = iblk4 a V c (1 : Fin 3) t :=
  ((dat4 a V c).before_in_eq_fetched (1 : Fin 3) rfl (fun _ => rfl) (fun _ _ _ => rfl)
    (fun t => by rw [afterV4]; unfold Dat.blockOf iblk4; rw [A_eq4]; try rfl) t d).trans
    (by unfold Dat.fetched Dat.blockOf iblk4; rw [A_eq4]; try rfl)

end Cert.Kernel.Gen

end
-- ==== Proof.SegK4.lean ====
import proofs.«425429_j48773648614109_2_alg».proof.Proof.DatK4
import Idealize.ShloMosaic.Lib.Pipeline.Frame
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 4 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v40`) and the rest; the rest splits once more into the two
  prefetched index tables (`main_v37`, `main_v39`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg4

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin4 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 4 over the thread state "every unscoped buffer at a valuation, the generator register at some state, nothing
    owed": entered at `Win`, left at `Wout`, for any family of proof data whose member at this pipeline is `dat4` at the
    entry valuation (`hd`), given that the two index tables hold the admissible contents at entry (`htab`), that `Wout`
    has each window's array at what the pipeline leaves there (`hF`) and agrees with `Win` off the arrays (`hrest`), and
    the body obligation (`hb`). -/
def reg4
    (hd : ∀ c, pdats p4 c = dat4 (a p4) (vin4 Win) c)
    (hb : ∀ c, BodyObligation (dat4 (a p4) (vin4 Win) c) (defs₀ (F := F)) Variants.none () Set.univ)
    (htab : ∀ c (k : Fin pre4.K), Win c (pre4.ref k) = (a p4 : (pcfg4 (F := F)).Adm).1 k)
    (hF : ∀ c w, (pdats p4 c).arrAt w (Pipeline.pin (pcfgs (F := F)) a p4).N = Wout c (Pipeline.arrRef spec4 w))
    (hrest : ∀ c (b : Ref sig .tc), b ∉ Finset.univ.image (Pipeline.arrRef spec4) → Wout c b = Win c b) :
    Pipeline.RegionSeg (pcfgs (F := F)) a pdats () defs₀ Variants.none (fun _ => (∅ : Finset Unit)) (fun _ _ => (0 : ℕ)) p4 where
  win := (launch4 (F := F)).win.to₀
  block_pos := (launch4 (F := F)).block_pos
  stage_whole := (launch4 (F := F)).stage_whole
  K := PEmpty
  osem k := k.elim
  ho := Pipeline.OwnSemFacts.none _
  hbody c := by rw [hd c]; exact (hb c).loose
  hwaits := Pipeline.hwaits_of_owed_zero _ _ _ _ _ _ p4 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre4 c (fun _ => fullShare) (a p4 : (pcfg4 (F := F)).Adm).1)
  Z c := Pipeline.unscopedRestP (Ix := Unit) (Name := ℕ) (U := UR sig nD τ) (Lvl := ℕ) pre4 spec4 c (vin4 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p4 c).arrays ((pdats p4 c).arrAt · 0) ∗ Pipeline.prefHeld pre4 c (fun _ => fullShare) (a p4 : (pcfg4 (F := F)).Adm).1
            ∗ Pipeline.unscopedRestP pre4 spec4 c (vin4 Win c)) := by
      have h := Pipeline.arrays_of_unscopedBufs (p := p4) (pcfgs (F := F)) a pdats (launch4 (F := F)).win (launch4 (F := F)).arr_whole c
        (by rw [hd c]; exact (dat4 (a p4) (vin4 Win) c).share_full fun _ => rfl) (vin4 Win c) (by rw [hd c]; exact A_eq4 (a p4) (vin4 Win) c)
      rw [Pipeline.unscopedBufs_held c (Win c), Pipeline.unscopedRest_split (launch4 (F := F)).pre c (vin4 Win c)] at h
      rw [← show (fun k => vin4 Win c (pre4.ref k)) = (a p4 : (pcfg4 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p4 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero4]
    exact .rfl
  hout c := by
    -- the accumulator's points-to at its last value is one of the scoped buffers "at some contents"
    rw [Pipeline.ownSems0_none, hd c,
      show (dat4 (a p4) (vin4 Win) c).Φ (Fin.last (Pipeline.pin (pcfgs (F := F)) a p4).N) = _ from dat_Φ_last4 (a p4) (vin4 Win) c,
      show (Pipeline.scopedRest (Pipeline.pin (pcfgs (F := F)) a p4).spec c : sProp 𝕄) = _ from scopedRest4_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p4 c).arrays ((pdats p4 c).arrAt · (Pipeline.pin (pcfgs (F := F)) a p4).N)
          ∗ Pipeline.prefHeld pre4 c (fun _ => fullShare) (a p4 : (pcfg4 (F := F)).Adm).1 ∗ Pipeline.unscopedRestP pre4 spec4 c (vin4 Win c))
        ⊢ (StableHlo.held (c : Thread nD τ) (Pipeline.ucRefs τ sig) (Wout c) : sProp 𝕄) := by
      have h := Pipeline.unscopedBufs_of_arrays (p := p4) (pcfgs (F := F)) a (Ix := Unit) (Name := ℕ) (U := UR sig nD τ) (Lvl := ℕ)
        (launch4 (F := F)).win (launch4 (F := F)).arr_whole c pdats (by rw [hd c]; exact (dat4 (a p4) (vin4 Win) c).share_full fun _ => rfl)
        (vin4 Win c) (vin4 Wout c) ((pdats p4 c).arrAt · (Pipeline.pin (pcfgs (F := F)) a p4).N) (hF c) (hrest c)
      rw [Pipeline.unscopedBufs_held c (Wout c), Pipeline.unscopedRest_split (launch4 (F := F)).pre c (vin4 Win c)] at h
      rw [← show (fun k => vin4 Win c (pre4.ref k)) = (a p4 : (pcfg4 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p4 c).owed (Fin.last _) = 0 from by rw [hd c]; rfl]
    icases HO with ⟨%W, -, HO⟩; iexists W; iexact HO

end Seg4

end Cert.Kernel.Gen

end
-- ==== Proof.RecK4.lean ====
import proofs.«425429_j48773648614109_2_alg».proof.Proof.SegK4

/-! Region 4's segment record from facts about the two valuations alone.

The region's record (`reg4`) asks, of the valuation at the exit, each window's array at what the pipeline leaves
there. The two input arrays are never written, so they are left as found: that half asks only that the exit
valuation agrees with the entry valuation at them. The output array is left at the contents the write-backs build
(`outArr4`), a function of the entry valuation: that half asks that the exit valuation holds exactly that. -/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec4

/-- What region 4 leaves in its output array, from the admissible tables and the valuation at its entry: the array
    after every point's write-back. -/
def outArr4 (adm : (pcfg4 (F := F)).Adm) (Win : Dev nD → Valuation τ sig (Elt F)) (c : Dev nD) :
    Buf (Elt F) ((c : Thread nD τ).loc (Pipeline.arrRef spec4 (2 : Fin 3))) :=
  (dat4 adm (vin4 Win) c).arrAt (2 : Fin 3) (cfg4 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of4
    (hd : ∀ c, pdats p4 c = dat4 (a p4) (vin4 Win) c)
    (hin : ∀ c (w : Fin 3), w ≠ 2 → Wout c (Pipeline.arrRef spec4 w) = Win c (Pipeline.arrRef spec4 w))
    (hout : ∀ c, Wout c (Pipeline.arrRef spec4 (2 : Fin 3)) = outArr4 (a p4) Win c)
    (c : Dev nD) (w : Fin 3) :
    (pdats p4 c).arrAt w (Pipeline.pin (pcfgs (F := F)) a p4).N = Wout c (Pipeline.arrRef spec4 w) := by
  rw [hd c]
  match w with
  | ⟨0, _⟩ =>
    exact (Dat.arrAt_in (dat4 (a p4) (vin4 Win) c) (0 : Fin 3) rfl _).trans
      ((A_eq4 (a p4) (vin4 Win) c (0 : Fin 3)).trans (hin c (0 : Fin 3) (by decide)).symm)
  | ⟨1, _⟩ =>
    exact (Dat.arrAt_in (dat4 (a p4) (vin4 Win) c) (1 : Fin 3) rfl _).trans
      ((A_eq4 (a p4) (vin4 Win) c (1 : Fin 3)).trans (hin c (1 : Fin 3) (by decide)).symm)
  | ⟨2, _⟩ => exact (hout c).symm

/-- REGION 4's record between two valuations: entered at `Win`, left at `Wout`. -/
def rec4
    (hd : ∀ c, pdats p4 c = dat4 (a p4) (vin4 Win) c)
    (hb : ∀ c, BodyObligation (dat4 (a p4) (vin4 Win) c) (defs₀ (F := F)) Variants.none () Set.univ)
    (htab : ∀ c (k : Fin pre4.K), Win c (pre4.ref k) = (a p4 : (pcfg4 (F := F)).Adm).1 k)
    (hin : ∀ c (w : Fin 3), w ≠ 2 → Wout c (Pipeline.arrRef spec4 w) = Win c (Pipeline.arrRef spec4 w))
    (hout : ∀ c, Wout c (Pipeline.arrRef spec4 (2 : Fin 3)) = outArr4 (a p4) Win c)
    (hrest : ∀ c (b : Ref sig .tc), b ∉ Finset.univ.image (Pipeline.arrRef spec4) → Wout c b = Win c b) :
    Pipeline.RegionSeg (pcfgs (F := F)) a pdats () defs₀ Variants.none (fun _ => (∅ : Finset Unit)) (fun _ _ => (0 : ℕ)) p4 :=
  reg4 a pdats Win Wout hd hb htab (hF_of4 a pdats Win Wout hd hin hout) hrest

end Rec4

end Cert.Kernel.Gen

end
-- ==== Proof.DatK5.lean ====
import proofs.«425429_j48773648614109_2_alg».proof.Proof.LaunchK
import proofs.«425429_j48773648614109_2_alg».proof.Proof.Gen.Kernel.Skeleton
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg5 (F := F)).Adm)
  (V : (c : Dev nD) → (b : Ref sig .tc) → Buf (Elt F) ((c : Thread nD τ).loc b))

/-- The pipeline of @main this module is about. -/
abbrev p5 : Fin 8 := 5

/-! ## The grid's points by number -/

/-- The region's grid has a point. -/
theorem N_pos5 : 0 < (cfg5 a).N := by
  rw [show (cfg5 a).N = grid5.N from rfl, N_5]; exact Nat.succ_pos _

/-- The grid point numbered `n`; a number past the grid wraps around (such a point is never consulted). -/
def pt5 (n : ℕ) : Fin (cfg5 a).N := ⟨n % (cfg5 a).N, Nat.mod_lt _ (N_pos5 a)⟩

/-- A grid point is the point of its own number. -/
theorem pt_val5 (t : Fin (cfg5 a).N) : pt5 a t.val = t := Fin.ext (Nat.mod_eq_of_lt t.isLt)

/-! ## The windows' blocks -/

/-- Window `w`'s block at point `t`, read off its array as the region finds it (`V`). -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-! ## The accumulation -/

/-- What the carried scratch holds AFTER the point numbered `n`: the sum so far. After the first point it is that
    point's term added to the zero the first point stores; after a later point, that point's term added to what
    the point before left. -/
def accAt5 (c : Dev nD) : ℕ → Vec F S1x1 .f32
  | 0 => k5_pay2 (iblk5 a V c (0 : Fin 3) (pt5 a 0)) (iblk5 a V c (1 : Fin 3) (pt5 a 0)) (k5_pay1 (F := F))
  | n + 1 => k5_pay2 (iblk5 a V c (0 : Fin 3) (pt5 a (n + 1))) (iblk5 a V c (1 : Fin 3) (pt5 a (n + 1))) (accAt5 c n)

theorem accAt_zero5 (c : Dev nD) :
    accAt5 a V c 0 = k5_pay2 (iblk5 a V c (0 : Fin 3) (pt5 a 0)) (iblk5 a V c (1 : Fin 3) (pt5 a 0)) (k5_pay1 (F := F)) := rfl

theorem accAt_succ5 (c : Dev nD) (n : ℕ) :
    accAt5 a V c (n + 1) = k5_pay2 (iblk5 a V c (0 : Fin 3) (pt5 a (n + 1))) (iblk5 a V c (1 : Fin 3) (pt5 a (n + 1))) (accAt5 a V c n) := rfl

/-! ## The region invariant -/

/-- The region invariant before the position numbered `n`: the generator register at some state and the prefetched
    tables held whole throughout; before the first point every scoped buffer no window stages at anything; afterwards
    the carried scratch at the sum the point before left (`accAt5`), the other such buffers at anything. -/
def Phi5 (c : Dev nD) : ℕ → sProp 𝕄
  | 0 => iprop((∃ r, prngReg c r) ∗ Pipeline.prefHeld pre5 c (fun _ => fullShare) a.1 ∗ Pipeline.scopedRest spec5 c)
  | n + 1 => iprop((∃ r, prngReg c r) ∗ Pipeline.prefHeld pre5 c (fun _ => fullShare) a.1
      ∗ owns (c : Thread nD τ) (Memref.whole cc5_scratch0) fullShare (accAt5 a V c n)
      ∗ Pipeline.scopedRestBut spec5 c [cc5_scratch0])

theorem Phi_zero5 (c : Dev nD) :
    Phi5 a V c 0 = iprop((∃ r, prngReg c r) ∗ Pipeline.prefHeld pre5 c (fun _ => fullShare) a.1 ∗ Pipeline.scopedRest spec5 c) := rfl

theorem Phi_succ5 (c : Dev nD) (n : ℕ) :
    Phi5 a V c (n + 1) = iprop((∃ r, prngReg c r) ∗ Pipeline.prefHeld pre5 c (fun _ => fullShare) a.1
      ∗ owns (c : Thread nD τ) (Memref.whole cc5_scratch0) fullShare (accAt5 a V c n)
      ∗ Pipeline.scopedRestBut spec5 c [cc5_scratch0]) := rfl

theorem Phi_pos5 (c : Dev nD) (n : ℕ) (hn : n ≠ 0) :
    Phi5 a V c n = iprop((∃ r, prngReg c r) ∗ Pipeline.prefHeld pre5 c (fun _ => fullShare) a.1
      ∗ owns (c : Thread nD τ) (Memref.whole cc5_scratch0) fullShare (accAt5 a V c (n - 1))
      ∗ Pipeline.scopedRestBut spec5 c [cc5_scratch0]) := by
  cases n with
  | zero => exact absurd rfl hn
  | succ n => rfl

/-! ## The pipeline's proof data -/

/-- The proof data of region 5's pipeline on core `c`: the arrays as the region finds them (`V`); after the body at
    point `t` each input's buffer at its block and the output's at the sum so far (the output window is idle at
    every point but the last, where this is the total); the invariant `Phi5`; nothing owed; full shares. -/
def dat5 (c : Dev nD) : Dat τ (Elt F) Unit ℕ (UR sig nD τ) ℕ (cfg5 a) c where
  A w := V c (Pipeline.arrRef spec5 w)
  after w t := match w with
    | ⟨0, _⟩ => iblk5 a V c (0 : Fin 3) t
    | ⟨1, _⟩ => iblk5 a V c (1 : Fin 3) t
    | ⟨2, _⟩ => accAt5 a V c t.val
  Φ t := Phi5 a V c t.val
  q _ := fullShare
  owed _ := 0

theorem A_eq5 (c : Dev nD) (w : Fin (cfg5 a).W) : (dat5 a V c).A w = V c (Pipeline.arrRef spec5 w) := by
  dsimp only [dat5]

theorem afterU5 (c : Dev nD) (t : Fin (cfg5 a).N) : (dat5 a V c).after (0 : Fin 3) t = iblk5 a V c (0 : Fin 3) t := by dsimp only [dat5]
theorem afterV5 (c : Dev nD) (t : Fin (cfg5 a).N) : (dat5 a V c).after (1 : Fin 3) t = iblk5 a V c (1 : Fin 3) t := by dsimp only [dat5]
theorem afterO5 (c : Dev nD) (t : Fin (cfg5 a).N) : (dat5 a V c).after (2 : Fin 3) t = accAt5 a V c t.val := by dsimp only [dat5]

theorem dat_Φ5 (c : Dev nD) (t : Fin ((cfg5 a).N + 1)) : (dat5 a V c).Φ t = Phi5 a V c t.val := by dsimp only [dat5]

theorem dat_Φ_castSucc5 (c : Dev nD) (t : Fin (cfg5 a).N) : (dat5 a V c).Φ t.castSucc = Phi5 a V c t.val := by
  rw [dat_Φ5, Fin.coe_castSucc]

theorem dat_Φ_succ5 (c : Dev nD) (t : Fin (cfg5 a).N) : (dat5 a V c).Φ t.succ = Phi5 a V c (t.val + 1) := by
  rw [dat_Φ5, Fin.val_succ]

theorem dat_Φ_zero5 (c : Dev nD) :
    (dat5 a V c).Φ 0 = iprop((∃ r, prngReg c r) ∗ Pipeline.prefHeld pre5 c (fun _ => fullShare) a.1 ∗ Pipeline.scopedRest spec5 c) := by
  rw [dat_Φ5]; rfl

theorem dat_Φ_last5 (c : Dev nD) :
    (dat5 a V c).Φ (Fin.last (cfg5 a).N) = iprop((∃ r, prngReg c r) ∗ Pipeline.prefHeld pre5 c (fun _ => fullShare) a.1
      ∗ owns (c : Thread nD τ) (Memref.whole cc5_scratch0) fullShare (accAt5 a V c ((cfg5 a).N - 1))
      ∗ Pipeline.scopedRestBut spec5 c [cc5_scratch0]) := by
  rw [dat_Φ5, Fin.val_last]
  exact Phi_pos5 a V c _ (Nat.pos_iff_ne_zero.mp (N_pos5 a))

/-! ## The inputs' staging buffers -/

/-- Input window 0's current staging buffer holds its block at every point, fetched there or not: unfetched, the
    block index has not moved since the point before, and the body leaves the block in place. -/
theorem beforeU5 (c : Dev nD) (t : Fin (cfg5 a).N) (d) : (dat5 a V c).before (0 : Fin 3) t d = iblk5 a V c (0 : Fin 3) t :=
  ((dat5 a V c).before_in_eq_fetched (0 : Fin 3) rfl (fun _ => rfl) (fun _ _ _ => rfl)
    (fun t => by rw [afterU5]; unfold Dat.blockOf iblk5; rw [A_eq5]; try rfl) t d).trans
    (by unfold Dat.fetched Dat.blockOf iblk5; rw [A_eq5]; try rfl)

/-- The same for input window 1. -/
theorem beforeV5 (c : Dev nD) (t : Fin (cfg5 a).N) (d) : (dat5 a V c).before (1 : Fin 3) t d = iblk5 a V c (1 : Fin 3) t :=
  ((dat5 a V c).before_in_eq_fetched (1 : Fin 3) rfl (fun _ => rfl) (fun _ _ _ => rfl)
    (fun t => by rw [afterV5]; unfold Dat.blockOf iblk5; rw [A_eq5]; try rfl) t d).trans
    (by unfold Dat.fetched Dat.blockOf iblk5; rw [A_eq5]; try rfl)

end Cert.Kernel.Gen

end
-- ==== Proof.SegK5.lean ====
import proofs.«425429_j48773648614109_2_alg».proof.Proof.DatK5
import Idealize.ShloMosaic.Lib.Pipeline.Frame
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 5 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v47`) and the rest; the rest splits once more into the two
  prefetched index tables (`main_v44`, `main_v46`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg5

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin5 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 5 over the thread state "every unscoped buffer at a valuation, the generator register at some state, nothing
    owed": entered at `Win`, left at `Wout`, for any family of proof data whose member at this pipeline is `dat5` at the
    entry valuation (`hd`), given that the two index tables hold the admissible contents at entry (`htab`), that `Wout`
    has each window's array at what the pipeline leaves there (`hF`) and agrees with `Win` off the arrays (`hrest`), and
    the body obligation (`hb`). -/
def reg5
    (hd : ∀ c, pdats p5 c = dat5 (a p5) (vin5 Win) c)
    (hb : ∀ c, BodyObligation (dat5 (a p5) (vin5 Win) c) (defs₀ (F := F)) Variants.none () Set.univ)
    (htab : ∀ c (k : Fin pre5.K), Win c (pre5.ref k) = (a p5 : (pcfg5 (F := F)).Adm).1 k)
    (hF : ∀ c w, (pdats p5 c).arrAt w (Pipeline.pin (pcfgs (F := F)) a p5).N = Wout c (Pipeline.arrRef spec5 w))
    (hrest : ∀ c (b : Ref sig .tc), b ∉ Finset.univ.image (Pipeline.arrRef spec5) → Wout c b = Win c b) :
    Pipeline.RegionSeg (pcfgs (F := F)) a pdats () defs₀ Variants.none (fun _ => (∅ : Finset Unit)) (fun _ _ => (0 : ℕ)) p5 where
  win := (launch5 (F := F)).win.to₀
  block_pos := (launch5 (F := F)).block_pos
  stage_whole := (launch5 (F := F)).stage_whole
  K := PEmpty
  osem k := k.elim
  ho := Pipeline.OwnSemFacts.none _
  hbody c := by rw [hd c]; exact (hb c).loose
  hwaits := Pipeline.hwaits_of_owed_zero _ _ _ _ _ _ p5 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre5 c (fun _ => fullShare) (a p5 : (pcfg5 (F := F)).Adm).1)
  Z c := Pipeline.unscopedRestP (Ix := Unit) (Name := ℕ) (U := UR sig nD τ) (Lvl := ℕ) pre5 spec5 c (vin5 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p5 c).arrays ((pdats p5 c).arrAt · 0) ∗ Pipeline.prefHeld pre5 c (fun _ => fullShare) (a p5 : (pcfg5 (F := F)).Adm).1
            ∗ Pipeline.unscopedRestP pre5 spec5 c (vin5 Win c)) := by
      have h := Pipeline.arrays_of_unscopedBufs (p := p5) (pcfgs (F := F)) a pdats (launch5 (F := F)).win (launch5 (F := F)).arr_whole c
        (by rw [hd c]; exact (dat5 (a p5) (vin5 Win) c).share_full fun _ => rfl) (vin5 Win c) (by rw [hd c]; exact A_eq5 (a p5) (vin5 Win) c)
      rw [Pipeline.unscopedBufs_held c (Win c), Pipeline.unscopedRest_split (launch5 (F := F)).pre c (vin5 Win c)] at h
      rw [← show (fun k => vin5 Win c (pre5.ref k)) = (a p5 : (pcfg5 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p5 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero5]
    exact .rfl
  hout c := by
    -- the accumulator's points-to at its last value is one of the scoped buffers "at some contents"
    rw [Pipeline.ownSems0_none, hd c,
      show (dat5 (a p5) (vin5 Win) c).Φ (Fin.last (Pipeline.pin (pcfgs (F := F)) a p5).N) = _ from dat_Φ_last5 (a p5) (vin5 Win) c,
      show (Pipeline.scopedRest (Pipeline.pin (pcfgs (F := F)) a p5).spec c : sProp 𝕄) = _ from scopedRest5_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p5 c).arrays ((pdats p5 c).arrAt · (Pipeline.pin (pcfgs (F := F)) a p5).N)
          ∗ Pipeline.prefHeld pre5 c (fun _ => fullShare) (a p5 : (pcfg5 (F := F)).Adm).1 ∗ Pipeline.unscopedRestP pre5 spec5 c (vin5 Win c))
        ⊢ (StableHlo.held (c : Thread nD τ) (Pipeline.ucRefs τ sig) (Wout c) : sProp 𝕄) := by
      have h := Pipeline.unscopedBufs_of_arrays (p := p5) (pcfgs (F := F)) a (Ix := Unit) (Name := ℕ) (U := UR sig nD τ) (Lvl := ℕ)
        (launch5 (F := F)).win (launch5 (F := F)).arr_whole c pdats (by rw [hd c]; exact (dat5 (a p5) (vin5 Win) c).share_full fun _ => rfl)
        (vin5 Win c) (vin5 Wout c) ((pdats p5 c).arrAt · (Pipeline.pin (pcfgs (F := F)) a p5).N) (hF c) (hrest c)
      rw [Pipeline.unscopedBufs_held c (Wout c), Pipeline.unscopedRest_split (launch5 (F := F)).pre c (vin5 Win c)] at h
      rw [← show (fun k => vin5 Win c (pre5.ref k)) = (a p5 : (pcfg5 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p5 c).owed (Fin.last _) = 0 from by rw [hd c]; rfl]
    icases HO with ⟨%W, -, HO⟩; iexists W; iexact HO

end Seg5

end Cert.Kernel.Gen

end
-- ==== Proof.RecK5.lean ====
import proofs.«425429_j48773648614109_2_alg».proof.Proof.SegK5

/-! Region 5's segment record from facts about the two valuations alone.

The region's record (`reg5`) asks, of the valuation at the exit, each window's array at what the pipeline leaves
there. The two input arrays are never written, so they are left as found: that half asks only that the exit
valuation agrees with the entry valuation at them. The output array is left at the contents the write-backs build
(`outArr5`), a function of the entry valuation: that half asks that the exit valuation holds exactly that. -/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec5

/-- What region 5 leaves in its output array, from the admissible tables and the valuation at its entry: the array
    after every point's write-back. -/
def outArr5 (adm : (pcfg5 (F := F)).Adm) (Win : Dev nD → Valuation τ sig (Elt F)) (c : Dev nD) :
    Buf (Elt F) ((c : Thread nD τ).loc (Pipeline.arrRef spec5 (2 : Fin 3))) :=
  (dat5 adm (vin5 Win) c).arrAt (2 : Fin 3) (cfg5 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of5
    (hd : ∀ c, pdats p5 c = dat5 (a p5) (vin5 Win) c)
    (hin : ∀ c (w : Fin 3), w ≠ 2 → Wout c (Pipeline.arrRef spec5 w) = Win c (Pipeline.arrRef spec5 w))
    (hout : ∀ c, Wout c (Pipeline.arrRef spec5 (2 : Fin 3)) = outArr5 (a p5) Win c)
    (c : Dev nD) (w : Fin 3) :
    (pdats p5 c).arrAt w (Pipeline.pin (pcfgs (F := F)) a p5).N = Wout c (Pipeline.arrRef spec5 w) := by
  rw [hd c]
  match w with
  | ⟨0, _⟩ =>
    exact (Dat.arrAt_in (dat5 (a p5) (vin5 Win) c) (0 : Fin 3) rfl _).trans
      ((A_eq5 (a p5) (vin5 Win) c (0 : Fin 3)).trans (hin c (0 : Fin 3) (by decide)).symm)
  | ⟨1, _⟩ =>
    exact (Dat.arrAt_in (dat5 (a p5) (vin5 Win) c) (1 : Fin 3) rfl _).trans
      ((A_eq5 (a p5) (vin5 Win) c (1 : Fin 3)).trans (hin c (1 : Fin 3) (by decide)).symm)
  | ⟨2, _⟩ => exact (hout c).symm

/-- REGION 5's record between two valuations: entered at `Win`, left at `Wout`. -/
def rec5
    (hd : ∀ c, pdats p5 c = dat5 (a p5) (vin5 Win) c)
    (hb : ∀ c, BodyObligation (dat5 (a p5) (vin5 Win) c) (defs₀ (F := F)) Variants.none () Set.univ)
    (htab : ∀ c (k : Fin pre5.K), Win c (pre5.ref k) = (a p5 : (pcfg5 (F := F)).Adm).1 k)
    (hin : ∀ c (w : Fin 3), w ≠ 2 → Wout c (Pipeline.arrRef spec5 w) = Win c (Pipeline.arrRef spec5 w))
    (hout : ∀ c, Wout c (Pipeline.arrRef spec5 (2 : Fin 3)) = outArr5 (a p5) Win c)
    (hrest : ∀ c (b : Ref sig .tc), b ∉ Finset.univ.image (Pipeline.arrRef spec5) → Wout c b = Win c b) :
    Pipeline.RegionSeg (pcfgs (F := F)) a pdats () defs₀ Variants.none (fun _ => (∅ : Finset Unit)) (fun _ _ => (0 : ℕ)) p5 :=
  reg5 a pdats Win Wout hd hb htab (hF_of5 a pdats Win Wout hd hin hout) hrest

end Rec5

end Cert.Kernel.Gen

end
-- ==== Proof.DatK6.lean ====
import proofs.«425429_j48773648614109_2_alg».proof.Proof.LaunchK
import proofs.«425429_j48773648614109_2_alg».proof.Proof.Gen.Kernel.Skeleton
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg6 (F := F)).Adm)
  (V : (c : Dev nD) → (b : Ref sig .tc) → Buf (Elt F) ((c : Thread nD τ).loc b))

/-- The pipeline of @main this module is about. -/
abbrev p6 : Fin 8 := 6

/-! ## The grid's points by number -/

/-- The region's grid has a point. -/
theorem N_pos6 : 0 < (cfg6 a).N := by
  rw [show (cfg6 a).N = grid6.N from rfl, N_6]; exact Nat.succ_pos _

/-- The grid point numbered `n`; a number past the grid wraps around (such a point is never consulted). -/
def pt6 (n : ℕ) : Fin (cfg6 a).N := ⟨n % (cfg6 a).N, Nat.mod_lt _ (N_pos6 a)⟩

/-- A grid point is the point of its own number. -/
theorem pt_val6 (t : Fin (cfg6 a).N) : pt6 a t.val = t := Fin.ext (Nat.mod_eq_of_lt t.isLt)

/-! ## The windows' blocks -/

/-- Window `w`'s block at point `t`, read off its array as the region finds it (`V`). -/
def iblk6 (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-! ## The accumulation -/

/-- What the carried scratch holds AFTER the point numbered `n`: the sum so far. After the first point it is that
    point's term added to the zero the first point stores; after a later point, that point's term added to what
    the point before left. -/
def accAt6 (c : Dev nD) : ℕ → Vec F S1x1 .f32
  | 0 => k6_pay2 (iblk6 a V c (0 : Fin 3) (pt6 a 0)) (iblk6 a V c (1 : Fin 3) (pt6 a 0)) (k6_pay1 (F := F))
  | n + 1 => k6_pay2 (iblk6 a V c (0 : Fin 3) (pt6 a (n + 1))) (iblk6 a V c (1 : Fin 3) (pt6 a (n + 1))) (accAt6 c n)

theorem accAt_zero6 (c : Dev nD) :
    accAt6 a V c 0 = k6_pay2 (iblk6 a V c (0 : Fin 3) (pt6 a 0)) (iblk6 a V c (1 : Fin 3) (pt6 a 0)) (k6_pay1 (F := F)) := rfl

theorem accAt_succ6 (c : Dev nD) (n : ℕ) :
    accAt6 a V c (n + 1) = k6_pay2 (iblk6 a V c (0 : Fin 3) (pt6 a (n + 1))) (iblk6 a V c (1 : Fin 3) (pt6 a (n + 1))) (accAt6 a V c n) := rfl

/-! ## The region invariant -/

/-- The region invariant before the position numbered `n`: the generator register at some state and the prefetched
    tables held whole throughout; before the first point every scoped buffer no window stages at anything; afterwards
    the carried scratch at the sum the point before left (`accAt6`), the other such buffers at anything. -/
def Phi6 (c : Dev nD) : ℕ → sProp 𝕄
  | 0 => iprop((∃ r, prngReg c r) ∗ Pipeline.prefHeld pre6 c (fun _ => fullShare) a.1 ∗ Pipeline.scopedRest spec6 c)
  | n + 1 => iprop((∃ r, prngReg c r) ∗ Pipeline.prefHeld pre6 c (fun _ => fullShare) a.1
      ∗ owns (c : Thread nD τ) (Memref.whole cc6_scratch0) fullShare (accAt6 a V c n)
      ∗ Pipeline.scopedRestBut spec6 c [cc6_scratch0])

theorem Phi_zero6 (c : Dev nD) :
    Phi6 a V c 0 = iprop((∃ r, prngReg c r) ∗ Pipeline.prefHeld pre6 c (fun _ => fullShare) a.1 ∗ Pipeline.scopedRest spec6 c) := rfl

theorem Phi_succ6 (c : Dev nD) (n : ℕ) :
    Phi6 a V c (n + 1) = iprop((∃ r, prngReg c r) ∗ Pipeline.prefHeld pre6 c (fun _ => fullShare) a.1
      ∗ owns (c : Thread nD τ) (Memref.whole cc6_scratch0) fullShare (accAt6 a V c n)
      ∗ Pipeline.scopedRestBut spec6 c [cc6_scratch0]) := rfl

theorem Phi_pos6 (c : Dev nD) (n : ℕ) (hn : n ≠ 0) :
    Phi6 a V c n = iprop((∃ r, prngReg c r) ∗ Pipeline.prefHeld pre6 c (fun _ => fullShare) a.1
      ∗ owns (c : Thread nD τ) (Memref.whole cc6_scratch0) fullShare (accAt6 a V c (n - 1))
      ∗ Pipeline.scopedRestBut spec6 c [cc6_scratch0]) := by
  cases n with
  | zero => exact absurd rfl hn
  | succ n => rfl

/-! ## The pipeline's proof data -/

/-- The proof data of region 6's pipeline on core `c`: the arrays as the region finds them (`V`); after the body at
    point `t` each input's buffer at its block and the output's at the sum so far (the output window is idle at
    every point but the last, where this is the total); the invariant `Phi6`; nothing owed; full shares. -/
def dat6 (c : Dev nD) : Dat τ (Elt F) Unit ℕ (UR sig nD τ) ℕ (cfg6 a) c where
  A w := V c (Pipeline.arrRef spec6 w)
  after w t := match w with
    | ⟨0, _⟩ => iblk6 a V c (0 : Fin 3) t
    | ⟨1, _⟩ => iblk6 a V c (1 : Fin 3) t
    | ⟨2, _⟩ => accAt6 a V c t.val
  Φ t := Phi6 a V c t.val
  q _ := fullShare
  owed _ := 0

theorem A_eq6 (c : Dev nD) (w : Fin (cfg6 a).W) : (dat6 a V c).A w = V c (Pipeline.arrRef spec6 w) := by
  dsimp only [dat6]

theorem afterU6 (c : Dev nD) (t : Fin (cfg6 a).N) : (dat6 a V c).after (0 : Fin 3) t = iblk6 a V c (0 : Fin 3) t := by dsimp only [dat6]
theorem afterV6 (c : Dev nD) (t : Fin (cfg6 a).N) : (dat6 a V c).after (1 : Fin 3) t = iblk6 a V c (1 : Fin 3) t := by dsimp only [dat6]
theorem afterO6 (c : Dev nD) (t : Fin (cfg6 a).N) : (dat6 a V c).after (2 : Fin 3) t = accAt6 a V c t.val := by dsimp only [dat6]

theorem dat_Φ6 (c : Dev nD) (t : Fin ((cfg6 a).N + 1)) : (dat6 a V c).Φ t = Phi6 a V c t.val := by dsimp only [dat6]

theorem dat_Φ_castSucc6 (c : Dev nD) (t : Fin (cfg6 a).N) : (dat6 a V c).Φ t.castSucc = Phi6 a V c t.val := by
  rw [dat_Φ6, Fin.coe_castSucc]

theorem dat_Φ_succ6 (c : Dev nD) (t : Fin (cfg6 a).N) : (dat6 a V c).Φ t.succ = Phi6 a V c (t.val + 1) := by
  rw [dat_Φ6, Fin.val_succ]

theorem dat_Φ_zero6 (c : Dev nD) :
    (dat6 a V c).Φ 0 = iprop((∃ r, prngReg c r) ∗ Pipeline.prefHeld pre6 c (fun _ => fullShare) a.1 ∗ Pipeline.scopedRest spec6 c) := by
  rw [dat_Φ6]; rfl

theorem dat_Φ_last6 (c : Dev nD) :
    (dat6 a V c).Φ (Fin.last (cfg6 a).N) = iprop((∃ r, prngReg c r) ∗ Pipeline.prefHeld pre6 c (fun _ => fullShare) a.1
      ∗ owns (c : Thread nD τ) (Memref.whole cc6_scratch0) fullShare (accAt6 a V c ((cfg6 a).N - 1))
      ∗ Pipeline.scopedRestBut spec6 c [cc6_scratch0]) := by
  rw [dat_Φ6, Fin.val_last]
  exact Phi_pos6 a V c _ (Nat.pos_iff_ne_zero.mp (N_pos6 a))

/-! ## The inputs' staging buffers -/

/-- Input window 0's current staging buffer holds its block at every point, fetched there or not: unfetched, the
    block index has not moved since the point before, and the body leaves the block in place. -/
theorem beforeU6 (c : Dev nD) (t : Fin (cfg6 a).N) (d) : (dat6 a V c).before (0 : Fin 3) t d = iblk6 a V c (0 : Fin 3) t :=
  ((dat6 a V c).before_in_eq_fetched (0 : Fin 3) rfl (fun _ => rfl) (fun _ _ _ => rfl)
    (fun t => by rw [afterU6]; unfold Dat.blockOf iblk6; rw [A_eq6]; try rfl) t d).trans
    (by unfold Dat.fetched Dat.blockOf iblk6; rw [A_eq6]; try rfl)

/-- The same for input window 1. -/
theorem beforeV6 (c : Dev nD) (t : Fin (cfg6 a).N) (d) : (dat6 a V c).before (1 : Fin 3) t d = iblk6 a V c (1 : Fin 3) t :=
  ((dat6 a V c).before_in_eq_fetched (1 : Fin 3) rfl (fun _ => rfl) (fun _ _ _ => rfl)
    (fun t => by rw [afterV6]; unfold Dat.blockOf iblk6; rw [A_eq6]; try rfl) t d).trans
    (by unfold Dat.fetched Dat.blockOf iblk6; rw [A_eq6]; try rfl)

end Cert.Kernel.Gen

end
-- ==== Proof.SegK6.lean ====
import proofs.«425429_j48773648614109_2_alg».proof.Proof.DatK6
import Idealize.ShloMosaic.Lib.Pipeline.Frame
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 6 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v54`) and the rest; the rest splits once more into the two
  prefetched index tables (`main_v51`, `main_v53`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg6

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin6 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 6 over the thread state "every unscoped buffer at a valuation, the generator register at some state, nothing
    owed": entered at `Win`, left at `Wout`, for any family of proof data whose member at this pipeline is `dat6` at the
    entry valuation (`hd`), given that the two index tables hold the admissible contents at entry (`htab`), that `Wout`
    has each window's array at what the pipeline leaves there (`hF`) and agrees with `Win` off the arrays (`hrest`), and
    the body obligation (`hb`). -/
def reg6
    (hd : ∀ c, pdats p6 c = dat6 (a p6) (vin6 Win) c)
    (hb : ∀ c, BodyObligation (dat6 (a p6) (vin6 Win) c) (defs₀ (F := F)) Variants.none () Set.univ)
    (htab : ∀ c (k : Fin pre6.K), Win c (pre6.ref k) = (a p6 : (pcfg6 (F := F)).Adm).1 k)
    (hF : ∀ c w, (pdats p6 c).arrAt w (Pipeline.pin (pcfgs (F := F)) a p6).N = Wout c (Pipeline.arrRef spec6 w))
    (hrest : ∀ c (b : Ref sig .tc), b ∉ Finset.univ.image (Pipeline.arrRef spec6) → Wout c b = Win c b) :
    Pipeline.RegionSeg (pcfgs (F := F)) a pdats () defs₀ Variants.none (fun _ => (∅ : Finset Unit)) (fun _ _ => (0 : ℕ)) p6 where
  win := (launch6 (F := F)).win.to₀
  block_pos := (launch6 (F := F)).block_pos
  stage_whole := (launch6 (F := F)).stage_whole
  K := PEmpty
  osem k := k.elim
  ho := Pipeline.OwnSemFacts.none _
  hbody c := by rw [hd c]; exact (hb c).loose
  hwaits := Pipeline.hwaits_of_owed_zero _ _ _ _ _ _ p6 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre6 c (fun _ => fullShare) (a p6 : (pcfg6 (F := F)).Adm).1)
  Z c := Pipeline.unscopedRestP (Ix := Unit) (Name := ℕ) (U := UR sig nD τ) (Lvl := ℕ) pre6 spec6 c (vin6 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p6 c).arrays ((pdats p6 c).arrAt · 0) ∗ Pipeline.prefHeld pre6 c (fun _ => fullShare) (a p6 : (pcfg6 (F := F)).Adm).1
            ∗ Pipeline.unscopedRestP pre6 spec6 c (vin6 Win c)) := by
      have h := Pipeline.arrays_of_unscopedBufs (p := p6) (pcfgs (F := F)) a pdats (launch6 (F := F)).win (launch6 (F := F)).arr_whole c
        (by rw [hd c]; exact (dat6 (a p6) (vin6 Win) c).share_full fun _ => rfl) (vin6 Win c) (by rw [hd c]; exact A_eq6 (a p6) (vin6 Win) c)
      rw [Pipeline.unscopedBufs_held c (Win c), Pipeline.unscopedRest_split (launch6 (F := F)).pre c (vin6 Win c)] at h
      rw [← show (fun k => vin6 Win c (pre6.ref k)) = (a p6 : (pcfg6 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p6 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero6]
    exact .rfl
  hout c := by
    -- the accumulator's points-to at its last value is one of the scoped buffers "at some contents"
    rw [Pipeline.ownSems0_none, hd c,
      show (dat6 (a p6) (vin6 Win) c).Φ (Fin.last (Pipeline.pin (pcfgs (F := F)) a p6).N) = _ from dat_Φ_last6 (a p6) (vin6 Win) c,
      show (Pipeline.scopedRest (Pipeline.pin (pcfgs (F := F)) a p6).spec c : sProp 𝕄) = _ from scopedRest6_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p6 c).arrays ((pdats p6 c).arrAt · (Pipeline.pin (pcfgs (F := F)) a p6).N)
          ∗ Pipeline.prefHeld pre6 c (fun _ => fullShare) (a p6 : (pcfg6 (F := F)).Adm).1 ∗ Pipeline.unscopedRestP pre6 spec6 c (vin6 Win c))
        ⊢ (StableHlo.held (c : Thread nD τ) (Pipeline.ucRefs τ sig) (Wout c) : sProp 𝕄) := by
      have h := Pipeline.unscopedBufs_of_arrays (p := p6) (pcfgs (F := F)) a (Ix := Unit) (Name := ℕ) (U := UR sig nD τ) (Lvl := ℕ)
        (launch6 (F := F)).win (launch6 (F := F)).arr_whole c pdats (by rw [hd c]; exact (dat6 (a p6) (vin6 Win) c).share_full fun _ => rfl)
        (vin6 Win c) (vin6 Wout c) ((pdats p6 c).arrAt · (Pipeline.pin (pcfgs (F := F)) a p6).N) (hF c) (hrest c)
      rw [Pipeline.unscopedBufs_held c (Wout c), Pipeline.unscopedRest_split (launch6 (F := F)).pre c (vin6 Win c)] at h
      rw [← show (fun k => vin6 Win c (pre6.ref k)) = (a p6 : (pcfg6 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p6 c).owed (Fin.last _) = 0 from by rw [hd c]; rfl]
    icases HO with ⟨%W, -, HO⟩; iexists W; iexact HO

end Seg6

end Cert.Kernel.Gen

end
-- ==== Proof.RecK6.lean ====
import proofs.«425429_j48773648614109_2_alg».proof.Proof.SegK6

/-! Region 6's segment record from facts about the two valuations alone.

The region's record (`reg6`) asks, of the valuation at the exit, each window's array at what the pipeline leaves
there. The two input arrays are never written, so they are left as found: that half asks only that the exit
valuation agrees with the entry valuation at them. The output array is left at the contents the write-backs build
(`outArr6`), a function of the entry valuation: that half asks that the exit valuation holds exactly that. -/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec6

/-- What region 6 leaves in its output array, from the admissible tables and the valuation at its entry: the array
    after every point's write-back. -/
def outArr6 (adm : (pcfg6 (F := F)).Adm) (Win : Dev nD → Valuation τ sig (Elt F)) (c : Dev nD) :
    Buf (Elt F) ((c : Thread nD τ).loc (Pipeline.arrRef spec6 (2 : Fin 3))) :=
  (dat6 adm (vin6 Win) c).arrAt (2 : Fin 3) (cfg6 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of6
    (hd : ∀ c, pdats p6 c = dat6 (a p6) (vin6 Win) c)
    (hin : ∀ c (w : Fin 3), w ≠ 2 → Wout c (Pipeline.arrRef spec6 w) = Win c (Pipeline.arrRef spec6 w))
    (hout : ∀ c, Wout c (Pipeline.arrRef spec6 (2 : Fin 3)) = outArr6 (a p6) Win c)
    (c : Dev nD) (w : Fin 3) :
    (pdats p6 c).arrAt w (Pipeline.pin (pcfgs (F := F)) a p6).N = Wout c (Pipeline.arrRef spec6 w) := by
  rw [hd c]
  match w with
  | ⟨0, _⟩ =>
    exact (Dat.arrAt_in (dat6 (a p6) (vin6 Win) c) (0 : Fin 3) rfl _).trans
      ((A_eq6 (a p6) (vin6 Win) c (0 : Fin 3)).trans (hin c (0 : Fin 3) (by decide)).symm)
  | ⟨1, _⟩ =>
    exact (Dat.arrAt_in (dat6 (a p6) (vin6 Win) c) (1 : Fin 3) rfl _).trans
      ((A_eq6 (a p6) (vin6 Win) c (1 : Fin 3)).trans (hin c (1 : Fin 3) (by decide)).symm)
  | ⟨2, _⟩ => exact (hout c).symm

/-- REGION 6's record between two valuations: entered at `Win`, left at `Wout`. -/
def rec6
    (hd : ∀ c, pdats p6 c = dat6 (a p6) (vin6 Win) c)
    (hb : ∀ c, BodyObligation (dat6 (a p6) (vin6 Win) c) (defs₀ (F := F)) Variants.none () Set.univ)
    (htab : ∀ c (k : Fin pre6.K), Win c (pre6.ref k) = (a p6 : (pcfg6 (F := F)).Adm).1 k)
    (hin : ∀ c (w : Fin 3), w ≠ 2 → Wout c (Pipeline.arrRef spec6 w) = Win c (Pipeline.arrRef spec6 w))
    (hout : ∀ c, Wout c (Pipeline.arrRef spec6 (2 : Fin 3)) = outArr6 (a p6) Win c)
    (hrest : ∀ c (b : Ref sig .tc), b ∉ Finset.univ.image (Pipeline.arrRef spec6) → Wout c b = Win c b) :
    Pipeline.RegionSeg (pcfgs (F := F)) a pdats () defs₀ Variants.none (fun _ => (∅ : Finset Unit)) (fun _ _ => (0 : ℕ)) p6 :=
  reg6 a pdats Win Wout hd hb htab (hF_of6 a pdats Win Wout hd hin hout) hrest

end Rec6

end Cert.Kernel.Gen

end
-- ==== Proof.DatK7.lean ====
import proofs.«425429_j48773648614109_2_alg».proof.Proof.LaunchK
import proofs.«425429_j48773648614109_2_alg».proof.Proof.Gen.Kernel.Skeleton
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg7 (F := F)).Adm)
  (V : (c : Dev nD) → (b : Ref sig .tc) → Buf (Elt F) ((c : Thread nD τ).loc b))

/-- The pipeline of @main this module is about. -/
abbrev p7 : Fin 8 := 7

/-! ## The grid's points by number -/

/-- The region's grid has a point. -/
theorem N_pos7 : 0 < (cfg7 a).N := by
  rw [show (cfg7 a).N = grid7.N from rfl, N_7]; exact Nat.succ_pos _

/-- The grid point numbered `n`; a number past the grid wraps around (such a point is never consulted). -/
def pt7 (n : ℕ) : Fin (cfg7 a).N := ⟨n % (cfg7 a).N, Nat.mod_lt _ (N_pos7 a)⟩

/-- A grid point is the point of its own number. -/
theorem pt_val7 (t : Fin (cfg7 a).N) : pt7 a t.val = t := Fin.ext (Nat.mod_eq_of_lt t.isLt)

/-! ## The windows' blocks -/

/-- Window `w`'s block at point `t`, read off its array as the region finds it (`V`). -/
def iblk7 (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-! ## The accumulation -/

/-- What the carried scratch holds AFTER the point numbered `n`: the sum so far. After the first point it is that
    point's term added to the zero the first point stores; after a later point, that point's term added to what
    the point before left. -/
def accAt7 (c : Dev nD) : ℕ → Vec F S1x1 .f32
  | 0 => k7_pay2 (iblk7 a V c (0 : Fin 3) (pt7 a 0)) (iblk7 a V c (1 : Fin 3) (pt7 a 0)) (k7_pay1 (F := F))
  | n + 1 => k7_pay2 (iblk7 a V c (0 : Fin 3) (pt7 a (n + 1))) (iblk7 a V c (1 : Fin 3) (pt7 a (n + 1))) (accAt7 c n)

theorem accAt_zero7 (c : Dev nD) :
    accAt7 a V c 0 = k7_pay2 (iblk7 a V c (0 : Fin 3) (pt7 a 0)) (iblk7 a V c (1 : Fin 3) (pt7 a 0)) (k7_pay1 (F := F)) := rfl

theorem accAt_succ7 (c : Dev nD) (n : ℕ) :
    accAt7 a V c (n + 1) = k7_pay2 (iblk7 a V c (0 : Fin 3) (pt7 a (n + 1))) (iblk7 a V c (1 : Fin 3) (pt7 a (n + 1))) (accAt7 a V c n) := rfl

/-! ## The region invariant -/

/-- The region invariant before the position numbered `n`: the generator register at some state and the prefetched
    tables held whole throughout; before the first point every scoped buffer no window stages at anything; afterwards
    the carried scratch at the sum the point before left (`accAt7`), the other such buffers at anything. -/
def Phi7 (c : Dev nD) : ℕ → sProp 𝕄
  | 0 => iprop((∃ r, prngReg c r) ∗ Pipeline.prefHeld pre7 c (fun _ => fullShare) a.1 ∗ Pipeline.scopedRest spec7 c)
  | n + 1 => iprop((∃ r, prngReg c r) ∗ Pipeline.prefHeld pre7 c (fun _ => fullShare) a.1
      ∗ owns (c : Thread nD τ) (Memref.whole cc7_scratch0) fullShare (accAt7 a V c n)
      ∗ Pipeline.scopedRestBut spec7 c [cc7_scratch0])

theorem Phi_zero7 (c : Dev nD) :
    Phi7 a V c 0 = iprop((∃ r, prngReg c r) ∗ Pipeline.prefHeld pre7 c (fun _ => fullShare) a.1 ∗ Pipeline.scopedRest spec7 c) := rfl

theorem Phi_succ7 (c : Dev nD) (n : ℕ) :
    Phi7 a V c (n + 1) = iprop((∃ r, prngReg c r) ∗ Pipeline.prefHeld pre7 c (fun _ => fullShare) a.1
      ∗ owns (c : Thread nD τ) (Memref.whole cc7_scratch0) fullShare (accAt7 a V c n)
      ∗ Pipeline.scopedRestBut spec7 c [cc7_scratch0]) := rfl

theorem Phi_pos7 (c : Dev nD) (n : ℕ) (hn : n ≠ 0) :
    Phi7 a V c n = iprop((∃ r, prngReg c r) ∗ Pipeline.prefHeld pre7 c (fun _ => fullShare) a.1
      ∗ owns (c : Thread nD τ) (Memref.whole cc7_scratch0) fullShare (accAt7 a V c (n - 1))
      ∗ Pipeline.scopedRestBut spec7 c [cc7_scratch0]) := by
  cases n with
  | zero => exact absurd rfl hn
  | succ n => rfl

/-! ## The pipeline's proof data -/

/-- The proof data of region 7's pipeline on core `c`: the arrays as the region finds them (`V`); after the body at
    point `t` each input's buffer at its block and the output's at the sum so far (the output window is idle at
    every point but the last, where this is the total); the invariant `Phi7`; nothing owed; full shares. -/
def dat7 (c : Dev nD) : Dat τ (Elt F) Unit ℕ (UR sig nD τ) ℕ (cfg7 a) c where
  A w := V c (Pipeline.arrRef spec7 w)
  after w t := match w with
    | ⟨0, _⟩ => iblk7 a V c (0 : Fin 3) t
    | ⟨1, _⟩ => iblk7 a V c (1 : Fin 3) t
    | ⟨2, _⟩ => accAt7 a V c t.val
  Φ t := Phi7 a V c t.val
  q _ := fullShare
  owed _ := 0

theorem A_eq7 (c : Dev nD) (w : Fin (cfg7 a).W) : (dat7 a V c).A w = V c (Pipeline.arrRef spec7 w) := by
  dsimp only [dat7]

theorem afterU7 (c : Dev nD) (t : Fin (cfg7 a).N) : (dat7 a V c).after (0 : Fin 3) t = iblk7 a V c (0 : Fin 3) t := by dsimp only [dat7]
theorem afterV7 (c : Dev nD) (t : Fin (cfg7 a).N) : (dat7 a V c).after (1 : Fin 3) t = iblk7 a V c (1 : Fin 3) t := by dsimp only [dat7]
theorem afterO7 (c : Dev nD) (t : Fin (cfg7 a).N) : (dat7 a V c).after (2 : Fin 3) t = accAt7 a V c t.val := by dsimp only [dat7]

theorem dat_Φ7 (c : Dev nD) (t : Fin ((cfg7 a).N + 1)) : (dat7 a V c).Φ t = Phi7 a V c t.val := by dsimp only [dat7]

theorem dat_Φ_castSucc7 (c : Dev nD) (t : Fin (cfg7 a).N) : (dat7 a V c).Φ t.castSucc = Phi7 a V c t.val := by
  rw [dat_Φ7, Fin.coe_castSucc]

theorem dat_Φ_succ7 (c : Dev nD) (t : Fin (cfg7 a).N) : (dat7 a V c).Φ t.succ = Phi7 a V c (t.val + 1) := by
  rw [dat_Φ7, Fin.val_succ]

theorem dat_Φ_zero7 (c : Dev nD) :
    (dat7 a V c).Φ 0 = iprop((∃ r, prngReg c r) ∗ Pipeline.prefHeld pre7 c (fun _ => fullShare) a.1 ∗ Pipeline.scopedRest spec7 c) := by
  rw [dat_Φ7]; rfl

theorem dat_Φ_last7 (c : Dev nD) :
    (dat7 a V c).Φ (Fin.last (cfg7 a).N) = iprop((∃ r, prngReg c r) ∗ Pipeline.prefHeld pre7 c (fun _ => fullShare) a.1
      ∗ owns (c : Thread nD τ) (Memref.whole cc7_scratch0) fullShare (accAt7 a V c ((cfg7 a).N - 1))
      ∗ Pipeline.scopedRestBut spec7 c [cc7_scratch0]) := by
  rw [dat_Φ7, Fin.val_last]
  exact Phi_pos7 a V c _ (Nat.pos_iff_ne_zero.mp (N_pos7 a))

/-! ## The inputs' staging buffers -/

/-- Input window 0's current staging buffer holds its block at every point, fetched there or not: unfetched, the
    block index has not moved since the point before, and the body leaves the block in place. -/
theorem beforeU7 (c : Dev nD) (t : Fin (cfg7 a).N) (d) : (dat7 a V c).before (0 : Fin 3) t d = iblk7 a V c (0 : Fin 3) t :=
  ((dat7 a V c).before_in_eq_fetched (0 : Fin 3) rfl (fun _ => rfl) (fun _ _ _ => rfl)
    (fun t => by rw [afterU7]; unfold Dat.blockOf iblk7; rw [A_eq7]; try rfl) t d).trans
    (by unfold Dat.fetched Dat.blockOf iblk7; rw [A_eq7]; try rfl)

/-- The same for input window 1. -/
theorem beforeV7 (c : Dev nD) (t : Fin (cfg7 a).N) (d) : (dat7 a V c).before (1 : Fin 3) t d = iblk7 a V c (1 : Fin 3) t :=
  ((dat7 a V c).before_in_eq_fetched (1 : Fin 3) rfl (fun _ => rfl) (fun _ _ _ => rfl)
    (fun t => by rw [afterV7]; unfold Dat.blockOf iblk7; rw [A_eq7]; try rfl) t d).trans
    (by unfold Dat.fetched Dat.blockOf iblk7; rw [A_eq7]; try rfl)

end Cert.Kernel.Gen

end
-- ==== Proof.SegK7.lean ====
import proofs.«425429_j48773648614109_2_alg».proof.Proof.DatK7
import Idealize.ShloMosaic.Lib.Pipeline.Frame
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 7 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v61`) and the rest; the rest splits once more into the two
  prefetched index tables (`main_v58`, `main_v60`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg7

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin7 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 7 over the thread state "every unscoped buffer at a valuation, the generator register at some state, nothing
    owed": entered at `Win`, left at `Wout`, for any family of proof data whose member at this pipeline is `dat7` at the
    entry valuation (`hd`), given that the two index tables hold the admissible contents at entry (`htab`), that `Wout`
    has each window's array at what the pipeline leaves there (`hF`) and agrees with `Win` off the arrays (`hrest`), and
    the body obligation (`hb`). -/
def reg7
    (hd : ∀ c, pdats p7 c = dat7 (a p7) (vin7 Win) c)
    (hb : ∀ c, BodyObligation (dat7 (a p7) (vin7 Win) c) (defs₀ (F := F)) Variants.none () Set.univ)
    (htab : ∀ c (k : Fin pre7.K), Win c (pre7.ref k) = (a p7 : (pcfg7 (F := F)).Adm).1 k)
    (hF : ∀ c w, (pdats p7 c).arrAt w (Pipeline.pin (pcfgs (F := F)) a p7).N = Wout c (Pipeline.arrRef spec7 w))
    (hrest : ∀ c (b : Ref sig .tc), b ∉ Finset.univ.image (Pipeline.arrRef spec7) → Wout c b = Win c b) :
    Pipeline.RegionSeg (pcfgs (F := F)) a pdats () defs₀ Variants.none (fun _ => (∅ : Finset Unit)) (fun _ _ => (0 : ℕ)) p7 where
  win := (launch7 (F := F)).win.to₀
  block_pos := (launch7 (F := F)).block_pos
  stage_whole := (launch7 (F := F)).stage_whole
  K := PEmpty
  osem k := k.elim
  ho := Pipeline.OwnSemFacts.none _
  hbody c := by rw [hd c]; exact (hb c).loose
  hwaits := Pipeline.hwaits_of_owed_zero _ _ _ _ _ _ p7 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre7 c (fun _ => fullShare) (a p7 : (pcfg7 (F := F)).Adm).1)
  Z c := Pipeline.unscopedRestP (Ix := Unit) (Name := ℕ) (U := UR sig nD τ) (Lvl := ℕ) pre7 spec7 c (vin7 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p7 c).arrays ((pdats p7 c).arrAt · 0) ∗ Pipeline.prefHeld pre7 c (fun _ => fullShare) (a p7 : (pcfg7 (F := F)).Adm).1
            ∗ Pipeline.unscopedRestP pre7 spec7 c (vin7 Win c)) := by
      have h := Pipeline.arrays_of_unscopedBufs (p := p7) (pcfgs (F := F)) a pdats (launch7 (F := F)).win (launch7 (F := F)).arr_whole c
        (by rw [hd c]; exact (dat7 (a p7) (vin7 Win) c).share_full fun _ => rfl) (vin7 Win c) (by rw [hd c]; exact A_eq7 (a p7) (vin7 Win) c)
      rw [Pipeline.unscopedBufs_held c (Win c), Pipeline.unscopedRest_split (launch7 (F := F)).pre c (vin7 Win c)] at h
      rw [← show (fun k => vin7 Win c (pre7.ref k)) = (a p7 : (pcfg7 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p7 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero7]
    exact .rfl
  hout c := by
    -- the accumulator's points-to at its last value is one of the scoped buffers "at some contents"
    rw [Pipeline.ownSems0_none, hd c,
      show (dat7 (a p7) (vin7 Win) c).Φ (Fin.last (Pipeline.pin (pcfgs (F := F)) a p7).N) = _ from dat_Φ_last7 (a p7) (vin7 Win) c,
      show (Pipeline.scopedRest (Pipeline.pin (pcfgs (F := F)) a p7).spec c : sProp 𝕄) = _ from scopedRest7_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p7 c).arrays ((pdats p7 c).arrAt · (Pipeline.pin (pcfgs (F := F)) a p7).N)
          ∗ Pipeline.prefHeld pre7 c (fun _ => fullShare) (a p7 : (pcfg7 (F := F)).Adm).1 ∗ Pipeline.unscopedRestP pre7 spec7 c (vin7 Win c))
        ⊢ (StableHlo.held (c : Thread nD τ) (Pipeline.ucRefs τ sig) (Wout c) : sProp 𝕄) := by
      have h := Pipeline.unscopedBufs_of_arrays (p := p7) (pcfgs (F := F)) a (Ix := Unit) (Name := ℕ) (U := UR sig nD τ) (Lvl := ℕ)
        (launch7 (F := F)).win (launch7 (F := F)).arr_whole c pdats (by rw [hd c]; exact (dat7 (a p7) (vin7 Win) c).share_full fun _ => rfl)
        (vin7 Win c) (vin7 Wout c) ((pdats p7 c).arrAt · (Pipeline.pin (pcfgs (F := F)) a p7).N) (hF c) (hrest c)
      rw [Pipeline.unscopedBufs_held c (Wout c), Pipeline.unscopedRest_split (launch7 (F := F)).pre c (vin7 Win c)] at h
      rw [← show (fun k => vin7 Win c (pre7.ref k)) = (a p7 : (pcfg7 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p7 c).owed (Fin.last _) = 0 from by rw [hd c]; rfl]
    icases HO with ⟨%W, -, HO⟩; iexists W; iexact HO

end Seg7

end Cert.Kernel.Gen

end
-- ==== Proof.RecK7.lean ====
import proofs.«425429_j48773648614109_2_alg».proof.Proof.SegK7

/-! Region 7's segment record from facts about the two valuations alone.

The region's record (`reg7`) asks, of the valuation at the exit, each window's array at what the pipeline leaves
there. The two input arrays are never written, so they are left as found: that half asks only that the exit
valuation agrees with the entry valuation at them. The output array is left at the contents the write-backs build
(`outArr7`), a function of the entry valuation: that half asks that the exit valuation holds exactly that. -/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec7

/-- What region 7 leaves in its output array, from the admissible tables and the valuation at its entry: the array
    after every point's write-back. -/
def outArr7 (adm : (pcfg7 (F := F)).Adm) (Win : Dev nD → Valuation τ sig (Elt F)) (c : Dev nD) :
    Buf (Elt F) ((c : Thread nD τ).loc (Pipeline.arrRef spec7 (2 : Fin 3))) :=
  (dat7 adm (vin7 Win) c).arrAt (2 : Fin 3) (cfg7 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of7
    (hd : ∀ c, pdats p7 c = dat7 (a p7) (vin7 Win) c)
    (hin : ∀ c (w : Fin 3), w ≠ 2 → Wout c (Pipeline.arrRef spec7 w) = Win c (Pipeline.arrRef spec7 w))
    (hout : ∀ c, Wout c (Pipeline.arrRef spec7 (2 : Fin 3)) = outArr7 (a p7) Win c)
    (c : Dev nD) (w : Fin 3) :
    (pdats p7 c).arrAt w (Pipeline.pin (pcfgs (F := F)) a p7).N = Wout c (Pipeline.arrRef spec7 w) := by
  rw [hd c]
  match w with
  | ⟨0, _⟩ =>
    exact (Dat.arrAt_in (dat7 (a p7) (vin7 Win) c) (0 : Fin 3) rfl _).trans
      ((A_eq7 (a p7) (vin7 Win) c (0 : Fin 3)).trans (hin c (0 : Fin 3) (by decide)).symm)
  | ⟨1, _⟩ =>
    exact (Dat.arrAt_in (dat7 (a p7) (vin7 Win) c) (1 : Fin 3) rfl _).trans
      ((A_eq7 (a p7) (vin7 Win) c (1 : Fin 3)).trans (hin c (1 : Fin 3) (by decide)).symm)
  | ⟨2, _⟩ => exact (hout c).symm

/-- REGION 7's record between two valuations: entered at `Win`, left at `Wout`. -/
def rec7
    (hd : ∀ c, pdats p7 c = dat7 (a p7) (vin7 Win) c)
    (hb : ∀ c, BodyObligation (dat7 (a p7) (vin7 Win) c) (defs₀ (F := F)) Variants.none () Set.univ)
    (htab : ∀ c (k : Fin pre7.K), Win c (pre7.ref k) = (a p7 : (pcfg7 (F := F)).Adm).1 k)
    (hin : ∀ c (w : Fin 3), w ≠ 2 → Wout c (Pipeline.arrRef spec7 w) = Win c (Pipeline.arrRef spec7 w))
    (hout : ∀ c, Wout c (Pipeline.arrRef spec7 (2 : Fin 3)) = outArr7 (a p7) Win c)
    (hrest : ∀ c (b : Ref sig .tc), b ∉ Finset.univ.image (Pipeline.arrRef spec7) → Wout c b = Win c b) :
    Pipeline.RegionSeg (pcfgs (F := F)) a pdats () defs₀ Variants.none (fun _ => (∅ : Finset Unit)) (fun _ _ => (0 : ℕ)) p7 :=
  reg7 a pdats Win Wout hd hb htab (hF_of7 a pdats Win Wout hd hin hout) hrest

end Rec7

end Cert.Kernel.Gen

end
-- ==== Proof.LibWhole.lean ====
import Idealize.ShloMosaic.Lib.WholeRead
import Idealize.ShloMosaic.Lib.Writes
import Idealize.ShloMosaic.PureOps

/-! Facts every region's body proof shares: loads and stores through a whole buffer, and the scalar chain of a
    `pl.when` on the grid coordinate. Nothing here mentions a region. -/

namespace Cert.WholeBuf

open Idealize.ShloMosaic

section Whole

variable {sg : RefSig} {Vl : EltTy → Type} {kd : Kind} {spc : Space} {S : Shape} {el : EltTy}

/-- A load through the whole-shape rectangle at zero offsets, of a whole memref held at the raw contents of `X`,
    reads `X`. -/
theorem readAt_unread_unit_zero {m : Memref sg kd spc S el} (h : m.IsWhole) (X : S.Idx → Vl el)
    {off : Fin S.rank → ℕ} (ho : off = fun _ => 0) (inb : ∀ a, off a + S.size a ≤ S.size a) :
    View.readAt Vl m.view (Rect.unit (s := S) off S.size inb).toLoadRect (h.unread X) = X := by
  subst ho; funext x
  rw [Memref.IsWhole.readAt_unread h X]
  show X ((Rect.whole S).emb x) = X x
  rw [Rect.emb_whole_apply]

/-- One store through that rectangle, LAST, leaves its payload, whatever was stored before. -/
theorem read_writes_cons_unit_zero (v : View sg kd spc S el) (f : v.ty.Contents Vl)
    {off : Fin S.rank → ℕ} (ho : off = fun _ => 0) (inb : ∀ a, off a + S.size a ≤ S.size a) (w : S.Idx → Vl el)
    (L : List (View.Piece Vl S el)) :
    v.read Vl (v.writes Vl f ((⟨Rect.unit (s := S) off S.size inb, w⟩ : View.Piece Vl S el) :: L)) = w := by
  subst ho; funext y
  have e := View.read_writes_cons_emb v f (Rect.whole S) w L y
  rwa [Rect.emb_whole_apply] at e

end Whole

theorem zeros2 : (![0, 0] : Fin 2 → ℕ) = fun _ => 0 := by funext a; fin_cases a <;> rfl
theorem zeros3 : (![0, 0, 0] : Fin 3 → ℕ) = fun _ => 0 := by funext a; fin_cases a <;> rfl

/-! ## `pl.when(i == k)` as the kernel computes it -/

/-- The scalar chain of `pl.when(x == y)`: compare, widen, compare with zero. It holds exactly when `x = y`. -/
theorem when_eq_iff (x y : BitVec 32) :
    Scalar.cmpi .ne (Scalar.extui (Scalar.cmpi .eq x y)) 0#32 = 1#1 ↔ x = y := by
  unfold Scalar.cmpi IntOp.cmpi Scalar.extui
  by_cases h : x = y
  · subst h; simp
  · simp [h]
    rw [beq_eq_false_iff_ne.mpr h]; decide

/-- Two numbers below 2³² are the same 32-bit word only if equal. -/
theorem ofNat32_inj {n m : ℕ} (hn : n < 4294967296) (hm : m < 4294967296) :
    BitVec.ofNat 32 n = BitVec.ofNat 32 m ↔ n = m := by
  constructor
  · intro h
    have h' := congrArg BitVec.toNat h
    simp only [BitVec.toNat_ofNat] at h'
    omega
  · rintro rfl; rfl

/-- `pl.when(i == k)` on a grid coordinate `n` and a literal `k`, both below 2³². -/
theorem when_coord_iff {n k : ℕ} (hn : n < 4294967296) (hk : k < 4294967296) :
    Scalar.cmpi .ne (Scalar.extui (Scalar.cmpi .eq (BitVec.ofNat 32 n) (BitVec.ofNat 32 k))) 0#32 = 1#1 ↔ n = k :=
  (when_eq_iff _ _).trans (ofNat32_inj hn hk)

end Cert.WholeBuf
-- ==== Proof.BodyK0.lean ====
import proofs.«425429_j48773648614109_2_alg».proof.Proof.DatK0
import proofs.«425429_j48773648614109_2_alg».proof.Proof.LibWhole
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg0 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset0 (i : grid0.Coords) : Prop :=
  Scalar.cmpi .ne (Scalar.extui (Scalar.cmpi .eq (BitVec.ofNat 32 (i 0).val) 0#32)) 0#32 = 1#1

/-- The grid's one coordinate is below its bound. -/
theorem coord_lt0 (i : grid0.Coords) : (i 0).val < 43008 := (i 0).isLt

/-- The reset is taken exactly at coordinate 0. -/
theorem condReset_iff0 (i : grid0.Coords) : condReset0 i ↔ (i 0).val = 0 :=
  when_coord_iff (lt_trans (coord_lt0 i) (by decide)) (by decide)

/-- The output is stored exactly at the last coordinate. -/
theorem condLast_iff0 (i : grid0.Coords) : k0_cond2 i = 1#1 ↔ (i 0).val = 43007 := by
  unfold k0_cond2
  exact when_coord_iff (lt_trans (coord_lt0 i) (by decide)) (by decide)

/-- The one coordinate of the point numbered `t` is `t`. -/
theorem coords_val0 (t : Fin (cfg0 a).N) : ((grid0.coords t) 0).val = t.val := by
  have hN : t.val < 43008 := lt_of_lt_of_eq t.isLt (show (cfg0 a).N = 43008 from N_0)
  show t.val / grid0.stride 0 % grid0.bound 0 = t.val
  rw [show grid0.stride 0 = 1 from by decide, show grid0.bound 0 = 43008 from rfl, Nat.div_one]
  exact Nat.mod_eq_of_lt hN

/-! ## Where the output window is idle, and where it is written back -/

/-- The output window is idle wherever the output store is not taken, -/
theorem idle_out0 (t : Fin (cfg0 a).N) (h : ¬ k0_cond2 (grid0.coords t) = 1#1) :
    (cfg0 a).idle (2 : Fin 3) ((cfg0 a).grid.coords t) = true := by
  show (!(k0_cond2 (grid0.coords t) == 1#1)) = true
  rw [beq_eq_false_iff_ne.mpr h]; rfl

/-- live where it is, -/
theorem live_out0 (t : Fin (cfg0 a).N) (h : k0_cond2 (grid0.coords t) = 1#1) :
    (cfg0 a).idle (2 : Fin 3) ((cfg0 a).grid.coords t) = false := by
  show (!(k0_cond2 (grid0.coords t) == 1#1)) = false
  rw [h]; rfl

/-- and, its block index never moving, written back at the last point only. -/
theorem flush_out0 (t : Fin (cfg0 a).N) (h : t.val + 1 ≠ (cfg0 a).N) : ((cfg0 a).win (2 : Fin 3)).flush t = false := by
  unfold Pipeline.Window.flush
  have hix : ∀ u u' : Fin (cfg0 a).N, ((cfg0 a).win (2 : Fin 3)).index u = ((cfg0 a).win (2 : Fin 3)).index u' := fun _ _ => rfl
  have hne : decide (t.val + 1 = grid0.N) = false := decide_eq_false h
  have hix2 : decide (∃ h' : t.val + 1 < grid0.N, ((cfg0 a).win (2 : Fin 3)).index ⟨t.val + 1, h'⟩ ≠ ((cfg0 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid0 (i : grid0.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset0 i) (hcl : ¬ k0_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k0_pay2 xu xv acc)) -∗ K ⟨⟩))
    ⊢ wp frame (wpE (defs₀ (F := F)) Variants.none c none) E (cc0__edge_chunk_kernel i arg1 harg1 arg2 harg2 arg3 harg3 arg4 harg4 arg5 harg5 arg6 harg6) K := by
  simp only [cc0__edge_chunk_kernel_eq_skeleton]; unfold cc0__edge_chunk_kernel_skel
  simp only [k0_part1_eq_skeleton]; unfold k0_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first0 (i : grid0.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset0 i) (hcl : ¬ k0_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k0_pay2 xu xv (k0_pay1 (F := F)))) -∗ K ⟨⟩))
    ⊢ wp frame (wpE (defs₀ (F := F)) Variants.none c none) E (cc0__edge_chunk_kernel i arg1 harg1 arg2 harg2 arg3 harg3 arg4 harg4 arg5 harg5 arg6 harg6) K := by
  simp only [cc0__edge_chunk_kernel_eq_skeleton]; unfold cc0__edge_chunk_kernel_skel
  simp only [k0_part1_eq_skeleton]; unfold k0_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k0_pay2 xu xv) (View.readCov_unit_zero (Val := Elt F) arg6.view zeros2 _ (k0_pay1 (F := F)))

set_option maxHeartbeats 1000000 in
/-- The LAST point (no reset, output store taken): as a middle point, and the output's buffer, whatever it held, is
    left at the new sum. -/
theorem run_last0 (i : grid0.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset0 i) (hcl : k0_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k0_pay2 xu xv acc) ∗ owns (c : Thread nD τ) arg6 fullShare (k0_pay2 xu xv acc)) -∗ K ⟨⟩))
    ⊢ wp frame (wpE (defs₀ (F := F)) Variants.none c none) E (cc0__edge_chunk_kernel i arg1 harg1 arg2 harg2 arg3 harg3 arg4 harg4 arg5 harg5 arg6 harg6) K := by
  simp only [cc0__edge_chunk_kernel_eq_skeleton]; unfold cc0__edge_chunk_kernel_skel
  simp only [k0_part1_eq_skeleton]; unfold k0_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at0 (t : Fin (cfg0 a).N) :
    accAt0 a V c t.val = k0_pay2 (iblk0 a V c (0 : Fin 3) t) (iblk0 a V c (1 : Fin 3) t)
      (if t.val = 0 then k0_pay1 (F := F) else accAt0 a V c (t.val - 1)) := by
  obtain ⟨n, hn⟩ := t
  cases n with
  | zero =>
    rw [if_pos rfl]
    show accAt0 a V c 0 = _
    rw [accAt_zero0, show pt0 a 0 = ⟨0, hn⟩ from Fin.ext (Nat.mod_eq_of_lt hn)]
  | succ n =>
    rw [if_neg (Nat.succ_ne_zero n)]
    show accAt0 a V c (n + 1) = _
    rw [accAt_succ0, show pt0 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq0 :
    Phi0 a V c 0 = iprop((∃ r, prngReg c r) ∗ Pipeline.prefHeld pre0 c (fun _ => fullShare) a.1
      ∗ (∃ d, owns (c : Thread nD τ) (Memref.whole cc0_scratch0) fullShare d)
      ∗ Pipeline.scopedRestBut spec0 c [cc0_scratch0]) := by
  rw [Phi_zero0, scopedRest0_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body0 (t : Fin (cfg0 a).N) :
    iprop((dat0 a V c).Φ t.castSucc ∗ (dat0 a V c).owesAt () t.castSucc
      ∗ (∃ d, owns (c : Thread nD τ) (((cfg0 a).win (0 : Fin 3)).stage ((cfg0 a).slots t (0 : Fin 3))) fullShare ((dat0 a V c).before (0 : Fin 3) t d))
      ∗ (∃ d, owns (c : Thread nD τ) (((cfg0 a).win (1 : Fin 3)).stage ((cfg0 a).slots t (1 : Fin 3))) fullShare ((dat0 a V c).before (1 : Fin 3) t d))
      ∗ (∃ d, owns (c : Thread nD τ) (((cfg0 a).win (2 : Fin 3)).stage ((cfg0 a).slots t (2 : Fin 3))) fullShare ((dat0 a V c).before (2 : Fin 3) t d)))
    ⊢ wp frame (wpE (defs₀ (F := F)) Variants.none c none) Set.univ
        (defs₀ (F := F) .tc (cfg0 a).body ((cfg0 a).bodyArgs t ((cfg0 a).slots t)))
        (fun _ => iprop((dat0 a V c).Φ t.succ ∗ (dat0 a V c).owesAt () t.succ
          ∗ (dat0 a V c).leavesExact (0 : Fin 3) t ∗ (dat0 a V c).leavesExact (1 : Fin 3) t ∗ (dat0 a V c).leavesExact (2 : Fin 3) t)) := by
  simp only [beforeU0, beforeV0]
  rw [show (dat0 a V c).owesAt () t.succ = (dat0 a V c).owesAt () t.castSucc from rfl]
  rw [dat_Φ_castSucc0, dat_Φ_succ0, Phi_succ0, accAt_at0 a V c t]
  rw [show (dat0 a V c).leavesExact (0 : Fin 3) t
      = owns (c : Thread nD τ) (((cfg0 a).win (0 : Fin 3)).stage ((cfg0 a).slots t (0 : Fin 3))) fullShare ((dat0 a V c).after (0 : Fin 3) t) from rfl, afterU0]
  rw [show (dat0 a V c).leavesExact (1 : Fin 3) t
      = owns (c : Thread nD τ) (((cfg0 a).win (1 : Fin 3)).stage ((cfg0 a).slots t (1 : Fin 3))) fullShare ((dat0 a V c).after (1 : Fin 3) t) from rfl, afterV0]
  have hN : t.val < 43008 := lt_of_lt_of_eq t.isLt (show (cfg0 a).N = 43008 from N_0)
  have hNN : (cfg0 a).N = 43008 := N_0
  have hcv := coords_val0 a t
  by_cases hz : t.val = 0
  · -- the first point
    have hcr : condReset0 (grid0.coords t) := (condReset_iff0 _).mpr (hcv.trans hz)
    have hcl : ¬ k0_cond2 (grid0.coords t) = 1#1 := fun h => by have := (condLast_iff0 _).mp h; omega
    rw [Dat.leavesExact_idle (dat0 a V c) (2 : Fin 3) t (idle_out0 a t hcl) (flush_out0 a t (by omega))]
    rw [if_pos hz, show Phi0 a V c t.val = Phi0 a V c 0 from by rw [hz], Phi_zero_eq0]
    iintro ⟨⟨Hg, Hpf, HS, Hr⟩, Ho, ⟨%du, HU⟩, ⟨%dv, HV⟩, HO⟩
    iapply (run_first0 c _ _ _ _ _ _ _ _ _ _ _ _ _ hcr hcl (iblk0 a V c (0 : Fin 3) t) (iblk0 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset0 (grid0.coords t) := fun h => hz (hcv.symm.trans ((condReset_iff0 _).mp h))
    rw [if_neg hz, Phi_pos0 a V c t.val hz]
    by_cases hl : t.val = 43007
    · -- the last point
      have hcl : k0_cond2 (grid0.coords t) = 1#1 := (condLast_iff0 _).mpr (hcv.trans hl)
      rw [show (dat0 a V c).leavesExact (2 : Fin 3) t
          = owns (c : Thread nD τ) (((cfg0 a).win (2 : Fin 3)).stage ((cfg0 a).slots t (2 : Fin 3))) fullShare ((dat0 a V c).after (2 : Fin 3) t) from by
        unfold Dat.leavesExact; rw [live_out0 a t hcl], afterO0, accAt_at0 a V c t, if_neg hz]
      iintro ⟨⟨Hg, Hpf, HS, Hr⟩, Ho, ⟨%du, HU⟩, ⟨%dv, HV⟩, ⟨%dO, HO⟩⟩
      iapply (run_last0 c _ _ _ _ _ _ _ _ _ _ _ _ _ hcr hcl (iblk0 a V c (0 : Fin 3) t) (iblk0 a V c (1 : Fin 3) t) (accAt0 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k0_cond2 (grid0.coords t) = 1#1 := fun h => hl (hcv.symm.trans ((condLast_iff0 _).mp h))
      rw [Dat.leavesExact_idle (dat0 a V c) (2 : Fin 3) t (idle_out0 a t hcl) (flush_out0 a t (by omega))]
      iintro ⟨⟨Hg, Hpf, HS, Hr⟩, Ho, ⟨%du, HU⟩, ⟨%dv, HV⟩, HO⟩
      iapply (run_mid0 c _ _ _ _ _ _ _ _ _ _ _ _ _ hcr hcl (iblk0 a V c (0 : Fin 3) t) (iblk0 a V c (1 : Fin 3) t) (accAt0 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation0 : BodyObligation (dat0 a V c) (defs₀ (F := F)) Variants.none () Set.univ := fun t => by
  rw [bigSep_W0, bigSep_W0]
  exact sound_body0 a V c t

end Cert.Kernel.Gen

end
-- ==== Proof.BodyK1.lean ====
import proofs.«425429_j48773648614109_2_alg».proof.Proof.DatK1
import proofs.«425429_j48773648614109_2_alg».proof.Proof.LibWhole
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg1 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset1 (i : grid1.Coords) : Prop :=
  Scalar.cmpi .ne (Scalar.extui (Scalar.cmpi .eq (BitVec.ofNat 32 (i 0).val) 0#32)) 0#32 = 1#1

/-- The grid's one coordinate is below its bound. -/
theorem coord_lt1 (i : grid1.Coords) : (i 0).val < 43008 := (i 0).isLt

/-- The reset is taken exactly at coordinate 0. -/
theorem condReset_iff1 (i : grid1.Coords) : condReset1 i ↔ (i 0).val = 0 :=
  when_coord_iff (lt_trans (coord_lt1 i) (by decide)) (by decide)

/-- The output is stored exactly at the last coordinate. -/
theorem condLast_iff1 (i : grid1.Coords) : k1_cond2 i = 1#1 ↔ (i 0).val = 43007 := by
  unfold k1_cond2
  exact when_coord_iff (lt_trans (coord_lt1 i) (by decide)) (by decide)

/-- The one coordinate of the point numbered `t` is `t`. -/
theorem coords_val1 (t : Fin (cfg1 a).N) : ((grid1.coords t) 0).val = t.val := by
  have hN : t.val < 43008 := lt_of_lt_of_eq t.isLt (show (cfg1 a).N = 43008 from N_1)
  show t.val / grid1.stride 0 % grid1.bound 0 = t.val
  rw [show grid1.stride 0 = 1 from by decide, show grid1.bound 0 = 43008 from rfl, Nat.div_one]
  exact Nat.mod_eq_of_lt hN

/-! ## Where the output window is idle, and where it is written back -/

/-- The output window is idle wherever the output store is not taken, -/
theorem idle_out1 (t : Fin (cfg1 a).N) (h : ¬ k1_cond2 (grid1.coords t) = 1#1) :
    (cfg1 a).idle (2 : Fin 3) ((cfg1 a).grid.coords t) = true := by
  show (!(k1_cond2 (grid1.coords t) == 1#1)) = true
  rw [beq_eq_false_iff_ne.mpr h]; rfl

/-- live where it is, -/
theorem live_out1 (t : Fin (cfg1 a).N) (h : k1_cond2 (grid1.coords t) = 1#1) :
    (cfg1 a).idle (2 : Fin 3) ((cfg1 a).grid.coords t) = false := by
  show (!(k1_cond2 (grid1.coords t) == 1#1)) = false
  rw [h]; rfl

/-- and, its block index never moving, written back at the last point only. -/
theorem flush_out1 (t : Fin (cfg1 a).N) (h : t.val + 1 ≠ (cfg1 a).N) : ((cfg1 a).win (2 : Fin 3)).flush t = false := by
  unfold Pipeline.Window.flush
  have hix : ∀ u u' : Fin (cfg1 a).N, ((cfg1 a).win (2 : Fin 3)).index u = ((cfg1 a).win (2 : Fin 3)).index u' := fun _ _ => rfl
  have hne : decide (t.val + 1 = grid1.N) = false := decide_eq_false h
  have hix2 : decide (∃ h' : t.val + 1 < grid1.N, ((cfg1 a).win (2 : Fin 3)).index ⟨t.val + 1, h'⟩ ≠ ((cfg1 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid1 (i : grid1.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset1 i) (hcl : ¬ k1_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k1_pay2 xu xv acc)) -∗ K ⟨⟩))
    ⊢ wp frame (wpE (defs₀ (F := F)) Variants.none c none) E (cc1__edge_chunk_kernel i arg1 harg1 arg2 harg2 arg3 harg3 arg4 harg4 arg5 harg5 arg6 harg6) K := by
  simp only [cc1__edge_chunk_kernel_eq_skeleton]; unfold cc1__edge_chunk_kernel_skel
  simp only [k1_part1_eq_skeleton]; unfold k1_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first1 (i : grid1.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset1 i) (hcl : ¬ k1_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k1_pay2 xu xv (k1_pay1 (F := F)))) -∗ K ⟨⟩))
    ⊢ wp frame (wpE (defs₀ (F := F)) Variants.none c none) E (cc1__edge_chunk_kernel i arg1 harg1 arg2 harg2 arg3 harg3 arg4 harg4 arg5 harg5 arg6 harg6) K := by
  simp only [cc1__edge_chunk_kernel_eq_skeleton]; unfold cc1__edge_chunk_kernel_skel
  simp only [k1_part1_eq_skeleton]; unfold k1_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k1_pay2 xu xv) (View.readCov_unit_zero (Val := Elt F) arg6.view zeros2 _ (k1_pay1 (F := F)))

set_option maxHeartbeats 1000000 in
/-- The LAST point (no reset, output store taken): as a middle point, and the output's buffer, whatever it held, is
    left at the new sum. -/
theorem run_last1 (i : grid1.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset1 i) (hcl : k1_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k1_pay2 xu xv acc) ∗ owns (c : Thread nD τ) arg6 fullShare (k1_pay2 xu xv acc)) -∗ K ⟨⟩))
    ⊢ wp frame (wpE (defs₀ (F := F)) Variants.none c none) E (cc1__edge_chunk_kernel i arg1 harg1 arg2 harg2 arg3 harg3 arg4 harg4 arg5 harg5 arg6 harg6) K := by
  simp only [cc1__edge_chunk_kernel_eq_skeleton]; unfold cc1__edge_chunk_kernel_skel
  simp only [k1_part1_eq_skeleton]; unfold k1_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at1 (t : Fin (cfg1 a).N) :
    accAt1 a V c t.val = k1_pay2 (iblk1 a V c (0 : Fin 3) t) (iblk1 a V c (1 : Fin 3) t)
      (if t.val = 0 then k1_pay1 (F := F) else accAt1 a V c (t.val - 1)) := by
  obtain ⟨n, hn⟩ := t
  cases n with
  | zero =>
    rw [if_pos rfl]
    show accAt1 a V c 0 = _
    rw [accAt_zero1, show pt1 a 0 = ⟨0, hn⟩ from Fin.ext (Nat.mod_eq_of_lt hn)]
  | succ n =>
    rw [if_neg (Nat.succ_ne_zero n)]
    show accAt1 a V c (n + 1) = _
    rw [accAt_succ1, show pt1 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq1 :
    Phi1 a V c 0 = iprop((∃ r, prngReg c r) ∗ Pipeline.prefHeld pre1 c (fun _ => fullShare) a.1
      ∗ (∃ d, owns (c : Thread nD τ) (Memref.whole cc1_scratch0) fullShare d)
      ∗ Pipeline.scopedRestBut spec1 c [cc1_scratch0]) := by
  rw [Phi_zero1, scopedRest1_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body1 (t : Fin (cfg1 a).N) :
    iprop((dat1 a V c).Φ t.castSucc ∗ (dat1 a V c).owesAt () t.castSucc
      ∗ (∃ d, owns (c : Thread nD τ) (((cfg1 a).win (0 : Fin 3)).stage ((cfg1 a).slots t (0 : Fin 3))) fullShare ((dat1 a V c).before (0 : Fin 3) t d))
      ∗ (∃ d, owns (c : Thread nD τ) (((cfg1 a).win (1 : Fin 3)).stage ((cfg1 a).slots t (1 : Fin 3))) fullShare ((dat1 a V c).before (1 : Fin 3) t d))
      ∗ (∃ d, owns (c : Thread nD τ) (((cfg1 a).win (2 : Fin 3)).stage ((cfg1 a).slots t (2 : Fin 3))) fullShare ((dat1 a V c).before (2 : Fin 3) t d)))
    ⊢ wp frame (wpE (defs₀ (F := F)) Variants.none c none) Set.univ
        (defs₀ (F := F) .tc (cfg1 a).body ((cfg1 a).bodyArgs t ((cfg1 a).slots t)))
        (fun _ => iprop((dat1 a V c).Φ t.succ ∗ (dat1 a V c).owesAt () t.succ
          ∗ (dat1 a V c).leavesExact (0 : Fin 3) t ∗ (dat1 a V c).leavesExact (1 : Fin 3) t ∗ (dat1 a V c).leavesExact (2 : Fin 3) t)) := by
  simp only [beforeU1, beforeV1]
  rw [show (dat1 a V c).owesAt () t.succ = (dat1 a V c).owesAt () t.castSucc from rfl]
  rw [dat_Φ_castSucc1, dat_Φ_succ1, Phi_succ1, accAt_at1 a V c t]
  rw [show (dat1 a V c).leavesExact (0 : Fin 3) t
      = owns (c : Thread nD τ) (((cfg1 a).win (0 : Fin 3)).stage ((cfg1 a).slots t (0 : Fin 3))) fullShare ((dat1 a V c).after (0 : Fin 3) t) from rfl, afterU1]
  rw [show (dat1 a V c).leavesExact (1 : Fin 3) t
      = owns (c : Thread nD τ) (((cfg1 a).win (1 : Fin 3)).stage ((cfg1 a).slots t (1 : Fin 3))) fullShare ((dat1 a V c).after (1 : Fin 3) t) from rfl, afterV1]
  have hN : t.val < 43008 := lt_of_lt_of_eq t.isLt (show (cfg1 a).N = 43008 from N_1)
  have hNN : (cfg1 a).N = 43008 := N_1
  have hcv := coords_val1 a t
  by_cases hz : t.val = 0
  · -- the first point
    have hcr : condReset1 (grid1.coords t) := (condReset_iff1 _).mpr (hcv.trans hz)
    have hcl : ¬ k1_cond2 (grid1.coords t) = 1#1 := fun h => by have := (condLast_iff1 _).mp h; omega
    rw [Dat.leavesExact_idle (dat1 a V c) (2 : Fin 3) t (idle_out1 a t hcl) (flush_out1 a t (by omega))]
    rw [if_pos hz, show Phi1 a V c t.val = Phi1 a V c 0 from by rw [hz], Phi_zero_eq1]
    iintro ⟨⟨Hg, Hpf, HS, Hr⟩, Ho, ⟨%du, HU⟩, ⟨%dv, HV⟩, HO⟩
    iapply (run_first1 c _ _ _ _ _ _ _ _ _ _ _ _ _ hcr hcl (iblk1 a V c (0 : Fin 3) t) (iblk1 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset1 (grid1.coords t) := fun h => hz (hcv.symm.trans ((condReset_iff1 _).mp h))
    rw [if_neg hz, Phi_pos1 a V c t.val hz]
    by_cases hl : t.val = 43007
    · -- the last point
      have hcl : k1_cond2 (grid1.coords t) = 1#1 := (condLast_iff1 _).mpr (hcv.trans hl)
      rw [show (dat1 a V c).leavesExact (2 : Fin 3) t
          = owns (c : Thread nD τ) (((cfg1 a).win (2 : Fin 3)).stage ((cfg1 a).slots t (2 : Fin 3))) fullShare ((dat1 a V c).after (2 : Fin 3) t) from by
        unfold Dat.leavesExact; rw [live_out1 a t hcl], afterO1, accAt_at1 a V c t, if_neg hz]
      iintro ⟨⟨Hg, Hpf, HS, Hr⟩, Ho, ⟨%du, HU⟩, ⟨%dv, HV⟩, ⟨%dO, HO⟩⟩
      iapply (run_last1 c _ _ _ _ _ _ _ _ _ _ _ _ _ hcr hcl (iblk1 a V c (0 : Fin 3) t) (iblk1 a V c (1 : Fin 3) t) (accAt1 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k1_cond2 (grid1.coords t) = 1#1 := fun h => hl (hcv.symm.trans ((condLast_iff1 _).mp h))
      rw [Dat.leavesExact_idle (dat1 a V c) (2 : Fin 3) t (idle_out1 a t hcl) (flush_out1 a t (by omega))]
      iintro ⟨⟨Hg, Hpf, HS, Hr⟩, Ho, ⟨%du, HU⟩, ⟨%dv, HV⟩, HO⟩
      iapply (run_mid1 c _ _ _ _ _ _ _ _ _ _ _ _ _ hcr hcl (iblk1 a V c (0 : Fin 3) t) (iblk1 a V c (1 : Fin 3) t) (accAt1 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation1 : BodyObligation (dat1 a V c) (defs₀ (F := F)) Variants.none () Set.univ := fun t => by
  rw [bigSep_W1, bigSep_W1]
  exact sound_body1 a V c t

end Cert.Kernel.Gen

end
-- ==== Proof.BodyK2.lean ====
import proofs.«425429_j48773648614109_2_alg».proof.Proof.DatK2
import proofs.«425429_j48773648614109_2_alg».proof.Proof.LibWhole
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg2 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset2 (i : grid2.Coords) : Prop :=
  Scalar.cmpi .ne (Scalar.extui (Scalar.cmpi .eq (BitVec.ofNat 32 (i 0).val) 0#32)) 0#32 = 1#1

/-- The grid's one coordinate is below its bound. -/
theorem coord_lt2 (i : grid2.Coords) : (i 0).val < 43008 := (i 0).isLt

/-- The reset is taken exactly at coordinate 0. -/
theorem condReset_iff2 (i : grid2.Coords) : condReset2 i ↔ (i 0).val = 0 :=
  when_coord_iff (lt_trans (coord_lt2 i) (by decide)) (by decide)

/-- The output is stored exactly at the last coordinate. -/
theorem condLast_iff2 (i : grid2.Coords) : k2_cond2 i = 1#1 ↔ (i 0).val = 43007 := by
  unfold k2_cond2
  exact when_coord_iff (lt_trans (coord_lt2 i) (by decide)) (by decide)

/-- The one coordinate of the point numbered `t` is `t`. -/
theorem coords_val2 (t : Fin (cfg2 a).N) : ((grid2.coords t) 0).val = t.val := by
  have hN : t.val < 43008 := lt_of_lt_of_eq t.isLt (show (cfg2 a).N = 43008 from N_2)
  show t.val / grid2.stride 0 % grid2.bound 0 = t.val
  rw [show grid2.stride 0 = 1 from by decide, show grid2.bound 0 = 43008 from rfl, Nat.div_one]
  exact Nat.mod_eq_of_lt hN

/-! ## Where the output window is idle, and where it is written back -/

/-- The output window is idle wherever the output store is not taken, -/
theorem idle_out2 (t : Fin (cfg2 a).N) (h : ¬ k2_cond2 (grid2.coords t) = 1#1) :
    (cfg2 a).idle (2 : Fin 3) ((cfg2 a).grid.coords t) = true := by
  show (!(k2_cond2 (grid2.coords t) == 1#1)) = true
  rw [beq_eq_false_iff_ne.mpr h]; rfl

/-- live where it is, -/
theorem live_out2 (t : Fin (cfg2 a).N) (h : k2_cond2 (grid2.coords t) = 1#1) :
    (cfg2 a).idle (2 : Fin 3) ((cfg2 a).grid.coords t) = false := by
  show (!(k2_cond2 (grid2.coords t) == 1#1)) = false
  rw [h]; rfl

/-- and, its block index never moving, written back at the last point only. -/
theorem flush_out2 (t : Fin (cfg2 a).N) (h : t.val + 1 ≠ (cfg2 a).N) : ((cfg2 a).win (2 : Fin 3)).flush t = false := by
  unfold Pipeline.Window.flush
  have hix : ∀ u u' : Fin (cfg2 a).N, ((cfg2 a).win (2 : Fin 3)).index u = ((cfg2 a).win (2 : Fin 3)).index u' := fun _ _ => rfl
  have hne : decide (t.val + 1 = grid2.N) = false := decide_eq_false h
  have hix2 : decide (∃ h' : t.val + 1 < grid2.N, ((cfg2 a).win (2 : Fin 3)).index ⟨t.val + 1, h'⟩ ≠ ((cfg2 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid2 (i : grid2.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset2 i) (hcl : ¬ k2_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k2_pay2 xu xv acc)) -∗ K ⟨⟩))
    ⊢ wp frame (wpE (defs₀ (F := F)) Variants.none c none) E (cc2__edge_chunk_kernel i arg1 harg1 arg2 harg2 arg3 harg3 arg4 harg4 arg5 harg5 arg6 harg6) K := by
  simp only [cc2__edge_chunk_kernel_eq_skeleton]; unfold cc2__edge_chunk_kernel_skel
  simp only [k2_part1_eq_skeleton]; unfold k2_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first2 (i : grid2.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset2 i) (hcl : ¬ k2_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k2_pay2 xu xv (k2_pay1 (F := F)))) -∗ K ⟨⟩))
    ⊢ wp frame (wpE (defs₀ (F := F)) Variants.none c none) E (cc2__edge_chunk_kernel i arg1 harg1 arg2 harg2 arg3 harg3 arg4 harg4 arg5 harg5 arg6 harg6) K := by
  simp only [cc2__edge_chunk_kernel_eq_skeleton]; unfold cc2__edge_chunk_kernel_skel
  simp only [k2_part1_eq_skeleton]; unfold k2_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k2_pay2 xu xv) (View.readCov_unit_zero (Val := Elt F) arg6.view zeros2 _ (k2_pay1 (F := F)))

set_option maxHeartbeats 1000000 in
/-- The LAST point (no reset, output store taken): as a middle point, and the output's buffer, whatever it held, is
    left at the new sum. -/
theorem run_last2 (i : grid2.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset2 i) (hcl : k2_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k2_pay2 xu xv acc) ∗ owns (c : Thread nD τ) arg6 fullShare (k2_pay2 xu xv acc)) -∗ K ⟨⟩))
    ⊢ wp frame (wpE (defs₀ (F := F)) Variants.none c none) E (cc2__edge_chunk_kernel i arg1 harg1 arg2 harg2 arg3 harg3 arg4 harg4 arg5 harg5 arg6 harg6) K := by
  simp only [cc2__edge_chunk_kernel_eq_skeleton]; unfold cc2__edge_chunk_kernel_skel
  simp only [k2_part1_eq_skeleton]; unfold k2_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at2 (t : Fin (cfg2 a).N) :
    accAt2 a V c t.val = k2_pay2 (iblk2 a V c (0 : Fin 3) t) (iblk2 a V c (1 : Fin 3) t)
      (if t.val = 0 then k2_pay1 (F := F) else accAt2 a V c (t.val - 1)) := by
  obtain ⟨n, hn⟩ := t
  cases n with
  | zero =>
    rw [if_pos rfl]
    show accAt2 a V c 0 = _
    rw [accAt_zero2, show pt2 a 0 = ⟨0, hn⟩ from Fin.ext (Nat.mod_eq_of_lt hn)]
  | succ n =>
    rw [if_neg (Nat.succ_ne_zero n)]
    show accAt2 a V c (n + 1) = _
    rw [accAt_succ2, show pt2 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq2 :
    Phi2 a V c 0 = iprop((∃ r, prngReg c r) ∗ Pipeline.prefHeld pre2 c (fun _ => fullShare) a.1
      ∗ (∃ d, owns (c : Thread nD τ) (Memref.whole cc2_scratch0) fullShare d)
      ∗ Pipeline.scopedRestBut spec2 c [cc2_scratch0]) := by
  rw [Phi_zero2, scopedRest2_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body2 (t : Fin (cfg2 a).N) :
    iprop((dat2 a V c).Φ t.castSucc ∗ (dat2 a V c).owesAt () t.castSucc
      ∗ (∃ d, owns (c : Thread nD τ) (((cfg2 a).win (0 : Fin 3)).stage ((cfg2 a).slots t (0 : Fin 3))) fullShare ((dat2 a V c).before (0 : Fin 3) t d))
      ∗ (∃ d, owns (c : Thread nD τ) (((cfg2 a).win (1 : Fin 3)).stage ((cfg2 a).slots t (1 : Fin 3))) fullShare ((dat2 a V c).before (1 : Fin 3) t d))
      ∗ (∃ d, owns (c : Thread nD τ) (((cfg2 a).win (2 : Fin 3)).stage ((cfg2 a).slots t (2 : Fin 3))) fullShare ((dat2 a V c).before (2 : Fin 3) t d)))
    ⊢ wp frame (wpE (defs₀ (F := F)) Variants.none c none) Set.univ
        (defs₀ (F := F) .tc (cfg2 a).body ((cfg2 a).bodyArgs t ((cfg2 a).slots t)))
        (fun _ => iprop((dat2 a V c).Φ t.succ ∗ (dat2 a V c).owesAt () t.succ
          ∗ (dat2 a V c).leavesExact (0 : Fin 3) t ∗ (dat2 a V c).leavesExact (1 : Fin 3) t ∗ (dat2 a V c).leavesExact (2 : Fin 3) t)) := by
  simp only [beforeU2, beforeV2]
  rw [show (dat2 a V c).owesAt () t.succ = (dat2 a V c).owesAt () t.castSucc from rfl]
  rw [dat_Φ_castSucc2, dat_Φ_succ2, Phi_succ2, accAt_at2 a V c t]
  rw [show (dat2 a V c).leavesExact (0 : Fin 3) t
      = owns (c : Thread nD τ) (((cfg2 a).win (0 : Fin 3)).stage ((cfg2 a).slots t (0 : Fin 3))) fullShare ((dat2 a V c).after (0 : Fin 3) t) from rfl, afterU2]
  rw [show (dat2 a V c).leavesExact (1 : Fin 3) t
      = owns (c : Thread nD τ) (((cfg2 a).win (1 : Fin 3)).stage ((cfg2 a).slots t (1 : Fin 3))) fullShare ((dat2 a V c).after (1 : Fin 3) t) from rfl, afterV2]
  have hN : t.val < 43008 := lt_of_lt_of_eq t.isLt (show (cfg2 a).N = 43008 from N_2)
  have hNN : (cfg2 a).N = 43008 := N_2
  have hcv := coords_val2 a t
  by_cases hz : t.val = 0
  · -- the first point
    have hcr : condReset2 (grid2.coords t) := (condReset_iff2 _).mpr (hcv.trans hz)
    have hcl : ¬ k2_cond2 (grid2.coords t) = 1#1 := fun h => by have := (condLast_iff2 _).mp h; omega
    rw [Dat.leavesExact_idle (dat2 a V c) (2 : Fin 3) t (idle_out2 a t hcl) (flush_out2 a t (by omega))]
    rw [if_pos hz, show Phi2 a V c t.val = Phi2 a V c 0 from by rw [hz], Phi_zero_eq2]
    iintro ⟨⟨Hg, Hpf, HS, Hr⟩, Ho, ⟨%du, HU⟩, ⟨%dv, HV⟩, HO⟩
    iapply (run_first2 c _ _ _ _ _ _ _ _ _ _ _ _ _ hcr hcl (iblk2 a V c (0 : Fin 3) t) (iblk2 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset2 (grid2.coords t) := fun h => hz (hcv.symm.trans ((condReset_iff2 _).mp h))
    rw [if_neg hz, Phi_pos2 a V c t.val hz]
    by_cases hl : t.val = 43007
    · -- the last point
      have hcl : k2_cond2 (grid2.coords t) = 1#1 := (condLast_iff2 _).mpr (hcv.trans hl)
      rw [show (dat2 a V c).leavesExact (2 : Fin 3) t
          = owns (c : Thread nD τ) (((cfg2 a).win (2 : Fin 3)).stage ((cfg2 a).slots t (2 : Fin 3))) fullShare ((dat2 a V c).after (2 : Fin 3) t) from by
        unfold Dat.leavesExact; rw [live_out2 a t hcl], afterO2, accAt_at2 a V c t, if_neg hz]
      iintro ⟨⟨Hg, Hpf, HS, Hr⟩, Ho, ⟨%du, HU⟩, ⟨%dv, HV⟩, ⟨%dO, HO⟩⟩
      iapply (run_last2 c _ _ _ _ _ _ _ _ _ _ _ _ _ hcr hcl (iblk2 a V c (0 : Fin 3) t) (iblk2 a V c (1 : Fin 3) t) (accAt2 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k2_cond2 (grid2.coords t) = 1#1 := fun h => hl (hcv.symm.trans ((condLast_iff2 _).mp h))
      rw [Dat.leavesExact_idle (dat2 a V c) (2 : Fin 3) t (idle_out2 a t hcl) (flush_out2 a t (by omega))]
      iintro ⟨⟨Hg, Hpf, HS, Hr⟩, Ho, ⟨%du, HU⟩, ⟨%dv, HV⟩, HO⟩
      iapply (run_mid2 c _ _ _ _ _ _ _ _ _ _ _ _ _ hcr hcl (iblk2 a V c (0 : Fin 3) t) (iblk2 a V c (1 : Fin 3) t) (accAt2 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation2 : BodyObligation (dat2 a V c) (defs₀ (F := F)) Variants.none () Set.univ := fun t => by
  rw [bigSep_W2, bigSep_W2]
  exact sound_body2 a V c t

end Cert.Kernel.Gen

end
-- ==== Proof.BodyK3.lean ====
import proofs.«425429_j48773648614109_2_alg».proof.Proof.DatK3
import proofs.«425429_j48773648614109_2_alg».proof.Proof.LibWhole
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg3 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset3 (i : grid3.Coords) : Prop :=
  Scalar.cmpi .ne (Scalar.extui (Scalar.cmpi .eq (BitVec.ofNat 32 (i 0).val) 0#32)) 0#32 = 1#1

/-- The grid's one coordinate is below its bound. -/
theorem coord_lt3 (i : grid3.Coords) : (i 0).val < 43008 := (i 0).isLt

/-- The reset is taken exactly at coordinate 0. -/
theorem condReset_iff3 (i : grid3.Coords) : condReset3 i ↔ (i 0).val = 0 :=
  when_coord_iff (lt_trans (coord_lt3 i) (by decide)) (by decide)

/-- The output is stored exactly at the last coordinate. -/
theorem condLast_iff3 (i : grid3.Coords) : k3_cond2 i = 1#1 ↔ (i 0).val = 43007 := by
  unfold k3_cond2
  exact when_coord_iff (lt_trans (coord_lt3 i) (by decide)) (by decide)

/-- The one coordinate of the point numbered `t` is `t`. -/
theorem coords_val3 (t : Fin (cfg3 a).N) : ((grid3.coords t) 0).val = t.val := by
  have hN : t.val < 43008 := lt_of_lt_of_eq t.isLt (show (cfg3 a).N = 43008 from N_3)
  show t.val / grid3.stride 0 % grid3.bound 0 = t.val
  rw [show grid3.stride 0 = 1 from by decide, show grid3.bound 0 = 43008 from rfl, Nat.div_one]
  exact Nat.mod_eq_of_lt hN

/-! ## Where the output window is idle, and where it is written back -/

/-- The output window is idle wherever the output store is not taken, -/
theorem idle_out3 (t : Fin (cfg3 a).N) (h : ¬ k3_cond2 (grid3.coords t) = 1#1) :
    (cfg3 a).idle (2 : Fin 3) ((cfg3 a).grid.coords t) = true := by
  show (!(k3_cond2 (grid3.coords t) == 1#1)) = true
  rw [beq_eq_false_iff_ne.mpr h]; rfl

/-- live where it is, -/
theorem live_out3 (t : Fin (cfg3 a).N) (h : k3_cond2 (grid3.coords t) = 1#1) :
    (cfg3 a).idle (2 : Fin 3) ((cfg3 a).grid.coords t) = false := by
  show (!(k3_cond2 (grid3.coords t) == 1#1)) = false
  rw [h]; rfl

/-- and, its block index never moving, written back at the last point only. -/
theorem flush_out3 (t : Fin (cfg3 a).N) (h : t.val + 1 ≠ (cfg3 a).N) : ((cfg3 a).win (2 : Fin 3)).flush t = false := by
  unfold Pipeline.Window.flush
  have hix : ∀ u u' : Fin (cfg3 a).N, ((cfg3 a).win (2 : Fin 3)).index u = ((cfg3 a).win (2 : Fin 3)).index u' := fun _ _ => rfl
  have hne : decide (t.val + 1 = grid3.N) = false := decide_eq_false h
  have hix2 : decide (∃ h' : t.val + 1 < grid3.N, ((cfg3 a).win (2 : Fin 3)).index ⟨t.val + 1, h'⟩ ≠ ((cfg3 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid3 (i : grid3.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset3 i) (hcl : ¬ k3_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k3_pay2 xu xv acc)) -∗ K ⟨⟩))
    ⊢ wp frame (wpE (defs₀ (F := F)) Variants.none c none) E (cc3__edge_chunk_kernel i arg1 harg1 arg2 harg2 arg3 harg3 arg4 harg4 arg5 harg5 arg6 harg6) K := by
  simp only [cc3__edge_chunk_kernel_eq_skeleton]; unfold cc3__edge_chunk_kernel_skel
  simp only [k3_part1_eq_skeleton]; unfold k3_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first3 (i : grid3.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset3 i) (hcl : ¬ k3_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k3_pay2 xu xv (k3_pay1 (F := F)))) -∗ K ⟨⟩))
    ⊢ wp frame (wpE (defs₀ (F := F)) Variants.none c none) E (cc3__edge_chunk_kernel i arg1 harg1 arg2 harg2 arg3 harg3 arg4 harg4 arg5 harg5 arg6 harg6) K := by
  simp only [cc3__edge_chunk_kernel_eq_skeleton]; unfold cc3__edge_chunk_kernel_skel
  simp only [k3_part1_eq_skeleton]; unfold k3_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k3_pay2 xu xv) (View.readCov_unit_zero (Val := Elt F) arg6.view zeros2 _ (k3_pay1 (F := F)))

set_option maxHeartbeats 1000000 in
/-- The LAST point (no reset, output store taken): as a middle point, and the output's buffer, whatever it held, is
    left at the new sum. -/
theorem run_last3 (i : grid3.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset3 i) (hcl : k3_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k3_pay2 xu xv acc) ∗ owns (c : Thread nD τ) arg6 fullShare (k3_pay2 xu xv acc)) -∗ K ⟨⟩))
    ⊢ wp frame (wpE (defs₀ (F := F)) Variants.none c none) E (cc3__edge_chunk_kernel i arg1 harg1 arg2 harg2 arg3 harg3 arg4 harg4 arg5 harg5 arg6 harg6) K := by
  simp only [cc3__edge_chunk_kernel_eq_skeleton]; unfold cc3__edge_chunk_kernel_skel
  simp only [k3_part1_eq_skeleton]; unfold k3_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at3 (t : Fin (cfg3 a).N) :
    accAt3 a V c t.val = k3_pay2 (iblk3 a V c (0 : Fin 3) t) (iblk3 a V c (1 : Fin 3) t)
      (if t.val = 0 then k3_pay1 (F := F) else accAt3 a V c (t.val - 1)) := by
  obtain ⟨n, hn⟩ := t
  cases n with
  | zero =>
    rw [if_pos rfl]
    show accAt3 a V c 0 = _
    rw [accAt_zero3, show pt3 a 0 = ⟨0, hn⟩ from Fin.ext (Nat.mod_eq_of_lt hn)]
  | succ n =>
    rw [if_neg (Nat.succ_ne_zero n)]
    show accAt3 a V c (n + 1) = _
    rw [accAt_succ3, show pt3 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq3 :
    Phi3 a V c 0 = iprop((∃ r, prngReg c r) ∗ Pipeline.prefHeld pre3 c (fun _ => fullShare) a.1
      ∗ (∃ d, owns (c : Thread nD τ) (Memref.whole cc3_scratch0) fullShare d)
      ∗ Pipeline.scopedRestBut spec3 c [cc3_scratch0]) := by
  rw [Phi_zero3, scopedRest3_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body3 (t : Fin (cfg3 a).N) :
    iprop((dat3 a V c).Φ t.castSucc ∗ (dat3 a V c).owesAt () t.castSucc
      ∗ (∃ d, owns (c : Thread nD τ) (((cfg3 a).win (0 : Fin 3)).stage ((cfg3 a).slots t (0 : Fin 3))) fullShare ((dat3 a V c).before (0 : Fin 3) t d))
      ∗ (∃ d, owns (c : Thread nD τ) (((cfg3 a).win (1 : Fin 3)).stage ((cfg3 a).slots t (1 : Fin 3))) fullShare ((dat3 a V c).before (1 : Fin 3) t d))
      ∗ (∃ d, owns (c : Thread nD τ) (((cfg3 a).win (2 : Fin 3)).stage ((cfg3 a).slots t (2 : Fin 3))) fullShare ((dat3 a V c).before (2 : Fin 3) t d)))
    ⊢ wp frame (wpE (defs₀ (F := F)) Variants.none c none) Set.univ
        (defs₀ (F := F) .tc (cfg3 a).body ((cfg3 a).bodyArgs t ((cfg3 a).slots t)))
        (fun _ => iprop((dat3 a V c).Φ t.succ ∗ (dat3 a V c).owesAt () t.succ
          ∗ (dat3 a V c).leavesExact (0 : Fin 3) t ∗ (dat3 a V c).leavesExact (1 : Fin 3) t ∗ (dat3 a V c).leavesExact (2 : Fin 3) t)) := by
  simp only [beforeU3, beforeV3]
  rw [show (dat3 a V c).owesAt () t.succ = (dat3 a V c).owesAt () t.castSucc from rfl]
  rw [dat_Φ_castSucc3, dat_Φ_succ3, Phi_succ3, accAt_at3 a V c t]
  rw [show (dat3 a V c).leavesExact (0 : Fin 3) t
      = owns (c : Thread nD τ) (((cfg3 a).win (0 : Fin 3)).stage ((cfg3 a).slots t (0 : Fin 3))) fullShare ((dat3 a V c).after (0 : Fin 3) t) from rfl, afterU3]
  rw [show (dat3 a V c).leavesExact (1 : Fin 3) t
      = owns (c : Thread nD τ) (((cfg3 a).win (1 : Fin 3)).stage ((cfg3 a).slots t (1 : Fin 3))) fullShare ((dat3 a V c).after (1 : Fin 3) t) from rfl, afterV3]
  have hN : t.val < 43008 := lt_of_lt_of_eq t.isLt (show (cfg3 a).N = 43008 from N_3)
  have hNN : (cfg3 a).N = 43008 := N_3
  have hcv := coords_val3 a t
  by_cases hz : t.val = 0
  · -- the first point
    have hcr : condReset3 (grid3.coords t) := (condReset_iff3 _).mpr (hcv.trans hz)
    have hcl : ¬ k3_cond2 (grid3.coords t) = 1#1 := fun h => by have := (condLast_iff3 _).mp h; omega
    rw [Dat.leavesExact_idle (dat3 a V c) (2 : Fin 3) t (idle_out3 a t hcl) (flush_out3 a t (by omega))]
    rw [if_pos hz, show Phi3 a V c t.val = Phi3 a V c 0 from by rw [hz], Phi_zero_eq3]
    iintro ⟨⟨Hg, Hpf, HS, Hr⟩, Ho, ⟨%du, HU⟩, ⟨%dv, HV⟩, HO⟩
    iapply (run_first3 c _ _ _ _ _ _ _ _ _ _ _ _ _ hcr hcl (iblk3 a V c (0 : Fin 3) t) (iblk3 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset3 (grid3.coords t) := fun h => hz (hcv.symm.trans ((condReset_iff3 _).mp h))
    rw [if_neg hz, Phi_pos3 a V c t.val hz]
    by_cases hl : t.val = 43007
    · -- the last point
      have hcl : k3_cond2 (grid3.coords t) = 1#1 := (condLast_iff3 _).mpr (hcv.trans hl)
      rw [show (dat3 a V c).leavesExact (2 : Fin 3) t
          = owns (c : Thread nD τ) (((cfg3 a).win (2 : Fin 3)).stage ((cfg3 a).slots t (2 : Fin 3))) fullShare ((dat3 a V c).after (2 : Fin 3) t) from by
        unfold Dat.leavesExact; rw [live_out3 a t hcl], afterO3, accAt_at3 a V c t, if_neg hz]
      iintro ⟨⟨Hg, Hpf, HS, Hr⟩, Ho, ⟨%du, HU⟩, ⟨%dv, HV⟩, ⟨%dO, HO⟩⟩
      iapply (run_last3 c _ _ _ _ _ _ _ _ _ _ _ _ _ hcr hcl (iblk3 a V c (0 : Fin 3) t) (iblk3 a V c (1 : Fin 3) t) (accAt3 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k3_cond2 (grid3.coords t) = 1#1 := fun h => hl (hcv.symm.trans ((condLast_iff3 _).mp h))
      rw [Dat.leavesExact_idle (dat3 a V c) (2 : Fin 3) t (idle_out3 a t hcl) (flush_out3 a t (by omega))]
      iintro ⟨⟨Hg, Hpf, HS, Hr⟩, Ho, ⟨%du, HU⟩, ⟨%dv, HV⟩, HO⟩
      iapply (run_mid3 c _ _ _ _ _ _ _ _ _ _ _ _ _ hcr hcl (iblk3 a V c (0 : Fin 3) t) (iblk3 a V c (1 : Fin 3) t) (accAt3 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation3 : BodyObligation (dat3 a V c) (defs₀ (F := F)) Variants.none () Set.univ := fun t => by
  rw [bigSep_W3, bigSep_W3]
  exact sound_body3 a V c t

end Cert.Kernel.Gen

end
-- ==== Proof.BodyK4.lean ====
import proofs.«425429_j48773648614109_2_alg».proof.Proof.DatK4
import proofs.«425429_j48773648614109_2_alg».proof.Proof.LibWhole
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg4 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset4 (i : grid4.Coords) : Prop :=
  Scalar.cmpi .ne (Scalar.extui (Scalar.cmpi .eq (BitVec.ofNat 32 (i 0).val) 0#32)) 0#32 = 1#1

/-- The grid's one coordinate is below its bound. -/
theorem coord_lt4 (i : grid4.Coords) : (i 0).val < 43008 := (i 0).isLt

/-- The reset is taken exactly at coordinate 0. -/
theorem condReset_iff4 (i : grid4.Coords) : condReset4 i ↔ (i 0).val = 0 :=
  when_coord_iff (lt_trans (coord_lt4 i) (by decide)) (by decide)

/-- The output is stored exactly at the last coordinate. -/
theorem condLast_iff4 (i : grid4.Coords) : k4_cond2 i = 1#1 ↔ (i 0).val = 43007 := by
  unfold k4_cond2
  exact when_coord_iff (lt_trans (coord_lt4 i) (by decide)) (by decide)

/-- The one coordinate of the point numbered `t` is `t`. -/
theorem coords_val4 (t : Fin (cfg4 a).N) : ((grid4.coords t) 0).val = t.val := by
  have hN : t.val < 43008 := lt_of_lt_of_eq t.isLt (show (cfg4 a).N = 43008 from N_4)
  show t.val / grid4.stride 0 % grid4.bound 0 = t.val
  rw [show grid4.stride 0 = 1 from by decide, show grid4.bound 0 = 43008 from rfl, Nat.div_one]
  exact Nat.mod_eq_of_lt hN

/-! ## Where the output window is idle, and where it is written back -/

/-- The output window is idle wherever the output store is not taken, -/
theorem idle_out4 (t : Fin (cfg4 a).N) (h : ¬ k4_cond2 (grid4.coords t) = 1#1) :
    (cfg4 a).idle (2 : Fin 3) ((cfg4 a).grid.coords t) = true := by
  show (!(k4_cond2 (grid4.coords t) == 1#1)) = true
  rw [beq_eq_false_iff_ne.mpr h]; rfl

/-- live where it is, -/
theorem live_out4 (t : Fin (cfg4 a).N) (h : k4_cond2 (grid4.coords t) = 1#1) :
    (cfg4 a).idle (2 : Fin 3) ((cfg4 a).grid.coords t) = false := by
  show (!(k4_cond2 (grid4.coords t) == 1#1)) = false
  rw [h]; rfl

/-- and, its block index never moving, written back at the last point only. -/
theorem flush_out4 (t : Fin (cfg4 a).N) (h : t.val + 1 ≠ (cfg4 a).N) : ((cfg4 a).win (2 : Fin 3)).flush t = false := by
  unfold Pipeline.Window.flush
  have hix : ∀ u u' : Fin (cfg4 a).N, ((cfg4 a).win (2 : Fin 3)).index u = ((cfg4 a).win (2 : Fin 3)).index u' := fun _ _ => rfl
  have hne : decide (t.val + 1 = grid4.N) = false := decide_eq_false h
  have hix2 : decide (∃ h' : t.val + 1 < grid4.N, ((cfg4 a).win (2 : Fin 3)).index ⟨t.val + 1, h'⟩ ≠ ((cfg4 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid4 (i : grid4.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset4 i) (hcl : ¬ k4_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k4_pay2 xu xv acc)) -∗ K ⟨⟩))
    ⊢ wp frame (wpE (defs₀ (F := F)) Variants.none c none) E (cc4__edge_chunk_kernel i arg1 harg1 arg2 harg2 arg3 harg3 arg4 harg4 arg5 harg5 arg6 harg6) K := by
  simp only [cc4__edge_chunk_kernel_eq_skeleton]; unfold cc4__edge_chunk_kernel_skel
  simp only [k4_part1_eq_skeleton]; unfold k4_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first4 (i : grid4.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset4 i) (hcl : ¬ k4_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k4_pay2 xu xv (k4_pay1 (F := F)))) -∗ K ⟨⟩))
    ⊢ wp frame (wpE (defs₀ (F := F)) Variants.none c none) E (cc4__edge_chunk_kernel i arg1 harg1 arg2 harg2 arg3 harg3 arg4 harg4 arg5 harg5 arg6 harg6) K := by
  simp only [cc4__edge_chunk_kernel_eq_skeleton]; unfold cc4__edge_chunk_kernel_skel
  simp only [k4_part1_eq_skeleton]; unfold k4_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k4_pay2 xu xv) (View.readCov_unit_zero (Val := Elt F) arg6.view zeros2 _ (k4_pay1 (F := F)))

set_option maxHeartbeats 1000000 in
/-- The LAST point (no reset, output store taken): as a middle point, and the output's buffer, whatever it held, is
    left at the new sum. -/
theorem run_last4 (i : grid4.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset4 i) (hcl : k4_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k4_pay2 xu xv acc) ∗ owns (c : Thread nD τ) arg6 fullShare (k4_pay2 xu xv acc)) -∗ K ⟨⟩))
    ⊢ wp frame (wpE (defs₀ (F := F)) Variants.none c none) E (cc4__edge_chunk_kernel i arg1 harg1 arg2 harg2 arg3 harg3 arg4 harg4 arg5 harg5 arg6 harg6) K := by
  simp only [cc4__edge_chunk_kernel_eq_skeleton]; unfold cc4__edge_chunk_kernel_skel
  simp only [k4_part1_eq_skeleton]; unfold k4_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at4 (t : Fin (cfg4 a).N) :
    accAt4 a V c t.val = k4_pay2 (iblk4 a V c (0 : Fin 3) t) (iblk4 a V c (1 : Fin 3) t)
      (if t.val = 0 then k4_pay1 (F := F) else accAt4 a V c (t.val - 1)) := by
  obtain ⟨n, hn⟩ := t
  cases n with
  | zero =>
    rw [if_pos rfl]
    show accAt4 a V c 0 = _
    rw [accAt_zero4, show pt4 a 0 = ⟨0, hn⟩ from Fin.ext (Nat.mod_eq_of_lt hn)]
  | succ n =>
    rw [if_neg (Nat.succ_ne_zero n)]
    show accAt4 a V c (n + 1) = _
    rw [accAt_succ4, show pt4 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq4 :
    Phi4 a V c 0 = iprop((∃ r, prngReg c r) ∗ Pipeline.prefHeld pre4 c (fun _ => fullShare) a.1
      ∗ (∃ d, owns (c : Thread nD τ) (Memref.whole cc4_scratch0) fullShare d)
      ∗ Pipeline.scopedRestBut spec4 c [cc4_scratch0]) := by
  rw [Phi_zero4, scopedRest4_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body4 (t : Fin (cfg4 a).N) :
    iprop((dat4 a V c).Φ t.castSucc ∗ (dat4 a V c).owesAt () t.castSucc
      ∗ (∃ d, owns (c : Thread nD τ) (((cfg4 a).win (0 : Fin 3)).stage ((cfg4 a).slots t (0 : Fin 3))) fullShare ((dat4 a V c).before (0 : Fin 3) t d))
      ∗ (∃ d, owns (c : Thread nD τ) (((cfg4 a).win (1 : Fin 3)).stage ((cfg4 a).slots t (1 : Fin 3))) fullShare ((dat4 a V c).before (1 : Fin 3) t d))
      ∗ (∃ d, owns (c : Thread nD τ) (((cfg4 a).win (2 : Fin 3)).stage ((cfg4 a).slots t (2 : Fin 3))) fullShare ((dat4 a V c).before (2 : Fin 3) t d)))
    ⊢ wp frame (wpE (defs₀ (F := F)) Variants.none c none) Set.univ
        (defs₀ (F := F) .tc (cfg4 a).body ((cfg4 a).bodyArgs t ((cfg4 a).slots t)))
        (fun _ => iprop((dat4 a V c).Φ t.succ ∗ (dat4 a V c).owesAt () t.succ
          ∗ (dat4 a V c).leavesExact (0 : Fin 3) t ∗ (dat4 a V c).leavesExact (1 : Fin 3) t ∗ (dat4 a V c).leavesExact (2 : Fin 3) t)) := by
  simp only [beforeU4, beforeV4]
  rw [show (dat4 a V c).owesAt () t.succ = (dat4 a V c).owesAt () t.castSucc from rfl]
  rw [dat_Φ_castSucc4, dat_Φ_succ4, Phi_succ4, accAt_at4 a V c t]
  rw [show (dat4 a V c).leavesExact (0 : Fin 3) t
      = owns (c : Thread nD τ) (((cfg4 a).win (0 : Fin 3)).stage ((cfg4 a).slots t (0 : Fin 3))) fullShare ((dat4 a V c).after (0 : Fin 3) t) from rfl, afterU4]
  rw [show (dat4 a V c).leavesExact (1 : Fin 3) t
      = owns (c : Thread nD τ) (((cfg4 a).win (1 : Fin 3)).stage ((cfg4 a).slots t (1 : Fin 3))) fullShare ((dat4 a V c).after (1 : Fin 3) t) from rfl, afterV4]
  have hN : t.val < 43008 := lt_of_lt_of_eq t.isLt (show (cfg4 a).N = 43008 from N_4)
  have hNN : (cfg4 a).N = 43008 := N_4
  have hcv := coords_val4 a t
  by_cases hz : t.val = 0
  · -- the first point
    have hcr : condReset4 (grid4.coords t) := (condReset_iff4 _).mpr (hcv.trans hz)
    have hcl : ¬ k4_cond2 (grid4.coords t) = 1#1 := fun h => by have := (condLast_iff4 _).mp h; omega
    rw [Dat.leavesExact_idle (dat4 a V c) (2 : Fin 3) t (idle_out4 a t hcl) (flush_out4 a t (by omega))]
    rw [if_pos hz, show Phi4 a V c t.val = Phi4 a V c 0 from by rw [hz], Phi_zero_eq4]
    iintro ⟨⟨Hg, Hpf, HS, Hr⟩, Ho, ⟨%du, HU⟩, ⟨%dv, HV⟩, HO⟩
    iapply (run_first4 c _ _ _ _ _ _ _ _ _ _ _ _ _ hcr hcl (iblk4 a V c (0 : Fin 3) t) (iblk4 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset4 (grid4.coords t) := fun h => hz (hcv.symm.trans ((condReset_iff4 _).mp h))
    rw [if_neg hz, Phi_pos4 a V c t.val hz]
    by_cases hl : t.val = 43007
    · -- the last point
      have hcl : k4_cond2 (grid4.coords t) = 1#1 := (condLast_iff4 _).mpr (hcv.trans hl)
      rw [show (dat4 a V c).leavesExact (2 : Fin 3) t
          = owns (c : Thread nD τ) (((cfg4 a).win (2 : Fin 3)).stage ((cfg4 a).slots t (2 : Fin 3))) fullShare ((dat4 a V c).after (2 : Fin 3) t) from by
        unfold Dat.leavesExact; rw [live_out4 a t hcl], afterO4, accAt_at4 a V c t, if_neg hz]
      iintro ⟨⟨Hg, Hpf, HS, Hr⟩, Ho, ⟨%du, HU⟩, ⟨%dv, HV⟩, ⟨%dO, HO⟩⟩
      iapply (run_last4 c _ _ _ _ _ _ _ _ _ _ _ _ _ hcr hcl (iblk4 a V c (0 : Fin 3) t) (iblk4 a V c (1 : Fin 3) t) (accAt4 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k4_cond2 (grid4.coords t) = 1#1 := fun h => hl (hcv.symm.trans ((condLast_iff4 _).mp h))
      rw [Dat.leavesExact_idle (dat4 a V c) (2 : Fin 3) t (idle_out4 a t hcl) (flush_out4 a t (by omega))]
      iintro ⟨⟨Hg, Hpf, HS, Hr⟩, Ho, ⟨%du, HU⟩, ⟨%dv, HV⟩, HO⟩
      iapply (run_mid4 c _ _ _ _ _ _ _ _ _ _ _ _ _ hcr hcl (iblk4 a V c (0 : Fin 3) t) (iblk4 a V c (1 : Fin 3) t) (accAt4 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation4 : BodyObligation (dat4 a V c) (defs₀ (F := F)) Variants.none () Set.univ := fun t => by
  rw [bigSep_W4, bigSep_W4]
  exact sound_body4 a V c t

end Cert.Kernel.Gen

end
-- ==== Proof.BodyK5.lean ====
import proofs.«425429_j48773648614109_2_alg».proof.Proof.DatK5
import proofs.«425429_j48773648614109_2_alg».proof.Proof.LibWhole
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg5 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset5 (i : grid5.Coords) : Prop :=
  Scalar.cmpi .ne (Scalar.extui (Scalar.cmpi .eq (BitVec.ofNat 32 (i 0).val) 0#32)) 0#32 = 1#1

/-- The grid's one coordinate is below its bound. -/
theorem coord_lt5 (i : grid5.Coords) : (i 0).val < 43008 := (i 0).isLt

/-- The reset is taken exactly at coordinate 0. -/
theorem condReset_iff5 (i : grid5.Coords) : condReset5 i ↔ (i 0).val = 0 :=
  when_coord_iff (lt_trans (coord_lt5 i) (by decide)) (by decide)

/-- The output is stored exactly at the last coordinate. -/
theorem condLast_iff5 (i : grid5.Coords) : k5_cond2 i = 1#1 ↔ (i 0).val = 43007 := by
  unfold k5_cond2
  exact when_coord_iff (lt_trans (coord_lt5 i) (by decide)) (by decide)

/-- The one coordinate of the point numbered `t` is `t`. -/
theorem coords_val5 (t : Fin (cfg5 a).N) : ((grid5.coords t) 0).val = t.val := by
  have hN : t.val < 43008 := lt_of_lt_of_eq t.isLt (show (cfg5 a).N = 43008 from N_5)
  show t.val / grid5.stride 0 % grid5.bound 0 = t.val
  rw [show grid5.stride 0 = 1 from by decide, show grid5.bound 0 = 43008 from rfl, Nat.div_one]
  exact Nat.mod_eq_of_lt hN

/-! ## Where the output window is idle, and where it is written back -/

/-- The output window is idle wherever the output store is not taken, -/
theorem idle_out5 (t : Fin (cfg5 a).N) (h : ¬ k5_cond2 (grid5.coords t) = 1#1) :
    (cfg5 a).idle (2 : Fin 3) ((cfg5 a).grid.coords t) = true := by
  show (!(k5_cond2 (grid5.coords t) == 1#1)) = true
  rw [beq_eq_false_iff_ne.mpr h]; rfl

/-- live where it is, -/
theorem live_out5 (t : Fin (cfg5 a).N) (h : k5_cond2 (grid5.coords t) = 1#1) :
    (cfg5 a).idle (2 : Fin 3) ((cfg5 a).grid.coords t) = false := by
  show (!(k5_cond2 (grid5.coords t) == 1#1)) = false
  rw [h]; rfl

/-- and, its block index never moving, written back at the last point only. -/
theorem flush_out5 (t : Fin (cfg5 a).N) (h : t.val + 1 ≠ (cfg5 a).N) : ((cfg5 a).win (2 : Fin 3)).flush t = false := by
  unfold Pipeline.Window.flush
  have hix : ∀ u u' : Fin (cfg5 a).N, ((cfg5 a).win (2 : Fin 3)).index u = ((cfg5 a).win (2 : Fin 3)).index u' := fun _ _ => rfl
  have hne : decide (t.val + 1 = grid5.N) = false := decide_eq_false h
  have hix2 : decide (∃ h' : t.val + 1 < grid5.N, ((cfg5 a).win (2 : Fin 3)).index ⟨t.val + 1, h'⟩ ≠ ((cfg5 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid5 (i : grid5.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset5 i) (hcl : ¬ k5_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k5_pay2 xu xv acc)) -∗ K ⟨⟩))
    ⊢ wp frame (wpE (defs₀ (F := F)) Variants.none c none) E (cc5__edge_chunk_kernel i arg1 harg1 arg2 harg2 arg3 harg3 arg4 harg4 arg5 harg5 arg6 harg6) K := by
  simp only [cc5__edge_chunk_kernel_eq_skeleton]; unfold cc5__edge_chunk_kernel_skel
  simp only [k5_part1_eq_skeleton]; unfold k5_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first5 (i : grid5.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset5 i) (hcl : ¬ k5_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k5_pay2 xu xv (k5_pay1 (F := F)))) -∗ K ⟨⟩))
    ⊢ wp frame (wpE (defs₀ (F := F)) Variants.none c none) E (cc5__edge_chunk_kernel i arg1 harg1 arg2 harg2 arg3 harg3 arg4 harg4 arg5 harg5 arg6 harg6) K := by
  simp only [cc5__edge_chunk_kernel_eq_skeleton]; unfold cc5__edge_chunk_kernel_skel
  simp only [k5_part1_eq_skeleton]; unfold k5_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k5_pay2 xu xv) (View.readCov_unit_zero (Val := Elt F) arg6.view zeros2 _ (k5_pay1 (F := F)))

set_option maxHeartbeats 1000000 in
/-- The LAST point (no reset, output store taken): as a middle point, and the output's buffer, whatever it held, is
    left at the new sum. -/
theorem run_last5 (i : grid5.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset5 i) (hcl : k5_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k5_pay2 xu xv acc) ∗ owns (c : Thread nD τ) arg6 fullShare (k5_pay2 xu xv acc)) -∗ K ⟨⟩))
    ⊢ wp frame (wpE (defs₀ (F := F)) Variants.none c none) E (cc5__edge_chunk_kernel i arg1 harg1 arg2 harg2 arg3 harg3 arg4 harg4 arg5 harg5 arg6 harg6) K := by
  simp only [cc5__edge_chunk_kernel_eq_skeleton]; unfold cc5__edge_chunk_kernel_skel
  simp only [k5_part1_eq_skeleton]; unfold k5_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at5 (t : Fin (cfg5 a).N) :
    accAt5 a V c t.val = k5_pay2 (iblk5 a V c (0 : Fin 3) t) (iblk5 a V c (1 : Fin 3) t)
      (if t.val = 0 then k5_pay1 (F := F) else accAt5 a V c (t.val - 1)) := by
  obtain ⟨n, hn⟩ := t
  cases n with
  | zero =>
    rw [if_pos rfl]
    show accAt5 a V c 0 = _
    rw [accAt_zero5, show pt5 a 0 = ⟨0, hn⟩ from Fin.ext (Nat.mod_eq_of_lt hn)]
  | succ n =>
    rw [if_neg (Nat.succ_ne_zero n)]
    show accAt5 a V c (n + 1) = _
    rw [accAt_succ5, show pt5 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq5 :
    Phi5 a V c 0 = iprop((∃ r, prngReg c r) ∗ Pipeline.prefHeld pre5 c (fun _ => fullShare) a.1
      ∗ (∃ d, owns (c : Thread nD τ) (Memref.whole cc5_scratch0) fullShare d)
      ∗ Pipeline.scopedRestBut spec5 c [cc5_scratch0]) := by
  rw [Phi_zero5, scopedRest5_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body5 (t : Fin (cfg5 a).N) :
    iprop((dat5 a V c).Φ t.castSucc ∗ (dat5 a V c).owesAt () t.castSucc
      ∗ (∃ d, owns (c : Thread nD τ) (((cfg5 a).win (0 : Fin 3)).stage ((cfg5 a).slots t (0 : Fin 3))) fullShare ((dat5 a V c).before (0 : Fin 3) t d))
      ∗ (∃ d, owns (c : Thread nD τ) (((cfg5 a).win (1 : Fin 3)).stage ((cfg5 a).slots t (1 : Fin 3))) fullShare ((dat5 a V c).before (1 : Fin 3) t d))
      ∗ (∃ d, owns (c : Thread nD τ) (((cfg5 a).win (2 : Fin 3)).stage ((cfg5 a).slots t (2 : Fin 3))) fullShare ((dat5 a V c).before (2 : Fin 3) t d)))
    ⊢ wp frame (wpE (defs₀ (F := F)) Variants.none c none) Set.univ
        (defs₀ (F := F) .tc (cfg5 a).body ((cfg5 a).bodyArgs t ((cfg5 a).slots t)))
        (fun _ => iprop((dat5 a V c).Φ t.succ ∗ (dat5 a V c).owesAt () t.succ
          ∗ (dat5 a V c).leavesExact (0 : Fin 3) t ∗ (dat5 a V c).leavesExact (1 : Fin 3) t ∗ (dat5 a V c).leavesExact (2 : Fin 3) t)) := by
  simp only [beforeU5, beforeV5]
  rw [show (dat5 a V c).owesAt () t.succ = (dat5 a V c).owesAt () t.castSucc from rfl]
  rw [dat_Φ_castSucc5, dat_Φ_succ5, Phi_succ5, accAt_at5 a V c t]
  rw [show (dat5 a V c).leavesExact (0 : Fin 3) t
      = owns (c : Thread nD τ) (((cfg5 a).win (0 : Fin 3)).stage ((cfg5 a).slots t (0 : Fin 3))) fullShare ((dat5 a V c).after (0 : Fin 3) t) from rfl, afterU5]
  rw [show (dat5 a V c).leavesExact (1 : Fin 3) t
      = owns (c : Thread nD τ) (((cfg5 a).win (1 : Fin 3)).stage ((cfg5 a).slots t (1 : Fin 3))) fullShare ((dat5 a V c).after (1 : Fin 3) t) from rfl, afterV5]
  have hN : t.val < 43008 := lt_of_lt_of_eq t.isLt (show (cfg5 a).N = 43008 from N_5)
  have hNN : (cfg5 a).N = 43008 := N_5
  have hcv := coords_val5 a t
  by_cases hz : t.val = 0
  · -- the first point
    have hcr : condReset5 (grid5.coords t) := (condReset_iff5 _).mpr (hcv.trans hz)
    have hcl : ¬ k5_cond2 (grid5.coords t) = 1#1 := fun h => by have := (condLast_iff5 _).mp h; omega
    rw [Dat.leavesExact_idle (dat5 a V c) (2 : Fin 3) t (idle_out5 a t hcl) (flush_out5 a t (by omega))]
    rw [if_pos hz, show Phi5 a V c t.val = Phi5 a V c 0 from by rw [hz], Phi_zero_eq5]
    iintro ⟨⟨Hg, Hpf, HS, Hr⟩, Ho, ⟨%du, HU⟩, ⟨%dv, HV⟩, HO⟩
    iapply (run_first5 c _ _ _ _ _ _ _ _ _ _ _ _ _ hcr hcl (iblk5 a V c (0 : Fin 3) t) (iblk5 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset5 (grid5.coords t) := fun h => hz (hcv.symm.trans ((condReset_iff5 _).mp h))
    rw [if_neg hz, Phi_pos5 a V c t.val hz]
    by_cases hl : t.val = 43007
    · -- the last point
      have hcl : k5_cond2 (grid5.coords t) = 1#1 := (condLast_iff5 _).mpr (hcv.trans hl)
      rw [show (dat5 a V c).leavesExact (2 : Fin 3) t
          = owns (c : Thread nD τ) (((cfg5 a).win (2 : Fin 3)).stage ((cfg5 a).slots t (2 : Fin 3))) fullShare ((dat5 a V c).after (2 : Fin 3) t) from by
        unfold Dat.leavesExact; rw [live_out5 a t hcl], afterO5, accAt_at5 a V c t, if_neg hz]
      iintro ⟨⟨Hg, Hpf, HS, Hr⟩, Ho, ⟨%du, HU⟩, ⟨%dv, HV⟩, ⟨%dO, HO⟩⟩
      iapply (run_last5 c _ _ _ _ _ _ _ _ _ _ _ _ _ hcr hcl (iblk5 a V c (0 : Fin 3) t) (iblk5 a V c (1 : Fin 3) t) (accAt5 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k5_cond2 (grid5.coords t) = 1#1 := fun h => hl (hcv.symm.trans ((condLast_iff5 _).mp h))
      rw [Dat.leavesExact_idle (dat5 a V c) (2 : Fin 3) t (idle_out5 a t hcl) (flush_out5 a t (by omega))]
      iintro ⟨⟨Hg, Hpf, HS, Hr⟩, Ho, ⟨%du, HU⟩, ⟨%dv, HV⟩, HO⟩
      iapply (run_mid5 c _ _ _ _ _ _ _ _ _ _ _ _ _ hcr hcl (iblk5 a V c (0 : Fin 3) t) (iblk5 a V c (1 : Fin 3) t) (accAt5 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation5 : BodyObligation (dat5 a V c) (defs₀ (F := F)) Variants.none () Set.univ := fun t => by
  rw [bigSep_W5, bigSep_W5]
  exact sound_body5 a V c t

end Cert.Kernel.Gen

end
-- ==== Proof.BodyK6.lean ====
import proofs.«425429_j48773648614109_2_alg».proof.Proof.DatK6
import proofs.«425429_j48773648614109_2_alg».proof.Proof.LibWhole
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg6 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset6 (i : grid6.Coords) : Prop :=
  Scalar.cmpi .ne (Scalar.extui (Scalar.cmpi .eq (BitVec.ofNat 32 (i 0).val) 0#32)) 0#32 = 1#1

/-- The grid's one coordinate is below its bound. -/
theorem coord_lt6 (i : grid6.Coords) : (i 0).val < 43008 := (i 0).isLt

/-- The reset is taken exactly at coordinate 0. -/
theorem condReset_iff6 (i : grid6.Coords) : condReset6 i ↔ (i 0).val = 0 :=
  when_coord_iff (lt_trans (coord_lt6 i) (by decide)) (by decide)

/-- The output is stored exactly at the last coordinate. -/
theorem condLast_iff6 (i : grid6.Coords) : k6_cond2 i = 1#1 ↔ (i 0).val = 43007 := by
  unfold k6_cond2
  exact when_coord_iff (lt_trans (coord_lt6 i) (by decide)) (by decide)

/-- The one coordinate of the point numbered `t` is `t`. -/
theorem coords_val6 (t : Fin (cfg6 a).N) : ((grid6.coords t) 0).val = t.val := by
  have hN : t.val < 43008 := lt_of_lt_of_eq t.isLt (show (cfg6 a).N = 43008 from N_6)
  show t.val / grid6.stride 0 % grid6.bound 0 = t.val
  rw [show grid6.stride 0 = 1 from by decide, show grid6.bound 0 = 43008 from rfl, Nat.div_one]
  exact Nat.mod_eq_of_lt hN

/-! ## Where the output window is idle, and where it is written back -/

/-- The output window is idle wherever the output store is not taken, -/
theorem idle_out6 (t : Fin (cfg6 a).N) (h : ¬ k6_cond2 (grid6.coords t) = 1#1) :
    (cfg6 a).idle (2 : Fin 3) ((cfg6 a).grid.coords t) = true := by
  show (!(k6_cond2 (grid6.coords t) == 1#1)) = true
  rw [beq_eq_false_iff_ne.mpr h]; rfl

/-- live where it is, -/
theorem live_out6 (t : Fin (cfg6 a).N) (h : k6_cond2 (grid6.coords t) = 1#1) :
    (cfg6 a).idle (2 : Fin 3) ((cfg6 a).grid.coords t) = false := by
  show (!(k6_cond2 (grid6.coords t) == 1#1)) = false
  rw [h]; rfl

/-- and, its block index never moving, written back at the last point only. -/
theorem flush_out6 (t : Fin (cfg6 a).N) (h : t.val + 1 ≠ (cfg6 a).N) : ((cfg6 a).win (2 : Fin 3)).flush t = false := by
  unfold Pipeline.Window.flush
  have hix : ∀ u u' : Fin (cfg6 a).N, ((cfg6 a).win (2 : Fin 3)).index u = ((cfg6 a).win (2 : Fin 3)).index u' := fun _ _ => rfl
  have hne : decide (t.val + 1 = grid6.N) = false := decide_eq_false h
  have hix2 : decide (∃ h' : t.val + 1 < grid6.N, ((cfg6 a).win (2 : Fin 3)).index ⟨t.val + 1, h'⟩ ≠ ((cfg6 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid6 (i : grid6.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset6 i) (hcl : ¬ k6_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k6_pay2 xu xv acc)) -∗ K ⟨⟩))
    ⊢ wp frame (wpE (defs₀ (F := F)) Variants.none c none) E (cc6__edge_chunk_kernel i arg1 harg1 arg2 harg2 arg3 harg3 arg4 harg4 arg5 harg5 arg6 harg6) K := by
  simp only [cc6__edge_chunk_kernel_eq_skeleton]; unfold cc6__edge_chunk_kernel_skel
  simp only [k6_part1_eq_skeleton]; unfold k6_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first6 (i : grid6.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset6 i) (hcl : ¬ k6_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k6_pay2 xu xv (k6_pay1 (F := F)))) -∗ K ⟨⟩))
    ⊢ wp frame (wpE (defs₀ (F := F)) Variants.none c none) E (cc6__edge_chunk_kernel i arg1 harg1 arg2 harg2 arg3 harg3 arg4 harg4 arg5 harg5 arg6 harg6) K := by
  simp only [cc6__edge_chunk_kernel_eq_skeleton]; unfold cc6__edge_chunk_kernel_skel
  simp only [k6_part1_eq_skeleton]; unfold k6_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k6_pay2 xu xv) (View.readCov_unit_zero (Val := Elt F) arg6.view zeros2 _ (k6_pay1 (F := F)))

set_option maxHeartbeats 1000000 in
/-- The LAST point (no reset, output store taken): as a middle point, and the output's buffer, whatever it held, is
    left at the new sum. -/
theorem run_last6 (i : grid6.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset6 i) (hcl : k6_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k6_pay2 xu xv acc) ∗ owns (c : Thread nD τ) arg6 fullShare (k6_pay2 xu xv acc)) -∗ K ⟨⟩))
    ⊢ wp frame (wpE (defs₀ (F := F)) Variants.none c none) E (cc6__edge_chunk_kernel i arg1 harg1 arg2 harg2 arg3 harg3 arg4 harg4 arg5 harg5 arg6 harg6) K := by
  simp only [cc6__edge_chunk_kernel_eq_skeleton]; unfold cc6__edge_chunk_kernel_skel
  simp only [k6_part1_eq_skeleton]; unfold k6_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at6 (t : Fin (cfg6 a).N) :
    accAt6 a V c t.val = k6_pay2 (iblk6 a V c (0 : Fin 3) t) (iblk6 a V c (1 : Fin 3) t)
      (if t.val = 0 then k6_pay1 (F := F) else accAt6 a V c (t.val - 1)) := by
  obtain ⟨n, hn⟩ := t
  cases n with
  | zero =>
    rw [if_pos rfl]
    show accAt6 a V c 0 = _
    rw [accAt_zero6, show pt6 a 0 = ⟨0, hn⟩ from Fin.ext (Nat.mod_eq_of_lt hn)]
  | succ n =>
    rw [if_neg (Nat.succ_ne_zero n)]
    show accAt6 a V c (n + 1) = _
    rw [accAt_succ6, show pt6 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq6 :
    Phi6 a V c 0 = iprop((∃ r, prngReg c r) ∗ Pipeline.prefHeld pre6 c (fun _ => fullShare) a.1
      ∗ (∃ d, owns (c : Thread nD τ) (Memref.whole cc6_scratch0) fullShare d)
      ∗ Pipeline.scopedRestBut spec6 c [cc6_scratch0]) := by
  rw [Phi_zero6, scopedRest6_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body6 (t : Fin (cfg6 a).N) :
    iprop((dat6 a V c).Φ t.castSucc ∗ (dat6 a V c).owesAt () t.castSucc
      ∗ (∃ d, owns (c : Thread nD τ) (((cfg6 a).win (0 : Fin 3)).stage ((cfg6 a).slots t (0 : Fin 3))) fullShare ((dat6 a V c).before (0 : Fin 3) t d))
      ∗ (∃ d, owns (c : Thread nD τ) (((cfg6 a).win (1 : Fin 3)).stage ((cfg6 a).slots t (1 : Fin 3))) fullShare ((dat6 a V c).before (1 : Fin 3) t d))
      ∗ (∃ d, owns (c : Thread nD τ) (((cfg6 a).win (2 : Fin 3)).stage ((cfg6 a).slots t (2 : Fin 3))) fullShare ((dat6 a V c).before (2 : Fin 3) t d)))
    ⊢ wp frame (wpE (defs₀ (F := F)) Variants.none c none) Set.univ
        (defs₀ (F := F) .tc (cfg6 a).body ((cfg6 a).bodyArgs t ((cfg6 a).slots t)))
        (fun _ => iprop((dat6 a V c).Φ t.succ ∗ (dat6 a V c).owesAt () t.succ
          ∗ (dat6 a V c).leavesExact (0 : Fin 3) t ∗ (dat6 a V c).leavesExact (1 : Fin 3) t ∗ (dat6 a V c).leavesExact (2 : Fin 3) t)) := by
  simp only [beforeU6, beforeV6]
  rw [show (dat6 a V c).owesAt () t.succ = (dat6 a V c).owesAt () t.castSucc from rfl]
  rw [dat_Φ_castSucc6, dat_Φ_succ6, Phi_succ6, accAt_at6 a V c t]
  rw [show (dat6 a V c).leavesExact (0 : Fin 3) t
      = owns (c : Thread nD τ) (((cfg6 a).win (0 : Fin 3)).stage ((cfg6 a).slots t (0 : Fin 3))) fullShare ((dat6 a V c).after (0 : Fin 3) t) from rfl, afterU6]
  rw [show (dat6 a V c).leavesExact (1 : Fin 3) t
      = owns (c : Thread nD τ) (((cfg6 a).win (1 : Fin 3)).stage ((cfg6 a).slots t (1 : Fin 3))) fullShare ((dat6 a V c).after (1 : Fin 3) t) from rfl, afterV6]
  have hN : t.val < 43008 := lt_of_lt_of_eq t.isLt (show (cfg6 a).N = 43008 from N_6)
  have hNN : (cfg6 a).N = 43008 := N_6
  have hcv := coords_val6 a t
  by_cases hz : t.val = 0
  · -- the first point
    have hcr : condReset6 (grid6.coords t) := (condReset_iff6 _).mpr (hcv.trans hz)
    have hcl : ¬ k6_cond2 (grid6.coords t) = 1#1 := fun h => by have := (condLast_iff6 _).mp h; omega
    rw [Dat.leavesExact_idle (dat6 a V c) (2 : Fin 3) t (idle_out6 a t hcl) (flush_out6 a t (by omega))]
    rw [if_pos hz, show Phi6 a V c t.val = Phi6 a V c 0 from by rw [hz], Phi_zero_eq6]
    iintro ⟨⟨Hg, Hpf, HS, Hr⟩, Ho, ⟨%du, HU⟩, ⟨%dv, HV⟩, HO⟩
    iapply (run_first6 c _ _ _ _ _ _ _ _ _ _ _ _ _ hcr hcl (iblk6 a V c (0 : Fin 3) t) (iblk6 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset6 (grid6.coords t) := fun h => hz (hcv.symm.trans ((condReset_iff6 _).mp h))
    rw [if_neg hz, Phi_pos6 a V c t.val hz]
    by_cases hl : t.val = 43007
    · -- the last point
      have hcl : k6_cond2 (grid6.coords t) = 1#1 := (condLast_iff6 _).mpr (hcv.trans hl)
      rw [show (dat6 a V c).leavesExact (2 : Fin 3) t
          = owns (c : Thread nD τ) (((cfg6 a).win (2 : Fin 3)).stage ((cfg6 a).slots t (2 : Fin 3))) fullShare ((dat6 a V c).after (2 : Fin 3) t) from by
        unfold Dat.leavesExact; rw [live_out6 a t hcl], afterO6, accAt_at6 a V c t, if_neg hz]
      iintro ⟨⟨Hg, Hpf, HS, Hr⟩, Ho, ⟨%du, HU⟩, ⟨%dv, HV⟩, ⟨%dO, HO⟩⟩
      iapply (run_last6 c _ _ _ _ _ _ _ _ _ _ _ _ _ hcr hcl (iblk6 a V c (0 : Fin 3) t) (iblk6 a V c (1 : Fin 3) t) (accAt6 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k6_cond2 (grid6.coords t) = 1#1 := fun h => hl (hcv.symm.trans ((condLast_iff6 _).mp h))
      rw [Dat.leavesExact_idle (dat6 a V c) (2 : Fin 3) t (idle_out6 a t hcl) (flush_out6 a t (by omega))]
      iintro ⟨⟨Hg, Hpf, HS, Hr⟩, Ho, ⟨%du, HU⟩, ⟨%dv, HV⟩, HO⟩
      iapply (run_mid6 c _ _ _ _ _ _ _ _ _ _ _ _ _ hcr hcl (iblk6 a V c (0 : Fin 3) t) (iblk6 a V c (1 : Fin 3) t) (accAt6 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation6 : BodyObligation (dat6 a V c) (defs₀ (F := F)) Variants.none () Set.univ := fun t => by
  rw [bigSep_W6, bigSep_W6]
  exact sound_body6 a V c t

end Cert.Kernel.Gen

end
-- ==== Proof.BodyK7.lean ====
import proofs.«425429_j48773648614109_2_alg».proof.Proof.DatK7
import proofs.«425429_j48773648614109_2_alg».proof.Proof.LibWhole
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg7 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset7 (i : grid7.Coords) : Prop :=
  Scalar.cmpi .ne (Scalar.extui (Scalar.cmpi .eq (BitVec.ofNat 32 (i 0).val) 0#32)) 0#32 = 1#1

/-- The grid's one coordinate is below its bound. -/
theorem coord_lt7 (i : grid7.Coords) : (i 0).val < 43008 := (i 0).isLt

/-- The reset is taken exactly at coordinate 0. -/
theorem condReset_iff7 (i : grid7.Coords) : condReset7 i ↔ (i 0).val = 0 :=
  when_coord_iff (lt_trans (coord_lt7 i) (by decide)) (by decide)

/-- The output is stored exactly at the last coordinate. -/
theorem condLast_iff7 (i : grid7.Coords) : k7_cond2 i = 1#1 ↔ (i 0).val = 43007 := by
  unfold k7_cond2
  exact when_coord_iff (lt_trans (coord_lt7 i) (by decide)) (by decide)

/-- The one coordinate of the point numbered `t` is `t`. -/
theorem coords_val7 (t : Fin (cfg7 a).N) : ((grid7.coords t) 0).val = t.val := by
  have hN : t.val < 43008 := lt_of_lt_of_eq t.isLt (show (cfg7 a).N = 43008 from N_7)
  show t.val / grid7.stride 0 % grid7.bound 0 = t.val
  rw [show grid7.stride 0 = 1 from by decide, show grid7.bound 0 = 43008 from rfl, Nat.div_one]
  exact Nat.mod_eq_of_lt hN

/-! ## Where the output window is idle, and where it is written back -/

/-- The output window is idle wherever the output store is not taken, -/
theorem idle_out7 (t : Fin (cfg7 a).N) (h : ¬ k7_cond2 (grid7.coords t) = 1#1) :
    (cfg7 a).idle (2 : Fin 3) ((cfg7 a).grid.coords t) = true := by
  show (!(k7_cond2 (grid7.coords t) == 1#1)) = true
  rw [beq_eq_false_iff_ne.mpr h]; rfl

/-- live where it is, -/
theorem live_out7 (t : Fin (cfg7 a).N) (h : k7_cond2 (grid7.coords t) = 1#1) :
    (cfg7 a).idle (2 : Fin 3) ((cfg7 a).grid.coords t) = false := by
  show (!(k7_cond2 (grid7.coords t) == 1#1)) = false
  rw [h]; rfl

/-- and, its block index never moving, written back at the last point only. -/
theorem flush_out7 (t : Fin (cfg7 a).N) (h : t.val + 1 ≠ (cfg7 a).N) : ((cfg7 a).win (2 : Fin 3)).flush t = false := by
  unfold Pipeline.Window.flush
  have hix : ∀ u u' : Fin (cfg7 a).N, ((cfg7 a).win (2 : Fin 3)).index u = ((cfg7 a).win (2 : Fin 3)).index u' := fun _ _ => rfl
  have hne : decide (t.val + 1 = grid7.N) = false := decide_eq_false h
  have hix2 : decide (∃ h' : t.val + 1 < grid7.N, ((cfg7 a).win (2 : Fin 3)).index ⟨t.val + 1, h'⟩ ≠ ((cfg7 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid7 (i : grid7.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset7 i) (hcl : ¬ k7_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k7_pay2 xu xv acc)) -∗ K ⟨⟩))
    ⊢ wp frame (wpE (defs₀ (F := F)) Variants.none c none) E (cc7__edge_chunk_kernel i arg1 harg1 arg2 harg2 arg3 harg3 arg4 harg4 arg5 harg5 arg6 harg6) K := by
  simp only [cc7__edge_chunk_kernel_eq_skeleton]; unfold cc7__edge_chunk_kernel_skel
  simp only [k7_part1_eq_skeleton]; unfold k7_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first7 (i : grid7.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset7 i) (hcl : ¬ k7_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k7_pay2 xu xv (k7_pay1 (F := F)))) -∗ K ⟨⟩))
    ⊢ wp frame (wpE (defs₀ (F := F)) Variants.none c none) E (cc7__edge_chunk_kernel i arg1 harg1 arg2 harg2 arg3 harg3 arg4 harg4 arg5 harg5 arg6 harg6) K := by
  simp only [cc7__edge_chunk_kernel_eq_skeleton]; unfold cc7__edge_chunk_kernel_skel
  simp only [k7_part1_eq_skeleton]; unfold k7_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k7_pay2 xu xv) (View.readCov_unit_zero (Val := Elt F) arg6.view zeros2 _ (k7_pay1 (F := F)))

set_option maxHeartbeats 1000000 in
/-- The LAST point (no reset, output store taken): as a middle point, and the output's buffer, whatever it held, is
    left at the new sum. -/
theorem run_last7 (i : grid7.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset7 i) (hcl : k7_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k7_pay2 xu xv acc) ∗ owns (c : Thread nD τ) arg6 fullShare (k7_pay2 xu xv acc)) -∗ K ⟨⟩))
    ⊢ wp frame (wpE (defs₀ (F := F)) Variants.none c none) E (cc7__edge_chunk_kernel i arg1 harg1 arg2 harg2 arg3 harg3 arg4 harg4 arg5 harg5 arg6 harg6) K := by
  simp only [cc7__edge_chunk_kernel_eq_skeleton]; unfold cc7__edge_chunk_kernel_skel
  simp only [k7_part1_eq_skeleton]; unfold k7_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at7 (t : Fin (cfg7 a).N) :
    accAt7 a V c t.val = k7_pay2 (iblk7 a V c (0 : Fin 3) t) (iblk7 a V c (1 : Fin 3) t)
      (if t.val = 0 then k7_pay1 (F := F) else accAt7 a V c (t.val - 1)) := by
  obtain ⟨n, hn⟩ := t
  cases n with
  | zero =>
    rw [if_pos rfl]
    show accAt7 a V c 0 = _
    rw [accAt_zero7, show pt7 a 0 = ⟨0, hn⟩ from Fin.ext (Nat.mod_eq_of_lt hn)]
  | succ n =>
    rw [if_neg (Nat.succ_ne_zero n)]
    show accAt7 a V c (n + 1) = _
    rw [accAt_succ7, show pt7 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq7 :
    Phi7 a V c 0 = iprop((∃ r, prngReg c r) ∗ Pipeline.prefHeld pre7 c (fun _ => fullShare) a.1
      ∗ (∃ d, owns (c : Thread nD τ) (Memref.whole cc7_scratch0) fullShare d)
      ∗ Pipeline.scopedRestBut spec7 c [cc7_scratch0]) := by
  rw [Phi_zero7, scopedRest7_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body7 (t : Fin (cfg7 a).N) :
    iprop((dat7 a V c).Φ t.castSucc ∗ (dat7 a V c).owesAt () t.castSucc
      ∗ (∃ d, owns (c : Thread nD τ) (((cfg7 a).win (0 : Fin 3)).stage ((cfg7 a).slots t (0 : Fin 3))) fullShare ((dat7 a V c).before (0 : Fin 3) t d))
      ∗ (∃ d, owns (c : Thread nD τ) (((cfg7 a).win (1 : Fin 3)).stage ((cfg7 a).slots t (1 : Fin 3))) fullShare ((dat7 a V c).before (1 : Fin 3) t d))
      ∗ (∃ d, owns (c : Thread nD τ) (((cfg7 a).win (2 : Fin 3)).stage ((cfg7 a).slots t (2 : Fin 3))) fullShare ((dat7 a V c).before (2 : Fin 3) t d)))
    ⊢ wp frame (wpE (defs₀ (F := F)) Variants.none c none) Set.univ
        (defs₀ (F := F) .tc (cfg7 a).body ((cfg7 a).bodyArgs t ((cfg7 a).slots t)))
        (fun _ => iprop((dat7 a V c).Φ t.succ ∗ (dat7 a V c).owesAt () t.succ
          ∗ (dat7 a V c).leavesExact (0 : Fin 3) t ∗ (dat7 a V c).leavesExact (1 : Fin 3) t ∗ (dat7 a V c).leavesExact (2 : Fin 3) t)) := by
  simp only [beforeU7, beforeV7]
  rw [show (dat7 a V c).owesAt () t.succ = (dat7 a V c).owesAt () t.castSucc from rfl]
  rw [dat_Φ_castSucc7, dat_Φ_succ7, Phi_succ7, accAt_at7 a V c t]
  rw [show (dat7 a V c).leavesExact (0 : Fin 3) t
      = owns (c : Thread nD τ) (((cfg7 a).win (0 : Fin 3)).stage ((cfg7 a).slots t (0 : Fin 3))) fullShare ((dat7 a V c).after (0 : Fin 3) t) from rfl, afterU7]
  rw [show (dat7 a V c).leavesExact (1 : Fin 3) t
      = owns (c : Thread nD τ) (((cfg7 a).win (1 : Fin 3)).stage ((cfg7 a).slots t (1 : Fin 3))) fullShare ((dat7 a V c).after (1 : Fin 3) t) from rfl, afterV7]
  have hN : t.val < 43008 := lt_of_lt_of_eq t.isLt (show (cfg7 a).N = 43008 from N_7)
  have hNN : (cfg7 a).N = 43008 := N_7
  have hcv := coords_val7 a t
  by_cases hz : t.val = 0
  · -- the first point
    have hcr : condReset7 (grid7.coords t) := (condReset_iff7 _).mpr (hcv.trans hz)
    have hcl : ¬ k7_cond2 (grid7.coords t) = 1#1 := fun h => by have := (condLast_iff7 _).mp h; omega
    rw [Dat.leavesExact_idle (dat7 a V c) (2 : Fin 3) t (idle_out7 a t hcl) (flush_out7 a t (by omega))]
    rw [if_pos hz, show Phi7 a V c t.val = Phi7 a V c 0 from by rw [hz], Phi_zero_eq7]
    iintro ⟨⟨Hg, Hpf, HS, Hr⟩, Ho, ⟨%du, HU⟩, ⟨%dv, HV⟩, HO⟩
    iapply (run_first7 c _ _ _ _ _ _ _ _ _ _ _ _ _ hcr hcl (iblk7 a V c (0 : Fin 3) t) (iblk7 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset7 (grid7.coords t) := fun h => hz (hcv.symm.trans ((condReset_iff7 _).mp h))
    rw [if_neg hz, Phi_pos7 a V c t.val hz]
    by_cases hl : t.val = 43007
    · -- the last point
      have hcl : k7_cond2 (grid7.coords t) = 1#1 := (condLast_iff7 _).mpr (hcv.trans hl)
      rw [show (dat7 a V c).leavesExact (2 : Fin 3) t
          = owns (c : Thread nD τ) (((cfg7 a).win (2 : Fin 3)).stage ((cfg7 a).slots t (2 : Fin 3))) fullShare ((dat7 a V c).after (2 : Fin 3) t) from by
        unfold Dat.leavesExact; rw [live_out7 a t hcl], afterO7, accAt_at7 a V c t, if_neg hz]
      iintro ⟨⟨Hg, Hpf, HS, Hr⟩, Ho, ⟨%du, HU⟩, ⟨%dv, HV⟩, ⟨%dO, HO⟩⟩
      iapply (run_last7 c _ _ _ _ _ _ _ _ _ _ _ _ _ hcr hcl (iblk7 a V c (0 : Fin 3) t) (iblk7 a V c (1 : Fin 3) t) (accAt7 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k7_cond2 (grid7.coords t) = 1#1 := fun h => hl (hcv.symm.trans ((condLast_iff7 _).mp h))
      rw [Dat.leavesExact_idle (dat7 a V c) (2 : Fin 3) t (idle_out7 a t hcl) (flush_out7 a t (by omega))]
      iintro ⟨⟨Hg, Hpf, HS, Hr⟩, Ho, ⟨%du, HU⟩, ⟨%dv, HV⟩, HO⟩
      iapply (run_mid7 c _ _ _ _ _ _ _ _ _ _ _ _ _ hcr hcl (iblk7 a V c (0 : Fin 3) t) (iblk7 a V c (1 : Fin 3) t) (accAt7 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation7 : BodyObligation (dat7 a V c) (defs₀ (F := F)) Variants.none () Set.univ := fun t => by
  rw [bigSep_W7, bigSep_W7]
  exact sound_body7 a V c t

end Cert.Kernel.Gen

end
-- ==== Proof.FamilyK.lean ====
import proofs.«425429_j48773648614109_2_alg».proof.Proof.AssembleK
import proofs.«425429_j48773648614109_2_alg».proof.Proof.TieK
import proofs.«425429_j48773648614109_2_alg».proof.Proof.AdmsK
import proofs.«425429_j48773648614109_2_alg».proof.Proof.RecK0
import proofs.«425429_j48773648614109_2_alg».proof.Proof.RecK1
import proofs.«425429_j48773648614109_2_alg».proof.Proof.RecK2
import proofs.«425429_j48773648614109_2_alg».proof.Proof.RecK3
import proofs.«425429_j48773648614109_2_alg».proof.Proof.RecK4
import proofs.«425429_j48773648614109_2_alg».proof.Proof.RecK5
import proofs.«425429_j48773648614109_2_alg».proof.Proof.RecK6
import proofs.«425429_j48773648614109_2_alg».proof.Proof.RecK7
import proofs.«425429_j48773648614109_2_alg».proof.Proof.BodyK0
import proofs.«425429_j48773648614109_2_alg».proof.Proof.BodyK1
import proofs.«425429_j48773648614109_2_alg».proof.Proof.BodyK2
import proofs.«425429_j48773648614109_2_alg».proof.Proof.BodyK3
import proofs.«425429_j48773648614109_2_alg».proof.Proof.BodyK4
import proofs.«425429_j48773648614109_2_alg».proof.Proof.BodyK5
import proofs.«425429_j48773648614109_2_alg».proof.Proof.BodyK6
import proofs.«425429_j48773648614109_2_alg».proof.Proof.BodyK7

/-! The eight kernel regions as one family, and @main's run from it.

Region `K` is entered at the valuation `V(2K+1)` of the unscoped buffers and left at `V(2K+2)`, which differs from
it at the region's output array alone. What a region leaves there is a function of the valuation at its entry
(`outArrK`), and that valuation reads only the outputs of the regions before it: so the eight outputs are defined in
order (`o0 … o7`), the family `outs` is built from them, and each region's proof data and record are stated at the
family's own valuations. The admissible index tables come from the bound `IdxOk` on the edge list's words. With the
eight records the launch theorem gives the frame and the value of the result buffer. -/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : IdxOk m)

/-! ## The regions' output arrays, in order -/

/-- Region 0's output array at its exit: from the valuation after the first host stretch. -/
def o0 (c : Dev nD) : Buf (Elt F) ((c : Thread nD τ).loc main_v12) :=
  outArr0 (adms m h p0) (V1 m) c
/-- Region 1's, from the valuation at its entry, which reads region 0's output alone. -/
def o1 (c : Dev nD) : Buf (Elt F) ((c : Thread nD τ).loc main_v19) :=
  outArr1 (adms m h p1) (Vo3 m (o0 m h)) c
/-- Region 2's. -/
def o2 (c : Dev nD) : Buf (Elt F) ((c : Thread nD τ).loc main_v26) :=
  outArr2 (adms m h p2) (Vo5 m (o0 m h) (o1 m h)) c
/-- Region 3's. -/
def o3 (c : Dev nD) : Buf (Elt F) ((c : Thread nD τ).loc main_v33) :=
  outArr3 (adms m h p3) (Vo7 m (o0 m h) (o1 m h) (o2 m h)) c
/-- Region 4's. -/
def o4 (c : Dev nD) : Buf (Elt F) ((c : Thread nD τ).loc main_v40) :=
  outArr4 (adms m h p4) (Vo9 m (o0 m h) (o1 m h) (o2 m h) (o3 m h)) c
/-- Region 5's. -/
def o5 (c : Dev nD) : Buf (Elt F) ((c : Thread nD τ).loc main_v47) :=
  outArr5 (adms m h p5) (Vo11 m (o0 m h) (o1 m h) (o2 m h) (o3 m h) (o4 m h)) c
/-- Region 6's. -/
def o6 (c : Dev nD) : Buf (Elt F) ((c : Thread nD τ).loc main_v54) :=
  outArr6 (adms m h p6) (Vo13 m (o0 m h) (o1 m h) (o2 m h) (o3 m h) (o4 m h) (o5 m h)) c
/-- Region 7's. -/
def o7 (c : Dev nD) : Buf (Elt F) ((c : Thread nD τ).loc main_v61) :=
  outArr7 (adms m h p7) (Vo15 m (o0 m h) (o1 m h) (o2 m h) (o3 m h) (o4 m h) (o5 m h) (o6 m h)) c

/-- What the eight regions leave in their output arrays, as the family the valuations read. -/
def outs : Outs (F := F) :=
  outsOf m (o0 m h) (o1 m h) (o2 m h) (o3 m h) (o4 m h) (o5 m h) (o6 m h) (o7 m h)

/-! ## The family's valuation at each region's entry reads the earlier outputs alone -/

theorem win1 : V3 m (outs m h) = Vo3 m (o0 m h) :=
  funext fun c => V3_outsOf m (o0 m h) (o1 m h) (o2 m h) (o3 m h) (o4 m h) (o5 m h) (o6 m h) (o7 m h) c
theorem win2 : V5 m (outs m h) = Vo5 m (o0 m h) (o1 m h) :=
  funext fun c => V5_outsOf m (o0 m h) (o1 m h) (o2 m h) (o3 m h) (o4 m h) (o5 m h) (o6 m h) (o7 m h) c
theorem win3 : V7 m (outs m h) = Vo7 m (o0 m h) (o1 m h) (o2 m h) :=
  funext fun c => V7_outsOf m (o0 m h) (o1 m h) (o2 m h) (o3 m h) (o4 m h) (o5 m h) (o6 m h) (o7 m h) c
theorem win4 : V9 m (outs m h) = Vo9 m (o0 m h) (o1 m h) (o2 m h) (o3 m h) :=
  funext fun c => V9_outsOf m (o0 m h) (o1 m h) (o2 m h) (o3 m h) (o4 m h) (o5 m h) (o6 m h) (o7 m h) c
theorem win5 : V11 m (outs m h) = Vo11 m (o0 m h) (o1 m h) (o2 m h) (o3 m h) (o4 m h) :=
  funext fun c => V11_outsOf m (o0 m h) (o1 m h) (o2 m h) (o3 m h) (o4 m h) (o5 m h) (o6 m h) (o7 m h) c
theorem win6 : V13 m (outs m h) = Vo13 m (o0 m h) (o1 m h) (o2 m h) (o3 m h) (o4 m h) (o5 m h) :=
  funext fun c => V13_outsOf m (o0 m h) (o1 m h) (o2 m h) (o3 m h) (o4 m h) (o5 m h) (o6 m h) (o7 m h) c
theorem win7 : V15 m (outs m h) = Vo15 m (o0 m h) (o1 m h) (o2 m h) (o3 m h) (o4 m h) (o5 m h) (o6 m h) :=
  funext fun c => V15_outsOf m (o0 m h) (o1 m h) (o2 m h) (o3 m h) (o4 m h) (o5 m h) (o6 m h) (o7 m h) c

/-! ## Reading the family at a region's output, and each output from the valuation at that region's entry -/

theorem outs_0 (c : Dev nD) : outs m h 2 main_v12 c = o0 m h c :=
  outsOf_0 m (o0 m h) (o1 m h) (o2 m h) (o3 m h) (o4 m h) (o5 m h) (o6 m h) (o7 m h) c
theorem outs_1 (c : Dev nD) : outs m h 4 main_v19 c = o1 m h c :=
  outsOf_1 m (o0 m h) (o1 m h) (o2 m h) (o3 m h) (o4 m h) (o5 m h) (o6 m h) (o7 m h) c
theorem outs_2 (c : Dev nD) : outs m h 6 main_v26 c = o2 m h c :=
  outsOf_2 m (o0 m h) (o1 m h) (o2 m h) (o3 m h) (o4 m h) (o5 m h) (o6 m h) (o7 m h) c
theorem outs_3 (c : Dev nD) : outs m h 8 main_v33 c = o3 m h c :=
  outsOf_3 m (o0 m h) (o1 m h) (o2 m h) (o3 m h) (o4 m h) (o5 m h) (o6 m h) (o7 m h) c
theorem outs_4 (c : Dev nD) : outs m h 10 main_v40 c = o4 m h c :=
  outsOf_4 m (o0 m h) (o1 m h) (o2 m h) (o3 m h) (o4 m h) (o5 m h) (o6 m h) (o7 m h) c
theorem outs_5 (c : Dev nD) : outs m h 12 main_v47 c = o5 m h c :=
  outsOf_5 m (o0 m h) (o1 m h) (o2 m h) (o3 m h) (o4 m h) (o5 m h) (o6 m h) (o7 m h) c
theorem outs_6 (c : Dev nD) : outs m h 14 main_v54 c = o6 m h c :=
  outsOf_6 m (o0 m h) (o1 m h) (o2 m h) (o3 m h) (o4 m h) (o5 m h) (o6 m h) (o7 m h) c
theorem outs_7 (c : Dev nD) : outs m h 16 main_v61 c = o7 m h c :=
  outsOf_7 m (o0 m h) (o1 m h) (o2 m h) (o3 m h) (o4 m h) (o5 m h) (o6 m h) (o7 m h) c

theorem o0_eq (c : Dev nD) : o0 m h c = outArr0 (adms m h p0) (V1 m) c := rfl
theorem o1_eq (c : Dev nD) : o1 m h c = outArr1 (adms m h p1) (V3 m (outs m h)) c := by rw [win1]; rfl
theorem o2_eq (c : Dev nD) : o2 m h c = outArr2 (adms m h p2) (V5 m (outs m h)) c := by rw [win2]; rfl
theorem o3_eq (c : Dev nD) : o3 m h c = outArr3 (adms m h p3) (V7 m (outs m h)) c := by rw [win3]; rfl
theorem o4_eq (c : Dev nD) : o4 m h c = outArr4 (adms m h p4) (V9 m (outs m h)) c := by rw [win4]; rfl
theorem o5_eq (c : Dev nD) : o5 m h c = outArr5 (adms m h p5) (V11 m (outs m h)) c := by rw [win5]; rfl
theorem o6_eq (c : Dev nD) : o6 m h c = outArr6 (adms m h p6) (V13 m (outs m h)) c := by rw [win6]; rfl
theorem o7_eq (c : Dev nD) : o7 m h c = outArr7 (adms m h p7) (V15 m (outs m h)) c := by rw [win7]; rfl

/-! ## The valuation at each region's exit holds, in the output array, what the region leaves there -/

theorem hout0 (c : Dev nD) :
    V2 m (outs m h) c (Pipeline.arrRef spec0 (2 : Fin 3)) = outArr0 (adms m h p0) (V1 m) c := by
  rw [← o0_eq, ← outs_0]
  exact Function.update_self (main_v12 : DevRef τ sig) (outs m h 2 main_v12 c) (V1 m c)
theorem hout1 (c : Dev nD) :
    V4 m (outs m h) c (Pipeline.arrRef spec1 (2 : Fin 3)) = outArr1 (adms m h p1) (V3 m (outs m h)) c := by
  rw [← o1_eq, ← outs_1]
  exact Function.update_self (main_v19 : DevRef τ sig) (outs m h 4 main_v19 c) (V3 m (outs m h) c)
theorem hout2 (c : Dev nD) :
    V6 m (outs m h) c (Pipeline.arrRef spec2 (2 : Fin 3)) = outArr2 (adms m h p2) (V5 m (outs m h)) c := by
  rw [← o2_eq, ← outs_2]
  exact Function.update_self (main_v26 : DevRef τ sig) (outs m h 6 main_v26 c) (V5 m (outs m h) c)
theorem hout3 (c : Dev nD) :
    V8 m (outs m h) c (Pipeline.arrRef spec3 (2 : Fin 3)) = outArr3 (adms m h p3) (V7 m (outs m h)) c := by
  rw [← o3_eq, ← outs_3]
  exact Function.update_self (main_v33 : DevRef τ sig) (outs m h 8 main_v33 c) (V7 m (outs m h) c)
theorem hout4 (c : Dev nD) :
    V10 m (outs m h) c (Pipeline.arrRef spec4 (2 : Fin 3)) = outArr4 (adms m h p4) (V9 m (outs m h)) c := by
  rw [← o4_eq, ← outs_4]
  exact Function.update_self (main_v40 : DevRef τ sig) (outs m h 10 main_v40 c) (V9 m (outs m h) c)
theorem hout5 (c : Dev nD) :
    V12 m (outs m h) c (Pipeline.arrRef spec5 (2 : Fin 3)) = outArr5 (adms m h p5) (V11 m (outs m h)) c := by
  rw [← o5_eq, ← outs_5]
  exact Function.update_self (main_v47 : DevRef τ sig) (outs m h 12 main_v47 c) (V11 m (outs m h) c)
theorem hout6 (c : Dev nD) :
    V14 m (outs m h) c (Pipeline.arrRef spec6 (2 : Fin 3)) = outArr6 (adms m h p6) (V13 m (outs m h)) c := by
  rw [← o6_eq, ← outs_6]
  exact Function.update_self (main_v54 : DevRef τ sig) (outs m h 14 main_v54 c) (V13 m (outs m h) c)
theorem hout7 (c : Dev nD) :
    V16 m (outs m h) c (Pipeline.arrRef spec7 (2 : Fin 3)) = outArr7 (adms m h p7) (V15 m (outs m h)) c := by
  rw [← o7_eq, ← outs_7]
  exact Function.update_self (main_v61 : DevRef τ sig) (outs m h 16 main_v61 c) (V15 m (outs m h) c)

/-! ## The proof data, pipeline by pipeline -/

/-- Pipeline `p`'s proof data: region `p`'s, at the admissible tables and the family's valuation at its entry. -/
def pdats : (p : Fin 8) → (c : Dev nD) → Dat τ (Elt F) Unit ℕ (UR sig nD τ) ℕ (Pipeline.pin (pcfgs (F := F)) (adms m h) p) c
  | ⟨0, _⟩ => fun c => dat0 (adms m h p0) (vin0 (V1 m)) c
  | ⟨1, _⟩ => fun c => dat1 (adms m h p1) (vin1 (V3 m (outs m h))) c
  | ⟨2, _⟩ => fun c => dat2 (adms m h p2) (vin2 (V5 m (outs m h))) c
  | ⟨3, _⟩ => fun c => dat3 (adms m h p3) (vin3 (V7 m (outs m h))) c
  | ⟨4, _⟩ => fun c => dat4 (adms m h p4) (vin4 (V9 m (outs m h))) c
  | ⟨5, _⟩ => fun c => dat5 (adms m h p5) (vin5 (V11 m (outs m h))) c
  | ⟨6, _⟩ => fun c => dat6 (adms m h p6) (vin6 (V13 m (outs m h))) c
  | ⟨7, _⟩ => fun c => dat7 (adms m h p7) (vin7 (V15 m (outs m h))) c
  | ⟨_ + 8, hn⟩ => absurd hn (Nat.not_lt.2 (Nat.le_add_left _ _))

/-! ## The eight records -/

/-- Region 0: entered at `V1`, left at `V2`. -/
def R0 : RegionSeg (pcfgs (F := F)) (adms m h) (pdats m h) () defs₀ Variants.none L₀ lv₀ 0 :=
  rec0 (adms m h) (pdats m h) (V1 m) (V2 m (outs m h)) (fun _ => rfl)
    (fun c => body_obligation0 (adms m h p0) (vin0 (V1 m)) c)
    (fun c k => adms_tab0 m h c k) (fun c => hFin0 m (outs m h) c) (hout0 m h) (fun c => hrest0 m (outs m h) c)
/-- Region 1: entered at `V3`, left at `V4`. -/
def R1 : RegionSeg (pcfgs (F := F)) (adms m h) (pdats m h) () defs₀ Variants.none L₀ lv₀ 1 :=
  rec1 (adms m h) (pdats m h) (V3 m (outs m h)) (V4 m (outs m h)) (fun _ => rfl)
    (fun c => body_obligation1 (adms m h p1) (vin1 (V3 m (outs m h))) c)
    (fun c k => adms_tab1 m (outs m h) h c k) (fun c => hFin1 m (outs m h) c) (hout1 m h) (fun c => hrest1 m (outs m h) c)
/-- Region 2: entered at `V5`, left at `V6`. -/
def R2 : RegionSeg (pcfgs (F := F)) (adms m h) (pdats m h) () defs₀ Variants.none L₀ lv₀ 2 :=
  rec2 (adms m h) (pdats m h) (V5 m (outs m h)) (V6 m (outs m h)) (fun _ => rfl)
    (fun c => body_obligation2 (adms m h p2) (vin2 (V5 m (outs m h))) c)
    (fun c k => adms_tab2 m (outs m h) h c k) (fun c => hFin2 m (outs m h) c) (hout2 m h) (fun c => hrest2 m (outs m h) c)
/-- Region 3: entered at `V7`, left at `V8`. -/
def R3 : RegionSeg (pcfgs (F := F)) (adms m h) (pdats m h) () defs₀ Variants.none L₀ lv₀ 3 :=
  rec3 (adms m h) (pdats m h) (V7 m (outs m h)) (V8 m (outs m h)) (fun _ => rfl)
    (fun c => body_obligation3 (adms m h p3) (vin3 (V7 m (outs m h))) c)
    (fun c k => adms_tab3 m (outs m h) h c k) (fun c => hFin3 m (outs m h) c) (hout3 m h) (fun c => hrest3 m (outs m h) c)
/-- Region 4: entered at `V9`, left at `V10`. -/
def R4 : RegionSeg (pcfgs (F := F)) (adms m h) (pdats m h) () defs₀ Variants.none L₀ lv₀ 4 :=
  rec4 (adms m h) (pdats m h) (V9 m (outs m h)) (V10 m (outs m h)) (fun _ => rfl)
    (fun c => body_obligation4 (adms m h p4) (vin4 (V9 m (outs m h))) c)
    (fun c k => adms_tab4 m (outs m h) h c k) (fun c => hFin4 m (outs m h) c) (hout4 m h) (fun c => hrest4 m (outs m h) c)
/-- Region 5: entered at `V11`, left at `V12`. -/
def R5 : RegionSeg (pcfgs (F := F)) (adms m h) (pdats m h) () defs₀ Variants.none L₀ lv₀ 5 :=
  rec5 (adms m h) (pdats m h) (V11 m (outs m h)) (V12 m (outs m h)) (fun _ => rfl)
    (fun c => body_obligation5 (adms m h p5) (vin5 (V11 m (outs m h))) c)
    (fun c k => adms_tab5 m (outs m h) h c k) (fun c => hFin5 m (outs m h) c) (hout5 m h) (fun c => hrest5 m (outs m h) c)
/-- Region 6: entered at `V13`, left at `V14`. -/
def R6 : RegionSeg (pcfgs (F := F)) (adms m h) (pdats m h) () defs₀ Variants.none L₀ lv₀ 6 :=
  rec6 (adms m h) (pdats m h) (V13 m (outs m h)) (V14 m (outs m h)) (fun _ => rfl)
    (fun c => body_obligation6 (adms m h p6) (vin6 (V13 m (outs m h))) c)
    (fun c k => adms_tab6 m (outs m h) h c k) (fun c => hFin6 m (outs m h) c) (hout6 m h) (fun c => hrest6 m (outs m h) c)
/-- Region 7: entered at `V15`, left at `V16`. -/
def R7 : RegionSeg (pcfgs (F := F)) (adms m h) (pdats m h) () defs₀ Variants.none L₀ lv₀ 7 :=
  rec7 (adms m h) (pdats m h) (V15 m (outs m h)) (V16 m (outs m h)) (fun _ => rfl)
    (fun c => body_obligation7 (adms m h p7) (vin7 (V15 m (outs m h))) c)
    (fun c k => adms_tab7 m (outs m h) h c k) (fun c => hFin7 m (outs m h) c) (hout7 m h) (fun c => hrest7 m (outs m h) c)

/-! ## The run -/

include h in
/-- THE FRAME: when every edge's words name rows of the embedding tables, every weakly fair execution of @main from
    `m` with zero counters terminates and every final memory holds each argument as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_regs m ρ (outs m h) (adms m h) (pdats m h)
    (R0 m h) (fun _ => .rfl) (fun _ => .rfl) (R1 m h) (fun _ => .rfl) (fun _ => .rfl)
    (R2 m h) (fun _ => .rfl) (fun _ => .rfl) (R3 m h) (fun _ => .rfl) (fun _ => .rfl)
    (R4 m h) (fun _ => .rfl) (fun _ => .rfl) (R5 m h) (fun _ => .rfl) (fun _ => .rfl)
    (R6 m h) (fun _ => .rfl) (fun _ => .rfl) (R7 m h) (fun _ => .rfl) (fun _ => .rfl)

/-- THE VALUE: the same, and every final memory holds in the result buffer what the last valuation of the family says. -/
theorem value_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v63) = V17 m (outs m h) c main_v63) :=
  value_of_regs m ρ (outs m h) (adms m h) (pdats m h)
    (R0 m h) (fun _ => .rfl) (fun _ => .rfl) (R1 m h) (fun _ => .rfl) (fun _ => .rfl)
    (R2 m h) (fun _ => .rfl) (fun _ => .rfl) (R3 m h) (fun _ => .rfl) (fun _ => .rfl)
    (R4 m h) (fun _ => .rfl) (fun _ => .rfl) (R5 m h) (fun _ => .rfl) (fun _ => .rfl)
    (R6 m h) (fun _ => .rfl) (fun _ => .rfl) (R7 m h) (fun _ => .rfl) (fun _ => .rfl)

end Cert.Kernel.Gen

end
-- ==== Proof.PreK.lean ====
/-
  The precondition's index ranges at the kernel's launch memory.

  `finite_inputs` all ones says, of the four index arguments, that every word lies in [0, 1000000) read signed — hence is below
  1000000 read unsigned (`pre_args`) —, so that every edge of the list names rows of the two embedding tables (`pre_idx`):
  what makes every region's tables admissible (`okK_of_idx`, `admK`, `adms`).
-/
import proofs.«425429_j48773648614109_2_alg».proof.Proof.TablesK
import proofs.«425429_j48773648614109_2_alg».proof.Defs

noncomputable section

namespace Cert.Kernel.Gen

open Idealize.ShloMosaic Idealize.ShloMosaic.TcCoe
open Idealize.SL.Sem

variable (m : (ℓ : Loc nD τ sig) → Buf (Elt Bits) ℓ)

/-- Under the precondition every word of the four index arguments is below 1000000. -/
theorem pre_args (hpre : Cert.Pre_Kernel m) (c : Dev nD) :
    (∀ j, BitVec.toNat (w := 32) (m ((c : Thread nD τ).loc main_arg0) j) < 1000000)
      ∧ (∀ j, BitVec.toNat (w := 32) (m ((c : Thread nD τ).loc main_arg1) j) < 1000000)
      ∧ (∀ j, BitVec.toNat (w := 32) (m ((c : Thread nD τ).loc main_arg2) j) < 1000000)
      ∧ (∀ j, BitVec.toNat (w := 32) (m ((c : Thread nD τ).loc main_arg3) j) < 1000000) :=
  fn_range (F := Bits) _ _ _ _ _ _ (hpre c)

/-- Under the precondition every edge's two words name rows of the embedding tables. -/
theorem pre_idx (hpre : Cert.Pre_Kernel m) : IdxOk m := idxOk_of_args m (pre_args m hpre)

end Cert.Kernel.Gen

end
-- ==== Proof.AssembleI.lean ====
import proofs.«425429_j48773648614109_2_alg».proof.Proof.ValueCondI
import Idealize.ShloMosaic.Lib.Pipeline.Kit
import Idealize.ShloMosaic.Lib.Pipeline.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-! ## The launch's fixed choices

One copy of the rounds algebra as the whole user component; no pair carries a level and no core owes anything at
launch; between two items a core holds, beside its unscoped buffers, its generator register at some state and
owes nothing. -/

/-- No pair of a semaphore and a duty carries a level. -/
abbrev L₀ : GSem nD τ sig → Finset Unit := fun _ => ∅
/-- The level assignment (read nowhere: `L₀` is empty). -/
abbrev lv₀ : GSem nD τ sig → Unit → ℕ := fun _ _ => 0

/-- What core `c` holds between two items beside its unscoped buffers: its generator register at some state, and
    nothing owed. -/
abbrev Rst (c : Dev nD) : sProp 𝕄 :=
  iprop((∃ r, prngReg c r) ∗ ∃ W, owes (c : Thread nD τ) (0 : CellTallies nD τ sig Unit) W)

variable (m : (ℓ : Loc nD τ sig) → Buf (Elt F) ℓ) (ρ : Dev nD → PrngReg) (outs : Outs (F := F))
variable (a : (p : Fin 8) → (pcfgs (F := F) p).Adm)
variable (pdats : (p : Fin 8) → (c : Dev nD) → Dat τ (Elt F) Unit ℕ (UR sig nD τ) ℕ (Pipeline.pin (pcfgs (F := F)) a p) c)

/-- The launch element: the rounds algebra's initial element at the pinned pipelines' staging cells and launch
    tokens. -/
abbrev u₀ : UR sig nD τ :=
  initOf (Pipeline.cells (Pipeline.pin (pcfgs (F := F)) a) (cellOf_inj a)) (Pipeline.launchToks (Pipeline.pin (pcfgs (F := F)) a) (cellOf_inj a))

/-- Owning the launch element is owning it through the embedding of the whole user component, beside nothing per
    core. -/
theorem hu₀_launch :
    (ownU (u₀ a) : sProp 𝕄) ⊢ |={Set.univ}=> iprop(BI.own ((emb₁ : Emb (URounds (GSem nD τ sig) Unit) 𝕄) (u₀ a)) ∗ bigSep Finset.univ fun _ : Dev nD => (BI.emp : sProp 𝕄)) := by
  rw [ownU_emb₁, BI.bigSep_emp_const]
  iintro H
  imodintro
  isplitl [H]; · iexact H
  iempintro

/-- The first rest state on every core at once: core by core (no state is shared between cores), the register the
    launch deals is the register at some state, and the empty debt is a debt of nothing; the semaphores' zero counters
    and the launch credit are let go. -/
theorem hE0_launch :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L₀ lv₀)
      ⊢ (|={Set.univ}=> bigSep Finset.univ (fun c : Dev nD => Rst (F := F) c) : sProp 𝕄) := by
  refine Pipeline.initEach L₀ lv₀ fun c => ?_
  iintro ⟨⟨-, HO, -, Hp, -⟩, -⟩
  imodintro
  isplitl [Hp]; · iexists _; iexact Hp
  iexists ∅; iexact HO

/-- The last rest state owes nothing. -/
theorem hE8_rest (c : Dev nD) :
    (Rst (F := F) c) ⊢ (iprop(∃ W, owes (c : Thread nD τ) (0 : CellTallies nD τ sig Unit) W) : sProp 𝕄) := by
  iintro ⟨-, H⟩; iexact H

/-! ## The launch, given the regions' records -/

/-- THE FRAME FROM THE REGIONS' RECORDS. At the fixed choices above, for any contents the regions leave (`outs`), any
    admissible tables and any proof data: given per region a segment record entered from the unscoped buffers at the
    valuation before it beside `Rst` and left at the valuation after it beside `Rst`, every weakly fair execution of @main
    from `m` with zero counters terminates and every final memory holds each argument as launched. -/
theorem frame_of_regs
    (R0 : RegionSeg (pcfgs (F := F)) a pdats () defs₀ Variants.none L₀ lv₀ 0)
    (hpre0 : ∀ c : Dev nD, iprop(StableHlo.held (c : Thread nD τ) (Pipeline.ucRefs τ sig) (V1 m c) ∗ Rst c) ⊢ R0.pre c)
    (hpost0 : ∀ c : Dev nD, R0.post c ⊢ iprop(StableHlo.held (c : Thread nD τ) (Pipeline.ucRefs τ sig) (V2 m outs c) ∗ Rst c))
    (R1 : RegionSeg (pcfgs (F := F)) a pdats () defs₀ Variants.none L₀ lv₀ 1)
    (hpre1 : ∀ c : Dev nD, iprop(StableHlo.held (c : Thread nD τ) (Pipeline.ucRefs τ sig) (V3 m outs c) ∗ Rst c) ⊢ R1.pre c)
    (hpost1 : ∀ c : Dev nD, R1.post c ⊢ iprop(StableHlo.held (c : Thread nD τ) (Pipeline.ucRefs τ sig) (V4 m outs c) ∗ Rst c))
    (R2 : RegionSeg (pcfgs (F := F)) a pdats () defs₀ Variants.none L₀ lv₀ 2)
    (hpre2 : ∀ c : Dev nD, iprop(StableHlo.held (c : Thread nD τ) (Pipeline.ucRefs τ sig) (V5 m outs c) ∗ Rst c) ⊢ R2.pre c)
    (hpost2 : ∀ c : Dev nD, R2.post c ⊢ iprop(StableHlo.held (c : Thread nD τ) (Pipeline.ucRefs τ sig) (V6 m outs c) ∗ Rst c))
    (R3 : RegionSeg (pcfgs (F := F)) a pdats () defs₀ Variants.none L₀ lv₀ 3)
    (hpre3 : ∀ c : Dev nD, iprop(StableHlo.held (c : Thread nD τ) (Pipeline.ucRefs τ sig) (V7 m outs c) ∗ Rst c) ⊢ R3.pre c)
    (hpost3 : ∀ c : Dev nD, R3.post c ⊢ iprop(StableHlo.held (c : Thread nD τ) (Pipeline.ucRefs τ sig) (V8 m outs c) ∗ Rst c))
    (R4 : RegionSeg (pcfgs (F := F)) a pdats () defs₀ Variants.none L₀ lv₀ 4)
    (hpre4 : ∀ c : Dev nD, iprop(StableHlo.held (c : Thread nD τ) (Pipeline.ucRefs τ sig) (V9 m outs c) ∗ Rst c) ⊢ R4.pre c)
    (hpost4 : ∀ c : Dev nD, R4.post c ⊢ iprop(StableHlo.held (c : Thread nD τ) (Pipeline.ucRefs τ sig) (V10 m outs c) ∗ Rst c))
    (R5 : RegionSeg (pcfgs (F := F)) a pdats () defs₀ Variants.none L₀ lv₀ 5)
    (hpre5 : ∀ c : Dev nD, iprop(StableHlo.held (c : Thread nD τ) (Pipeline.ucRefs τ sig) (V11 m outs c) ∗ Rst c) ⊢ R5.pre c)
    (hpost5 : ∀ c : Dev nD, R5.post c ⊢ iprop(StableHlo.held (c : Thread nD τ) (Pipeline.ucRefs τ sig) (V12 m outs c) ∗ Rst c))
    (R6 : RegionSeg (pcfgs (F := F)) a pdats () defs₀ Variants.none L₀ lv₀ 6)
    (hpre6 : ∀ c : Dev nD, iprop(StableHlo.held (c : Thread nD τ) (Pipeline.ucRefs τ sig) (V13 m outs c) ∗ Rst c) ⊢ R6.pre c)
    (hpost6 : ∀ c : Dev nD, R6.post c ⊢ iprop(StableHlo.held (c : Thread nD τ) (Pipeline.ucRefs τ sig) (V14 m outs c) ∗ Rst c))
    (R7 : RegionSeg (pcfgs (F := F)) a pdats () defs₀ Variants.none L₀ lv₀ 7)
    (hpre7 : ∀ c : Dev nD, iprop(StableHlo.held (c : Thread nD τ) (Pipeline.ucRefs τ sig) (V15 m outs c) ∗ Rst c) ⊢ R7.pre c)
    (hpost7 : ∀ c : Dev nD, R7.post c ⊢ iprop(StableHlo.held (c : Thread nD τ) (Pipeline.ucRefs τ sig) (V16 m outs c) ∗ Rst c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m (emb₁ : Emb (URounds (GSem nD τ sig) Unit) 𝕄) () Variants.none L₀ lv₀ (fun _ _ => rfl) ρ outs a pdats 0 (fun _ => BI.emp) (u₀ a)
    (hu₀_launch a) (fun _ c => Rst c) (hE0_launch ρ) hE8_rest
    R0 hpre0 hpost0 R1 hpre1 hpost1 R2 hpre2 hpost2 R3 hpre3 hpost3 R4 hpre4 hpost4 R5 hpre5 hpost5 R6 hpre6 hpost6 R7 hpre7 hpost7

/-- THE VALUE FROM THE REGIONS' RECORDS: the same, and every final memory holds in the result buffer `main_v63` what
    the last valuation says. -/
theorem value_of_regs
    (R0 : RegionSeg (pcfgs (F := F)) a pdats () defs₀ Variants.none L₀ lv₀ 0)
    (hpre0 : ∀ c : Dev nD, iprop(StableHlo.held (c : Thread nD τ) (Pipeline.ucRefs τ sig) (V1 m c) ∗ Rst c) ⊢ R0.pre c)
    (hpost0 : ∀ c : Dev nD, R0.post c ⊢ iprop(StableHlo.held (c : Thread nD τ) (Pipeline.ucRefs τ sig) (V2 m outs c) ∗ Rst c))
    (R1 : RegionSeg (pcfgs (F := F)) a pdats () defs₀ Variants.none L₀ lv₀ 1)
    (hpre1 : ∀ c : Dev nD, iprop(StableHlo.held (c : Thread nD τ) (Pipeline.ucRefs τ sig) (V3 m outs c) ∗ Rst c) ⊢ R1.pre c)
    (hpost1 : ∀ c : Dev nD, R1.post c ⊢ iprop(StableHlo.held (c : Thread nD τ) (Pipeline.ucRefs τ sig) (V4 m outs c) ∗ Rst c))
    (R2 : RegionSeg (pcfgs (F := F)) a pdats () defs₀ Variants.none L₀ lv₀ 2)
    (hpre2 : ∀ c : Dev nD, iprop(StableHlo.held (c : Thread nD τ) (Pipeline.ucRefs τ sig) (V5 m outs c) ∗ Rst c) ⊢ R2.pre c)
    (hpost2 : ∀ c : Dev nD, R2.post c ⊢ iprop(StableHlo.held (c : Thread nD τ) (Pipeline.ucRefs τ sig) (V6 m outs c) ∗ Rst c))
    (R3 : RegionSeg (pcfgs (F := F)) a pdats () defs₀ Variants.none L₀ lv₀ 3)
    (hpre3 : ∀ c : Dev nD, iprop(StableHlo.held (c : Thread nD τ) (Pipeline.ucRefs τ sig) (V7 m outs c) ∗ Rst c) ⊢ R3.pre c)
    (hpost3 : ∀ c : Dev nD, R3.post c ⊢ iprop(StableHlo.held (c : Thread nD τ) (Pipeline.ucRefs τ sig) (V8 m outs c) ∗ Rst c))
    (R4 : RegionSeg (pcfgs (F := F)) a pdats () defs₀ Variants.none L₀ lv₀ 4)
    (hpre4 : ∀ c : Dev nD, iprop(StableHlo.held (c : Thread nD τ) (Pipeline.ucRefs τ sig) (V9 m outs c) ∗ Rst c) ⊢ R4.pre c)
    (hpost4 : ∀ c : Dev nD, R4.post c ⊢ iprop(StableHlo.held (c : Thread nD τ) (Pipeline.ucRefs τ sig) (V10 m outs c) ∗ Rst c))
    (R5 : RegionSeg (pcfgs (F := F)) a pdats () defs₀ Variants.none L₀ lv₀ 5)
    (hpre5 : ∀ c : Dev nD, iprop(StableHlo.held (c : Thread nD τ) (Pipeline.ucRefs τ sig) (V11 m outs c) ∗ Rst c) ⊢ R5.pre c)
    (hpost5 : ∀ c : Dev nD, R5.post c ⊢ iprop(StableHlo.held (c : Thread nD τ) (Pipeline.ucRefs τ sig) (V12 m outs c) ∗ Rst c))
    (R6 : RegionSeg (pcfgs (F := F)) a pdats () defs₀ Variants.none L₀ lv₀ 6)
    (hpre6 : ∀ c : Dev nD, iprop(StableHlo.held (c : Thread nD τ) (Pipeline.ucRefs τ sig) (V13 m outs c) ∗ Rst c) ⊢ R6.pre c)
    (hpost6 : ∀ c : Dev nD, R6.post c ⊢ iprop(StableHlo.held (c : Thread nD τ) (Pipeline.ucRefs τ sig) (V14 m outs c) ∗ Rst c))
    (R7 : RegionSeg (pcfgs (F := F)) a pdats () defs₀ Variants.none L₀ lv₀ 7)
    (hpre7 : ∀ c : Dev nD, iprop(StableHlo.held (c : Thread nD τ) (Pipeline.ucRefs τ sig) (V15 m outs c) ∗ Rst c) ⊢ R7.pre c)
    (hpost7 : ∀ c : Dev nD, R7.post c ⊢ iprop(StableHlo.held (c : Thread nD τ) (Pipeline.ucRefs τ sig) (V16 m outs c) ∗ Rst c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v63) = V17 m outs c main_v63) :=
  value_cond m (emb₁ : Emb (URounds (GSem nD τ sig) Unit) 𝕄) () Variants.none L₀ lv₀ (fun _ _ => rfl) ρ outs a pdats 0 (fun _ => BI.emp) (u₀ a)
    (hu₀_launch a) (fun _ c => Rst c) (hE0_launch ρ) hE8_rest
    R0 hpre0 hpost0 R1 hpre1 hpost1 R2 hpre2 hpost2 R3 hpre3 hpost3 R4 hpre4 hpost4 R5 hpre5 hpost5 R6 hpre6 hpost6 R7 hpre7 hpost7

/-! ## The regions' outputs as one family

The valuations read the family `outs` at eight points only: item `2K+2` at region `K`'s output array. Here the family is
built from the eight buffers themselves; anywhere else (read by no valuation) it is the launch contents. -/

section OutsOf

variable (m : (ℓ : Loc nD τ sig) → Buf (Elt F) ℓ)

/-- The family that is `oK` at region `K`'s reading point, the launch contents elsewhere. -/
def outsOf
    (o0 : (c : Dev nD) → Buf (Elt F) ((c : Thread nD τ).loc main_v12))
    (o1 : (c : Dev nD) → Buf (Elt F) ((c : Thread nD τ).loc main_v19))
    (o2 : (c : Dev nD) → Buf (Elt F) ((c : Thread nD τ).loc main_v26))
    (o3 : (c : Dev nD) → Buf (Elt F) ((c : Thread nD τ).loc main_v33))
    (o4 : (c : Dev nD) → Buf (Elt F) ((c : Thread nD τ).loc main_v40))
    (o5 : (c : Dev nD) → Buf (Elt F) ((c : Thread nD τ).loc main_v47))
    (o6 : (c : Dev nD) → Buf (Elt F) ((c : Thread nD τ).loc main_v54))
    (o7 : (c : Dev nD) → Buf (Elt F) ((c : Thread nD τ).loc main_v61)) : Outs (F := F) :=
  fun J r c =>
    if h0 : J = 2 ∧ r = main_v12 then h0.2 ▸ o0 c
    else if h1 : J = 4 ∧ r = main_v19 then h1.2 ▸ o1 c
    else if h2 : J = 6 ∧ r = main_v26 then h2.2 ▸ o2 c
    else if h3 : J = 8 ∧ r = main_v33 then h3.2 ▸ o3 c
    else if h4 : J = 10 ∧ r = main_v40 then h4.2 ▸ o4 c
    else if h5 : J = 12 ∧ r = main_v47 then h5.2 ▸ o5 c
    else if h6 : J = 14 ∧ r = main_v54 then h6.2 ▸ o6 c
    else if h7 : J = 16 ∧ r = main_v61 then h7.2 ▸ o7 c
    else m ((c : Thread nD τ).loc r)

variable
    (o0 : (c : Dev nD) → Buf (Elt F) ((c : Thread nD τ).loc main_v12))
    (o1 : (c : Dev nD) → Buf (Elt F) ((c : Thread nD τ).loc main_v19))
    (o2 : (c : Dev nD) → Buf (Elt F) ((c : Thread nD τ).loc main_v26))
    (o3 : (c : Dev nD) → Buf (Elt F) ((c : Thread nD τ).loc main_v33))
    (o4 : (c : Dev nD) → Buf (Elt F) ((c : Thread nD τ).loc main_v40))
    (o5 : (c : Dev nD) → Buf (Elt F) ((c : Thread nD τ).loc main_v47))
    (o6 : (c : Dev nD) → Buf (Elt F) ((c : Thread nD τ).loc main_v54))
    (o7 : (c : Dev nD) → Buf (Elt F) ((c : Thread nD τ).loc main_v61))

/-- Item 2 reads region 0's buffer. -/
theorem outsOf_0 (c : Dev nD) : outsOf m o0 o1 o2 o3 o4 o5 o6 o7 2 main_v12 c = o0 c := by
  unfold outsOf; rw [dif_pos ⟨rfl, rfl⟩]
/-- Item 4 reads region 1's buffer. -/
theorem outsOf_1 (c : Dev nD) : outsOf m o0 o1 o2 o3 o4 o5 o6 o7 4 main_v19 c = o1 c := by
  unfold outsOf; rw [dif_neg (by decide), dif_pos ⟨rfl, rfl⟩]
/-- Item 6 reads region 2's buffer. -/
theorem outsOf_2 (c : Dev nD) : outsOf m o0 o1 o2 o3 o4 o5 o6 o7 6 main_v26 c = o2 c := by
  unfold outsOf; rw [dif_neg (by decide), dif_neg (by decide), dif_pos ⟨rfl, rfl⟩]
/-- Item 8 reads region 3's buffer. -/
theorem outsOf_3 (c : Dev nD) : outsOf m o0 o1 o2 o3 o4 o5 o6 o7 8 main_v33 c = o3 c := by
  unfold outsOf; rw [dif_neg (by decide), dif_neg (by decide), dif_neg (by decide), dif_pos ⟨rfl, rfl⟩]
/-- Item 10 reads region 4's buffer. -/
theorem outsOf_4 (c : Dev nD) : outsOf m o0 o1 o2 o3 o4 o5 o6 o7 10 main_v40 c = o4 c := by
  unfold outsOf; rw [dif_neg (by decide), dif_neg (by decide), dif_neg (by decide), dif_neg (by decide), dif_pos ⟨rfl, rfl⟩]
/-- Item 12 reads region 5's buffer. -/
theorem outsOf_5 (c : Dev nD) : outsOf m o0 o1 o2 o3 o4 o5 o6 o7 12 main_v47 c = o5 c := by
  unfold outsOf; rw [dif_neg (by decide), dif_neg (by decide), dif_neg (by decide), dif_neg (by decide), dif_neg (by decide), dif_pos ⟨rfl, rfl⟩]
/-- Item 14 reads region 6's buffer. -/
theorem outsOf_6 (c : Dev nD) : outsOf m o0 o1 o2 o3 o4 o5 o6 o7 14 main_v54 c = o6 c := by
  unfold outsOf; rw [dif_neg (by decide), dif_neg (by decide), dif_neg (by decide), dif_neg (by decide), dif_neg (by decide), dif_neg (by decide), dif_pos ⟨rfl, rfl⟩]
/-- Item 16 reads region 7's buffer. -/
theorem outsOf_7 (c : Dev nD) : outsOf m o0 o1 o2 o3 o4 o5 o6 o7 16 main_v61 c = o7 c := by
  unfold outsOf; rw [dif_neg (by decide), dif_neg (by decide), dif_neg (by decide), dif_neg (by decide), dif_neg (by decide), dif_neg (by decide), dif_neg (by decide), dif_pos ⟨rfl, rfl⟩]

end OutsOf

/-! ## The valuations over the buffers themselves

Each valuation reads the family only at the reading points of the regions before it: restated here over those regions'
buffers alone, so that region `K`'s buffer can be DEFINED from the valuation at its entry (which mentions
`o0 … o(K-1)` only) before the family exists. -/

section Staged

variable (m : (ℓ : Loc nD τ sig) → Buf (Elt F) ℓ)

/-- `V2` over the buffers of regions 0 … 0. -/
abbrev Vo2 (o0 : (c : Dev nD) → Buf (Elt F) ((c : Thread nD τ).loc main_v12)) (c : Dev nD) : Valuation τ sig (Elt F) :=
  Function.update (V1 m c) main_v12 (o0 c)
/-- `V3` over the buffers of regions 0 … 0. -/
abbrev Vo3 (o0 : (c : Dev nD) → Buf (Elt F) ((c : Thread nD τ).loc main_v12)) (c : Dev nD) : Valuation τ sig (Elt F) :=
  StableHlo.after hostOps1 (Vo2 m o0 c)
/-- `V4` over the buffers of regions 0 … 1. -/
abbrev Vo4 (o0 : (c : Dev nD) → Buf (Elt F) ((c : Thread nD τ).loc main_v12)) (o1 : (c : Dev nD) → Buf (Elt F) ((c : Thread nD τ).loc main_v19)) (c : Dev nD) : Valuation τ sig (Elt F) :=
  Function.update (Vo3 m o0 c) main_v19 (o1 c)
/-- `V5` over the buffers of regions 0 … 1. -/
abbrev Vo5 (o0 : (c : Dev nD) → Buf (Elt F) ((c : Thread nD τ).loc main_v12)) (o1 : (c : Dev nD) → Buf (Elt F) ((c : Thread nD τ).loc main_v19)) (c : Dev nD) : Valuation τ sig (Elt F) :=
  StableHlo.after hostOps2 (Vo4 m o0 o1 c)
/-- `V6` over the buffers of regions 0 … 2. -/
abbrev Vo6 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (c : Dev nD) : Valuation τ sig (Elt F) :=
  Function.update (Vo5 m o0 o1 c) main_v26 (o2 c)
/-- `V7` over the buffers of regions 0 … 2. -/
abbrev Vo7 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (c : Dev nD) : Valuation τ sig (Elt F) :=
  StableHlo.after hostOps3 (Vo6 m o0 o1 o2 c)
/-- `V8` over the buffers of regions 0 … 3. -/
abbrev Vo8 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (c : Dev nD) : Valuation τ sig (Elt F) :=
  Function.update (Vo7 m o0 o1 o2 c) main_v33 (o3 c)
/-- `V9` over the buffers of regions 0 … 3. -/
abbrev Vo9 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (c : Dev nD) : Valuation τ sig (Elt F) :=
  StableHlo.after hostOps4 (Vo8 m o0 o1 o2 o3 c)
/-- `V10` over the buffers of regions 0 … 4. -/
abbrev Vo10 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (c : Dev nD) : Valuation τ sig (Elt F) :=
  Function.update (Vo9 m o0 o1 o2 o3 c) main_v40 (o4 c)
/-- `V11` over the buffers of regions 0 … 4. -/
abbrev Vo11 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (c : Dev nD) : Valuation τ sig (Elt F) :=
  StableHlo.after hostOps5 (Vo10 m o0 o1 o2 o3 o4 c)
/-- `V12` over the buffers of regions 0 … 5. -/
abbrev Vo12 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (c : Dev nD) : Valuation τ sig (Elt F) :=
  Function.update (Vo11 m o0 o1 o2 o3 o4 c) main_v47 (o5 c)
/-- `V13` over the buffers of regions 0 … 5. -/
abbrev Vo13 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (c : Dev nD) : Valuation τ sig (Elt F) :=
  StableHlo.after hostOps6 (Vo12 m o0 o1 o2 o3 o4 o5 c)
/-- `V14` over the buffers of regions 0 … 6. -/
abbrev Vo14 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (o6 : (c : Dev nD) → Buf (Elt F) ((c : Thread nD τ).loc main_v54)) (c : Dev nD) : Valuation τ sig (Elt F) :=
  Function.update (Vo13 m o0 o1 o2 o3 o4 o5 c) main_v54 (o6 c)
/-- `V15` over the buffers of regions 0 … 6. -/
abbrev Vo15 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (o6 : (c : Dev nD) → Buf (Elt F) ((c : Thread nD τ).loc main_v54)) (c : Dev nD) : Valuation τ sig (Elt F) :=
  StableHlo.after hostOps7 (Vo14 m o0 o1 o2 o3 o4 o5 o6 c)
/-- `V16` over the buffers of regions 0 … 7. -/
abbrev Vo16 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (o6 : (c : Dev nD) → Buf (Elt F) ((c : Thread nD τ).loc main_v54)) (o7 : (c : Dev nD) → Buf (Elt F) ((c : Thread nD τ).loc main_v61)) (c : Dev nD) : Valuation τ sig (Elt F) :=
  Function.update (Vo15 m o0 o1 o2 o3 o4 o5 o6 c) main_v61 (o7 c)
/-- `V17` over the buffers of regions 0 … 7. -/
abbrev Vo17 (o0 : (c : Dev nD) → Buf (Elt F) ((c : Thread nD τ).loc main_v12)) (o1 : (c : Dev nD) → Buf (Elt F) ((c : Thread nD τ).loc main_v19)) (o2 : (c : Dev nD) → Buf (Elt F) ((c : Thread nD τ).loc main_v26)) (o3 : (c : Dev nD) → Buf (Elt F) ((c : Thread nD τ).loc main_v33)) (o4 : (c : Dev nD) → Buf (Elt F) ((c : Thread nD τ).loc main_v40)) (o5 : (c : Dev nD) → Buf (Elt F) ((c : Thread nD τ).loc main_v47)) (o6 : (c : Dev nD) → Buf (Elt F) ((c : Thread nD τ).loc main_v54)) (o7 : (c : Dev nD) → Buf (Elt F) ((c : Thread nD τ).loc main_v61)) (c : Dev nD) : Valuation τ sig (Elt F) :=
  StableHlo.after hostOps8 (Vo16 m o0 o1 o2 o3 o4 o5 o6 o7 c)

variable
    (o0 : (c : Dev nD) → Buf (Elt F) ((c : Thread nD τ).loc main_v12))
    (o1 : (c : Dev nD) → Buf (Elt F) ((c : Thread nD τ).loc main_v19))
    (o2 : (c : Dev nD) → Buf (Elt F) ((c : Thread nD τ).loc main_v26))
    (o3 : (c : Dev nD) → Buf (Elt F) ((c : Thread nD τ).loc main_v33))
    (o4 : (c : Dev nD) → Buf (Elt F) ((c : Thread nD τ).loc main_v40))
    (o5 : (c : Dev nD) → Buf (Elt F) ((c : Thread nD τ).loc main_v47))
    (o6 : (c : Dev nD) → Buf (Elt F) ((c : Thread nD τ).loc main_v54))
    (o7 : (c : Dev nD) → Buf (Elt F) ((c : Thread nD τ).loc main_v61))

theorem V2_outsOf (c : Dev nD) : V2 m (outsOf m o0 o1 o2 o3 o4 o5 o6 o7) c = Vo2 m o0 c := by
  unfold V2; rw [outsOf_0]
theorem V3_outsOf (c : Dev nD) : V3 m (outsOf m o0 o1 o2 o3 o4 o5 o6 o7) c = Vo3 m o0 c := by
  unfold V3; rw [V2_outsOf]
theorem V4_outsOf (c : Dev nD) : V4 m (outsOf m o0 o1 o2 o3 o4 o5 o6 o7) c = Vo4 m o0 o1 c := by
  unfold V4; rw [V3_outsOf, outsOf_1]
theorem V5_outsOf (c : Dev nD) : V5 m (outsOf m o0 o1 o2 o3 o4 o5 o6 o7) c = Vo5 m o0 o1 c := by
  unfold V5; rw [V4_outsOf]
theorem V6_outsOf (c : Dev nD) : V6 m (outsOf m o0 o1 o2 o3 o4 o5 o6 o7) c = Vo6 m o0 o1 o2 c := by
  unfold V6; rw [V5_outsOf, outsOf_2]
theorem V7_outsOf (c : Dev nD) : V7 m (outsOf m o0 o1 o2 o3 o4 o5 o6 o7) c = Vo7 m o0 o1 o2 c := by
  unfold V7; rw [V6_outsOf]
theorem V8_outsOf (c : Dev nD) : V8 m (outsOf m o0 o1 o2 o3 o4 o5 o6 o7) c = Vo8 m o0 o1 o2 o3 c := by
  unfold V8; rw [V7_outsOf, outsOf_3]
theorem V9_outsOf (c : Dev nD) : V9 m (outsOf m o0 o1 o2 o3 o4 o5 o6 o7) c = Vo9 m o0 o1 o2 o3 c := by
  unfold V9; rw [V8_outsOf]
theorem V10_outsOf (c : Dev nD) : V10 m (outsOf m o0 o1 o2 o3 o4 o5 o6 o7) c = Vo10 m o0 o1 o2 o3 o4 c := by
  unfold V10; rw [V9_outsOf, outsOf_4]
theorem V11_outsOf (c : Dev nD) : V11 m (outsOf m o0 o1 o2 o3 o4 o5 o6 o7) c = Vo11 m o0 o1 o2 o3 o4 c := by
  unfold V11; rw [V10_outsOf]
theorem V12_outsOf (c : Dev nD) : V12 m (outsOf m o0 o1 o2 o3 o4 o5 o6 o7) c = Vo12 m o0 o1 o2 o3 o4 o5 c := by
  unfold V12; rw [V11_outsOf, outsOf_5]
theorem V13_outsOf (c : Dev nD) : V13 m (outsOf m o0 o1 o2 o3 o4 o5 o6 o7) c = Vo13 m o0 o1 o2 o3 o4 o5 c := by
  unfold V13; rw [V12_outsOf]
theorem V14_outsOf (c : Dev nD) : V14 m (outsOf m o0 o1 o2 o3 o4 o5 o6 o7) c = Vo14 m o0 o1 o2 o3 o4 o5 o6 c := by
  unfold V14; rw [V13_outsOf, outsOf_6]
theorem V15_outsOf (c : Dev nD) : V15 m (outsOf m o0 o1 o2 o3 o4 o5 o6 o7) c = Vo15 m o0 o1 o2 o3 o4 o5 o6 c := by
  unfold V15; rw [V14_outsOf]
theorem V16_outsOf (c : Dev nD) : V16 m (outsOf m o0 o1 o2 o3 o4 o5 o6 o7) c = Vo16 m o0 o1 o2 o3 o4 o5 o6 o7 c := by
  unfold V16; rw [V15_outsOf, outsOf_7]
theorem V17_outsOf (c : Dev nD) : V17 m (outsOf m o0 o1 o2 o3 o4 o5 o6 o7) c = Vo17 m o0 o1 o2 o3 o4 o5 o6 o7 c := by
  unfold V17; rw [V16_outsOf]

end Staged

/-! ## Each region's buffer as a function of the valuation at its entry

Region `K` leaves in its output array something determined by the unscoped buffers as it finds them, `V(2K+1)`. Given
those eight functions, the family is built region by region, and it reads at each point as the function says of the
valuation OF THE FAMILY ITSELF at that region's entry. -/

section OutsFrom

variable (m : (ℓ : Loc nD τ sig) → Buf (Elt F) ℓ)

/-- Region 0's buffer: `f0` of the valuation at its entry, over the earlier regions' buffers. -/
abbrev po0 (f0 : (c : Dev nD) → Valuation τ sig (Elt F) → Buf (Elt F) ((c : Thread nD τ).loc main_v12)) (c : Dev nD) : Buf (Elt F) ((c : Thread nD τ).loc main_v12) :=
  f0 c (V1 m c)
/-- Region 1's buffer: `f1` of the valuation at its entry, over the earlier regions' buffers. -/
abbrev po1 (f0 : (c : Dev nD) → Valuation τ sig (Elt F) → Buf (Elt F) ((c : Thread nD τ).loc main_v12)) (f1 : (c : Dev nD) → Valuation τ sig (Elt F) → Buf (Elt F) ((c : Thread nD τ).loc main_v19)) (c : Dev nD) : Buf (Elt F) ((c : Thread nD τ).loc main_v19) :=
  f1 c (Vo3 m (po0 m f0) c)
/-- Region 2's buffer: `f2` of the valuation at its entry, over the earlier regions' buffers. -/
abbrev po2 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (c : Dev nD) : Buf (Elt F) ((c : Thread nD τ).loc main_v26) :=
  f2 c (Vo5 m (po0 m f0) (po1 m f0 f1) c)
/-- Region 3's buffer: `f3` of the valuation at its entry, over the earlier regions' buffers. -/
abbrev po3 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (f3 : (c : Dev nD) → Valuation τ sig (Elt F) → Buf (Elt F) ((c : Thread nD τ).loc main_v33)) (c : Dev nD) : Buf (Elt F) ((c : Thread nD τ).loc main_v33) :=
  f3 c (Vo7 m (po0 m f0) (po1 m f0 f1) (po2 m f0 f1 f2) c)
/-- Region 4's buffer: `f4` of the valuation at its entry, over the earlier regions' buffers. -/
abbrev po4 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (f3 : (c : Dev nD) → Valuation τ sig (Elt F) → Buf (Elt F) ((c : Thread nD τ).loc main_v33)) (f4 : (c : Dev nD) → Valuation τ sig (Elt F) → Buf (Elt F) ((c : Thread nD τ).loc main_v40)) (c : Dev nD) : Buf (Elt F) ((c : Thread nD τ).loc main_v40) :=
  f4 c (Vo9 m (po0 m f0) (po1 m f0 f1) (po2 m f0 f1 f2) (po3 m f0 f1 f2 f3) c)
/-- Region 5's buffer: `f5` of the valuation at its entry, over the earlier regions' buffers. -/
abbrev po5 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (f3 : (c : Dev nD) → Valuation τ sig (Elt F) → Buf (Elt F) ((c : Thread nD τ).loc main_v33)) (f4 : (c : Dev nD) → Valuation τ sig (Elt F) → Buf (Elt F) ((c : Thread nD τ).loc main_v40)) (f5 : (c : Dev nD) → Valuation τ sig (Elt F) → Buf (Elt F) ((c : Thread nD τ).loc main_v47)) (c : Dev nD) : Buf (Elt F) ((c : Thread nD τ).loc main_v47) :=
  f5 c (Vo11 m (po0 m f0) (po1 m f0 f1) (po2 m f0 f1 f2) (po3 m f0 f1 f2 f3) (po4 m f0 f1 f2 f3 f4) c)
/-- Region 6's buffer: `f6` of the valuation at its entry, over the earlier regions' buffers. -/
abbrev po6 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (f3 : (c : Dev nD) → Valuation τ sig (Elt F) → Buf (Elt F) ((c : Thread nD τ).loc main_v33)) (f4 : (c : Dev nD) → Valuation τ sig (Elt F) → Buf (Elt F) ((c : Thread nD τ).loc main_v40)) (f5 : (c : Dev nD) → Valuation τ sig (Elt F) → Buf (Elt F) ((c : Thread nD τ).loc main_v47)) (f6 : (c : Dev nD) → Valuation τ sig (Elt F) → Buf (Elt F) ((c : Thread nD τ).loc main_v54)) (c : Dev nD) : Buf (Elt F) ((c : Thread nD τ).loc main_v54) :=
  f6 c (Vo13 m (po0 m f0) (po1 m f0 f1) (po2 m f0 f1 f2) (po3 m f0 f1 f2 f3) (po4 m f0 f1 f2 f3 f4) (po5 m f0 f1 f2 f3 f4 f5) c)
/-- Region 7's buffer: `f7` of the valuation at its entry, over the earlier regions' buffers. -/
abbrev po7 (f0 : (c : Dev nD) → Valuation τ sig (Elt F) → Buf (Elt F) ((c : Thread nD τ).loc main_v12)) (f1 : (c : Dev nD) → Valuation τ sig (Elt F) → Buf (Elt F) ((c : Thread nD τ).loc main_v19)) (f2 : (c : Dev nD) → Valuation τ sig (Elt F) → Buf (Elt F) ((c : Thread nD τ).loc main_v26)) (f3 : (c : Dev nD) → Valuation τ sig (Elt F) → Buf (Elt F) ((c : Thread nD τ).loc main_v33)) (f4 : (c : Dev nD) → Valuation τ sig (Elt F) → Buf (Elt F) ((c : Thread nD τ).loc main_v40)) (f5 : (c : Dev nD) → Valuation τ sig (Elt F) → Buf (Elt F) ((c : Thread nD τ).loc main_v47)) (f6 : (c : Dev nD) → Valuation τ sig (Elt F) → Buf (Elt F) ((c : Thread nD τ).loc main_v54)) (f7 : (c : Dev nD) → Valuation τ sig (Elt F) → Buf (Elt F) ((c : Thread nD τ).loc main_v61)) (c : Dev nD) : Buf (Elt F) ((c : Thread nD τ).loc main_v61) :=
  f7 c (Vo15 m (po0 m f0) (po1 m f0 f1) (po2 m f0 f1 f2) (po3 m f0 f1 f2 f3) (po4 m f0 f1 f2 f3 f4) (po5 m f0 f1 f2 f3 f4 f5) (po6 m f0 f1 f2 f3 f4 f5 f6) c)

variable
    (f0 : (c : Dev nD) → Valuation τ sig (Elt F) → Buf (Elt F) ((c : Thread nD τ).loc main_v12))
    (f1 : (c : Dev nD) → Valuation τ sig (Elt F) → Buf (Elt F) ((c : Thread nD τ).loc main_v19))
    (f2 : (c : Dev nD) → Valuation τ sig (Elt F) → Buf (Elt F) ((c : Thread nD τ).loc main_v26))
    (f3 : (c : Dev nD) → Valuation τ sig (Elt F) → Buf (Elt F) ((c : Thread nD τ).loc main_v33))
    (f4 : (c : Dev nD) → Valuation τ sig (Elt F) → Buf (Elt F) ((c : Thread nD τ).loc main_v40))
    (f5 : (c : Dev nD) → Valuation τ sig (Elt F) → Buf (Elt F) ((c : Thread nD τ).loc main_v47))
    (f6 : (c : Dev nD) → Valuation τ sig (Elt F) → Buf (Elt F) ((c : Thread nD τ).loc main_v54))
    (f7 : (c : Dev nD) → Valuation τ sig (Elt F) → Buf (Elt F) ((c : Thread nD τ).loc main_v61))

/-- The family of the eight regions' buffers, each `fK` of the valuation at region `K`'s entry. -/
def outsFrom : Outs (F := F) := outsOf m (po0 m f0) (po1 m f0 f1) (po2 m f0 f1 f2) (po3 m f0 f1 f2 f3) (po4 m f0 f1 f2 f3 f4) (po5 m f0 f1 f2 f3 f4 f5) (po6 m f0 f1 f2 f3 f4 f5 f6) (po7 m f0 f1 f2 f3 f4 f5 f6 f7)

/-- Item 2 reads `f0` of the family's own valuation at region 0's entry. -/
theorem outsFrom_0 (c : Dev nD) : outsFrom m f0 f1 f2 f3 f4 f5 f6 f7 2 main_v12 c = f0 c (V1 m c) := by
  unfold outsFrom; rw [outsOf_0]
/-- Item 4 reads `f1` of the family's own valuation at region 1's entry. -/
theorem outsFrom_1 (c : Dev nD) : outsFrom m f0 f1 f2 f3 f4 f5 f6 f7 4 main_v19 c = f1 c (V3 m (outsFrom m f0 f1 f2 f3 f4 f5 f6 f7) c) := by
  unfold outsFrom; rw [outsOf_1, V3_outsOf]
/-- Item 6 reads `f2` of the family's own valuation at region 2's entry. -/
theorem outsFrom_2 (c : Dev nD) : outsFrom m f0 f1 f2 f3 f4 f5 f6 f7 6 main_v26 c = f2 c (V5 m (outsFrom m f0 f1 f2 f3 f4 f5 f6 f7) c) := by
  unfold outsFrom; rw [outsOf_2, V5_outsOf]
/-- Item 8 reads `f3` of the family's own valuation at region 3's entry. -/
theorem outsFrom_3 (c : Dev nD) : outsFrom m f0 f1 f2 f3 f4 f5 f6 f7 8 main_v33 c = f3 c (V7 m (outsFrom m f0 f1 f2 f3 f4 f5 f6 f7) c) := by
  unfold outsFrom; rw [outsOf_3, V7_outsOf]
/-- Item 10 reads `f4` of the family's own valuation at region 4's entry. -/
theorem outsFrom_4 (c : Dev nD) : outsFrom m f0 f1 f2 f3 f4 f5 f6 f7 10 main_v40 c = f4 c (V9 m (outsFrom m f0 f1 f2 f3 f4 f5 f6 f7) c) := by
  unfold outsFrom; rw [outsOf_4, V9_outsOf]
/-- Item 12 reads `f5` of the family's own valuation at region 5's entry. -/
theorem outsFrom_5 (c : Dev nD) : outsFrom m f0 f1 f2 f3 f4 f5 f6 f7 12 main_v47 c = f5 c (V11 m (outsFrom m f0 f1 f2 f3 f4 f5 f6 f7) c) := by
  unfold outsFrom; rw [outsOf_5, V11_outsOf]
/-- Item 14 reads `f6` of the family's own valuation at region 6's entry. -/
theorem outsFrom_6 (c : Dev nD) : outsFrom m f0 f1 f2 f3 f4 f5 f6 f7 14 main_v54 c = f6 c (V13 m (outsFrom m f0 f1 f2 f3 f4 f5 f6 f7) c) := by
  unfold outsFrom; rw [outsOf_6, V13_outsOf]
/-- Item 16 reads `f7` of the family's own valuation at region 7's entry. -/
theorem outsFrom_7 (c : Dev nD) : outsFrom m f0 f1 f2 f3 f4 f5 f6 f7 16 main_v61 c = f7 c (V15 m (outsFrom m f0 f1 f2 f3 f4 f5 f6 f7) c) := by
  unfold outsFrom; rw [outsOf_7, V15_outsOf]

end OutsFrom

end Cert.KernelIdeal.Gen

end
-- ==== Proof.TieI.lean ====
import proofs.«425429_j48773648614109_2_alg».proof.Proof.RegionsI

noncomputable section

namespace Cert.KernelIdeal.Gen

open Idealize.ShloMosaic Idealize.ShloMosaic.TcCoe

variable {F : FTy → Type} [FloatOps F]

variable (m : (ℓ : Loc nD τ sig) → Buf (Elt F) ℓ) (outs : Outs (F := F))

/-! ## What a region leaves alone

Region `K` may change its output window's array only; that array is one of its windows' arrays, so every unscoped
buffer that is no window's array of region `K` holds after the region what it held before. -/

/-- Outside region 0's arrays nothing changes across it. -/
theorem hrest0 (c : Dev nD) : ∀ b, b ∉ Finset.univ.image (Pipeline.arrRef spec0) → V2 m outs c b = V1 m c b :=
  fun b hb => V2_of m outs c b fun h => hb (by
    rw [List.mem_singleton.mp h]; exact Finset.mem_image.mpr ⟨2, Finset.mem_univ _, rfl⟩)
/-- Outside region 1's arrays nothing changes across it. -/
theorem hrest1 (c : Dev nD) : ∀ b, b ∉ Finset.univ.image (Pipeline.arrRef spec1) → V4 m outs c b = V3 m outs c b :=
  fun b hb => V4_of m outs c b fun h => hb (by
    rw [List.mem_singleton.mp h]; exact Finset.mem_image.mpr ⟨2, Finset.mem_univ _, rfl⟩)
/-- Outside region 2's arrays nothing changes across it. -/
theorem hrest2 (c : Dev nD) : ∀ b, b ∉ Finset.univ.image (Pipeline.arrRef spec2) → V6 m outs c b = V5 m outs c b :=
  fun b hb => V6_of m outs c b fun h => hb (by
    rw [List.mem_singleton.mp h]; exact Finset.mem_image.mpr ⟨2, Finset.mem_univ _, rfl⟩)
/-- Outside region 3's arrays nothing changes across it. -/
theorem hrest3 (c : Dev nD) : ∀ b, b ∉ Finset.univ.image (Pipeline.arrRef spec3) → V8 m outs c b = V7 m outs c b :=
  fun b hb => V8_of m outs c b fun h => hb (by
    rw [List.mem_singleton.mp h]; exact Finset.mem_image.mpr ⟨2, Finset.mem_univ _, rfl⟩)
/-- Outside region 4's arrays nothing changes across it. -/
theorem hrest4 (c : Dev nD) : ∀ b, b ∉ Finset.univ.image (Pipeline.arrRef spec4) → V10 m outs c b = V9 m outs c b :=
  fun b hb => V10_of m outs c b fun h => hb (by
    rw [List.mem_singleton.mp h]; exact Finset.mem_image.mpr ⟨2, Finset.mem_univ _, rfl⟩)
/-- Outside region 5's arrays nothing changes across it. -/
theorem hrest5 (c : Dev nD) : ∀ b, b ∉ Finset.univ.image (Pipeline.arrRef spec5) → V12 m outs c b = V11 m outs c b :=
  fun b hb => V12_of m outs c b fun h => hb (by
    rw [List.mem_singleton.mp h]; exact Finset.mem_image.mpr ⟨2, Finset.mem_univ _, rfl⟩)
/-- Outside region 6's arrays nothing changes across it. -/
theorem hrest6 (c : Dev nD) : ∀ b, b ∉ Finset.univ.image (Pipeline.arrRef spec6) → V14 m outs c b = V13 m outs c b :=
  fun b hb => V14_of m outs c b fun h => hb (by
    rw [List.mem_singleton.mp h]; exact Finset.mem_image.mpr ⟨2, Finset.mem_univ _, rfl⟩)
/-- Outside region 7's arrays nothing changes across it. -/
theorem hrest7 (c : Dev nD) : ∀ b, b ∉ Finset.univ.image (Pipeline.arrRef spec7) → V16 m outs c b = V15 m outs c b :=
  fun b hb => V16_of m outs c b fun h => hb (by
    rw [List.mem_singleton.mp h]; exact Finset.mem_image.mpr ⟨2, Finset.mem_univ _, rfl⟩)

/-! ## The input windows' arrays across a region

Windows 0 and 1 of every region read the two embedding tables `main_v6`, `main_v7`; no region writes them. -/

/-- Region 0 leaves its input windows' arrays (windows 0 and 1) as it found them. -/
theorem hFin0 (c : Dev nD) : ∀ w : Fin 3, w ≠ 2 → V2 m outs c (Pipeline.arrRef spec0 w) = V1 m c (Pipeline.arrRef spec0 w)
  | 0, _ => V2_of m outs c main_v6 (by decide)
  | 1, _ => V2_of m outs c main_v7 (by decide)
  | 2, h => absurd rfl h
  | ⟨_ + 3, h⟩, _ => absurd h (Nat.not_lt.2 (Nat.le_add_left _ _))
/-- Region 1 leaves its input windows' arrays (windows 0 and 1) as it found them. -/
theorem hFin1 (c : Dev nD) : ∀ w : Fin 3, w ≠ 2 → V4 m outs c (Pipeline.arrRef spec1 w) = V3 m outs c (Pipeline.arrRef spec1 w)
  | 0, _ => V4_of m outs c main_v6 (by decide)
  | 1, _ => V4_of m outs c main_v7 (by decide)
  | 2, h => absurd rfl h
  | ⟨_ + 3, h⟩, _ => absurd h (Nat.not_lt.2 (Nat.le_add_left _ _))
/-- Region 2 leaves its input windows' arrays (windows 0 and 1) as it found them. -/
theorem hFin2 (c : Dev nD) : ∀ w : Fin 3, w ≠ 2 → V6 m outs c (Pipeline.arrRef spec2 w) = V5 m outs c (Pipeline.arrRef spec2 w)
  | 0, _ => V6_of m outs c main_v6 (by decide)
  | 1, _ => V6_of m outs c main_v7 (by decide)
  | 2, h => absurd rfl h
  | ⟨_ + 3, h⟩, _ => absurd h (Nat.not_lt.2 (Nat.le_add_left _ _))
/-- Region 3 leaves its input windows' arrays (windows 0 and 1) as it found them. -/
theorem hFin3 (c : Dev nD) : ∀ w : Fin 3, w ≠ 2 → V8 m outs c (Pipeline.arrRef spec3 w) = V7 m outs c (Pipeline.arrRef spec3 w)
  | 0, _ => V8_of m outs c main_v6 (by decide)
  | 1, _ => V8_of m outs c main_v7 (by decide)
  | 2, h => absurd rfl h
  | ⟨_ + 3, h⟩, _ => absurd h (Nat.not_lt.2 (Nat.le_add_left _ _))
/-- Region 4 leaves its input windows' arrays (windows 0 and 1) as it found them. -/
theorem hFin4 (c : Dev nD) : ∀ w : Fin 3, w ≠ 2 → V10 m outs c (Pipeline.arrRef spec4 w) = V9 m outs c (Pipeline.arrRef spec4 w)
  | 0, _ => V10_of m outs c main_v6 (by decide)
  | 1, _ => V10_of m outs c main_v7 (by decide)
  | 2, h => absurd rfl h
  | ⟨_ + 3, h⟩, _ => absurd h (Nat.not_lt.2 (Nat.le_add_left _ _))
/-- Region 5 leaves its input windows' arrays (windows 0 and 1) as it found them. -/
theorem hFin5 (c : Dev nD) : ∀ w : Fin 3, w ≠ 2 → V12 m outs c (Pipeline.arrRef spec5 w) = V11 m outs c (Pipeline.arrRef spec5 w)
  | 0, _ => V12_of m outs c main_v6 (by decide)
  | 1, _ => V12_of m outs c main_v7 (by decide)
  | 2, h => absurd rfl h
  | ⟨_ + 3, h⟩, _ => absurd h (Nat.not_lt.2 (Nat.le_add_left _ _))
/-- Region 6 leaves its input windows' arrays (windows 0 and 1) as it found them. -/
theorem hFin6 (c : Dev nD) : ∀ w : Fin 3, w ≠ 2 → V14 m outs c (Pipeline.arrRef spec6 w) = V13 m outs c (Pipeline.arrRef spec6 w)
  | 0, _ => V14_of m outs c main_v6 (by decide)
  | 1, _ => V14_of m outs c main_v7 (by decide)
  | 2, h => absurd rfl h
  | ⟨_ + 3, h⟩, _ => absurd h (Nat.not_lt.2 (Nat.le_add_left _ _))
/-- Region 7 leaves its input windows' arrays (windows 0 and 1) as it found them. -/
theorem hFin7 (c : Dev nD) : ∀ w : Fin 3, w ≠ 2 → V16 m outs c (Pipeline.arrRef spec7 w) = V15 m outs c (Pipeline.arrRef spec7 w)
  | 0, _ => V16_of m outs c main_v6 (by decide)
  | 1, _ => V16_of m outs c main_v7 (by decide)
  | 2, h => absurd rfl h
  | ⟨_ + 3, h⟩, _ => absurd h (Nat.not_lt.2 (Nat.le_add_left _ _))

/-! ## What the first host stretch prepares stays

The edge lists `main_v4`, `main_v5` (8 chunks of 43008 indices each) and the embedding tables as rank-3 arrays
`main_v6`, `main_v7` are written by the first host stretch and by nothing after it: at every later boundary they hold what
they hold at `V1`. -/

theorem V2_main_v4 (c : Dev nD) : V2 m outs c main_v4 = V1 m c main_v4 := (V2_of m outs c main_v4 (by decide)).trans rfl
theorem V3_main_v4 (c : Dev nD) : V3 m outs c main_v4 = V1 m c main_v4 := (V3_of m outs c main_v4 (by decide)).trans (V2_main_v4 m outs c)
theorem V4_main_v4 (c : Dev nD) : V4 m outs c main_v4 = V1 m c main_v4 := (V4_of m outs c main_v4 (by decide)).trans (V3_main_v4 m outs c)
theorem V5_main_v4 (c : Dev nD) : V5 m outs c main_v4 = V1 m c main_v4 := (V5_of m outs c main_v4 (by decide)).trans (V4_main_v4 m outs c)
theorem V6_main_v4 (c : Dev nD) : V6 m outs c main_v4 = V1 m c main_v4 := (V6_of m outs c main_v4 (by decide)).trans (V5_main_v4 m outs c)
theorem V7_main_v4 (c : Dev nD) : V7 m outs c main_v4 = V1 m c main_v4 := (V7_of m outs c main_v4 (by decide)).trans (V6_main_v4 m outs c)
theorem V8_main_v4 (c : Dev nD) : V8 m outs c main_v4 = V1 m c main_v4 := (V8_of m outs c main_v4 (by decide)).trans (V7_main_v4 m outs c)
theorem V9_main_v4 (c : Dev nD) : V9 m outs c main_v4 = V1 m c main_v4 := (V9_of m outs c main_v4 (by decide)).trans (V8_main_v4 m outs c)
theorem V10_main_v4 (c : Dev nD) : V10 m outs c main_v4 = V1 m c main_v4 := (V10_of m outs c main_v4 (by decide)).trans (V9_main_v4 m outs c)
theorem V11_main_v4 (c : Dev nD) : V11 m outs c main_v4 = V1 m c main_v4 := (V11_of m outs c main_v4 (by decide)).trans (V10_main_v4 m outs c)
theorem V12_main_v4 (c : Dev nD) : V12 m outs c main_v4 = V1 m c main_v4 := (V12_of m outs c main_v4 (by decide)).trans (V11_main_v4 m outs c)
theorem V13_main_v4 (c : Dev nD) : V13 m outs c main_v4 = V1 m c main_v4 := (V13_of m outs c main_v4 (by decide)).trans (V12_main_v4 m outs c)
theorem V14_main_v4 (c : Dev nD) : V14 m outs c main_v4 = V1 m c main_v4 := (V14_of m outs c main_v4 (by decide)).trans (V13_main_v4 m outs c)
theorem V15_main_v4 (c : Dev nD) : V15 m outs c main_v4 = V1 m c main_v4 := (V15_of m outs c main_v4 (by decide)).trans (V14_main_v4 m outs c)
theorem V16_main_v4 (c : Dev nD) : V16 m outs c main_v4 = V1 m c main_v4 := (V16_of m outs c main_v4 (by decide)).trans (V15_main_v4 m outs c)
theorem V17_main_v4 (c : Dev nD) : V17 m outs c main_v4 = V1 m c main_v4 := (V17_of m outs c main_v4 (by decide)).trans (V16_main_v4 m outs c)

theorem V2_main_v5 (c : Dev nD) : V2 m outs c main_v5 = V1 m c main_v5 := (V2_of m outs c main_v5 (by decide)).trans rfl
theorem V3_main_v5 (c : Dev nD) : V3 m outs c main_v5 = V1 m c main_v5 := (V3_of m outs c main_v5 (by decide)).trans (V2_main_v5 m outs c)
theorem V4_main_v5 (c : Dev nD) : V4 m outs c main_v5 = V1 m c main_v5 := (V4_of m outs c main_v5 (by decide)).trans (V3_main_v5 m outs c)
theorem V5_main_v5 (c : Dev nD) : V5 m outs c main_v5 = V1 m c main_v5 := (V5_of m outs c main_v5 (by decide)).trans (V4_main_v5 m outs c)
theorem V6_main_v5 (c : Dev nD) : V6 m outs c main_v5 = V1 m c main_v5 := (V6_of m outs c main_v5 (by decide)).trans (V5_main_v5 m outs c)
theorem V7_main_v5 (c : Dev nD) : V7 m outs c main_v5 = V1 m c main_v5 := (V7_of m outs c main_v5 (by decide)).trans (V6_main_v5 m outs c)
theorem V8_main_v5 (c : Dev nD) : V8 m outs c main_v5 = V1 m c main_v5 := (V8_of m outs c main_v5 (by decide)).trans (V7_main_v5 m outs c)
theorem V9_main_v5 (c : Dev nD) : V9 m outs c main_v5 = V1 m c main_v5 := (V9_of m outs c main_v5 (by decide)).trans (V8_main_v5 m outs c)
theorem V10_main_v5 (c : Dev nD) : V10 m outs c main_v5 = V1 m c main_v5 := (V10_of m outs c main_v5 (by decide)).trans (V9_main_v5 m outs c)
theorem V11_main_v5 (c : Dev nD) : V11 m outs c main_v5 = V1 m c main_v5 := (V11_of m outs c main_v5 (by decide)).trans (V10_main_v5 m outs c)
theorem V12_main_v5 (c : Dev nD) : V12 m outs c main_v5 = V1 m c main_v5 := (V12_of m outs c main_v5 (by decide)).trans (V11_main_v5 m outs c)
theorem V13_main_v5 (c : Dev nD) : V13 m outs c main_v5 = V1 m c main_v5 := (V13_of m outs c main_v5 (by decide)).trans (V12_main_v5 m outs c)
theorem V14_main_v5 (c : Dev nD) : V14 m outs c main_v5 = V1 m c main_v5 := (V14_of m outs c main_v5 (by decide)).trans (V13_main_v5 m outs c)
theorem V15_main_v5 (c : Dev nD) : V15 m outs c main_v5 = V1 m c main_v5 := (V15_of m outs c main_v5 (by decide)).trans (V14_main_v5 m outs c)
theorem V16_main_v5 (c : Dev nD) : V16 m outs c main_v5 = V1 m c main_v5 := (V16_of m outs c main_v5 (by decide)).trans (V15_main_v5 m outs c)
theorem V17_main_v5 (c : Dev nD) : V17 m outs c main_v5 = V1 m c main_v5 := (V17_of m outs c main_v5 (by decide)).trans (V16_main_v5 m outs c)

theorem V2_main_v6 (c : Dev nD) : V2 m outs c main_v6 = V1 m c main_v6 := (V2_of m outs c main_v6 (by decide)).trans rfl
theorem V3_main_v6 (c : Dev nD) : V3 m outs c main_v6 = V1 m c main_v6 := (V3_of m outs c main_v6 (by decide)).trans (V2_main_v6 m outs c)
theorem V4_main_v6 (c : Dev nD) : V4 m outs c main_v6 = V1 m c main_v6 := (V4_of m outs c main_v6 (by decide)).trans (V3_main_v6 m outs c)
theorem V5_main_v6 (c : Dev nD) : V5 m outs c main_v6 = V1 m c main_v6 := (V5_of m outs c main_v6 (by decide)).trans (V4_main_v6 m outs c)
theorem V6_main_v6 (c : Dev nD) : V6 m outs c main_v6 = V1 m c main_v6 := (V6_of m outs c main_v6 (by decide)).trans (V5_main_v6 m outs c)
theorem V7_main_v6 (c : Dev nD) : V7 m outs c main_v6 = V1 m c main_v6 := (V7_of m outs c main_v6 (by decide)).trans (V6_main_v6 m outs c)
theorem V8_main_v6 (c : Dev nD) : V8 m outs c main_v6 = V1 m c main_v6 := (V8_of m outs c main_v6 (by decide)).trans (V7_main_v6 m outs c)
theorem V9_main_v6 (c : Dev nD) : V9 m outs c main_v6 = V1 m c main_v6 := (V9_of m outs c main_v6 (by decide)).trans (V8_main_v6 m outs c)
theorem V10_main_v6 (c : Dev nD) : V10 m outs c main_v6 = V1 m c main_v6 := (V10_of m outs c main_v6 (by decide)).trans (V9_main_v6 m outs c)
theorem V11_main_v6 (c : Dev nD) : V11 m outs c main_v6 = V1 m c main_v6 := (V11_of m outs c main_v6 (by decide)).trans (V10_main_v6 m outs c)
theorem V12_main_v6 (c : Dev nD) : V12 m outs c main_v6 = V1 m c main_v6 := (V12_of m outs c main_v6 (by decide)).trans (V11_main_v6 m outs c)
theorem V13_main_v6 (c : Dev nD) : V13 m outs c main_v6 = V1 m c main_v6 := (V13_of m outs c main_v6 (by decide)).trans (V12_main_v6 m outs c)
theorem V14_main_v6 (c : Dev nD) : V14 m outs c main_v6 = V1 m c main_v6 := (V14_of m outs c main_v6 (by decide)).trans (V13_main_v6 m outs c)
theorem V15_main_v6 (c : Dev nD) : V15 m outs c main_v6 = V1 m c main_v6 := (V15_of m outs c main_v6 (by decide)).trans (V14_main_v6 m outs c)
theorem V16_main_v6 (c : Dev nD) : V16 m outs c main_v6 = V1 m c main_v6 := (V16_of m outs c main_v6 (by decide)).trans (V15_main_v6 m outs c)
theorem V17_main_v6 (c : Dev nD) : V17 m outs c main_v6 = V1 m c main_v6 := (V17_of m outs c main_v6 (by decide)).trans (V16_main_v6 m outs c)

theorem V2_main_v7 (c : Dev nD) : V2 m outs c main_v7 = V1 m c main_v7 := (V2_of m outs c main_v7 (by decide)).trans rfl
theorem V3_main_v7 (c : Dev nD) : V3 m outs c main_v7 = V1 m c main_v7 := (V3_of m outs c main_v7 (by decide)).trans (V2_main_v7 m outs c)
theorem V4_main_v7 (c : Dev nD) : V4 m outs c main_v7 = V1 m c main_v7 := (V4_of m outs c main_v7 (by decide)).trans (V3_main_v7 m outs c)
theorem V5_main_v7 (c : Dev nD) : V5 m outs c main_v7 = V1 m c main_v7 := (V5_of m outs c main_v7 (by decide)).trans (V4_main_v7 m outs c)
theorem V6_main_v7 (c : Dev nD) : V6 m outs c main_v7 = V1 m c main_v7 := (V6_of m outs c main_v7 (by decide)).trans (V5_main_v7 m outs c)
theorem V7_main_v7 (c : Dev nD) : V7 m outs c main_v7 = V1 m c main_v7 := (V7_of m outs c main_v7 (by decide)).trans (V6_main_v7 m outs c)
theorem V8_main_v7 (c : Dev nD) : V8 m outs c main_v7 = V1 m c main_v7 := (V8_of m outs c main_v7 (by decide)).trans (V7_main_v7 m outs c)
theorem V9_main_v7 (c : Dev nD) : V9 m outs c main_v7 = V1 m c main_v7 := (V9_of m outs c main_v7 (by decide)).trans (V8_main_v7 m outs c)
theorem V10_main_v7 (c : Dev nD) : V10 m outs c main_v7 = V1 m c main_v7 := (V10_of m outs c main_v7 (by decide)).trans (V9_main_v7 m outs c)
theorem V11_main_v7 (c : Dev nD) : V11 m outs c main_v7 = V1 m c main_v7 := (V11_of m outs c main_v7 (by decide)).trans (V10_main_v7 m outs c)
theorem V12_main_v7 (c : Dev nD) : V12 m outs c main_v7 = V1 m c main_v7 := (V12_of m outs c main_v7 (by decide)).trans (V11_main_v7 m outs c)
theorem V13_main_v7 (c : Dev nD) : V13 m outs c main_v7 = V1 m c main_v7 := (V13_of m outs c main_v7 (by decide)).trans (V12_main_v7 m outs c)
theorem V14_main_v7 (c : Dev nD) : V14 m outs c main_v7 = V1 m c main_v7 := (V14_of m outs c main_v7 (by decide)).trans (V13_main_v7 m outs c)
theorem V15_main_v7 (c : Dev nD) : V15 m outs c main_v7 = V1 m c main_v7 := (V15_of m outs c main_v7 (by decide)).trans (V14_main_v7 m outs c)
theorem V16_main_v7 (c : Dev nD) : V16 m outs c main_v7 = V1 m c main_v7 := (V16_of m outs c main_v7 (by decide)).trans (V15_main_v7 m outs c)
theorem V17_main_v7 (c : Dev nD) : V17 m outs c main_v7 = V1 m c main_v7 := (V17_of m outs c main_v7 (by decide)).trans (V16_main_v7 m outs c)

end Cert.KernelIdeal.Gen

end
-- ==== Proof.TablesI.lean ====
/-
  The index tables the eight kernel regions prefetch, as functions of the argument arrays.

  The program lists its 344064 = 16384 + 16384·20 edges in one vector: edge e < 16384 is the positive pair
  (pos_u[e], pos_v[e]); edge 16384 + 20 b + k is the negative pair (neg_u[b, k], neg_v[b, k]) (`edgeOf`, `edgeU`, `edgeV`).
  The vector is cut into 8 rows of 43008 (a reshape of a row-major vector: row k holds edges 43008 k … 43008 k + 43007) and region k
  prefetches row k of the u-list and row k of the v-list (`rowU`, `rowV`; `chunksU`, `chunksV` read the two [8, 43008]
  arrays the first host stretch builds at an index). Those two arrays are written once and never again, so a later
  region finds its row whatever the earlier regions left in their outputs (`V2_chunksU` … `V14_chunksV`).

  A region's pipeline fetches, at grid point i, the block [table[i], 0, 0] of extent [1, 1, 64] of a [1000000, 1, 64] array: it lies
  inside the array exactly when the word table[i] is below 1000000 (`block_inb`). `IdxOk` says every edge's two words are; the
  side condition of region 0's pipeline follows from a pointwise bound on the words of ANY contents (`ok0_of_bound`), and so
  holds of the tables computed from the arguments (`ok0_of_idx`, `adm0`).

  The precondition's integer part is four conjuncts `all((0 ≤ x) & (x < 1000000))`, the compares signed; a word in [0, 1000000)
  signed is below 1000000 unsigned (`toNat_lt_of_signed_range`, `range_of_all`, `fn_range`), hence `IdxOk` (`idxOk_of_args`).
  Everything here is for any float instance: no float is touched.
-/
import proofs.«425429_j48773648614109_2_alg».proof.Proof.RegionsI
import proofs.«425429_j48773648614109_2_alg».proof.Proof.Gen.Pre_finite_inputs
import proofs.«425429_j48773648614109_2_alg».proof.Pre_finite_inputs
import Idealize.ShloMosaic.Lib.ValueIdx
import Idealize.ShloMosaic.Lib.Pipeline.Value
import Idealize.ShloMosaic.Lib.StableHlo.Run
import Idealize.ShloMosaic.Lib.StableHlo.Predicate
import Idealize.ShloMosaic.Lib.ReduceAll

noncomputable section

namespace Cert.KernelIdeal.Gen

open Idealize.ShloMosaic Idealize.ShloMosaic.TcCoe
open Idealize.SL.Sem

/-! ## The layout operations read at an index -/

/-- Edge `e` of the list: the first 16384 edges are the positive pairs, edge `16384 + 20 b + k` is negative sample `k` of row `b`. -/
def edgeOf (p : S16384.Idx → BitVec 32) (n : S16384x20.Idx → BitVec 32) (e : Nat) : BitVec 32 :=
  if h : e < 16384 then p (ValueIdx.ix1 ⟨e, h⟩)
  else if h2 : e < 344064 then n (ValueIdx.ix2 ⟨(e - 16384) / 20, by omega⟩ ⟨(e - 16384) % 20, Nat.mod_lt _ (by decide)⟩)
  else 0#32

/-- Row `k` of an [8, 43008] array, sliced out and flattened, read at `i` is the array at `(k, i)`. -/
theorem row_apply (x : S8x43008.Idx → BitVec 32) (k : Fin 8) (hs : S8x43008.Slices ![k.val, 0] S1x43008)
    (hc : S1x43008.ShapeCasts S43008) (i : Fin 43008) :
    shapeCast S43008 (extractStridedSlice S1x43008 ![k.val, 0] x hs) hc (ValueIdx.ix1 i) = x (ValueIdx.ix2 k i) := by
  refine (shapeCast_apply _ hc (ValueIdx.ix1 i) (ValueIdx.ix2 (0 : Fin 1) i) ?_).trans ?_
  · rw [Shape.rowMajor_val_two, Shape.rowMajor_val_one]
    show (0 : Nat) * _ + i.val = i.val
    omega
  · refine extractStridedSlice_apply _ x hs _ (ValueIdx.ix2 k i) fun a => ?_
    match a with
    | ⟨0, _⟩ => show k.val = k.val + 0; omega
    | ⟨1, _⟩ => show i.val = 0 + i.val; omega

/-- The concatenation of a 16384-vector with a flattened [16384, 20] array, cut into 8 rows of 43008, holds at `(k, i)` edge
    `43008 k + i` of the list. -/
theorem chunk_apply (p : S16384.Idx → BitVec 32) (n : S16384x20.Idx → BitVec 32)
    (h1 : S16384x20.ShapeCasts S327680) (h2 : Shape.Concatenates [S16384, S327680] S344064 0)
    (h3 : S344064.ShapeCasts S8x43008) (k : Fin 8) (i : Fin 43008) :
    shapeCast S8x43008 (concatenate S344064 0 [⟨S16384, p⟩, ⟨S327680, shapeCast S327680 n h1⟩] h2) h3 (ValueIdx.ix2 k i)
      = edgeOf p n (k.val * 43008 + i.val) := by
  have hk := k.isLt
  have hi := i.isLt
  refine (shapeCast_apply _ h3 (ValueIdx.ix2 k i) (ValueIdx.ix1 ⟨k.val * 43008 + i.val, by omega⟩) ?_).trans ?_
  · rw [Shape.rowMajor_val_two, Shape.rowMajor_val_one]
    rfl
  · unfold edgeOf
    by_cases h : k.val * 43008 + i.val < 16384
    · rw [dif_pos h]
      refine concatenate_pair_apply_left 0 p _ h2 _ rfl (ValueIdx.ix1 ⟨k.val * 43008 + i.val, h⟩) fun b => ?_
      match b with
      | ⟨0, _⟩ => rfl
    · rw [dif_neg h, dif_pos (by omega : k.val * 43008 + i.val < 344064)]
      refine (concatenate_pair_apply_right 0 p _ h2 _ rfl rfl (ValueIdx.ix1 ⟨k.val * 43008 + i.val - 16384, by omega⟩) (fun b hb => ?_) ?_).trans ?_
      · match b with
        | ⟨0, _⟩ => exact absurd rfl hb
      · show (k.val * 43008 + i.val - 16384) + 16384 = k.val * 43008 + i.val
        omega
      · refine shapeCast_apply n h1 _ _ ?_
        rw [Shape.rowMajor_val_two, Shape.rowMajor_val_one]
        show (k.val * 43008 + i.val - 16384) / 20 * 20 + (k.val * 43008 + i.val - 16384) % 20 = k.val * 43008 + i.val - 16384
        omega

/-- An edge's word is below a bound when every word of the two arrays is. -/
theorem edgeOf_lt (p : S16384.Idx → BitVec 32) (n : S16384x20.Idx → BitVec 32) (B : Nat) (hB : 0 < B)
    (hp : ∀ j, (p j).toNat < B) (hn : ∀ j, (n j).toNat < B) (e : Nat) : (edgeOf p n e).toNat < B := by
  unfold edgeOf
  split
  · exact hp _
  · split
    · exact hn _
    · exact hB

variable {F : FTy → Type} [FloatOps F]
variable (m : (ℓ : Loc nD τ sig) → Buf (Elt F) ℓ) (outs : Outs (F := F))

/-! ## The edge list as a function of the argument arrays -/

/-- The u-index of edge `e` on core `c`: `pos_u[e]` for the first 16384 edges, then `neg_u` read row by row. -/
def edgeU (c : Dev nD) (e : Nat) : BitVec 32 :=
  edgeOf (m ((c : Thread nD τ).loc main_arg0)) (m ((c : Thread nD τ).loc main_arg2)) e
/-- The v-index of edge `e` on core `c`: `pos_v[e]` for the first 16384 edges, then `neg_v` read row by row. -/
def edgeV (c : Dev nD) (e : Nat) : BitVec 32 :=
  edgeOf (m ((c : Thread nD τ).loc main_arg1)) (m ((c : Thread nD τ).loc main_arg3)) e

/-- Row `k` of the edge list cut into 8 rows of 43008: the table a region prefetches. -/
def rowU (c : Dev nD) (k : Nat) : S43008.Idx → BitVec 32 := fun i => edgeU m c (k * 43008 + (i 0).val)
def rowV (c : Dev nD) (k : Nat) : S43008.Idx → BitVec 32 := fun i => edgeV m c (k * 43008 + (i 0).val)

/-- The [8, 43008] array of u-indices the first host stretch builds holds edge `43008 k + i` at `(k, i)`. -/
theorem chunksU (c : Dev nD) (k : Fin 8) (i : Fin 43008) :
    (V1 m c main_v4 : S8x43008.Idx → BitVec 32) (ValueIdx.ix2 k i) = edgeU m c (k.val * 43008 + i.val) := by
  show StableHlo.after hostOps0 (V0 m c) (Proc.devRef .tc main_v4) (ValueIdx.ix2 k i) = _
  after_results
  exact chunk_apply _ _ _ _ _ k i
/-- The same for the v-indices. -/
theorem chunksV (c : Dev nD) (k : Fin 8) (i : Fin 43008) :
    (V1 m c main_v5 : S8x43008.Idx → BitVec 32) (ValueIdx.ix2 k i) = edgeV m c (k.val * 43008 + i.val) := by
  show StableHlo.after hostOps0 (V0 m c) (Proc.devRef .tc main_v5) (ValueIdx.ix2 k i) = _
  after_results
  exact chunk_apply _ _ _ _ _ k i

/-! The two chunked arrays are written once, by the first host stretch: no later stretch writes them and no region may
    change them, so every later valuation holds them as the first does. -/
theorem V2_chunksU (c : Dev nD) : V2 m outs c main_v4 = V1 m c main_v4 := V2_of m outs c main_v4 (by decide)
theorem V4_chunksU (c : Dev nD) : V4 m outs c main_v4 = V1 m c main_v4 :=
  (V4_of m outs c main_v4 (by decide)).trans <| (V3_of m outs c main_v4 (by decide)).trans (V2_chunksU m outs c)
theorem V6_chunksU (c : Dev nD) : V6 m outs c main_v4 = V1 m c main_v4 :=
  (V6_of m outs c main_v4 (by decide)).trans <| (V5_of m outs c main_v4 (by decide)).trans (V4_chunksU m outs c)
theorem V8_chunksU (c : Dev nD) : V8 m outs c main_v4 = V1 m c main_v4 :=
  (V8_of m outs c main_v4 (by decide)).trans <| (V7_of m outs c main_v4 (by decide)).trans (V6_chunksU m outs c)
theorem V10_chunksU (c : Dev nD) : V10 m outs c main_v4 = V1 m c main_v4 :=
  (V10_of m outs c main_v4 (by decide)).trans <| (V9_of m outs c main_v4 (by decide)).trans (V8_chunksU m outs c)
theorem V12_chunksU (c : Dev nD) : V12 m outs c main_v4 = V1 m c main_v4 :=
  (V12_of m outs c main_v4 (by decide)).trans <| (V11_of m outs c main_v4 (by decide)).trans (V10_chunksU m outs c)
theorem V14_chunksU (c : Dev nD) : V14 m outs c main_v4 = V1 m c main_v4 :=
  (V14_of m outs c main_v4 (by decide)).trans <| (V13_of m outs c main_v4 (by decide)).trans (V12_chunksU m outs c)
theorem V2_chunksV (c : Dev nD) : V2 m outs c main_v5 = V1 m c main_v5 := V2_of m outs c main_v5 (by decide)
theorem V4_chunksV (c : Dev nD) : V4 m outs c main_v5 = V1 m c main_v5 :=
  (V4_of m outs c main_v5 (by decide)).trans <| (V3_of m outs c main_v5 (by decide)).trans (V2_chunksV m outs c)
theorem V6_chunksV (c : Dev nD) : V6 m outs c main_v5 = V1 m c main_v5 :=
  (V6_of m outs c main_v5 (by decide)).trans <| (V5_of m outs c main_v5 (by decide)).trans (V4_chunksV m outs c)
theorem V8_chunksV (c : Dev nD) : V8 m outs c main_v5 = V1 m c main_v5 :=
  (V8_of m outs c main_v5 (by decide)).trans <| (V7_of m outs c main_v5 (by decide)).trans (V6_chunksV m outs c)
theorem V10_chunksV (c : Dev nD) : V10 m outs c main_v5 = V1 m c main_v5 :=
  (V10_of m outs c main_v5 (by decide)).trans <| (V9_of m outs c main_v5 (by decide)).trans (V8_chunksV m outs c)
theorem V12_chunksV (c : Dev nD) : V12 m outs c main_v5 = V1 m c main_v5 :=
  (V12_of m outs c main_v5 (by decide)).trans <| (V11_of m outs c main_v5 (by decide)).trans (V10_chunksV m outs c)
theorem V14_chunksV (c : Dev nD) : V14 m outs c main_v5 = V1 m c main_v5 :=
  (V14_of m outs c main_v5 (by decide)).trans <| (V13_of m outs c main_v5 (by decide)).trans (V12_chunksV m outs c)

/-- A table-indexed block `[w, 0, 0]` of extent [1, 1, 64] lies inside the [1000000, 1, 64] array when `w < 1000000`. -/
theorem block_inb (w : BitVec 32) (hw : w.toNat < 1000000) (a : Fin 3) :
    ((![w.toNat, 0, 0] : Fin 3 → Nat) a + 1) * S1x1x64.size a ≤ S1000000x1x64.size a := by
  match a with
  | ⟨0, _⟩ => show (w.toNat + 1) * 1 ≤ 1000000; omega
  | ⟨1, _⟩ => show (0 + 1) * 1 ≤ 1; omega
  | ⟨2, _⟩ => show (0 + 1) * 64 ≤ 64; omega

/-- Every edge names rows of the two embedding tables. -/
def IdxOk : Prop := ∀ (c : Dev nD) (e : Nat), (edgeU m c e).toNat < 1000000 ∧ (edgeV m c e).toNat < 1000000

/-- `IdxOk` from a bound on every word of the four index arguments. -/
theorem idxOk_of_args
    (h : ∀ c : Dev nD, (∀ j, BitVec.toNat (w := 32) (m ((c : Thread nD τ).loc main_arg0) j) < 1000000)
      ∧ (∀ j, BitVec.toNat (w := 32) (m ((c : Thread nD τ).loc main_arg1) j) < 1000000)
      ∧ (∀ j, BitVec.toNat (w := 32) (m ((c : Thread nD τ).loc main_arg2) j) < 1000000)
      ∧ (∀ j, BitVec.toNat (w := 32) (m ((c : Thread nD τ).loc main_arg3) j) < 1000000)) : IdxOk m :=
  fun c e => ⟨edgeOf_lt _ _ 1000000 (by decide) (h c).1 (h c).2.2.1 e, edgeOf_lt _ _ 1000000 (by decide) (h c).2.1 (h c).2.2.2 e⟩

/-! ## Region 0: row 0 of the chunked edge list -/

/-- The two tables region 0 prefetches, as functions of the arguments. -/
def tbl0 (c : Dev nD) : pre0.Contents (Elt F) := fun | ⟨0, _⟩ => rowU m c 0 | ⟨1, _⟩ => rowV m c 0

theorem tbl0_apply_u (c : Dev nD) (i : Fin 43008) : tbl0 m c 0 (ValueIdx.ix1 i) = edgeU m c (0 * 43008 + i.val) := rfl
theorem tbl0_apply_v (c : Dev nD) (i : Fin 43008) : tbl0 m c 1 (ValueIdx.ix1 i) = edgeV m c (0 * 43008 + i.val) := rfl

/-- What the region finds in its first table, whatever the earlier regions left in their outputs. -/
theorem tbl0_eq_u (c : Dev nD) : V1 m c main_v9 = tbl0 m c 0 := by
  funext i
  rw [ValueIdx.eq_ix1 i]
  show StableHlo.after hostOps0 (V0 m c) (Proc.devRef .tc main_v9) (ValueIdx.ix1 (i 0)) = _
  after_results
  refine (row_apply _ 0 _ _ (i 0)).trans ?_
  refine (chunk_apply _ _ _ _ _ 0 (i 0)).trans ?_
  rfl
/-- What the region finds in its second table. -/
theorem tbl0_eq_v (c : Dev nD) : V1 m c main_v11 = tbl0 m c 1 := by
  funext i
  rw [ValueIdx.eq_ix1 i]
  show StableHlo.after hostOps0 (V0 m c) (Proc.devRef .tc main_v11) (ValueIdx.ix1 (i 0)) = _
  after_results
  refine (row_apply _ 0 _ _ (i 0)).trans ?_
  refine (chunk_apply _ _ _ _ _ 0 (i 0)).trans ?_
  rfl
theorem tbl0_eq (c : Dev nD) : ∀ k, V1 m c (pre0.ref k) = tbl0 m c k :=
  fun | ⟨0, _⟩ => tbl0_eq_u m c | ⟨1, _⟩ => tbl0_eq_v m c

/-- The pipeline's side condition from a pointwise bound on the tables' words (the contents a variable). -/
theorem ok0_of_bound (pf : pre0.Contents (Elt F)) (hu : ∀ x, BitVec.toNat (w := 32) (pf 0 x) < 1000000)
    (hv : ∀ x, BitVec.toNat (w := 32) (pf 1 x) < 1000000) : ok0 pf := by
  refine ⟨fun i => ?_, fun i => ?_⟩
  · obtain ⟨w, hw, e⟩ : ∃ w : BitVec 32, w.toNat < 1000000 ∧ cc0_transform_0 k0_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc0_transform_1 k0_off1_inb numel1_S1 pf i = ![w.toNat, 0, 0] :=
      ⟨_, hv _, rfl⟩
    exact ⟨fun a => by rw [e]; exact block_inb w hw a, Or.inl rfl⟩

theorem ok0_of_idx (h : IdxOk m) (c : Dev nD) : ok0 (tbl0 m c) :=
  ok0_of_bound _ (fun x => (h c _).1) (fun x => (h c _).2)

/-- Region 0's tables as admissible contents (one core). -/
def adm0 (h : IdxOk m) : (pcfg0 (F := F)).Adm := ⟨tbl0 m 0, ok0_of_idx m h 0⟩

/-! ## The precondition's index ranges, decoded -/

/-- A word that tests `0 ≤ w` and `w < n` as a SIGNED number (`n` below 2³¹) is below `n` read unsigned. -/
theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hpos : 2 * w.toNat < 2 ^ 32 := BitVec.toInt_pos_iff.1 h0
  rw [BitVec.toInt_eq_toNat_of_lt hpos] at h1
  omega

/-- The scalar shape has one index. -/
instance : Subsingleton Cert.Pre_finite_inputs.S_.Idx := ⟨fun a b => funext fun d => d.elim0⟩

/-- One conjunct `all((0 ≤ x) & (x < 1000000))` of the predicate, read back at an index. -/
theorem range_of_all {s : Shape} (x : IVec s 32) (hb : Cert.Pre_finite_inputs.S_.BroadcastsInDim s (![] : Fin 0 → Fin s.rank))
    {axes : List (Fin s.rank)} (hr : s.ReducesTo axes Cert.Pre_finite_inputs.S_) (h0 : 0 < Cert.Pre_finite_inputs.S_.numel)
    (e : Host.reduce IntOp.andi
        (andi (cmpi .sge x (broadcastInDim s ![] hb (constantI Cert.Pre_finite_inputs.S_ 32 0#32)))
              (cmpi .slt x (broadcastInDim s ![] hb (constantI Cert.Pre_finite_inputs.S_ 32 1000000#32))))
        (constantI Cert.Pre_finite_inputs.S_ 1 1#1) hr h0 ValueIdx.ix0 = 1#1) (j : s.Idx) : (x j).toNat < 1000000 := by
  have hj := Host.reduce_andi_all _ _ hr h0 ValueIdx.ix0 e j
  obtain ⟨hge, hlt⟩ := IntOp.andi_eq_one.1 hj
  exact toNat_lt_of_signed_range (x j) 1000000 (by decide) hge hlt

/-- The predicate all ones says every word of the four index arrays is below 1000000 (at any float instance: the two
    finiteness conjuncts are dropped unread). -/
theorem fn_range (a0 a1 : IVec Cert.Pre_finite_inputs.S16384 32) (a2 a3 : IVec Cert.Pre_finite_inputs.S16384x20 32)
    (a4 a5 : FVec F Cert.Pre_finite_inputs.S1000000x64 .f32)
    (h : Cert.Pre_finite_inputs.fn (F := F) a0 a1 a2 a3 a4 a5 = fun _ => 1#1) :
    (∀ j, (a0 j).toNat < 1000000) ∧ (∀ j, (a1 j).toNat < 1000000) ∧ (∀ j, (a2 j).toNat < 1000000) ∧ (∀ j, (a3 j).toNat < 1000000) := by
  have e := congrFun h ValueIdx.ix0
  unfold Cert.Pre_finite_inputs.fn Cert.Pre_finite_inputs.fn_part1 Cert.Pre_finite_inputs.fn_part2 at e
  dsimp only at e
  obtain ⟨e4, e3⟩ := IntOp.andi_eq_one.1 e
  obtain ⟨e5, e2⟩ := IntOp.andi_eq_one.1 e4
  obtain ⟨e6, e1⟩ := IntOp.andi_eq_one.1 e5
  obtain ⟨-, e0⟩ := IntOp.andi_eq_one.1 e6
  exact ⟨range_of_all a0 _ _ _ e0, range_of_all a1 _ _ _ e1, range_of_all a2 _ _ _ e2, range_of_all a3 _ _ _ e3⟩

end Cert.KernelIdeal.Gen

end
-- ==== Proof.TblI1.lean ====
/-
  Region 1's index tables: row 1 of the edge list cut into 8 rows of 43008 (place i of row k holds edge 43008 k + i).

  The host stretch before the region slices row 1 out of the two [8, 43008] arrays and flattens it; the arrays are
  those the first stretch built (no stretch writes them again, no region may change them), so the region finds
  `rowU m c 1`, `rowV m c 1` whatever the earlier regions left in their outputs. The pipeline's side condition follows from a
  pointwise bound on the words of any contents, hence holds of these tables when every edge's words are below 1000000.
-/
import proofs.«425429_j48773648614109_2_alg».proof.Proof.TablesI

noncomputable section

namespace Cert.KernelIdeal.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 1: row 1 of the chunked edge list -/

/-- The two tables region 1 prefetches, as functions of the arguments. -/
def tbl1 (c : Dev nD) : pre1.Contents (Elt F) := fun | ⟨0, _⟩ => rowU m c 1 | ⟨1, _⟩ => rowV m c 1

theorem tbl1_apply_u (c : Dev nD) (i : Fin 43008) : tbl1 m c 0 (ValueIdx.ix1 i) = edgeU m c (1 * 43008 + i.val) := rfl
theorem tbl1_apply_v (c : Dev nD) (i : Fin 43008) : tbl1 m c 1 (ValueIdx.ix1 i) = edgeV m c (1 * 43008 + i.val) := rfl

/-- What the region finds in its first table, whatever the earlier regions left in their outputs. -/
theorem tbl1_eq_u (c : Dev nD) : V3 m outs c main_v16 = tbl1 m c 0 := by
  funext i
  rw [ValueIdx.eq_ix1 i]
  show StableHlo.after hostOps1 (V2 m outs c) (Proc.devRef .tc main_v16) (ValueIdx.ix1 (i 0)) = _
  after_results
  refine (row_apply _ 1 _ _ (i 0)).trans ?_
  refine (congrFun (V2_chunksU m outs c) _).trans ?_
  exact chunksU m c 1 (i 0)
/-- What the region finds in its second table. -/
theorem tbl1_eq_v (c : Dev nD) : V3 m outs c main_v18 = tbl1 m c 1 := by
  funext i
  rw [ValueIdx.eq_ix1 i]
  show StableHlo.after hostOps1 (V2 m outs c) (Proc.devRef .tc main_v18) (ValueIdx.ix1 (i 0)) = _
  after_results
  refine (row_apply _ 1 _ _ (i 0)).trans ?_
  refine (congrFun (V2_chunksV m outs c) _).trans ?_
  exact chunksV m c 1 (i 0)
theorem tbl1_eq (c : Dev nD) : ∀ k, V3 m outs c (pre1.ref k) = tbl1 m c k :=
  fun | ⟨0, _⟩ => tbl1_eq_u m outs c | ⟨1, _⟩ => tbl1_eq_v m outs c

/-- The pipeline's side condition from a pointwise bound on the tables' words (the contents a variable). -/
theorem ok1_of_bound (pf : pre1.Contents (Elt F)) (hu : ∀ x, BitVec.toNat (w := 32) (pf 0 x) < 1000000)
    (hv : ∀ x, BitVec.toNat (w := 32) (pf 1 x) < 1000000) : ok1 pf := by
  refine ⟨fun i => ?_, fun i => ?_⟩
  · obtain ⟨w, hw, e⟩ : ∃ w : BitVec 32, w.toNat < 1000000 ∧ cc1_transform_0 k1_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc1_transform_1 k1_off1_inb numel1_S1 pf i = ![w.toNat, 0, 0] :=
      ⟨_, hv _, rfl⟩
    exact ⟨fun a => by rw [e]; exact block_inb w hw a, Or.inl rfl⟩

theorem ok1_of_idx (h : IdxOk m) (c : Dev nD) : ok1 (tbl1 m c) :=
  ok1_of_bound _ (fun x => (h c _).1) (fun x => (h c _).2)

/-- Region 1's tables as admissible contents (one core). -/
def adm1 (h : IdxOk m) : (pcfg1 (F := F)).Adm := ⟨tbl1 m 0, ok1_of_idx m h 0⟩

end Cert.KernelIdeal.Gen

end
-- ==== Proof.TblI2.lean ====
/-
  Region 2's index tables: row 2 of the edge list cut into 8 rows of 43008 (place i of row k holds edge 43008 k + i).

  The host stretch before the region slices row 2 out of the two [8, 43008] arrays and flattens it; the arrays are
  those the first stretch built (no stretch writes them again, no region may change them), so the region finds
  `rowU m c 2`, `rowV m c 2` whatever the earlier regions left in their outputs. The pipeline's side condition follows from a
  pointwise bound on the words of any contents, hence holds of these tables when every edge's words are below 1000000.
-/
import proofs.«425429_j48773648614109_2_alg».proof.Proof.TablesI

noncomputable section

namespace Cert.KernelIdeal.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 2: row 2 of the chunked edge list -/

/-- The two tables region 2 prefetches, as functions of the arguments. -/
def tbl2 (c : Dev nD) : pre2.Contents (Elt F) := fun | ⟨0, _⟩ => rowU m c 2 | ⟨1, _⟩ => rowV m c 2

theorem tbl2_apply_u (c : Dev nD) (i : Fin 43008) : tbl2 m c 0 (ValueIdx.ix1 i) = edgeU m c (2 * 43008 + i.val) := rfl
theorem tbl2_apply_v (c : Dev nD) (i : Fin 43008) : tbl2 m c 1 (ValueIdx.ix1 i) = edgeV m c (2 * 43008 + i.val) := rfl

/-- What the region finds in its first table, whatever the earlier regions left in their outputs. -/
theorem tbl2_eq_u (c : Dev nD) : V5 m outs c main_v23 = tbl2 m c 0 := by
  funext i
  rw [ValueIdx.eq_ix1 i]
  show StableHlo.after hostOps2 (V4 m outs c) (Proc.devRef .tc main_v23) (ValueIdx.ix1 (i 0)) = _
  after_results
  refine (row_apply _ 2 _ _ (i 0)).trans ?_
  refine (congrFun (V4_chunksU m outs c) _).trans ?_
  exact chunksU m c 2 (i 0)
/-- What the region finds in its second table. -/
theorem tbl2_eq_v (c : Dev nD) : V5 m outs c main_v25 = tbl2 m c 1 := by
  funext i
  rw [ValueIdx.eq_ix1 i]
  show StableHlo.after hostOps2 (V4 m outs c) (Proc.devRef .tc main_v25) (ValueIdx.ix1 (i 0)) = _
  after_results
  refine (row_apply _ 2 _ _ (i 0)).trans ?_
  refine (congrFun (V4_chunksV m outs c) _).trans ?_
  exact chunksV m c 2 (i 0)
theorem tbl2_eq (c : Dev nD) : ∀ k, V5 m outs c (pre2.ref k) = tbl2 m c k :=
  fun | ⟨0, _⟩ => tbl2_eq_u m outs c | ⟨1, _⟩ => tbl2_eq_v m outs c

/-- The pipeline's side condition from a pointwise bound on the tables' words (the contents a variable). -/
theorem ok2_of_bound (pf : pre2.Contents (Elt F)) (hu : ∀ x, BitVec.toNat (w := 32) (pf 0 x) < 1000000)
    (hv : ∀ x, BitVec.toNat (w := 32) (pf 1 x) < 1000000) : ok2 pf := by
  refine ⟨fun i => ?_, fun i => ?_⟩
  · obtain ⟨w, hw, e⟩ : ∃ w : BitVec 32, w.toNat < 1000000 ∧ cc2_transform_0 k2_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc2_transform_1 k2_off1_inb numel1_S1 pf i = ![w.toNat, 0, 0] :=
      ⟨_, hv _, rfl⟩
    exact ⟨fun a => by rw [e]; exact block_inb w hw a, Or.inl rfl⟩

theorem ok2_of_idx (h : IdxOk m) (c : Dev nD) : ok2 (tbl2 m c) :=
  ok2_of_bound _ (fun x => (h c _).1) (fun x => (h c _).2)

/-- Region 2's tables as admissible contents (one core). -/
def adm2 (h : IdxOk m) : (pcfg2 (F := F)).Adm := ⟨tbl2 m 0, ok2_of_idx m h 0⟩

end Cert.KernelIdeal.Gen

end
-- ==== Proof.TblI3.lean ====
/-
  Region 3's index tables: row 3 of the edge list cut into 8 rows of 43008 (place i of row k holds edge 43008 k + i).

  The host stretch before the region slices row 3 out of the two [8, 43008] arrays and flattens it; the arrays are
  those the first stretch built (no stretch writes them again, no region may change them), so the region finds
  `rowU m c 3`, `rowV m c 3` whatever the earlier regions left in their outputs. The pipeline's side condition follows from a
  pointwise bound on the words of any contents, hence holds of these tables when every edge's words are below 1000000.
-/
import proofs.«425429_j48773648614109_2_alg».proof.Proof.TablesI

noncomputable section

namespace Cert.KernelIdeal.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 3: row 3 of the chunked edge list -/

/-- The two tables region 3 prefetches, as functions of the arguments. -/
def tbl3 (c : Dev nD) : pre3.Contents (Elt F) := fun | ⟨0, _⟩ => rowU m c 3 | ⟨1, _⟩ => rowV m c 3

theorem tbl3_apply_u (c : Dev nD) (i : Fin 43008) : tbl3 m c 0 (ValueIdx.ix1 i) = edgeU m c (3 * 43008 + i.val) := rfl
theorem tbl3_apply_v (c : Dev nD) (i : Fin 43008) : tbl3 m c 1 (ValueIdx.ix1 i) = edgeV m c (3 * 43008 + i.val) := rfl

/-- What the region finds in its first table, whatever the earlier regions left in their outputs. -/
theorem tbl3_eq_u (c : Dev nD) : V7 m outs c main_v30 = tbl3 m c 0 := by
  funext i
  rw [ValueIdx.eq_ix1 i]
  show StableHlo.after hostOps3 (V6 m outs c) (Proc.devRef .tc main_v30) (ValueIdx.ix1 (i 0)) = _
  after_results
  refine (row_apply _ 3 _ _ (i 0)).trans ?_
  refine (congrFun (V6_chunksU m outs c) _).trans ?_
  exact chunksU m c 3 (i 0)
/-- What the region finds in its second table. -/
theorem tbl3_eq_v (c : Dev nD) : V7 m outs c main_v32 = tbl3 m c 1 := by
  funext i
  rw [ValueIdx.eq_ix1 i]
  show StableHlo.after hostOps3 (V6 m outs c) (Proc.devRef .tc main_v32) (ValueIdx.ix1 (i 0)) = _
  after_results
  refine (row_apply _ 3 _ _ (i 0)).trans ?_
  refine (congrFun (V6_chunksV m outs c) _).trans ?_
  exact chunksV m c 3 (i 0)
theorem tbl3_eq (c : Dev nD) : ∀ k, V7 m outs c (pre3.ref k) = tbl3 m c k :=
  fun | ⟨0, _⟩ => tbl3_eq_u m outs c | ⟨1, _⟩ => tbl3_eq_v m outs c

/-- The pipeline's side condition from a pointwise bound on the tables' words (the contents a variable). -/
theorem ok3_of_bound (pf : pre3.Contents (Elt F)) (hu : ∀ x, BitVec.toNat (w := 32) (pf 0 x) < 1000000)
    (hv : ∀ x, BitVec.toNat (w := 32) (pf 1 x) < 1000000) : ok3 pf := by
  refine ⟨fun i => ?_, fun i => ?_⟩
  · obtain ⟨w, hw, e⟩ : ∃ w : BitVec 32, w.toNat < 1000000 ∧ cc3_transform_0 k3_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc3_transform_1 k3_off1_inb numel1_S1 pf i = ![w.toNat, 0, 0] :=
      ⟨_, hv _, rfl⟩
    exact ⟨fun a => by rw [e]; exact block_inb w hw a, Or.inl rfl⟩

theorem ok3_of_idx (h : IdxOk m) (c : Dev nD) : ok3 (tbl3 m c) :=
  ok3_of_bound _ (fun x => (h c _).1) (fun x => (h c _).2)

/-- Region 3's tables as admissible contents (one core). -/
def adm3 (h : IdxOk m) : (pcfg3 (F := F)).Adm := ⟨tbl3 m 0, ok3_of_idx m h 0⟩

end Cert.KernelIdeal.Gen

end
-- ==== Proof.TblI4.lean ====
/-
  Region 4's index tables: row 4 of the edge list cut into 8 rows of 43008 (place i of row k holds edge 43008 k + i).

  The host stretch before the region slices row 4 out of the two [8, 43008] arrays and flattens it; the arrays are
  those the first stretch built (no stretch writes them again, no region may change them), so the region finds
  `rowU m c 4`, `rowV m c 4` whatever the earlier regions left in their outputs. The pipeline's side condition follows from a
  pointwise bound on the words of any contents, hence holds of these tables when every edge's words are below 1000000.
-/
import proofs.«425429_j48773648614109_2_alg».proof.Proof.TablesI

noncomputable section

namespace Cert.KernelIdeal.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 4: row 4 of the chunked edge list -/

/-- The two tables region 4 prefetches, as functions of the arguments. -/
def tbl4 (c : Dev nD) : pre4.Contents (Elt F) := fun | ⟨0, _⟩ => rowU m c 4 | ⟨1, _⟩ => rowV m c 4

theorem tbl4_apply_u (c : Dev nD) (i : Fin 43008) : tbl4 m c 0 (ValueIdx.ix1 i) = edgeU m c (4 * 43008 + i.val) := rfl
theorem tbl4_apply_v (c : Dev nD) (i : Fin 43008) : tbl4 m c 1 (ValueIdx.ix1 i) = edgeV m c (4 * 43008 + i.val) := rfl

/-- What the region finds in its first table, whatever the earlier regions left in their outputs. -/
theorem tbl4_eq_u (c : Dev nD) : V9 m outs c main_v37 = tbl4 m c 0 := by
  funext i
  rw [ValueIdx.eq_ix1 i]
  show StableHlo.after hostOps4 (V8 m outs c) (Proc.devRef .tc main_v37) (ValueIdx.ix1 (i 0)) = _
  after_results
  refine (row_apply _ 4 _ _ (i 0)).trans ?_
  refine (congrFun (V8_chunksU m outs c) _).trans ?_
  exact chunksU m c 4 (i 0)
/-- What the region finds in its second table. -/
theorem tbl4_eq_v (c : Dev nD) : V9 m outs c main_v39 = tbl4 m c 1 := by
  funext i
  rw [ValueIdx.eq_ix1 i]
  show StableHlo.after hostOps4 (V8 m outs c) (Proc.devRef .tc main_v39) (ValueIdx.ix1 (i 0)) = _
  after_results
  refine (row_apply _ 4 _ _ (i 0)).trans ?_
  refine (congrFun (V8_chunksV m outs c) _).trans ?_
  exact chunksV m c 4 (i 0)
theorem tbl4_eq (c : Dev nD) : ∀ k, V9 m outs c (pre4.ref k) = tbl4 m c k :=
  fun | ⟨0, _⟩ => tbl4_eq_u m outs c | ⟨1, _⟩ => tbl4_eq_v m outs c

/-- The pipeline's side condition from a pointwise bound on the tables' words (the contents a variable). -/
theorem ok4_of_bound (pf : pre4.Contents (Elt F)) (hu : ∀ x, BitVec.toNat (w := 32) (pf 0 x) < 1000000)
    (hv : ∀ x, BitVec.toNat (w := 32) (pf 1 x) < 1000000) : ok4 pf := by
  refine ⟨fun i => ?_, fun i => ?_⟩
  · obtain ⟨w, hw, e⟩ : ∃ w : BitVec 32, w.toNat < 1000000 ∧ cc4_transform_0 k4_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc4_transform_1 k4_off1_inb numel1_S1 pf i = ![w.toNat, 0, 0] :=
      ⟨_, hv _, rfl⟩
    exact ⟨fun a => by rw [e]; exact block_inb w hw a, Or.inl rfl⟩

theorem ok4_of_idx (h : IdxOk m) (c : Dev nD) : ok4 (tbl4 m c) :=
  ok4_of_bound _ (fun x => (h c _).1) (fun x => (h c _).2)

/-- Region 4's tables as admissible contents (one core). -/
def adm4 (h : IdxOk m) : (pcfg4 (F := F)).Adm := ⟨tbl4 m 0, ok4_of_idx m h 0⟩

end Cert.KernelIdeal.Gen

end
-- ==== Proof.TblI5.lean ====
/-
  Region 5's index tables: row 5 of the edge list cut into 8 rows of 43008 (place i of row k holds edge 43008 k + i).

  The host stretch before the region slices row 5 out of the two [8, 43008] arrays and flattens it; the arrays are
  those the first stretch built (no stretch writes them again, no region may change them), so the region finds
  `rowU m c 5`, `rowV m c 5` whatever the earlier regions left in their outputs. The pipeline's side condition follows from a
  pointwise bound on the words of any contents, hence holds of these tables when every edge's words are below 1000000.
-/
import proofs.«425429_j48773648614109_2_alg».proof.Proof.TablesI

noncomputable section

namespace Cert.KernelIdeal.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 5: row 5 of the chunked edge list -/

/-- The two tables region 5 prefetches, as functions of the arguments. -/
def tbl5 (c : Dev nD) : pre5.Contents (Elt F) := fun | ⟨0, _⟩ => rowU m c 5 | ⟨1, _⟩ => rowV m c 5

theorem tbl5_apply_u (c : Dev nD) (i : Fin 43008) : tbl5 m c 0 (ValueIdx.ix1 i) = edgeU m c (5 * 43008 + i.val) := rfl
theorem tbl5_apply_v (c : Dev nD) (i : Fin 43008) : tbl5 m c 1 (ValueIdx.ix1 i) = edgeV m c (5 * 43008 + i.val) := rfl

/-- What the region finds in its first table, whatever the earlier regions left in their outputs. -/
theorem tbl5_eq_u (c : Dev nD) : V11 m outs c main_v44 = tbl5 m c 0 := by
  funext i
  rw [ValueIdx.eq_ix1 i]
  show StableHlo.after hostOps5 (V10 m outs c) (Proc.devRef .tc main_v44) (ValueIdx.ix1 (i 0)) = _
  after_results
  refine (row_apply _ 5 _ _ (i 0)).trans ?_
  refine (congrFun (V10_chunksU m outs c) _).trans ?_
  exact chunksU m c 5 (i 0)
/-- What the region finds in its second table. -/
theorem tbl5_eq_v (c : Dev nD) : V11 m outs c main_v46 = tbl5 m c 1 := by
  funext i
  rw [ValueIdx.eq_ix1 i]
  show StableHlo.after hostOps5 (V10 m outs c) (Proc.devRef .tc main_v46) (ValueIdx.ix1 (i 0)) = _
  after_results
  refine (row_apply _ 5 _ _ (i 0)).trans ?_
  refine (congrFun (V10_chunksV m outs c) _).trans ?_
  exact chunksV m c 5 (i 0)
theorem tbl5_eq (c : Dev nD) : ∀ k, V11 m outs c (pre5.ref k) = tbl5 m c k :=
  fun | ⟨0, _⟩ => tbl5_eq_u m outs c | ⟨1, _⟩ => tbl5_eq_v m outs c

/-- The pipeline's side condition from a pointwise bound on the tables' words (the contents a variable). -/
theorem ok5_of_bound (pf : pre5.Contents (Elt F)) (hu : ∀ x, BitVec.toNat (w := 32) (pf 0 x) < 1000000)
    (hv : ∀ x, BitVec.toNat (w := 32) (pf 1 x) < 1000000) : ok5 pf := by
  refine ⟨fun i => ?_, fun i => ?_⟩
  · obtain ⟨w, hw, e⟩ : ∃ w : BitVec 32, w.toNat < 1000000 ∧ cc5_transform_0 k5_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc5_transform_1 k5_off1_inb numel1_S1 pf i = ![w.toNat, 0, 0] :=
      ⟨_, hv _, rfl⟩
    exact ⟨fun a => by rw [e]; exact block_inb w hw a, Or.inl rfl⟩

theorem ok5_of_idx (h : IdxOk m) (c : Dev nD) : ok5 (tbl5 m c) :=
  ok5_of_bound _ (fun x => (h c _).1) (fun x => (h c _).2)

/-- Region 5's tables as admissible contents (one core). -/
def adm5 (h : IdxOk m) : (pcfg5 (F := F)).Adm := ⟨tbl5 m 0, ok5_of_idx m h 0⟩

end Cert.KernelIdeal.Gen

end
-- ==== Proof.TblI6.lean ====
/-
  Region 6's index tables: row 6 of the edge list cut into 8 rows of 43008 (place i of row k holds edge 43008 k + i).

  The host stretch before the region slices row 6 out of the two [8, 43008] arrays and flattens it; the arrays are
  those the first stretch built (no stretch writes them again, no region may change them), so the region finds
  `rowU m c 6`, `rowV m c 6` whatever the earlier regions left in their outputs. The pipeline's side condition follows from a
  pointwise bound on the words of any contents, hence holds of these tables when every edge's words are below 1000000.
-/
import proofs.«425429_j48773648614109_2_alg».proof.Proof.TablesI

noncomputable section

namespace Cert.KernelIdeal.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 6: row 6 of the chunked edge list -/

/-- The two tables region 6 prefetches, as functions of the arguments. -/
def tbl6 (c : Dev nD) : pre6.Contents (Elt F) := fun | ⟨0, _⟩ => rowU m c 6 | ⟨1, _⟩ => rowV m c 6

theorem tbl6_apply_u (c : Dev nD) (i : Fin 43008) : tbl6 m c 0 (ValueIdx.ix1 i) = edgeU m c (6 * 43008 + i.val) := rfl
theorem tbl6_apply_v (c : Dev nD) (i : Fin 43008) : tbl6 m c 1 (ValueIdx.ix1 i) = edgeV m c (6 * 43008 + i.val) := rfl

/-- What the region finds in its first table, whatever the earlier regions left in their outputs. -/
theorem tbl6_eq_u (c : Dev nD) : V13 m outs c main_v51 = tbl6 m c 0 := by
  funext i
  rw [ValueIdx.eq_ix1 i]
  show StableHlo.after hostOps6 (V12 m outs c) (Proc.devRef .tc main_v51) (ValueIdx.ix1 (i 0)) = _
  after_results
  refine (row_apply _ 6 _ _ (i 0)).trans ?_
  refine (congrFun (V12_chunksU m outs c) _).trans ?_
  exact chunksU m c 6 (i 0)
/-- What the region finds in its second table. -/
theorem tbl6_eq_v (c : Dev nD) : V13 m outs c main_v53 = tbl6 m c 1 := by
  funext i
  rw [ValueIdx.eq_ix1 i]
  show StableHlo.after hostOps6 (V12 m outs c) (Proc.devRef .tc main_v53) (ValueIdx.ix1 (i 0)) = _
  after_results
  refine (row_apply _ 6 _ _ (i 0)).trans ?_
  refine (congrFun (V12_chunksV m outs c) _).trans ?_
  exact chunksV m c 6 (i 0)
theorem tbl6_eq (c : Dev nD) : ∀ k, V13 m outs c (pre6.ref k) = tbl6 m c k :=
  fun | ⟨0, _⟩ => tbl6_eq_u m outs c | ⟨1, _⟩ => tbl6_eq_v m outs c

/-- The pipeline's side condition from a pointwise bound on the tables' words (the contents a variable). -/
theorem ok6_of_bound (pf : pre6.Contents (Elt F)) (hu : ∀ x, BitVec.toNat (w := 32) (pf 0 x) < 1000000)
    (hv : ∀ x, BitVec.toNat (w := 32) (pf 1 x) < 1000000) : ok6 pf := by
  refine ⟨fun i => ?_, fun i => ?_⟩
  · obtain ⟨w, hw, e⟩ : ∃ w : BitVec 32, w.toNat < 1000000 ∧ cc6_transform_0 k6_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc6_transform_1 k6_off1_inb numel1_S1 pf i = ![w.toNat, 0, 0] :=
      ⟨_, hv _, rfl⟩
    exact ⟨fun a => by rw [e]; exact block_inb w hw a, Or.inl rfl⟩

theorem ok6_of_idx (h : IdxOk m) (c : Dev nD) : ok6 (tbl6 m c) :=
  ok6_of_bound _ (fun x => (h c _).1) (fun x => (h c _).2)

/-- Region 6's tables as admissible contents (one core). -/
def adm6 (h : IdxOk m) : (pcfg6 (F := F)).Adm := ⟨tbl6 m 0, ok6_of_idx m h 0⟩

end Cert.KernelIdeal.Gen

end
-- ==== Proof.TblI7.lean ====
/-
  Region 7's index tables: row 7 of the edge list cut into 8 rows of 43008 (place i of row k holds edge 43008 k + i).

  The host stretch before the region slices row 7 out of the two [8, 43008] arrays and flattens it; the arrays are
  those the first stretch built (no stretch writes them again, no region may change them), so the region finds
  `rowU m c 7`, `rowV m c 7` whatever the earlier regions left in their outputs. The pipeline's side condition follows from a
  pointwise bound on the words of any contents, hence holds of these tables when every edge's words are below 1000000.
-/
import proofs.«425429_j48773648614109_2_alg».proof.Proof.TablesI

noncomputable section

namespace Cert.KernelIdeal.Gen

open Idealize.ShloMosaic Idealize.ShloMosaic.TcCoe
open Idealize.SL.Sem

variable {F : FTy → Type} [FloatOps F]
variable (m : (ℓ : Loc nD τ sig) → Buf (Elt F) ℓ) (outs : Outs (F := F))

/-! ## Region 7: row 7 of the chunked edge list -/

/-- The two tables region 7 prefetches, as functions of the arguments. -/
def tbl7 (c : Dev nD) : pre7.Contents (Elt F) := fun | ⟨0, _⟩ => rowU m c 7 | ⟨1, _⟩ => rowV m c 7

theorem tbl7_apply_u (c : Dev nD) (i : Fin 43008) : tbl7 m c 0 (ValueIdx.ix1 i) = edgeU m c (7 * 43008 + i.val) := rfl
theorem tbl7_apply_v (c : Dev nD) (i : Fin 43008) : tbl7 m c 1 (ValueIdx.ix1 i) = edgeV m c (7 * 43008 + i.val) := rfl

/-- What the region finds in its first table, whatever the earlier regions left in their outputs. -/
theorem tbl7_eq_u (c : Dev nD) : V15 m outs c main_v58 = tbl7 m c 0 := by
  funext i
  rw [ValueIdx.eq_ix1 i]
  show StableHlo.after hostOps7 (V14 m outs c) (Proc.devRef .tc main_v58) (ValueIdx.ix1 (i 0)) = _
  after_results
  refine (row_apply _ 7 _ _ (i 0)).trans ?_
  refine (congrFun (V14_chunksU m outs c) _).trans ?_
  exact chunksU m c 7 (i 0)
/-- What the region finds in its second table. -/
theorem tbl7_eq_v (c : Dev nD) : V15 m outs c main_v60 = tbl7 m c 1 := by
  funext i
  rw [ValueIdx.eq_ix1 i]
  show StableHlo.after hostOps7 (V14 m outs c) (Proc.devRef .tc main_v60) (ValueIdx.ix1 (i 0)) = _
  after_results
  refine (row_apply _ 7 _ _ (i 0)).trans ?_
  refine (congrFun (V14_chunksV m outs c) _).trans ?_
  exact chunksV m c 7 (i 0)
theorem tbl7_eq (c : Dev nD) : ∀ k, V15 m outs c (pre7.ref k) = tbl7 m c k :=
  fun | ⟨0, _⟩ => tbl7_eq_u m outs c | ⟨1, _⟩ => tbl7_eq_v m outs c

/-- The pipeline's side condition from a pointwise bound on the tables' words (the contents a variable). -/
theorem ok7_of_bound (pf : pre7.Contents (Elt F)) (hu : ∀ x, BitVec.toNat (w := 32) (pf 0 x) < 1000000)
    (hv : ∀ x, BitVec.toNat (w := 32) (pf 1 x) < 1000000) : ok7 pf := by
  refine ⟨fun i => ?_, fun i => ?_⟩
  · obtain ⟨w, hw, e⟩ : ∃ w : BitVec 32, w.toNat < 1000000 ∧ cc7_transform_0 k7_off1_inb numel1_S1 pf i = ![w.toNat, 0, 0] :=
      ⟨_, hu _, rfl⟩
    exact ⟨fun a => by rw [e]; exact block_inb w hw a, Or.inl rfl⟩
  · obtain ⟨w, hw, e⟩ : ∃ w : BitVec 32, w.toNat < 1000000 ∧ cc7_transform_1 k7_off1_inb numel1_S1 pf i = ![w.toNat, 0, 0] :=
      ⟨_, hv _, rfl⟩
    exact ⟨fun a => by rw [e]; exact block_inb w hw a, Or.inl rfl⟩

theorem ok7_of_idx (h : IdxOk m) (c : Dev nD) : ok7 (tbl7 m c) :=
  ok7_of_bound _ (fun x => (h c _).1) (fun x => (h c _).2)

/-- Region 7's tables as admissible contents (one core). -/
def adm7 (h : IdxOk m) : (pcfg7 (F := F)).Adm := ⟨tbl7 m 0, ok7_of_idx m h 0⟩

end Cert.KernelIdeal.Gen

end
-- ==== Proof.AdmsI.lean ====
/-
  The eight regions' tables as one family of admissible contents, under the bound `IdxOk` on the edge list's words.
-/
import proofs.«425429_j48773648614109_2_alg».proof.Proof.TablesI
import proofs.«425429_j48773648614109_2_alg».proof.Proof.TblI1
import proofs.«425429_j48773648614109_2_alg».proof.Proof.TblI2
import proofs.«425429_j48773648614109_2_alg».proof.Proof.TblI3
import proofs.«425429_j48773648614109_2_alg».proof.Proof.TblI4
import proofs.«425429_j48773648614109_2_alg».proof.Proof.TblI5
import proofs.«425429_j48773648614109_2_alg».proof.Proof.TblI6
import proofs.«425429_j48773648614109_2_alg».proof.Proof.TblI7

noncomputable section

namespace Cert.KernelIdeal.Gen

open Idealize.ShloMosaic Idealize.ShloMosaic.TcCoe
open Idealize.SL.Sem

variable {F : FTy → Type} [FloatOps F]
variable (m : (ℓ : Loc nD τ sig) → Buf (Elt F) ℓ) (outs : Outs (F := F))

/-- Pipeline `p`'s tables: row `p` of the u-list and of the v-list. -/
def adms (h : IdxOk m) : (p : Fin 8) → (pcfgs (F := F) p).Adm
  | ⟨0, _⟩ => adm0 m h | ⟨1, _⟩ => adm1 m h | ⟨2, _⟩ => adm2 m h | ⟨3, _⟩ => adm3 m h
  | ⟨4, _⟩ => adm4 m h | ⟨5, _⟩ => adm5 m h | ⟨6, _⟩ => adm6 m h | ⟨7, _⟩ => adm7 m h
  | ⟨_ + 8, hn⟩ => absurd hn (Nat.not_lt.2 (Nat.le_add_left _ _))

/-- One device: every core is core 0. -/
theorem dev_eq_zero (c : Dev nD) : c = 0 := Subsingleton.elim _ _

/-! Each region finds in its tables what the family holds for it. -/

theorem adms_tab0 (h : IdxOk m) (c : Dev nD) (k) : V1 m c (pre0.ref k) = (adms m h 0).1 k := by
  rw [dev_eq_zero c]; exact tbl0_eq m 0 k
theorem adms_tab1 (h : IdxOk m) (c : Dev nD) (k) : V3 m outs c (pre1.ref k) = (adms m h 1).1 k := by
  rw [dev_eq_zero c]; exact tbl1_eq m outs 0 k
theorem adms_tab2 (h : IdxOk m) (c : Dev nD) (k) : V5 m outs c (pre2.ref k) = (adms m h 2).1 k := by
  rw [dev_eq_zero c]; exact tbl2_eq m outs 0 k
theorem adms_tab3 (h : IdxOk m) (c : Dev nD) (k) : V7 m outs c (pre3.ref k) = (adms m h 3).1 k := by
  rw [dev_eq_zero c]; exact tbl3_eq m outs 0 k
theorem adms_tab4 (h : IdxOk m) (c : Dev nD) (k) : V9 m outs c (pre4.ref k) = (adms m h 4).1 k := by
  rw [dev_eq_zero c]; exact tbl4_eq m outs 0 k
theorem adms_tab5 (h : IdxOk m) (c : Dev nD) (k) : V11 m outs c (pre5.ref k) = (adms m h 5).1 k := by
  rw [dev_eq_zero c]; exact tbl5_eq m outs 0 k
theorem adms_tab6 (h : IdxOk m) (c : Dev nD) (k) : V13 m outs c (pre6.ref k) = (adms m h 6).1 k := by
  rw [dev_eq_zero c]; exact tbl6_eq m outs 0 k
theorem adms_tab7 (h : IdxOk m) (c : Dev nD) (k) : V15 m outs c (pre7.ref k) = (adms m h 7).1 k := by
  rw [dev_eq_zero c]; exact tbl7_eq m outs 0 k

end Cert.KernelIdeal.Gen

end
-- ==== Proof.DatI0.lean ====
import proofs.«425429_j48773648614109_2_alg».proof.Proof.LaunchI
import proofs.«425429_j48773648614109_2_alg».proof.Proof.Gen.KernelIdeal.Skeleton
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
  (V : (c : Dev nD) → (b : Ref sig .tc) → Buf (Elt F) ((c : Thread nD τ).loc b))

/-- The pipeline of @main this module is about. -/
abbrev p0 : Fin 8 := 0

/-! ## The grid's points by number -/

/-- The region's grid has a point. -/
theorem N_pos0 : 0 < (cfg0 a).N := by
  rw [show (cfg0 a).N = grid0.N from rfl, N_0]; exact Nat.succ_pos _

/-- The grid point numbered `n`; a number past the grid wraps around (such a point is never consulted). -/
def pt0 (n : ℕ) : Fin (cfg0 a).N := ⟨n % (cfg0 a).N, Nat.mod_lt _ (N_pos0 a)⟩

/-- A grid point is the point of its own number. -/
theorem pt_val0 (t : Fin (cfg0 a).N) : pt0 a t.val = t := Fin.ext (Nat.mod_eq_of_lt t.isLt)

/-! ## The windows' blocks -/

/-- Window `w`'s block at point `t`, read off its array as the region finds it (`V`). -/
def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-! ## The accumulation -/

/-- What the carried scratch holds AFTER the point numbered `n`: the sum so far. After the first point it is that
    point's term added to the zero the first point stores; after a later point, that point's term added to what
    the point before left. -/
def accAt0 (c : Dev nD) : ℕ → Vec F S1x1 .f32
  | 0 => k0_pay2 (iblk0 a V c (0 : Fin 3) (pt0 a 0)) (iblk0 a V c (1 : Fin 3) (pt0 a 0)) (k0_pay1 (F := F))
  | n + 1 => k0_pay2 (iblk0 a V c (0 : Fin 3) (pt0 a (n + 1))) (iblk0 a V c (1 : Fin 3) (pt0 a (n + 1))) (accAt0 c n)

theorem accAt_zero0 (c : Dev nD) :
    accAt0 a V c 0 = k0_pay2 (iblk0 a V c (0 : Fin 3) (pt0 a 0)) (iblk0 a V c (1 : Fin 3) (pt0 a 0)) (k0_pay1 (F := F)) := rfl

theorem accAt_succ0 (c : Dev nD) (n : ℕ) :
    accAt0 a V c (n + 1) = k0_pay2 (iblk0 a V c (0 : Fin 3) (pt0 a (n + 1))) (iblk0 a V c (1 : Fin 3) (pt0 a (n + 1))) (accAt0 a V c n) := rfl

/-! ## The region invariant -/

/-- The region invariant before the position numbered `n`: the generator register at some state and the prefetched
    tables held whole throughout; before the first point every scoped buffer no window stages at anything; afterwards
    the carried scratch at the sum the point before left (`accAt0`), the other such buffers at anything. -/
def Phi0 (c : Dev nD) : ℕ → sProp 𝕄
  | 0 => iprop((∃ r, prngReg c r) ∗ Pipeline.prefHeld pre0 c (fun _ => fullShare) a.1 ∗ Pipeline.scopedRest spec0 c)
  | n + 1 => iprop((∃ r, prngReg c r) ∗ Pipeline.prefHeld pre0 c (fun _ => fullShare) a.1
      ∗ owns (c : Thread nD τ) (Memref.whole cc0_scratch0) fullShare (accAt0 a V c n)
      ∗ Pipeline.scopedRestBut spec0 c [cc0_scratch0])

theorem Phi_zero0 (c : Dev nD) :
    Phi0 a V c 0 = iprop((∃ r, prngReg c r) ∗ Pipeline.prefHeld pre0 c (fun _ => fullShare) a.1 ∗ Pipeline.scopedRest spec0 c) := rfl

theorem Phi_succ0 (c : Dev nD) (n : ℕ) :
    Phi0 a V c (n + 1) = iprop((∃ r, prngReg c r) ∗ Pipeline.prefHeld pre0 c (fun _ => fullShare) a.1
      ∗ owns (c : Thread nD τ) (Memref.whole cc0_scratch0) fullShare (accAt0 a V c n)
      ∗ Pipeline.scopedRestBut spec0 c [cc0_scratch0]) := rfl

theorem Phi_pos0 (c : Dev nD) (n : ℕ) (hn : n ≠ 0) :
    Phi0 a V c n = iprop((∃ r, prngReg c r) ∗ Pipeline.prefHeld pre0 c (fun _ => fullShare) a.1
      ∗ owns (c : Thread nD τ) (Memref.whole cc0_scratch0) fullShare (accAt0 a V c (n - 1))
      ∗ Pipeline.scopedRestBut spec0 c [cc0_scratch0]) := by
  cases n with
  | zero => exact absurd rfl hn
  | succ n => rfl

/-! ## The pipeline's proof data -/

/-- The proof data of region 0's pipeline on core `c`: the arrays as the region finds them (`V`); after the body at
    point `t` each input's buffer at its block and the output's at the sum so far (the output window is idle at
    every point but the last, where this is the total); the invariant `Phi0`; nothing owed; full shares. -/
def dat0 (c : Dev nD) : Dat τ (Elt F) Unit ℕ (UR sig nD τ) ℕ (cfg0 a) c where
  A w := V c (Pipeline.arrRef spec0 w)
  after w t := match w with
    | ⟨0, _⟩ => iblk0 a V c (0 : Fin 3) t
    | ⟨1, _⟩ => iblk0 a V c (1 : Fin 3) t
    | ⟨2, _⟩ => accAt0 a V c t.val
  Φ t := Phi0 a V c t.val
  q _ := fullShare
  owed _ := 0

theorem A_eq0 (c : Dev nD) (w : Fin (cfg0 a).W) : (dat0 a V c).A w = V c (Pipeline.arrRef spec0 w) := by
  dsimp only [dat0]

theorem afterU0 (c : Dev nD) (t : Fin (cfg0 a).N) : (dat0 a V c).after (0 : Fin 3) t = iblk0 a V c (0 : Fin 3) t := by dsimp only [dat0]
theorem afterV0 (c : Dev nD) (t : Fin (cfg0 a).N) : (dat0 a V c).after (1 : Fin 3) t = iblk0 a V c (1 : Fin 3) t := by dsimp only [dat0]
theorem afterO0 (c : Dev nD) (t : Fin (cfg0 a).N) : (dat0 a V c).after (2 : Fin 3) t = accAt0 a V c t.val := by dsimp only [dat0]

theorem dat_Φ0 (c : Dev nD) (t : Fin ((cfg0 a).N + 1)) : (dat0 a V c).Φ t = Phi0 a V c t.val := by dsimp only [dat0]

theorem dat_Φ_castSucc0 (c : Dev nD) (t : Fin (cfg0 a).N) : (dat0 a V c).Φ t.castSucc = Phi0 a V c t.val := by
  rw [dat_Φ0, Fin.coe_castSucc]

theorem dat_Φ_succ0 (c : Dev nD) (t : Fin (cfg0 a).N) : (dat0 a V c).Φ t.succ = Phi0 a V c (t.val + 1) := by
  rw [dat_Φ0, Fin.val_succ]

theorem dat_Φ_zero0 (c : Dev nD) :
    (dat0 a V c).Φ 0 = iprop((∃ r, prngReg c r) ∗ Pipeline.prefHeld pre0 c (fun _ => fullShare) a.1 ∗ Pipeline.scopedRest spec0 c) := by
  rw [dat_Φ0]; rfl

theorem dat_Φ_last0 (c : Dev nD) :
    (dat0 a V c).Φ (Fin.last (cfg0 a).N) = iprop((∃ r, prngReg c r) ∗ Pipeline.prefHeld pre0 c (fun _ => fullShare) a.1
      ∗ owns (c : Thread nD τ) (Memref.whole cc0_scratch0) fullShare (accAt0 a V c ((cfg0 a).N - 1))
      ∗ Pipeline.scopedRestBut spec0 c [cc0_scratch0]) := by
  rw [dat_Φ0, Fin.val_last]
  exact Phi_pos0 a V c _ (Nat.pos_iff_ne_zero.mp (N_pos0 a))

/-! ## The inputs' staging buffers -/

/-- Input window 0's current staging buffer holds its block at every point, fetched there or not: unfetched, the
    block index has not moved since the point before, and the body leaves the block in place. -/
theorem beforeU0 (c : Dev nD) (t : Fin (cfg0 a).N) (d) : (dat0 a V c).before (0 : Fin 3) t d = iblk0 a V c (0 : Fin 3) t :=
  ((dat0 a V c).before_in_eq_fetched (0 : Fin 3) rfl (fun _ => rfl) (fun _ _ _ => rfl)
    (fun t => by rw [afterU0]; unfold Dat.blockOf iblk0; rw [A_eq0]; try rfl) t d).trans
    (by unfold Dat.fetched Dat.blockOf iblk0; rw [A_eq0]; try rfl)

/-- The same for input window 1. -/
theorem beforeV0 (c : Dev nD) (t : Fin (cfg0 a).N) (d) : (dat0 a V c).before (1 : Fin 3) t d = iblk0 a V c (1 : Fin 3) t :=
  ((dat0 a V c).before_in_eq_fetched (1 : Fin 3) rfl (fun _ => rfl) (fun _ _ _ => rfl)
    (fun t => by rw [afterV0]; unfold Dat.blockOf iblk0; rw [A_eq0]; try rfl) t d).trans
    (by unfold Dat.fetched Dat.blockOf iblk0; rw [A_eq0]; try rfl)

end Cert.KernelIdeal.Gen

end
-- ==== Proof.SegI0.lean ====
import proofs.«425429_j48773648614109_2_alg».proof.Proof.DatI0
import Idealize.ShloMosaic.Lib.Pipeline.Frame
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 0 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v12`) and the rest; the rest splits once more into the two
  prefetched index tables (`main_v9`, `main_v11`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg0

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin0 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 0 over the thread state "every unscoped buffer at a valuation, the generator register at some state, nothing
    owed": entered at `Win`, left at `Wout`, for any family of proof data whose member at this pipeline is `dat0` at the
    entry valuation (`hd`), given that the two index tables hold the admissible contents at entry (`htab`), that `Wout`
    has each window's array at what the pipeline leaves there (`hF`) and agrees with `Win` off the arrays (`hrest`), and
    the body obligation (`hb`). -/
def reg0
    (hd : ∀ c, pdats p0 c = dat0 (a p0) (vin0 Win) c)
    (hb : ∀ c, BodyObligation (dat0 (a p0) (vin0 Win) c) (defs₀ (F := F)) Variants.none () Set.univ)
    (htab : ∀ c (k : Fin pre0.K), Win c (pre0.ref k) = (a p0 : (pcfg0 (F := F)).Adm).1 k)
    (hF : ∀ c w, (pdats p0 c).arrAt w (Pipeline.pin (pcfgs (F := F)) a p0).N = Wout c (Pipeline.arrRef spec0 w))
    (hrest : ∀ c (b : Ref sig .tc), b ∉ Finset.univ.image (Pipeline.arrRef spec0) → Wout c b = Win c b) :
    Pipeline.RegionSeg (pcfgs (F := F)) a pdats () defs₀ Variants.none (fun _ => (∅ : Finset Unit)) (fun _ _ => (0 : ℕ)) p0 where
  win := (launch0 (F := F)).win.to₀
  block_pos := (launch0 (F := F)).block_pos
  stage_whole := (launch0 (F := F)).stage_whole
  K := PEmpty
  osem k := k.elim
  ho := Pipeline.OwnSemFacts.none _
  hbody c := by rw [hd c]; exact (hb c).loose
  hwaits := Pipeline.hwaits_of_owed_zero _ _ _ _ _ _ p0 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre0 c (fun _ => fullShare) (a p0 : (pcfg0 (F := F)).Adm).1)
  Z c := Pipeline.unscopedRestP (Ix := Unit) (Name := ℕ) (U := UR sig nD τ) (Lvl := ℕ) pre0 spec0 c (vin0 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p0 c).arrays ((pdats p0 c).arrAt · 0) ∗ Pipeline.prefHeld pre0 c (fun _ => fullShare) (a p0 : (pcfg0 (F := F)).Adm).1
            ∗ Pipeline.unscopedRestP pre0 spec0 c (vin0 Win c)) := by
      have h := Pipeline.arrays_of_unscopedBufs (p := p0) (pcfgs (F := F)) a pdats (launch0 (F := F)).win (launch0 (F := F)).arr_whole c
        (by rw [hd c]; exact (dat0 (a p0) (vin0 Win) c).share_full fun _ => rfl) (vin0 Win c) (by rw [hd c]; exact A_eq0 (a p0) (vin0 Win) c)
      rw [Pipeline.unscopedBufs_held c (Win c), Pipeline.unscopedRest_split (launch0 (F := F)).pre c (vin0 Win c)] at h
      rw [← show (fun k => vin0 Win c (pre0.ref k)) = (a p0 : (pcfg0 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p0 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero0]
    exact .rfl
  hout c := by
    -- the accumulator's points-to at its last value is one of the scoped buffers "at some contents"
    rw [Pipeline.ownSems0_none, hd c,
      show (dat0 (a p0) (vin0 Win) c).Φ (Fin.last (Pipeline.pin (pcfgs (F := F)) a p0).N) = _ from dat_Φ_last0 (a p0) (vin0 Win) c,
      show (Pipeline.scopedRest (Pipeline.pin (pcfgs (F := F)) a p0).spec c : sProp 𝕄) = _ from scopedRest0_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p0 c).arrays ((pdats p0 c).arrAt · (Pipeline.pin (pcfgs (F := F)) a p0).N)
          ∗ Pipeline.prefHeld pre0 c (fun _ => fullShare) (a p0 : (pcfg0 (F := F)).Adm).1 ∗ Pipeline.unscopedRestP pre0 spec0 c (vin0 Win c))
        ⊢ (StableHlo.held (c : Thread nD τ) (Pipeline.ucRefs τ sig) (Wout c) : sProp 𝕄) := by
      have h := Pipeline.unscopedBufs_of_arrays (p := p0) (pcfgs (F := F)) a (Ix := Unit) (Name := ℕ) (U := UR sig nD τ) (Lvl := ℕ)
        (launch0 (F := F)).win (launch0 (F := F)).arr_whole c pdats (by rw [hd c]; exact (dat0 (a p0) (vin0 Win) c).share_full fun _ => rfl)
        (vin0 Win c) (vin0 Wout c) ((pdats p0 c).arrAt · (Pipeline.pin (pcfgs (F := F)) a p0).N) (hF c) (hrest c)
      rw [Pipeline.unscopedBufs_held c (Wout c), Pipeline.unscopedRest_split (launch0 (F := F)).pre c (vin0 Win c)] at h
      rw [← show (fun k => vin0 Win c (pre0.ref k)) = (a p0 : (pcfg0 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p0 c).owed (Fin.last _) = 0 from by rw [hd c]; rfl]
    icases HO with ⟨%W, -, HO⟩; iexists W; iexact HO

end Seg0

end Cert.KernelIdeal.Gen

end
-- ==== Proof.RecI0.lean ====
import proofs.«425429_j48773648614109_2_alg».proof.Proof.SegI0

/-! Region 0's segment record from facts about the two valuations alone.

The region's record (`reg0`) asks, of the valuation at the exit, each window's array at what the pipeline leaves
there. The two input arrays are never written, so they are left as found: that half asks only that the exit
valuation agrees with the entry valuation at them. The output array is left at the contents the write-backs build
(`outArr0`), a function of the entry valuation: that half asks that the exit valuation holds exactly that. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec0

/-- What region 0 leaves in its output array, from the admissible tables and the valuation at its entry: the array
    after every point's write-back. -/
def outArr0 (adm : (pcfg0 (F := F)).Adm) (Win : Dev nD → Valuation τ sig (Elt F)) (c : Dev nD) :
    Buf (Elt F) ((c : Thread nD τ).loc (Pipeline.arrRef spec0 (2 : Fin 3))) :=
  (dat0 adm (vin0 Win) c).arrAt (2 : Fin 3) (cfg0 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of0
    (hd : ∀ c, pdats p0 c = dat0 (a p0) (vin0 Win) c)
    (hin : ∀ c (w : Fin 3), w ≠ 2 → Wout c (Pipeline.arrRef spec0 w) = Win c (Pipeline.arrRef spec0 w))
    (hout : ∀ c, Wout c (Pipeline.arrRef spec0 (2 : Fin 3)) = outArr0 (a p0) Win c)
    (c : Dev nD) (w : Fin 3) :
    (pdats p0 c).arrAt w (Pipeline.pin (pcfgs (F := F)) a p0).N = Wout c (Pipeline.arrRef spec0 w) := by
  rw [hd c]
  match w with
  | ⟨0, _⟩ =>
    exact (Dat.arrAt_in (dat0 (a p0) (vin0 Win) c) (0 : Fin 3) rfl _).trans
      ((A_eq0 (a p0) (vin0 Win) c (0 : Fin 3)).trans (hin c (0 : Fin 3) (by decide)).symm)
  | ⟨1, _⟩ =>
    exact (Dat.arrAt_in (dat0 (a p0) (vin0 Win) c) (1 : Fin 3) rfl _).trans
      ((A_eq0 (a p0) (vin0 Win) c (1 : Fin 3)).trans (hin c (1 : Fin 3) (by decide)).symm)
  | ⟨2, _⟩ => exact (hout c).symm

/-- REGION 0's record between two valuations: entered at `Win`, left at `Wout`. -/
def rec0
    (hd : ∀ c, pdats p0 c = dat0 (a p0) (vin0 Win) c)
    (hb : ∀ c, BodyObligation (dat0 (a p0) (vin0 Win) c) (defs₀ (F := F)) Variants.none () Set.univ)
    (htab : ∀ c (k : Fin pre0.K), Win c (pre0.ref k) = (a p0 : (pcfg0 (F := F)).Adm).1 k)
    (hin : ∀ c (w : Fin 3), w ≠ 2 → Wout c (Pipeline.arrRef spec0 w) = Win c (Pipeline.arrRef spec0 w))
    (hout : ∀ c, Wout c (Pipeline.arrRef spec0 (2 : Fin 3)) = outArr0 (a p0) Win c)
    (hrest : ∀ c (b : Ref sig .tc), b ∉ Finset.univ.image (Pipeline.arrRef spec0) → Wout c b = Win c b) :
    Pipeline.RegionSeg (pcfgs (F := F)) a pdats () defs₀ Variants.none (fun _ => (∅ : Finset Unit)) (fun _ _ => (0 : ℕ)) p0 :=
  reg0 a pdats Win Wout hd hb htab (hF_of0 a pdats Win Wout hd hin hout) hrest

end Rec0

end Cert.KernelIdeal.Gen

end
-- ==== Proof.DatI1.lean ====
import proofs.«425429_j48773648614109_2_alg».proof.Proof.LaunchI
import proofs.«425429_j48773648614109_2_alg».proof.Proof.Gen.KernelIdeal.Skeleton
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg1 (F := F)).Adm)
  (V : (c : Dev nD) → (b : Ref sig .tc) → Buf (Elt F) ((c : Thread nD τ).loc b))

/-- The pipeline of @main this module is about. -/
abbrev p1 : Fin 8 := 1

/-! ## The grid's points by number -/

/-- The region's grid has a point. -/
theorem N_pos1 : 0 < (cfg1 a).N := by
  rw [show (cfg1 a).N = grid1.N from rfl, N_1]; exact Nat.succ_pos _

/-- The grid point numbered `n`; a number past the grid wraps around (such a point is never consulted). -/
def pt1 (n : ℕ) : Fin (cfg1 a).N := ⟨n % (cfg1 a).N, Nat.mod_lt _ (N_pos1 a)⟩

/-- A grid point is the point of its own number. -/
theorem pt_val1 (t : Fin (cfg1 a).N) : pt1 a t.val = t := Fin.ext (Nat.mod_eq_of_lt t.isLt)

/-! ## The windows' blocks -/

/-- Window `w`'s block at point `t`, read off its array as the region finds it (`V`). -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-! ## The accumulation -/

/-- What the carried scratch holds AFTER the point numbered `n`: the sum so far. After the first point it is that
    point's term added to the zero the first point stores; after a later point, that point's term added to what
    the point before left. -/
def accAt1 (c : Dev nD) : ℕ → Vec F S1x1 .f32
  | 0 => k1_pay2 (iblk1 a V c (0 : Fin 3) (pt1 a 0)) (iblk1 a V c (1 : Fin 3) (pt1 a 0)) (k1_pay1 (F := F))
  | n + 1 => k1_pay2 (iblk1 a V c (0 : Fin 3) (pt1 a (n + 1))) (iblk1 a V c (1 : Fin 3) (pt1 a (n + 1))) (accAt1 c n)

theorem accAt_zero1 (c : Dev nD) :
    accAt1 a V c 0 = k1_pay2 (iblk1 a V c (0 : Fin 3) (pt1 a 0)) (iblk1 a V c (1 : Fin 3) (pt1 a 0)) (k1_pay1 (F := F)) := rfl

theorem accAt_succ1 (c : Dev nD) (n : ℕ) :
    accAt1 a V c (n + 1) = k1_pay2 (iblk1 a V c (0 : Fin 3) (pt1 a (n + 1))) (iblk1 a V c (1 : Fin 3) (pt1 a (n + 1))) (accAt1 a V c n) := rfl

/-! ## The region invariant -/

/-- The region invariant before the position numbered `n`: the generator register at some state and the prefetched
    tables held whole throughout; before the first point every scoped buffer no window stages at anything; afterwards
    the carried scratch at the sum the point before left (`accAt1`), the other such buffers at anything. -/
def Phi1 (c : Dev nD) : ℕ → sProp 𝕄
  | 0 => iprop((∃ r, prngReg c r) ∗ Pipeline.prefHeld pre1 c (fun _ => fullShare) a.1 ∗ Pipeline.scopedRest spec1 c)
  | n + 1 => iprop((∃ r, prngReg c r) ∗ Pipeline.prefHeld pre1 c (fun _ => fullShare) a.1
      ∗ owns (c : Thread nD τ) (Memref.whole cc1_scratch0) fullShare (accAt1 a V c n)
      ∗ Pipeline.scopedRestBut spec1 c [cc1_scratch0])

theorem Phi_zero1 (c : Dev nD) :
    Phi1 a V c 0 = iprop((∃ r, prngReg c r) ∗ Pipeline.prefHeld pre1 c (fun _ => fullShare) a.1 ∗ Pipeline.scopedRest spec1 c) := rfl

theorem Phi_succ1 (c : Dev nD) (n : ℕ) :
    Phi1 a V c (n + 1) = iprop((∃ r, prngReg c r) ∗ Pipeline.prefHeld pre1 c (fun _ => fullShare) a.1
      ∗ owns (c : Thread nD τ) (Memref.whole cc1_scratch0) fullShare (accAt1 a V c n)
      ∗ Pipeline.scopedRestBut spec1 c [cc1_scratch0]) := rfl

theorem Phi_pos1 (c : Dev nD) (n : ℕ) (hn : n ≠ 0) :
    Phi1 a V c n = iprop((∃ r, prngReg c r) ∗ Pipeline.prefHeld pre1 c (fun _ => fullShare) a.1
      ∗ owns (c : Thread nD τ) (Memref.whole cc1_scratch0) fullShare (accAt1 a V c (n - 1))
      ∗ Pipeline.scopedRestBut spec1 c [cc1_scratch0]) := by
  cases n with
  | zero => exact absurd rfl hn
  | succ n => rfl

/-! ## The pipeline's proof data -/

/-- The proof data of region 1's pipeline on core `c`: the arrays as the region finds them (`V`); after the body at
    point `t` each input's buffer at its block and the output's at the sum so far (the output window is idle at
    every point but the last, where this is the total); the invariant `Phi1`; nothing owed; full shares. -/
def dat1 (c : Dev nD) : Dat τ (Elt F) Unit ℕ (UR sig nD τ) ℕ (cfg1 a) c where
  A w := V c (Pipeline.arrRef spec1 w)
  after w t := match w with
    | ⟨0, _⟩ => iblk1 a V c (0 : Fin 3) t
    | ⟨1, _⟩ => iblk1 a V c (1 : Fin 3) t
    | ⟨2, _⟩ => accAt1 a V c t.val
  Φ t := Phi1 a V c t.val
  q _ := fullShare
  owed _ := 0

theorem A_eq1 (c : Dev nD) (w : Fin (cfg1 a).W) : (dat1 a V c).A w = V c (Pipeline.arrRef spec1 w) := by
  dsimp only [dat1]

theorem afterU1 (c : Dev nD) (t : Fin (cfg1 a).N) : (dat1 a V c).after (0 : Fin 3) t = iblk1 a V c (0 : Fin 3) t := by dsimp only [dat1]
theorem afterV1 (c : Dev nD) (t : Fin (cfg1 a).N) : (dat1 a V c).after (1 : Fin 3) t = iblk1 a V c (1 : Fin 3) t := by dsimp only [dat1]
theorem afterO1 (c : Dev nD) (t : Fin (cfg1 a).N) : (dat1 a V c).after (2 : Fin 3) t = accAt1 a V c t.val := by dsimp only [dat1]

theorem dat_Φ1 (c : Dev nD) (t : Fin ((cfg1 a).N + 1)) : (dat1 a V c).Φ t = Phi1 a V c t.val := by dsimp only [dat1]

theorem dat_Φ_castSucc1 (c : Dev nD) (t : Fin (cfg1 a).N) : (dat1 a V c).Φ t.castSucc = Phi1 a V c t.val := by
  rw [dat_Φ1, Fin.coe_castSucc]

theorem dat_Φ_succ1 (c : Dev nD) (t : Fin (cfg1 a).N) : (dat1 a V c).Φ t.succ = Phi1 a V c (t.val + 1) := by
  rw [dat_Φ1, Fin.val_succ]

theorem dat_Φ_zero1 (c : Dev nD) :
    (dat1 a V c).Φ 0 = iprop((∃ r, prngReg c r) ∗ Pipeline.prefHeld pre1 c (fun _ => fullShare) a.1 ∗ Pipeline.scopedRest spec1 c) := by
  rw [dat_Φ1]; rfl

theorem dat_Φ_last1 (c : Dev nD) :
    (dat1 a V c).Φ (Fin.last (cfg1 a).N) = iprop((∃ r, prngReg c r) ∗ Pipeline.prefHeld pre1 c (fun _ => fullShare) a.1
      ∗ owns (c : Thread nD τ) (Memref.whole cc1_scratch0) fullShare (accAt1 a V c ((cfg1 a).N - 1))
      ∗ Pipeline.scopedRestBut spec1 c [cc1_scratch0]) := by
  rw [dat_Φ1, Fin.val_last]
  exact Phi_pos1 a V c _ (Nat.pos_iff_ne_zero.mp (N_pos1 a))

/-! ## The inputs' staging buffers -/

/-- Input window 0's current staging buffer holds its block at every point, fetched there or not: unfetched, the
    block index has not moved since the point before, and the body leaves the block in place. -/
theorem beforeU1 (c : Dev nD) (t : Fin (cfg1 a).N) (d) : (dat1 a V c).before (0 : Fin 3) t d = iblk1 a V c (0 : Fin 3) t :=
  ((dat1 a V c).before_in_eq_fetched (0 : Fin 3) rfl (fun _ => rfl) (fun _ _ _ => rfl)
    (fun t => by rw [afterU1]; unfold Dat.blockOf iblk1; rw [A_eq1]; try rfl) t d).trans
    (by unfold Dat.fetched Dat.blockOf iblk1; rw [A_eq1]; try rfl)

/-- The same for input window 1. -/
theorem beforeV1 (c : Dev nD) (t : Fin (cfg1 a).N) (d) : (dat1 a V c).before (1 : Fin 3) t d = iblk1 a V c (1 : Fin 3) t :=
  ((dat1 a V c).before_in_eq_fetched (1 : Fin 3) rfl (fun _ => rfl) (fun _ _ _ => rfl)
    (fun t => by rw [afterV1]; unfold Dat.blockOf iblk1; rw [A_eq1]; try rfl) t d).trans
    (by unfold Dat.fetched Dat.blockOf iblk1; rw [A_eq1]; try rfl)

end Cert.KernelIdeal.Gen

end
-- ==== Proof.SegI1.lean ====
import proofs.«425429_j48773648614109_2_alg».proof.Proof.DatI1
import Idealize.ShloMosaic.Lib.Pipeline.Frame
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 1 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v19`) and the rest; the rest splits once more into the two
  prefetched index tables (`main_v16`, `main_v18`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg1

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin1 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 1 over the thread state "every unscoped buffer at a valuation, the generator register at some state, nothing
    owed": entered at `Win`, left at `Wout`, for any family of proof data whose member at this pipeline is `dat1` at the
    entry valuation (`hd`), given that the two index tables hold the admissible contents at entry (`htab`), that `Wout`
    has each window's array at what the pipeline leaves there (`hF`) and agrees with `Win` off the arrays (`hrest`), and
    the body obligation (`hb`). -/
def reg1
    (hd : ∀ c, pdats p1 c = dat1 (a p1) (vin1 Win) c)
    (hb : ∀ c, BodyObligation (dat1 (a p1) (vin1 Win) c) (defs₀ (F := F)) Variants.none () Set.univ)
    (htab : ∀ c (k : Fin pre1.K), Win c (pre1.ref k) = (a p1 : (pcfg1 (F := F)).Adm).1 k)
    (hF : ∀ c w, (pdats p1 c).arrAt w (Pipeline.pin (pcfgs (F := F)) a p1).N = Wout c (Pipeline.arrRef spec1 w))
    (hrest : ∀ c (b : Ref sig .tc), b ∉ Finset.univ.image (Pipeline.arrRef spec1) → Wout c b = Win c b) :
    Pipeline.RegionSeg (pcfgs (F := F)) a pdats () defs₀ Variants.none (fun _ => (∅ : Finset Unit)) (fun _ _ => (0 : ℕ)) p1 where
  win := (launch1 (F := F)).win.to₀
  block_pos := (launch1 (F := F)).block_pos
  stage_whole := (launch1 (F := F)).stage_whole
  K := PEmpty
  osem k := k.elim
  ho := Pipeline.OwnSemFacts.none _
  hbody c := by rw [hd c]; exact (hb c).loose
  hwaits := Pipeline.hwaits_of_owed_zero _ _ _ _ _ _ p1 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre1 c (fun _ => fullShare) (a p1 : (pcfg1 (F := F)).Adm).1)
  Z c := Pipeline.unscopedRestP (Ix := Unit) (Name := ℕ) (U := UR sig nD τ) (Lvl := ℕ) pre1 spec1 c (vin1 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p1 c).arrays ((pdats p1 c).arrAt · 0) ∗ Pipeline.prefHeld pre1 c (fun _ => fullShare) (a p1 : (pcfg1 (F := F)).Adm).1
            ∗ Pipeline.unscopedRestP pre1 spec1 c (vin1 Win c)) := by
      have h := Pipeline.arrays_of_unscopedBufs (p := p1) (pcfgs (F := F)) a pdats (launch1 (F := F)).win (launch1 (F := F)).arr_whole c
        (by rw [hd c]; exact (dat1 (a p1) (vin1 Win) c).share_full fun _ => rfl) (vin1 Win c) (by rw [hd c]; exact A_eq1 (a p1) (vin1 Win) c)
      rw [Pipeline.unscopedBufs_held c (Win c), Pipeline.unscopedRest_split (launch1 (F := F)).pre c (vin1 Win c)] at h
      rw [← show (fun k => vin1 Win c (pre1.ref k)) = (a p1 : (pcfg1 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p1 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero1]
    exact .rfl
  hout c := by
    -- the accumulator's points-to at its last value is one of the scoped buffers "at some contents"
    rw [Pipeline.ownSems0_none, hd c,
      show (dat1 (a p1) (vin1 Win) c).Φ (Fin.last (Pipeline.pin (pcfgs (F := F)) a p1).N) = _ from dat_Φ_last1 (a p1) (vin1 Win) c,
      show (Pipeline.scopedRest (Pipeline.pin (pcfgs (F := F)) a p1).spec c : sProp 𝕄) = _ from scopedRest1_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p1 c).arrays ((pdats p1 c).arrAt · (Pipeline.pin (pcfgs (F := F)) a p1).N)
          ∗ Pipeline.prefHeld pre1 c (fun _ => fullShare) (a p1 : (pcfg1 (F := F)).Adm).1 ∗ Pipeline.unscopedRestP pre1 spec1 c (vin1 Win c))
        ⊢ (StableHlo.held (c : Thread nD τ) (Pipeline.ucRefs τ sig) (Wout c) : sProp 𝕄) := by
      have h := Pipeline.unscopedBufs_of_arrays (p := p1) (pcfgs (F := F)) a (Ix := Unit) (Name := ℕ) (U := UR sig nD τ) (Lvl := ℕ)
        (launch1 (F := F)).win (launch1 (F := F)).arr_whole c pdats (by rw [hd c]; exact (dat1 (a p1) (vin1 Win) c).share_full fun _ => rfl)
        (vin1 Win c) (vin1 Wout c) ((pdats p1 c).arrAt · (Pipeline.pin (pcfgs (F := F)) a p1).N) (hF c) (hrest c)
      rw [Pipeline.unscopedBufs_held c (Wout c), Pipeline.unscopedRest_split (launch1 (F := F)).pre c (vin1 Win c)] at h
      rw [← show (fun k => vin1 Win c (pre1.ref k)) = (a p1 : (pcfg1 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p1 c).owed (Fin.last _) = 0 from by rw [hd c]; rfl]
    icases HO with ⟨%W, -, HO⟩; iexists W; iexact HO

end Seg1

end Cert.KernelIdeal.Gen

end
-- ==== Proof.RecI1.lean ====
import proofs.«425429_j48773648614109_2_alg».proof.Proof.SegI1

/-! Region 1's segment record from facts about the two valuations alone.

The region's record (`reg1`) asks, of the valuation at the exit, each window's array at what the pipeline leaves
there. The two input arrays are never written, so they are left as found: that half asks only that the exit
valuation agrees with the entry valuation at them. The output array is left at the contents the write-backs build
(`outArr1`), a function of the entry valuation: that half asks that the exit valuation holds exactly that. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec1

/-- What region 1 leaves in its output array, from the admissible tables and the valuation at its entry: the array
    after every point's write-back. -/
def outArr1 (adm : (pcfg1 (F := F)).Adm) (Win : Dev nD → Valuation τ sig (Elt F)) (c : Dev nD) :
    Buf (Elt F) ((c : Thread nD τ).loc (Pipeline.arrRef spec1 (2 : Fin 3))) :=
  (dat1 adm (vin1 Win) c).arrAt (2 : Fin 3) (cfg1 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of1
    (hd : ∀ c, pdats p1 c = dat1 (a p1) (vin1 Win) c)
    (hin : ∀ c (w : Fin 3), w ≠ 2 → Wout c (Pipeline.arrRef spec1 w) = Win c (Pipeline.arrRef spec1 w))
    (hout : ∀ c, Wout c (Pipeline.arrRef spec1 (2 : Fin 3)) = outArr1 (a p1) Win c)
    (c : Dev nD) (w : Fin 3) :
    (pdats p1 c).arrAt w (Pipeline.pin (pcfgs (F := F)) a p1).N = Wout c (Pipeline.arrRef spec1 w) := by
  rw [hd c]
  match w with
  | ⟨0, _⟩ =>
    exact (Dat.arrAt_in (dat1 (a p1) (vin1 Win) c) (0 : Fin 3) rfl _).trans
      ((A_eq1 (a p1) (vin1 Win) c (0 : Fin 3)).trans (hin c (0 : Fin 3) (by decide)).symm)
  | ⟨1, _⟩ =>
    exact (Dat.arrAt_in (dat1 (a p1) (vin1 Win) c) (1 : Fin 3) rfl _).trans
      ((A_eq1 (a p1) (vin1 Win) c (1 : Fin 3)).trans (hin c (1 : Fin 3) (by decide)).symm)
  | ⟨2, _⟩ => exact (hout c).symm

/-- REGION 1's record between two valuations: entered at `Win`, left at `Wout`. -/
def rec1
    (hd : ∀ c, pdats p1 c = dat1 (a p1) (vin1 Win) c)
    (hb : ∀ c, BodyObligation (dat1 (a p1) (vin1 Win) c) (defs₀ (F := F)) Variants.none () Set.univ)
    (htab : ∀ c (k : Fin pre1.K), Win c (pre1.ref k) = (a p1 : (pcfg1 (F := F)).Adm).1 k)
    (hin : ∀ c (w : Fin 3), w ≠ 2 → Wout c (Pipeline.arrRef spec1 w) = Win c (Pipeline.arrRef spec1 w))
    (hout : ∀ c, Wout c (Pipeline.arrRef spec1 (2 : Fin 3)) = outArr1 (a p1) Win c)
    (hrest : ∀ c (b : Ref sig .tc), b ∉ Finset.univ.image (Pipeline.arrRef spec1) → Wout c b = Win c b) :
    Pipeline.RegionSeg (pcfgs (F := F)) a pdats () defs₀ Variants.none (fun _ => (∅ : Finset Unit)) (fun _ _ => (0 : ℕ)) p1 :=
  reg1 a pdats Win Wout hd hb htab (hF_of1 a pdats Win Wout hd hin hout) hrest

end Rec1

end Cert.KernelIdeal.Gen

end
-- ==== Proof.DatI2.lean ====
import proofs.«425429_j48773648614109_2_alg».proof.Proof.LaunchI
import proofs.«425429_j48773648614109_2_alg».proof.Proof.Gen.KernelIdeal.Skeleton
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg2 (F := F)).Adm)
  (V : (c : Dev nD) → (b : Ref sig .tc) → Buf (Elt F) ((c : Thread nD τ).loc b))

/-- The pipeline of @main this module is about. -/
abbrev p2 : Fin 8 := 2

/-! ## The grid's points by number -/

/-- The region's grid has a point. -/
theorem N_pos2 : 0 < (cfg2 a).N := by
  rw [show (cfg2 a).N = grid2.N from rfl, N_2]; exact Nat.succ_pos _

/-- The grid point numbered `n`; a number past the grid wraps around (such a point is never consulted). -/
def pt2 (n : ℕ) : Fin (cfg2 a).N := ⟨n % (cfg2 a).N, Nat.mod_lt _ (N_pos2 a)⟩

/-- A grid point is the point of its own number. -/
theorem pt_val2 (t : Fin (cfg2 a).N) : pt2 a t.val = t := Fin.ext (Nat.mod_eq_of_lt t.isLt)

/-! ## The windows' blocks -/

/-- Window `w`'s block at point `t`, read off its array as the region finds it (`V`). -/
def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-! ## The accumulation -/

/-- What the carried scratch holds AFTER the point numbered `n`: the sum so far. After the first point it is that
    point's term added to the zero the first point stores; after a later point, that point's term added to what
    the point before left. -/
def accAt2 (c : Dev nD) : ℕ → Vec F S1x1 .f32
  | 0 => k2_pay2 (iblk2 a V c (0 : Fin 3) (pt2 a 0)) (iblk2 a V c (1 : Fin 3) (pt2 a 0)) (k2_pay1 (F := F))
  | n + 1 => k2_pay2 (iblk2 a V c (0 : Fin 3) (pt2 a (n + 1))) (iblk2 a V c (1 : Fin 3) (pt2 a (n + 1))) (accAt2 c n)

theorem accAt_zero2 (c : Dev nD) :
    accAt2 a V c 0 = k2_pay2 (iblk2 a V c (0 : Fin 3) (pt2 a 0)) (iblk2 a V c (1 : Fin 3) (pt2 a 0)) (k2_pay1 (F := F)) := rfl

theorem accAt_succ2 (c : Dev nD) (n : ℕ) :
    accAt2 a V c (n + 1) = k2_pay2 (iblk2 a V c (0 : Fin 3) (pt2 a (n + 1))) (iblk2 a V c (1 : Fin 3) (pt2 a (n + 1))) (accAt2 a V c n) := rfl

/-! ## The region invariant -/

/-- The region invariant before the position numbered `n`: the generator register at some state and the prefetched
    tables held whole throughout; before the first point every scoped buffer no window stages at anything; afterwards
    the carried scratch at the sum the point before left (`accAt2`), the other such buffers at anything. -/
def Phi2 (c : Dev nD) : ℕ → sProp 𝕄
  | 0 => iprop((∃ r, prngReg c r) ∗ Pipeline.prefHeld pre2 c (fun _ => fullShare) a.1 ∗ Pipeline.scopedRest spec2 c)
  | n + 1 => iprop((∃ r, prngReg c r) ∗ Pipeline.prefHeld pre2 c (fun _ => fullShare) a.1
      ∗ owns (c : Thread nD τ) (Memref.whole cc2_scratch0) fullShare (accAt2 a V c n)
      ∗ Pipeline.scopedRestBut spec2 c [cc2_scratch0])

theorem Phi_zero2 (c : Dev nD) :
    Phi2 a V c 0 = iprop((∃ r, prngReg c r) ∗ Pipeline.prefHeld pre2 c (fun _ => fullShare) a.1 ∗ Pipeline.scopedRest spec2 c) := rfl

theorem Phi_succ2 (c : Dev nD) (n : ℕ) :
    Phi2 a V c (n + 1) = iprop((∃ r, prngReg c r) ∗ Pipeline.prefHeld pre2 c (fun _ => fullShare) a.1
      ∗ owns (c : Thread nD τ) (Memref.whole cc2_scratch0) fullShare (accAt2 a V c n)
      ∗ Pipeline.scopedRestBut spec2 c [cc2_scratch0]) := rfl

theorem Phi_pos2 (c : Dev nD) (n : ℕ) (hn : n ≠ 0) :
    Phi2 a V c n = iprop((∃ r, prngReg c r) ∗ Pipeline.prefHeld pre2 c (fun _ => fullShare) a.1
      ∗ owns (c : Thread nD τ) (Memref.whole cc2_scratch0) fullShare (accAt2 a V c (n - 1))
      ∗ Pipeline.scopedRestBut spec2 c [cc2_scratch0]) := by
  cases n with
  | zero => exact absurd rfl hn
  | succ n => rfl

/-! ## The pipeline's proof data -/

/-- The proof data of region 2's pipeline on core `c`: the arrays as the region finds them (`V`); after the body at
    point `t` each input's buffer at its block and the output's at the sum so far (the output window is idle at
    every point but the last, where this is the total); the invariant `Phi2`; nothing owed; full shares. -/
def dat2 (c : Dev nD) : Dat τ (Elt F) Unit ℕ (UR sig nD τ) ℕ (cfg2 a) c where
  A w := V c (Pipeline.arrRef spec2 w)
  after w t := match w with
    | ⟨0, _⟩ => iblk2 a V c (0 : Fin 3) t
    | ⟨1, _⟩ => iblk2 a V c (1 : Fin 3) t
    | ⟨2, _⟩ => accAt2 a V c t.val
  Φ t := Phi2 a V c t.val
  q _ := fullShare
  owed _ := 0

theorem A_eq2 (c : Dev nD) (w : Fin (cfg2 a).W) : (dat2 a V c).A w = V c (Pipeline.arrRef spec2 w) := by
  dsimp only [dat2]

theorem afterU2 (c : Dev nD) (t : Fin (cfg2 a).N) : (dat2 a V c).after (0 : Fin 3) t = iblk2 a V c (0 : Fin 3) t := by dsimp only [dat2]
theorem afterV2 (c : Dev nD) (t : Fin (cfg2 a).N) : (dat2 a V c).after (1 : Fin 3) t = iblk2 a V c (1 : Fin 3) t := by dsimp only [dat2]
theorem afterO2 (c : Dev nD) (t : Fin (cfg2 a).N) : (dat2 a V c).after (2 : Fin 3) t = accAt2 a V c t.val := by dsimp only [dat2]

theorem dat_Φ2 (c : Dev nD) (t : Fin ((cfg2 a).N + 1)) : (dat2 a V c).Φ t = Phi2 a V c t.val := by dsimp only [dat2]

theorem dat_Φ_castSucc2 (c : Dev nD) (t : Fin (cfg2 a).N) : (dat2 a V c).Φ t.castSucc = Phi2 a V c t.val := by
  rw [dat_Φ2, Fin.coe_castSucc]

theorem dat_Φ_succ2 (c : Dev nD) (t : Fin (cfg2 a).N) : (dat2 a V c).Φ t.succ = Phi2 a V c (t.val + 1) := by
  rw [dat_Φ2, Fin.val_succ]

theorem dat_Φ_zero2 (c : Dev nD) :
    (dat2 a V c).Φ 0 = iprop((∃ r, prngReg c r) ∗ Pipeline.prefHeld pre2 c (fun _ => fullShare) a.1 ∗ Pipeline.scopedRest spec2 c) := by
  rw [dat_Φ2]; rfl

theorem dat_Φ_last2 (c : Dev nD) :
    (dat2 a V c).Φ (Fin.last (cfg2 a).N) = iprop((∃ r, prngReg c r) ∗ Pipeline.prefHeld pre2 c (fun _ => fullShare) a.1
      ∗ owns (c : Thread nD τ) (Memref.whole cc2_scratch0) fullShare (accAt2 a V c ((cfg2 a).N - 1))
      ∗ Pipeline.scopedRestBut spec2 c [cc2_scratch0]) := by
  rw [dat_Φ2, Fin.val_last]
  exact Phi_pos2 a V c _ (Nat.pos_iff_ne_zero.mp (N_pos2 a))

/-! ## The inputs' staging buffers -/

/-- Input window 0's current staging buffer holds its block at every point, fetched there or not: unfetched, the
    block index has not moved since the point before, and the body leaves the block in place. -/
theorem beforeU2 (c : Dev nD) (t : Fin (cfg2 a).N) (d) : (dat2 a V c).before (0 : Fin 3) t d = iblk2 a V c (0 : Fin 3) t :=
  ((dat2 a V c).before_in_eq_fetched (0 : Fin 3) rfl (fun _ => rfl) (fun _ _ _ => rfl)
    (fun t => by rw [afterU2]; unfold Dat.blockOf iblk2; rw [A_eq2]; try rfl) t d).trans
    (by unfold Dat.fetched Dat.blockOf iblk2; rw [A_eq2]; try rfl)

/-- The same for input window 1. -/
theorem beforeV2 (c : Dev nD) (t : Fin (cfg2 a).N) (d) : (dat2 a V c).before (1 : Fin 3) t d = iblk2 a V c (1 : Fin 3) t :=
  ((dat2 a V c).before_in_eq_fetched (1 : Fin 3) rfl (fun _ => rfl) (fun _ _ _ => rfl)
    (fun t => by rw [afterV2]; unfold Dat.blockOf iblk2; rw [A_eq2]; try rfl) t d).trans
    (by unfold Dat.fetched Dat.blockOf iblk2; rw [A_eq2]; try rfl)

end Cert.KernelIdeal.Gen

end
-- ==== Proof.SegI2.lean ====
import proofs.«425429_j48773648614109_2_alg».proof.Proof.DatI2
import Idealize.ShloMosaic.Lib.Pipeline.Frame
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 2 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v26`) and the rest; the rest splits once more into the two
  prefetched index tables (`main_v23`, `main_v25`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg2

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin2 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 2 over the thread state "every unscoped buffer at a valuation, the generator register at some state, nothing
    owed": entered at `Win`, left at `Wout`, for any family of proof data whose member at this pipeline is `dat2` at the
    entry valuation (`hd`), given that the two index tables hold the admissible contents at entry (`htab`), that `Wout`
    has each window's array at what the pipeline leaves there (`hF`) and agrees with `Win` off the arrays (`hrest`), and
    the body obligation (`hb`). -/
def reg2
    (hd : ∀ c, pdats p2 c = dat2 (a p2) (vin2 Win) c)
    (hb : ∀ c, BodyObligation (dat2 (a p2) (vin2 Win) c) (defs₀ (F := F)) Variants.none () Set.univ)
    (htab : ∀ c (k : Fin pre2.K), Win c (pre2.ref k) = (a p2 : (pcfg2 (F := F)).Adm).1 k)
    (hF : ∀ c w, (pdats p2 c).arrAt w (Pipeline.pin (pcfgs (F := F)) a p2).N = Wout c (Pipeline.arrRef spec2 w))
    (hrest : ∀ c (b : Ref sig .tc), b ∉ Finset.univ.image (Pipeline.arrRef spec2) → Wout c b = Win c b) :
    Pipeline.RegionSeg (pcfgs (F := F)) a pdats () defs₀ Variants.none (fun _ => (∅ : Finset Unit)) (fun _ _ => (0 : ℕ)) p2 where
  win := (launch2 (F := F)).win.to₀
  block_pos := (launch2 (F := F)).block_pos
  stage_whole := (launch2 (F := F)).stage_whole
  K := PEmpty
  osem k := k.elim
  ho := Pipeline.OwnSemFacts.none _
  hbody c := by rw [hd c]; exact (hb c).loose
  hwaits := Pipeline.hwaits_of_owed_zero _ _ _ _ _ _ p2 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre2 c (fun _ => fullShare) (a p2 : (pcfg2 (F := F)).Adm).1)
  Z c := Pipeline.unscopedRestP (Ix := Unit) (Name := ℕ) (U := UR sig nD τ) (Lvl := ℕ) pre2 spec2 c (vin2 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p2 c).arrays ((pdats p2 c).arrAt · 0) ∗ Pipeline.prefHeld pre2 c (fun _ => fullShare) (a p2 : (pcfg2 (F := F)).Adm).1
            ∗ Pipeline.unscopedRestP pre2 spec2 c (vin2 Win c)) := by
      have h := Pipeline.arrays_of_unscopedBufs (p := p2) (pcfgs (F := F)) a pdats (launch2 (F := F)).win (launch2 (F := F)).arr_whole c
        (by rw [hd c]; exact (dat2 (a p2) (vin2 Win) c).share_full fun _ => rfl) (vin2 Win c) (by rw [hd c]; exact A_eq2 (a p2) (vin2 Win) c)
      rw [Pipeline.unscopedBufs_held c (Win c), Pipeline.unscopedRest_split (launch2 (F := F)).pre c (vin2 Win c)] at h
      rw [← show (fun k => vin2 Win c (pre2.ref k)) = (a p2 : (pcfg2 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p2 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero2]
    exact .rfl
  hout c := by
    -- the accumulator's points-to at its last value is one of the scoped buffers "at some contents"
    rw [Pipeline.ownSems0_none, hd c,
      show (dat2 (a p2) (vin2 Win) c).Φ (Fin.last (Pipeline.pin (pcfgs (F := F)) a p2).N) = _ from dat_Φ_last2 (a p2) (vin2 Win) c,
      show (Pipeline.scopedRest (Pipeline.pin (pcfgs (F := F)) a p2).spec c : sProp 𝕄) = _ from scopedRest2_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p2 c).arrays ((pdats p2 c).arrAt · (Pipeline.pin (pcfgs (F := F)) a p2).N)
          ∗ Pipeline.prefHeld pre2 c (fun _ => fullShare) (a p2 : (pcfg2 (F := F)).Adm).1 ∗ Pipeline.unscopedRestP pre2 spec2 c (vin2 Win c))
        ⊢ (StableHlo.held (c : Thread nD τ) (Pipeline.ucRefs τ sig) (Wout c) : sProp 𝕄) := by
      have h := Pipeline.unscopedBufs_of_arrays (p := p2) (pcfgs (F := F)) a (Ix := Unit) (Name := ℕ) (U := UR sig nD τ) (Lvl := ℕ)
        (launch2 (F := F)).win (launch2 (F := F)).arr_whole c pdats (by rw [hd c]; exact (dat2 (a p2) (vin2 Win) c).share_full fun _ => rfl)
        (vin2 Win c) (vin2 Wout c) ((pdats p2 c).arrAt · (Pipeline.pin (pcfgs (F := F)) a p2).N) (hF c) (hrest c)
      rw [Pipeline.unscopedBufs_held c (Wout c), Pipeline.unscopedRest_split (launch2 (F := F)).pre c (vin2 Win c)] at h
      rw [← show (fun k => vin2 Win c (pre2.ref k)) = (a p2 : (pcfg2 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p2 c).owed (Fin.last _) = 0 from by rw [hd c]; rfl]
    icases HO with ⟨%W, -, HO⟩; iexists W; iexact HO

end Seg2

end Cert.KernelIdeal.Gen

end
-- ==== Proof.RecI2.lean ====
import proofs.«425429_j48773648614109_2_alg».proof.Proof.SegI2

/-! Region 2's segment record from facts about the two valuations alone.

The region's record (`reg2`) asks, of the valuation at the exit, each window's array at what the pipeline leaves
there. The two input arrays are never written, so they are left as found: that half asks only that the exit
valuation agrees with the entry valuation at them. The output array is left at the contents the write-backs build
(`outArr2`), a function of the entry valuation: that half asks that the exit valuation holds exactly that. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec2

/-- What region 2 leaves in its output array, from the admissible tables and the valuation at its entry: the array
    after every point's write-back. -/
def outArr2 (adm : (pcfg2 (F := F)).Adm) (Win : Dev nD → Valuation τ sig (Elt F)) (c : Dev nD) :
    Buf (Elt F) ((c : Thread nD τ).loc (Pipeline.arrRef spec2 (2 : Fin 3))) :=
  (dat2 adm (vin2 Win) c).arrAt (2 : Fin 3) (cfg2 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of2
    (hd : ∀ c, pdats p2 c = dat2 (a p2) (vin2 Win) c)
    (hin : ∀ c (w : Fin 3), w ≠ 2 → Wout c (Pipeline.arrRef spec2 w) = Win c (Pipeline.arrRef spec2 w))
    (hout : ∀ c, Wout c (Pipeline.arrRef spec2 (2 : Fin 3)) = outArr2 (a p2) Win c)
    (c : Dev nD) (w : Fin 3) :
    (pdats p2 c).arrAt w (Pipeline.pin (pcfgs (F := F)) a p2).N = Wout c (Pipeline.arrRef spec2 w) := by
  rw [hd c]
  match w with
  | ⟨0, _⟩ =>
    exact (Dat.arrAt_in (dat2 (a p2) (vin2 Win) c) (0 : Fin 3) rfl _).trans
      ((A_eq2 (a p2) (vin2 Win) c (0 : Fin 3)).trans (hin c (0 : Fin 3) (by decide)).symm)
  | ⟨1, _⟩ =>
    exact (Dat.arrAt_in (dat2 (a p2) (vin2 Win) c) (1 : Fin 3) rfl _).trans
      ((A_eq2 (a p2) (vin2 Win) c (1 : Fin 3)).trans (hin c (1 : Fin 3) (by decide)).symm)
  | ⟨2, _⟩ => exact (hout c).symm

/-- REGION 2's record between two valuations: entered at `Win`, left at `Wout`. -/
def rec2
    (hd : ∀ c, pdats p2 c = dat2 (a p2) (vin2 Win) c)
    (hb : ∀ c, BodyObligation (dat2 (a p2) (vin2 Win) c) (defs₀ (F := F)) Variants.none () Set.univ)
    (htab : ∀ c (k : Fin pre2.K), Win c (pre2.ref k) = (a p2 : (pcfg2 (F := F)).Adm).1 k)
    (hin : ∀ c (w : Fin 3), w ≠ 2 → Wout c (Pipeline.arrRef spec2 w) = Win c (Pipeline.arrRef spec2 w))
    (hout : ∀ c, Wout c (Pipeline.arrRef spec2 (2 : Fin 3)) = outArr2 (a p2) Win c)
    (hrest : ∀ c (b : Ref sig .tc), b ∉ Finset.univ.image (Pipeline.arrRef spec2) → Wout c b = Win c b) :
    Pipeline.RegionSeg (pcfgs (F := F)) a pdats () defs₀ Variants.none (fun _ => (∅ : Finset Unit)) (fun _ _ => (0 : ℕ)) p2 :=
  reg2 a pdats Win Wout hd hb htab (hF_of2 a pdats Win Wout hd hin hout) hrest

end Rec2

end Cert.KernelIdeal.Gen

end
-- ==== Proof.DatI3.lean ====
import proofs.«425429_j48773648614109_2_alg».proof.Proof.LaunchI
import proofs.«425429_j48773648614109_2_alg».proof.Proof.Gen.KernelIdeal.Skeleton
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg3 (F := F)).Adm)
  (V : (c : Dev nD) → (b : Ref sig .tc) → Buf (Elt F) ((c : Thread nD τ).loc b))

/-- The pipeline of @main this module is about. -/
abbrev p3 : Fin 8 := 3

/-! ## The grid's points by number -/

/-- The region's grid has a point. -/
theorem N_pos3 : 0 < (cfg3 a).N := by
  rw [show (cfg3 a).N = grid3.N from rfl, N_3]; exact Nat.succ_pos _

/-- The grid point numbered `n`; a number past the grid wraps around (such a point is never consulted). -/
def pt3 (n : ℕ) : Fin (cfg3 a).N := ⟨n % (cfg3 a).N, Nat.mod_lt _ (N_pos3 a)⟩

/-- A grid point is the point of its own number. -/
theorem pt_val3 (t : Fin (cfg3 a).N) : pt3 a t.val = t := Fin.ext (Nat.mod_eq_of_lt t.isLt)

/-! ## The windows' blocks -/

/-- Window `w`'s block at point `t`, read off its array as the region finds it (`V`). -/
def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-! ## The accumulation -/

/-- What the carried scratch holds AFTER the point numbered `n`: the sum so far. After the first point it is that
    point's term added to the zero the first point stores; after a later point, that point's term added to what
    the point before left. -/
def accAt3 (c : Dev nD) : ℕ → Vec F S1x1 .f32
  | 0 => k3_pay2 (iblk3 a V c (0 : Fin 3) (pt3 a 0)) (iblk3 a V c (1 : Fin 3) (pt3 a 0)) (k3_pay1 (F := F))
  | n + 1 => k3_pay2 (iblk3 a V c (0 : Fin 3) (pt3 a (n + 1))) (iblk3 a V c (1 : Fin 3) (pt3 a (n + 1))) (accAt3 c n)

theorem accAt_zero3 (c : Dev nD) :
    accAt3 a V c 0 = k3_pay2 (iblk3 a V c (0 : Fin 3) (pt3 a 0)) (iblk3 a V c (1 : Fin 3) (pt3 a 0)) (k3_pay1 (F := F)) := rfl

theorem accAt_succ3 (c : Dev nD) (n : ℕ) :
    accAt3 a V c (n + 1) = k3_pay2 (iblk3 a V c (0 : Fin 3) (pt3 a (n + 1))) (iblk3 a V c (1 : Fin 3) (pt3 a (n + 1))) (accAt3 a V c n) := rfl

/-! ## The region invariant -/

/-- The region invariant before the position numbered `n`: the generator register at some state and the prefetched
    tables held whole throughout; before the first point every scoped buffer no window stages at anything; afterwards
    the carried scratch at the sum the point before left (`accAt3`), the other such buffers at anything. -/
def Phi3 (c : Dev nD) : ℕ → sProp 𝕄
  | 0 => iprop((∃ r, prngReg c r) ∗ Pipeline.prefHeld pre3 c (fun _ => fullShare) a.1 ∗ Pipeline.scopedRest spec3 c)
  | n + 1 => iprop((∃ r, prngReg c r) ∗ Pipeline.prefHeld pre3 c (fun _ => fullShare) a.1
      ∗ owns (c : Thread nD τ) (Memref.whole cc3_scratch0) fullShare (accAt3 a V c n)
      ∗ Pipeline.scopedRestBut spec3 c [cc3_scratch0])

theorem Phi_zero3 (c : Dev nD) :
    Phi3 a V c 0 = iprop((∃ r, prngReg c r) ∗ Pipeline.prefHeld pre3 c (fun _ => fullShare) a.1 ∗ Pipeline.scopedRest spec3 c) := rfl

theorem Phi_succ3 (c : Dev nD) (n : ℕ) :
    Phi3 a V c (n + 1) = iprop((∃ r, prngReg c r) ∗ Pipeline.prefHeld pre3 c (fun _ => fullShare) a.1
      ∗ owns (c : Thread nD τ) (Memref.whole cc3_scratch0) fullShare (accAt3 a V c n)
      ∗ Pipeline.scopedRestBut spec3 c [cc3_scratch0]) := rfl

theorem Phi_pos3 (c : Dev nD) (n : ℕ) (hn : n ≠ 0) :
    Phi3 a V c n = iprop((∃ r, prngReg c r) ∗ Pipeline.prefHeld pre3 c (fun _ => fullShare) a.1
      ∗ owns (c : Thread nD τ) (Memref.whole cc3_scratch0) fullShare (accAt3 a V c (n - 1))
      ∗ Pipeline.scopedRestBut spec3 c [cc3_scratch0]) := by
  cases n with
  | zero => exact absurd rfl hn
  | succ n => rfl

/-! ## The pipeline's proof data -/

/-- The proof data of region 3's pipeline on core `c`: the arrays as the region finds them (`V`); after the body at
    point `t` each input's buffer at its block and the output's at the sum so far (the output window is idle at
    every point but the last, where this is the total); the invariant `Phi3`; nothing owed; full shares. -/
def dat3 (c : Dev nD) : Dat τ (Elt F) Unit ℕ (UR sig nD τ) ℕ (cfg3 a) c where
  A w := V c (Pipeline.arrRef spec3 w)
  after w t := match w with
    | ⟨0, _⟩ => iblk3 a V c (0 : Fin 3) t
    | ⟨1, _⟩ => iblk3 a V c (1 : Fin 3) t
    | ⟨2, _⟩ => accAt3 a V c t.val
  Φ t := Phi3 a V c t.val
  q _ := fullShare
  owed _ := 0

theorem A_eq3 (c : Dev nD) (w : Fin (cfg3 a).W) : (dat3 a V c).A w = V c (Pipeline.arrRef spec3 w) := by
  dsimp only [dat3]

theorem afterU3 (c : Dev nD) (t : Fin (cfg3 a).N) : (dat3 a V c).after (0 : Fin 3) t = iblk3 a V c (0 : Fin 3) t := by dsimp only [dat3]
theorem afterV3 (c : Dev nD) (t : Fin (cfg3 a).N) : (dat3 a V c).after (1 : Fin 3) t = iblk3 a V c (1 : Fin 3) t := by dsimp only [dat3]
theorem afterO3 (c : Dev nD) (t : Fin (cfg3 a).N) : (dat3 a V c).after (2 : Fin 3) t = accAt3 a V c t.val := by dsimp only [dat3]

theorem dat_Φ3 (c : Dev nD) (t : Fin ((cfg3 a).N + 1)) : (dat3 a V c).Φ t = Phi3 a V c t.val := by dsimp only [dat3]

theorem dat_Φ_castSucc3 (c : Dev nD) (t : Fin (cfg3 a).N) : (dat3 a V c).Φ t.castSucc = Phi3 a V c t.val := by
  rw [dat_Φ3, Fin.coe_castSucc]

theorem dat_Φ_succ3 (c : Dev nD) (t : Fin (cfg3 a).N) : (dat3 a V c).Φ t.succ = Phi3 a V c (t.val + 1) := by
  rw [dat_Φ3, Fin.val_succ]

theorem dat_Φ_zero3 (c : Dev nD) :
    (dat3 a V c).Φ 0 = iprop((∃ r, prngReg c r) ∗ Pipeline.prefHeld pre3 c (fun _ => fullShare) a.1 ∗ Pipeline.scopedRest spec3 c) := by
  rw [dat_Φ3]; rfl

theorem dat_Φ_last3 (c : Dev nD) :
    (dat3 a V c).Φ (Fin.last (cfg3 a).N) = iprop((∃ r, prngReg c r) ∗ Pipeline.prefHeld pre3 c (fun _ => fullShare) a.1
      ∗ owns (c : Thread nD τ) (Memref.whole cc3_scratch0) fullShare (accAt3 a V c ((cfg3 a).N - 1))
      ∗ Pipeline.scopedRestBut spec3 c [cc3_scratch0]) := by
  rw [dat_Φ3, Fin.val_last]
  exact Phi_pos3 a V c _ (Nat.pos_iff_ne_zero.mp (N_pos3 a))

/-! ## The inputs' staging buffers -/

/-- Input window 0's current staging buffer holds its block at every point, fetched there or not: unfetched, the
    block index has not moved since the point before, and the body leaves the block in place. -/
theorem beforeU3 (c : Dev nD) (t : Fin (cfg3 a).N) (d) : (dat3 a V c).before (0 : Fin 3) t d = iblk3 a V c (0 : Fin 3) t :=
  ((dat3 a V c).before_in_eq_fetched (0 : Fin 3) rfl (fun _ => rfl) (fun _ _ _ => rfl)
    (fun t => by rw [afterU3]; unfold Dat.blockOf iblk3; rw [A_eq3]; try rfl) t d).trans
    (by unfold Dat.fetched Dat.blockOf iblk3; rw [A_eq3]; try rfl)

/-- The same for input window 1. -/
theorem beforeV3 (c : Dev nD) (t : Fin (cfg3 a).N) (d) : (dat3 a V c).before (1 : Fin 3) t d = iblk3 a V c (1 : Fin 3) t :=
  ((dat3 a V c).before_in_eq_fetched (1 : Fin 3) rfl (fun _ => rfl) (fun _ _ _ => rfl)
    (fun t => by rw [afterV3]; unfold Dat.blockOf iblk3; rw [A_eq3]; try rfl) t d).trans
    (by unfold Dat.fetched Dat.blockOf iblk3; rw [A_eq3]; try rfl)

end Cert.KernelIdeal.Gen

end
-- ==== Proof.SegI3.lean ====
import proofs.«425429_j48773648614109_2_alg».proof.Proof.DatI3
import Idealize.ShloMosaic.Lib.Pipeline.Frame
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 3 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v33`) and the rest; the rest splits once more into the two
  prefetched index tables (`main_v30`, `main_v32`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg3

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin3 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 3 over the thread state "every unscoped buffer at a valuation, the generator register at some state, nothing
    owed": entered at `Win`, left at `Wout`, for any family of proof data whose member at this pipeline is `dat3` at the
    entry valuation (`hd`), given that the two index tables hold the admissible contents at entry (`htab`), that `Wout`
    has each window's array at what the pipeline leaves there (`hF`) and agrees with `Win` off the arrays (`hrest`), and
    the body obligation (`hb`). -/
def reg3
    (hd : ∀ c, pdats p3 c = dat3 (a p3) (vin3 Win) c)
    (hb : ∀ c, BodyObligation (dat3 (a p3) (vin3 Win) c) (defs₀ (F := F)) Variants.none () Set.univ)
    (htab : ∀ c (k : Fin pre3.K), Win c (pre3.ref k) = (a p3 : (pcfg3 (F := F)).Adm).1 k)
    (hF : ∀ c w, (pdats p3 c).arrAt w (Pipeline.pin (pcfgs (F := F)) a p3).N = Wout c (Pipeline.arrRef spec3 w))
    (hrest : ∀ c (b : Ref sig .tc), b ∉ Finset.univ.image (Pipeline.arrRef spec3) → Wout c b = Win c b) :
    Pipeline.RegionSeg (pcfgs (F := F)) a pdats () defs₀ Variants.none (fun _ => (∅ : Finset Unit)) (fun _ _ => (0 : ℕ)) p3 where
  win := (launch3 (F := F)).win.to₀
  block_pos := (launch3 (F := F)).block_pos
  stage_whole := (launch3 (F := F)).stage_whole
  K := PEmpty
  osem k := k.elim
  ho := Pipeline.OwnSemFacts.none _
  hbody c := by rw [hd c]; exact (hb c).loose
  hwaits := Pipeline.hwaits_of_owed_zero _ _ _ _ _ _ p3 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre3 c (fun _ => fullShare) (a p3 : (pcfg3 (F := F)).Adm).1)
  Z c := Pipeline.unscopedRestP (Ix := Unit) (Name := ℕ) (U := UR sig nD τ) (Lvl := ℕ) pre3 spec3 c (vin3 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p3 c).arrays ((pdats p3 c).arrAt · 0) ∗ Pipeline.prefHeld pre3 c (fun _ => fullShare) (a p3 : (pcfg3 (F := F)).Adm).1
            ∗ Pipeline.unscopedRestP pre3 spec3 c (vin3 Win c)) := by
      have h := Pipeline.arrays_of_unscopedBufs (p := p3) (pcfgs (F := F)) a pdats (launch3 (F := F)).win (launch3 (F := F)).arr_whole c
        (by rw [hd c]; exact (dat3 (a p3) (vin3 Win) c).share_full fun _ => rfl) (vin3 Win c) (by rw [hd c]; exact A_eq3 (a p3) (vin3 Win) c)
      rw [Pipeline.unscopedBufs_held c (Win c), Pipeline.unscopedRest_split (launch3 (F := F)).pre c (vin3 Win c)] at h
      rw [← show (fun k => vin3 Win c (pre3.ref k)) = (a p3 : (pcfg3 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p3 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero3]
    exact .rfl
  hout c := by
    -- the accumulator's points-to at its last value is one of the scoped buffers "at some contents"
    rw [Pipeline.ownSems0_none, hd c,
      show (dat3 (a p3) (vin3 Win) c).Φ (Fin.last (Pipeline.pin (pcfgs (F := F)) a p3).N) = _ from dat_Φ_last3 (a p3) (vin3 Win) c,
      show (Pipeline.scopedRest (Pipeline.pin (pcfgs (F := F)) a p3).spec c : sProp 𝕄) = _ from scopedRest3_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p3 c).arrays ((pdats p3 c).arrAt · (Pipeline.pin (pcfgs (F := F)) a p3).N)
          ∗ Pipeline.prefHeld pre3 c (fun _ => fullShare) (a p3 : (pcfg3 (F := F)).Adm).1 ∗ Pipeline.unscopedRestP pre3 spec3 c (vin3 Win c))
        ⊢ (StableHlo.held (c : Thread nD τ) (Pipeline.ucRefs τ sig) (Wout c) : sProp 𝕄) := by
      have h := Pipeline.unscopedBufs_of_arrays (p := p3) (pcfgs (F := F)) a (Ix := Unit) (Name := ℕ) (U := UR sig nD τ) (Lvl := ℕ)
        (launch3 (F := F)).win (launch3 (F := F)).arr_whole c pdats (by rw [hd c]; exact (dat3 (a p3) (vin3 Win) c).share_full fun _ => rfl)
        (vin3 Win c) (vin3 Wout c) ((pdats p3 c).arrAt · (Pipeline.pin (pcfgs (F := F)) a p3).N) (hF c) (hrest c)
      rw [Pipeline.unscopedBufs_held c (Wout c), Pipeline.unscopedRest_split (launch3 (F := F)).pre c (vin3 Win c)] at h
      rw [← show (fun k => vin3 Win c (pre3.ref k)) = (a p3 : (pcfg3 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p3 c).owed (Fin.last _) = 0 from by rw [hd c]; rfl]
    icases HO with ⟨%W, -, HO⟩; iexists W; iexact HO

end Seg3

end Cert.KernelIdeal.Gen

end
-- ==== Proof.RecI3.lean ====
import proofs.«425429_j48773648614109_2_alg».proof.Proof.SegI3

/-! Region 3's segment record from facts about the two valuations alone.

The region's record (`reg3`) asks, of the valuation at the exit, each window's array at what the pipeline leaves
there. The two input arrays are never written, so they are left as found: that half asks only that the exit
valuation agrees with the entry valuation at them. The output array is left at the contents the write-backs build
(`outArr3`), a function of the entry valuation: that half asks that the exit valuation holds exactly that. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec3

/-- What region 3 leaves in its output array, from the admissible tables and the valuation at its entry: the array
    after every point's write-back. -/
def outArr3 (adm : (pcfg3 (F := F)).Adm) (Win : Dev nD → Valuation τ sig (Elt F)) (c : Dev nD) :
    Buf (Elt F) ((c : Thread nD τ).loc (Pipeline.arrRef spec3 (2 : Fin 3))) :=
  (dat3 adm (vin3 Win) c).arrAt (2 : Fin 3) (cfg3 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of3
    (hd : ∀ c, pdats p3 c = dat3 (a p3) (vin3 Win) c)
    (hin : ∀ c (w : Fin 3), w ≠ 2 → Wout c (Pipeline.arrRef spec3 w) = Win c (Pipeline.arrRef spec3 w))
    (hout : ∀ c, Wout c (Pipeline.arrRef spec3 (2 : Fin 3)) = outArr3 (a p3) Win c)
    (c : Dev nD) (w : Fin 3) :
    (pdats p3 c).arrAt w (Pipeline.pin (pcfgs (F := F)) a p3).N = Wout c (Pipeline.arrRef spec3 w) := by
  rw [hd c]
  match w with
  | ⟨0, _⟩ =>
    exact (Dat.arrAt_in (dat3 (a p3) (vin3 Win) c) (0 : Fin 3) rfl _).trans
      ((A_eq3 (a p3) (vin3 Win) c (0 : Fin 3)).trans (hin c (0 : Fin 3) (by decide)).symm)
  | ⟨1, _⟩ =>
    exact (Dat.arrAt_in (dat3 (a p3) (vin3 Win) c) (1 : Fin 3) rfl _).trans
      ((A_eq3 (a p3) (vin3 Win) c (1 : Fin 3)).trans (hin c (1 : Fin 3) (by decide)).symm)
  | ⟨2, _⟩ => exact (hout c).symm

/-- REGION 3's record between two valuations: entered at `Win`, left at `Wout`. -/
def rec3
    (hd : ∀ c, pdats p3 c = dat3 (a p3) (vin3 Win) c)
    (hb : ∀ c, BodyObligation (dat3 (a p3) (vin3 Win) c) (defs₀ (F := F)) Variants.none () Set.univ)
    (htab : ∀ c (k : Fin pre3.K), Win c (pre3.ref k) = (a p3 : (pcfg3 (F := F)).Adm).1 k)
    (hin : ∀ c (w : Fin 3), w ≠ 2 → Wout c (Pipeline.arrRef spec3 w) = Win c (Pipeline.arrRef spec3 w))
    (hout : ∀ c, Wout c (Pipeline.arrRef spec3 (2 : Fin 3)) = outArr3 (a p3) Win c)
    (hrest : ∀ c (b : Ref sig .tc), b ∉ Finset.univ.image (Pipeline.arrRef spec3) → Wout c b = Win c b) :
    Pipeline.RegionSeg (pcfgs (F := F)) a pdats () defs₀ Variants.none (fun _ => (∅ : Finset Unit)) (fun _ _ => (0 : ℕ)) p3 :=
  reg3 a pdats Win Wout hd hb htab (hF_of3 a pdats Win Wout hd hin hout) hrest

end Rec3

end Cert.KernelIdeal.Gen

end
-- ==== Proof.DatI4.lean ====
import proofs.«425429_j48773648614109_2_alg».proof.Proof.LaunchI
import proofs.«425429_j48773648614109_2_alg».proof.Proof.Gen.KernelIdeal.Skeleton
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg4 (F := F)).Adm)
  (V : (c : Dev nD) → (b : Ref sig .tc) → Buf (Elt F) ((c : Thread nD τ).loc b))

/-- The pipeline of @main this module is about. -/
abbrev p4 : Fin 8 := 4

/-! ## The grid's points by number -/

/-- The region's grid has a point. -/
theorem N_pos4 : 0 < (cfg4 a).N := by
  rw [show (cfg4 a).N = grid4.N from rfl, N_4]; exact Nat.succ_pos _

/-- The grid point numbered `n`; a number past the grid wraps around (such a point is never consulted). -/
def pt4 (n : ℕ) : Fin (cfg4 a).N := ⟨n % (cfg4 a).N, Nat.mod_lt _ (N_pos4 a)⟩

/-- A grid point is the point of its own number. -/
theorem pt_val4 (t : Fin (cfg4 a).N) : pt4 a t.val = t := Fin.ext (Nat.mod_eq_of_lt t.isLt)

/-! ## The windows' blocks -/

/-- Window `w`'s block at point `t`, read off its array as the region finds it (`V`). -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-! ## The accumulation -/

/-- What the carried scratch holds AFTER the point numbered `n`: the sum so far. After the first point it is that
    point's term added to the zero the first point stores; after a later point, that point's term added to what
    the point before left. -/
def accAt4 (c : Dev nD) : ℕ → Vec F S1x1 .f32
  | 0 => k4_pay2 (iblk4 a V c (0 : Fin 3) (pt4 a 0)) (iblk4 a V c (1 : Fin 3) (pt4 a 0)) (k4_pay1 (F := F))
  | n + 1 => k4_pay2 (iblk4 a V c (0 : Fin 3) (pt4 a (n + 1))) (iblk4 a V c (1 : Fin 3) (pt4 a (n + 1))) (accAt4 c n)

theorem accAt_zero4 (c : Dev nD) :
    accAt4 a V c 0 = k4_pay2 (iblk4 a V c (0 : Fin 3) (pt4 a 0)) (iblk4 a V c (1 : Fin 3) (pt4 a 0)) (k4_pay1 (F := F)) := rfl

theorem accAt_succ4 (c : Dev nD) (n : ℕ) :
    accAt4 a V c (n + 1) = k4_pay2 (iblk4 a V c (0 : Fin 3) (pt4 a (n + 1))) (iblk4 a V c (1 : Fin 3) (pt4 a (n + 1))) (accAt4 a V c n) := rfl

/-! ## The region invariant -/

/-- The region invariant before the position numbered `n`: the generator register at some state and the prefetched
    tables held whole throughout; before the first point every scoped buffer no window stages at anything; afterwards
    the carried scratch at the sum the point before left (`accAt4`), the other such buffers at anything. -/
def Phi4 (c : Dev nD) : ℕ → sProp 𝕄
  | 0 => iprop((∃ r, prngReg c r) ∗ Pipeline.prefHeld pre4 c (fun _ => fullShare) a.1 ∗ Pipeline.scopedRest spec4 c)
  | n + 1 => iprop((∃ r, prngReg c r) ∗ Pipeline.prefHeld pre4 c (fun _ => fullShare) a.1
      ∗ owns (c : Thread nD τ) (Memref.whole cc4_scratch0) fullShare (accAt4 a V c n)
      ∗ Pipeline.scopedRestBut spec4 c [cc4_scratch0])

theorem Phi_zero4 (c : Dev nD) :
    Phi4 a V c 0 = iprop((∃ r, prngReg c r) ∗ Pipeline.prefHeld pre4 c (fun _ => fullShare) a.1 ∗ Pipeline.scopedRest spec4 c) := rfl

theorem Phi_succ4 (c : Dev nD) (n : ℕ) :
    Phi4 a V c (n + 1) = iprop((∃ r, prngReg c r) ∗ Pipeline.prefHeld pre4 c (fun _ => fullShare) a.1
      ∗ owns (c : Thread nD τ) (Memref.whole cc4_scratch0) fullShare (accAt4 a V c n)
      ∗ Pipeline.scopedRestBut spec4 c [cc4_scratch0]) := rfl

theorem Phi_pos4 (c : Dev nD) (n : ℕ) (hn : n ≠ 0) :
    Phi4 a V c n = iprop((∃ r, prngReg c r) ∗ Pipeline.prefHeld pre4 c (fun _ => fullShare) a.1
      ∗ owns (c : Thread nD τ) (Memref.whole cc4_scratch0) fullShare (accAt4 a V c (n - 1))
      ∗ Pipeline.scopedRestBut spec4 c [cc4_scratch0]) := by
  cases n with
  | zero => exact absurd rfl hn
  | succ n => rfl

/-! ## The pipeline's proof data -/

/-- The proof data of region 4's pipeline on core `c`: the arrays as the region finds them (`V`); after the body at
    point `t` each input's buffer at its block and the output's at the sum so far (the output window is idle at
    every point but the last, where this is the total); the invariant `Phi4`; nothing owed; full shares. -/
def dat4 (c : Dev nD) : Dat τ (Elt F) Unit ℕ (UR sig nD τ) ℕ (cfg4 a) c where
  A w := V c (Pipeline.arrRef spec4 w)
  after w t := match w with
    | ⟨0, _⟩ => iblk4 a V c (0 : Fin 3) t
    | ⟨1, _⟩ => iblk4 a V c (1 : Fin 3) t
    | ⟨2, _⟩ => accAt4 a V c t.val
  Φ t := Phi4 a V c t.val
  q _ := fullShare
  owed _ := 0

theorem A_eq4 (c : Dev nD) (w : Fin (cfg4 a).W) : (dat4 a V c).A w = V c (Pipeline.arrRef spec4 w) := by
  dsimp only [dat4]

theorem afterU4 (c : Dev nD) (t : Fin (cfg4 a).N) : (dat4 a V c).after (0 : Fin 3) t = iblk4 a V c (0 : Fin 3) t := by dsimp only [dat4]
theorem afterV4 (c : Dev nD) (t : Fin (cfg4 a).N) : (dat4 a V c).after (1 : Fin 3) t = iblk4 a V c (1 : Fin 3) t := by dsimp only [dat4]
theorem afterO4 (c : Dev nD) (t : Fin (cfg4 a).N) : (dat4 a V c).after (2 : Fin 3) t = accAt4 a V c t.val := by dsimp only [dat4]

theorem dat_Φ4 (c : Dev nD) (t : Fin ((cfg4 a).N + 1)) : (dat4 a V c).Φ t = Phi4 a V c t.val := by dsimp only [dat4]

theorem dat_Φ_castSucc4 (c : Dev nD) (t : Fin (cfg4 a).N) : (dat4 a V c).Φ t.castSucc = Phi4 a V c t.val := by
  rw [dat_Φ4, Fin.coe_castSucc]

theorem dat_Φ_succ4 (c : Dev nD) (t : Fin (cfg4 a).N) : (dat4 a V c).Φ t.succ = Phi4 a V c (t.val + 1) := by
  rw [dat_Φ4, Fin.val_succ]

theorem dat_Φ_zero4 (c : Dev nD) :
    (dat4 a V c).Φ 0 = iprop((∃ r, prngReg c r) ∗ Pipeline.prefHeld pre4 c (fun _ => fullShare) a.1 ∗ Pipeline.scopedRest spec4 c) := by
  rw [dat_Φ4]; rfl

theorem dat_Φ_last4 (c : Dev nD) :
    (dat4 a V c).Φ (Fin.last (cfg4 a).N) = iprop((∃ r, prngReg c r) ∗ Pipeline.prefHeld pre4 c (fun _ => fullShare) a.1
      ∗ owns (c : Thread nD τ) (Memref.whole cc4_scratch0) fullShare (accAt4 a V c ((cfg4 a).N - 1))
      ∗ Pipeline.scopedRestBut spec4 c [cc4_scratch0]) := by
  rw [dat_Φ4, Fin.val_last]
  exact Phi_pos4 a V c _ (Nat.pos_iff_ne_zero.mp (N_pos4 a))

/-! ## The inputs' staging buffers -/

/-- Input window 0's current staging buffer holds its block at every point, fetched there or not: unfetched, the
    block index has not moved since the point before, and the body leaves the block in place. -/
theorem beforeU4 (c : Dev nD) (t : Fin (cfg4 a).N) (d) : (dat4 a V c).before (0 : Fin 3) t d = iblk4 a V c (0 : Fin 3) t :=
  ((dat4 a V c).before_in_eq_fetched (0 : Fin 3) rfl (fun _ => rfl) (fun _ _ _ => rfl)
    (fun t => by rw [afterU4]; unfold Dat.blockOf iblk4; rw [A_eq4]; try rfl) t d).trans
    (by unfold Dat.fetched Dat.blockOf iblk4; rw [A_eq4]; try rfl)

/-- The same for input window 1. -/
theorem beforeV4 (c : Dev nD) (t : Fin (cfg4 a).N) (d) : (dat4 a V c).before (1 : Fin 3) t d = iblk4 a V c (1 : Fin 3) t :=
  ((dat4 a V c).before_in_eq_fetched (1 : Fin 3) rfl (fun _ => rfl) (fun _ _ _ => rfl)
    (fun t => by rw [afterV4]; unfold Dat.blockOf iblk4; rw [A_eq4]; try rfl) t d).trans
    (by unfold Dat.fetched Dat.blockOf iblk4; rw [A_eq4]; try rfl)

end Cert.KernelIdeal.Gen

end
-- ==== Proof.SegI4.lean ====
import proofs.«425429_j48773648614109_2_alg».proof.Proof.DatI4
import Idealize.ShloMosaic.Lib.Pipeline.Frame
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 4 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v40`) and the rest; the rest splits once more into the two
  prefetched index tables (`main_v37`, `main_v39`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg4

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin4 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 4 over the thread state "every unscoped buffer at a valuation, the generator register at some state, nothing
    owed": entered at `Win`, left at `Wout`, for any family of proof data whose member at this pipeline is `dat4` at the
    entry valuation (`hd`), given that the two index tables hold the admissible contents at entry (`htab`), that `Wout`
    has each window's array at what the pipeline leaves there (`hF`) and agrees with `Win` off the arrays (`hrest`), and
    the body obligation (`hb`). -/
def reg4
    (hd : ∀ c, pdats p4 c = dat4 (a p4) (vin4 Win) c)
    (hb : ∀ c, BodyObligation (dat4 (a p4) (vin4 Win) c) (defs₀ (F := F)) Variants.none () Set.univ)
    (htab : ∀ c (k : Fin pre4.K), Win c (pre4.ref k) = (a p4 : (pcfg4 (F := F)).Adm).1 k)
    (hF : ∀ c w, (pdats p4 c).arrAt w (Pipeline.pin (pcfgs (F := F)) a p4).N = Wout c (Pipeline.arrRef spec4 w))
    (hrest : ∀ c (b : Ref sig .tc), b ∉ Finset.univ.image (Pipeline.arrRef spec4) → Wout c b = Win c b) :
    Pipeline.RegionSeg (pcfgs (F := F)) a pdats () defs₀ Variants.none (fun _ => (∅ : Finset Unit)) (fun _ _ => (0 : ℕ)) p4 where
  win := (launch4 (F := F)).win.to₀
  block_pos := (launch4 (F := F)).block_pos
  stage_whole := (launch4 (F := F)).stage_whole
  K := PEmpty
  osem k := k.elim
  ho := Pipeline.OwnSemFacts.none _
  hbody c := by rw [hd c]; exact (hb c).loose
  hwaits := Pipeline.hwaits_of_owed_zero _ _ _ _ _ _ p4 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre4 c (fun _ => fullShare) (a p4 : (pcfg4 (F := F)).Adm).1)
  Z c := Pipeline.unscopedRestP (Ix := Unit) (Name := ℕ) (U := UR sig nD τ) (Lvl := ℕ) pre4 spec4 c (vin4 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p4 c).arrays ((pdats p4 c).arrAt · 0) ∗ Pipeline.prefHeld pre4 c (fun _ => fullShare) (a p4 : (pcfg4 (F := F)).Adm).1
            ∗ Pipeline.unscopedRestP pre4 spec4 c (vin4 Win c)) := by
      have h := Pipeline.arrays_of_unscopedBufs (p := p4) (pcfgs (F := F)) a pdats (launch4 (F := F)).win (launch4 (F := F)).arr_whole c
        (by rw [hd c]; exact (dat4 (a p4) (vin4 Win) c).share_full fun _ => rfl) (vin4 Win c) (by rw [hd c]; exact A_eq4 (a p4) (vin4 Win) c)
      rw [Pipeline.unscopedBufs_held c (Win c), Pipeline.unscopedRest_split (launch4 (F := F)).pre c (vin4 Win c)] at h
      rw [← show (fun k => vin4 Win c (pre4.ref k)) = (a p4 : (pcfg4 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p4 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero4]
    exact .rfl
  hout c := by
    -- the accumulator's points-to at its last value is one of the scoped buffers "at some contents"
    rw [Pipeline.ownSems0_none, hd c,
      show (dat4 (a p4) (vin4 Win) c).Φ (Fin.last (Pipeline.pin (pcfgs (F := F)) a p4).N) = _ from dat_Φ_last4 (a p4) (vin4 Win) c,
      show (Pipeline.scopedRest (Pipeline.pin (pcfgs (F := F)) a p4).spec c : sProp 𝕄) = _ from scopedRest4_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p4 c).arrays ((pdats p4 c).arrAt · (Pipeline.pin (pcfgs (F := F)) a p4).N)
          ∗ Pipeline.prefHeld pre4 c (fun _ => fullShare) (a p4 : (pcfg4 (F := F)).Adm).1 ∗ Pipeline.unscopedRestP pre4 spec4 c (vin4 Win c))
        ⊢ (StableHlo.held (c : Thread nD τ) (Pipeline.ucRefs τ sig) (Wout c) : sProp 𝕄) := by
      have h := Pipeline.unscopedBufs_of_arrays (p := p4) (pcfgs (F := F)) a (Ix := Unit) (Name := ℕ) (U := UR sig nD τ) (Lvl := ℕ)
        (launch4 (F := F)).win (launch4 (F := F)).arr_whole c pdats (by rw [hd c]; exact (dat4 (a p4) (vin4 Win) c).share_full fun _ => rfl)
        (vin4 Win c) (vin4 Wout c) ((pdats p4 c).arrAt · (Pipeline.pin (pcfgs (F := F)) a p4).N) (hF c) (hrest c)
      rw [Pipeline.unscopedBufs_held c (Wout c), Pipeline.unscopedRest_split (launch4 (F := F)).pre c (vin4 Win c)] at h
      rw [← show (fun k => vin4 Win c (pre4.ref k)) = (a p4 : (pcfg4 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p4 c).owed (Fin.last _) = 0 from by rw [hd c]; rfl]
    icases HO with ⟨%W, -, HO⟩; iexists W; iexact HO

end Seg4

end Cert.KernelIdeal.Gen

end
-- ==== Proof.RecI4.lean ====
import proofs.«425429_j48773648614109_2_alg».proof.Proof.SegI4

/-! Region 4's segment record from facts about the two valuations alone.

The region's record (`reg4`) asks, of the valuation at the exit, each window's array at what the pipeline leaves
there. The two input arrays are never written, so they are left as found: that half asks only that the exit
valuation agrees with the entry valuation at them. The output array is left at the contents the write-backs build
(`outArr4`), a function of the entry valuation: that half asks that the exit valuation holds exactly that. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec4

/-- What region 4 leaves in its output array, from the admissible tables and the valuation at its entry: the array
    after every point's write-back. -/
def outArr4 (adm : (pcfg4 (F := F)).Adm) (Win : Dev nD → Valuation τ sig (Elt F)) (c : Dev nD) :
    Buf (Elt F) ((c : Thread nD τ).loc (Pipeline.arrRef spec4 (2 : Fin 3))) :=
  (dat4 adm (vin4 Win) c).arrAt (2 : Fin 3) (cfg4 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of4
    (hd : ∀ c, pdats p4 c = dat4 (a p4) (vin4 Win) c)
    (hin : ∀ c (w : Fin 3), w ≠ 2 → Wout c (Pipeline.arrRef spec4 w) = Win c (Pipeline.arrRef spec4 w))
    (hout : ∀ c, Wout c (Pipeline.arrRef spec4 (2 : Fin 3)) = outArr4 (a p4) Win c)
    (c : Dev nD) (w : Fin 3) :
    (pdats p4 c).arrAt w (Pipeline.pin (pcfgs (F := F)) a p4).N = Wout c (Pipeline.arrRef spec4 w) := by
  rw [hd c]
  match w with
  | ⟨0, _⟩ =>
    exact (Dat.arrAt_in (dat4 (a p4) (vin4 Win) c) (0 : Fin 3) rfl _).trans
      ((A_eq4 (a p4) (vin4 Win) c (0 : Fin 3)).trans (hin c (0 : Fin 3) (by decide)).symm)
  | ⟨1, _⟩ =>
    exact (Dat.arrAt_in (dat4 (a p4) (vin4 Win) c) (1 : Fin 3) rfl _).trans
      ((A_eq4 (a p4) (vin4 Win) c (1 : Fin 3)).trans (hin c (1 : Fin 3) (by decide)).symm)
  | ⟨2, _⟩ => exact (hout c).symm

/-- REGION 4's record between two valuations: entered at `Win`, left at `Wout`. -/
def rec4
    (hd : ∀ c, pdats p4 c = dat4 (a p4) (vin4 Win) c)
    (hb : ∀ c, BodyObligation (dat4 (a p4) (vin4 Win) c) (defs₀ (F := F)) Variants.none () Set.univ)
    (htab : ∀ c (k : Fin pre4.K), Win c (pre4.ref k) = (a p4 : (pcfg4 (F := F)).Adm).1 k)
    (hin : ∀ c (w : Fin 3), w ≠ 2 → Wout c (Pipeline.arrRef spec4 w) = Win c (Pipeline.arrRef spec4 w))
    (hout : ∀ c, Wout c (Pipeline.arrRef spec4 (2 : Fin 3)) = outArr4 (a p4) Win c)
    (hrest : ∀ c (b : Ref sig .tc), b ∉ Finset.univ.image (Pipeline.arrRef spec4) → Wout c b = Win c b) :
    Pipeline.RegionSeg (pcfgs (F := F)) a pdats () defs₀ Variants.none (fun _ => (∅ : Finset Unit)) (fun _ _ => (0 : ℕ)) p4 :=
  reg4 a pdats Win Wout hd hb htab (hF_of4 a pdats Win Wout hd hin hout) hrest

end Rec4

end Cert.KernelIdeal.Gen

end
-- ==== Proof.DatI5.lean ====
import proofs.«425429_j48773648614109_2_alg».proof.Proof.LaunchI
import proofs.«425429_j48773648614109_2_alg».proof.Proof.Gen.KernelIdeal.Skeleton
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg5 (F := F)).Adm)
  (V : (c : Dev nD) → (b : Ref sig .tc) → Buf (Elt F) ((c : Thread nD τ).loc b))

/-- The pipeline of @main this module is about. -/
abbrev p5 : Fin 8 := 5

/-! ## The grid's points by number -/

/-- The region's grid has a point. -/
theorem N_pos5 : 0 < (cfg5 a).N := by
  rw [show (cfg5 a).N = grid5.N from rfl, N_5]; exact Nat.succ_pos _

/-- The grid point numbered `n`; a number past the grid wraps around (such a point is never consulted). -/
def pt5 (n : ℕ) : Fin (cfg5 a).N := ⟨n % (cfg5 a).N, Nat.mod_lt _ (N_pos5 a)⟩

/-- A grid point is the point of its own number. -/
theorem pt_val5 (t : Fin (cfg5 a).N) : pt5 a t.val = t := Fin.ext (Nat.mod_eq_of_lt t.isLt)

/-! ## The windows' blocks -/

/-- Window `w`'s block at point `t`, read off its array as the region finds it (`V`). -/
def iblk5 (c : Dev nD) (w : Fin (cfg5 a).W) (t : Fin (cfg5 a).N) :
    (((cfg5 a).win w).xblock ((cfg5 a).grid.coords t)).Idx → Elt F ((cfg5 a).win w).elt :=
  (((cfg5 a).win w).blk t).view.read (Elt F) (V c (Pipeline.arrRef spec5 w))

/-! ## The accumulation -/

/-- What the carried scratch holds AFTER the point numbered `n`: the sum so far. After the first point it is that
    point's term added to the zero the first point stores; after a later point, that point's term added to what
    the point before left. -/
def accAt5 (c : Dev nD) : ℕ → Vec F S1x1 .f32
  | 0 => k5_pay2 (iblk5 a V c (0 : Fin 3) (pt5 a 0)) (iblk5 a V c (1 : Fin 3) (pt5 a 0)) (k5_pay1 (F := F))
  | n + 1 => k5_pay2 (iblk5 a V c (0 : Fin 3) (pt5 a (n + 1))) (iblk5 a V c (1 : Fin 3) (pt5 a (n + 1))) (accAt5 c n)

theorem accAt_zero5 (c : Dev nD) :
    accAt5 a V c 0 = k5_pay2 (iblk5 a V c (0 : Fin 3) (pt5 a 0)) (iblk5 a V c (1 : Fin 3) (pt5 a 0)) (k5_pay1 (F := F)) := rfl

theorem accAt_succ5 (c : Dev nD) (n : ℕ) :
    accAt5 a V c (n + 1) = k5_pay2 (iblk5 a V c (0 : Fin 3) (pt5 a (n + 1))) (iblk5 a V c (1 : Fin 3) (pt5 a (n + 1))) (accAt5 a V c n) := rfl

/-! ## The region invariant -/

/-- The region invariant before the position numbered `n`: the generator register at some state and the prefetched
    tables held whole throughout; before the first point every scoped buffer no window stages at anything; afterwards
    the carried scratch at the sum the point before left (`accAt5`), the other such buffers at anything. -/
def Phi5 (c : Dev nD) : ℕ → sProp 𝕄
  | 0 => iprop((∃ r, prngReg c r) ∗ Pipeline.prefHeld pre5 c (fun _ => fullShare) a.1 ∗ Pipeline.scopedRest spec5 c)
  | n + 1 => iprop((∃ r, prngReg c r) ∗ Pipeline.prefHeld pre5 c (fun _ => fullShare) a.1
      ∗ owns (c : Thread nD τ) (Memref.whole cc5_scratch0) fullShare (accAt5 a V c n)
      ∗ Pipeline.scopedRestBut spec5 c [cc5_scratch0])

theorem Phi_zero5 (c : Dev nD) :
    Phi5 a V c 0 = iprop((∃ r, prngReg c r) ∗ Pipeline.prefHeld pre5 c (fun _ => fullShare) a.1 ∗ Pipeline.scopedRest spec5 c) := rfl

theorem Phi_succ5 (c : Dev nD) (n : ℕ) :
    Phi5 a V c (n + 1) = iprop((∃ r, prngReg c r) ∗ Pipeline.prefHeld pre5 c (fun _ => fullShare) a.1
      ∗ owns (c : Thread nD τ) (Memref.whole cc5_scratch0) fullShare (accAt5 a V c n)
      ∗ Pipeline.scopedRestBut spec5 c [cc5_scratch0]) := rfl

theorem Phi_pos5 (c : Dev nD) (n : ℕ) (hn : n ≠ 0) :
    Phi5 a V c n = iprop((∃ r, prngReg c r) ∗ Pipeline.prefHeld pre5 c (fun _ => fullShare) a.1
      ∗ owns (c : Thread nD τ) (Memref.whole cc5_scratch0) fullShare (accAt5 a V c (n - 1))
      ∗ Pipeline.scopedRestBut spec5 c [cc5_scratch0]) := by
  cases n with
  | zero => exact absurd rfl hn
  | succ n => rfl

/-! ## The pipeline's proof data -/

/-- The proof data of region 5's pipeline on core `c`: the arrays as the region finds them (`V`); after the body at
    point `t` each input's buffer at its block and the output's at the sum so far (the output window is idle at
    every point but the last, where this is the total); the invariant `Phi5`; nothing owed; full shares. -/
def dat5 (c : Dev nD) : Dat τ (Elt F) Unit ℕ (UR sig nD τ) ℕ (cfg5 a) c where
  A w := V c (Pipeline.arrRef spec5 w)
  after w t := match w with
    | ⟨0, _⟩ => iblk5 a V c (0 : Fin 3) t
    | ⟨1, _⟩ => iblk5 a V c (1 : Fin 3) t
    | ⟨2, _⟩ => accAt5 a V c t.val
  Φ t := Phi5 a V c t.val
  q _ := fullShare
  owed _ := 0

theorem A_eq5 (c : Dev nD) (w : Fin (cfg5 a).W) : (dat5 a V c).A w = V c (Pipeline.arrRef spec5 w) := by
  dsimp only [dat5]

theorem afterU5 (c : Dev nD) (t : Fin (cfg5 a).N) : (dat5 a V c).after (0 : Fin 3) t = iblk5 a V c (0 : Fin 3) t := by dsimp only [dat5]
theorem afterV5 (c : Dev nD) (t : Fin (cfg5 a).N) : (dat5 a V c).after (1 : Fin 3) t = iblk5 a V c (1 : Fin 3) t := by dsimp only [dat5]
theorem afterO5 (c : Dev nD) (t : Fin (cfg5 a).N) : (dat5 a V c).after (2 : Fin 3) t = accAt5 a V c t.val := by dsimp only [dat5]

theorem dat_Φ5 (c : Dev nD) (t : Fin ((cfg5 a).N + 1)) : (dat5 a V c).Φ t = Phi5 a V c t.val := by dsimp only [dat5]

theorem dat_Φ_castSucc5 (c : Dev nD) (t : Fin (cfg5 a).N) : (dat5 a V c).Φ t.castSucc = Phi5 a V c t.val := by
  rw [dat_Φ5, Fin.coe_castSucc]

theorem dat_Φ_succ5 (c : Dev nD) (t : Fin (cfg5 a).N) : (dat5 a V c).Φ t.succ = Phi5 a V c (t.val + 1) := by
  rw [dat_Φ5, Fin.val_succ]

theorem dat_Φ_zero5 (c : Dev nD) :
    (dat5 a V c).Φ 0 = iprop((∃ r, prngReg c r) ∗ Pipeline.prefHeld pre5 c (fun _ => fullShare) a.1 ∗ Pipeline.scopedRest spec5 c) := by
  rw [dat_Φ5]; rfl

theorem dat_Φ_last5 (c : Dev nD) :
    (dat5 a V c).Φ (Fin.last (cfg5 a).N) = iprop((∃ r, prngReg c r) ∗ Pipeline.prefHeld pre5 c (fun _ => fullShare) a.1
      ∗ owns (c : Thread nD τ) (Memref.whole cc5_scratch0) fullShare (accAt5 a V c ((cfg5 a).N - 1))
      ∗ Pipeline.scopedRestBut spec5 c [cc5_scratch0]) := by
  rw [dat_Φ5, Fin.val_last]
  exact Phi_pos5 a V c _ (Nat.pos_iff_ne_zero.mp (N_pos5 a))

/-! ## The inputs' staging buffers -/

/-- Input window 0's current staging buffer holds its block at every point, fetched there or not: unfetched, the
    block index has not moved since the point before, and the body leaves the block in place. -/
theorem beforeU5 (c : Dev nD) (t : Fin (cfg5 a).N) (d) : (dat5 a V c).before (0 : Fin 3) t d = iblk5 a V c (0 : Fin 3) t :=
  ((dat5 a V c).before_in_eq_fetched (0 : Fin 3) rfl (fun _ => rfl) (fun _ _ _ => rfl)
    (fun t => by rw [afterU5]; unfold Dat.blockOf iblk5; rw [A_eq5]; try rfl) t d).trans
    (by unfold Dat.fetched Dat.blockOf iblk5; rw [A_eq5]; try rfl)

/-- The same for input window 1. -/
theorem beforeV5 (c : Dev nD) (t : Fin (cfg5 a).N) (d) : (dat5 a V c).before (1 : Fin 3) t d = iblk5 a V c (1 : Fin 3) t :=
  ((dat5 a V c).before_in_eq_fetched (1 : Fin 3) rfl (fun _ => rfl) (fun _ _ _ => rfl)
    (fun t => by rw [afterV5]; unfold Dat.blockOf iblk5; rw [A_eq5]; try rfl) t d).trans
    (by unfold Dat.fetched Dat.blockOf iblk5; rw [A_eq5]; try rfl)

end Cert.KernelIdeal.Gen

end
-- ==== Proof.SegI5.lean ====
import proofs.«425429_j48773648614109_2_alg».proof.Proof.DatI5
import Idealize.ShloMosaic.Lib.Pipeline.Frame
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 5 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v47`) and the rest; the rest splits once more into the two
  prefetched index tables (`main_v44`, `main_v46`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg5

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin5 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 5 over the thread state "every unscoped buffer at a valuation, the generator register at some state, nothing
    owed": entered at `Win`, left at `Wout`, for any family of proof data whose member at this pipeline is `dat5` at the
    entry valuation (`hd`), given that the two index tables hold the admissible contents at entry (`htab`), that `Wout`
    has each window's array at what the pipeline leaves there (`hF`) and agrees with `Win` off the arrays (`hrest`), and
    the body obligation (`hb`). -/
def reg5
    (hd : ∀ c, pdats p5 c = dat5 (a p5) (vin5 Win) c)
    (hb : ∀ c, BodyObligation (dat5 (a p5) (vin5 Win) c) (defs₀ (F := F)) Variants.none () Set.univ)
    (htab : ∀ c (k : Fin pre5.K), Win c (pre5.ref k) = (a p5 : (pcfg5 (F := F)).Adm).1 k)
    (hF : ∀ c w, (pdats p5 c).arrAt w (Pipeline.pin (pcfgs (F := F)) a p5).N = Wout c (Pipeline.arrRef spec5 w))
    (hrest : ∀ c (b : Ref sig .tc), b ∉ Finset.univ.image (Pipeline.arrRef spec5) → Wout c b = Win c b) :
    Pipeline.RegionSeg (pcfgs (F := F)) a pdats () defs₀ Variants.none (fun _ => (∅ : Finset Unit)) (fun _ _ => (0 : ℕ)) p5 where
  win := (launch5 (F := F)).win.to₀
  block_pos := (launch5 (F := F)).block_pos
  stage_whole := (launch5 (F := F)).stage_whole
  K := PEmpty
  osem k := k.elim
  ho := Pipeline.OwnSemFacts.none _
  hbody c := by rw [hd c]; exact (hb c).loose
  hwaits := Pipeline.hwaits_of_owed_zero _ _ _ _ _ _ p5 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre5 c (fun _ => fullShare) (a p5 : (pcfg5 (F := F)).Adm).1)
  Z c := Pipeline.unscopedRestP (Ix := Unit) (Name := ℕ) (U := UR sig nD τ) (Lvl := ℕ) pre5 spec5 c (vin5 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p5 c).arrays ((pdats p5 c).arrAt · 0) ∗ Pipeline.prefHeld pre5 c (fun _ => fullShare) (a p5 : (pcfg5 (F := F)).Adm).1
            ∗ Pipeline.unscopedRestP pre5 spec5 c (vin5 Win c)) := by
      have h := Pipeline.arrays_of_unscopedBufs (p := p5) (pcfgs (F := F)) a pdats (launch5 (F := F)).win (launch5 (F := F)).arr_whole c
        (by rw [hd c]; exact (dat5 (a p5) (vin5 Win) c).share_full fun _ => rfl) (vin5 Win c) (by rw [hd c]; exact A_eq5 (a p5) (vin5 Win) c)
      rw [Pipeline.unscopedBufs_held c (Win c), Pipeline.unscopedRest_split (launch5 (F := F)).pre c (vin5 Win c)] at h
      rw [← show (fun k => vin5 Win c (pre5.ref k)) = (a p5 : (pcfg5 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p5 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero5]
    exact .rfl
  hout c := by
    -- the accumulator's points-to at its last value is one of the scoped buffers "at some contents"
    rw [Pipeline.ownSems0_none, hd c,
      show (dat5 (a p5) (vin5 Win) c).Φ (Fin.last (Pipeline.pin (pcfgs (F := F)) a p5).N) = _ from dat_Φ_last5 (a p5) (vin5 Win) c,
      show (Pipeline.scopedRest (Pipeline.pin (pcfgs (F := F)) a p5).spec c : sProp 𝕄) = _ from scopedRest5_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p5 c).arrays ((pdats p5 c).arrAt · (Pipeline.pin (pcfgs (F := F)) a p5).N)
          ∗ Pipeline.prefHeld pre5 c (fun _ => fullShare) (a p5 : (pcfg5 (F := F)).Adm).1 ∗ Pipeline.unscopedRestP pre5 spec5 c (vin5 Win c))
        ⊢ (StableHlo.held (c : Thread nD τ) (Pipeline.ucRefs τ sig) (Wout c) : sProp 𝕄) := by
      have h := Pipeline.unscopedBufs_of_arrays (p := p5) (pcfgs (F := F)) a (Ix := Unit) (Name := ℕ) (U := UR sig nD τ) (Lvl := ℕ)
        (launch5 (F := F)).win (launch5 (F := F)).arr_whole c pdats (by rw [hd c]; exact (dat5 (a p5) (vin5 Win) c).share_full fun _ => rfl)
        (vin5 Win c) (vin5 Wout c) ((pdats p5 c).arrAt · (Pipeline.pin (pcfgs (F := F)) a p5).N) (hF c) (hrest c)
      rw [Pipeline.unscopedBufs_held c (Wout c), Pipeline.unscopedRest_split (launch5 (F := F)).pre c (vin5 Win c)] at h
      rw [← show (fun k => vin5 Win c (pre5.ref k)) = (a p5 : (pcfg5 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p5 c).owed (Fin.last _) = 0 from by rw [hd c]; rfl]
    icases HO with ⟨%W, -, HO⟩; iexists W; iexact HO

end Seg5

end Cert.KernelIdeal.Gen

end
-- ==== Proof.RecI5.lean ====
import proofs.«425429_j48773648614109_2_alg».proof.Proof.SegI5

/-! Region 5's segment record from facts about the two valuations alone.

The region's record (`reg5`) asks, of the valuation at the exit, each window's array at what the pipeline leaves
there. The two input arrays are never written, so they are left as found: that half asks only that the exit
valuation agrees with the entry valuation at them. The output array is left at the contents the write-backs build
(`outArr5`), a function of the entry valuation: that half asks that the exit valuation holds exactly that. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec5

/-- What region 5 leaves in its output array, from the admissible tables and the valuation at its entry: the array
    after every point's write-back. -/
def outArr5 (adm : (pcfg5 (F := F)).Adm) (Win : Dev nD → Valuation τ sig (Elt F)) (c : Dev nD) :
    Buf (Elt F) ((c : Thread nD τ).loc (Pipeline.arrRef spec5 (2 : Fin 3))) :=
  (dat5 adm (vin5 Win) c).arrAt (2 : Fin 3) (cfg5 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of5
    (hd : ∀ c, pdats p5 c = dat5 (a p5) (vin5 Win) c)
    (hin : ∀ c (w : Fin 3), w ≠ 2 → Wout c (Pipeline.arrRef spec5 w) = Win c (Pipeline.arrRef spec5 w))
    (hout : ∀ c, Wout c (Pipeline.arrRef spec5 (2 : Fin 3)) = outArr5 (a p5) Win c)
    (c : Dev nD) (w : Fin 3) :
    (pdats p5 c).arrAt w (Pipeline.pin (pcfgs (F := F)) a p5).N = Wout c (Pipeline.arrRef spec5 w) := by
  rw [hd c]
  match w with
  | ⟨0, _⟩ =>
    exact (Dat.arrAt_in (dat5 (a p5) (vin5 Win) c) (0 : Fin 3) rfl _).trans
      ((A_eq5 (a p5) (vin5 Win) c (0 : Fin 3)).trans (hin c (0 : Fin 3) (by decide)).symm)
  | ⟨1, _⟩ =>
    exact (Dat.arrAt_in (dat5 (a p5) (vin5 Win) c) (1 : Fin 3) rfl _).trans
      ((A_eq5 (a p5) (vin5 Win) c (1 : Fin 3)).trans (hin c (1 : Fin 3) (by decide)).symm)
  | ⟨2, _⟩ => exact (hout c).symm

/-- REGION 5's record between two valuations: entered at `Win`, left at `Wout`. -/
def rec5
    (hd : ∀ c, pdats p5 c = dat5 (a p5) (vin5 Win) c)
    (hb : ∀ c, BodyObligation (dat5 (a p5) (vin5 Win) c) (defs₀ (F := F)) Variants.none () Set.univ)
    (htab : ∀ c (k : Fin pre5.K), Win c (pre5.ref k) = (a p5 : (pcfg5 (F := F)).Adm).1 k)
    (hin : ∀ c (w : Fin 3), w ≠ 2 → Wout c (Pipeline.arrRef spec5 w) = Win c (Pipeline.arrRef spec5 w))
    (hout : ∀ c, Wout c (Pipeline.arrRef spec5 (2 : Fin 3)) = outArr5 (a p5) Win c)
    (hrest : ∀ c (b : Ref sig .tc), b ∉ Finset.univ.image (Pipeline.arrRef spec5) → Wout c b = Win c b) :
    Pipeline.RegionSeg (pcfgs (F := F)) a pdats () defs₀ Variants.none (fun _ => (∅ : Finset Unit)) (fun _ _ => (0 : ℕ)) p5 :=
  reg5 a pdats Win Wout hd hb htab (hF_of5 a pdats Win Wout hd hin hout) hrest

end Rec5

end Cert.KernelIdeal.Gen

end
-- ==== Proof.DatI6.lean ====
import proofs.«425429_j48773648614109_2_alg».proof.Proof.LaunchI
import proofs.«425429_j48773648614109_2_alg».proof.Proof.Gen.KernelIdeal.Skeleton
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg6 (F := F)).Adm)
  (V : (c : Dev nD) → (b : Ref sig .tc) → Buf (Elt F) ((c : Thread nD τ).loc b))

/-- The pipeline of @main this module is about. -/
abbrev p6 : Fin 8 := 6

/-! ## The grid's points by number -/

/-- The region's grid has a point. -/
theorem N_pos6 : 0 < (cfg6 a).N := by
  rw [show (cfg6 a).N = grid6.N from rfl, N_6]; exact Nat.succ_pos _

/-- The grid point numbered `n`; a number past the grid wraps around (such a point is never consulted). -/
def pt6 (n : ℕ) : Fin (cfg6 a).N := ⟨n % (cfg6 a).N, Nat.mod_lt _ (N_pos6 a)⟩

/-- A grid point is the point of its own number. -/
theorem pt_val6 (t : Fin (cfg6 a).N) : pt6 a t.val = t := Fin.ext (Nat.mod_eq_of_lt t.isLt)

/-! ## The windows' blocks -/

/-- Window `w`'s block at point `t`, read off its array as the region finds it (`V`). -/
def iblk6 (c : Dev nD) (w : Fin (cfg6 a).W) (t : Fin (cfg6 a).N) :
    (((cfg6 a).win w).xblock ((cfg6 a).grid.coords t)).Idx → Elt F ((cfg6 a).win w).elt :=
  (((cfg6 a).win w).blk t).view.read (Elt F) (V c (Pipeline.arrRef spec6 w))

/-! ## The accumulation -/

/-- What the carried scratch holds AFTER the point numbered `n`: the sum so far. After the first point it is that
    point's term added to the zero the first point stores; after a later point, that point's term added to what
    the point before left. -/
def accAt6 (c : Dev nD) : ℕ → Vec F S1x1 .f32
  | 0 => k6_pay2 (iblk6 a V c (0 : Fin 3) (pt6 a 0)) (iblk6 a V c (1 : Fin 3) (pt6 a 0)) (k6_pay1 (F := F))
  | n + 1 => k6_pay2 (iblk6 a V c (0 : Fin 3) (pt6 a (n + 1))) (iblk6 a V c (1 : Fin 3) (pt6 a (n + 1))) (accAt6 c n)

theorem accAt_zero6 (c : Dev nD) :
    accAt6 a V c 0 = k6_pay2 (iblk6 a V c (0 : Fin 3) (pt6 a 0)) (iblk6 a V c (1 : Fin 3) (pt6 a 0)) (k6_pay1 (F := F)) := rfl

theorem accAt_succ6 (c : Dev nD) (n : ℕ) :
    accAt6 a V c (n + 1) = k6_pay2 (iblk6 a V c (0 : Fin 3) (pt6 a (n + 1))) (iblk6 a V c (1 : Fin 3) (pt6 a (n + 1))) (accAt6 a V c n) := rfl

/-! ## The region invariant -/

/-- The region invariant before the position numbered `n`: the generator register at some state and the prefetched
    tables held whole throughout; before the first point every scoped buffer no window stages at anything; afterwards
    the carried scratch at the sum the point before left (`accAt6`), the other such buffers at anything. -/
def Phi6 (c : Dev nD) : ℕ → sProp 𝕄
  | 0 => iprop((∃ r, prngReg c r) ∗ Pipeline.prefHeld pre6 c (fun _ => fullShare) a.1 ∗ Pipeline.scopedRest spec6 c)
  | n + 1 => iprop((∃ r, prngReg c r) ∗ Pipeline.prefHeld pre6 c (fun _ => fullShare) a.1
      ∗ owns (c : Thread nD τ) (Memref.whole cc6_scratch0) fullShare (accAt6 a V c n)
      ∗ Pipeline.scopedRestBut spec6 c [cc6_scratch0])

theorem Phi_zero6 (c : Dev nD) :
    Phi6 a V c 0 = iprop((∃ r, prngReg c r) ∗ Pipeline.prefHeld pre6 c (fun _ => fullShare) a.1 ∗ Pipeline.scopedRest spec6 c) := rfl

theorem Phi_succ6 (c : Dev nD) (n : ℕ) :
    Phi6 a V c (n + 1) = iprop((∃ r, prngReg c r) ∗ Pipeline.prefHeld pre6 c (fun _ => fullShare) a.1
      ∗ owns (c : Thread nD τ) (Memref.whole cc6_scratch0) fullShare (accAt6 a V c n)
      ∗ Pipeline.scopedRestBut spec6 c [cc6_scratch0]) := rfl

theorem Phi_pos6 (c : Dev nD) (n : ℕ) (hn : n ≠ 0) :
    Phi6 a V c n = iprop((∃ r, prngReg c r) ∗ Pipeline.prefHeld pre6 c (fun _ => fullShare) a.1
      ∗ owns (c : Thread nD τ) (Memref.whole cc6_scratch0) fullShare (accAt6 a V c (n - 1))
      ∗ Pipeline.scopedRestBut spec6 c [cc6_scratch0]) := by
  cases n with
  | zero => exact absurd rfl hn
  | succ n => rfl

/-! ## The pipeline's proof data -/

/-- The proof data of region 6's pipeline on core `c`: the arrays as the region finds them (`V`); after the body at
    point `t` each input's buffer at its block and the output's at the sum so far (the output window is idle at
    every point but the last, where this is the total); the invariant `Phi6`; nothing owed; full shares. -/
def dat6 (c : Dev nD) : Dat τ (Elt F) Unit ℕ (UR sig nD τ) ℕ (cfg6 a) c where
  A w := V c (Pipeline.arrRef spec6 w)
  after w t := match w with
    | ⟨0, _⟩ => iblk6 a V c (0 : Fin 3) t
    | ⟨1, _⟩ => iblk6 a V c (1 : Fin 3) t
    | ⟨2, _⟩ => accAt6 a V c t.val
  Φ t := Phi6 a V c t.val
  q _ := fullShare
  owed _ := 0

theorem A_eq6 (c : Dev nD) (w : Fin (cfg6 a).W) : (dat6 a V c).A w = V c (Pipeline.arrRef spec6 w) := by
  dsimp only [dat6]

theorem afterU6 (c : Dev nD) (t : Fin (cfg6 a).N) : (dat6 a V c).after (0 : Fin 3) t = iblk6 a V c (0 : Fin 3) t := by dsimp only [dat6]
theorem afterV6 (c : Dev nD) (t : Fin (cfg6 a).N) : (dat6 a V c).after (1 : Fin 3) t = iblk6 a V c (1 : Fin 3) t := by dsimp only [dat6]
theorem afterO6 (c : Dev nD) (t : Fin (cfg6 a).N) : (dat6 a V c).after (2 : Fin 3) t = accAt6 a V c t.val := by dsimp only [dat6]

theorem dat_Φ6 (c : Dev nD) (t : Fin ((cfg6 a).N + 1)) : (dat6 a V c).Φ t = Phi6 a V c t.val := by dsimp only [dat6]

theorem dat_Φ_castSucc6 (c : Dev nD) (t : Fin (cfg6 a).N) : (dat6 a V c).Φ t.castSucc = Phi6 a V c t.val := by
  rw [dat_Φ6, Fin.coe_castSucc]

theorem dat_Φ_succ6 (c : Dev nD) (t : Fin (cfg6 a).N) : (dat6 a V c).Φ t.succ = Phi6 a V c (t.val + 1) := by
  rw [dat_Φ6, Fin.val_succ]

theorem dat_Φ_zero6 (c : Dev nD) :
    (dat6 a V c).Φ 0 = iprop((∃ r, prngReg c r) ∗ Pipeline.prefHeld pre6 c (fun _ => fullShare) a.1 ∗ Pipeline.scopedRest spec6 c) := by
  rw [dat_Φ6]; rfl

theorem dat_Φ_last6 (c : Dev nD) :
    (dat6 a V c).Φ (Fin.last (cfg6 a).N) = iprop((∃ r, prngReg c r) ∗ Pipeline.prefHeld pre6 c (fun _ => fullShare) a.1
      ∗ owns (c : Thread nD τ) (Memref.whole cc6_scratch0) fullShare (accAt6 a V c ((cfg6 a).N - 1))
      ∗ Pipeline.scopedRestBut spec6 c [cc6_scratch0]) := by
  rw [dat_Φ6, Fin.val_last]
  exact Phi_pos6 a V c _ (Nat.pos_iff_ne_zero.mp (N_pos6 a))

/-! ## The inputs' staging buffers -/

/-- Input window 0's current staging buffer holds its block at every point, fetched there or not: unfetched, the
    block index has not moved since the point before, and the body leaves the block in place. -/
theorem beforeU6 (c : Dev nD) (t : Fin (cfg6 a).N) (d) : (dat6 a V c).before (0 : Fin 3) t d = iblk6 a V c (0 : Fin 3) t :=
  ((dat6 a V c).before_in_eq_fetched (0 : Fin 3) rfl (fun _ => rfl) (fun _ _ _ => rfl)
    (fun t => by rw [afterU6]; unfold Dat.blockOf iblk6; rw [A_eq6]; try rfl) t d).trans
    (by unfold Dat.fetched Dat.blockOf iblk6; rw [A_eq6]; try rfl)

/-- The same for input window 1. -/
theorem beforeV6 (c : Dev nD) (t : Fin (cfg6 a).N) (d) : (dat6 a V c).before (1 : Fin 3) t d = iblk6 a V c (1 : Fin 3) t :=
  ((dat6 a V c).before_in_eq_fetched (1 : Fin 3) rfl (fun _ => rfl) (fun _ _ _ => rfl)
    (fun t => by rw [afterV6]; unfold Dat.blockOf iblk6; rw [A_eq6]; try rfl) t d).trans
    (by unfold Dat.fetched Dat.blockOf iblk6; rw [A_eq6]; try rfl)

end Cert.KernelIdeal.Gen

end
-- ==== Proof.SegI6.lean ====
import proofs.«425429_j48773648614109_2_alg».proof.Proof.DatI6
import Idealize.ShloMosaic.Lib.Pipeline.Frame
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 6 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v54`) and the rest; the rest splits once more into the two
  prefetched index tables (`main_v51`, `main_v53`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg6

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin6 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 6 over the thread state "every unscoped buffer at a valuation, the generator register at some state, nothing
    owed": entered at `Win`, left at `Wout`, for any family of proof data whose member at this pipeline is `dat6` at the
    entry valuation (`hd`), given that the two index tables hold the admissible contents at entry (`htab`), that `Wout`
    has each window's array at what the pipeline leaves there (`hF`) and agrees with `Win` off the arrays (`hrest`), and
    the body obligation (`hb`). -/
def reg6
    (hd : ∀ c, pdats p6 c = dat6 (a p6) (vin6 Win) c)
    (hb : ∀ c, BodyObligation (dat6 (a p6) (vin6 Win) c) (defs₀ (F := F)) Variants.none () Set.univ)
    (htab : ∀ c (k : Fin pre6.K), Win c (pre6.ref k) = (a p6 : (pcfg6 (F := F)).Adm).1 k)
    (hF : ∀ c w, (pdats p6 c).arrAt w (Pipeline.pin (pcfgs (F := F)) a p6).N = Wout c (Pipeline.arrRef spec6 w))
    (hrest : ∀ c (b : Ref sig .tc), b ∉ Finset.univ.image (Pipeline.arrRef spec6) → Wout c b = Win c b) :
    Pipeline.RegionSeg (pcfgs (F := F)) a pdats () defs₀ Variants.none (fun _ => (∅ : Finset Unit)) (fun _ _ => (0 : ℕ)) p6 where
  win := (launch6 (F := F)).win.to₀
  block_pos := (launch6 (F := F)).block_pos
  stage_whole := (launch6 (F := F)).stage_whole
  K := PEmpty
  osem k := k.elim
  ho := Pipeline.OwnSemFacts.none _
  hbody c := by rw [hd c]; exact (hb c).loose
  hwaits := Pipeline.hwaits_of_owed_zero _ _ _ _ _ _ p6 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre6 c (fun _ => fullShare) (a p6 : (pcfg6 (F := F)).Adm).1)
  Z c := Pipeline.unscopedRestP (Ix := Unit) (Name := ℕ) (U := UR sig nD τ) (Lvl := ℕ) pre6 spec6 c (vin6 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p6 c).arrays ((pdats p6 c).arrAt · 0) ∗ Pipeline.prefHeld pre6 c (fun _ => fullShare) (a p6 : (pcfg6 (F := F)).Adm).1
            ∗ Pipeline.unscopedRestP pre6 spec6 c (vin6 Win c)) := by
      have h := Pipeline.arrays_of_unscopedBufs (p := p6) (pcfgs (F := F)) a pdats (launch6 (F := F)).win (launch6 (F := F)).arr_whole c
        (by rw [hd c]; exact (dat6 (a p6) (vin6 Win) c).share_full fun _ => rfl) (vin6 Win c) (by rw [hd c]; exact A_eq6 (a p6) (vin6 Win) c)
      rw [Pipeline.unscopedBufs_held c (Win c), Pipeline.unscopedRest_split (launch6 (F := F)).pre c (vin6 Win c)] at h
      rw [← show (fun k => vin6 Win c (pre6.ref k)) = (a p6 : (pcfg6 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p6 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero6]
    exact .rfl
  hout c := by
    -- the accumulator's points-to at its last value is one of the scoped buffers "at some contents"
    rw [Pipeline.ownSems0_none, hd c,
      show (dat6 (a p6) (vin6 Win) c).Φ (Fin.last (Pipeline.pin (pcfgs (F := F)) a p6).N) = _ from dat_Φ_last6 (a p6) (vin6 Win) c,
      show (Pipeline.scopedRest (Pipeline.pin (pcfgs (F := F)) a p6).spec c : sProp 𝕄) = _ from scopedRest6_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p6 c).arrays ((pdats p6 c).arrAt · (Pipeline.pin (pcfgs (F := F)) a p6).N)
          ∗ Pipeline.prefHeld pre6 c (fun _ => fullShare) (a p6 : (pcfg6 (F := F)).Adm).1 ∗ Pipeline.unscopedRestP pre6 spec6 c (vin6 Win c))
        ⊢ (StableHlo.held (c : Thread nD τ) (Pipeline.ucRefs τ sig) (Wout c) : sProp 𝕄) := by
      have h := Pipeline.unscopedBufs_of_arrays (p := p6) (pcfgs (F := F)) a (Ix := Unit) (Name := ℕ) (U := UR sig nD τ) (Lvl := ℕ)
        (launch6 (F := F)).win (launch6 (F := F)).arr_whole c pdats (by rw [hd c]; exact (dat6 (a p6) (vin6 Win) c).share_full fun _ => rfl)
        (vin6 Win c) (vin6 Wout c) ((pdats p6 c).arrAt · (Pipeline.pin (pcfgs (F := F)) a p6).N) (hF c) (hrest c)
      rw [Pipeline.unscopedBufs_held c (Wout c), Pipeline.unscopedRest_split (launch6 (F := F)).pre c (vin6 Win c)] at h
      rw [← show (fun k => vin6 Win c (pre6.ref k)) = (a p6 : (pcfg6 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p6 c).owed (Fin.last _) = 0 from by rw [hd c]; rfl]
    icases HO with ⟨%W, -, HO⟩; iexists W; iexact HO

end Seg6

end Cert.KernelIdeal.Gen

end
-- ==== Proof.RecI6.lean ====
import proofs.«425429_j48773648614109_2_alg».proof.Proof.SegI6

/-! Region 6's segment record from facts about the two valuations alone.

The region's record (`reg6`) asks, of the valuation at the exit, each window's array at what the pipeline leaves
there. The two input arrays are never written, so they are left as found: that half asks only that the exit
valuation agrees with the entry valuation at them. The output array is left at the contents the write-backs build
(`outArr6`), a function of the entry valuation: that half asks that the exit valuation holds exactly that. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec6

/-- What region 6 leaves in its output array, from the admissible tables and the valuation at its entry: the array
    after every point's write-back. -/
def outArr6 (adm : (pcfg6 (F := F)).Adm) (Win : Dev nD → Valuation τ sig (Elt F)) (c : Dev nD) :
    Buf (Elt F) ((c : Thread nD τ).loc (Pipeline.arrRef spec6 (2 : Fin 3))) :=
  (dat6 adm (vin6 Win) c).arrAt (2 : Fin 3) (cfg6 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of6
    (hd : ∀ c, pdats p6 c = dat6 (a p6) (vin6 Win) c)
    (hin : ∀ c (w : Fin 3), w ≠ 2 → Wout c (Pipeline.arrRef spec6 w) = Win c (Pipeline.arrRef spec6 w))
    (hout : ∀ c, Wout c (Pipeline.arrRef spec6 (2 : Fin 3)) = outArr6 (a p6) Win c)
    (c : Dev nD) (w : Fin 3) :
    (pdats p6 c).arrAt w (Pipeline.pin (pcfgs (F := F)) a p6).N = Wout c (Pipeline.arrRef spec6 w) := by
  rw [hd c]
  match w with
  | ⟨0, _⟩ =>
    exact (Dat.arrAt_in (dat6 (a p6) (vin6 Win) c) (0 : Fin 3) rfl _).trans
      ((A_eq6 (a p6) (vin6 Win) c (0 : Fin 3)).trans (hin c (0 : Fin 3) (by decide)).symm)
  | ⟨1, _⟩ =>
    exact (Dat.arrAt_in (dat6 (a p6) (vin6 Win) c) (1 : Fin 3) rfl _).trans
      ((A_eq6 (a p6) (vin6 Win) c (1 : Fin 3)).trans (hin c (1 : Fin 3) (by decide)).symm)
  | ⟨2, _⟩ => exact (hout c).symm

/-- REGION 6's record between two valuations: entered at `Win`, left at `Wout`. -/
def rec6
    (hd : ∀ c, pdats p6 c = dat6 (a p6) (vin6 Win) c)
    (hb : ∀ c, BodyObligation (dat6 (a p6) (vin6 Win) c) (defs₀ (F := F)) Variants.none () Set.univ)
    (htab : ∀ c (k : Fin pre6.K), Win c (pre6.ref k) = (a p6 : (pcfg6 (F := F)).Adm).1 k)
    (hin : ∀ c (w : Fin 3), w ≠ 2 → Wout c (Pipeline.arrRef spec6 w) = Win c (Pipeline.arrRef spec6 w))
    (hout : ∀ c, Wout c (Pipeline.arrRef spec6 (2 : Fin 3)) = outArr6 (a p6) Win c)
    (hrest : ∀ c (b : Ref sig .tc), b ∉ Finset.univ.image (Pipeline.arrRef spec6) → Wout c b = Win c b) :
    Pipeline.RegionSeg (pcfgs (F := F)) a pdats () defs₀ Variants.none (fun _ => (∅ : Finset Unit)) (fun _ _ => (0 : ℕ)) p6 :=
  reg6 a pdats Win Wout hd hb htab (hF_of6 a pdats Win Wout hd hin hout) hrest

end Rec6

end Cert.KernelIdeal.Gen

end
-- ==== Proof.DatI7.lean ====
import proofs.«425429_j48773648614109_2_alg».proof.Proof.LaunchI
import proofs.«425429_j48773648614109_2_alg».proof.Proof.Gen.KernelIdeal.Skeleton
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg7 (F := F)).Adm)
  (V : (c : Dev nD) → (b : Ref sig .tc) → Buf (Elt F) ((c : Thread nD τ).loc b))

/-- The pipeline of @main this module is about. -/
abbrev p7 : Fin 8 := 7

/-! ## The grid's points by number -/

/-- The region's grid has a point. -/
theorem N_pos7 : 0 < (cfg7 a).N := by
  rw [show (cfg7 a).N = grid7.N from rfl, N_7]; exact Nat.succ_pos _

/-- The grid point numbered `n`; a number past the grid wraps around (such a point is never consulted). -/
def pt7 (n : ℕ) : Fin (cfg7 a).N := ⟨n % (cfg7 a).N, Nat.mod_lt _ (N_pos7 a)⟩

/-- A grid point is the point of its own number. -/
theorem pt_val7 (t : Fin (cfg7 a).N) : pt7 a t.val = t := Fin.ext (Nat.mod_eq_of_lt t.isLt)

/-! ## The windows' blocks -/

/-- Window `w`'s block at point `t`, read off its array as the region finds it (`V`). -/
def iblk7 (c : Dev nD) (w : Fin (cfg7 a).W) (t : Fin (cfg7 a).N) :
    (((cfg7 a).win w).xblock ((cfg7 a).grid.coords t)).Idx → Elt F ((cfg7 a).win w).elt :=
  (((cfg7 a).win w).blk t).view.read (Elt F) (V c (Pipeline.arrRef spec7 w))

/-! ## The accumulation -/

/-- What the carried scratch holds AFTER the point numbered `n`: the sum so far. After the first point it is that
    point's term added to the zero the first point stores; after a later point, that point's term added to what
    the point before left. -/
def accAt7 (c : Dev nD) : ℕ → Vec F S1x1 .f32
  | 0 => k7_pay2 (iblk7 a V c (0 : Fin 3) (pt7 a 0)) (iblk7 a V c (1 : Fin 3) (pt7 a 0)) (k7_pay1 (F := F))
  | n + 1 => k7_pay2 (iblk7 a V c (0 : Fin 3) (pt7 a (n + 1))) (iblk7 a V c (1 : Fin 3) (pt7 a (n + 1))) (accAt7 c n)

theorem accAt_zero7 (c : Dev nD) :
    accAt7 a V c 0 = k7_pay2 (iblk7 a V c (0 : Fin 3) (pt7 a 0)) (iblk7 a V c (1 : Fin 3) (pt7 a 0)) (k7_pay1 (F := F)) := rfl

theorem accAt_succ7 (c : Dev nD) (n : ℕ) :
    accAt7 a V c (n + 1) = k7_pay2 (iblk7 a V c (0 : Fin 3) (pt7 a (n + 1))) (iblk7 a V c (1 : Fin 3) (pt7 a (n + 1))) (accAt7 a V c n) := rfl

/-! ## The region invariant -/

/-- The region invariant before the position numbered `n`: the generator register at some state and the prefetched
    tables held whole throughout; before the first point every scoped buffer no window stages at anything; afterwards
    the carried scratch at the sum the point before left (`accAt7`), the other such buffers at anything. -/
def Phi7 (c : Dev nD) : ℕ → sProp 𝕄
  | 0 => iprop((∃ r, prngReg c r) ∗ Pipeline.prefHeld pre7 c (fun _ => fullShare) a.1 ∗ Pipeline.scopedRest spec7 c)
  | n + 1 => iprop((∃ r, prngReg c r) ∗ Pipeline.prefHeld pre7 c (fun _ => fullShare) a.1
      ∗ owns (c : Thread nD τ) (Memref.whole cc7_scratch0) fullShare (accAt7 a V c n)
      ∗ Pipeline.scopedRestBut spec7 c [cc7_scratch0])

theorem Phi_zero7 (c : Dev nD) :
    Phi7 a V c 0 = iprop((∃ r, prngReg c r) ∗ Pipeline.prefHeld pre7 c (fun _ => fullShare) a.1 ∗ Pipeline.scopedRest spec7 c) := rfl

theorem Phi_succ7 (c : Dev nD) (n : ℕ) :
    Phi7 a V c (n + 1) = iprop((∃ r, prngReg c r) ∗ Pipeline.prefHeld pre7 c (fun _ => fullShare) a.1
      ∗ owns (c : Thread nD τ) (Memref.whole cc7_scratch0) fullShare (accAt7 a V c n)
      ∗ Pipeline.scopedRestBut spec7 c [cc7_scratch0]) := rfl

theorem Phi_pos7 (c : Dev nD) (n : ℕ) (hn : n ≠ 0) :
    Phi7 a V c n = iprop((∃ r, prngReg c r) ∗ Pipeline.prefHeld pre7 c (fun _ => fullShare) a.1
      ∗ owns (c : Thread nD τ) (Memref.whole cc7_scratch0) fullShare (accAt7 a V c (n - 1))
      ∗ Pipeline.scopedRestBut spec7 c [cc7_scratch0]) := by
  cases n with
  | zero => exact absurd rfl hn
  | succ n => rfl

/-! ## The pipeline's proof data -/

/-- The proof data of region 7's pipeline on core `c`: the arrays as the region finds them (`V`); after the body at
    point `t` each input's buffer at its block and the output's at the sum so far (the output window is idle at
    every point but the last, where this is the total); the invariant `Phi7`; nothing owed; full shares. -/
def dat7 (c : Dev nD) : Dat τ (Elt F) Unit ℕ (UR sig nD τ) ℕ (cfg7 a) c where
  A w := V c (Pipeline.arrRef spec7 w)
  after w t := match w with
    | ⟨0, _⟩ => iblk7 a V c (0 : Fin 3) t
    | ⟨1, _⟩ => iblk7 a V c (1 : Fin 3) t
    | ⟨2, _⟩ => accAt7 a V c t.val
  Φ t := Phi7 a V c t.val
  q _ := fullShare
  owed _ := 0

theorem A_eq7 (c : Dev nD) (w : Fin (cfg7 a).W) : (dat7 a V c).A w = V c (Pipeline.arrRef spec7 w) := by
  dsimp only [dat7]

theorem afterU7 (c : Dev nD) (t : Fin (cfg7 a).N) : (dat7 a V c).after (0 : Fin 3) t = iblk7 a V c (0 : Fin 3) t := by dsimp only [dat7]
theorem afterV7 (c : Dev nD) (t : Fin (cfg7 a).N) : (dat7 a V c).after (1 : Fin 3) t = iblk7 a V c (1 : Fin 3) t := by dsimp only [dat7]
theorem afterO7 (c : Dev nD) (t : Fin (cfg7 a).N) : (dat7 a V c).after (2 : Fin 3) t = accAt7 a V c t.val := by dsimp only [dat7]

theorem dat_Φ7 (c : Dev nD) (t : Fin ((cfg7 a).N + 1)) : (dat7 a V c).Φ t = Phi7 a V c t.val := by dsimp only [dat7]

theorem dat_Φ_castSucc7 (c : Dev nD) (t : Fin (cfg7 a).N) : (dat7 a V c).Φ t.castSucc = Phi7 a V c t.val := by
  rw [dat_Φ7, Fin.coe_castSucc]

theorem dat_Φ_succ7 (c : Dev nD) (t : Fin (cfg7 a).N) : (dat7 a V c).Φ t.succ = Phi7 a V c (t.val + 1) := by
  rw [dat_Φ7, Fin.val_succ]

theorem dat_Φ_zero7 (c : Dev nD) :
    (dat7 a V c).Φ 0 = iprop((∃ r, prngReg c r) ∗ Pipeline.prefHeld pre7 c (fun _ => fullShare) a.1 ∗ Pipeline.scopedRest spec7 c) := by
  rw [dat_Φ7]; rfl

theorem dat_Φ_last7 (c : Dev nD) :
    (dat7 a V c).Φ (Fin.last (cfg7 a).N) = iprop((∃ r, prngReg c r) ∗ Pipeline.prefHeld pre7 c (fun _ => fullShare) a.1
      ∗ owns (c : Thread nD τ) (Memref.whole cc7_scratch0) fullShare (accAt7 a V c ((cfg7 a).N - 1))
      ∗ Pipeline.scopedRestBut spec7 c [cc7_scratch0]) := by
  rw [dat_Φ7, Fin.val_last]
  exact Phi_pos7 a V c _ (Nat.pos_iff_ne_zero.mp (N_pos7 a))

/-! ## The inputs' staging buffers -/

/-- Input window 0's current staging buffer holds its block at every point, fetched there or not: unfetched, the
    block index has not moved since the point before, and the body leaves the block in place. -/
theorem beforeU7 (c : Dev nD) (t : Fin (cfg7 a).N) (d) : (dat7 a V c).before (0 : Fin 3) t d = iblk7 a V c (0 : Fin 3) t :=
  ((dat7 a V c).before_in_eq_fetched (0 : Fin 3) rfl (fun _ => rfl) (fun _ _ _ => rfl)
    (fun t => by rw [afterU7]; unfold Dat.blockOf iblk7; rw [A_eq7]; try rfl) t d).trans
    (by unfold Dat.fetched Dat.blockOf iblk7; rw [A_eq7]; try rfl)

/-- The same for input window 1. -/
theorem beforeV7 (c : Dev nD) (t : Fin (cfg7 a).N) (d) : (dat7 a V c).before (1 : Fin 3) t d = iblk7 a V c (1 : Fin 3) t :=
  ((dat7 a V c).before_in_eq_fetched (1 : Fin 3) rfl (fun _ => rfl) (fun _ _ _ => rfl)
    (fun t => by rw [afterV7]; unfold Dat.blockOf iblk7; rw [A_eq7]; try rfl) t d).trans
    (by unfold Dat.fetched Dat.blockOf iblk7; rw [A_eq7]; try rfl)

end Cert.KernelIdeal.Gen

end
-- ==== Proof.SegI7.lean ====
import proofs.«425429_j48773648614109_2_alg».proof.Proof.DatI7
import Idealize.ShloMosaic.Lib.Pipeline.Frame
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## Region 7 of @main as a segment

The region is entered with every unscoped buffer of the core held at a valuation `Win c`, beside the generator register
at some state and nothing owed, and is left with the same at `Wout c`. Between the two:

* ENTRY. The unscoped buffers split into the three windows' arrays (the two embedding tables' rows are read from
  `main_v6` and `main_v7`, the partial sum is written to `main_v61`) and the rest; the rest splits once more into the two
  prefetched index tables (`main_v58`, `main_v60`), which hold the admissible contents the pipeline is pinned at, and
  what is left, which bypasses the region untouched.
* IN. The generator register, the index tables (whole: the body only reads them) and the scoped buffers no window
  stages (among them the accumulator, at whatever it holds: the body zeroes it at the first point) are the
  invariant at the first point.
* OUT. The invariant at the last point gives them back, the accumulator's value forgotten (the body has copied it to
  the output window at the last point; the region's result is read from that array).
* EXIT. The arrays at what the write-backs left, the index tables and what bypassed the region are again every
  unscoped buffer, at any valuation that has the arrays at their final contents and agrees with the entry valuation
  elsewhere. -/

section Seg7

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- A valuation of the core's buffers read at the TensorCore's references: what the region's proof data are stated at. -/
abbrev vin7 (W : Dev nD → Valuation τ sig (Elt F)) : (c : Dev nD) → (b : Ref sig .tc) → Buf (Elt F) ((c : Thread nD τ).loc b) :=
  fun c b => W c b

-- a library lemma stated over the pinned configuration unifies with the printed one only when unification may
-- unfold plain definitions in a metavariable's type
set_option backward.isDefEq.respectTransparency.types false in
/-- REGION 7 over the thread state "every unscoped buffer at a valuation, the generator register at some state, nothing
    owed": entered at `Win`, left at `Wout`, for any family of proof data whose member at this pipeline is `dat7` at the
    entry valuation (`hd`), given that the two index tables hold the admissible contents at entry (`htab`), that `Wout`
    has each window's array at what the pipeline leaves there (`hF`) and agrees with `Win` off the arrays (`hrest`), and
    the body obligation (`hb`). -/
def reg7
    (hd : ∀ c, pdats p7 c = dat7 (a p7) (vin7 Win) c)
    (hb : ∀ c, BodyObligation (dat7 (a p7) (vin7 Win) c) (defs₀ (F := F)) Variants.none () Set.univ)
    (htab : ∀ c (k : Fin pre7.K), Win c (pre7.ref k) = (a p7 : (pcfg7 (F := F)).Adm).1 k)
    (hF : ∀ c w, (pdats p7 c).arrAt w (Pipeline.pin (pcfgs (F := F)) a p7).N = Wout c (Pipeline.arrRef spec7 w))
    (hrest : ∀ c (b : Ref sig .tc), b ∉ Finset.univ.image (Pipeline.arrRef spec7) → Wout c b = Win c b) :
    Pipeline.RegionSeg (pcfgs (F := F)) a pdats () defs₀ Variants.none (fun _ => (∅ : Finset Unit)) (fun _ _ => (0 : ℕ)) p7 where
  win := (launch7 (F := F)).win.to₀
  block_pos := (launch7 (F := F)).block_pos
  stage_whole := (launch7 (F := F)).stage_whole
  K := PEmpty
  osem k := k.elim
  ho := Pipeline.OwnSemFacts.none _
  hbody c := by rw [hd c]; exact (hb c).loose
  hwaits := Pipeline.hwaits_of_owed_zero _ _ _ _ _ _ p7 fun c t => by rw [hd c]; rfl
  pre c := iprop(StableHlo.held (c : Thread nD τ) (Pipeline.ucRefs τ sig) (Win c) ∗ (∃ r, prngReg c r) ∗ ∃ W, owes (c : Thread nD τ) (0 : CellTallies nD τ sig Unit) W)
  post c := iprop(StableHlo.held (c : Thread nD τ) (Pipeline.ucRefs τ sig) (Wout c) ∗ (∃ r, prngReg c r) ∗ ∃ W, owes (c : Thread nD τ) (0 : CellTallies nD τ sig Unit) W)
  X c := iprop(∃ r, prngReg c r)
  Y c := iprop((∃ r, prngReg c r) ∗ Pipeline.prefHeld pre7 c (fun _ => fullShare) (a p7 : (pcfg7 (F := F)).Adm).1)
  Z c := Pipeline.unscopedRestP (Ix := Unit) (Name := ℕ) (U := UR sig nD τ) (Lvl := ℕ) pre7 spec7 c (vin7 Win c)
  hentry c := by
    -- the unscoped buffers at `Win c`: the arrays at the proof data's entry contents, the two index tables at the
    -- admissible contents, and the rest
    have hsplit : (StableHlo.held (c : Thread nD τ) (Pipeline.ucRefs τ sig) (Win c) : sProp 𝕄)
        ⊢ iprop((pdats p7 c).arrays ((pdats p7 c).arrAt · 0) ∗ Pipeline.prefHeld pre7 c (fun _ => fullShare) (a p7 : (pcfg7 (F := F)).Adm).1
            ∗ Pipeline.unscopedRestP pre7 spec7 c (vin7 Win c)) := by
      have h := Pipeline.arrays_of_unscopedBufs (p := p7) (pcfgs (F := F)) a pdats (launch7 (F := F)).win (launch7 (F := F)).arr_whole c
        (by rw [hd c]; exact (dat7 (a p7) (vin7 Win) c).share_full fun _ => rfl) (vin7 Win c) (by rw [hd c]; exact A_eq7 (a p7) (vin7 Win) c)
      rw [Pipeline.unscopedBufs_held c (Win c), Pipeline.unscopedRest_split (launch7 (F := F)).pre c (vin7 Win c)] at h
      rw [← show (fun k => vin7 Win c (pre7.ref k)) = (a p7 : (pcfg7 (F := F)).Adm).1 from funext fun k => htab c k]
      exact h
    rw [Pipeline.ownSems0_none]
    iintro ⟨⟨Hub, Hp, HO⟩, -, -⟩
    ihave H := hsplit $$ Hub
    icases H with ⟨Ha, Hpf, Hrest⟩
    imodintro
    isplitl [Ha]; · iexact Ha
    isplitl [Hpf]; · iexact Hpf
    isplitl [HO]
    · unfold Pipeline.Dat.owesAt Pipeline.owesWithin
      rw [show (pdats p7 c).owed 0 = 0 from by rw [hd c]; rfl]
      icases HO with ⟨%W, HO⟩; iexists W; isplitr
      · ipureintro; rw [hd c]; exact fun _ _ => Or.inl trivial
      iexact HO
    isplitl [Hp]; · iexact Hp
    iexact Hrest
  hin c := by
    rw [hd c, dat_Φ_zero7]
    exact .rfl
  hout c := by
    -- the accumulator's points-to at its last value is one of the scoped buffers "at some contents"
    rw [Pipeline.ownSems0_none, hd c,
      show (dat7 (a p7) (vin7 Win) c).Φ (Fin.last (Pipeline.pin (pcfgs (F := F)) a p7).N) = _ from dat_Φ_last7 (a p7) (vin7 Win) c,
      show (Pipeline.scopedRest (Pipeline.pin (pcfgs (F := F)) a p7).spec c : sProp 𝕄) = _ from scopedRest7_split c, owns_whole]
    iintro ⟨Hp, Hpf, Hs, Hr⟩
    isplitl [Hp Hpf]
    · isplitl [Hp]; · iexact Hp
      iexact Hpf
    isplitr; · iempintro
    isplitl [Hs]
    · iexists _; iexact Hs
    iexact Hr
  hexit c := by
    -- the converse of the entry's split, at the exit valuation
    have hjoin : iprop((pdats p7 c).arrays ((pdats p7 c).arrAt · (Pipeline.pin (pcfgs (F := F)) a p7).N)
          ∗ Pipeline.prefHeld pre7 c (fun _ => fullShare) (a p7 : (pcfg7 (F := F)).Adm).1 ∗ Pipeline.unscopedRestP pre7 spec7 c (vin7 Win c))
        ⊢ (StableHlo.held (c : Thread nD τ) (Pipeline.ucRefs τ sig) (Wout c) : sProp 𝕄) := by
      have h := Pipeline.unscopedBufs_of_arrays (p := p7) (pcfgs (F := F)) a (Ix := Unit) (Name := ℕ) (U := UR sig nD τ) (Lvl := ℕ)
        (launch7 (F := F)).win (launch7 (F := F)).arr_whole c pdats (by rw [hd c]; exact (dat7 (a p7) (vin7 Win) c).share_full fun _ => rfl)
        (vin7 Win c) (vin7 Wout c) ((pdats p7 c).arrAt · (Pipeline.pin (pcfgs (F := F)) a p7).N) (hF c) (hrest c)
      rw [Pipeline.unscopedBufs_held c (Wout c), Pipeline.unscopedRest_split (launch7 (F := F)).pre c (vin7 Win c)] at h
      rw [← show (fun k => vin7 Win c (pre7.ref k)) = (a p7 : (pcfg7 (F := F)).Adm).1 from funext fun k => htab c k]
      exact h
    iintro ⟨Ha, HO, ⟨HY, Hpf⟩, Hrest⟩
    imodintro
    isplitl [Ha Hpf Hrest]
    · iapply hjoin
      isplitl [Ha]; · iexact Ha
      isplitl [Hpf]; · iexact Hpf
      iexact Hrest
    isplitl [HY]; · iexact HY
    unfold Pipeline.Dat.owesAt Pipeline.owesWithin
    rw [show (pdats p7 c).owed (Fin.last _) = 0 from by rw [hd c]; rfl]
    icases HO with ⟨%W, -, HO⟩; iexists W; iexact HO

end Seg7

end Cert.KernelIdeal.Gen

end
-- ==== Proof.RecI7.lean ====
import proofs.«425429_j48773648614109_2_alg».proof.Proof.SegI7

/-! Region 7's segment record from facts about the two valuations alone.

The region's record (`reg7`) asks, of the valuation at the exit, each window's array at what the pipeline leaves
there. The two input arrays are never written, so they are left as found: that half asks only that the exit
valuation agrees with the entry valuation at them. The output array is left at the contents the write-backs build
(`outArr7`), a function of the entry valuation: that half asks that the exit valuation holds exactly that. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

section Rec7

/-- What region 7 leaves in its output array, from the admissible tables and the valuation at its entry: the array
    after every point's write-back. -/
def outArr7 (adm : (pcfg7 (F := F)).Adm) (Win : Dev nD → Valuation τ sig (Elt F)) (c : Dev nD) :
    Buf (Elt F) ((c : Thread nD τ).loc (Pipeline.arrRef spec7 (2 : Fin 3))) :=
  (dat7 adm (vin7 Win) c).arrAt (2 : Fin 3) (cfg7 adm).N

variable (a : (p : Fin 8) → (pcfgs (F := F) p).Adm)
  (pdats : (p : Fin 8) → (c : Dev nD) → Dat τ (Elt F) Unit ℕ (UR sig nD τ) ℕ (Pipeline.pin (pcfgs (F := F)) a p) c)
  (Win Wout : Dev nD → Valuation τ sig (Elt F))

/-- Each window's array at the exit valuation is what the pipeline leaves there. -/
theorem hF_of7
    (hd : ∀ c, pdats p7 c = dat7 (a p7) (vin7 Win) c)
    (hin : ∀ c (w : Fin 3), w ≠ 2 → Wout c (Pipeline.arrRef spec7 w) = Win c (Pipeline.arrRef spec7 w))
    (hout : ∀ c, Wout c (Pipeline.arrRef spec7 (2 : Fin 3)) = outArr7 (a p7) Win c)
    (c : Dev nD) (w : Fin 3) :
    (pdats p7 c).arrAt w (Pipeline.pin (pcfgs (F := F)) a p7).N = Wout c (Pipeline.arrRef spec7 w) := by
  rw [hd c]
  match w with
  | ⟨0, _⟩ =>
    exact (Dat.arrAt_in (dat7 (a p7) (vin7 Win) c) (0 : Fin 3) rfl _).trans
      ((A_eq7 (a p7) (vin7 Win) c (0 : Fin 3)).trans (hin c (0 : Fin 3) (by decide)).symm)
  | ⟨1, _⟩ =>
    exact (Dat.arrAt_in (dat7 (a p7) (vin7 Win) c) (1 : Fin 3) rfl _).trans
      ((A_eq7 (a p7) (vin7 Win) c (1 : Fin 3)).trans (hin c (1 : Fin 3) (by decide)).symm)
  | ⟨2, _⟩ => exact (hout c).symm

/-- REGION 7's record between two valuations: entered at `Win`, left at `Wout`. -/
def rec7
    (hd : ∀ c, pdats p7 c = dat7 (a p7) (vin7 Win) c)
    (hb : ∀ c, BodyObligation (dat7 (a p7) (vin7 Win) c) (defs₀ (F := F)) Variants.none () Set.univ)
    (htab : ∀ c (k : Fin pre7.K), Win c (pre7.ref k) = (a p7 : (pcfg7 (F := F)).Adm).1 k)
    (hin : ∀ c (w : Fin 3), w ≠ 2 → Wout c (Pipeline.arrRef spec7 w) = Win c (Pipeline.arrRef spec7 w))
    (hout : ∀ c, Wout c (Pipeline.arrRef spec7 (2 : Fin 3)) = outArr7 (a p7) Win c)
    (hrest : ∀ c (b : Ref sig .tc), b ∉ Finset.univ.image (Pipeline.arrRef spec7) → Wout c b = Win c b) :
    Pipeline.RegionSeg (pcfgs (F := F)) a pdats () defs₀ Variants.none (fun _ => (∅ : Finset Unit)) (fun _ _ => (0 : ℕ)) p7 :=
  reg7 a pdats Win Wout hd hb htab (hF_of7 a pdats Win Wout hd hin hout) hrest

end Rec7

end Cert.KernelIdeal.Gen

end
-- ==== Proof.BodyI0.lean ====
import proofs.«425429_j48773648614109_2_alg».proof.Proof.DatI0
import proofs.«425429_j48773648614109_2_alg».proof.Proof.LibWhole
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg0 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset0 (i : grid0.Coords) : Prop :=
  Scalar.cmpi .ne (Scalar.extui (Scalar.cmpi .eq (BitVec.ofNat 32 (i 0).val) 0#32)) 0#32 = 1#1

/-- The grid's one coordinate is below its bound. -/
theorem coord_lt0 (i : grid0.Coords) : (i 0).val < 43008 := (i 0).isLt

/-- The reset is taken exactly at coordinate 0. -/
theorem condReset_iff0 (i : grid0.Coords) : condReset0 i ↔ (i 0).val = 0 :=
  when_coord_iff (lt_trans (coord_lt0 i) (by decide)) (by decide)

/-- The output is stored exactly at the last coordinate. -/
theorem condLast_iff0 (i : grid0.Coords) : k0_cond2 i = 1#1 ↔ (i 0).val = 43007 := by
  unfold k0_cond2
  exact when_coord_iff (lt_trans (coord_lt0 i) (by decide)) (by decide)

/-- The one coordinate of the point numbered `t` is `t`. -/
theorem coords_val0 (t : Fin (cfg0 a).N) : ((grid0.coords t) 0).val = t.val := by
  have hN : t.val < 43008 := lt_of_lt_of_eq t.isLt (show (cfg0 a).N = 43008 from N_0)
  show t.val / grid0.stride 0 % grid0.bound 0 = t.val
  rw [show grid0.stride 0 = 1 from by decide, show grid0.bound 0 = 43008 from rfl, Nat.div_one]
  exact Nat.mod_eq_of_lt hN

/-! ## Where the output window is idle, and where it is written back -/

/-- The output window is idle wherever the output store is not taken, -/
theorem idle_out0 (t : Fin (cfg0 a).N) (h : ¬ k0_cond2 (grid0.coords t) = 1#1) :
    (cfg0 a).idle (2 : Fin 3) ((cfg0 a).grid.coords t) = true := by
  show (!(k0_cond2 (grid0.coords t) == 1#1)) = true
  rw [beq_eq_false_iff_ne.mpr h]; rfl

/-- live where it is, -/
theorem live_out0 (t : Fin (cfg0 a).N) (h : k0_cond2 (grid0.coords t) = 1#1) :
    (cfg0 a).idle (2 : Fin 3) ((cfg0 a).grid.coords t) = false := by
  show (!(k0_cond2 (grid0.coords t) == 1#1)) = false
  rw [h]; rfl

/-- and, its block index never moving, written back at the last point only. -/
theorem flush_out0 (t : Fin (cfg0 a).N) (h : t.val + 1 ≠ (cfg0 a).N) : ((cfg0 a).win (2 : Fin 3)).flush t = false := by
  unfold Pipeline.Window.flush
  have hix : ∀ u u' : Fin (cfg0 a).N, ((cfg0 a).win (2 : Fin 3)).index u = ((cfg0 a).win (2 : Fin 3)).index u' := fun _ _ => rfl
  have hne : decide (t.val + 1 = grid0.N) = false := decide_eq_false h
  have hix2 : decide (∃ h' : t.val + 1 < grid0.N, ((cfg0 a).win (2 : Fin 3)).index ⟨t.val + 1, h'⟩ ≠ ((cfg0 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid0 (i : grid0.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset0 i) (hcl : ¬ k0_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k0_pay2 xu xv acc)) -∗ K ⟨⟩))
    ⊢ wp frame (wpE (defs₀ (F := F)) Variants.none c none) E (cc0__edge_chunk_kernel i arg1 harg1 arg2 harg2 arg3 harg3 arg4 harg4 arg5 harg5 arg6 harg6) K := by
  simp only [cc0__edge_chunk_kernel_eq_skeleton]; unfold cc0__edge_chunk_kernel_skel
  simp only [k0_part1_eq_skeleton]; unfold k0_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first0 (i : grid0.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset0 i) (hcl : ¬ k0_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k0_pay2 xu xv (k0_pay1 (F := F)))) -∗ K ⟨⟩))
    ⊢ wp frame (wpE (defs₀ (F := F)) Variants.none c none) E (cc0__edge_chunk_kernel i arg1 harg1 arg2 harg2 arg3 harg3 arg4 harg4 arg5 harg5 arg6 harg6) K := by
  simp only [cc0__edge_chunk_kernel_eq_skeleton]; unfold cc0__edge_chunk_kernel_skel
  simp only [k0_part1_eq_skeleton]; unfold k0_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k0_pay2 xu xv) (View.readCov_unit_zero (Val := Elt F) arg6.view zeros2 _ (k0_pay1 (F := F)))

set_option maxHeartbeats 1000000 in
/-- The LAST point (no reset, output store taken): as a middle point, and the output's buffer, whatever it held, is
    left at the new sum. -/
theorem run_last0 (i : grid0.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset0 i) (hcl : k0_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k0_pay2 xu xv acc) ∗ owns (c : Thread nD τ) arg6 fullShare (k0_pay2 xu xv acc)) -∗ K ⟨⟩))
    ⊢ wp frame (wpE (defs₀ (F := F)) Variants.none c none) E (cc0__edge_chunk_kernel i arg1 harg1 arg2 harg2 arg3 harg3 arg4 harg4 arg5 harg5 arg6 harg6) K := by
  simp only [cc0__edge_chunk_kernel_eq_skeleton]; unfold cc0__edge_chunk_kernel_skel
  simp only [k0_part1_eq_skeleton]; unfold k0_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at0 (t : Fin (cfg0 a).N) :
    accAt0 a V c t.val = k0_pay2 (iblk0 a V c (0 : Fin 3) t) (iblk0 a V c (1 : Fin 3) t)
      (if t.val = 0 then k0_pay1 (F := F) else accAt0 a V c (t.val - 1)) := by
  obtain ⟨n, hn⟩ := t
  cases n with
  | zero =>
    rw [if_pos rfl]
    show accAt0 a V c 0 = _
    rw [accAt_zero0, show pt0 a 0 = ⟨0, hn⟩ from Fin.ext (Nat.mod_eq_of_lt hn)]
  | succ n =>
    rw [if_neg (Nat.succ_ne_zero n)]
    show accAt0 a V c (n + 1) = _
    rw [accAt_succ0, show pt0 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq0 :
    Phi0 a V c 0 = iprop((∃ r, prngReg c r) ∗ Pipeline.prefHeld pre0 c (fun _ => fullShare) a.1
      ∗ (∃ d, owns (c : Thread nD τ) (Memref.whole cc0_scratch0) fullShare d)
      ∗ Pipeline.scopedRestBut spec0 c [cc0_scratch0]) := by
  rw [Phi_zero0, scopedRest0_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body0 (t : Fin (cfg0 a).N) :
    iprop((dat0 a V c).Φ t.castSucc ∗ (dat0 a V c).owesAt () t.castSucc
      ∗ (∃ d, owns (c : Thread nD τ) (((cfg0 a).win (0 : Fin 3)).stage ((cfg0 a).slots t (0 : Fin 3))) fullShare ((dat0 a V c).before (0 : Fin 3) t d))
      ∗ (∃ d, owns (c : Thread nD τ) (((cfg0 a).win (1 : Fin 3)).stage ((cfg0 a).slots t (1 : Fin 3))) fullShare ((dat0 a V c).before (1 : Fin 3) t d))
      ∗ (∃ d, owns (c : Thread nD τ) (((cfg0 a).win (2 : Fin 3)).stage ((cfg0 a).slots t (2 : Fin 3))) fullShare ((dat0 a V c).before (2 : Fin 3) t d)))
    ⊢ wp frame (wpE (defs₀ (F := F)) Variants.none c none) Set.univ
        (defs₀ (F := F) .tc (cfg0 a).body ((cfg0 a).bodyArgs t ((cfg0 a).slots t)))
        (fun _ => iprop((dat0 a V c).Φ t.succ ∗ (dat0 a V c).owesAt () t.succ
          ∗ (dat0 a V c).leavesExact (0 : Fin 3) t ∗ (dat0 a V c).leavesExact (1 : Fin 3) t ∗ (dat0 a V c).leavesExact (2 : Fin 3) t)) := by
  simp only [beforeU0, beforeV0]
  rw [show (dat0 a V c).owesAt () t.succ = (dat0 a V c).owesAt () t.castSucc from rfl]
  rw [dat_Φ_castSucc0, dat_Φ_succ0, Phi_succ0, accAt_at0 a V c t]
  rw [show (dat0 a V c).leavesExact (0 : Fin 3) t
      = owns (c : Thread nD τ) (((cfg0 a).win (0 : Fin 3)).stage ((cfg0 a).slots t (0 : Fin 3))) fullShare ((dat0 a V c).after (0 : Fin 3) t) from rfl, afterU0]
  rw [show (dat0 a V c).leavesExact (1 : Fin 3) t
      = owns (c : Thread nD τ) (((cfg0 a).win (1 : Fin 3)).stage ((cfg0 a).slots t (1 : Fin 3))) fullShare ((dat0 a V c).after (1 : Fin 3) t) from rfl, afterV0]
  have hN : t.val < 43008 := lt_of_lt_of_eq t.isLt (show (cfg0 a).N = 43008 from N_0)
  have hNN : (cfg0 a).N = 43008 := N_0
  have hcv := coords_val0 a t
  by_cases hz : t.val = 0
  · -- the first point
    have hcr : condReset0 (grid0.coords t) := (condReset_iff0 _).mpr (hcv.trans hz)
    have hcl : ¬ k0_cond2 (grid0.coords t) = 1#1 := fun h => by have := (condLast_iff0 _).mp h; omega
    rw [Dat.leavesExact_idle (dat0 a V c) (2 : Fin 3) t (idle_out0 a t hcl) (flush_out0 a t (by omega))]
    rw [if_pos hz, show Phi0 a V c t.val = Phi0 a V c 0 from by rw [hz], Phi_zero_eq0]
    iintro ⟨⟨Hg, Hpf, HS, Hr⟩, Ho, ⟨%du, HU⟩, ⟨%dv, HV⟩, HO⟩
    iapply (run_first0 c _ _ _ _ _ _ _ _ _ _ _ _ _ hcr hcl (iblk0 a V c (0 : Fin 3) t) (iblk0 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset0 (grid0.coords t) := fun h => hz (hcv.symm.trans ((condReset_iff0 _).mp h))
    rw [if_neg hz, Phi_pos0 a V c t.val hz]
    by_cases hl : t.val = 43007
    · -- the last point
      have hcl : k0_cond2 (grid0.coords t) = 1#1 := (condLast_iff0 _).mpr (hcv.trans hl)
      rw [show (dat0 a V c).leavesExact (2 : Fin 3) t
          = owns (c : Thread nD τ) (((cfg0 a).win (2 : Fin 3)).stage ((cfg0 a).slots t (2 : Fin 3))) fullShare ((dat0 a V c).after (2 : Fin 3) t) from by
        unfold Dat.leavesExact; rw [live_out0 a t hcl], afterO0, accAt_at0 a V c t, if_neg hz]
      iintro ⟨⟨Hg, Hpf, HS, Hr⟩, Ho, ⟨%du, HU⟩, ⟨%dv, HV⟩, ⟨%dO, HO⟩⟩
      iapply (run_last0 c _ _ _ _ _ _ _ _ _ _ _ _ _ hcr hcl (iblk0 a V c (0 : Fin 3) t) (iblk0 a V c (1 : Fin 3) t) (accAt0 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k0_cond2 (grid0.coords t) = 1#1 := fun h => hl (hcv.symm.trans ((condLast_iff0 _).mp h))
      rw [Dat.leavesExact_idle (dat0 a V c) (2 : Fin 3) t (idle_out0 a t hcl) (flush_out0 a t (by omega))]
      iintro ⟨⟨Hg, Hpf, HS, Hr⟩, Ho, ⟨%du, HU⟩, ⟨%dv, HV⟩, HO⟩
      iapply (run_mid0 c _ _ _ _ _ _ _ _ _ _ _ _ _ hcr hcl (iblk0 a V c (0 : Fin 3) t) (iblk0 a V c (1 : Fin 3) t) (accAt0 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation0 : BodyObligation (dat0 a V c) (defs₀ (F := F)) Variants.none () Set.univ := fun t => by
  rw [bigSep_W0, bigSep_W0]
  exact sound_body0 a V c t

end Cert.KernelIdeal.Gen

end
-- ==== Proof.BodyI1.lean ====
import proofs.«425429_j48773648614109_2_alg».proof.Proof.DatI1
import proofs.«425429_j48773648614109_2_alg».proof.Proof.LibWhole
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg1 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset1 (i : grid1.Coords) : Prop :=
  Scalar.cmpi .ne (Scalar.extui (Scalar.cmpi .eq (BitVec.ofNat 32 (i 0).val) 0#32)) 0#32 = 1#1

/-- The grid's one coordinate is below its bound. -/
theorem coord_lt1 (i : grid1.Coords) : (i 0).val < 43008 := (i 0).isLt

/-- The reset is taken exactly at coordinate 0. -/
theorem condReset_iff1 (i : grid1.Coords) : condReset1 i ↔ (i 0).val = 0 :=
  when_coord_iff (lt_trans (coord_lt1 i) (by decide)) (by decide)

/-- The output is stored exactly at the last coordinate. -/
theorem condLast_iff1 (i : grid1.Coords) : k1_cond2 i = 1#1 ↔ (i 0).val = 43007 := by
  unfold k1_cond2
  exact when_coord_iff (lt_trans (coord_lt1 i) (by decide)) (by decide)

/-- The one coordinate of the point numbered `t` is `t`. -/
theorem coords_val1 (t : Fin (cfg1 a).N) : ((grid1.coords t) 0).val = t.val := by
  have hN : t.val < 43008 := lt_of_lt_of_eq t.isLt (show (cfg1 a).N = 43008 from N_1)
  show t.val / grid1.stride 0 % grid1.bound 0 = t.val
  rw [show grid1.stride 0 = 1 from by decide, show grid1.bound 0 = 43008 from rfl, Nat.div_one]
  exact Nat.mod_eq_of_lt hN

/-! ## Where the output window is idle, and where it is written back -/

/-- The output window is idle wherever the output store is not taken, -/
theorem idle_out1 (t : Fin (cfg1 a).N) (h : ¬ k1_cond2 (grid1.coords t) = 1#1) :
    (cfg1 a).idle (2 : Fin 3) ((cfg1 a).grid.coords t) = true := by
  show (!(k1_cond2 (grid1.coords t) == 1#1)) = true
  rw [beq_eq_false_iff_ne.mpr h]; rfl

/-- live where it is, -/
theorem live_out1 (t : Fin (cfg1 a).N) (h : k1_cond2 (grid1.coords t) = 1#1) :
    (cfg1 a).idle (2 : Fin 3) ((cfg1 a).grid.coords t) = false := by
  show (!(k1_cond2 (grid1.coords t) == 1#1)) = false
  rw [h]; rfl

/-- and, its block index never moving, written back at the last point only. -/
theorem flush_out1 (t : Fin (cfg1 a).N) (h : t.val + 1 ≠ (cfg1 a).N) : ((cfg1 a).win (2 : Fin 3)).flush t = false := by
  unfold Pipeline.Window.flush
  have hix : ∀ u u' : Fin (cfg1 a).N, ((cfg1 a).win (2 : Fin 3)).index u = ((cfg1 a).win (2 : Fin 3)).index u' := fun _ _ => rfl
  have hne : decide (t.val + 1 = grid1.N) = false := decide_eq_false h
  have hix2 : decide (∃ h' : t.val + 1 < grid1.N, ((cfg1 a).win (2 : Fin 3)).index ⟨t.val + 1, h'⟩ ≠ ((cfg1 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid1 (i : grid1.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset1 i) (hcl : ¬ k1_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k1_pay2 xu xv acc)) -∗ K ⟨⟩))
    ⊢ wp frame (wpE (defs₀ (F := F)) Variants.none c none) E (cc1__edge_chunk_kernel i arg1 harg1 arg2 harg2 arg3 harg3 arg4 harg4 arg5 harg5 arg6 harg6) K := by
  simp only [cc1__edge_chunk_kernel_eq_skeleton]; unfold cc1__edge_chunk_kernel_skel
  simp only [k1_part1_eq_skeleton]; unfold k1_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first1 (i : grid1.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset1 i) (hcl : ¬ k1_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k1_pay2 xu xv (k1_pay1 (F := F)))) -∗ K ⟨⟩))
    ⊢ wp frame (wpE (defs₀ (F := F)) Variants.none c none) E (cc1__edge_chunk_kernel i arg1 harg1 arg2 harg2 arg3 harg3 arg4 harg4 arg5 harg5 arg6 harg6) K := by
  simp only [cc1__edge_chunk_kernel_eq_skeleton]; unfold cc1__edge_chunk_kernel_skel
  simp only [k1_part1_eq_skeleton]; unfold k1_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k1_pay2 xu xv) (View.readCov_unit_zero (Val := Elt F) arg6.view zeros2 _ (k1_pay1 (F := F)))

set_option maxHeartbeats 1000000 in
/-- The LAST point (no reset, output store taken): as a middle point, and the output's buffer, whatever it held, is
    left at the new sum. -/
theorem run_last1 (i : grid1.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset1 i) (hcl : k1_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k1_pay2 xu xv acc) ∗ owns (c : Thread nD τ) arg6 fullShare (k1_pay2 xu xv acc)) -∗ K ⟨⟩))
    ⊢ wp frame (wpE (defs₀ (F := F)) Variants.none c none) E (cc1__edge_chunk_kernel i arg1 harg1 arg2 harg2 arg3 harg3 arg4 harg4 arg5 harg5 arg6 harg6) K := by
  simp only [cc1__edge_chunk_kernel_eq_skeleton]; unfold cc1__edge_chunk_kernel_skel
  simp only [k1_part1_eq_skeleton]; unfold k1_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at1 (t : Fin (cfg1 a).N) :
    accAt1 a V c t.val = k1_pay2 (iblk1 a V c (0 : Fin 3) t) (iblk1 a V c (1 : Fin 3) t)
      (if t.val = 0 then k1_pay1 (F := F) else accAt1 a V c (t.val - 1)) := by
  obtain ⟨n, hn⟩ := t
  cases n with
  | zero =>
    rw [if_pos rfl]
    show accAt1 a V c 0 = _
    rw [accAt_zero1, show pt1 a 0 = ⟨0, hn⟩ from Fin.ext (Nat.mod_eq_of_lt hn)]
  | succ n =>
    rw [if_neg (Nat.succ_ne_zero n)]
    show accAt1 a V c (n + 1) = _
    rw [accAt_succ1, show pt1 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq1 :
    Phi1 a V c 0 = iprop((∃ r, prngReg c r) ∗ Pipeline.prefHeld pre1 c (fun _ => fullShare) a.1
      ∗ (∃ d, owns (c : Thread nD τ) (Memref.whole cc1_scratch0) fullShare d)
      ∗ Pipeline.scopedRestBut spec1 c [cc1_scratch0]) := by
  rw [Phi_zero1, scopedRest1_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body1 (t : Fin (cfg1 a).N) :
    iprop((dat1 a V c).Φ t.castSucc ∗ (dat1 a V c).owesAt () t.castSucc
      ∗ (∃ d, owns (c : Thread nD τ) (((cfg1 a).win (0 : Fin 3)).stage ((cfg1 a).slots t (0 : Fin 3))) fullShare ((dat1 a V c).before (0 : Fin 3) t d))
      ∗ (∃ d, owns (c : Thread nD τ) (((cfg1 a).win (1 : Fin 3)).stage ((cfg1 a).slots t (1 : Fin 3))) fullShare ((dat1 a V c).before (1 : Fin 3) t d))
      ∗ (∃ d, owns (c : Thread nD τ) (((cfg1 a).win (2 : Fin 3)).stage ((cfg1 a).slots t (2 : Fin 3))) fullShare ((dat1 a V c).before (2 : Fin 3) t d)))
    ⊢ wp frame (wpE (defs₀ (F := F)) Variants.none c none) Set.univ
        (defs₀ (F := F) .tc (cfg1 a).body ((cfg1 a).bodyArgs t ((cfg1 a).slots t)))
        (fun _ => iprop((dat1 a V c).Φ t.succ ∗ (dat1 a V c).owesAt () t.succ
          ∗ (dat1 a V c).leavesExact (0 : Fin 3) t ∗ (dat1 a V c).leavesExact (1 : Fin 3) t ∗ (dat1 a V c).leavesExact (2 : Fin 3) t)) := by
  simp only [beforeU1, beforeV1]
  rw [show (dat1 a V c).owesAt () t.succ = (dat1 a V c).owesAt () t.castSucc from rfl]
  rw [dat_Φ_castSucc1, dat_Φ_succ1, Phi_succ1, accAt_at1 a V c t]
  rw [show (dat1 a V c).leavesExact (0 : Fin 3) t
      = owns (c : Thread nD τ) (((cfg1 a).win (0 : Fin 3)).stage ((cfg1 a).slots t (0 : Fin 3))) fullShare ((dat1 a V c).after (0 : Fin 3) t) from rfl, afterU1]
  rw [show (dat1 a V c).leavesExact (1 : Fin 3) t
      = owns (c : Thread nD τ) (((cfg1 a).win (1 : Fin 3)).stage ((cfg1 a).slots t (1 : Fin 3))) fullShare ((dat1 a V c).after (1 : Fin 3) t) from rfl, afterV1]
  have hN : t.val < 43008 := lt_of_lt_of_eq t.isLt (show (cfg1 a).N = 43008 from N_1)
  have hNN : (cfg1 a).N = 43008 := N_1
  have hcv := coords_val1 a t
  by_cases hz : t.val = 0
  · -- the first point
    have hcr : condReset1 (grid1.coords t) := (condReset_iff1 _).mpr (hcv.trans hz)
    have hcl : ¬ k1_cond2 (grid1.coords t) = 1#1 := fun h => by have := (condLast_iff1 _).mp h; omega
    rw [Dat.leavesExact_idle (dat1 a V c) (2 : Fin 3) t (idle_out1 a t hcl) (flush_out1 a t (by omega))]
    rw [if_pos hz, show Phi1 a V c t.val = Phi1 a V c 0 from by rw [hz], Phi_zero_eq1]
    iintro ⟨⟨Hg, Hpf, HS, Hr⟩, Ho, ⟨%du, HU⟩, ⟨%dv, HV⟩, HO⟩
    iapply (run_first1 c _ _ _ _ _ _ _ _ _ _ _ _ _ hcr hcl (iblk1 a V c (0 : Fin 3) t) (iblk1 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset1 (grid1.coords t) := fun h => hz (hcv.symm.trans ((condReset_iff1 _).mp h))
    rw [if_neg hz, Phi_pos1 a V c t.val hz]
    by_cases hl : t.val = 43007
    · -- the last point
      have hcl : k1_cond2 (grid1.coords t) = 1#1 := (condLast_iff1 _).mpr (hcv.trans hl)
      rw [show (dat1 a V c).leavesExact (2 : Fin 3) t
          = owns (c : Thread nD τ) (((cfg1 a).win (2 : Fin 3)).stage ((cfg1 a).slots t (2 : Fin 3))) fullShare ((dat1 a V c).after (2 : Fin 3) t) from by
        unfold Dat.leavesExact; rw [live_out1 a t hcl], afterO1, accAt_at1 a V c t, if_neg hz]
      iintro ⟨⟨Hg, Hpf, HS, Hr⟩, Ho, ⟨%du, HU⟩, ⟨%dv, HV⟩, ⟨%dO, HO⟩⟩
      iapply (run_last1 c _ _ _ _ _ _ _ _ _ _ _ _ _ hcr hcl (iblk1 a V c (0 : Fin 3) t) (iblk1 a V c (1 : Fin 3) t) (accAt1 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k1_cond2 (grid1.coords t) = 1#1 := fun h => hl (hcv.symm.trans ((condLast_iff1 _).mp h))
      rw [Dat.leavesExact_idle (dat1 a V c) (2 : Fin 3) t (idle_out1 a t hcl) (flush_out1 a t (by omega))]
      iintro ⟨⟨Hg, Hpf, HS, Hr⟩, Ho, ⟨%du, HU⟩, ⟨%dv, HV⟩, HO⟩
      iapply (run_mid1 c _ _ _ _ _ _ _ _ _ _ _ _ _ hcr hcl (iblk1 a V c (0 : Fin 3) t) (iblk1 a V c (1 : Fin 3) t) (accAt1 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation1 : BodyObligation (dat1 a V c) (defs₀ (F := F)) Variants.none () Set.univ := fun t => by
  rw [bigSep_W1, bigSep_W1]
  exact sound_body1 a V c t

end Cert.KernelIdeal.Gen

end
-- ==== Proof.BodyI2.lean ====
import proofs.«425429_j48773648614109_2_alg».proof.Proof.DatI2
import proofs.«425429_j48773648614109_2_alg».proof.Proof.LibWhole
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg2 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset2 (i : grid2.Coords) : Prop :=
  Scalar.cmpi .ne (Scalar.extui (Scalar.cmpi .eq (BitVec.ofNat 32 (i 0).val) 0#32)) 0#32 = 1#1

/-- The grid's one coordinate is below its bound. -/
theorem coord_lt2 (i : grid2.Coords) : (i 0).val < 43008 := (i 0).isLt

/-- The reset is taken exactly at coordinate 0. -/
theorem condReset_iff2 (i : grid2.Coords) : condReset2 i ↔ (i 0).val = 0 :=
  when_coord_iff (lt_trans (coord_lt2 i) (by decide)) (by decide)

/-- The output is stored exactly at the last coordinate. -/
theorem condLast_iff2 (i : grid2.Coords) : k2_cond2 i = 1#1 ↔ (i 0).val = 43007 := by
  unfold k2_cond2
  exact when_coord_iff (lt_trans (coord_lt2 i) (by decide)) (by decide)

/-- The one coordinate of the point numbered `t` is `t`. -/
theorem coords_val2 (t : Fin (cfg2 a).N) : ((grid2.coords t) 0).val = t.val := by
  have hN : t.val < 43008 := lt_of_lt_of_eq t.isLt (show (cfg2 a).N = 43008 from N_2)
  show t.val / grid2.stride 0 % grid2.bound 0 = t.val
  rw [show grid2.stride 0 = 1 from by decide, show grid2.bound 0 = 43008 from rfl, Nat.div_one]
  exact Nat.mod_eq_of_lt hN

/-! ## Where the output window is idle, and where it is written back -/

/-- The output window is idle wherever the output store is not taken, -/
theorem idle_out2 (t : Fin (cfg2 a).N) (h : ¬ k2_cond2 (grid2.coords t) = 1#1) :
    (cfg2 a).idle (2 : Fin 3) ((cfg2 a).grid.coords t) = true := by
  show (!(k2_cond2 (grid2.coords t) == 1#1)) = true
  rw [beq_eq_false_iff_ne.mpr h]; rfl

/-- live where it is, -/
theorem live_out2 (t : Fin (cfg2 a).N) (h : k2_cond2 (grid2.coords t) = 1#1) :
    (cfg2 a).idle (2 : Fin 3) ((cfg2 a).grid.coords t) = false := by
  show (!(k2_cond2 (grid2.coords t) == 1#1)) = false
  rw [h]; rfl

/-- and, its block index never moving, written back at the last point only. -/
theorem flush_out2 (t : Fin (cfg2 a).N) (h : t.val + 1 ≠ (cfg2 a).N) : ((cfg2 a).win (2 : Fin 3)).flush t = false := by
  unfold Pipeline.Window.flush
  have hix : ∀ u u' : Fin (cfg2 a).N, ((cfg2 a).win (2 : Fin 3)).index u = ((cfg2 a).win (2 : Fin 3)).index u' := fun _ _ => rfl
  have hne : decide (t.val + 1 = grid2.N) = false := decide_eq_false h
  have hix2 : decide (∃ h' : t.val + 1 < grid2.N, ((cfg2 a).win (2 : Fin 3)).index ⟨t.val + 1, h'⟩ ≠ ((cfg2 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid2 (i : grid2.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset2 i) (hcl : ¬ k2_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k2_pay2 xu xv acc)) -∗ K ⟨⟩))
    ⊢ wp frame (wpE (defs₀ (F := F)) Variants.none c none) E (cc2__edge_chunk_kernel i arg1 harg1 arg2 harg2 arg3 harg3 arg4 harg4 arg5 harg5 arg6 harg6) K := by
  simp only [cc2__edge_chunk_kernel_eq_skeleton]; unfold cc2__edge_chunk_kernel_skel
  simp only [k2_part1_eq_skeleton]; unfold k2_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first2 (i : grid2.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset2 i) (hcl : ¬ k2_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k2_pay2 xu xv (k2_pay1 (F := F)))) -∗ K ⟨⟩))
    ⊢ wp frame (wpE (defs₀ (F := F)) Variants.none c none) E (cc2__edge_chunk_kernel i arg1 harg1 arg2 harg2 arg3 harg3 arg4 harg4 arg5 harg5 arg6 harg6) K := by
  simp only [cc2__edge_chunk_kernel_eq_skeleton]; unfold cc2__edge_chunk_kernel_skel
  simp only [k2_part1_eq_skeleton]; unfold k2_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k2_pay2 xu xv) (View.readCov_unit_zero (Val := Elt F) arg6.view zeros2 _ (k2_pay1 (F := F)))

set_option maxHeartbeats 1000000 in
/-- The LAST point (no reset, output store taken): as a middle point, and the output's buffer, whatever it held, is
    left at the new sum. -/
theorem run_last2 (i : grid2.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset2 i) (hcl : k2_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k2_pay2 xu xv acc) ∗ owns (c : Thread nD τ) arg6 fullShare (k2_pay2 xu xv acc)) -∗ K ⟨⟩))
    ⊢ wp frame (wpE (defs₀ (F := F)) Variants.none c none) E (cc2__edge_chunk_kernel i arg1 harg1 arg2 harg2 arg3 harg3 arg4 harg4 arg5 harg5 arg6 harg6) K := by
  simp only [cc2__edge_chunk_kernel_eq_skeleton]; unfold cc2__edge_chunk_kernel_skel
  simp only [k2_part1_eq_skeleton]; unfold k2_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at2 (t : Fin (cfg2 a).N) :
    accAt2 a V c t.val = k2_pay2 (iblk2 a V c (0 : Fin 3) t) (iblk2 a V c (1 : Fin 3) t)
      (if t.val = 0 then k2_pay1 (F := F) else accAt2 a V c (t.val - 1)) := by
  obtain ⟨n, hn⟩ := t
  cases n with
  | zero =>
    rw [if_pos rfl]
    show accAt2 a V c 0 = _
    rw [accAt_zero2, show pt2 a 0 = ⟨0, hn⟩ from Fin.ext (Nat.mod_eq_of_lt hn)]
  | succ n =>
    rw [if_neg (Nat.succ_ne_zero n)]
    show accAt2 a V c (n + 1) = _
    rw [accAt_succ2, show pt2 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq2 :
    Phi2 a V c 0 = iprop((∃ r, prngReg c r) ∗ Pipeline.prefHeld pre2 c (fun _ => fullShare) a.1
      ∗ (∃ d, owns (c : Thread nD τ) (Memref.whole cc2_scratch0) fullShare d)
      ∗ Pipeline.scopedRestBut spec2 c [cc2_scratch0]) := by
  rw [Phi_zero2, scopedRest2_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body2 (t : Fin (cfg2 a).N) :
    iprop((dat2 a V c).Φ t.castSucc ∗ (dat2 a V c).owesAt () t.castSucc
      ∗ (∃ d, owns (c : Thread nD τ) (((cfg2 a).win (0 : Fin 3)).stage ((cfg2 a).slots t (0 : Fin 3))) fullShare ((dat2 a V c).before (0 : Fin 3) t d))
      ∗ (∃ d, owns (c : Thread nD τ) (((cfg2 a).win (1 : Fin 3)).stage ((cfg2 a).slots t (1 : Fin 3))) fullShare ((dat2 a V c).before (1 : Fin 3) t d))
      ∗ (∃ d, owns (c : Thread nD τ) (((cfg2 a).win (2 : Fin 3)).stage ((cfg2 a).slots t (2 : Fin 3))) fullShare ((dat2 a V c).before (2 : Fin 3) t d)))
    ⊢ wp frame (wpE (defs₀ (F := F)) Variants.none c none) Set.univ
        (defs₀ (F := F) .tc (cfg2 a).body ((cfg2 a).bodyArgs t ((cfg2 a).slots t)))
        (fun _ => iprop((dat2 a V c).Φ t.succ ∗ (dat2 a V c).owesAt () t.succ
          ∗ (dat2 a V c).leavesExact (0 : Fin 3) t ∗ (dat2 a V c).leavesExact (1 : Fin 3) t ∗ (dat2 a V c).leavesExact (2 : Fin 3) t)) := by
  simp only [beforeU2, beforeV2]
  rw [show (dat2 a V c).owesAt () t.succ = (dat2 a V c).owesAt () t.castSucc from rfl]
  rw [dat_Φ_castSucc2, dat_Φ_succ2, Phi_succ2, accAt_at2 a V c t]
  rw [show (dat2 a V c).leavesExact (0 : Fin 3) t
      = owns (c : Thread nD τ) (((cfg2 a).win (0 : Fin 3)).stage ((cfg2 a).slots t (0 : Fin 3))) fullShare ((dat2 a V c).after (0 : Fin 3) t) from rfl, afterU2]
  rw [show (dat2 a V c).leavesExact (1 : Fin 3) t
      = owns (c : Thread nD τ) (((cfg2 a).win (1 : Fin 3)).stage ((cfg2 a).slots t (1 : Fin 3))) fullShare ((dat2 a V c).after (1 : Fin 3) t) from rfl, afterV2]
  have hN : t.val < 43008 := lt_of_lt_of_eq t.isLt (show (cfg2 a).N = 43008 from N_2)
  have hNN : (cfg2 a).N = 43008 := N_2
  have hcv := coords_val2 a t
  by_cases hz : t.val = 0
  · -- the first point
    have hcr : condReset2 (grid2.coords t) := (condReset_iff2 _).mpr (hcv.trans hz)
    have hcl : ¬ k2_cond2 (grid2.coords t) = 1#1 := fun h => by have := (condLast_iff2 _).mp h; omega
    rw [Dat.leavesExact_idle (dat2 a V c) (2 : Fin 3) t (idle_out2 a t hcl) (flush_out2 a t (by omega))]
    rw [if_pos hz, show Phi2 a V c t.val = Phi2 a V c 0 from by rw [hz], Phi_zero_eq2]
    iintro ⟨⟨Hg, Hpf, HS, Hr⟩, Ho, ⟨%du, HU⟩, ⟨%dv, HV⟩, HO⟩
    iapply (run_first2 c _ _ _ _ _ _ _ _ _ _ _ _ _ hcr hcl (iblk2 a V c (0 : Fin 3) t) (iblk2 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset2 (grid2.coords t) := fun h => hz (hcv.symm.trans ((condReset_iff2 _).mp h))
    rw [if_neg hz, Phi_pos2 a V c t.val hz]
    by_cases hl : t.val = 43007
    · -- the last point
      have hcl : k2_cond2 (grid2.coords t) = 1#1 := (condLast_iff2 _).mpr (hcv.trans hl)
      rw [show (dat2 a V c).leavesExact (2 : Fin 3) t
          = owns (c : Thread nD τ) (((cfg2 a).win (2 : Fin 3)).stage ((cfg2 a).slots t (2 : Fin 3))) fullShare ((dat2 a V c).after (2 : Fin 3) t) from by
        unfold Dat.leavesExact; rw [live_out2 a t hcl], afterO2, accAt_at2 a V c t, if_neg hz]
      iintro ⟨⟨Hg, Hpf, HS, Hr⟩, Ho, ⟨%du, HU⟩, ⟨%dv, HV⟩, ⟨%dO, HO⟩⟩
      iapply (run_last2 c _ _ _ _ _ _ _ _ _ _ _ _ _ hcr hcl (iblk2 a V c (0 : Fin 3) t) (iblk2 a V c (1 : Fin 3) t) (accAt2 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k2_cond2 (grid2.coords t) = 1#1 := fun h => hl (hcv.symm.trans ((condLast_iff2 _).mp h))
      rw [Dat.leavesExact_idle (dat2 a V c) (2 : Fin 3) t (idle_out2 a t hcl) (flush_out2 a t (by omega))]
      iintro ⟨⟨Hg, Hpf, HS, Hr⟩, Ho, ⟨%du, HU⟩, ⟨%dv, HV⟩, HO⟩
      iapply (run_mid2 c _ _ _ _ _ _ _ _ _ _ _ _ _ hcr hcl (iblk2 a V c (0 : Fin 3) t) (iblk2 a V c (1 : Fin 3) t) (accAt2 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation2 : BodyObligation (dat2 a V c) (defs₀ (F := F)) Variants.none () Set.univ := fun t => by
  rw [bigSep_W2, bigSep_W2]
  exact sound_body2 a V c t

end Cert.KernelIdeal.Gen

end
-- ==== Proof.BodyI3.lean ====
import proofs.«425429_j48773648614109_2_alg».proof.Proof.DatI3
import proofs.«425429_j48773648614109_2_alg».proof.Proof.LibWhole
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg3 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset3 (i : grid3.Coords) : Prop :=
  Scalar.cmpi .ne (Scalar.extui (Scalar.cmpi .eq (BitVec.ofNat 32 (i 0).val) 0#32)) 0#32 = 1#1

/-- The grid's one coordinate is below its bound. -/
theorem coord_lt3 (i : grid3.Coords) : (i 0).val < 43008 := (i 0).isLt

/-- The reset is taken exactly at coordinate 0. -/
theorem condReset_iff3 (i : grid3.Coords) : condReset3 i ↔ (i 0).val = 0 :=
  when_coord_iff (lt_trans (coord_lt3 i) (by decide)) (by decide)

/-- The output is stored exactly at the last coordinate. -/
theorem condLast_iff3 (i : grid3.Coords) : k3_cond2 i = 1#1 ↔ (i 0).val = 43007 := by
  unfold k3_cond2
  exact when_coord_iff (lt_trans (coord_lt3 i) (by decide)) (by decide)

/-- The one coordinate of the point numbered `t` is `t`. -/
theorem coords_val3 (t : Fin (cfg3 a).N) : ((grid3.coords t) 0).val = t.val := by
  have hN : t.val < 43008 := lt_of_lt_of_eq t.isLt (show (cfg3 a).N = 43008 from N_3)
  show t.val / grid3.stride 0 % grid3.bound 0 = t.val
  rw [show grid3.stride 0 = 1 from by decide, show grid3.bound 0 = 43008 from rfl, Nat.div_one]
  exact Nat.mod_eq_of_lt hN

/-! ## Where the output window is idle, and where it is written back -/

/-- The output window is idle wherever the output store is not taken, -/
theorem idle_out3 (t : Fin (cfg3 a).N) (h : ¬ k3_cond2 (grid3.coords t) = 1#1) :
    (cfg3 a).idle (2 : Fin 3) ((cfg3 a).grid.coords t) = true := by
  show (!(k3_cond2 (grid3.coords t) == 1#1)) = true
  rw [beq_eq_false_iff_ne.mpr h]; rfl

/-- live where it is, -/
theorem live_out3 (t : Fin (cfg3 a).N) (h : k3_cond2 (grid3.coords t) = 1#1) :
    (cfg3 a).idle (2 : Fin 3) ((cfg3 a).grid.coords t) = false := by
  show (!(k3_cond2 (grid3.coords t) == 1#1)) = false
  rw [h]; rfl

/-- and, its block index never moving, written back at the last point only. -/
theorem flush_out3 (t : Fin (cfg3 a).N) (h : t.val + 1 ≠ (cfg3 a).N) : ((cfg3 a).win (2 : Fin 3)).flush t = false := by
  unfold Pipeline.Window.flush
  have hix : ∀ u u' : Fin (cfg3 a).N, ((cfg3 a).win (2 : Fin 3)).index u = ((cfg3 a).win (2 : Fin 3)).index u' := fun _ _ => rfl
  have hne : decide (t.val + 1 = grid3.N) = false := decide_eq_false h
  have hix2 : decide (∃ h' : t.val + 1 < grid3.N, ((cfg3 a).win (2 : Fin 3)).index ⟨t.val + 1, h'⟩ ≠ ((cfg3 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid3 (i : grid3.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset3 i) (hcl : ¬ k3_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k3_pay2 xu xv acc)) -∗ K ⟨⟩))
    ⊢ wp frame (wpE (defs₀ (F := F)) Variants.none c none) E (cc3__edge_chunk_kernel i arg1 harg1 arg2 harg2 arg3 harg3 arg4 harg4 arg5 harg5 arg6 harg6) K := by
  simp only [cc3__edge_chunk_kernel_eq_skeleton]; unfold cc3__edge_chunk_kernel_skel
  simp only [k3_part1_eq_skeleton]; unfold k3_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first3 (i : grid3.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset3 i) (hcl : ¬ k3_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k3_pay2 xu xv (k3_pay1 (F := F)))) -∗ K ⟨⟩))
    ⊢ wp frame (wpE (defs₀ (F := F)) Variants.none c none) E (cc3__edge_chunk_kernel i arg1 harg1 arg2 harg2 arg3 harg3 arg4 harg4 arg5 harg5 arg6 harg6) K := by
  simp only [cc3__edge_chunk_kernel_eq_skeleton]; unfold cc3__edge_chunk_kernel_skel
  simp only [k3_part1_eq_skeleton]; unfold k3_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k3_pay2 xu xv) (View.readCov_unit_zero (Val := Elt F) arg6.view zeros2 _ (k3_pay1 (F := F)))

set_option maxHeartbeats 1000000 in
/-- The LAST point (no reset, output store taken): as a middle point, and the output's buffer, whatever it held, is
    left at the new sum. -/
theorem run_last3 (i : grid3.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset3 i) (hcl : k3_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k3_pay2 xu xv acc) ∗ owns (c : Thread nD τ) arg6 fullShare (k3_pay2 xu xv acc)) -∗ K ⟨⟩))
    ⊢ wp frame (wpE (defs₀ (F := F)) Variants.none c none) E (cc3__edge_chunk_kernel i arg1 harg1 arg2 harg2 arg3 harg3 arg4 harg4 arg5 harg5 arg6 harg6) K := by
  simp only [cc3__edge_chunk_kernel_eq_skeleton]; unfold cc3__edge_chunk_kernel_skel
  simp only [k3_part1_eq_skeleton]; unfold k3_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at3 (t : Fin (cfg3 a).N) :
    accAt3 a V c t.val = k3_pay2 (iblk3 a V c (0 : Fin 3) t) (iblk3 a V c (1 : Fin 3) t)
      (if t.val = 0 then k3_pay1 (F := F) else accAt3 a V c (t.val - 1)) := by
  obtain ⟨n, hn⟩ := t
  cases n with
  | zero =>
    rw [if_pos rfl]
    show accAt3 a V c 0 = _
    rw [accAt_zero3, show pt3 a 0 = ⟨0, hn⟩ from Fin.ext (Nat.mod_eq_of_lt hn)]
  | succ n =>
    rw [if_neg (Nat.succ_ne_zero n)]
    show accAt3 a V c (n + 1) = _
    rw [accAt_succ3, show pt3 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq3 :
    Phi3 a V c 0 = iprop((∃ r, prngReg c r) ∗ Pipeline.prefHeld pre3 c (fun _ => fullShare) a.1
      ∗ (∃ d, owns (c : Thread nD τ) (Memref.whole cc3_scratch0) fullShare d)
      ∗ Pipeline.scopedRestBut spec3 c [cc3_scratch0]) := by
  rw [Phi_zero3, scopedRest3_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body3 (t : Fin (cfg3 a).N) :
    iprop((dat3 a V c).Φ t.castSucc ∗ (dat3 a V c).owesAt () t.castSucc
      ∗ (∃ d, owns (c : Thread nD τ) (((cfg3 a).win (0 : Fin 3)).stage ((cfg3 a).slots t (0 : Fin 3))) fullShare ((dat3 a V c).before (0 : Fin 3) t d))
      ∗ (∃ d, owns (c : Thread nD τ) (((cfg3 a).win (1 : Fin 3)).stage ((cfg3 a).slots t (1 : Fin 3))) fullShare ((dat3 a V c).before (1 : Fin 3) t d))
      ∗ (∃ d, owns (c : Thread nD τ) (((cfg3 a).win (2 : Fin 3)).stage ((cfg3 a).slots t (2 : Fin 3))) fullShare ((dat3 a V c).before (2 : Fin 3) t d)))
    ⊢ wp frame (wpE (defs₀ (F := F)) Variants.none c none) Set.univ
        (defs₀ (F := F) .tc (cfg3 a).body ((cfg3 a).bodyArgs t ((cfg3 a).slots t)))
        (fun _ => iprop((dat3 a V c).Φ t.succ ∗ (dat3 a V c).owesAt () t.succ
          ∗ (dat3 a V c).leavesExact (0 : Fin 3) t ∗ (dat3 a V c).leavesExact (1 : Fin 3) t ∗ (dat3 a V c).leavesExact (2 : Fin 3) t)) := by
  simp only [beforeU3, beforeV3]
  rw [show (dat3 a V c).owesAt () t.succ = (dat3 a V c).owesAt () t.castSucc from rfl]
  rw [dat_Φ_castSucc3, dat_Φ_succ3, Phi_succ3, accAt_at3 a V c t]
  rw [show (dat3 a V c).leavesExact (0 : Fin 3) t
      = owns (c : Thread nD τ) (((cfg3 a).win (0 : Fin 3)).stage ((cfg3 a).slots t (0 : Fin 3))) fullShare ((dat3 a V c).after (0 : Fin 3) t) from rfl, afterU3]
  rw [show (dat3 a V c).leavesExact (1 : Fin 3) t
      = owns (c : Thread nD τ) (((cfg3 a).win (1 : Fin 3)).stage ((cfg3 a).slots t (1 : Fin 3))) fullShare ((dat3 a V c).after (1 : Fin 3) t) from rfl, afterV3]
  have hN : t.val < 43008 := lt_of_lt_of_eq t.isLt (show (cfg3 a).N = 43008 from N_3)
  have hNN : (cfg3 a).N = 43008 := N_3
  have hcv := coords_val3 a t
  by_cases hz : t.val = 0
  · -- the first point
    have hcr : condReset3 (grid3.coords t) := (condReset_iff3 _).mpr (hcv.trans hz)
    have hcl : ¬ k3_cond2 (grid3.coords t) = 1#1 := fun h => by have := (condLast_iff3 _).mp h; omega
    rw [Dat.leavesExact_idle (dat3 a V c) (2 : Fin 3) t (idle_out3 a t hcl) (flush_out3 a t (by omega))]
    rw [if_pos hz, show Phi3 a V c t.val = Phi3 a V c 0 from by rw [hz], Phi_zero_eq3]
    iintro ⟨⟨Hg, Hpf, HS, Hr⟩, Ho, ⟨%du, HU⟩, ⟨%dv, HV⟩, HO⟩
    iapply (run_first3 c _ _ _ _ _ _ _ _ _ _ _ _ _ hcr hcl (iblk3 a V c (0 : Fin 3) t) (iblk3 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset3 (grid3.coords t) := fun h => hz (hcv.symm.trans ((condReset_iff3 _).mp h))
    rw [if_neg hz, Phi_pos3 a V c t.val hz]
    by_cases hl : t.val = 43007
    · -- the last point
      have hcl : k3_cond2 (grid3.coords t) = 1#1 := (condLast_iff3 _).mpr (hcv.trans hl)
      rw [show (dat3 a V c).leavesExact (2 : Fin 3) t
          = owns (c : Thread nD τ) (((cfg3 a).win (2 : Fin 3)).stage ((cfg3 a).slots t (2 : Fin 3))) fullShare ((dat3 a V c).after (2 : Fin 3) t) from by
        unfold Dat.leavesExact; rw [live_out3 a t hcl], afterO3, accAt_at3 a V c t, if_neg hz]
      iintro ⟨⟨Hg, Hpf, HS, Hr⟩, Ho, ⟨%du, HU⟩, ⟨%dv, HV⟩, ⟨%dO, HO⟩⟩
      iapply (run_last3 c _ _ _ _ _ _ _ _ _ _ _ _ _ hcr hcl (iblk3 a V c (0 : Fin 3) t) (iblk3 a V c (1 : Fin 3) t) (accAt3 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k3_cond2 (grid3.coords t) = 1#1 := fun h => hl (hcv.symm.trans ((condLast_iff3 _).mp h))
      rw [Dat.leavesExact_idle (dat3 a V c) (2 : Fin 3) t (idle_out3 a t hcl) (flush_out3 a t (by omega))]
      iintro ⟨⟨Hg, Hpf, HS, Hr⟩, Ho, ⟨%du, HU⟩, ⟨%dv, HV⟩, HO⟩
      iapply (run_mid3 c _ _ _ _ _ _ _ _ _ _ _ _ _ hcr hcl (iblk3 a V c (0 : Fin 3) t) (iblk3 a V c (1 : Fin 3) t) (accAt3 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation3 : BodyObligation (dat3 a V c) (defs₀ (F := F)) Variants.none () Set.univ := fun t => by
  rw [bigSep_W3, bigSep_W3]
  exact sound_body3 a V c t

end Cert.KernelIdeal.Gen

end
-- ==== Proof.BodyI4.lean ====
import proofs.«425429_j48773648614109_2_alg».proof.Proof.DatI4
import proofs.«425429_j48773648614109_2_alg».proof.Proof.LibWhole
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg4 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset4 (i : grid4.Coords) : Prop :=
  Scalar.cmpi .ne (Scalar.extui (Scalar.cmpi .eq (BitVec.ofNat 32 (i 0).val) 0#32)) 0#32 = 1#1

/-- The grid's one coordinate is below its bound. -/
theorem coord_lt4 (i : grid4.Coords) : (i 0).val < 43008 := (i 0).isLt

/-- The reset is taken exactly at coordinate 0. -/
theorem condReset_iff4 (i : grid4.Coords) : condReset4 i ↔ (i 0).val = 0 :=
  when_coord_iff (lt_trans (coord_lt4 i) (by decide)) (by decide)

/-- The output is stored exactly at the last coordinate. -/
theorem condLast_iff4 (i : grid4.Coords) : k4_cond2 i = 1#1 ↔ (i 0).val = 43007 := by
  unfold k4_cond2
  exact when_coord_iff (lt_trans (coord_lt4 i) (by decide)) (by decide)

/-- The one coordinate of the point numbered `t` is `t`. -/
theorem coords_val4 (t : Fin (cfg4 a).N) : ((grid4.coords t) 0).val = t.val := by
  have hN : t.val < 43008 := lt_of_lt_of_eq t.isLt (show (cfg4 a).N = 43008 from N_4)
  show t.val / grid4.stride 0 % grid4.bound 0 = t.val
  rw [show grid4.stride 0 = 1 from by decide, show grid4.bound 0 = 43008 from rfl, Nat.div_one]
  exact Nat.mod_eq_of_lt hN

/-! ## Where the output window is idle, and where it is written back -/

/-- The output window is idle wherever the output store is not taken, -/
theorem idle_out4 (t : Fin (cfg4 a).N) (h : ¬ k4_cond2 (grid4.coords t) = 1#1) :
    (cfg4 a).idle (2 : Fin 3) ((cfg4 a).grid.coords t) = true := by
  show (!(k4_cond2 (grid4.coords t) == 1#1)) = true
  rw [beq_eq_false_iff_ne.mpr h]; rfl

/-- live where it is, -/
theorem live_out4 (t : Fin (cfg4 a).N) (h : k4_cond2 (grid4.coords t) = 1#1) :
    (cfg4 a).idle (2 : Fin 3) ((cfg4 a).grid.coords t) = false := by
  show (!(k4_cond2 (grid4.coords t) == 1#1)) = false
  rw [h]; rfl

/-- and, its block index never moving, written back at the last point only. -/
theorem flush_out4 (t : Fin (cfg4 a).N) (h : t.val + 1 ≠ (cfg4 a).N) : ((cfg4 a).win (2 : Fin 3)).flush t = false := by
  unfold Pipeline.Window.flush
  have hix : ∀ u u' : Fin (cfg4 a).N, ((cfg4 a).win (2 : Fin 3)).index u = ((cfg4 a).win (2 : Fin 3)).index u' := fun _ _ => rfl
  have hne : decide (t.val + 1 = grid4.N) = false := decide_eq_false h
  have hix2 : decide (∃ h' : t.val + 1 < grid4.N, ((cfg4 a).win (2 : Fin 3)).index ⟨t.val + 1, h'⟩ ≠ ((cfg4 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid4 (i : grid4.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset4 i) (hcl : ¬ k4_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k4_pay2 xu xv acc)) -∗ K ⟨⟩))
    ⊢ wp frame (wpE (defs₀ (F := F)) Variants.none c none) E (cc4__edge_chunk_kernel i arg1 harg1 arg2 harg2 arg3 harg3 arg4 harg4 arg5 harg5 arg6 harg6) K := by
  simp only [cc4__edge_chunk_kernel_eq_skeleton]; unfold cc4__edge_chunk_kernel_skel
  simp only [k4_part1_eq_skeleton]; unfold k4_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first4 (i : grid4.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset4 i) (hcl : ¬ k4_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k4_pay2 xu xv (k4_pay1 (F := F)))) -∗ K ⟨⟩))
    ⊢ wp frame (wpE (defs₀ (F := F)) Variants.none c none) E (cc4__edge_chunk_kernel i arg1 harg1 arg2 harg2 arg3 harg3 arg4 harg4 arg5 harg5 arg6 harg6) K := by
  simp only [cc4__edge_chunk_kernel_eq_skeleton]; unfold cc4__edge_chunk_kernel_skel
  simp only [k4_part1_eq_skeleton]; unfold k4_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k4_pay2 xu xv) (View.readCov_unit_zero (Val := Elt F) arg6.view zeros2 _ (k4_pay1 (F := F)))

set_option maxHeartbeats 1000000 in
/-- The LAST point (no reset, output store taken): as a middle point, and the output's buffer, whatever it held, is
    left at the new sum. -/
theorem run_last4 (i : grid4.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset4 i) (hcl : k4_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k4_pay2 xu xv acc) ∗ owns (c : Thread nD τ) arg6 fullShare (k4_pay2 xu xv acc)) -∗ K ⟨⟩))
    ⊢ wp frame (wpE (defs₀ (F := F)) Variants.none c none) E (cc4__edge_chunk_kernel i arg1 harg1 arg2 harg2 arg3 harg3 arg4 harg4 arg5 harg5 arg6 harg6) K := by
  simp only [cc4__edge_chunk_kernel_eq_skeleton]; unfold cc4__edge_chunk_kernel_skel
  simp only [k4_part1_eq_skeleton]; unfold k4_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at4 (t : Fin (cfg4 a).N) :
    accAt4 a V c t.val = k4_pay2 (iblk4 a V c (0 : Fin 3) t) (iblk4 a V c (1 : Fin 3) t)
      (if t.val = 0 then k4_pay1 (F := F) else accAt4 a V c (t.val - 1)) := by
  obtain ⟨n, hn⟩ := t
  cases n with
  | zero =>
    rw [if_pos rfl]
    show accAt4 a V c 0 = _
    rw [accAt_zero4, show pt4 a 0 = ⟨0, hn⟩ from Fin.ext (Nat.mod_eq_of_lt hn)]
  | succ n =>
    rw [if_neg (Nat.succ_ne_zero n)]
    show accAt4 a V c (n + 1) = _
    rw [accAt_succ4, show pt4 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq4 :
    Phi4 a V c 0 = iprop((∃ r, prngReg c r) ∗ Pipeline.prefHeld pre4 c (fun _ => fullShare) a.1
      ∗ (∃ d, owns (c : Thread nD τ) (Memref.whole cc4_scratch0) fullShare d)
      ∗ Pipeline.scopedRestBut spec4 c [cc4_scratch0]) := by
  rw [Phi_zero4, scopedRest4_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body4 (t : Fin (cfg4 a).N) :
    iprop((dat4 a V c).Φ t.castSucc ∗ (dat4 a V c).owesAt () t.castSucc
      ∗ (∃ d, owns (c : Thread nD τ) (((cfg4 a).win (0 : Fin 3)).stage ((cfg4 a).slots t (0 : Fin 3))) fullShare ((dat4 a V c).before (0 : Fin 3) t d))
      ∗ (∃ d, owns (c : Thread nD τ) (((cfg4 a).win (1 : Fin 3)).stage ((cfg4 a).slots t (1 : Fin 3))) fullShare ((dat4 a V c).before (1 : Fin 3) t d))
      ∗ (∃ d, owns (c : Thread nD τ) (((cfg4 a).win (2 : Fin 3)).stage ((cfg4 a).slots t (2 : Fin 3))) fullShare ((dat4 a V c).before (2 : Fin 3) t d)))
    ⊢ wp frame (wpE (defs₀ (F := F)) Variants.none c none) Set.univ
        (defs₀ (F := F) .tc (cfg4 a).body ((cfg4 a).bodyArgs t ((cfg4 a).slots t)))
        (fun _ => iprop((dat4 a V c).Φ t.succ ∗ (dat4 a V c).owesAt () t.succ
          ∗ (dat4 a V c).leavesExact (0 : Fin 3) t ∗ (dat4 a V c).leavesExact (1 : Fin 3) t ∗ (dat4 a V c).leavesExact (2 : Fin 3) t)) := by
  simp only [beforeU4, beforeV4]
  rw [show (dat4 a V c).owesAt () t.succ = (dat4 a V c).owesAt () t.castSucc from rfl]
  rw [dat_Φ_castSucc4, dat_Φ_succ4, Phi_succ4, accAt_at4 a V c t]
  rw [show (dat4 a V c).leavesExact (0 : Fin 3) t
      = owns (c : Thread nD τ) (((cfg4 a).win (0 : Fin 3)).stage ((cfg4 a).slots t (0 : Fin 3))) fullShare ((dat4 a V c).after (0 : Fin 3) t) from rfl, afterU4]
  rw [show (dat4 a V c).leavesExact (1 : Fin 3) t
      = owns (c : Thread nD τ) (((cfg4 a).win (1 : Fin 3)).stage ((cfg4 a).slots t (1 : Fin 3))) fullShare ((dat4 a V c).after (1 : Fin 3) t) from rfl, afterV4]
  have hN : t.val < 43008 := lt_of_lt_of_eq t.isLt (show (cfg4 a).N = 43008 from N_4)
  have hNN : (cfg4 a).N = 43008 := N_4
  have hcv := coords_val4 a t
  by_cases hz : t.val = 0
  · -- the first point
    have hcr : condReset4 (grid4.coords t) := (condReset_iff4 _).mpr (hcv.trans hz)
    have hcl : ¬ k4_cond2 (grid4.coords t) = 1#1 := fun h => by have := (condLast_iff4 _).mp h; omega
    rw [Dat.leavesExact_idle (dat4 a V c) (2 : Fin 3) t (idle_out4 a t hcl) (flush_out4 a t (by omega))]
    rw [if_pos hz, show Phi4 a V c t.val = Phi4 a V c 0 from by rw [hz], Phi_zero_eq4]
    iintro ⟨⟨Hg, Hpf, HS, Hr⟩, Ho, ⟨%du, HU⟩, ⟨%dv, HV⟩, HO⟩
    iapply (run_first4 c _ _ _ _ _ _ _ _ _ _ _ _ _ hcr hcl (iblk4 a V c (0 : Fin 3) t) (iblk4 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset4 (grid4.coords t) := fun h => hz (hcv.symm.trans ((condReset_iff4 _).mp h))
    rw [if_neg hz, Phi_pos4 a V c t.val hz]
    by_cases hl : t.val = 43007
    · -- the last point
      have hcl : k4_cond2 (grid4.coords t) = 1#1 := (condLast_iff4 _).mpr (hcv.trans hl)
      rw [show (dat4 a V c).leavesExact (2 : Fin 3) t
          = owns (c : Thread nD τ) (((cfg4 a).win (2 : Fin 3)).stage ((cfg4 a).slots t (2 : Fin 3))) fullShare ((dat4 a V c).after (2 : Fin 3) t) from by
        unfold Dat.leavesExact; rw [live_out4 a t hcl], afterO4, accAt_at4 a V c t, if_neg hz]
      iintro ⟨⟨Hg, Hpf, HS, Hr⟩, Ho, ⟨%du, HU⟩, ⟨%dv, HV⟩, ⟨%dO, HO⟩⟩
      iapply (run_last4 c _ _ _ _ _ _ _ _ _ _ _ _ _ hcr hcl (iblk4 a V c (0 : Fin 3) t) (iblk4 a V c (1 : Fin 3) t) (accAt4 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k4_cond2 (grid4.coords t) = 1#1 := fun h => hl (hcv.symm.trans ((condLast_iff4 _).mp h))
      rw [Dat.leavesExact_idle (dat4 a V c) (2 : Fin 3) t (idle_out4 a t hcl) (flush_out4 a t (by omega))]
      iintro ⟨⟨Hg, Hpf, HS, Hr⟩, Ho, ⟨%du, HU⟩, ⟨%dv, HV⟩, HO⟩
      iapply (run_mid4 c _ _ _ _ _ _ _ _ _ _ _ _ _ hcr hcl (iblk4 a V c (0 : Fin 3) t) (iblk4 a V c (1 : Fin 3) t) (accAt4 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation4 : BodyObligation (dat4 a V c) (defs₀ (F := F)) Variants.none () Set.univ := fun t => by
  rw [bigSep_W4, bigSep_W4]
  exact sound_body4 a V c t

end Cert.KernelIdeal.Gen

end
-- ==== Proof.BodyI5.lean ====
import proofs.«425429_j48773648614109_2_alg».proof.Proof.DatI5
import proofs.«425429_j48773648614109_2_alg».proof.Proof.LibWhole
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg5 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset5 (i : grid5.Coords) : Prop :=
  Scalar.cmpi .ne (Scalar.extui (Scalar.cmpi .eq (BitVec.ofNat 32 (i 0).val) 0#32)) 0#32 = 1#1

/-- The grid's one coordinate is below its bound. -/
theorem coord_lt5 (i : grid5.Coords) : (i 0).val < 43008 := (i 0).isLt

/-- The reset is taken exactly at coordinate 0. -/
theorem condReset_iff5 (i : grid5.Coords) : condReset5 i ↔ (i 0).val = 0 :=
  when_coord_iff (lt_trans (coord_lt5 i) (by decide)) (by decide)

/-- The output is stored exactly at the last coordinate. -/
theorem condLast_iff5 (i : grid5.Coords) : k5_cond2 i = 1#1 ↔ (i 0).val = 43007 := by
  unfold k5_cond2
  exact when_coord_iff (lt_trans (coord_lt5 i) (by decide)) (by decide)

/-- The one coordinate of the point numbered `t` is `t`. -/
theorem coords_val5 (t : Fin (cfg5 a).N) : ((grid5.coords t) 0).val = t.val := by
  have hN : t.val < 43008 := lt_of_lt_of_eq t.isLt (show (cfg5 a).N = 43008 from N_5)
  show t.val / grid5.stride 0 % grid5.bound 0 = t.val
  rw [show grid5.stride 0 = 1 from by decide, show grid5.bound 0 = 43008 from rfl, Nat.div_one]
  exact Nat.mod_eq_of_lt hN

/-! ## Where the output window is idle, and where it is written back -/

/-- The output window is idle wherever the output store is not taken, -/
theorem idle_out5 (t : Fin (cfg5 a).N) (h : ¬ k5_cond2 (grid5.coords t) = 1#1) :
    (cfg5 a).idle (2 : Fin 3) ((cfg5 a).grid.coords t) = true := by
  show (!(k5_cond2 (grid5.coords t) == 1#1)) = true
  rw [beq_eq_false_iff_ne.mpr h]; rfl

/-- live where it is, -/
theorem live_out5 (t : Fin (cfg5 a).N) (h : k5_cond2 (grid5.coords t) = 1#1) :
    (cfg5 a).idle (2 : Fin 3) ((cfg5 a).grid.coords t) = false := by
  show (!(k5_cond2 (grid5.coords t) == 1#1)) = false
  rw [h]; rfl

/-- and, its block index never moving, written back at the last point only. -/
theorem flush_out5 (t : Fin (cfg5 a).N) (h : t.val + 1 ≠ (cfg5 a).N) : ((cfg5 a).win (2 : Fin 3)).flush t = false := by
  unfold Pipeline.Window.flush
  have hix : ∀ u u' : Fin (cfg5 a).N, ((cfg5 a).win (2 : Fin 3)).index u = ((cfg5 a).win (2 : Fin 3)).index u' := fun _ _ => rfl
  have hne : decide (t.val + 1 = grid5.N) = false := decide_eq_false h
  have hix2 : decide (∃ h' : t.val + 1 < grid5.N, ((cfg5 a).win (2 : Fin 3)).index ⟨t.val + 1, h'⟩ ≠ ((cfg5 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid5 (i : grid5.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset5 i) (hcl : ¬ k5_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k5_pay2 xu xv acc)) -∗ K ⟨⟩))
    ⊢ wp frame (wpE (defs₀ (F := F)) Variants.none c none) E (cc5__edge_chunk_kernel i arg1 harg1 arg2 harg2 arg3 harg3 arg4 harg4 arg5 harg5 arg6 harg6) K := by
  simp only [cc5__edge_chunk_kernel_eq_skeleton]; unfold cc5__edge_chunk_kernel_skel
  simp only [k5_part1_eq_skeleton]; unfold k5_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first5 (i : grid5.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset5 i) (hcl : ¬ k5_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k5_pay2 xu xv (k5_pay1 (F := F)))) -∗ K ⟨⟩))
    ⊢ wp frame (wpE (defs₀ (F := F)) Variants.none c none) E (cc5__edge_chunk_kernel i arg1 harg1 arg2 harg2 arg3 harg3 arg4 harg4 arg5 harg5 arg6 harg6) K := by
  simp only [cc5__edge_chunk_kernel_eq_skeleton]; unfold cc5__edge_chunk_kernel_skel
  simp only [k5_part1_eq_skeleton]; unfold k5_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k5_pay2 xu xv) (View.readCov_unit_zero (Val := Elt F) arg6.view zeros2 _ (k5_pay1 (F := F)))

set_option maxHeartbeats 1000000 in
/-- The LAST point (no reset, output store taken): as a middle point, and the output's buffer, whatever it held, is
    left at the new sum. -/
theorem run_last5 (i : grid5.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset5 i) (hcl : k5_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k5_pay2 xu xv acc) ∗ owns (c : Thread nD τ) arg6 fullShare (k5_pay2 xu xv acc)) -∗ K ⟨⟩))
    ⊢ wp frame (wpE (defs₀ (F := F)) Variants.none c none) E (cc5__edge_chunk_kernel i arg1 harg1 arg2 harg2 arg3 harg3 arg4 harg4 arg5 harg5 arg6 harg6) K := by
  simp only [cc5__edge_chunk_kernel_eq_skeleton]; unfold cc5__edge_chunk_kernel_skel
  simp only [k5_part1_eq_skeleton]; unfold k5_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at5 (t : Fin (cfg5 a).N) :
    accAt5 a V c t.val = k5_pay2 (iblk5 a V c (0 : Fin 3) t) (iblk5 a V c (1 : Fin 3) t)
      (if t.val = 0 then k5_pay1 (F := F) else accAt5 a V c (t.val - 1)) := by
  obtain ⟨n, hn⟩ := t
  cases n with
  | zero =>
    rw [if_pos rfl]
    show accAt5 a V c 0 = _
    rw [accAt_zero5, show pt5 a 0 = ⟨0, hn⟩ from Fin.ext (Nat.mod_eq_of_lt hn)]
  | succ n =>
    rw [if_neg (Nat.succ_ne_zero n)]
    show accAt5 a V c (n + 1) = _
    rw [accAt_succ5, show pt5 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq5 :
    Phi5 a V c 0 = iprop((∃ r, prngReg c r) ∗ Pipeline.prefHeld pre5 c (fun _ => fullShare) a.1
      ∗ (∃ d, owns (c : Thread nD τ) (Memref.whole cc5_scratch0) fullShare d)
      ∗ Pipeline.scopedRestBut spec5 c [cc5_scratch0]) := by
  rw [Phi_zero5, scopedRest5_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body5 (t : Fin (cfg5 a).N) :
    iprop((dat5 a V c).Φ t.castSucc ∗ (dat5 a V c).owesAt () t.castSucc
      ∗ (∃ d, owns (c : Thread nD τ) (((cfg5 a).win (0 : Fin 3)).stage ((cfg5 a).slots t (0 : Fin 3))) fullShare ((dat5 a V c).before (0 : Fin 3) t d))
      ∗ (∃ d, owns (c : Thread nD τ) (((cfg5 a).win (1 : Fin 3)).stage ((cfg5 a).slots t (1 : Fin 3))) fullShare ((dat5 a V c).before (1 : Fin 3) t d))
      ∗ (∃ d, owns (c : Thread nD τ) (((cfg5 a).win (2 : Fin 3)).stage ((cfg5 a).slots t (2 : Fin 3))) fullShare ((dat5 a V c).before (2 : Fin 3) t d)))
    ⊢ wp frame (wpE (defs₀ (F := F)) Variants.none c none) Set.univ
        (defs₀ (F := F) .tc (cfg5 a).body ((cfg5 a).bodyArgs t ((cfg5 a).slots t)))
        (fun _ => iprop((dat5 a V c).Φ t.succ ∗ (dat5 a V c).owesAt () t.succ
          ∗ (dat5 a V c).leavesExact (0 : Fin 3) t ∗ (dat5 a V c).leavesExact (1 : Fin 3) t ∗ (dat5 a V c).leavesExact (2 : Fin 3) t)) := by
  simp only [beforeU5, beforeV5]
  rw [show (dat5 a V c).owesAt () t.succ = (dat5 a V c).owesAt () t.castSucc from rfl]
  rw [dat_Φ_castSucc5, dat_Φ_succ5, Phi_succ5, accAt_at5 a V c t]
  rw [show (dat5 a V c).leavesExact (0 : Fin 3) t
      = owns (c : Thread nD τ) (((cfg5 a).win (0 : Fin 3)).stage ((cfg5 a).slots t (0 : Fin 3))) fullShare ((dat5 a V c).after (0 : Fin 3) t) from rfl, afterU5]
  rw [show (dat5 a V c).leavesExact (1 : Fin 3) t
      = owns (c : Thread nD τ) (((cfg5 a).win (1 : Fin 3)).stage ((cfg5 a).slots t (1 : Fin 3))) fullShare ((dat5 a V c).after (1 : Fin 3) t) from rfl, afterV5]
  have hN : t.val < 43008 := lt_of_lt_of_eq t.isLt (show (cfg5 a).N = 43008 from N_5)
  have hNN : (cfg5 a).N = 43008 := N_5
  have hcv := coords_val5 a t
  by_cases hz : t.val = 0
  · -- the first point
    have hcr : condReset5 (grid5.coords t) := (condReset_iff5 _).mpr (hcv.trans hz)
    have hcl : ¬ k5_cond2 (grid5.coords t) = 1#1 := fun h => by have := (condLast_iff5 _).mp h; omega
    rw [Dat.leavesExact_idle (dat5 a V c) (2 : Fin 3) t (idle_out5 a t hcl) (flush_out5 a t (by omega))]
    rw [if_pos hz, show Phi5 a V c t.val = Phi5 a V c 0 from by rw [hz], Phi_zero_eq5]
    iintro ⟨⟨Hg, Hpf, HS, Hr⟩, Ho, ⟨%du, HU⟩, ⟨%dv, HV⟩, HO⟩
    iapply (run_first5 c _ _ _ _ _ _ _ _ _ _ _ _ _ hcr hcl (iblk5 a V c (0 : Fin 3) t) (iblk5 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset5 (grid5.coords t) := fun h => hz (hcv.symm.trans ((condReset_iff5 _).mp h))
    rw [if_neg hz, Phi_pos5 a V c t.val hz]
    by_cases hl : t.val = 43007
    · -- the last point
      have hcl : k5_cond2 (grid5.coords t) = 1#1 := (condLast_iff5 _).mpr (hcv.trans hl)
      rw [show (dat5 a V c).leavesExact (2 : Fin 3) t
          = owns (c : Thread nD τ) (((cfg5 a).win (2 : Fin 3)).stage ((cfg5 a).slots t (2 : Fin 3))) fullShare ((dat5 a V c).after (2 : Fin 3) t) from by
        unfold Dat.leavesExact; rw [live_out5 a t hcl], afterO5, accAt_at5 a V c t, if_neg hz]
      iintro ⟨⟨Hg, Hpf, HS, Hr⟩, Ho, ⟨%du, HU⟩, ⟨%dv, HV⟩, ⟨%dO, HO⟩⟩
      iapply (run_last5 c _ _ _ _ _ _ _ _ _ _ _ _ _ hcr hcl (iblk5 a V c (0 : Fin 3) t) (iblk5 a V c (1 : Fin 3) t) (accAt5 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k5_cond2 (grid5.coords t) = 1#1 := fun h => hl (hcv.symm.trans ((condLast_iff5 _).mp h))
      rw [Dat.leavesExact_idle (dat5 a V c) (2 : Fin 3) t (idle_out5 a t hcl) (flush_out5 a t (by omega))]
      iintro ⟨⟨Hg, Hpf, HS, Hr⟩, Ho, ⟨%du, HU⟩, ⟨%dv, HV⟩, HO⟩
      iapply (run_mid5 c _ _ _ _ _ _ _ _ _ _ _ _ _ hcr hcl (iblk5 a V c (0 : Fin 3) t) (iblk5 a V c (1 : Fin 3) t) (accAt5 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation5 : BodyObligation (dat5 a V c) (defs₀ (F := F)) Variants.none () Set.univ := fun t => by
  rw [bigSep_W5, bigSep_W5]
  exact sound_body5 a V c t

end Cert.KernelIdeal.Gen

end
-- ==== Proof.BodyI6.lean ====
import proofs.«425429_j48773648614109_2_alg».proof.Proof.DatI6
import proofs.«425429_j48773648614109_2_alg».proof.Proof.LibWhole
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg6 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset6 (i : grid6.Coords) : Prop :=
  Scalar.cmpi .ne (Scalar.extui (Scalar.cmpi .eq (BitVec.ofNat 32 (i 0).val) 0#32)) 0#32 = 1#1

/-- The grid's one coordinate is below its bound. -/
theorem coord_lt6 (i : grid6.Coords) : (i 0).val < 43008 := (i 0).isLt

/-- The reset is taken exactly at coordinate 0. -/
theorem condReset_iff6 (i : grid6.Coords) : condReset6 i ↔ (i 0).val = 0 :=
  when_coord_iff (lt_trans (coord_lt6 i) (by decide)) (by decide)

/-- The output is stored exactly at the last coordinate. -/
theorem condLast_iff6 (i : grid6.Coords) : k6_cond2 i = 1#1 ↔ (i 0).val = 43007 := by
  unfold k6_cond2
  exact when_coord_iff (lt_trans (coord_lt6 i) (by decide)) (by decide)

/-- The one coordinate of the point numbered `t` is `t`. -/
theorem coords_val6 (t : Fin (cfg6 a).N) : ((grid6.coords t) 0).val = t.val := by
  have hN : t.val < 43008 := lt_of_lt_of_eq t.isLt (show (cfg6 a).N = 43008 from N_6)
  show t.val / grid6.stride 0 % grid6.bound 0 = t.val
  rw [show grid6.stride 0 = 1 from by decide, show grid6.bound 0 = 43008 from rfl, Nat.div_one]
  exact Nat.mod_eq_of_lt hN

/-! ## Where the output window is idle, and where it is written back -/

/-- The output window is idle wherever the output store is not taken, -/
theorem idle_out6 (t : Fin (cfg6 a).N) (h : ¬ k6_cond2 (grid6.coords t) = 1#1) :
    (cfg6 a).idle (2 : Fin 3) ((cfg6 a).grid.coords t) = true := by
  show (!(k6_cond2 (grid6.coords t) == 1#1)) = true
  rw [beq_eq_false_iff_ne.mpr h]; rfl

/-- live where it is, -/
theorem live_out6 (t : Fin (cfg6 a).N) (h : k6_cond2 (grid6.coords t) = 1#1) :
    (cfg6 a).idle (2 : Fin 3) ((cfg6 a).grid.coords t) = false := by
  show (!(k6_cond2 (grid6.coords t) == 1#1)) = false
  rw [h]; rfl

/-- and, its block index never moving, written back at the last point only. -/
theorem flush_out6 (t : Fin (cfg6 a).N) (h : t.val + 1 ≠ (cfg6 a).N) : ((cfg6 a).win (2 : Fin 3)).flush t = false := by
  unfold Pipeline.Window.flush
  have hix : ∀ u u' : Fin (cfg6 a).N, ((cfg6 a).win (2 : Fin 3)).index u = ((cfg6 a).win (2 : Fin 3)).index u' := fun _ _ => rfl
  have hne : decide (t.val + 1 = grid6.N) = false := decide_eq_false h
  have hix2 : decide (∃ h' : t.val + 1 < grid6.N, ((cfg6 a).win (2 : Fin 3)).index ⟨t.val + 1, h'⟩ ≠ ((cfg6 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid6 (i : grid6.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset6 i) (hcl : ¬ k6_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k6_pay2 xu xv acc)) -∗ K ⟨⟩))
    ⊢ wp frame (wpE (defs₀ (F := F)) Variants.none c none) E (cc6__edge_chunk_kernel i arg1 harg1 arg2 harg2 arg3 harg3 arg4 harg4 arg5 harg5 arg6 harg6) K := by
  simp only [cc6__edge_chunk_kernel_eq_skeleton]; unfold cc6__edge_chunk_kernel_skel
  simp only [k6_part1_eq_skeleton]; unfold k6_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first6 (i : grid6.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset6 i) (hcl : ¬ k6_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k6_pay2 xu xv (k6_pay1 (F := F)))) -∗ K ⟨⟩))
    ⊢ wp frame (wpE (defs₀ (F := F)) Variants.none c none) E (cc6__edge_chunk_kernel i arg1 harg1 arg2 harg2 arg3 harg3 arg4 harg4 arg5 harg5 arg6 harg6) K := by
  simp only [cc6__edge_chunk_kernel_eq_skeleton]; unfold cc6__edge_chunk_kernel_skel
  simp only [k6_part1_eq_skeleton]; unfold k6_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k6_pay2 xu xv) (View.readCov_unit_zero (Val := Elt F) arg6.view zeros2 _ (k6_pay1 (F := F)))

set_option maxHeartbeats 1000000 in
/-- The LAST point (no reset, output store taken): as a middle point, and the output's buffer, whatever it held, is
    left at the new sum. -/
theorem run_last6 (i : grid6.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset6 i) (hcl : k6_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k6_pay2 xu xv acc) ∗ owns (c : Thread nD τ) arg6 fullShare (k6_pay2 xu xv acc)) -∗ K ⟨⟩))
    ⊢ wp frame (wpE (defs₀ (F := F)) Variants.none c none) E (cc6__edge_chunk_kernel i arg1 harg1 arg2 harg2 arg3 harg3 arg4 harg4 arg5 harg5 arg6 harg6) K := by
  simp only [cc6__edge_chunk_kernel_eq_skeleton]; unfold cc6__edge_chunk_kernel_skel
  simp only [k6_part1_eq_skeleton]; unfold k6_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at6 (t : Fin (cfg6 a).N) :
    accAt6 a V c t.val = k6_pay2 (iblk6 a V c (0 : Fin 3) t) (iblk6 a V c (1 : Fin 3) t)
      (if t.val = 0 then k6_pay1 (F := F) else accAt6 a V c (t.val - 1)) := by
  obtain ⟨n, hn⟩ := t
  cases n with
  | zero =>
    rw [if_pos rfl]
    show accAt6 a V c 0 = _
    rw [accAt_zero6, show pt6 a 0 = ⟨0, hn⟩ from Fin.ext (Nat.mod_eq_of_lt hn)]
  | succ n =>
    rw [if_neg (Nat.succ_ne_zero n)]
    show accAt6 a V c (n + 1) = _
    rw [accAt_succ6, show pt6 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq6 :
    Phi6 a V c 0 = iprop((∃ r, prngReg c r) ∗ Pipeline.prefHeld pre6 c (fun _ => fullShare) a.1
      ∗ (∃ d, owns (c : Thread nD τ) (Memref.whole cc6_scratch0) fullShare d)
      ∗ Pipeline.scopedRestBut spec6 c [cc6_scratch0]) := by
  rw [Phi_zero6, scopedRest6_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body6 (t : Fin (cfg6 a).N) :
    iprop((dat6 a V c).Φ t.castSucc ∗ (dat6 a V c).owesAt () t.castSucc
      ∗ (∃ d, owns (c : Thread nD τ) (((cfg6 a).win (0 : Fin 3)).stage ((cfg6 a).slots t (0 : Fin 3))) fullShare ((dat6 a V c).before (0 : Fin 3) t d))
      ∗ (∃ d, owns (c : Thread nD τ) (((cfg6 a).win (1 : Fin 3)).stage ((cfg6 a).slots t (1 : Fin 3))) fullShare ((dat6 a V c).before (1 : Fin 3) t d))
      ∗ (∃ d, owns (c : Thread nD τ) (((cfg6 a).win (2 : Fin 3)).stage ((cfg6 a).slots t (2 : Fin 3))) fullShare ((dat6 a V c).before (2 : Fin 3) t d)))
    ⊢ wp frame (wpE (defs₀ (F := F)) Variants.none c none) Set.univ
        (defs₀ (F := F) .tc (cfg6 a).body ((cfg6 a).bodyArgs t ((cfg6 a).slots t)))
        (fun _ => iprop((dat6 a V c).Φ t.succ ∗ (dat6 a V c).owesAt () t.succ
          ∗ (dat6 a V c).leavesExact (0 : Fin 3) t ∗ (dat6 a V c).leavesExact (1 : Fin 3) t ∗ (dat6 a V c).leavesExact (2 : Fin 3) t)) := by
  simp only [beforeU6, beforeV6]
  rw [show (dat6 a V c).owesAt () t.succ = (dat6 a V c).owesAt () t.castSucc from rfl]
  rw [dat_Φ_castSucc6, dat_Φ_succ6, Phi_succ6, accAt_at6 a V c t]
  rw [show (dat6 a V c).leavesExact (0 : Fin 3) t
      = owns (c : Thread nD τ) (((cfg6 a).win (0 : Fin 3)).stage ((cfg6 a).slots t (0 : Fin 3))) fullShare ((dat6 a V c).after (0 : Fin 3) t) from rfl, afterU6]
  rw [show (dat6 a V c).leavesExact (1 : Fin 3) t
      = owns (c : Thread nD τ) (((cfg6 a).win (1 : Fin 3)).stage ((cfg6 a).slots t (1 : Fin 3))) fullShare ((dat6 a V c).after (1 : Fin 3) t) from rfl, afterV6]
  have hN : t.val < 43008 := lt_of_lt_of_eq t.isLt (show (cfg6 a).N = 43008 from N_6)
  have hNN : (cfg6 a).N = 43008 := N_6
  have hcv := coords_val6 a t
  by_cases hz : t.val = 0
  · -- the first point
    have hcr : condReset6 (grid6.coords t) := (condReset_iff6 _).mpr (hcv.trans hz)
    have hcl : ¬ k6_cond2 (grid6.coords t) = 1#1 := fun h => by have := (condLast_iff6 _).mp h; omega
    rw [Dat.leavesExact_idle (dat6 a V c) (2 : Fin 3) t (idle_out6 a t hcl) (flush_out6 a t (by omega))]
    rw [if_pos hz, show Phi6 a V c t.val = Phi6 a V c 0 from by rw [hz], Phi_zero_eq6]
    iintro ⟨⟨Hg, Hpf, HS, Hr⟩, Ho, ⟨%du, HU⟩, ⟨%dv, HV⟩, HO⟩
    iapply (run_first6 c _ _ _ _ _ _ _ _ _ _ _ _ _ hcr hcl (iblk6 a V c (0 : Fin 3) t) (iblk6 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset6 (grid6.coords t) := fun h => hz (hcv.symm.trans ((condReset_iff6 _).mp h))
    rw [if_neg hz, Phi_pos6 a V c t.val hz]
    by_cases hl : t.val = 43007
    · -- the last point
      have hcl : k6_cond2 (grid6.coords t) = 1#1 := (condLast_iff6 _).mpr (hcv.trans hl)
      rw [show (dat6 a V c).leavesExact (2 : Fin 3) t
          = owns (c : Thread nD τ) (((cfg6 a).win (2 : Fin 3)).stage ((cfg6 a).slots t (2 : Fin 3))) fullShare ((dat6 a V c).after (2 : Fin 3) t) from by
        unfold Dat.leavesExact; rw [live_out6 a t hcl], afterO6, accAt_at6 a V c t, if_neg hz]
      iintro ⟨⟨Hg, Hpf, HS, Hr⟩, Ho, ⟨%du, HU⟩, ⟨%dv, HV⟩, ⟨%dO, HO⟩⟩
      iapply (run_last6 c _ _ _ _ _ _ _ _ _ _ _ _ _ hcr hcl (iblk6 a V c (0 : Fin 3) t) (iblk6 a V c (1 : Fin 3) t) (accAt6 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k6_cond2 (grid6.coords t) = 1#1 := fun h => hl (hcv.symm.trans ((condLast_iff6 _).mp h))
      rw [Dat.leavesExact_idle (dat6 a V c) (2 : Fin 3) t (idle_out6 a t hcl) (flush_out6 a t (by omega))]
      iintro ⟨⟨Hg, Hpf, HS, Hr⟩, Ho, ⟨%du, HU⟩, ⟨%dv, HV⟩, HO⟩
      iapply (run_mid6 c _ _ _ _ _ _ _ _ _ _ _ _ _ hcr hcl (iblk6 a V c (0 : Fin 3) t) (iblk6 a V c (1 : Fin 3) t) (accAt6 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation6 : BodyObligation (dat6 a V c) (defs₀ (F := F)) Variants.none () Set.univ := fun t => by
  rw [bigSep_W6, bigSep_W6]
  exact sound_body6 a V c t

end Cert.KernelIdeal.Gen

end
-- ==== Proof.BodyI7.lean ====
import proofs.«425429_j48773648614109_2_alg».proof.Proof.DatI7
import proofs.«425429_j48773648614109_2_alg».proof.Proof.LibWhole
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeBuf

variable {F : FTy → Type} [FloatOps F]

local notation "𝕄" => MT nD τ sig Unit (Elt F) ℕ (UR sig nD τ) ℕ

variable (a : (pcfg7 (F := F)).Adm)
  (V : (c : Dev nD) → (b : Ref sig .tc) → Buf (Elt F) ((c : Thread nD τ).loc b))

variable (c : Dev nD)

/-! ## The body's branch conditions, in closed form -/

/-- The first `scf.if`'s condition (the carried sum is reset), from the grid coordinates. -/
abbrev condReset7 (i : grid7.Coords) : Prop :=
  Scalar.cmpi .ne (Scalar.extui (Scalar.cmpi .eq (BitVec.ofNat 32 (i 0).val) 0#32)) 0#32 = 1#1

/-- The grid's one coordinate is below its bound. -/
theorem coord_lt7 (i : grid7.Coords) : (i 0).val < 43008 := (i 0).isLt

/-- The reset is taken exactly at coordinate 0. -/
theorem condReset_iff7 (i : grid7.Coords) : condReset7 i ↔ (i 0).val = 0 :=
  when_coord_iff (lt_trans (coord_lt7 i) (by decide)) (by decide)

/-- The output is stored exactly at the last coordinate. -/
theorem condLast_iff7 (i : grid7.Coords) : k7_cond2 i = 1#1 ↔ (i 0).val = 43007 := by
  unfold k7_cond2
  exact when_coord_iff (lt_trans (coord_lt7 i) (by decide)) (by decide)

/-- The one coordinate of the point numbered `t` is `t`. -/
theorem coords_val7 (t : Fin (cfg7 a).N) : ((grid7.coords t) 0).val = t.val := by
  have hN : t.val < 43008 := lt_of_lt_of_eq t.isLt (show (cfg7 a).N = 43008 from N_7)
  show t.val / grid7.stride 0 % grid7.bound 0 = t.val
  rw [show grid7.stride 0 = 1 from by decide, show grid7.bound 0 = 43008 from rfl, Nat.div_one]
  exact Nat.mod_eq_of_lt hN

/-! ## Where the output window is idle, and where it is written back -/

/-- The output window is idle wherever the output store is not taken, -/
theorem idle_out7 (t : Fin (cfg7 a).N) (h : ¬ k7_cond2 (grid7.coords t) = 1#1) :
    (cfg7 a).idle (2 : Fin 3) ((cfg7 a).grid.coords t) = true := by
  show (!(k7_cond2 (grid7.coords t) == 1#1)) = true
  rw [beq_eq_false_iff_ne.mpr h]; rfl

/-- live where it is, -/
theorem live_out7 (t : Fin (cfg7 a).N) (h : k7_cond2 (grid7.coords t) = 1#1) :
    (cfg7 a).idle (2 : Fin 3) ((cfg7 a).grid.coords t) = false := by
  show (!(k7_cond2 (grid7.coords t) == 1#1)) = false
  rw [h]; rfl

/-- and, its block index never moving, written back at the last point only. -/
theorem flush_out7 (t : Fin (cfg7 a).N) (h : t.val + 1 ≠ (cfg7 a).N) : ((cfg7 a).win (2 : Fin 3)).flush t = false := by
  unfold Pipeline.Window.flush
  have hix : ∀ u u' : Fin (cfg7 a).N, ((cfg7 a).win (2 : Fin 3)).index u = ((cfg7 a).win (2 : Fin 3)).index u' := fun _ _ => rfl
  have hne : decide (t.val + 1 = grid7.N) = false := decide_eq_false h
  have hix2 : decide (∃ h' : t.val + 1 < grid7.N, ((cfg7 a).win (2 : Fin 3)).index ⟨t.val + 1, h'⟩ ≠ ((cfg7 a).win (2 : Fin 3)).index t) = false :=
    decide_eq_false (fun ⟨h', hne⟩ => hne (hix _ _))
  rw [hix2]; simp [h]

/-! ## The body on any staging memrefs, case by case -/

set_option maxHeartbeats 1000000 in
/-- A MIDDLE point (no reset, no output store): the inputs' buffers are read and left, the carried sum `acc` becomes
    this point's term added to it; the output's buffer is not touched (and not asked for). -/
theorem run_mid7 (i : grid7.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset7 i) (hcl : ¬ k7_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ owns (c : Thread nD τ) arg6 fullShare acc
      ∗ (iprop(owns (c : Thread nD τ) arg3 fullShare xu ∗ owns (c : Thread nD τ) arg4 fullShare xv ∗ owns (c : Thread nD τ) arg6 fullShare (k7_pay2 xu xv acc)) -∗ K ⟨⟩))
    ⊢ wp frame (wpE (defs₀ (F := F)) Variants.none c none) E (cc7__edge_chunk_kernel i arg1 harg1 arg2 harg2 arg3 harg3 arg4 harg4 arg5 harg5 arg6 harg6) K := by
  simp only [cc7__edge_chunk_kernel_eq_skeleton]; unfold cc7__edge_chunk_kernel_skel
  simp only [k7_part1_eq_skeleton]; unfold k7_part1_skel
  unfold owns
  iintro ⟨⟨%fu, %hfu, HU⟩, ⟨%fv, %hfv, HV⟩, ⟨%fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

set_option maxHeartbeats 1000000 in
/-- The FIRST point (reset taken, no output store): the carried sum, whatever it held, becomes this point's term
    added to the zero the reset stores. -/
theorem run_first7 (i : grid7.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : condReset7 i) (hcl : ¬ k7_cond2 i = 1#1)
    (xu xv : Vec F S1x1x64 .f32) (E : Set ℕ) (K : PUnit → sProp 𝕄) :
    iprop(owns (c : Thread nD τ) arg3 fullShare xu ∗ owns (c : Thread nD τ) arg4 fullShare xv ∗ (∃ d, owns (c : Thread nD τ) arg6 fullShare d)
      ∗ (iprop(owns (c : Thread nD τ) arg3 fullShare xu ∗ owns (c : Thread nD τ) arg4 fullShare xv ∗ owns (c : Thread nD τ) arg6 fullShare (k7_pay2 xu xv (k7_pay1 (F := F)))) -∗ K ⟨⟩))
    ⊢ wp frame (wpE (defs₀ (F := F)) Variants.none c none) E (cc7__edge_chunk_kernel i arg1 harg1 arg2 harg2 arg3 harg3 arg4 harg4 arg5 harg5 arg6 harg6) K := by
  simp only [cc7__edge_chunk_kernel_eq_skeleton]; unfold cc7__edge_chunk_kernel_skel
  simp only [k7_part1_eq_skeleton]; unfold k7_part1_skel
  unfold owns
  iintro ⟨⟨%fu, %hfu, HU⟩, ⟨%fv, %hfv, HV⟩, ⟨%acc, %fs, %hfs, HS⟩, Hk⟩
  obtain rfl := harg3.eq_unread hfu; obtain rfl := harg4.eq_unread hfv; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  iexists _; isplitr
  swap; · iexact HS
  ipureintro
  refine (read_writes_cons_unit_zero arg6.view _ zeros2 _ _ _).trans ?_
  rw [readAt_unread_unit_zero harg3 xu zeros3, readAt_unread_unit_zero harg4 xv zeros3]
  exact congrArg (k7_pay2 xu xv) (View.readCov_unit_zero (Val := Elt F) arg6.view zeros2 _ (k7_pay1 (F := F)))

set_option maxHeartbeats 1000000 in
/-- The LAST point (no reset, output store taken): as a middle point, and the output's buffer, whatever it held, is
    left at the new sum. -/
theorem run_last7 (i : grid7.Coords) (arg1 : Memref sig .tc .smem S43008 .i32) (harg1 : arg1.IsWhole) (arg2 : Memref sig .tc .smem S43008 .i32) (harg2 : arg2.IsWhole) (arg3 : Memref sig .tc .vmem S1x1x64 .f32) (harg3 : arg3.IsWhole) (arg4 : Memref sig .tc .vmem S1x1x64 .f32) (harg4 : arg4.IsWhole) (arg5 : Memref sig .tc .vmem S1x1 .f32) (harg5 : arg5.IsWhole) (arg6 : Memref sig .tc .vmem S1x1 .f32) (harg6 : arg6.IsWhole)
    (hcr : ¬ condReset7 i) (hcl : k7_cond2 i = 1#1)
    (xu xv : Vec F S1x1x64 .f32) (acc : Vec F S1x1 .f32) (E : Set ℕ) (K : PUnit → sProp 𝕄) :
    iprop(owns (c : Thread nD τ) arg3 fullShare xu ∗ owns (c : Thread nD τ) arg4 fullShare xv ∗ (∃ d, owns (c : Thread nD τ) arg5 fullShare d) ∗ owns (c : Thread nD τ) arg6 fullShare acc
      ∗ (iprop(owns (c : Thread nD τ) arg3 fullShare xu ∗ owns (c : Thread nD τ) arg4 fullShare xv ∗ owns (c : Thread nD τ) arg5 fullShare (k7_pay2 xu xv acc) ∗ owns (c : Thread nD τ) arg6 fullShare (k7_pay2 xu xv acc)) -∗ K ⟨⟩))
    ⊢ wp frame (wpE (defs₀ (F := F)) Variants.none c none) E (cc7__edge_chunk_kernel i arg1 harg1 arg2 harg2 arg3 harg3 arg4 harg4 arg5 harg5 arg6 harg6) K := by
  simp only [cc7__edge_chunk_kernel_eq_skeleton]; unfold cc7__edge_chunk_kernel_skel
  simp only [k7_part1_eq_skeleton]; unfold k7_part1_skel
  unfold owns
  iintro ⟨⟨%fu, %hfu, HU⟩, ⟨%fv, %hfv, HV⟩, ⟨%dO, %fo, %hfo, HO⟩, ⟨%fs, %hfs, HS⟩, Hk⟩
  obtain rfl := harg3.eq_unread hfu; obtain rfl := harg4.eq_unread hfv; obtain rfl := harg5.eq_unread hfo; obtain rfl := harg6.eq_unread hfs
  sl_exec (disch := first | exact hcr | exact hcl)
  sl_step
  iapply Hk
  isplitl [HU]
  · iexists _; isplitr; · ipureintro; exact hfu
    iexact HU
  isplitl [HV]
  · iexists _; isplitr; · ipureintro; exact hfv
    iexact HV
  isplitl [HO]
  · iexists _; isplitr
    swap; · iexact HO
    ipureintro
    refine (read_writes_cons_unit_zero arg5.view _ zeros2 _ _ []).trans ?_
    refine (View.readCov_unit_zero arg6.view zeros2 _ _).trans ?_
    rw [readAt_unread_unit_zero harg3 xu zeros3, readAt_unread_unit_zero harg4 xv zeros3, readAt_unread_unit_zero harg6 acc zeros2]
  iexists _; isplitr
  swap; · iexact HS
  ipureintro
  refine (read_writes_cons_unit_zero arg6.view _ zeros2 _ _ []).trans ?_
  rw [readAt_unread_unit_zero harg3 xu zeros3, readAt_unread_unit_zero harg4 xv zeros3, readAt_unread_unit_zero harg6 acc zeros2]

/-! ## The sum at a point, from the point itself -/

/-- The sum after point `t`: that point's term added to the zero of the reset (the first point) or to the sum the
    point before left. -/
theorem accAt_at7 (t : Fin (cfg7 a).N) :
    accAt7 a V c t.val = k7_pay2 (iblk7 a V c (0 : Fin 3) t) (iblk7 a V c (1 : Fin 3) t)
      (if t.val = 0 then k7_pay1 (F := F) else accAt7 a V c (t.val - 1)) := by
  obtain ⟨n, hn⟩ := t
  cases n with
  | zero =>
    rw [if_pos rfl]
    show accAt7 a V c 0 = _
    rw [accAt_zero7, show pt7 a 0 = ⟨0, hn⟩ from Fin.ext (Nat.mod_eq_of_lt hn)]
  | succ n =>
    rw [if_neg (Nat.succ_ne_zero n)]
    show accAt7 a V c (n + 1) = _
    rw [accAt_succ7, show pt7 a (n + 1) = ⟨n + 1, hn⟩ from Fin.ext (Nat.mod_eq_of_lt hn)]
    rfl

/-! ## The invariant before the first point, the scratch opened -/

/-- Before the first point the carried scratch is among the scoped buffers held at anything: split off, as a memref. -/
theorem Phi_zero_eq7 :
    Phi7 a V c 0 = iprop((∃ r, prngReg c r) ∗ Pipeline.prefHeld pre7 c (fun _ => fullShare) a.1
      ∗ (∃ d, owns (c : Thread nD τ) (Memref.whole cc7_scratch0) fullShare d)
      ∗ Pipeline.scopedRestBut spec7 c [cc7_scratch0]) := by
  rw [Phi_zero7, scopedRest7_split]; simp only [owns_whole]

/-! ## The body obligation, at a generic point -/

set_option maxHeartbeats 2000000 in
/-- The body at any point: the inputs' memrefs hold their blocks; the closed forms say which case the point is in; the
    invariant hands the body the carried scratch at what the point before left (at anything at the first point) and
    takes it back at this point's sum; the output's buffer is handed back untouched except at the last point, where it
    takes the total; the core owes nothing throughout. -/
theorem sound_body7 (t : Fin (cfg7 a).N) :
    iprop((dat7 a V c).Φ t.castSucc ∗ (dat7 a V c).owesAt () t.castSucc
      ∗ (∃ d, owns (c : Thread nD τ) (((cfg7 a).win (0 : Fin 3)).stage ((cfg7 a).slots t (0 : Fin 3))) fullShare ((dat7 a V c).before (0 : Fin 3) t d))
      ∗ (∃ d, owns (c : Thread nD τ) (((cfg7 a).win (1 : Fin 3)).stage ((cfg7 a).slots t (1 : Fin 3))) fullShare ((dat7 a V c).before (1 : Fin 3) t d))
      ∗ (∃ d, owns (c : Thread nD τ) (((cfg7 a).win (2 : Fin 3)).stage ((cfg7 a).slots t (2 : Fin 3))) fullShare ((dat7 a V c).before (2 : Fin 3) t d)))
    ⊢ wp frame (wpE (defs₀ (F := F)) Variants.none c none) Set.univ
        (defs₀ (F := F) .tc (cfg7 a).body ((cfg7 a).bodyArgs t ((cfg7 a).slots t)))
        (fun _ => iprop((dat7 a V c).Φ t.succ ∗ (dat7 a V c).owesAt () t.succ
          ∗ (dat7 a V c).leavesExact (0 : Fin 3) t ∗ (dat7 a V c).leavesExact (1 : Fin 3) t ∗ (dat7 a V c).leavesExact (2 : Fin 3) t)) := by
  simp only [beforeU7, beforeV7]
  rw [show (dat7 a V c).owesAt () t.succ = (dat7 a V c).owesAt () t.castSucc from rfl]
  rw [dat_Φ_castSucc7, dat_Φ_succ7, Phi_succ7, accAt_at7 a V c t]
  rw [show (dat7 a V c).leavesExact (0 : Fin 3) t
      = owns (c : Thread nD τ) (((cfg7 a).win (0 : Fin 3)).stage ((cfg7 a).slots t (0 : Fin 3))) fullShare ((dat7 a V c).after (0 : Fin 3) t) from rfl, afterU7]
  rw [show (dat7 a V c).leavesExact (1 : Fin 3) t
      = owns (c : Thread nD τ) (((cfg7 a).win (1 : Fin 3)).stage ((cfg7 a).slots t (1 : Fin 3))) fullShare ((dat7 a V c).after (1 : Fin 3) t) from rfl, afterV7]
  have hN : t.val < 43008 := lt_of_lt_of_eq t.isLt (show (cfg7 a).N = 43008 from N_7)
  have hNN : (cfg7 a).N = 43008 := N_7
  have hcv := coords_val7 a t
  by_cases hz : t.val = 0
  · -- the first point
    have hcr : condReset7 (grid7.coords t) := (condReset_iff7 _).mpr (hcv.trans hz)
    have hcl : ¬ k7_cond2 (grid7.coords t) = 1#1 := fun h => by have := (condLast_iff7 _).mp h; omega
    rw [Dat.leavesExact_idle (dat7 a V c) (2 : Fin 3) t (idle_out7 a t hcl) (flush_out7 a t (by omega))]
    rw [if_pos hz, show Phi7 a V c t.val = Phi7 a V c 0 from by rw [hz], Phi_zero_eq7]
    iintro ⟨⟨Hg, Hpf, HS, Hr⟩, Ho, ⟨%du, HU⟩, ⟨%dv, HV⟩, HO⟩
    iapply (run_first7 c _ _ _ _ _ _ _ _ _ _ _ _ _ hcr hcl (iblk7 a V c (0 : Fin 3) t) (iblk7 a V c (1 : Fin 3) t) Set.univ _)
    isplitl [HU]; · iexact HU
    isplitl [HV]; · iexact HV
    isplitl [HS]; · iexact HS
    iintro ⟨HU, HV, HS⟩
    isplitl [Hg Hpf HS Hr]
    · isplitl [Hg]; · iexact Hg
      isplitl [Hpf]; · iexact Hpf
      isplitl [HS]; · iexact HS
      iexact Hr
    isplitl [Ho]; · iexact Ho
    isplitl [HU]; · iexact HU
    isplitl [HV]; · iexact HV
    iexact HO
  · have hcr : ¬ condReset7 (grid7.coords t) := fun h => hz (hcv.symm.trans ((condReset_iff7 _).mp h))
    rw [if_neg hz, Phi_pos7 a V c t.val hz]
    by_cases hl : t.val = 43007
    · -- the last point
      have hcl : k7_cond2 (grid7.coords t) = 1#1 := (condLast_iff7 _).mpr (hcv.trans hl)
      rw [show (dat7 a V c).leavesExact (2 : Fin 3) t
          = owns (c : Thread nD τ) (((cfg7 a).win (2 : Fin 3)).stage ((cfg7 a).slots t (2 : Fin 3))) fullShare ((dat7 a V c).after (2 : Fin 3) t) from by
        unfold Dat.leavesExact; rw [live_out7 a t hcl], afterO7, accAt_at7 a V c t, if_neg hz]
      iintro ⟨⟨Hg, Hpf, HS, Hr⟩, Ho, ⟨%du, HU⟩, ⟨%dv, HV⟩, ⟨%dO, HO⟩⟩
      iapply (run_last7 c _ _ _ _ _ _ _ _ _ _ _ _ _ hcr hcl (iblk7 a V c (0 : Fin 3) t) (iblk7 a V c (1 : Fin 3) t) (accAt7 a V c (t.val - 1)) Set.univ _)
      isplitl [HU]; · iexact HU
      isplitl [HV]; · iexact HV
      isplitl [HO]; · iexists _; iexact HO
      isplitl [HS]; · iexact HS
      iintro ⟨HU, HV, HO, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO
    · -- a middle point
      have hcl : ¬ k7_cond2 (grid7.coords t) = 1#1 := fun h => hl (hcv.symm.trans ((condLast_iff7 _).mp h))
      rw [Dat.leavesExact_idle (dat7 a V c) (2 : Fin 3) t (idle_out7 a t hcl) (flush_out7 a t (by omega))]
      iintro ⟨⟨Hg, Hpf, HS, Hr⟩, Ho, ⟨%du, HU⟩, ⟨%dv, HV⟩, HO⟩
      iapply (run_mid7 c _ _ _ _ _ _ _ _ _ _ _ _ _ hcr hcl (iblk7 a V c (0 : Fin 3) t) (iblk7 a V c (1 : Fin 3) t) (accAt7 a V c (t.val - 1)) Set.univ _)
      isplitl [HU]; · iexact HU
      isplitl [HV]; · iexact HV
      isplitl [HS]; · iexact HS
      iintro ⟨HU, HV, HS⟩
      isplitl [Hg Hpf HS Hr]
      · isplitl [Hg]; · iexact Hg
        isplitl [Hpf]; · iexact Hpf
        isplitl [HS]; · iexact HS
        iexact Hr
      isplitl [Ho]; · iexact Ho
      isplitl [HU]; · iexact HU
      isplitl [HV]; · iexact HV
      iexact HO

/-- The library's body obligation, at every point. -/
theorem body_obligation7 : BodyObligation (dat7 a V c) (defs₀ (F := F)) Variants.none () Set.univ := fun t => by
  rw [bigSep_W7, bigSep_W7]
  exact sound_body7 a V c t

end Cert.KernelIdeal.Gen

end
-- ==== Proof.FamilyI.lean ====
import proofs.«425429_j48773648614109_2_alg».proof.Proof.AssembleI
import proofs.«425429_j48773648614109_2_alg».proof.Proof.TieI
import proofs.«425429_j48773648614109_2_alg».proof.Proof.AdmsI
import proofs.«425429_j48773648614109_2_alg».proof.Proof.RecI0
import proofs.«425429_j48773648614109_2_alg».proof.Proof.RecI1
import proofs.«425429_j48773648614109_2_alg».proof.Proof.RecI2
import proofs.«425429_j48773648614109_2_alg».proof.Proof.RecI3
import proofs.«425429_j48773648614109_2_alg».proof.Proof.RecI4
import proofs.«425429_j48773648614109_2_alg».proof.Proof.RecI5
import proofs.«425429_j48773648614109_2_alg».proof.Proof.RecI6
import proofs.«425429_j48773648614109_2_alg».proof.Proof.RecI7
import proofs.«425429_j48773648614109_2_alg».proof.Proof.BodyI0
import proofs.«425429_j48773648614109_2_alg».proof.Proof.BodyI1
import proofs.«425429_j48773648614109_2_alg».proof.Proof.BodyI2
import proofs.«425429_j48773648614109_2_alg».proof.Proof.BodyI3
import proofs.«425429_j48773648614109_2_alg».proof.Proof.BodyI4
import proofs.«425429_j48773648614109_2_alg».proof.Proof.BodyI5
import proofs.«425429_j48773648614109_2_alg».proof.Proof.BodyI6
import proofs.«425429_j48773648614109_2_alg».proof.Proof.BodyI7

/-! The eight kernel regions as one family, and @main's run from it.

Region `K` is entered at the valuation `V(2K+1)` of the unscoped buffers and left at `V(2K+2)`, which differs from
it at the region's output array alone. What a region leaves there is a function of the valuation at its entry
(`outArrK`), and that valuation reads only the outputs of the regions before it: so the eight outputs are defined in
order (`o0 … o7`), the family `outs` is built from them, and each region's proof data and record are stated at the
family's own valuations. The admissible index tables come from the bound `IdxOk` on the edge list's words. With the
eight records the launch theorem gives the frame and the value of the result buffer. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (h : IdxOk m)

/-! ## The regions' output arrays, in order -/

/-- Region 0's output array at its exit: from the valuation after the first host stretch. -/
def o0 (c : Dev nD) : Buf (Elt F) ((c : Thread nD τ).loc main_v12) :=
  outArr0 (adms m h p0) (V1 m) c
/-- Region 1's, from the valuation at its entry, which reads region 0's output alone. -/
def o1 (c : Dev nD) : Buf (Elt F) ((c : Thread nD τ).loc main_v19) :=
  outArr1 (adms m h p1) (Vo3 m (o0 m h)) c
/-- Region 2's. -/
def o2 (c : Dev nD) : Buf (Elt F) ((c : Thread nD τ).loc main_v26) :=
  outArr2 (adms m h p2) (Vo5 m (o0 m h) (o1 m h)) c
/-- Region 3's. -/
def o3 (c : Dev nD) : Buf (Elt F) ((c : Thread nD τ).loc main_v33) :=
  outArr3 (adms m h p3) (Vo7 m (o0 m h) (o1 m h) (o2 m h)) c
/-- Region 4's. -/
def o4 (c : Dev nD) : Buf (Elt F) ((c : Thread nD τ).loc main_v40) :=
  outArr4 (adms m h p4) (Vo9 m (o0 m h) (o1 m h) (o2 m h) (o3 m h)) c
/-- Region 5's. -/
def o5 (c : Dev nD) : Buf (Elt F) ((c : Thread nD τ).loc main_v47) :=
  outArr5 (adms m h p5) (Vo11 m (o0 m h) (o1 m h) (o2 m h) (o3 m h) (o4 m h)) c
/-- Region 6's. -/
def o6 (c : Dev nD) : Buf (Elt F) ((c : Thread nD τ).loc main_v54) :=
  outArr6 (adms m h p6) (Vo13 m (o0 m h) (o1 m h) (o2 m h) (o3 m h) (o4 m h) (o5 m h)) c
/-- Region 7's. -/
def o7 (c : Dev nD) : Buf (Elt F) ((c : Thread nD τ).loc main_v61) :=
  outArr7 (adms m h p7) (Vo15 m (o0 m h) (o1 m h) (o2 m h) (o3 m h) (o4 m h) (o5 m h) (o6 m h)) c

/-- What the eight regions leave in their output arrays, as the family the valuations read. -/
def outs : Outs (F := F) :=
  outsOf m (o0 m h) (o1 m h) (o2 m h) (o3 m h) (o4 m h) (o5 m h) (o6 m h) (o7 m h)

/-! ## The family's valuation at each region's entry reads the earlier outputs alone -/

theorem win1 : V3 m (outs m h) = Vo3 m (o0 m h) :=
  funext fun c => V3_outsOf m (o0 m h) (o1 m h) (o2 m h) (o3 m h) (o4 m h) (o5 m h) (o6 m h) (o7 m h) c
theorem win2 : V5 m (outs m h) = Vo5 m (o0 m h) (o1 m h) :=
  funext fun c => V5_outsOf m (o0 m h) (o1 m h) (o2 m h) (o3 m h) (o4 m h) (o5 m h) (o6 m h) (o7 m h) c
theorem win3 : V7 m (outs m h) = Vo7 m (o0 m h) (o1 m h) (o2 m h) :=
  funext fun c => V7_outsOf m (o0 m h) (o1 m h) (o2 m h) (o3 m h) (o4 m h) (o5 m h) (o6 m h) (o7 m h) c
theorem win4 : V9 m (outs m h) = Vo9 m (o0 m h) (o1 m h) (o2 m h) (o3 m h) :=
  funext fun c => V9_outsOf m (o0 m h) (o1 m h) (o2 m h) (o3 m h) (o4 m h) (o5 m h) (o6 m h) (o7 m h) c
theorem win5 : V11 m (outs m h) = Vo11 m (o0 m h) (o1 m h) (o2 m h) (o3 m h) (o4 m h) :=
  funext fun c => V11_outsOf m (o0 m h) (o1 m h) (o2 m h) (o3 m h) (o4 m h) (o5 m h) (o6 m h) (o7 m h) c
theorem win6 : V13 m (outs m h) = Vo13 m (o0 m h) (o1 m h) (o2 m h) (o3 m h) (o4 m h) (o5 m h) :=
  funext fun c => V13_outsOf m (o0 m h) (o1 m h) (o2 m h) (o3 m h) (o4 m h) (o5 m h) (o6 m h) (o7 m h) c
theorem win7 : V15 m (outs m h) = Vo15 m (o0 m h) (o1 m h) (o2 m h) (o3 m h) (o4 m h) (o5 m h) (o6 m h) :=
  funext fun c => V15_outsOf m (o0 m h) (o1 m h) (o2 m h) (o3 m h) (o4 m h) (o5 m h) (o6 m h) (o7 m h) c

/-! ## Reading the family at a region's output, and each output from the valuation at that region's entry -/

theorem outs_0 (c : Dev nD) : outs m h 2 main_v12 c = o0 m h c :=
  outsOf_0 m (o0 m h) (o1 m h) (o2 m h) (o3 m h) (o4 m h) (o5 m h) (o6 m h) (o7 m h) c
theorem outs_1 (c : Dev nD) : outs m h 4 main_v19 c = o1 m h c :=
  outsOf_1 m (o0 m h) (o1 m h) (o2 m h) (o3 m h) (o4 m h) (o5 m h) (o6 m h) (o7 m h) c
theorem outs_2 (c : Dev nD) : outs m h 6 main_v26 c = o2 m h c :=
  outsOf_2 m (o0 m h) (o1 m h) (o2 m h) (o3 m h) (o4 m h) (o5 m h) (o6 m h) (o7 m h) c
theorem outs_3 (c : Dev nD) : outs m h 8 main_v33 c = o3 m h c :=
  outsOf_3 m (o0 m h) (o1 m h) (o2 m h) (o3 m h) (o4 m h) (o5 m h) (o6 m h) (o7 m h) c
theorem outs_4 (c : Dev nD) : outs m h 10 main_v40 c = o4 m h c :=
  outsOf_4 m (o0 m h) (o1 m h) (o2 m h) (o3 m h) (o4 m h) (o5 m h) (o6 m h) (o7 m h) c
theorem outs_5 (c : Dev nD) : outs m h 12 main_v47 c = o5 m h c :=
  outsOf_5 m (o0 m h) (o1 m h) (o2 m h) (o3 m h) (o4 m h) (o5 m h) (o6 m h) (o7 m h) c
theorem outs_6 (c : Dev nD) : outs m h 14 main_v54 c = o6 m h c :=
  outsOf_6 m (o0 m h) (o1 m h) (o2 m h) (o3 m h) (o4 m h) (o5 m h) (o6 m h) (o7 m h) c
theorem outs_7 (c : Dev nD) : outs m h 16 main_v61 c = o7 m h c :=
  outsOf_7 m (o0 m h) (o1 m h) (o2 m h) (o3 m h) (o4 m h) (o5 m h) (o6 m h) (o7 m h) c

theorem o0_eq (c : Dev nD) : o0 m h c = outArr0 (adms m h p0) (V1 m) c := rfl
theorem o1_eq (c : Dev nD) : o1 m h c = outArr1 (adms m h p1) (V3 m (outs m h)) c := by rw [win1]; rfl
theorem o2_eq (c : Dev nD) : o2 m h c = outArr2 (adms m h p2) (V5 m (outs m h)) c := by rw [win2]; rfl
theorem o3_eq (c : Dev nD) : o3 m h c = outArr3 (adms m h p3) (V7 m (outs m h)) c := by rw [win3]; rfl
theorem o4_eq (c : Dev nD) : o4 m h c = outArr4 (adms m h p4) (V9 m (outs m h)) c := by rw [win4]; rfl
theorem o5_eq (c : Dev nD) : o5 m h c = outArr5 (adms m h p5) (V11 m (outs m h)) c := by rw [win5]; rfl
theorem o6_eq (c : Dev nD) : o6 m h c = outArr6 (adms m h p6) (V13 m (outs m h)) c := by rw [win6]; rfl
theorem o7_eq (c : Dev nD) : o7 m h c = outArr7 (adms m h p7) (V15 m (outs m h)) c := by rw [win7]; rfl

/-! ## The valuation at each region's exit holds, in the output array, what the region leaves there -/

theorem hout0 (c : Dev nD) :
    V2 m (outs m h) c (Pipeline.arrRef spec0 (2 : Fin 3)) = outArr0 (adms m h p0) (V1 m) c := by
  rw [← o0_eq, ← outs_0]
  exact Function.update_self (main_v12 : DevRef τ sig) (outs m h 2 main_v12 c) (V1 m c)
theorem hout1 (c : Dev nD) :
    V4 m (outs m h) c (Pipeline.arrRef spec1 (2 : Fin 3)) = outArr1 (adms m h p1) (V3 m (outs m h)) c := by
  rw [← o1_eq, ← outs_1]
  exact Function.update_self (main_v19 : DevRef τ sig) (outs m h 4 main_v19 c) (V3 m (outs m h) c)
theorem hout2 (c : Dev nD) :
    V6 m (outs m h) c (Pipeline.arrRef spec2 (2 : Fin 3)) = outArr2 (adms m h p2) (V5 m (outs m h)) c := by
  rw [← o2_eq, ← outs_2]
  exact Function.update_self (main_v26 : DevRef τ sig) (outs m h 6 main_v26 c) (V5 m (outs m h) c)
theorem hout3 (c : Dev nD) :
    V8 m (outs m h) c (Pipeline.arrRef spec3 (2 : Fin 3)) = outArr3 (adms m h p3) (V7 m (outs m h)) c := by
  rw [← o3_eq, ← outs_3]
  exact Function.update_self (main_v33 : DevRef τ sig) (outs m h 8 main_v33 c) (V7 m (outs m h) c)
theorem hout4 (c : Dev nD) :
    V10 m (outs m h) c (Pipeline.arrRef spec4 (2 : Fin 3)) = outArr4 (adms m h p4) (V9 m (outs m h)) c := by
  rw [← o4_eq, ← outs_4]
  exact Function.update_self (main_v40 : DevRef τ sig) (outs m h 10 main_v40 c) (V9 m (outs m h) c)
theorem hout5 (c : Dev nD) :
    V12 m (outs m h) c (Pipeline.arrRef spec5 (2 : Fin 3)) = outArr5 (adms m h p5) (V11 m (outs m h)) c := by
  rw [← o5_eq, ← outs_5]
  exact Function.update_self (main_v47 : DevRef τ sig) (outs m h 12 main_v47 c) (V11 m (outs m h) c)
theorem hout6 (c : Dev nD) :
    V14 m (outs m h) c (Pipeline.arrRef spec6 (2 : Fin 3)) = outArr6 (adms m h p6) (V13 m (outs m h)) c := by
  rw [← o6_eq, ← outs_6]
  exact Function.update_self (main_v54 : DevRef τ sig) (outs m h 14 main_v54 c) (V13 m (outs m h) c)
theorem hout7 (c : Dev nD) :
    V16 m (outs m h) c (Pipeline.arrRef spec7 (2 : Fin 3)) = outArr7 (adms m h p7) (V15 m (outs m h)) c := by
  rw [← o7_eq, ← outs_7]
  exact Function.update_self (main_v61 : DevRef τ sig) (outs m h 16 main_v61 c) (V15 m (outs m h) c)

/-! ## The proof data, pipeline by pipeline -/

/-- Pipeline `p`'s proof data: region `p`'s, at the admissible tables and the family's valuation at its entry. -/
def pdats : (p : Fin 8) → (c : Dev nD) → Dat τ (Elt F) Unit ℕ (UR sig nD τ) ℕ (Pipeline.pin (pcfgs (F := F)) (adms m h) p) c
  | ⟨0, _⟩ => fun c => dat0 (adms m h p0) (vin0 (V1 m)) c
  | ⟨1, _⟩ => fun c => dat1 (adms m h p1) (vin1 (V3 m (outs m h))) c
  | ⟨2, _⟩ => fun c => dat2 (adms m h p2) (vin2 (V5 m (outs m h))) c
  | ⟨3, _⟩ => fun c => dat3 (adms m h p3) (vin3 (V7 m (outs m h))) c
  | ⟨4, _⟩ => fun c => dat4 (adms m h p4) (vin4 (V9 m (outs m h))) c
  | ⟨5, _⟩ => fun c => dat5 (adms m h p5) (vin5 (V11 m (outs m h))) c
  | ⟨6, _⟩ => fun c => dat6 (adms m h p6) (vin6 (V13 m (outs m h))) c
  | ⟨7, _⟩ => fun c => dat7 (adms m h p7) (vin7 (V15 m (outs m h))) c
  | ⟨_ + 8, hn⟩ => absurd hn (Nat.not_lt.2 (Nat.le_add_left _ _))

/-! ## The eight records -/

/-- Region 0: entered at `V1`, left at `V2`. -/
def R0 : RegionSeg (pcfgs (F := F)) (adms m h) (pdats m h) () defs₀ Variants.none L₀ lv₀ 0 :=
  rec0 (adms m h) (pdats m h) (V1 m) (V2 m (outs m h)) (fun _ => rfl)
    (fun c => body_obligation0 (adms m h p0) (vin0 (V1 m)) c)
    (fun c k => adms_tab0 m h c k) (fun c => hFin0 m (outs m h) c) (hout0 m h) (fun c => hrest0 m (outs m h) c)
/-- Region 1: entered at `V3`, left at `V4`. -/
def R1 : RegionSeg (pcfgs (F := F)) (adms m h) (pdats m h) () defs₀ Variants.none L₀ lv₀ 1 :=
  rec1 (adms m h) (pdats m h) (V3 m (outs m h)) (V4 m (outs m h)) (fun _ => rfl)
    (fun c => body_obligation1 (adms m h p1) (vin1 (V3 m (outs m h))) c)
    (fun c k => adms_tab1 m (outs m h) h c k) (fun c => hFin1 m (outs m h) c) (hout1 m h) (fun c => hrest1 m (outs m h) c)
/-- Region 2: entered at `V5`, left at `V6`. -/
def R2 : RegionSeg (pcfgs (F := F)) (adms m h) (pdats m h) () defs₀ Variants.none L₀ lv₀ 2 :=
  rec2 (adms m h) (pdats m h) (V5 m (outs m h)) (V6 m (outs m h)) (fun _ => rfl)
    (fun c => body_obligation2 (adms m h p2) (vin2 (V5 m (outs m h))) c)
    (fun c k => adms_tab2 m (outs m h) h c k) (fun c => hFin2 m (outs m h) c) (hout2 m h) (fun c => hrest2 m (outs m h) c)
/-- Region 3: entered at `V7`, left at `V8`. -/
def R3 : RegionSeg (pcfgs (F := F)) (adms m h) (pdats m h) () defs₀ Variants.none L₀ lv₀ 3 :=
  rec3 (adms m h) (pdats m h) (V7 m (outs m h)) (V8 m (outs m h)) (fun _ => rfl)
    (fun c => body_obligation3 (adms m h p3) (vin3 (V7 m (outs m h))) c)
    (fun c k => adms_tab3 m (outs m h) h c k) (fun c => hFin3 m (outs m h) c) (hout3 m h) (fun c => hrest3 m (outs m h) c)
/-- Region 4: entered at `V9`, left at `V10`. -/
def R4 : RegionSeg (pcfgs (F := F)) (adms m h) (pdats m h) () defs₀ Variants.none L₀ lv₀ 4 :=
  rec4 (adms m h) (pdats m h) (V9 m (outs m h)) (V10 m (outs m h)) (fun _ => rfl)
    (fun c => body_obligation4 (adms m h p4) (vin4 (V9 m (outs m h))) c)
    (fun c k => adms_tab4 m (outs m h) h c k) (fun c => hFin4 m (outs m h) c) (hout4 m h) (fun c => hrest4 m (outs m h) c)
/-- Region 5: entered at `V11`, left at `V12`. -/
def R5 : RegionSeg (pcfgs (F := F)) (adms m h) (pdats m h) () defs₀ Variants.none L₀ lv₀ 5 :=
  rec5 (adms m h) (pdats m h) (V11 m (outs m h)) (V12 m (outs m h)) (fun _ => rfl)
    (fun c => body_obligation5 (adms m h p5) (vin5 (V11 m (outs m h))) c)
    (fun c k => adms_tab5 m (outs m h) h c k) (fun c => hFin5 m (outs m h) c) (hout5 m h) (fun c => hrest5 m (outs m h) c)
/-- Region 6: entered at `V13`, left at `V14`. -/
def R6 : RegionSeg (pcfgs (F := F)) (adms m h) (pdats m h) () defs₀ Variants.none L₀ lv₀ 6 :=
  rec6 (adms m h) (pdats m h) (V13 m (outs m h)) (V14 m (outs m h)) (fun _ => rfl)
    (fun c => body_obligation6 (adms m h p6) (vin6 (V13 m (outs m h))) c)
    (fun c k => adms_tab6 m (outs m h) h c k) (fun c => hFin6 m (outs m h) c) (hout6 m h) (fun c => hrest6 m (outs m h) c)
/-- Region 7: entered at `V15`, left at `V16`. -/
def R7 : RegionSeg (pcfgs (F := F)) (adms m h) (pdats m h) () defs₀ Variants.none L₀ lv₀ 7 :=
  rec7 (adms m h) (pdats m h) (V15 m (outs m h)) (V16 m (outs m h)) (fun _ => rfl)
    (fun c => body_obligation7 (adms m h p7) (vin7 (V15 m (outs m h))) c)
    (fun c k => adms_tab7 m (outs m h) h c k) (fun c => hFin7 m (outs m h) c) (hout7 m h) (fun c => hrest7 m (outs m h) c)

/-! ## The run -/

include h in
/-- THE FRAME: when every edge's words name rows of the embedding tables, every weakly fair execution of @main from
    `m` with zero counters terminates and every final memory holds each argument as launched. -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_regs m ρ (outs m h) (adms m h) (pdats m h)
    (R0 m h) (fun _ => .rfl) (fun _ => .rfl) (R1 m h) (fun _ => .rfl) (fun _ => .rfl)
    (R2 m h) (fun _ => .rfl) (fun _ => .rfl) (R3 m h) (fun _ => .rfl) (fun _ => .rfl)
    (R4 m h) (fun _ => .rfl) (fun _ => .rfl) (R5 m h) (fun _ => .rfl) (fun _ => .rfl)
    (R6 m h) (fun _ => .rfl) (fun _ => .rfl) (R7 m h) (fun _ => .rfl) (fun _ => .rfl)

/-- THE VALUE: the same, and every final memory holds in the result buffer what the last valuation of the family says. -/
theorem value_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v63) = V17 m (outs m h) c main_v63) :=
  value_of_regs m ρ (outs m h) (adms m h) (pdats m h)
    (R0 m h) (fun _ => .rfl) (fun _ => .rfl) (R1 m h) (fun _ => .rfl) (fun _ => .rfl)
    (R2 m h) (fun _ => .rfl) (fun _ => .rfl) (R3 m h) (fun _ => .rfl) (fun _ => .rfl)
    (R4 m h) (fun _ => .rfl) (fun _ => .rfl) (R5 m h) (fun _ => .rfl) (fun _ => .rfl)
    (R6 m h) (fun _ => .rfl) (fun _ => .rfl) (R7 m h) (fun _ => .rfl) (fun _ => .rfl)

end Cert.KernelIdeal.Gen

end
-- ==== Proof.PreI.lean ====
/-
  The precondition's index ranges at the kernel's launch memory.

  `finite_inputs` all ones says, of the four index arguments, that every word lies in [0, 1000000) read signed — hence is below
  1000000 read unsigned (`pre_args`) —, so that every edge of the list names rows of the two embedding tables (`pre_idx`):
  what makes every region's tables admissible (`okK_of_idx`, `admK`, `adms`).
-/
import proofs.«425429_j48773648614109_2_alg».proof.Proof.TablesI
import proofs.«425429_j48773648614109_2_alg».proof.Defs

noncomputable section

namespace Cert.KernelIdeal.Gen

open Idealize.ShloMosaic Idealize.ShloMosaic.TcCoe
open Idealize.SL.Sem

variable (m : (ℓ : Loc nD τ sig) → Buf (Elt Ideal) ℓ)

/-- Under the precondition every word of the four index arguments is below 1000000. -/
theorem pre_args (hpre : Cert.Pre_KernelIdeal m) (c : Dev nD) :
    (∀ j, BitVec.toNat (w := 32) (m ((c : Thread nD τ).loc main_arg0) j) < 1000000)
      ∧ (∀ j, BitVec.toNat (w := 32) (m ((c : Thread nD τ).loc main_arg1) j) < 1000000)
      ∧ (∀ j, BitVec.toNat (w := 32) (m ((c : Thread nD τ).loc main_arg2) j) < 1000000)
      ∧ (∀ j, BitVec.toNat (w := 32) (m ((c : Thread nD τ).loc main_arg3) j) < 1000000) :=
  fn_range (F := Ideal) _ _ _ _ _ _ (hpre c)

/-- Under the precondition every edge's two words name rows of the embedding tables. -/
theorem pre_idx (hpre : Cert.Pre_KernelIdeal m) : IdxOk m := idxOk_of_args m (pre_args m hpre)

end Cert.KernelIdeal.Gen

end
-- ==== Proof.FiniteI.lean ====
/-
  Finiteness of the two embedding tables under the precondition (extended reals).

  `finite_inputs` all ones says of each entry x of the two tables that |x| = max x (−x) is below +∞ (the pattern 0x7F800000).
  An extended real x with max x (−x) < ⊤ is neither ⊤ nor ⊥ (−⊥ = ⊤): it is a real number.
-/
import proofs.«425429_j48773648614109_2_alg».proof.Proof.TablesI
import proofs.«425429_j48773648614109_2_alg».proof.Defs

noncomputable section

namespace Cert.KernelIdeal.Gen

open Idealize.ShloMosaic Idealize.ShloMosaic.TcCoe
open Idealize.SL.Sem

/-- An extended real whose absolute value is below +∞ (the pattern 0x7F800000) is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < ⊤ := by
    simpa [Ideal.cmp, StableHlo.Predicate.ofBool_eq_one_iff] using h
  induction x using EReal.rec with
  | bot => simp at hlt
  | coe r => exact ⟨r, rfl⟩
  | top => simp at hlt

/-- The predicate all ones says every entry of the two float arrays is a real number. -/
theorem fn_finite (a0 a1 : IVec Cert.Pre_finite_inputs.S16384 32) (a2 a3 : IVec Cert.Pre_finite_inputs.S16384x20 32)
    (a4 a5 : FVec Ideal Cert.Pre_finite_inputs.S1000000x64 .f32)
    (h : Cert.Pre_finite_inputs.fn (F := Ideal) a0 a1 a2 a3 a4 a5 = fun _ => 1#1) :
    (∀ j, ∃ r : ℝ, a4 j = (r : EReal)) ∧ (∀ j, ∃ r : ℝ, a5 j = (r : EReal)) := by
  have e := congrFun h ValueIdx.ix0
  unfold Cert.Pre_finite_inputs.fn Cert.Pre_finite_inputs.fn_part1 Cert.Pre_finite_inputs.fn_part2 at e
  dsimp only at e
  obtain ⟨e4, -⟩ := IntOp.andi_eq_one.1 e
  obtain ⟨e5, -⟩ := IntOp.andi_eq_one.1 e4
  obtain ⟨e6, -⟩ := IntOp.andi_eq_one.1 e5
  obtain ⟨e7, -⟩ := IntOp.andi_eq_one.1 e6
  obtain ⟨eu, ev⟩ := IntOp.andi_eq_one.1 e7
  exact ⟨fun j => real_of_abs_lt_inf (a4 j) (Host.reduce_andi_all _ _ _ _ ValueIdx.ix0 eu j),
    fun j => real_of_abs_lt_inf (a5 j) (Host.reduce_andi_all _ _ _ _ ValueIdx.ix0 ev j)⟩

variable (m : (ℓ : Loc nD τ sig) → Buf (Elt Ideal) ℓ)

/-- Under the precondition every entry of the two embedding tables is a real number. -/
theorem pre_finite (hpre : Cert.Pre_KernelIdeal m) (c : Dev nD) :
    (∀ j, ∃ r : ℝ, (m ((c : Thread nD τ).loc main_arg4) j : EReal) = (r : EReal))
      ∧ (∀ j, ∃ r : ℝ, (m ((c : Thread nD τ).loc main_arg5) j : EReal) = (r : EReal)) :=
  fn_finite _ _ _ _ _ _ (hpre c)

end Cert.KernelIdeal.Gen

end
-- ==== Proof.HostSumI.lean ====
import proofs.«425429_j48773648614109_2_alg».proof.Proof.RegionsI
import Idealize.ShloMosaic.PureOps.Ideal.Laws
import Idealize.ShloMosaic.Lib.ValueIdx
import Idealize.ShloMosaic.Lib.Pipeline.Value
import Idealize.ShloMosaic.Lib.StableHlo.Run

/-!
# The host side of the kernel's value

Between the eight regions the program keeps a running total in a scalar buffer: it starts from the constant zero and,
after each region, the region's `[1,1]` output is read as a scalar and added. This module reads the last of these
buffers, the program's result, as the left-nested sum of the eight outputs, whatever the regions left in them.
-/

noncomputable section

namespace Cert.KernelIdeal.KValue

open Idealize.ShloMosaic Idealize.ShloMosaic.ValueIdx Idealize.ShloMosaic.TcCoe Idealize.SL.Sem
open Cert.KernelIdeal Cert.KernelIdeal.Gen

/-- A `[1,1]` array reshaped to a scalar holds its one entry. -/
theorem scalar_of_1x1 (x : FVec Ideal S1x1 .f32) (h : S1x1.ShapeCasts S_) (i : S_.Idx) :
    shapeCast S_ x h i = x (ValueIdx.ix2 (0 : Fin 1) (0 : Fin 1)) :=
  shapeCast_apply x h i _ (by
    have h0 : (S_.rowMajor i).val < 1 := (S_.rowMajor i).isLt
    rw [Shape.rowMajor_val_two]
    show 0 * 1 + 0 = _
    omega)

variable (m : (ℓ : Loc nD τ sig) → Buf (Elt Ideal) ℓ) (outs : Outs (F := Ideal))

/-! ## The regions' outputs and the running totals, as vectors of extended reals -/

/-- What the first region leaves in its output array. -/
abbrev out_v12 (c : Dev nD) : FVec Ideal S1x1 .f32 := outs 2 main_v12 c
/-- What the second region leaves in its output array. -/
abbrev out_v19 (c : Dev nD) : FVec Ideal S1x1 .f32 := outs 4 main_v19 c
/-- What the third region leaves in its output array. -/
abbrev out_v26 (c : Dev nD) : FVec Ideal S1x1 .f32 := outs 6 main_v26 c
/-- What the fourth region leaves in its output array. -/
abbrev out_v33 (c : Dev nD) : FVec Ideal S1x1 .f32 := outs 8 main_v33 c
/-- What the fifth region leaves in its output array. -/
abbrev out_v40 (c : Dev nD) : FVec Ideal S1x1 .f32 := outs 10 main_v40 c
/-- What the sixth region leaves in its output array. -/
abbrev out_v47 (c : Dev nD) : FVec Ideal S1x1 .f32 := outs 12 main_v47 c
/-- What the seventh region leaves in its output array. -/
abbrev out_v54 (c : Dev nD) : FVec Ideal S1x1 .f32 := outs 14 main_v54 c
/-- What the eighth region leaves in its output array. -/
abbrev out_v61 (c : Dev nD) : FVec Ideal S1x1 .f32 := outs 16 main_v61 c

/-- The running total after the first region. -/
abbrev tot_v14 (c : Dev nD) : FVec Ideal S_ .f32 := V3 m outs c main_v14
/-- The running total after the second region. -/
abbrev tot_v21 (c : Dev nD) : FVec Ideal S_ .f32 := V5 m outs c main_v21
/-- The running total after the third region. -/
abbrev tot_v28 (c : Dev nD) : FVec Ideal S_ .f32 := V7 m outs c main_v28
/-- The running total after the fourth region. -/
abbrev tot_v35 (c : Dev nD) : FVec Ideal S_ .f32 := V9 m outs c main_v35
/-- The running total after the fifth region. -/
abbrev tot_v42 (c : Dev nD) : FVec Ideal S_ .f32 := V11 m outs c main_v42
/-- The running total after the sixth region. -/
abbrev tot_v49 (c : Dev nD) : FVec Ideal S_ .f32 := V13 m outs c main_v49
/-- The running total after the seventh region. -/
abbrev tot_v56 (c : Dev nD) : FVec Ideal S_ .f32 := V15 m outs c main_v56
/-- The program's result: the running total after the eighth region. -/
abbrev tot_v63 (c : Dev nD) : FVec Ideal S_ .f32 := V17 m outs c main_v63

/-! ## One host stretch at a time -/

/-- After the first region the running total is the zero constant plus that region's output, read as a scalar. -/
theorem run_v14 (c : Dev nD) :
    tot_v14 m outs c
      = addf (constant (F := Ideal) S_ .f32 0x00000000#32) (shapeCast S_ (out_v12 outs c) shapeCasts_S1x1_S_) := by
  show StableHlo.after hostOps1 (V2 m outs c) (Proc.devRef .tc main_v14) = _
  dsimp only [hostOps1]
  after_results
  have e : V2 m outs c (Proc.devRef .tc main_v12) = outs 2 main_v12 c := Function.update_self _ _ _
  rw [e]; rfl

theorem at_v14 (c : Dev nD) (i : S_.Idx) :
    tot_v14 m outs c i = 0 + out_v12 outs c (ValueIdx.ix2 (0 : Fin 1) (0 : Fin 1)) :=
  (congrFun (run_v14 m outs c) i).trans
    (congrArg₂ (· + ·) Ideal.ofBits_zero_f32 (scalar_of_1x1 (out_v12 outs c) _ i))

/-- After the second region the running total is the previous one plus that region's output, read as a scalar. -/
theorem run_v21 (c : Dev nD) :
    tot_v21 m outs c = addf (F := Ideal) (tot_v14 m outs c) (shapeCast S_ (out_v19 outs c) shapeCasts_S1x1_S_) := by
  show StableHlo.after hostOps2 (V4 m outs c) (Proc.devRef .tc main_v21) = _
  dsimp only [hostOps2]
  after_results
  have e : V4 m outs c (Proc.devRef .tc main_v19) = outs 4 main_v19 c := Function.update_self _ _ _
  have e' : V4 m outs c (Proc.devRef .tc main_v14) = V3 m outs c main_v14 := V4_of m outs c main_v14 (by decide)
  rw [e, e']; rfl

theorem at_v21 (c : Dev nD) (i : S_.Idx) :
    tot_v21 m outs c i = tot_v14 m outs c i + out_v19 outs c (ValueIdx.ix2 (0 : Fin 1) (0 : Fin 1)) :=
  (congrFun (run_v21 m outs c) i).trans (congrArg (tot_v14 m outs c i + ·) (scalar_of_1x1 (out_v19 outs c) _ i))

/-- After the third region likewise. -/
theorem run_v28 (c : Dev nD) :
    tot_v28 m outs c = addf (F := Ideal) (tot_v21 m outs c) (shapeCast S_ (out_v26 outs c) shapeCasts_S1x1_S_) := by
  show StableHlo.after hostOps3 (V6 m outs c) (Proc.devRef .tc main_v28) = _
  dsimp only [hostOps3]
  after_results
  have e : V6 m outs c (Proc.devRef .tc main_v26) = outs 6 main_v26 c := Function.update_self _ _ _
  have e' : V6 m outs c (Proc.devRef .tc main_v21) = V5 m outs c main_v21 := V6_of m outs c main_v21 (by decide)
  rw [e, e']; rfl

theorem at_v28 (c : Dev nD) (i : S_.Idx) :
    tot_v28 m outs c i = tot_v21 m outs c i + out_v26 outs c (ValueIdx.ix2 (0 : Fin 1) (0 : Fin 1)) :=
  (congrFun (run_v28 m outs c) i).trans (congrArg (tot_v21 m outs c i + ·) (scalar_of_1x1 (out_v26 outs c) _ i))

/-- After the fourth region likewise. -/
theorem run_v35 (c : Dev nD) :
    tot_v35 m outs c = addf (F := Ideal) (tot_v28 m outs c) (shapeCast S_ (out_v33 outs c) shapeCasts_S1x1_S_) := by
  show StableHlo.after hostOps4 (V8 m outs c) (Proc.devRef .tc main_v35) = _
  dsimp only [hostOps4]
  after_results
  have e : V8 m outs c (Proc.devRef .tc main_v33) = outs 8 main_v33 c := Function.update_self _ _ _
  have e' : V8 m outs c (Proc.devRef .tc main_v28) = V7 m outs c main_v28 := V8_of m outs c main_v28 (by decide)
  rw [e, e']; rfl

theorem at_v35 (c : Dev nD) (i : S_.Idx) :
    tot_v35 m outs c i = tot_v28 m outs c i + out_v33 outs c (ValueIdx.ix2 (0 : Fin 1) (0 : Fin 1)) :=
  (congrFun (run_v35 m outs c) i).trans (congrArg (tot_v28 m outs c i + ·) (scalar_of_1x1 (out_v33 outs c) _ i))

/-- After the fifth region likewise. -/
theorem run_v42 (c : Dev nD) :
    tot_v42 m outs c = addf (F := Ideal) (tot_v35 m outs c) (shapeCast S_ (out_v40 outs c) shapeCasts_S1x1_S_) := by
  show StableHlo.after hostOps5 (V10 m outs c) (Proc.devRef .tc main_v42) = _
  dsimp only [hostOps5]
  after_results
  have e : V10 m outs c (Proc.devRef .tc main_v40) = outs 10 main_v40 c := Function.update_self _ _ _
  have e' : V10 m outs c (Proc.devRef .tc main_v35) = V9 m outs c main_v35 := V10_of m outs c main_v35 (by decide)
  rw [e, e']; rfl

theorem at_v42 (c : Dev nD) (i : S_.Idx) :
    tot_v42 m outs c i = tot_v35 m outs c i + out_v40 outs c (ValueIdx.ix2 (0 : Fin 1) (0 : Fin 1)) :=
  (congrFun (run_v42 m outs c) i).trans (congrArg (tot_v35 m outs c i + ·) (scalar_of_1x1 (out_v40 outs c) _ i))

/-- After the sixth region likewise. -/
theorem run_v49 (c : Dev nD) :
    tot_v49 m outs c = addf (F := Ideal) (tot_v42 m outs c) (shapeCast S_ (out_v47 outs c) shapeCasts_S1x1_S_) := by
  show StableHlo.after hostOps6 (V12 m outs c) (Proc.devRef .tc main_v49) = _
  dsimp only [hostOps6]
  after_results
  have e : V12 m outs c (Proc.devRef .tc main_v47) = outs 12 main_v47 c := Function.update_self _ _ _
  have e' : V12 m outs c (Proc.devRef .tc main_v42) = V11 m outs c main_v42 := V12_of m outs c main_v42 (by decide)
  rw [e, e']; rfl

theorem at_v49 (c : Dev nD) (i : S_.Idx) :
    tot_v49 m outs c i = tot_v42 m outs c i + out_v47 outs c (ValueIdx.ix2 (0 : Fin 1) (0 : Fin 1)) :=
  (congrFun (run_v49 m outs c) i).trans (congrArg (tot_v42 m outs c i + ·) (scalar_of_1x1 (out_v47 outs c) _ i))

/-- After the seventh region likewise. -/
theorem run_v56 (c : Dev nD) :
    tot_v56 m outs c = addf (F := Ideal) (tot_v49 m outs c) (shapeCast S_ (out_v54 outs c) shapeCasts_S1x1_S_) := by
  show StableHlo.after hostOps7 (V14 m outs c) (Proc.devRef .tc main_v56) = _
  dsimp only [hostOps7]
  after_results
  have e : V14 m outs c (Proc.devRef .tc main_v54) = outs 14 main_v54 c := Function.update_self _ _ _
  have e' : V14 m outs c (Proc.devRef .tc main_v49) = V13 m outs c main_v49 := V14_of m outs c main_v49 (by decide)
  rw [e, e']; rfl

theorem at_v56 (c : Dev nD) (i : S_.Idx) :
    tot_v56 m outs c i = tot_v49 m outs c i + out_v54 outs c (ValueIdx.ix2 (0 : Fin 1) (0 : Fin 1)) :=
  (congrFun (run_v56 m outs c) i).trans (congrArg (tot_v49 m outs c i + ·) (scalar_of_1x1 (out_v54 outs c) _ i))

/-- After the eighth region likewise: this buffer is the program's result. -/
theorem run_v63 (c : Dev nD) :
    tot_v63 m outs c = addf (F := Ideal) (tot_v56 m outs c) (shapeCast S_ (out_v61 outs c) shapeCasts_S1x1_S_) := by
  show StableHlo.after hostOps8 (V16 m outs c) (Proc.devRef .tc main_v63) = _
  dsimp only [hostOps8]
  after_results
  have e : V16 m outs c (Proc.devRef .tc main_v61) = outs 16 main_v61 c := Function.update_self _ _ _
  have e' : V16 m outs c (Proc.devRef .tc main_v56) = V15 m outs c main_v56 := V16_of m outs c main_v56 (by decide)
  rw [e, e']; rfl

theorem at_v63 (c : Dev nD) (i : S_.Idx) :
    tot_v63 m outs c i = tot_v56 m outs c i + out_v61 outs c (ValueIdx.ix2 (0 : Fin 1) (0 : Fin 1)) :=
  (congrFun (run_v63 m outs c) i).trans (congrArg (tot_v56 m outs c i + ·) (scalar_of_1x1 (out_v61 outs c) _ i))

/-! ## The result -/

/-- THE HOST SIDE: the result buffer after the last host stretch is the left-nested sum, from zero, of the eight regions'
    outputs, whatever the regions left in them. -/
theorem host_total (c : Dev nD) :
    tot_v63 m outs c
      = fun _ => ((((((((0 + out_v12 outs c (ValueIdx.ix2 (0 : Fin 1) (0 : Fin 1)))
          + out_v19 outs c (ValueIdx.ix2 (0 : Fin 1) (0 : Fin 1)))
          + out_v26 outs c (ValueIdx.ix2 (0 : Fin 1) (0 : Fin 1)))
          + out_v33 outs c (ValueIdx.ix2 (0 : Fin 1) (0 : Fin 1)))
          + out_v40 outs c (ValueIdx.ix2 (0 : Fin 1) (0 : Fin 1)))
          + out_v47 outs c (ValueIdx.ix2 (0 : Fin 1) (0 : Fin 1)))
          + out_v54 outs c (ValueIdx.ix2 (0 : Fin 1) (0 : Fin 1)))
          + out_v61 outs c (ValueIdx.ix2 (0 : Fin 1) (0 : Fin 1))) := by
  funext i
  rw [at_v63 m outs c i, at_v56 m outs c i, at_v49 m outs c i, at_v42 m outs c i,
    at_v35 m outs c i, at_v28 m outs c i, at_v21 m outs c i, at_v14 m outs c i]

end Cert.KernelIdeal.KValue

end
-- ==== Proof.Spec.lean ====
/-
  The mathematics of the certificate, with no program in sight.

  An edge is a pair of rows, one of each embedding table; its score is the dot product of the two rows
  and its loss is softplus (-score) = -log (sigmoid score), spelled max (-s) 0 + log (1 + exp (-|s|)).
  The total is the sum of the losses of all 344064 = 16384 + 16384 * 20 edges: the 16384 positive ones
  first, then the negative ones, row by row.

  Two ways of adding the total up are shown to give it:
  * eight consecutive chunks of 43008 edges, each added up left to right from zero, the eight results
    then added left to right from zero (fold_eq_sum, total_chunks);
  * per batch row, the positive edge's loss and the sum of its twenty negative edges' losses, written
    with the double negations and the subtraction a log-sigmoid formulation produces, then summed over
    the rows (total_split, ref_total). The second needs every loss to be a real number, because in the
    extended reals negation does not distribute over a sum that meets both infinities; finite table
    entries make every score, hence every loss, real (rowDot_real, lossE_coe).
-/
import Idealize.ShloMosaic.PureOps.Ideal
import Idealize.ShloMosaic.Lib.ValueIdx
import Mathlib.Algebra.BigOperators.Fin
import Mathlib.Algebra.BigOperators.Intervals
import Mathlib.Analysis.SpecialFunctions.Log.Basic

noncomputable section

namespace Cert.Spec

open Idealize.ShloMosaic Idealize.ShloMosaic.ValueIdx
open scoped BigOperators

/-! ## Scores and losses -/

/-- The shape of an embedding table. -/
abbrev Su : Shape := ⟨2, ![1000000, 64]⟩

/-- The score of an edge: the dot product of row iu of U and row iv of V. -/
def rowDot (U V : FVec Ideal Su .f32) (iu iv : Fin 1000000) : EReal :=
  ∑ d : Fin 64, U (ix2 iu d) * V (ix2 iv d)

/-- The loss of a score: softplus (-s), as max (-s) 0 + log (1 + exp (-|-s|)), the absolute value of
    y spelled max y (-y) and -(-s) already cancelled. -/
def lossE (s : EReal) : EReal := max (-s) 0 + Ideal.log1p (Ideal.exp (-(max (-s) s)))

/-- The same loss with every negation written as a subtraction from zero, a spurious x - 0 before the
    absolute value, and the result negated twice. -/
theorem lossE_kernel (s : EReal) :
    0 - (0 - (max (0 - s) 0 + Ideal.log1p (Ideal.exp (0 - max (0 - s - 0) (-(0 - s - 0)))))) = lossE s := by
  simp only [lossE, zero_sub, sub_zero, neg_neg]

/-- softplus at x = -s with a spurious x - 0 before the absolute value. -/
theorem lossE_softplus (s : EReal) :
    max (-s) 0 + Ideal.log1p (Ideal.exp (-(max (-s - 0) (-(-s - 0))))) = lossE s := by
  simp only [lossE, sub_zero, neg_neg]

/-- No extended real differs from itself: the ordered "not equal" test is never taken. -/
theorem cmp_one_self (x : EReal) : Ideal.cmp .one x x = 0#1 := by
  simp [Ideal.cmp]

/-- No extended real differs from itself: the unordered "not equal" test is never taken. -/
theorem cmp_une_self (x : EReal) : Ideal.cmp .une x x = 0#1 := by
  simp [Ideal.cmp]

/-- The inclusion of the reals preserves maxima. -/
theorem coe_max (a b : ℝ) : max (a : EReal) (b : EReal) = ((max a b : ℝ) : EReal) :=
  (EReal.coe_strictMono.monotone.map_max).symm

/-- The loss as a function of a real score. -/
def lossR (r : ℝ) : ℝ := max (-r) 0 + Real.log (1 + Real.exp (-|r|))

/-- On a real score the loss is the real number lossR. -/
theorem lossE_coe (r : ℝ) : lossE (r : EReal) = ((lossR r : ℝ) : EReal) := by
  have hpos : ¬ (1 + Real.exp (-(max (-r) r))) ≤ 0 := not_le.mpr (by positivity)
  have habs : max (-r) r = |r| := by rw [max_comm, ← abs_eq_max_neg]
  unfold lossE lossR Ideal.log1p
  rw [← EReal.coe_neg, ← EReal.coe_zero, coe_max, coe_max, ← EReal.coe_neg,
    Ideal.exp_coe, ← EReal.coe_one, ← EReal.coe_add, Ideal.log_coe, if_neg hpos, ← EReal.coe_add, habs]

/-- The loss of a real score is not negative. -/
theorem lossR_nonneg (r : ℝ) : 0 ≤ lossR r := by
  unfold lossR
  have h1 : 0 ≤ max (-r) 0 := le_max_right _ _
  have h2 : 0 ≤ Real.log (1 + Real.exp (-|r|)) :=
    Real.log_nonneg (by linarith [Real.exp_pos (-|r|)])
  linarith

/-! ## Real sums inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Rows of real entries have a real score. -/
theorem rowDot_real (U V : FVec Ideal Su .f32) (hU : ∀ j, ∃ r : ℝ, U j = (r : EReal))
    (hV : ∀ j, ∃ r : ℝ, V j = (r : EReal)) (iu iv : Fin 1000000) :
    ∃ r : ℝ, rowDot U V iu iv = (r : EReal) := by
  choose u hu using hU
  choose v hv using hV
  refine ⟨∑ d : Fin 64, u (ix2 iu d) * v (ix2 iv d), ?_⟩
  simp only [rowDot, hu, hv, ← EReal.coe_mul, ← coe_sum]

/-! ## The edges -/

/-- Edge i of chunk K. -/
def chunkIdx (K : Fin 8) (i : Fin 43008) : Fin 344064 := ⟨K.val * 43008 + i.val, by omega⟩

/-- The positive edge of batch row b. -/
def posIdx (b : Fin 16384) : Fin 344064 := ⟨b.val, by omega⟩

/-- The k-th negative edge of batch row b. -/
def negIdx (b : Fin 16384) (k : Fin 20) : Fin 344064 := ⟨16384 + 20 * b.val + k.val, by omega⟩

/-- The edge list: the positive entries, then the negative ones row by row. -/
def edgeIdx {α : Type} (p : Fin 16384 → α) (n : Fin 16384 → Fin 20 → α) (e : Fin 344064) : α :=
  if h : e.val < 16384 then p ⟨e.val, h⟩
  else n ⟨(e.val - 16384) / 20, by have := e.isLt; omega⟩ ⟨(e.val - 16384) % 20, by omega⟩

theorem edgeIdx_pos {α : Type} (p : Fin 16384 → α) (n : Fin 16384 → Fin 20 → α) (b : Fin 16384) :
    edgeIdx p n (posIdx b) = p b := by
  unfold edgeIdx posIdx
  rw [dif_pos b.isLt]

/-- An edge numbered 16384 + 20 b + k is the k-th negative entry of row b. -/
theorem edgeIdx_of_eq {α : Type} (p : Fin 16384 → α) (n : Fin 16384 → Fin 20 → α) (e : Fin 344064)
    (b : Fin 16384) (k : Fin 20) (h : e.val = 16384 + 20 * b.val + k.val) : edgeIdx p n e = n b k := by
  have hb := b.isLt
  have hk := k.isLt
  have hlt : ¬ e.val < 16384 := by omega
  have h1 : (e.val - 16384) / 20 = b.val := by omega
  have h2 : (e.val - 16384) % 20 = k.val := by omega
  unfold edgeIdx
  rw [dif_neg hlt]
  have e1 : (⟨(e.val - 16384) / 20, by omega⟩ : Fin 16384) = b := Fin.ext h1
  have e2 : (⟨(e.val - 16384) % 20, by omega⟩ : Fin 20) = k := Fin.ext h2
  rw [e1, e2]

theorem edgeIdx_neg {α : Type} (p : Fin 16384 → α) (n : Fin 16384 → Fin 20 → α) (b : Fin 16384) (k : Fin 20) :
    edgeIdx p n (negIdx b k) = n b k :=
  edgeIdx_of_eq p n (negIdx b k) b k rfl

/-- A 32-bit word read as a row number (taken modulo the table's height, so that it is total; a word
    the precondition admits is below the height and is its own remainder). -/
def idxOf (w : BitVec 32) : Fin 1000000 := ⟨w.toNat % 1000000, Nat.mod_lt _ (by norm_num)⟩

theorem idxOf_val {w : BitVec 32} (h : w.toNat < 1000000) : (idxOf w).val = w.toNat :=
  Nat.mod_eq_of_lt h

/-- The row numbers of all edges, from the positive and the negative index arrays. -/
def edges (pos : IVec ⟨1, ![16384]⟩ 32) (neg : IVec ⟨2, ![16384, 20]⟩ 32) : Fin 344064 → Fin 1000000 :=
  edgeIdx (fun b => idxOf (pos (ix1 b))) (fun b k => idxOf (neg (ix2 b k)))

/-- The loss of edge e. -/
def edgeLoss (U V : FVec Ideal Su .f32) (iu iv : Fin 344064 → Fin 1000000) (e : Fin 344064) : EReal :=
  lossE (rowDot U V (iu e) (iv e))

/-- The total loss. -/
def total (U V : FVec Ideal Su .f32) (iu iv : Fin 344064 → Fin 1000000) : EReal :=
  ∑ e : Fin 344064, edgeLoss U V iu iv e

/-- Real tables give every edge a real loss. -/
theorem edgeLoss_real (U V : FVec Ideal Su .f32) (hU : ∀ j, ∃ r : ℝ, U j = (r : EReal))
    (hV : ∀ j, ∃ r : ℝ, V j = (r : EReal)) (iu iv : Fin 344064 → Fin 1000000) (e : Fin 344064) :
    ∃ r : ℝ, edgeLoss U V iu iv e = (r : EReal) := by
  obtain ⟨s, hs⟩ := rowDot_real U V hU hV (iu e) (iv e)
  exact ⟨lossR s, by rw [edgeLoss, hs, lossE_coe]⟩

/-! ## Adding up by chunks -/

/-- An accumulator started at 0 + f 0 and increased by f (n+1) at step n+1 holds the sum of f over
    the steps taken. -/
theorem fold_eq_sum (f acc : ℕ → EReal) (h0 : acc 0 = 0 + f 0) (hs : ∀ n, acc (n + 1) = acc n + f (n + 1))
    (n : ℕ) : acc n = ∑ i ∈ Finset.range (n + 1), f i := by
  induction n with
  | zero => rw [h0, zero_add, Finset.sum_range_one]
  | succ n ih => rw [hs, ih, Finset.sum_range_succ _ (n + 1)]

/-- The edges are the eight chunks laid end to end. -/
def chunkEquiv : Fin 8 × Fin 43008 ≃ Fin 344064 where
  toFun p := chunkIdx p.1 p.2
  invFun e := (⟨e.val / 43008, by have := e.isLt; omega⟩, ⟨e.val % 43008, by omega⟩)
  left_inv p := by
    rcases p with ⟨K, i⟩
    have hK := K.isLt
    have hi := i.isLt
    apply Prod.ext <;> (apply Fin.ext; simp only [chunkIdx]; omega)
  right_inv e := by
    apply Fin.ext
    simp only [chunkIdx]
    omega

/-- A chunk's sum over its 43008 points, as a sum over a range of naturals. -/
theorem chunk_sum_range (g : Fin 344064 → EReal) (K : Fin 8) (f : ℕ → EReal)
    (hf : ∀ i : Fin 43008, f i.val = g (chunkIdx K i)) :
    ∑ i ∈ Finset.range 43008, f i = ∑ i : Fin 43008, g (chunkIdx K i) := by
  rw [Finset.sum_range]
  exact Finset.sum_congr rfl fun i _ => hf i

/-- The eight chunk sums, added left to right from zero, are the sum over all edges. -/
theorem total_chunks (g : Fin 344064 → EReal) :
    0 + (∑ i, g (chunkIdx 0 i)) + (∑ i, g (chunkIdx 1 i)) + (∑ i, g (chunkIdx 2 i)) + (∑ i, g (chunkIdx 3 i))
      + (∑ i, g (chunkIdx 4 i)) + (∑ i, g (chunkIdx 5 i)) + (∑ i, g (chunkIdx 6 i)) + (∑ i, g (chunkIdx 7 i))
      = ∑ e, g e := by
  rw [← Fintype.sum_equiv chunkEquiv (fun p => g (chunkIdx p.1 p.2)) g (fun _ => rfl),
    Fintype.sum_prod_type, Fin.sum_univ_eight, zero_add]

/-! ## Adding up by batch rows -/

/-- The edges are the positive ones followed by the negative ones, row by row. -/
def splitEquiv : Fin 16384 ⊕ (Fin 16384 × Fin 20) ≃ Fin 344064 where
  toFun x := match x with
    | .inl b => posIdx b
    | .inr p => negIdx p.1 p.2
  invFun e := edgeIdx (fun b => Sum.inl b) (fun b k => Sum.inr (b, k)) e
  left_inv x := by
    rcases x with b | ⟨b, k⟩
    · exact edgeIdx_pos _ _ b
    · exact edgeIdx_neg _ _ b k
  right_inv e := by
    have he := e.isLt
    dsimp only
    unfold edgeIdx
    by_cases h : e.val < 16384
    · rw [dif_pos h]; rfl
    · rw [dif_neg h]
      apply Fin.ext
      simp only [negIdx]
      omega

/-- The sum over all edges, row by row. -/
theorem total_split (g : Fin 344064 → EReal) :
    ∑ e, g e = ∑ b : Fin 16384, (g (posIdx b) + ∑ k : Fin 20, g (negIdx b k)) := by
  rw [← Fintype.sum_equiv splitEquiv (fun x => g (splitEquiv x)) g (fun _ => rfl),
    Fintype.sum_sum_type, Fintype.sum_prod_type, ← Finset.sum_add_distrib]
  rfl

/-- One batch row in its log-sigmoid form: for real losses, minus minus the positive one, less the
    sum from zero of minus the negative ones, is the plain sum. -/
theorem ref_row (p : ℝ) (n : Fin 20 → ℝ) :
    -(-(p : EReal)) - (0 + ∑ k, -((n k : ℝ) : EReal)) = (p : EReal) + ∑ k, ((n k : ℝ) : EReal) := by
  rw [neg_neg, zero_add]
  simp only [← EReal.coe_neg, ← coe_sum]
  rw [← EReal.coe_sub, ← EReal.coe_add, Finset.sum_neg_distrib, sub_neg_eq_add]

/-- The total in its log-sigmoid form, row by row from zero, for real losses. -/
theorem ref_total (g : Fin 344064 → EReal) (hg : ∀ e, ∃ r : ℝ, g e = (r : EReal)) :
    0 + ∑ b : Fin 16384, (-(-(g (posIdx b))) - (0 + ∑ k : Fin 20, -(g (negIdx b k)))) = ∑ e, g e := by
  choose r hr using hg
  rw [zero_add, total_split]
  refine Finset.sum_congr rfl fun b _ => ?_
  simp only [hr]
  exact ref_row (r (posIdx b)) (fun k => r (negIdx b k))

end Cert.Spec

end
-- ==== Proof.ArgsI.lean ====
import proofs.«425429_j48773648614109_2_alg».proof.Proof.TablesI
import proofs.«425429_j48773648614109_2_alg».proof.Proof.Spec
import Idealize.ShloMosaic.Lib.ValueIdx
import Idealize.ShloMosaic.Lib.Pipeline.Value
import Idealize.ShloMosaic.Lib.StableHlo.Run

/-!
# The arguments as the specification reads them

The specification speaks of the two embedding tables and of the list of edges. The program reshapes each table once,
giving it a unit middle axis, and no later item changes the result; and it cuts the concatenated index arrays into
eight rows of 43008 words. This module reads a row of a reshaped table as a row of the argument, at every region's
entry, and reads the words of the cut-up list as the specification's row numbers.
-/

noncomputable section

namespace Cert.KernelIdeal.KValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (outs : Outs (F := Ideal))

/-! ## The two embedding tables -/

/-- The first embedding table, as the specification takes it. -/
abbrev embU (c : Dev nD) : FVec Ideal Cert.Spec.Su .f32 := m ((c : Thread nD τ).loc main_arg4)
/-- The second embedding table. -/
abbrev embV (c : Dev nD) : FVec Ideal Cert.Spec.Su .f32 := m ((c : Thread nD τ).loc main_arg5)

/-- The first table with a unit middle axis, in a valuation of the core's buffers. -/
abbrev tab6 (Vv : Valuation τ sig (Elt Ideal)) : FVec Ideal S1000000x1x64 .f32 := Vv main_v6
/-- The second table with a unit middle axis. -/
abbrev tab7 (Vv : Valuation τ sig (Elt Ideal)) : FVec Ideal S1000000x1x64 .f32 := Vv main_v7

/-- Row `r`, lane `d` of the reshaped first table, after the first host stretch, is row `r`, lane `d` of the argument:
    both sit at position `64 r + d`. -/
theorem tab6_V1 (c : Dev nD) (r : Fin 1000000) (d : Fin 64) :
    tab6 (V1 m c) (ValueIdx.ix3 r (0 : Fin 1) d) = embU m c (ValueIdx.ix2 r d) := by
  show StableHlo.after hostOps0 (V0 m c) (Proc.devRef .tc main_v6) (ValueIdx.ix3 r (0 : Fin 1) d) = _
  after_results
  exact shapeCast_apply _ _ _ _ (by
    show (S1000000x64.rowMajor (ValueIdx.ix2 r d)).val = (S1000000x1x64.rowMajor (ValueIdx.ix3 r (0 : Fin 1) d)).val
    rw [Shape.rowMajor_val_two, Shape.rowMajor_val_three]
    show r.val * 64 + d.val = (r.val * 1 + 0) * 64 + d.val
    omega)

/-- The same for the second table. -/
theorem tab7_V1 (c : Dev nD) (r : Fin 1000000) (d : Fin 64) :
    tab7 (V1 m c) (ValueIdx.ix3 r (0 : Fin 1) d) = embV m c (ValueIdx.ix2 r d) := by
  show StableHlo.after hostOps0 (V0 m c) (Proc.devRef .tc main_v7) (ValueIdx.ix3 r (0 : Fin 1) d) = _
  after_results
  exact shapeCast_apply _ _ _ _ (by
    show (S1000000x64.rowMajor (ValueIdx.ix2 r d)).val = (S1000000x1x64.rowMajor (ValueIdx.ix3 r (0 : Fin 1) d)).val
    rw [Shape.rowMajor_val_two, Shape.rowMajor_val_three]
    show r.val * 64 + d.val = (r.val * 1 + 0) * 64 + d.val
    omega)

/-! No later host stretch writes the two reshaped tables and no region may change them: every later region finds them as
    the first does. -/

theorem tab6_V3 (c : Dev nD) : tab6 (V3 m outs c) = tab6 (V1 m c) :=
  (V3_of m outs c main_v6 (by decide)).trans (V2_of m outs c main_v6 (by decide))
theorem tab6_V5 (c : Dev nD) : tab6 (V5 m outs c) = tab6 (V1 m c) :=
  (V5_of m outs c main_v6 (by decide)).trans ((V4_of m outs c main_v6 (by decide)).trans (tab6_V3 m outs c))
theorem tab6_V7 (c : Dev nD) : tab6 (V7 m outs c) = tab6 (V1 m c) :=
  (V7_of m outs c main_v6 (by decide)).trans ((V6_of m outs c main_v6 (by decide)).trans (tab6_V5 m outs c))
theorem tab6_V9 (c : Dev nD) : tab6 (V9 m outs c) = tab6 (V1 m c) :=
  (V9_of m outs c main_v6 (by decide)).trans ((V8_of m outs c main_v6 (by decide)).trans (tab6_V7 m outs c))
theorem tab6_V11 (c : Dev nD) : tab6 (V11 m outs c) = tab6 (V1 m c) :=
  (V11_of m outs c main_v6 (by decide)).trans ((V10_of m outs c main_v6 (by decide)).trans (tab6_V9 m outs c))
theorem tab6_V13 (c : Dev nD) : tab6 (V13 m outs c) = tab6 (V1 m c) :=
  (V13_of m outs c main_v6 (by decide)).trans ((V12_of m outs c main_v6 (by decide)).trans (tab6_V11 m outs c))
theorem tab6_V15 (c : Dev nD) : tab6 (V15 m outs c) = tab6 (V1 m c) :=
  (V15_of m outs c main_v6 (by decide)).trans ((V14_of m outs c main_v6 (by decide)).trans (tab6_V13 m outs c))

theorem tab7_V3 (c : Dev nD) : tab7 (V3 m outs c) = tab7 (V1 m c) :=
  (V3_of m outs c main_v7 (by decide)).trans (V2_of m outs c main_v7 (by decide))
theorem tab7_V5 (c : Dev nD) : tab7 (V5 m outs c) = tab7 (V1 m c) :=
  (V5_of m outs c main_v7 (by decide)).trans ((V4_of m outs c main_v7 (by decide)).trans (tab7_V3 m outs c))
theorem tab7_V7 (c : Dev nD) : tab7 (V7 m outs c) = tab7 (V1 m c) :=
  (V7_of m outs c main_v7 (by decide)).trans ((V6_of m outs c main_v7 (by decide)).trans (tab7_V5 m outs c))
theorem tab7_V9 (c : Dev nD) : tab7 (V9 m outs c) = tab7 (V1 m c) :=
  (V9_of m outs c main_v7 (by decide)).trans ((V8_of m outs c main_v7 (by decide)).trans (tab7_V7 m outs c))
theorem tab7_V11 (c : Dev nD) : tab7 (V11 m outs c) = tab7 (V1 m c) :=
  (V11_of m outs c main_v7 (by decide)).trans ((V10_of m outs c main_v7 (by decide)).trans (tab7_V9 m outs c))
theorem tab7_V13 (c : Dev nD) : tab7 (V13 m outs c) = tab7 (V1 m c) :=
  (V13_of m outs c main_v7 (by decide)).trans ((V12_of m outs c main_v7 (by decide)).trans (tab7_V11 m outs c))
theorem tab7_V15 (c : Dev nD) : tab7 (V15 m outs c) = tab7 (V1 m c) :=
  (V15_of m outs c main_v7 (by decide)).trans ((V14_of m outs c main_v7 (by decide)).trans (tab7_V13 m outs c))

/-! ## The edge list -/

/-- The row numbers of the first table, edge by edge, as the specification takes them. -/
abbrev edgU (c : Dev nD) : Fin 344064 → Fin 1000000 :=
  Cert.Spec.edges (m ((c : Thread nD τ).loc main_arg0)) (m ((c : Thread nD τ).loc main_arg2))
/-- The row numbers of the second table. -/
abbrev edgV (c : Dev nD) : Fin 344064 → Fin 1000000 :=
  Cert.Spec.edges (m ((c : Thread nD τ).loc main_arg1)) (m ((c : Thread nD τ).loc main_arg3))

/-- The specification's row number of an edge is the edge list's word there, when that word names a row: the two split
    the list the same way, the positive entries first, then the negative ones row by row. -/
theorem edges_val (p : S16384.Idx → BitVec 32) (n : S16384x20.Idx → BitVec 32) (e : Fin 344064)
    (hb : (edgeOf p n e.val).toNat < 1000000) : (Cert.Spec.edges p n e).val = (edgeOf p n e.val).toNat := by
  by_cases he : e.val < 16384
  · have e1 : Cert.Spec.edges p n e = Cert.Spec.idxOf (p (ValueIdx.ix1 ⟨e.val, he⟩)) := by
      unfold Cert.Spec.edges Cert.Spec.edgeIdx
      rw [dif_pos he]
    have e2 : edgeOf p n e.val = p (ValueIdx.ix1 ⟨e.val, he⟩) := by
      unfold edgeOf
      rw [dif_pos he]
    rw [e2] at hb
    rw [e1, e2]
    exact Cert.Spec.idxOf_val hb
  · have h2 : e.val < 344064 := e.isLt
    have e1 : Cert.Spec.edges p n e
        = Cert.Spec.idxOf (n (ValueIdx.ix2 (⟨(e.val - 16384) / 20, by omega⟩ : Fin 16384) (⟨(e.val - 16384) % 20, Nat.mod_lt _ (by decide)⟩ : Fin 20))) := by
      unfold Cert.Spec.edges Cert.Spec.edgeIdx
      rw [dif_neg he]
    have e2 : edgeOf p n e.val
        = n (ValueIdx.ix2 (⟨(e.val - 16384) / 20, by omega⟩ : Fin 16384) (⟨(e.val - 16384) % 20, Nat.mod_lt _ (by decide)⟩ : Fin 20)) := by
      unfold edgeOf
      rw [dif_neg he, dif_pos h2]
    rw [e2] at hb
    rw [e1, e2]
    exact Cert.Spec.idxOf_val hb

/-- Word `i` of row `K` of the cut-up list of first-table indices is the specification's row number of edge
    `43008 K + i`. -/
theorem edgU_chunk (h : IdxOk m) (c : Dev nD) (K : Fin 8) (i : Fin 43008) :
    (edgU m c (Cert.Spec.chunkIdx K i)).val = (edgeU m c (K.val * 43008 + i.val)).toNat :=
  edges_val _ _ (Cert.Spec.chunkIdx K i) (h c (K.val * 43008 + i.val)).1

/-- The same for the second table. -/
theorem edgV_chunk (h : IdxOk m) (c : Dev nD) (K : Fin 8) (i : Fin 43008) :
    (edgV m c (Cert.Spec.chunkIdx K i)).val = (edgeV m c (K.val * 43008 + i.val)).toNat :=
  edges_val _ _ (Cert.Spec.chunkIdx K i) (h c (K.val * 43008 + i.val)).2

end Cert.KernelIdeal.KValue

end
-- ==== Proof.KValLibI.lean ====
import proofs.«425429_j48773648614109_2_alg».proof.Proof.Gen.KernelIdeal.Skeleton
import proofs.«425429_j48773648614109_2_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# The body's arithmetic, region by region the same

Every region's body multiplies two `[1,1,64]` row blocks lane by lane, sums the 64 lanes, and adds `-log σ(score)` in the
softplus form to a carried `[1,1]` sum. The two lemmas here read those two steps at the one index; they mention no
region, so the eight regions' value modules share them.
-/

noncomputable section

namespace Cert.KernelIdeal.KValue

open Idealize.ShloMosaic Idealize.ShloMosaic.ValueIdx Idealize.SL.Sem
open Cert.KernelIdeal Cert.KernelIdeal.Gen

/-- The lane sum: the product of the two row blocks, summed over the 64 lanes, read at the one index. -/
theorem laneSum (xu xv : FVec Ideal S1x1x64 .f32) (h1 : S1x1x64.ShapeCasts S1x64) (hr : S1x64.Reduces [1] S1)
    (hφ : FKind.Formats .f32) (hacc : (0x00000000#32 : BitVec 32) = FKind.add.neutral .f32 hφ) (h2 : S1.ShapeCasts S1x1) :
    shapeCast S1x1 (multiReduction .add [1] S1 (mulf (shapeCast S1x64 xu h1) (shapeCast S1x64 xv h1)) 0x00000000#32 hr hφ hacc) h2
        (ValueIdx.ix2 (0 : Fin 1) (0 : Fin 1))
      = ∑ d : Fin 64, xu (ValueIdx.ix3 (0 : Fin 1) (0 : Fin 1) d) * xv (ValueIdx.ix3 (0 : Fin 1) (0 : Fin 1) d) := by
  refine (shapeCast_a_1a_apply _ h2 0 0).trans ?_
  refine (Ideal.multiReduction_add_single _ _ hr hφ hacc (ValueIdx.ix1 0)).trans ?_
  refine Finset.sum_congr rfl fun d _ => ?_
  have e : hr.lift (ValueIdx.ix1 (0 : Fin 1)) d = ValueIdx.ix2 (0 : Fin 1) (d : Fin 64) := by
    funext a; refine Fin.ext ?_
    match a with
    | ⟨0, _⟩ => rfl
    | ⟨1, _⟩ => rfl
  rw [e]
  exact congrArg₂ (· * ·) (shapeCast_1ab_ab_apply xu h1 0 d) (shapeCast_1ab_ab_apply xv h1 0 d)

/-- The arithmetic after the lane sum, over a variable score vector `sv`: the accumulator plus the edge loss of the
    score. The body's test "the argument differs from itself" is false on the extended reals, so the select takes
    the softplus branch; `0 - (0 - y) ` is `y`. -/
theorem tail_apply (sv acc : FVec Ideal S1x1 .f32) (h : S1x1.ShapeCasts S1x1) (i : S1x1.Idx) :
    shapeCast S1x1
      (addf acc
        (subf (broadcast S1x1 (Scalar.ofBits (F := Ideal) .f32 0x00000000#32))
          (subf (broadcast S1x1 (Scalar.ofBits (F := Ideal) .f32 0x00000000#32))
            (select
              (cmpf .one
                (subf (subf (broadcast S1x1 (Scalar.ofBits (F := Ideal) .f32 0x00000000#32)) sv) (broadcast S1x1 (Scalar.ofBits (F := Ideal) .f32 0x00000000#32)))
                (subf (subf (broadcast S1x1 (Scalar.ofBits (F := Ideal) .f32 0x00000000#32)) sv) (broadcast S1x1 (Scalar.ofBits (F := Ideal) .f32 0x00000000#32))))
              (addf (subf (broadcast S1x1 (Scalar.ofBits (F := Ideal) .f32 0x00000000#32)) sv) (broadcast S1x1 (Scalar.ofBits (F := Ideal) .f32 0x00000000#32)))
              (addf
                (maximumf (subf (broadcast S1x1 (Scalar.ofBits (F := Ideal) .f32 0x00000000#32)) sv) (broadcast S1x1 (Scalar.ofBits (F := Ideal) .f32 0x00000000#32)))
                (log1p (exp (subf (broadcast S1x1 (Scalar.ofBits (F := Ideal) .f32 0x00000000#32))
                  (absf (subf (subf (broadcast S1x1 (Scalar.ofBits (F := Ideal) .f32 0x00000000#32)) sv) (broadcast S1x1 (Scalar.ofBits (F := Ideal) .f32 0x00000000#32))))))))))))
      h i
      = acc i + Cert.Spec.lossE (sv i) := by
  refine (congrFun (shapeCast_self _ h) i).trans ?_
  show acc i + (Ideal.ofBits .f32 0x00000000#32 - (Ideal.ofBits .f32 0x00000000#32 -
      Scalar.select (Ideal.cmp .one (Ideal.ofBits .f32 0x00000000#32 - sv i - Ideal.ofBits .f32 0x00000000#32) (Ideal.ofBits .f32 0x00000000#32 - sv i - Ideal.ofBits .f32 0x00000000#32))
        (Ideal.ofBits .f32 0x00000000#32 - sv i + Ideal.ofBits .f32 0x00000000#32)
        (max (Ideal.ofBits .f32 0x00000000#32 - sv i) (Ideal.ofBits .f32 0x00000000#32) +
          Ideal.log1p (Ideal.exp (Ideal.ofBits .f32 0x00000000#32 -
            max (Ideal.ofBits .f32 0x00000000#32 - sv i - Ideal.ofBits .f32 0x00000000#32) (-(Ideal.ofBits .f32 0x00000000#32 - sv i - Ideal.ofBits .f32 0x00000000#32))))))) = _
  rw [Cert.Spec.cmp_one_self, select_zero, Ideal.ofBits_zero_f32]
  exact congrArg (acc i + ·) (Cert.Spec.lossE_kernel (sv i))

end Cert.KernelIdeal.KValue

end
-- ==== Proof.KValI0.lean ====
import proofs.«425429_j48773648614109_2_alg».proof.Proof.DatI0
import proofs.«425429_j48773648614109_2_alg».proof.Proof.Spec
import proofs.«425429_j48773648614109_2_alg».proof.Proof.KValLibI
import Idealize.ShloMosaic.PureOps.Ideal.Laws
import Idealize.ShloMosaic.Lib.ValueIdx
import Idealize.ShloMosaic.Lib.ValueLayout
import Idealize.ShloMosaic.Lib.Pipeline.Value

/-!
# What one region adds up

At every grid point the body reads one row of each embedding table (the rows its two prefetched tables name at that
point), takes the dot product over the 64 lanes, and adds `-log σ(score)`, computed in the softplus form, to a carried
`[1,1]` sum that the first point starts from zero. This module reads the body's arithmetic at its one index, reads the
two row blocks off their arrays, and concludes that the carried sum after the last point is the sum over the region's
43008 edges of the edge loss.
-/

noncomputable section

namespace Cert.KernelIdeal.KValue

open Idealize.ShloMosaic Idealize.ShloMosaic.ValueIdx Idealize.ShloMosaic.TcCoe Idealize.SL.Sem
open Cert.KernelIdeal Cert.KernelIdeal.Gen

/-! ## The body's arithmetic at its one index -/

/-- THE UPDATE PAYLOAD AT ITS ONE INDEX: the carried sum plus the edge loss of the two rows' dot product. -/
theorem pay2_apply0 (xu xv : Vec Ideal S1x1x64 .f32) (acc : Vec Ideal S1x1 .f32) :
    k0_pay2 (F := Ideal) xu xv acc (ValueIdx.ix2 (0 : Fin 1) (0 : Fin 1))
      = acc (ValueIdx.ix2 (0 : Fin 1) (0 : Fin 1))
        + Cert.Spec.lossE (∑ d : Fin 64, xu (ValueIdx.ix3 (0 : Fin 1) (0 : Fin 1) d) * xv (ValueIdx.ix3 (0 : Fin 1) (0 : Fin 1) d)) := by
  unfold k0_pay2
  refine (tail_apply _ acc _ _).trans ?_
  exact congrArg (fun s => acc (ValueIdx.ix2 (0 : Fin 1) (0 : Fin 1)) + Cert.Spec.lossE s) (laneSum xu xv _ _ _ _ _)

/-- The reset payload is the zero vector. -/
theorem pay1_apply0 : (k0_pay1 (F := Ideal)) (ValueIdx.ix2 (0 : Fin 1) (0 : Fin 1)) = 0 := by
  unfold k0_pay1
  refine (congrFun (shapeCast_self _ _) _).trans ?_
  exact Ideal.ofBits_zero_f32

/-! ## The index maps: which rows a point reads -/

/-- On this one-axis grid a point's coordinate is its number. -/
theorem coord0 (t : Fin grid0.N) : ((grid0.coords t) 0).val = t.val := by
  have hs : grid0.stride 0 = 1 := by decide
  have hlt : t.val < 43008 := lt_of_lt_of_eq t.isLt N_0
  show t.val / grid0.stride 0 % 43008 = t.val
  rw [hs, Nat.div_one, Nat.mod_eq_of_lt hlt]

/-- The first index map at grid coordinates: the row is the first table's word there, the other two block indices zero.
    The tables' contents are a variable here. -/
theorem idxU0 (pf : pre0.Contents (Elt Ideal)) (i : grid0.Coords) :
    cc0_transform_0 k0_off1_inb numel1_S1 pf i
      = ![(pf 0 (ValueIdx.ix1 (⟨(i 0).val, (i 0).isLt⟩ : Fin 43008))).toNat, 0, 0] := by
  have hoff : (k0_off1 i) 0 = (i 0).val := congrFun (k0_off1_eq i) 0
  unfold cc0_transform_0
  dsimp only
  have hw : pf.at 0 (Rect.unit (s := S43008) ![(Scalar.indexCast (BitVec.ofNat 32 (i 0).val)).toNat] S1.size (k0_off1_inb i)) numel1_S1
      = pf 0 (ValueIdx.ix1 (⟨(i 0).val, (i 0).isLt⟩ : Fin 43008)) := by
    refine congrArg (pf 0) (funext fun ax => Fin.ext ?_)
    match ax with
    | ⟨0, _⟩ =>
      show k0_off1 i 0 + 1 * 0 = (i 0).val
      omega
  rw [hw]
  rfl

/-- The second index map likewise, from the second table. -/
theorem idxV0 (pf : pre0.Contents (Elt Ideal)) (i : grid0.Coords) :
    cc0_transform_1 k0_off1_inb numel1_S1 pf i
      = ![(pf 1 (ValueIdx.ix1 (⟨(i 0).val, (i 0).isLt⟩ : Fin 43008))).toNat, 0, 0] := by
  have hoff : (k0_off1 i) 0 = (i 0).val := congrFun (k0_off1_eq i) 0
  unfold cc0_transform_1
  dsimp only
  have hw : pf.at 1 (Rect.unit (s := S43008) ![(Scalar.indexCast (BitVec.ofNat 32 (i 0).val)).toNat] S1.size (k0_off1_inb i)) numel1_S1
      = pf 1 (ValueIdx.ix1 (⟨(i 0).val, (i 0).isLt⟩ : Fin 43008)) := by
    refine congrArg (pf 1) (funext fun ax => Fin.ext ?_)
    match ax with
    | ⟨0, _⟩ =>
      show k0_off1 i 0 + 1 * 0 = (i 0).val
      omega
  rw [hw]
  rfl

/-- The first index map at the grid point numbered `t`. -/
theorem idxU_pt0 (pf : pre0.Contents (Elt Ideal)) (t : Fin grid0.N) :
    cc0_transform_0 k0_off1_inb numel1_S1 pf (grid0.coords t)
      = ![(pf 0 (ValueIdx.ix1 (⟨t.val, lt_of_lt_of_eq t.isLt N_0⟩ : Fin 43008))).toNat, 0, 0] := by
  rw [idxU0]
  have e : (⟨(grid0.coords t 0).val, (grid0.coords t 0).isLt⟩ : Fin 43008) = ⟨t.val, lt_of_lt_of_eq t.isLt N_0⟩ :=
    Fin.ext (coord0 t)
  rw [e]

/-- The second index map at the grid point numbered `t`. -/
theorem idxV_pt0 (pf : pre0.Contents (Elt Ideal)) (t : Fin grid0.N) :
    cc0_transform_1 k0_off1_inb numel1_S1 pf (grid0.coords t)
      = ![(pf 1 (ValueIdx.ix1 (⟨t.val, lt_of_lt_of_eq t.isLt N_0⟩ : Fin 43008))).toNat, 0, 0] := by
  rw [idxV0]
  have e : (⟨(grid0.coords t 0).val, (grid0.coords t 0).isLt⟩ : Fin 43008) = ⟨t.val, lt_of_lt_of_eq t.isLt N_0⟩ :=
    Fin.ext (coord0 t)
  rw [e]

/-! ## The two row blocks, read off their arrays -/

variable (a : (pcfg0 (F := Ideal)).Adm)
  (V : (c : Dev nD) → (b : Ref sig .tc) → Buf (Elt Ideal) ((c : Thread nD τ).loc b))

/-- The first window's block at a point: one row of the first embedding table. -/
abbrev ublk0 (c : Dev nD) (t : Fin (cfg0 a).N) : FVec Ideal S1x1x64 .f32 := iblk0 a V c (0 : Fin 3) t
/-- The first window's array: the first embedding table with a unit middle axis. -/
abbrev uarr0 (c : Dev nD) : FVec Ideal S1000000x1x64 .f32 := V c main_v6
/-- The second window's block at a point: one row of the second embedding table. -/
abbrev vblk0 (c : Dev nD) (t : Fin (cfg0 a).N) : FVec Ideal S1x1x64 .f32 := iblk0 a V c (1 : Fin 3) t
/-- The second window's array: the second embedding table with a unit middle axis. -/
abbrev varr0 (c : Dev nD) : FVec Ideal S1000000x1x64 .f32 := V c main_v7

/-- THE FIRST WINDOW'S BLOCK at point `t`, lane `d`: the array at the row the first table names at `t` (a block's
    element sits, on each axis, at block index × block size + its own coordinate). -/
theorem blkU0 (c : Dev nD) (t : Fin (cfg0 a).N) (d : Fin 64) (r : Fin 1000000)
    (hr : r.val = (a.1 0 (ValueIdx.ix1 (⟨t.val, lt_of_lt_of_eq t.isLt N_0⟩ : Fin 43008))).toNat) :
    ublk0 a V c t (ValueIdx.ix3 (0 : Fin 1) (0 : Fin 1) d) = uarr0 V c (ValueIdx.ix3 r (0 : Fin 1) d) := by
  show uarr0 V c ((((cfg0 a).win 0).blk t).view.emb (ValueIdx.ix3 (0 : Fin 1) (0 : Fin 1) d)) = _
  refine congrArg (uarr0 V c) (funext fun ax => Fin.ext ?_)
  have hidx : ((cfg0 a).win 0).index t
      = ![(a.1 0 (ValueIdx.ix1 (⟨t.val, lt_of_lt_of_eq t.isLt N_0⟩ : Fin 43008))).toNat, 0, 0] := idxU_pt0 a.1 t
  match ax with
  | ⟨0, _⟩ =>
    show ((cfg0 a).win 0).index t (0 : Fin 3) * 1 + 1 * 0 = r.val
    rw [hr, hidx]
    show (a.1 0 (ValueIdx.ix1 (⟨t.val, lt_of_lt_of_eq t.isLt N_0⟩ : Fin 43008))).toNat * 1 + 1 * 0 = _
    omega
  | ⟨1, _⟩ =>
    show ((cfg0 a).win 0).index t (1 : Fin 3) * 1 + 1 * 0 = 0
    rw [hidx]; rfl
  | ⟨2, _⟩ =>
    show ((cfg0 a).win 0).index t (2 : Fin 3) * 64 + 1 * d.val = d.val
    rw [hidx]; show 0 * 64 + 1 * d.val = d.val; omega

/-- THE SECOND WINDOW'S BLOCK at point `t`, lane `d`, likewise from the second table. -/
theorem blkV0 (c : Dev nD) (t : Fin (cfg0 a).N) (d : Fin 64) (r : Fin 1000000)
    (hr : r.val = (a.1 1 (ValueIdx.ix1 (⟨t.val, lt_of_lt_of_eq t.isLt N_0⟩ : Fin 43008))).toNat) :
    vblk0 a V c t (ValueIdx.ix3 (0 : Fin 1) (0 : Fin 1) d) = varr0 V c (ValueIdx.ix3 r (0 : Fin 1) d) := by
  show varr0 V c ((((cfg0 a).win 1).blk t).view.emb (ValueIdx.ix3 (0 : Fin 1) (0 : Fin 1) d)) = _
  refine congrArg (varr0 V c) (funext fun ax => Fin.ext ?_)
  have hidx : ((cfg0 a).win 1).index t
      = ![(a.1 1 (ValueIdx.ix1 (⟨t.val, lt_of_lt_of_eq t.isLt N_0⟩ : Fin 43008))).toNat, 0, 0] := idxV_pt0 a.1 t
  match ax with
  | ⟨0, _⟩ =>
    show ((cfg0 a).win 1).index t (0 : Fin 3) * 1 + 1 * 0 = r.val
    rw [hr, hidx]
    show (a.1 1 (ValueIdx.ix1 (⟨t.val, lt_of_lt_of_eq t.isLt N_0⟩ : Fin 43008))).toNat * 1 + 1 * 0 = _
    omega
  | ⟨1, _⟩ =>
    show ((cfg0 a).win 1).index t (1 : Fin 3) * 1 + 1 * 0 = 0
    rw [hidx]; rfl
  | ⟨2, _⟩ =>
    show ((cfg0 a).win 1).index t (2 : Fin 3) * 64 + 1 * d.val = d.val
    rw [hidx]; show 0 * 64 + 1 * d.val = d.val; omega

/-! ## The carried sum -/

/-- The term the point numbered `n` adds: the edge loss of the dot product of the two rows it reads. -/
def term0 (c : Dev nD) (n : ℕ) : EReal :=
  Cert.Spec.lossE (∑ d : Fin 64,
    ublk0 a V c (pt0 a n) (ValueIdx.ix3 (0 : Fin 1) (0 : Fin 1) d) * vblk0 a V c (pt0 a n) (ValueIdx.ix3 (0 : Fin 1) (0 : Fin 1) d))

/-- The carried sum after the point numbered `n` is the sum of the terms of the points up to `n`: the first point adds
    its term to the zero it stores, every later point adds its term to what the point before left. -/
theorem acc_fold0 (c : Dev nD) (n : ℕ) :
    accAt0 a V c n (ValueIdx.ix2 (0 : Fin 1) (0 : Fin 1)) = ∑ i ∈ Finset.range (n + 1), term0 a V c i :=
  Cert.Spec.fold_eq_sum (term0 a V c) (fun n => accAt0 a V c n (ValueIdx.ix2 (0 : Fin 1) (0 : Fin 1)))
    ((congrFun (accAt_zero0 a V c) (ValueIdx.ix2 (0 : Fin 1) (0 : Fin 1))).trans
      ((pay2_apply0 (ublk0 a V c (pt0 a 0)) (vblk0 a V c (pt0 a 0)) (k0_pay1 (F := Ideal))).trans
        (congrArg (· + term0 a V c 0) pay1_apply0)))
    (fun n => (congrFun (accAt_succ0 a V c n) (ValueIdx.ix2 (0 : Fin 1) (0 : Fin 1))).trans
      (pay2_apply0 (ublk0 a V c (pt0 a (n + 1))) (vblk0 a V c (pt0 a (n + 1))) (accAt0 a V c n)))
    n

/-- WHAT THE REGION LEAVES: when the two arrays are the embedding tables `U`, `W` with a unit middle axis and the two
    prefetched tables hold the row numbers `IU`, `IV` of this region's edges, the carried sum after the last point is the
    sum of the edge losses over the region's 43008 edges. The tables' contents stay a variable. -/
theorem region_sum0 (c : Dev nD) (U W : FVec Ideal Cert.Spec.Su .f32) (IU IV : Fin 344064 → Fin 1000000)
    (hU : ∀ (r : Fin 1000000) (d : Fin 64), uarr0 V c (ValueIdx.ix3 r (0 : Fin 1) d) = U (ValueIdx.ix2 r d))
    (hW : ∀ (r : Fin 1000000) (d : Fin 64), varr0 V c (ValueIdx.ix3 r (0 : Fin 1) d) = W (ValueIdx.ix2 r d))
    (hIU : ∀ i : Fin 43008, (IU (Cert.Spec.chunkIdx p0 i)).val = (a.1 0 (ValueIdx.ix1 i)).toNat)
    (hIV : ∀ i : Fin 43008, (IV (Cert.Spec.chunkIdx p0 i)).val = (a.1 1 (ValueIdx.ix1 i)).toNat) :
    accAt0 a V c ((cfg0 a).N - 1) (ValueIdx.ix2 (0 : Fin 1) (0 : Fin 1))
      = ∑ i : Fin 43008, Cert.Spec.edgeLoss U W IU IV (Cert.Spec.chunkIdx p0 i) := by
  have hN : (cfg0 a).N = 43008 := N_0
  have hN1 : (cfg0 a).N - 1 + 1 = 43008 := by omega
  rw [acc_fold0, hN1]
  refine Cert.Spec.chunk_sum_range (Cert.Spec.edgeLoss U W IU IV) p0 (term0 a V c) fun i => ?_
  have ht : (⟨(pt0 a i.val).val, lt_of_lt_of_eq (pt0 a i.val).isLt N_0⟩ : Fin 43008) = i :=
    Fin.ext (show i.val % (cfg0 a).N = i.val from Nat.mod_eq_of_lt (by rw [hN]; exact i.isLt))
  unfold term0 Cert.Spec.edgeLoss Cert.Spec.rowDot
  refine congrArg Cert.Spec.lossE (Finset.sum_congr rfl fun d _ => ?_)
  exact congrArg₂ (· * ·)
    ((blkU0 a V c (pt0 a i.val) d (IU (Cert.Spec.chunkIdx p0 i)) (by rw [ht]; exact hIU i)).trans (hU _ d))
    ((blkV0 a V c (pt0 a i.val) d (IV (Cert.Spec.chunkIdx p0 i)) (by rw [ht]; exact hIV i)).trans (hW _ d))

end Cert.KernelIdeal.KValue

end
-- ==== Proof.OutI0.lean ====
import proofs.«425429_j48773648614109_2_alg».proof.Proof.DatI0
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg0 (F := F)).Adm)
  (V : (c : Dev nD) → (b : Ref sig .tc) → Buf (Elt F) ((c : Thread nD τ).loc b))

/-! ## The output window writes back once

Window 2's array is the one `[1, 1]` block; its block index is the same at every point, so the pipeline writes the
staging buffer back at the last point only, and that write covers the array. -/

/-- The output window's block index does not depend on the point. -/
theorem out_index0 (t t' : Fin (cfg0 a).N) : ((cfg0 a).win (2 : Fin 3)).index t = ((cfg0 a).win (2 : Fin 3)).index t' := rfl

/-- Window 2 is an output. -/
theorem out_isOut0 : ((cfg0 a).win (2 : Fin 3)).isOut = true := rfl

/-- The output window writes back at the last point and nowhere else: the next point's block index never differs. -/
theorem out_flush0 (t : Fin (cfg0 a).N) : ((cfg0 a).win (2 : Fin 3)).flush t = decide (t.val + 1 = (cfg0 a).N) := by
  unfold Pipeline.Window.flush
  rw [out_isOut0, Bool.true_and]
  have h : decide (∃ h : t.val + 1 < (cfg0 a).grid.N, ((cfg0 a).win (2 : Fin 3)).index ⟨t.val + 1, h⟩ ≠ ((cfg0 a).win (2 : Fin 3)).index t) = false :=
    decide_eq_false fun ⟨h, hne⟩ => hne (out_index0 a _ _)
  rw [h, Bool.or_false]

/-- A `[1, 1]` array has one index. -/
theorem out_sub0 : Subsingleton S1x1.Idx := ⟨fun i j => by
  funext x; apply Fin.ext; have hi := (i x).isLt; have hj := (j x).isLt
  have hs : S1x1.size x = 1 := by fin_cases x <;> rfl
  omega⟩

/-- The grid's last point. -/
def out_last0 : Fin (cfg0 a).N := ⟨(cfg0 a).N - 1, Nat.sub_lt (N_pos0 a) Nat.one_pos⟩

/-- THE REGION'S RESULT: after all the write-backs the output array holds what the body left in the staging
    buffer at the last point, the whole sum. The last point is the only one that writes back (`out_flush0`); what it
    writes is the block of that sum (the array has one index, so the block read back is the array), and its block
    covers the array. -/
theorem out_final0 (c : Dev nD) : (dat0 a V c).arrAt (2 : Fin 3) (cfg0 a).N = accAt0 a V c ((cfg0 a).N - 1) := by
  refine (dat0 a V c).arrAt_eq_of_cover (2 : Fin 3) (accAt0 a V c ((cfg0 a).N - 1)) (fun t hf => ?_) (fun i => ?_)
  · have ht : t.val + 1 = (cfg0 a).N := by rw [out_flush0] at hf; exact of_decide_eq_true hf
    funext y
    rw [View.read_apply, show (cfg0 a).N - 1 = t.val from by omega]
    show ((cfg0 a).win 2).cut ((cfg0 a).grid.coords t) ((dat0 a V c).after 2 t) y = _
    rw [afterO0]
    refine Eq.trans ?_ (cast_eq _ _).symm
    exact congrArg (accAt0 a V c t.val) (@Subsingleton.elim S1x1.Idx out_sub0 _ _)
  · have hN := N_pos0 a
    refine ⟨out_last0 a, ?_, ?_⟩
    · rw [out_flush0]; exact decide_eq_true (Nat.sub_add_cancel hN)
    · obtain ⟨j, hj⟩ := View.set_nonempty (v := (((cfg0 a).win 2).blk (out_last0 a)).view)
        (Nat.pos_of_ne_zero fun h0 => absurd ((((cfg0 a).win 2).xblock_numel_eq_zero_iff _).mp h0) (Nat.pos_iff_ne_zero.mp (block_pos0 2)))
      exact (@Subsingleton.elim S1x1.Idx out_sub0 j i) ▸ hj

/-! ## The input windows' arrays are never written -/

/-- Window 0's array holds its entry contents after any number of write-backs. -/
theorem arrAt_inU0 (c : Dev nD) (n : ℕ) : (dat0 a V c).arrAt (0 : Fin 3) n = V c (Pipeline.arrRef spec0 (0 : Fin 3)) :=
  ((dat0 a V c).arrAt_in (0 : Fin 3) rfl n).trans (A_eq0 a V c _)

/-- The same for window 1. -/
theorem arrAt_inV0 (c : Dev nD) (n : ℕ) : (dat0 a V c).arrAt (1 : Fin 3) n = V c (Pipeline.arrRef spec0 (1 : Fin 3)) :=
  ((dat0 a V c).arrAt_in (1 : Fin 3) rfl n).trans (A_eq0 a V c _)

end Cert.KernelIdeal.Gen

end
-- ==== Proof.OutValI0.lean ====
import proofs.«425429_j48773648614109_2_alg».proof.Proof.KValI0
import proofs.«425429_j48773648614109_2_alg».proof.Proof.OutI0
import proofs.«425429_j48773648614109_2_alg».proof.Proof.RecI0

/-!
# What one region leaves in its output array

The region's `[1,1]` output array is written once, at the last point, with the carried sum; so what the region leaves
there, read at its one index, is the sum of the edge losses over the region's 43008 edges.
-/

noncomputable section

namespace Cert.KernelIdeal.KValue

open Idealize.ShloMosaic Idealize.ShloMosaic.ValueIdx Idealize.ShloMosaic.TcCoe Idealize.SL.Sem
open Cert.KernelIdeal Cert.KernelIdeal.Gen

/-- What the region leaves in its output array, as a `[1,1]` vector of extended reals, from the admissible tables and
    the valuation at the region's entry. -/
abbrev oarr0 (adm : (pcfg0 (F := Ideal)).Adm) (Win : Dev nD → Valuation τ sig (Elt Ideal)) (c : Dev nD) :
    FVec Ideal S1x1 .f32 := outArr0 adm Win c

/-- THE REGION'S OUTPUT: when, at the region's entry, the two arrays are the embedding tables `U`, `W` with a unit
    middle axis, and the admissible tables hold the row numbers `IU`, `IV` of this region's edges, the output array's
    one entry is the sum of the edge losses over the region's 43008 edges. -/
theorem out_value0 (adm : (pcfg0 (F := Ideal)).Adm) (Win : Dev nD → Valuation τ sig (Elt Ideal)) (c : Dev nD)
    (U W : FVec Ideal Cert.Spec.Su .f32) (IU IV : Fin 344064 → Fin 1000000)
    (hU : ∀ (r : Fin 1000000) (d : Fin 64), uarr0 (vin0 Win) c (ValueIdx.ix3 r (0 : Fin 1) d) = U (ValueIdx.ix2 r d))
    (hW : ∀ (r : Fin 1000000) (d : Fin 64), varr0 (vin0 Win) c (ValueIdx.ix3 r (0 : Fin 1) d) = W (ValueIdx.ix2 r d))
    (hIU : ∀ i : Fin 43008, (IU (Cert.Spec.chunkIdx p0 i)).val = (adm.1 0 (ValueIdx.ix1 i)).toNat)
    (hIV : ∀ i : Fin 43008, (IV (Cert.Spec.chunkIdx p0 i)).val = (adm.1 1 (ValueIdx.ix1 i)).toNat) :
    oarr0 adm Win c (ValueIdx.ix2 (0 : Fin 1) (0 : Fin 1))
      = ∑ i : Fin 43008, Cert.Spec.edgeLoss U W IU IV (Cert.Spec.chunkIdx p0 i) := by
  have e : oarr0 adm Win c = accAt0 adm (vin0 Win) c ((cfg0 adm).N - 1) := out_final0 adm (vin0 Win) c
  rw [e]
  exact region_sum0 adm (vin0 Win) c U W IU IV hU hW hIU hIV

end Cert.KernelIdeal.KValue

end
-- ==== Proof.KValI1.lean ====
import proofs.«425429_j48773648614109_2_alg».proof.Proof.DatI1
import proofs.«425429_j48773648614109_2_alg».proof.Proof.Spec
import proofs.«425429_j48773648614109_2_alg».proof.Proof.KValLibI
import Idealize.ShloMosaic.PureOps.Ideal.Laws
import Idealize.ShloMosaic.Lib.ValueIdx
import Idealize.ShloMosaic.Lib.ValueLayout
import Idealize.ShloMosaic.Lib.Pipeline.Value

/-!
# What one region adds up

At every grid point the body reads one row of each embedding table (the rows its two prefetched tables name at that
point), takes the dot product over the 64 lanes, and adds `-log σ(score)`, computed in the softplus form, to a carried
`[1,1]` sum that the first point starts from zero. This module reads the body's arithmetic at its one index, reads the
two row blocks off their arrays, and concludes that the carried sum after the last point is the sum over the region's
43008 edges of the edge loss.
-/

noncomputable section

namespace Cert.KernelIdeal.KValue

open Idealize.ShloMosaic Idealize.ShloMosaic.ValueIdx Idealize.ShloMosaic.TcCoe Idealize.SL.Sem
open Cert.KernelIdeal Cert.KernelIdeal.Gen

/-! ## The body's arithmetic at its one index -/

/-- THE UPDATE PAYLOAD AT ITS ONE INDEX: the carried sum plus the edge loss of the two rows' dot product. -/
theorem pay2_apply1 (xu xv : Vec Ideal S1x1x64 .f32) (acc : Vec Ideal S1x1 .f32) :
    k1_pay2 (F := Ideal) xu xv acc (ValueIdx.ix2 (0 : Fin 1) (0 : Fin 1))
      = acc (ValueIdx.ix2 (0 : Fin 1) (0 : Fin 1))
        + Cert.Spec.lossE (∑ d : Fin 64, xu (ValueIdx.ix3 (0 : Fin 1) (0 : Fin 1) d) * xv (ValueIdx.ix3 (0 : Fin 1) (0 : Fin 1) d)) := by
  unfold k1_pay2
  refine (tail_apply _ acc _ _).trans ?_
  exact congrArg (fun s => acc (ValueIdx.ix2 (0 : Fin 1) (0 : Fin 1)) + Cert.Spec.lossE s) (laneSum xu xv _ _ _ _ _)

/-- The reset payload is the zero vector. -/
theorem pay1_apply1 : (k1_pay1 (F := Ideal)) (ValueIdx.ix2 (0 : Fin 1) (0 : Fin 1)) = 0 := by
  unfold k1_pay1
  refine (congrFun (shapeCast_self _ _) _).trans ?_
  exact Ideal.ofBits_zero_f32

/-! ## The index maps: which rows a point reads -/

/-- On this one-axis grid a point's coordinate is its number. -/
theorem coord1 (t : Fin grid1.N) : ((grid1.coords t) 0).val = t.val := by
  have hs : grid1.stride 0 = 1 := by decide
  have hlt : t.val < 43008 := lt_of_lt_of_eq t.isLt N_1
  show t.val / grid1.stride 0 % 43008 = t.val
  rw [hs, Nat.div_one, Nat.mod_eq_of_lt hlt]

/-- The first index map at grid coordinates: the row is the first table's word there, the other two block indices zero.
    The tables' contents are a variable here. -/
theorem idxU1 (pf : pre1.Contents (Elt Ideal)) (i : grid1.Coords) :
    cc1_transform_0 k1_off1_inb numel1_S1 pf i
      = ![(pf 0 (ValueIdx.ix1 (⟨(i 0).val, (i 0).isLt⟩ : Fin 43008))).toNat, 0, 0] := by
  have hoff : (k1_off1 i) 0 = (i 0).val := congrFun (k1_off1_eq i) 0
  unfold cc1_transform_0
  dsimp only
  have hw : pf.at 0 (Rect.unit (s := S43008) ![(Scalar.indexCast (BitVec.ofNat 32 (i 0).val)).toNat] S1.size (k1_off1_inb i)) numel1_S1
      = pf 0 (ValueIdx.ix1 (⟨(i 0).val, (i 0).isLt⟩ : Fin 43008)) := by
    refine congrArg (pf 0) (funext fun ax => Fin.ext ?_)
    match ax with
    | ⟨0, _⟩ =>
      show k1_off1 i 0 + 1 * 0 = (i 0).val
      omega
  rw [hw]
  rfl

/-- The second index map likewise, from the second table. -/
theorem idxV1 (pf : pre1.Contents (Elt Ideal)) (i : grid1.Coords) :
    cc1_transform_1 k1_off1_inb numel1_S1 pf i
      = ![(pf 1 (ValueIdx.ix1 (⟨(i 0).val, (i 0).isLt⟩ : Fin 43008))).toNat, 0, 0] := by
  have hoff : (k1_off1 i) 0 = (i 0).val := congrFun (k1_off1_eq i) 0
  unfold cc1_transform_1
  dsimp only
  have hw : pf.at 1 (Rect.unit (s := S43008) ![(Scalar.indexCast (BitVec.ofNat 32 (i 0).val)).toNat] S1.size (k1_off1_inb i)) numel1_S1
      = pf 1 (ValueIdx.ix1 (⟨(i 0).val, (i 0).isLt⟩ : Fin 43008)) := by
    refine congrArg (pf 1) (funext fun ax => Fin.ext ?_)
    match ax with
    | ⟨0, _⟩ =>
      show k1_off1 i 0 + 1 * 0 = (i 0).val
      omega
  rw [hw]
  rfl

/-- The first index map at the grid point numbered `t`. -/
theorem idxU_pt1 (pf : pre1.Contents (Elt Ideal)) (t : Fin grid1.N) :
    cc1_transform_0 k1_off1_inb numel1_S1 pf (grid1.coords t)
      = ![(pf 0 (ValueIdx.ix1 (⟨t.val, lt_of_lt_of_eq t.isLt N_1⟩ : Fin 43008))).toNat, 0, 0] := by
  rw [idxU1]
  have e : (⟨(grid1.coords t 0).val, (grid1.coords t 0).isLt⟩ : Fin 43008) = ⟨t.val, lt_of_lt_of_eq t.isLt N_1⟩ :=
    Fin.ext (coord1 t)
  rw [e]

/-- The second index map at the grid point numbered `t`. -/
theorem idxV_pt1 (pf : pre1.Contents (Elt Ideal)) (t : Fin grid1.N) :
    cc1_transform_1 k1_off1_inb numel1_S1 pf (grid1.coords t)
      = ![(pf 1 (ValueIdx.ix1 (⟨t.val, lt_of_lt_of_eq t.isLt N_1⟩ : Fin 43008))).toNat, 0, 0] := by
  rw [idxV1]
  have e : (⟨(grid1.coords t 0).val, (grid1.coords t 0).isLt⟩ : Fin 43008) = ⟨t.val, lt_of_lt_of_eq t.isLt N_1⟩ :=
    Fin.ext (coord1 t)
  rw [e]

/-! ## The two row blocks, read off their arrays -/

variable (a : (pcfg1 (F := Ideal)).Adm)
  (V : (c : Dev nD) → (b : Ref sig .tc) → Buf (Elt Ideal) ((c : Thread nD τ).loc b))

/-- The first window's block at a point: one row of the first embedding table. -/
abbrev ublk1 (c : Dev nD) (t : Fin (cfg1 a).N) : FVec Ideal S1x1x64 .f32 := iblk1 a V c (0 : Fin 3) t
/-- The first window's array: the first embedding table with a unit middle axis. -/
abbrev uarr1 (c : Dev nD) : FVec Ideal S1000000x1x64 .f32 := V c main_v6
/-- The second window's block at a point: one row of the second embedding table. -/
abbrev vblk1 (c : Dev nD) (t : Fin (cfg1 a).N) : FVec Ideal S1x1x64 .f32 := iblk1 a V c (1 : Fin 3) t
/-- The second window's array: the second embedding table with a unit middle axis. -/
abbrev varr1 (c : Dev nD) : FVec Ideal S1000000x1x64 .f32 := V c main_v7

/-- THE FIRST WINDOW'S BLOCK at point `t`, lane `d`: the array at the row the first table names at `t` (a block's
    element sits, on each axis, at block index × block size + its own coordinate). -/
theorem blkU1 (c : Dev nD) (t : Fin (cfg1 a).N) (d : Fin 64) (r : Fin 1000000)
    (hr : r.val = (a.1 0 (ValueIdx.ix1 (⟨t.val, lt_of_lt_of_eq t.isLt N_1⟩ : Fin 43008))).toNat) :
    ublk1 a V c t (ValueIdx.ix3 (0 : Fin 1) (0 : Fin 1) d) = uarr1 V c (ValueIdx.ix3 r (0 : Fin 1) d) := by
  show uarr1 V c ((((cfg1 a).win 0).blk t).view.emb (ValueIdx.ix3 (0 : Fin 1) (0 : Fin 1) d)) = _
  refine congrArg (uarr1 V c) (funext fun ax => Fin.ext ?_)
  have hidx : ((cfg1 a).win 0).index t
      = ![(a.1 0 (ValueIdx.ix1 (⟨t.val, lt_of_lt_of_eq t.isLt N_1⟩ : Fin 43008))).toNat, 0, 0] := idxU_pt1 a.1 t
  match ax with
  | ⟨0, _⟩ =>
    show ((cfg1 a).win 0).index t (0 : Fin 3) * 1 + 1 * 0 = r.val
    rw [hr, hidx]
    show (a.1 0 (ValueIdx.ix1 (⟨t.val, lt_of_lt_of_eq t.isLt N_1⟩ : Fin 43008))).toNat * 1 + 1 * 0 = _
    omega
  | ⟨1, _⟩ =>
    show ((cfg1 a).win 0).index t (1 : Fin 3) * 1 + 1 * 0 = 0
    rw [hidx]; rfl
  | ⟨2, _⟩ =>
    show ((cfg1 a).win 0).index t (2 : Fin 3) * 64 + 1 * d.val = d.val
    rw [hidx]; show 0 * 64 + 1 * d.val = d.val; omega

/-- THE SECOND WINDOW'S BLOCK at point `t`, lane `d`, likewise from the second table. -/
theorem blkV1 (c : Dev nD) (t : Fin (cfg1 a).N) (d : Fin 64) (r : Fin 1000000)
    (hr : r.val = (a.1 1 (ValueIdx.ix1 (⟨t.val, lt_of_lt_of_eq t.isLt N_1⟩ : Fin 43008))).toNat) :
    vblk1 a V c t (ValueIdx.ix3 (0 : Fin 1) (0 : Fin 1) d) = varr1 V c (ValueIdx.ix3 r (0 : Fin 1) d) := by
  show varr1 V c ((((cfg1 a).win 1).blk t).view.emb (ValueIdx.ix3 (0 : Fin 1) (0 : Fin 1) d)) = _
  refine congrArg (varr1 V c) (funext fun ax => Fin.ext ?_)
  have hidx : ((cfg1 a).win 1).index t
      = ![(a.1 1 (ValueIdx.ix1 (⟨t.val, lt_of_lt_of_eq t.isLt N_1⟩ : Fin 43008))).toNat, 0, 0] := idxV_pt1 a.1 t
  match ax with
  | ⟨0, _⟩ =>
    show ((cfg1 a).win 1).index t (0 : Fin 3) * 1 + 1 * 0 = r.val
    rw [hr, hidx]
    show (a.1 1 (ValueIdx.ix1 (⟨t.val, lt_of_lt_of_eq t.isLt N_1⟩ : Fin 43008))).toNat * 1 + 1 * 0 = _
    omega
  | ⟨1, _⟩ =>
    show ((cfg1 a).win 1).index t (1 : Fin 3) * 1 + 1 * 0 = 0
    rw [hidx]; rfl
  | ⟨2, _⟩ =>
    show ((cfg1 a).win 1).index t (2 : Fin 3) * 64 + 1 * d.val = d.val
    rw [hidx]; show 0 * 64 + 1 * d.val = d.val; omega

/-! ## The carried sum -/

/-- The term the point numbered `n` adds: the edge loss of the dot product of the two rows it reads. -/
def term1 (c : Dev nD) (n : ℕ) : EReal :=
  Cert.Spec.lossE (∑ d : Fin 64,
    ublk1 a V c (pt1 a n) (ValueIdx.ix3 (0 : Fin 1) (0 : Fin 1) d) * vblk1 a V c (pt1 a n) (ValueIdx.ix3 (0 : Fin 1) (0 : Fin 1) d))

/-- The carried sum after the point numbered `n` is the sum of the terms of the points up to `n`: the first point adds
    its term to the zero it stores, every later point adds its term to what the point before left. -/
theorem acc_fold1 (c : Dev nD) (n : ℕ) :
    accAt1 a V c n (ValueIdx.ix2 (0 : Fin 1) (0 : Fin 1)) = ∑ i ∈ Finset.range (n + 1), term1 a V c i :=
  Cert.Spec.fold_eq_sum (term1 a V c) (fun n => accAt1 a V c n (ValueIdx.ix2 (0 : Fin 1) (0 : Fin 1)))
    ((congrFun (accAt_zero1 a V c) (ValueIdx.ix2 (0 : Fin 1) (0 : Fin 1))).trans
      ((pay2_apply1 (ublk1 a V c (pt1 a 0)) (vblk1 a V c (pt1 a 0)) (k1_pay1 (F := Ideal))).trans
        (congrArg (· + term1 a V c 0) pay1_apply1)))
    (fun n => (congrFun (accAt_succ1 a V c n) (ValueIdx.ix2 (0 : Fin 1) (0 : Fin 1))).trans
      (pay2_apply1 (ublk1 a V c (pt1 a (n + 1))) (vblk1 a V c (pt1 a (n + 1))) (accAt1 a V c n)))
    n

/-- WHAT THE REGION LEAVES: when the two arrays are the embedding tables `U`, `W` with a unit middle axis and the two
    prefetched tables hold the row numbers `IU`, `IV` of this region's edges, the carried sum after the last point is the
    sum of the edge losses over the region's 43008 edges. The tables' contents stay a variable. -/
theorem region_sum1 (c : Dev nD) (U W : FVec Ideal Cert.Spec.Su .f32) (IU IV : Fin 344064 → Fin 1000000)
    (hU : ∀ (r : Fin 1000000) (d : Fin 64), uarr1 V c (ValueIdx.ix3 r (0 : Fin 1) d) = U (ValueIdx.ix2 r d))
    (hW : ∀ (r : Fin 1000000) (d : Fin 64), varr1 V c (ValueIdx.ix3 r (0 : Fin 1) d) = W (ValueIdx.ix2 r d))
    (hIU : ∀ i : Fin 43008, (IU (Cert.Spec.chunkIdx p1 i)).val = (a.1 0 (ValueIdx.ix1 i)).toNat)
    (hIV : ∀ i : Fin 43008, (IV (Cert.Spec.chunkIdx p1 i)).val = (a.1 1 (ValueIdx.ix1 i)).toNat) :
    accAt1 a V c ((cfg1 a).N - 1) (ValueIdx.ix2 (0 : Fin 1) (0 : Fin 1))
      = ∑ i : Fin 43008, Cert.Spec.edgeLoss U W IU IV (Cert.Spec.chunkIdx p1 i) := by
  have hN : (cfg1 a).N = 43008 := N_1
  have hN1 : (cfg1 a).N - 1 + 1 = 43008 := by omega
  rw [acc_fold1, hN1]
  refine Cert.Spec.chunk_sum_range (Cert.Spec.edgeLoss U W IU IV) p1 (term1 a V c) fun i => ?_
  have ht : (⟨(pt1 a i.val).val, lt_of_lt_of_eq (pt1 a i.val).isLt N_1⟩ : Fin 43008) = i :=
    Fin.ext (show i.val % (cfg1 a).N = i.val from Nat.mod_eq_of_lt (by rw [hN]; exact i.isLt))
  unfold term1 Cert.Spec.edgeLoss Cert.Spec.rowDot
  refine congrArg Cert.Spec.lossE (Finset.sum_congr rfl fun d _ => ?_)
  exact congrArg₂ (· * ·)
    ((blkU1 a V c (pt1 a i.val) d (IU (Cert.Spec.chunkIdx p1 i)) (by rw [ht]; exact hIU i)).trans (hU _ d))
    ((blkV1 a V c (pt1 a i.val) d (IV (Cert.Spec.chunkIdx p1 i)) (by rw [ht]; exact hIV i)).trans (hW _ d))

end Cert.KernelIdeal.KValue

end
-- ==== Proof.OutI1.lean ====
import proofs.«425429_j48773648614109_2_alg».proof.Proof.DatI1
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg1 (F := F)).Adm)
  (V : (c : Dev nD) → (b : Ref sig .tc) → Buf (Elt F) ((c : Thread nD τ).loc b))

/-! ## The output window writes back once

Window 2's array is the one `[1, 1]` block; its block index is the same at every point, so the pipeline writes the
staging buffer back at the last point only, and that write covers the array. -/

/-- The output window's block index does not depend on the point. -/
theorem out_index1 (t t' : Fin (cfg1 a).N) : ((cfg1 a).win (2 : Fin 3)).index t = ((cfg1 a).win (2 : Fin 3)).index t' := rfl

/-- Window 2 is an output. -/
theorem out_isOut1 : ((cfg1 a).win (2 : Fin 3)).isOut = true := rfl

/-- The output window writes back at the last point and nowhere else: the next point's block index never differs. -/
theorem out_flush1 (t : Fin (cfg1 a).N) : ((cfg1 a).win (2 : Fin 3)).flush t = decide (t.val + 1 = (cfg1 a).N) := by
  unfold Pipeline.Window.flush
  rw [out_isOut1, Bool.true_and]
  have h : decide (∃ h : t.val + 1 < (cfg1 a).grid.N, ((cfg1 a).win (2 : Fin 3)).index ⟨t.val + 1, h⟩ ≠ ((cfg1 a).win (2 : Fin 3)).index t) = false :=
    decide_eq_false fun ⟨h, hne⟩ => hne (out_index1 a _ _)
  rw [h, Bool.or_false]

/-- A `[1, 1]` array has one index. -/
theorem out_sub1 : Subsingleton S1x1.Idx := ⟨fun i j => by
  funext x; apply Fin.ext; have hi := (i x).isLt; have hj := (j x).isLt
  have hs : S1x1.size x = 1 := by fin_cases x <;> rfl
  omega⟩

/-- The grid's last point. -/
def out_last1 : Fin (cfg1 a).N := ⟨(cfg1 a).N - 1, Nat.sub_lt (N_pos1 a) Nat.one_pos⟩

/-- THE REGION'S RESULT: after all the write-backs the output array holds what the body left in the staging
    buffer at the last point, the whole sum. The last point is the only one that writes back (`out_flush1`); what it
    writes is the block of that sum (the array has one index, so the block read back is the array), and its block
    covers the array. -/
theorem out_final1 (c : Dev nD) : (dat1 a V c).arrAt (2 : Fin 3) (cfg1 a).N = accAt1 a V c ((cfg1 a).N - 1) := by
  refine (dat1 a V c).arrAt_eq_of_cover (2 : Fin 3) (accAt1 a V c ((cfg1 a).N - 1)) (fun t hf => ?_) (fun i => ?_)
  · have ht : t.val + 1 = (cfg1 a).N := by rw [out_flush1] at hf; exact of_decide_eq_true hf
    funext y
    rw [View.read_apply, show (cfg1 a).N - 1 = t.val from by omega]
    show ((cfg1 a).win 2).cut ((cfg1 a).grid.coords t) ((dat1 a V c).after 2 t) y = _
    rw [afterO1]
    refine Eq.trans ?_ (cast_eq _ _).symm
    exact congrArg (accAt1 a V c t.val) (@Subsingleton.elim S1x1.Idx out_sub1 _ _)
  · have hN := N_pos1 a
    refine ⟨out_last1 a, ?_, ?_⟩
    · rw [out_flush1]; exact decide_eq_true (Nat.sub_add_cancel hN)
    · obtain ⟨j, hj⟩ := View.set_nonempty (v := (((cfg1 a).win 2).blk (out_last1 a)).view)
        (Nat.pos_of_ne_zero fun h0 => absurd ((((cfg1 a).win 2).xblock_numel_eq_zero_iff _).mp h0) (Nat.pos_iff_ne_zero.mp (block_pos1 2)))
      exact (@Subsingleton.elim S1x1.Idx out_sub1 j i) ▸ hj

/-! ## The input windows' arrays are never written -/

/-- Window 0's array holds its entry contents after any number of write-backs. -/
theorem arrAt_inU1 (c : Dev nD) (n : ℕ) : (dat1 a V c).arrAt (0 : Fin 3) n = V c (Pipeline.arrRef spec1 (0 : Fin 3)) :=
  ((dat1 a V c).arrAt_in (0 : Fin 3) rfl n).trans (A_eq1 a V c _)

/-- The same for window 1. -/
theorem arrAt_inV1 (c : Dev nD) (n : ℕ) : (dat1 a V c).arrAt (1 : Fin 3) n = V c (Pipeline.arrRef spec1 (1 : Fin 3)) :=
  ((dat1 a V c).arrAt_in (1 : Fin 3) rfl n).trans (A_eq1 a V c _)

end Cert.KernelIdeal.Gen

end
-- ==== Proof.OutValI1.lean ====
import proofs.«425429_j48773648614109_2_alg».proof.Proof.KValI1
import proofs.«425429_j48773648614109_2_alg».proof.Proof.OutI1
import proofs.«425429_j48773648614109_2_alg».proof.Proof.RecI1

/-!
# What one region leaves in its output array

The region's `[1,1]` output array is written once, at the last point, with the carried sum; so what the region leaves
there, read at its one index, is the sum of the edge losses over the region's 43008 edges.
-/

noncomputable section

namespace Cert.KernelIdeal.KValue

open Idealize.ShloMosaic Idealize.ShloMosaic.ValueIdx Idealize.ShloMosaic.TcCoe Idealize.SL.Sem
open Cert.KernelIdeal Cert.KernelIdeal.Gen

/-- What the region leaves in its output array, as a `[1,1]` vector of extended reals, from the admissible tables and
    the valuation at the region's entry. -/
abbrev oarr1 (adm : (pcfg1 (F := Ideal)).Adm) (Win : Dev nD → Valuation τ sig (Elt Ideal)) (c : Dev nD) :
    FVec Ideal S1x1 .f32 := outArr1 adm Win c

/-- THE REGION'S OUTPUT: when, at the region's entry, the two arrays are the embedding tables `U`, `W` with a unit
    middle axis, and the admissible tables hold the row numbers `IU`, `IV` of this region's edges, the output array's
    one entry is the sum of the edge losses over the region's 43008 edges. -/
theorem out_value1 (adm : (pcfg1 (F := Ideal)).Adm) (Win : Dev nD → Valuation τ sig (Elt Ideal)) (c : Dev nD)
    (U W : FVec Ideal Cert.Spec.Su .f32) (IU IV : Fin 344064 → Fin 1000000)
    (hU : ∀ (r : Fin 1000000) (d : Fin 64), uarr1 (vin1 Win) c (ValueIdx.ix3 r (0 : Fin 1) d) = U (ValueIdx.ix2 r d))
    (hW : ∀ (r : Fin 1000000) (d : Fin 64), varr1 (vin1 Win) c (ValueIdx.ix3 r (0 : Fin 1) d) = W (ValueIdx.ix2 r d))
    (hIU : ∀ i : Fin 43008, (IU (Cert.Spec.chunkIdx p1 i)).val = (adm.1 0 (ValueIdx.ix1 i)).toNat)
    (hIV : ∀ i : Fin 43008, (IV (Cert.Spec.chunkIdx p1 i)).val = (adm.1 1 (ValueIdx.ix1 i)).toNat) :
    oarr1 adm Win c (ValueIdx.ix2 (0 : Fin 1) (0 : Fin 1))
      = ∑ i : Fin 43008, Cert.Spec.edgeLoss U W IU IV (Cert.Spec.chunkIdx p1 i) := by
  have e : oarr1 adm Win c = accAt1 adm (vin1 Win) c ((cfg1 adm).N - 1) := out_final1 adm (vin1 Win) c
  rw [e]
  exact region_sum1 adm (vin1 Win) c U W IU IV hU hW hIU hIV

end Cert.KernelIdeal.KValue

end
-- ==== Proof.KValI2.lean ====
import proofs.«425429_j48773648614109_2_alg».proof.Proof.DatI2
import proofs.«425429_j48773648614109_2_alg».proof.Proof.Spec
import proofs.«425429_j48773648614109_2_alg».proof.Proof.KValLibI
import Idealize.ShloMosaic.PureOps.Ideal.Laws
import Idealize.ShloMosaic.Lib.ValueIdx
import Idealize.ShloMosaic.Lib.ValueLayout
import Idealize.ShloMosaic.Lib.Pipeline.Value

/-!
# What one region adds up

At every grid point the body reads one row of each embedding table (the rows its two prefetched tables name at that
point), takes the dot product over the 64 lanes, and adds `-log σ(score)`, computed in the softplus form, to a carried
`[1,1]` sum that the first point starts from zero. This module reads the body's arithmetic at its one index, reads the
two row blocks off their arrays, and concludes that the carried sum after the last point is the sum over the region's
43008 edges of the edge loss.
-/

noncomputable section

namespace Cert.KernelIdeal.KValue

open Idealize.ShloMosaic Idealize.ShloMosaic.ValueIdx Idealize.ShloMosaic.TcCoe Idealize.SL.Sem
open Cert.KernelIdeal Cert.KernelIdeal.Gen

/-! ## The body's arithmetic at its one index -/

/-- THE UPDATE PAYLOAD AT ITS ONE INDEX: the carried sum plus the edge loss of the two rows' dot product. -/
theorem pay2_apply2 (xu xv : Vec Ideal S1x1x64 .f32) (acc : Vec Ideal S1x1 .f32) :
    k2_pay2 (F := Ideal) xu xv acc (ValueIdx.ix2 (0 : Fin 1) (0 : Fin 1))
      = acc (ValueIdx.ix2 (0 : Fin 1) (0 : Fin 1))
        + Cert.Spec.lossE (∑ d : Fin 64, xu (ValueIdx.ix3 (0 : Fin 1) (0 : Fin 1) d) * xv (ValueIdx.ix3 (0 : Fin 1) (0 : Fin 1) d)) := by
  unfold k2_pay2
  refine (tail_apply _ acc _ _).trans ?_
  exact congrArg (fun s => acc (ValueIdx.ix2 (0 : Fin 1) (0 : Fin 1)) + Cert.Spec.lossE s) (laneSum xu xv _ _ _ _ _)

/-- The reset payload is the zero vector. -/
theorem pay1_apply2 : (k2_pay1 (F := Ideal)) (ValueIdx.ix2 (0 : Fin 1) (0 : Fin 1)) = 0 := by
  unfold k2_pay1
  refine (congrFun (shapeCast_self _ _) _).trans ?_
  exact Ideal.ofBits_zero_f32

/-! ## The index maps: which rows a point reads -/

/-- On this one-axis grid a point's coordinate is its number. -/
theorem coord2 (t : Fin grid2.N) : ((grid2.coords t) 0).val = t.val := by
  have hs : grid2.stride 0 = 1 := by decide
  have hlt : t.val < 43008 := lt_of_lt_of_eq t.isLt N_2
  show t.val / grid2.stride 0 % 43008 = t.val
  rw [hs, Nat.div_one, Nat.mod_eq_of_lt hlt]

/-- The first index map at grid coordinates: the row is the first table's word there, the other two block indices zero.
    The tables' contents are a variable here. -/
theorem idxU2 (pf : pre2.Contents (Elt Ideal)) (i : grid2.Coords) :
    cc2_transform_0 k2_off1_inb numel1_S1 pf i
      = ![(pf 0 (ValueIdx.ix1 (⟨(i 0).val, (i 0).isLt⟩ : Fin 43008))).toNat, 0, 0] := by
  have hoff : (k2_off1 i) 0 = (i 0).val := congrFun (k2_off1_eq i) 0
  unfold cc2_transform_0
  dsimp only
  have hw : pf.at 0 (Rect.unit (s := S43008) ![(Scalar.indexCast (BitVec.ofNat 32 (i 0).val)).toNat] S1.size (k2_off1_inb i)) numel1_S1
      = pf 0 (ValueIdx.ix1 (⟨(i 0).val, (i 0).isLt⟩ : Fin 43008)) := by
    refine congrArg (pf 0) (funext fun ax => Fin.ext ?_)
    match ax with
    | ⟨0, _⟩ =>
      show k2_off1 i 0 + 1 * 0 = (i 0).val
      omega
  rw [hw]
  rfl

/-- The second index map likewise, from the second table. -/
theorem idxV2 (pf : pre2.Contents (Elt Ideal)) (i : grid2.Coords) :
    cc2_transform_1 k2_off1_inb numel1_S1 pf i
      = ![(pf 1 (ValueIdx.ix1 (⟨(i 0).val, (i 0).isLt⟩ : Fin 43008))).toNat, 0, 0] := by
  have hoff : (k2_off1 i) 0 = (i 0).val := congrFun (k2_off1_eq i) 0
  unfold cc2_transform_1
  dsimp only
  have hw : pf.at 1 (Rect.unit (s := S43008) ![(Scalar.indexCast (BitVec.ofNat 32 (i 0).val)).toNat] S1.size (k2_off1_inb i)) numel1_S1
      = pf 1 (ValueIdx.ix1 (⟨(i 0).val, (i 0).isLt⟩ : Fin 43008)) := by
    refine congrArg (pf 1) (funext fun ax => Fin.ext ?_)
    match ax with
    | ⟨0, _⟩ =>
      show k2_off1 i 0 + 1 * 0 = (i 0).val
      omega
  rw [hw]
  rfl

/-- The first index map at the grid point numbered `t`. -/
theorem idxU_pt2 (pf : pre2.Contents (Elt Ideal)) (t : Fin grid2.N) :
    cc2_transform_0 k2_off1_inb numel1_S1 pf (grid2.coords t)
      = ![(pf 0 (ValueIdx.ix1 (⟨t.val, lt_of_lt_of_eq t.isLt N_2⟩ : Fin 43008))).toNat, 0, 0] := by
  rw [idxU2]
  have e : (⟨(grid2.coords t 0).val, (grid2.coords t 0).isLt⟩ : Fin 43008) = ⟨t.val, lt_of_lt_of_eq t.isLt N_2⟩ :=
    Fin.ext (coord2 t)
  rw [e]

/-- The second index map at the grid point numbered `t`. -/
theorem idxV_pt2 (pf : pre2.Contents (Elt Ideal)) (t : Fin grid2.N) :
    cc2_transform_1 k2_off1_inb numel1_S1 pf (grid2.coords t)
      = ![(pf 1 (ValueIdx.ix1 (⟨t.val, lt_of_lt_of_eq t.isLt N_2⟩ : Fin 43008))).toNat, 0, 0] := by
  rw [idxV2]
  have e : (⟨(grid2.coords t 0).val, (grid2.coords t 0).isLt⟩ : Fin 43008) = ⟨t.val, lt_of_lt_of_eq t.isLt N_2⟩ :=
    Fin.ext (coord2 t)
  rw [e]

/-! ## The two row blocks, read off their arrays -/

variable (a : (pcfg2 (F := Ideal)).Adm)
  (V : (c : Dev nD) → (b : Ref sig .tc) → Buf (Elt Ideal) ((c : Thread nD τ).loc b))

/-- The first window's block at a point: one row of the first embedding table. -/
abbrev ublk2 (c : Dev nD) (t : Fin (cfg2 a).N) : FVec Ideal S1x1x64 .f32 := iblk2 a V c (0 : Fin 3) t
/-- The first window's array: the first embedding table with a unit middle axis. -/
abbrev uarr2 (c : Dev nD) : FVec Ideal S1000000x1x64 .f32 := V c main_v6
/-- The second window's block at a point: one row of the second embedding table. -/
abbrev vblk2 (c : Dev nD) (t : Fin (cfg2 a).N) : FVec Ideal S1x1x64 .f32 := iblk2 a V c (1 : Fin 3) t
/-- The second window's array: the second embedding table with a unit middle axis. -/
abbrev varr2 (c : Dev nD) : FVec Ideal S1000000x1x64 .f32 := V c main_v7

/-- THE FIRST WINDOW'S BLOCK at point `t`, lane `d`: the array at the row the first table names at `t` (a block's
    element sits, on each axis, at block index × block size + its own coordinate). -/
theorem blkU2 (c : Dev nD) (t : Fin (cfg2 a).N) (d : Fin 64) (r : Fin 1000000)
    (hr : r.val = (a.1 0 (ValueIdx.ix1 (⟨t.val, lt_of_lt_of_eq t.isLt N_2⟩ : Fin 43008))).toNat) :
    ublk2 a V c t (ValueIdx.ix3 (0 : Fin 1) (0 : Fin 1) d) = uarr2 V c (ValueIdx.ix3 r (0 : Fin 1) d) := by
  show uarr2 V c ((((cfg2 a).win 0).blk t).view.emb (ValueIdx.ix3 (0 : Fin 1) (0 : Fin 1) d)) = _
  refine congrArg (uarr2 V c) (funext fun ax => Fin.ext ?_)
  have hidx : ((cfg2 a).win 0).index t
      = ![(a.1 0 (ValueIdx.ix1 (⟨t.val, lt_of_lt_of_eq t.isLt N_2⟩ : Fin 43008))).toNat, 0, 0] := idxU_pt2 a.1 t
  match ax with
  | ⟨0, _⟩ =>
    show ((cfg2 a).win 0).index t (0 : Fin 3) * 1 + 1 * 0 = r.val
    rw [hr, hidx]
    show (a.1 0 (ValueIdx.ix1 (⟨t.val, lt_of_lt_of_eq t.isLt N_2⟩ : Fin 43008))).toNat * 1 + 1 * 0 = _
    omega
  | ⟨1, _⟩ =>
    show ((cfg2 a).win 0).index t (1 : Fin 3) * 1 + 1 * 0 = 0
    rw [hidx]; rfl
  | ⟨2, _⟩ =>
    show ((cfg2 a).win 0).index t (2 : Fin 3) * 64 + 1 * d.val = d.val
    rw [hidx]; show 0 * 64 + 1 * d.val = d.val; omega

/-- THE SECOND WINDOW'S BLOCK at point `t`, lane `d`, likewise from the second table. -/
theorem blkV2 (c : Dev nD) (t : Fin (cfg2 a).N) (d : Fin 64) (r : Fin 1000000)
    (hr : r.val = (a.1 1 (ValueIdx.ix1 (⟨t.val, lt_of_lt_of_eq t.isLt N_2⟩ : Fin 43008))).toNat) :
    vblk2 a V c t (ValueIdx.ix3 (0 : Fin 1) (0 : Fin 1) d) = varr2 V c (ValueIdx.ix3 r (0 : Fin 1) d) := by
  show varr2 V c ((((cfg2 a).win 1).blk t).view.emb (ValueIdx.ix3 (0 : Fin 1) (0 : Fin 1) d)) = _
  refine congrArg (varr2 V c) (funext fun ax => Fin.ext ?_)
  have hidx : ((cfg2 a).win 1).index t
      = ![(a.1 1 (ValueIdx.ix1 (⟨t.val, lt_of_lt_of_eq t.isLt N_2⟩ : Fin 43008))).toNat, 0, 0] := idxV_pt2 a.1 t
  match ax with
  | ⟨0, _⟩ =>
    show ((cfg2 a).win 1).index t (0 : Fin 3) * 1 + 1 * 0 = r.val
    rw [hr, hidx]
    show (a.1 1 (ValueIdx.ix1 (⟨t.val, lt_of_lt_of_eq t.isLt N_2⟩ : Fin 43008))).toNat * 1 + 1 * 0 = _
    omega
  | ⟨1, _⟩ =>
    show ((cfg2 a).win 1).index t (1 : Fin 3) * 1 + 1 * 0 = 0
    rw [hidx]; rfl
  | ⟨2, _⟩ =>
    show ((cfg2 a).win 1).index t (2 : Fin 3) * 64 + 1 * d.val = d.val
    rw [hidx]; show 0 * 64 + 1 * d.val = d.val; omega

/-! ## The carried sum -/

/-- The term the point numbered `n` adds: the edge loss of the dot product of the two rows it reads. -/
def term2 (c : Dev nD) (n : ℕ) : EReal :=
  Cert.Spec.lossE (∑ d : Fin 64,
    ublk2 a V c (pt2 a n) (ValueIdx.ix3 (0 : Fin 1) (0 : Fin 1) d) * vblk2 a V c (pt2 a n) (ValueIdx.ix3 (0 : Fin 1) (0 : Fin 1) d))

/-- The carried sum after the point numbered `n` is the sum of the terms of the points up to `n`: the first point adds
    its term to the zero it stores, every later point adds its term to what the point before left. -/
theorem acc_fold2 (c : Dev nD) (n : ℕ) :
    accAt2 a V c n (ValueIdx.ix2 (0 : Fin 1) (0 : Fin 1)) = ∑ i ∈ Finset.range (n + 1), term2 a V c i :=
  Cert.Spec.fold_eq_sum (term2 a V c) (fun n => accAt2 a V c n (ValueIdx.ix2 (0 : Fin 1) (0 : Fin 1)))
    ((congrFun (accAt_zero2 a V c) (ValueIdx.ix2 (0 : Fin 1) (0 : Fin 1))).trans
      ((pay2_apply2 (ublk2 a V c (pt2 a 0)) (vblk2 a V c (pt2 a 0)) (k2_pay1 (F := Ideal))).trans
        (congrArg (· + term2 a V c 0) pay1_apply2)))
    (fun n => (congrFun (accAt_succ2 a V c n) (ValueIdx.ix2 (0 : Fin 1) (0 : Fin 1))).trans
      (pay2_apply2 (ublk2 a V c (pt2 a (n + 1))) (vblk2 a V c (pt2 a (n + 1))) (accAt2 a V c n)))
    n

/-- WHAT THE REGION LEAVES: when the two arrays are the embedding tables `U`, `W` with a unit middle axis and the two
    prefetched tables hold the row numbers `IU`, `IV` of this region's edges, the carried sum after the last point is the
    sum of the edge losses over the region's 43008 edges. The tables' contents stay a variable. -/
theorem region_sum2 (c : Dev nD) (U W : FVec Ideal Cert.Spec.Su .f32) (IU IV : Fin 344064 → Fin 1000000)
    (hU : ∀ (r : Fin 1000000) (d : Fin 64), uarr2 V c (ValueIdx.ix3 r (0 : Fin 1) d) = U (ValueIdx.ix2 r d))
    (hW : ∀ (r : Fin 1000000) (d : Fin 64), varr2 V c (ValueIdx.ix3 r (0 : Fin 1) d) = W (ValueIdx.ix2 r d))
    (hIU : ∀ i : Fin 43008, (IU (Cert.Spec.chunkIdx p2 i)).val = (a.1 0 (ValueIdx.ix1 i)).toNat)
    (hIV : ∀ i : Fin 43008, (IV (Cert.Spec.chunkIdx p2 i)).val = (a.1 1 (ValueIdx.ix1 i)).toNat) :
    accAt2 a V c ((cfg2 a).N - 1) (ValueIdx.ix2 (0 : Fin 1) (0 : Fin 1))
      = ∑ i : Fin 43008, Cert.Spec.edgeLoss U W IU IV (Cert.Spec.chunkIdx p2 i) := by
  have hN : (cfg2 a).N = 43008 := N_2
  have hN1 : (cfg2 a).N - 1 + 1 = 43008 := by omega
  rw [acc_fold2, hN1]
  refine Cert.Spec.chunk_sum_range (Cert.Spec.edgeLoss U W IU IV) p2 (term2 a V c) fun i => ?_
  have ht : (⟨(pt2 a i.val).val, lt_of_lt_of_eq (pt2 a i.val).isLt N_2⟩ : Fin 43008) = i :=
    Fin.ext (show i.val % (cfg2 a).N = i.val from Nat.mod_eq_of_lt (by rw [hN]; exact i.isLt))
  unfold term2 Cert.Spec.edgeLoss Cert.Spec.rowDot
  refine congrArg Cert.Spec.lossE (Finset.sum_congr rfl fun d _ => ?_)
  exact congrArg₂ (· * ·)
    ((blkU2 a V c (pt2 a i.val) d (IU (Cert.Spec.chunkIdx p2 i)) (by rw [ht]; exact hIU i)).trans (hU _ d))
    ((blkV2 a V c (pt2 a i.val) d (IV (Cert.Spec.chunkIdx p2 i)) (by rw [ht]; exact hIV i)).trans (hW _ d))

end Cert.KernelIdeal.KValue

end
-- ==== Proof.OutI2.lean ====
import proofs.«425429_j48773648614109_2_alg».proof.Proof.DatI2
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg2 (F := F)).Adm)
  (V : (c : Dev nD) → (b : Ref sig .tc) → Buf (Elt F) ((c : Thread nD τ).loc b))

/-! ## The output window writes back once

Window 2's array is the one `[1, 1]` block; its block index is the same at every point, so the pipeline writes the
staging buffer back at the last point only, and that write covers the array. -/

/-- The output window's block index does not depend on the point. -/
theorem out_index2 (t t' : Fin (cfg2 a).N) : ((cfg2 a).win (2 : Fin 3)).index t = ((cfg2 a).win (2 : Fin 3)).index t' := rfl

/-- Window 2 is an output. -/
theorem out_isOut2 : ((cfg2 a).win (2 : Fin 3)).isOut = true := rfl

/-- The output window writes back at the last point and nowhere else: the next point's block index never differs. -/
theorem out_flush2 (t : Fin (cfg2 a).N) : ((cfg2 a).win (2 : Fin 3)).flush t = decide (t.val + 1 = (cfg2 a).N) := by
  unfold Pipeline.Window.flush
  rw [out_isOut2, Bool.true_and]
  have h : decide (∃ h : t.val + 1 < (cfg2 a).grid.N, ((cfg2 a).win (2 : Fin 3)).index ⟨t.val + 1, h⟩ ≠ ((cfg2 a).win (2 : Fin 3)).index t) = false :=
    decide_eq_false fun ⟨h, hne⟩ => hne (out_index2 a _ _)
  rw [h, Bool.or_false]

/-- A `[1, 1]` array has one index. -/
theorem out_sub2 : Subsingleton S1x1.Idx := ⟨fun i j => by
  funext x; apply Fin.ext; have hi := (i x).isLt; have hj := (j x).isLt
  have hs : S1x1.size x = 1 := by fin_cases x <;> rfl
  omega⟩

/-- The grid's last point. -/
def out_last2 : Fin (cfg2 a).N := ⟨(cfg2 a).N - 1, Nat.sub_lt (N_pos2 a) Nat.one_pos⟩

/-- THE REGION'S RESULT: after all the write-backs the output array holds what the body left in the staging
    buffer at the last point, the whole sum. The last point is the only one that writes back (`out_flush2`); what it
    writes is the block of that sum (the array has one index, so the block read back is the array), and its block
    covers the array. -/
theorem out_final2 (c : Dev nD) : (dat2 a V c).arrAt (2 : Fin 3) (cfg2 a).N = accAt2 a V c ((cfg2 a).N - 1) := by
  refine (dat2 a V c).arrAt_eq_of_cover (2 : Fin 3) (accAt2 a V c ((cfg2 a).N - 1)) (fun t hf => ?_) (fun i => ?_)
  · have ht : t.val + 1 = (cfg2 a).N := by rw [out_flush2] at hf; exact of_decide_eq_true hf
    funext y
    rw [View.read_apply, show (cfg2 a).N - 1 = t.val from by omega]
    show ((cfg2 a).win 2).cut ((cfg2 a).grid.coords t) ((dat2 a V c).after 2 t) y = _
    rw [afterO2]
    refine Eq.trans ?_ (cast_eq _ _).symm
    exact congrArg (accAt2 a V c t.val) (@Subsingleton.elim S1x1.Idx out_sub2 _ _)
  · have hN := N_pos2 a
    refine ⟨out_last2 a, ?_, ?_⟩
    · rw [out_flush2]; exact decide_eq_true (Nat.sub_add_cancel hN)
    · obtain ⟨j, hj⟩ := View.set_nonempty (v := (((cfg2 a).win 2).blk (out_last2 a)).view)
        (Nat.pos_of_ne_zero fun h0 => absurd ((((cfg2 a).win 2).xblock_numel_eq_zero_iff _).mp h0) (Nat.pos_iff_ne_zero.mp (block_pos2 2)))
      exact (@Subsingleton.elim S1x1.Idx out_sub2 j i) ▸ hj

/-! ## The input windows' arrays are never written -/

/-- Window 0's array holds its entry contents after any number of write-backs. -/
theorem arrAt_inU2 (c : Dev nD) (n : ℕ) : (dat2 a V c).arrAt (0 : Fin 3) n = V c (Pipeline.arrRef spec2 (0 : Fin 3)) :=
  ((dat2 a V c).arrAt_in (0 : Fin 3) rfl n).trans (A_eq2 a V c _)

/-- The same for window 1. -/
theorem arrAt_inV2 (c : Dev nD) (n : ℕ) : (dat2 a V c).arrAt (1 : Fin 3) n = V c (Pipeline.arrRef spec2 (1 : Fin 3)) :=
  ((dat2 a V c).arrAt_in (1 : Fin 3) rfl n).trans (A_eq2 a V c _)

end Cert.KernelIdeal.Gen

end
-- ==== Proof.OutValI2.lean ====
import proofs.«425429_j48773648614109_2_alg».proof.Proof.KValI2
import proofs.«425429_j48773648614109_2_alg».proof.Proof.OutI2
import proofs.«425429_j48773648614109_2_alg».proof.Proof.RecI2

/-!
# What one region leaves in its output array

The region's `[1,1]` output array is written once, at the last point, with the carried sum; so what the region leaves
there, read at its one index, is the sum of the edge losses over the region's 43008 edges.
-/

noncomputable section

namespace Cert.KernelIdeal.KValue

open Idealize.ShloMosaic Idealize.ShloMosaic.ValueIdx Idealize.ShloMosaic.TcCoe Idealize.SL.Sem
open Cert.KernelIdeal Cert.KernelIdeal.Gen

/-- What the region leaves in its output array, as a `[1,1]` vector of extended reals, from the admissible tables and
    the valuation at the region's entry. -/
abbrev oarr2 (adm : (pcfg2 (F := Ideal)).Adm) (Win : Dev nD → Valuation τ sig (Elt Ideal)) (c : Dev nD) :
    FVec Ideal S1x1 .f32 := outArr2 adm Win c

/-- THE REGION'S OUTPUT: when, at the region's entry, the two arrays are the embedding tables `U`, `W` with a unit
    middle axis, and the admissible tables hold the row numbers `IU`, `IV` of this region's edges, the output array's
    one entry is the sum of the edge losses over the region's 43008 edges. -/
theorem out_value2 (adm : (pcfg2 (F := Ideal)).Adm) (Win : Dev nD → Valuation τ sig (Elt Ideal)) (c : Dev nD)
    (U W : FVec Ideal Cert.Spec.Su .f32) (IU IV : Fin 344064 → Fin 1000000)
    (hU : ∀ (r : Fin 1000000) (d : Fin 64), uarr2 (vin2 Win) c (ValueIdx.ix3 r (0 : Fin 1) d) = U (ValueIdx.ix2 r d))
    (hW : ∀ (r : Fin 1000000) (d : Fin 64), varr2 (vin2 Win) c (ValueIdx.ix3 r (0 : Fin 1) d) = W (ValueIdx.ix2 r d))
    (hIU : ∀ i : Fin 43008, (IU (Cert.Spec.chunkIdx p2 i)).val = (adm.1 0 (ValueIdx.ix1 i)).toNat)
    (hIV : ∀ i : Fin 43008, (IV (Cert.Spec.chunkIdx p2 i)).val = (adm.1 1 (ValueIdx.ix1 i)).toNat) :
    oarr2 adm Win c (ValueIdx.ix2 (0 : Fin 1) (0 : Fin 1))
      = ∑ i : Fin 43008, Cert.Spec.edgeLoss U W IU IV (Cert.Spec.chunkIdx p2 i) := by
  have e : oarr2 adm Win c = accAt2 adm (vin2 Win) c ((cfg2 adm).N - 1) := out_final2 adm (vin2 Win) c
  rw [e]
  exact region_sum2 adm (vin2 Win) c U W IU IV hU hW hIU hIV

end Cert.KernelIdeal.KValue

end
-- ==== Proof.KValI3.lean ====
import proofs.«425429_j48773648614109_2_alg».proof.Proof.DatI3
import proofs.«425429_j48773648614109_2_alg».proof.Proof.Spec
import proofs.«425429_j48773648614109_2_alg».proof.Proof.KValLibI
import Idealize.ShloMosaic.PureOps.Ideal.Laws
import Idealize.ShloMosaic.Lib.ValueIdx
import Idealize.ShloMosaic.Lib.ValueLayout
import Idealize.ShloMosaic.Lib.Pipeline.Value

/-!
# What one region adds up

At every grid point the body reads one row of each embedding table (the rows its two prefetched tables name at that
point), takes the dot product over the 64 lanes, and adds `-log σ(score)`, computed in the softplus form, to a carried
`[1,1]` sum that the first point starts from zero. This module reads the body's arithmetic at its one index, reads the
two row blocks off their arrays, and concludes that the carried sum after the last point is the sum over the region's
43008 edges of the edge loss.
-/

noncomputable section

namespace Cert.KernelIdeal.KValue

open Idealize.ShloMosaic Idealize.ShloMosaic.ValueIdx Idealize.ShloMosaic.TcCoe Idealize.SL.Sem
open Cert.KernelIdeal Cert.KernelIdeal.Gen

/-! ## The body's arithmetic at its one index -/

/-- THE UPDATE PAYLOAD AT ITS ONE INDEX: the carried sum plus the edge loss of the two rows' dot product. -/
theorem pay2_apply3 (xu xv : Vec Ideal S1x1x64 .f32) (acc : Vec Ideal S1x1 .f32) :
    k3_pay2 (F := Ideal) xu xv acc (ValueIdx.ix2 (0 : Fin 1) (0 : Fin 1))
      = acc (ValueIdx.ix2 (0 : Fin 1) (0 : Fin 1))
        + Cert.Spec.lossE (∑ d : Fin 64, xu (ValueIdx.ix3 (0 : Fin 1) (0 : Fin 1) d) * xv (ValueIdx.ix3 (0 : Fin 1) (0 : Fin 1) d)) := by
  unfold k3_pay2
  refine (tail_apply _ acc _ _).trans ?_
  exact congrArg (fun s => acc (ValueIdx.ix2 (0 : Fin 1) (0 : Fin 1)) + Cert.Spec.lossE s) (laneSum xu xv _ _ _ _ _)

/-- The reset payload is the zero vector. -/
theorem pay1_apply3 : (k3_pay1 (F := Ideal)) (ValueIdx.ix2 (0 : Fin 1) (0 : Fin 1)) = 0 := by
  unfold k3_pay1
  refine (congrFun (shapeCast_self _ _) _).trans ?_
  exact Ideal.ofBits_zero_f32

/-! ## The index maps: which rows a point reads -/

/-- On this one-axis grid a point's coordinate is its number. -/
theorem coord3 (t : Fin grid3.N) : ((grid3.coords t) 0).val = t.val := by
  have hs : grid3.stride 0 = 1 := by decide
  have hlt : t.val < 43008 := lt_of_lt_of_eq t.isLt N_3
  show t.val / grid3.stride 0 % 43008 = t.val
  rw [hs, Nat.div_one, Nat.mod_eq_of_lt hlt]

/-- The first index map at grid coordinates: the row is the first table's word there, the other two block indices zero.
    The tables' contents are a variable here. -/
theorem idxU3 (pf : pre3.Contents (Elt Ideal)) (i : grid3.Coords) :
    cc3_transform_0 k3_off1_inb numel1_S1 pf i
      = ![(pf 0 (ValueIdx.ix1 (⟨(i 0).val, (i 0).isLt⟩ : Fin 43008))).toNat, 0, 0] := by
  have hoff : (k3_off1 i) 0 = (i 0).val := congrFun (k3_off1_eq i) 0
  unfold cc3_transform_0
  dsimp only
  have hw : pf.at 0 (Rect.unit (s := S43008) ![(Scalar.indexCast (BitVec.ofNat 32 (i 0).val)).toNat] S1.size (k3_off1_inb i)) numel1_S1
      = pf 0 (ValueIdx.ix1 (⟨(i 0).val, (i 0).isLt⟩ : Fin 43008)) := by
    refine congrArg (pf 0) (funext fun ax => Fin.ext ?_)
    match ax with
    | ⟨0, _⟩ =>
      show k3_off1 i 0 + 1 * 0 = (i 0).val
      omega
  rw [hw]
  rfl

/-- The second index map likewise, from the second table. -/
theorem idxV3 (pf : pre3.Contents (Elt Ideal)) (i : grid3.Coords) :
    cc3_transform_1 k3_off1_inb numel1_S1 pf i
      = ![(pf 1 (ValueIdx.ix1 (⟨(i 0).val, (i 0).isLt⟩ : Fin 43008))).toNat, 0, 0] := by
  have hoff : (k3_off1 i) 0 = (i 0).val := congrFun (k3_off1_eq i) 0
  unfold cc3_transform_1
  dsimp only
  have hw : pf.at 1 (Rect.unit (s := S43008) ![(Scalar.indexCast (BitVec.ofNat 32 (i 0).val)).toNat] S1.size (k3_off1_inb i)) numel1_S1
      = pf 1 (ValueIdx.ix1 (⟨(i 0).val, (i 0).isLt⟩ : Fin 43008)) := by
    refine congrArg (pf 1) (funext fun ax => Fin.ext ?_)
    match ax with
    | ⟨0, _⟩ =>
      show k3_off1 i 0 + 1 * 0 = (i 0).val
      omega
  rw [hw]
  rfl

/-- The first index map at the grid point numbered `t`. -/
theorem idxU_pt3 (pf : pre3.Contents (Elt Ideal)) (t : Fin grid3.N) :
    cc3_transform_0 k3_off1_inb numel1_S1 pf (grid3.coords t)
      = ![(pf 0 (ValueIdx.ix1 (⟨t.val, lt_of_lt_of_eq t.isLt N_3⟩ : Fin 43008))).toNat, 0, 0] := by
  rw [idxU3]
  have e : (⟨(grid3.coords t 0).val, (grid3.coords t 0).isLt⟩ : Fin 43008) = ⟨t.val, lt_of_lt_of_eq t.isLt N_3⟩ :=
    Fin.ext (coord3 t)
  rw [e]

/-- The second index map at the grid point numbered `t`. -/
theorem idxV_pt3 (pf : pre3.Contents (Elt Ideal)) (t : Fin grid3.N) :
    cc3_transform_1 k3_off1_inb numel1_S1 pf (grid3.coords t)
      = ![(pf 1 (ValueIdx.ix1 (⟨t.val, lt_of_lt_of_eq t.isLt N_3⟩ : Fin 43008))).toNat, 0, 0] := by
  rw [idxV3]
  have e : (⟨(grid3.coords t 0).val, (grid3.coords t 0).isLt⟩ : Fin 43008) = ⟨t.val, lt_of_lt_of_eq t.isLt N_3⟩ :=
    Fin.ext (coord3 t)
  rw [e]

/-! ## The two row blocks, read off their arrays -/

variable (a : (pcfg3 (F := Ideal)).Adm)
  (V : (c : Dev nD) → (b : Ref sig .tc) → Buf (Elt Ideal) ((c : Thread nD τ).loc b))

/-- The first window's block at a point: one row of the first embedding table. -/
abbrev ublk3 (c : Dev nD) (t : Fin (cfg3 a).N) : FVec Ideal S1x1x64 .f32 := iblk3 a V c (0 : Fin 3) t
/-- The first window's array: the first embedding table with a unit middle axis. -/
abbrev uarr3 (c : Dev nD) : FVec Ideal S1000000x1x64 .f32 := V c main_v6
/-- The second window's block at a point: one row of the second embedding table. -/
abbrev vblk3 (c : Dev nD) (t : Fin (cfg3 a).N) : FVec Ideal S1x1x64 .f32 := iblk3 a V c (1 : Fin 3) t
/-- The second window's array: the second embedding table with a unit middle axis. -/
abbrev varr3 (c : Dev nD) : FVec Ideal S1000000x1x64 .f32 := V c main_v7

/-- THE FIRST WINDOW'S BLOCK at point `t`, lane `d`: the array at the row the first table names at `t` (a block's
    element sits, on each axis, at block index × block size + its own coordinate). -/
theorem blkU3 (c : Dev nD) (t : Fin (cfg3 a).N) (d : Fin 64) (r : Fin 1000000)
    (hr : r.val = (a.1 0 (ValueIdx.ix1 (⟨t.val, lt_of_lt_of_eq t.isLt N_3⟩ : Fin 43008))).toNat) :
    ublk3 a V c t (ValueIdx.ix3 (0 : Fin 1) (0 : Fin 1) d) = uarr3 V c (ValueIdx.ix3 r (0 : Fin 1) d) := by
  show uarr3 V c ((((cfg3 a).win 0).blk t).view.emb (ValueIdx.ix3 (0 : Fin 1) (0 : Fin 1) d)) = _
  refine congrArg (uarr3 V c) (funext fun ax => Fin.ext ?_)
  have hidx : ((cfg3 a).win 0).index t
      = ![(a.1 0 (ValueIdx.ix1 (⟨t.val, lt_of_lt_of_eq t.isLt N_3⟩ : Fin 43008))).toNat, 0, 0] := idxU_pt3 a.1 t
  match ax with
  | ⟨0, _⟩ =>
    show ((cfg3 a).win 0).index t (0 : Fin 3) * 1 + 1 * 0 = r.val
    rw [hr, hidx]
    show (a.1 0 (ValueIdx.ix1 (⟨t.val, lt_of_lt_of_eq t.isLt N_3⟩ : Fin 43008))).toNat * 1 + 1 * 0 = _
    omega
  | ⟨1, _⟩ =>
    show ((cfg3 a).win 0).index t (1 : Fin 3) * 1 + 1 * 0 = 0
    rw [hidx]; rfl
  | ⟨2, _⟩ =>
    show ((cfg3 a).win 0).index t (2 : Fin 3) * 64 + 1 * d.val = d.val
    rw [hidx]; show 0 * 64 + 1 * d.val = d.val; omega

/-- THE SECOND WINDOW'S BLOCK at point `t`, lane `d`, likewise from the second table. -/
theorem blkV3 (c : Dev nD) (t : Fin (cfg3 a).N) (d : Fin 64) (r : Fin 1000000)
    (hr : r.val = (a.1 1 (ValueIdx.ix1 (⟨t.val, lt_of_lt_of_eq t.isLt N_3⟩ : Fin 43008))).toNat) :
    vblk3 a V c t (ValueIdx.ix3 (0 : Fin 1) (0 : Fin 1) d) = varr3 V c (ValueIdx.ix3 r (0 : Fin 1) d) := by
  show varr3 V c ((((cfg3 a).win 1).blk t).view.emb (ValueIdx.ix3 (0 : Fin 1) (0 : Fin 1) d)) = _
  refine congrArg (varr3 V c) (funext fun ax => Fin.ext ?_)
  have hidx : ((cfg3 a).win 1).index t
      = ![(a.1 1 (ValueIdx.ix1 (⟨t.val, lt_of_lt_of_eq t.isLt N_3⟩ : Fin 43008))).toNat, 0, 0] := idxV_pt3 a.1 t
  match ax with
  | ⟨0, _⟩ =>
    show ((cfg3 a).win 1).index t (0 : Fin 3) * 1 + 1 * 0 = r.val
    rw [hr, hidx]
    show (a.1 1 (ValueIdx.ix1 (⟨t.val, lt_of_lt_of_eq t.isLt N_3⟩ : Fin 43008))).toNat * 1 + 1 * 0 = _
    omega
  | ⟨1, _⟩ =>
    show ((cfg3 a).win 1).index t (1 : Fin 3) * 1 + 1 * 0 = 0
    rw [hidx]; rfl
  | ⟨2, _⟩ =>
    show ((cfg3 a).win 1).index t (2 : Fin 3) * 64 + 1 * d.val = d.val
    rw [hidx]; show 0 * 64 + 1 * d.val = d.val; omega

/-! ## The carried sum -/

/-- The term the point numbered `n` adds: the edge loss of the dot product of the two rows it reads. -/
def term3 (c : Dev nD) (n : ℕ) : EReal :=
  Cert.Spec.lossE (∑ d : Fin 64,
    ublk3 a V c (pt3 a n) (ValueIdx.ix3 (0 : Fin 1) (0 : Fin 1) d) * vblk3 a V c (pt3 a n) (ValueIdx.ix3 (0 : Fin 1) (0 : Fin 1) d))

/-- The carried sum after the point numbered `n` is the sum of the terms of the points up to `n`: the first point adds
    its term to the zero it stores, every later point adds its term to what the point before left. -/
theorem acc_fold3 (c : Dev nD) (n : ℕ) :
    accAt3 a V c n (ValueIdx.ix2 (0 : Fin 1) (0 : Fin 1)) = ∑ i ∈ Finset.range (n + 1), term3 a V c i :=
  Cert.Spec.fold_eq_sum (term3 a V c) (fun n => accAt3 a V c n (ValueIdx.ix2 (0 : Fin 1) (0 : Fin 1)))
    ((congrFun (accAt_zero3 a V c) (ValueIdx.ix2 (0 : Fin 1) (0 : Fin 1))).trans
      ((pay2_apply3 (ublk3 a V c (pt3 a 0)) (vblk3 a V c (pt3 a 0)) (k3_pay1 (F := Ideal))).trans
        (congrArg (· + term3 a V c 0) pay1_apply3)))
    (fun n => (congrFun (accAt_succ3 a V c n) (ValueIdx.ix2 (0 : Fin 1) (0 : Fin 1))).trans
      (pay2_apply3 (ublk3 a V c (pt3 a (n + 1))) (vblk3 a V c (pt3 a (n + 1))) (accAt3 a V c n)))
    n

/-- WHAT THE REGION LEAVES: when the two arrays are the embedding tables `U`, `W` with a unit middle axis and the two
    prefetched tables hold the row numbers `IU`, `IV` of this region's edges, the carried sum after the last point is the
    sum of the edge losses over the region's 43008 edges. The tables' contents stay a variable. -/
theorem region_sum3 (c : Dev nD) (U W : FVec Ideal Cert.Spec.Su .f32) (IU IV : Fin 344064 → Fin 1000000)
    (hU : ∀ (r : Fin 1000000) (d : Fin 64), uarr3 V c (ValueIdx.ix3 r (0 : Fin 1) d) = U (ValueIdx.ix2 r d))
    (hW : ∀ (r : Fin 1000000) (d : Fin 64), varr3 V c (ValueIdx.ix3 r (0 : Fin 1) d) = W (ValueIdx.ix2 r d))
    (hIU : ∀ i : Fin 43008, (IU (Cert.Spec.chunkIdx p3 i)).val = (a.1 0 (ValueIdx.ix1 i)).toNat)
    (hIV : ∀ i : Fin 43008, (IV (Cert.Spec.chunkIdx p3 i)).val = (a.1 1 (ValueIdx.ix1 i)).toNat) :
    accAt3 a V c ((cfg3 a).N - 1) (ValueIdx.ix2 (0 : Fin 1) (0 : Fin 1))
      = ∑ i : Fin 43008, Cert.Spec.edgeLoss U W IU IV (Cert.Spec.chunkIdx p3 i) := by
  have hN : (cfg3 a).N = 43008 := N_3
  have hN1 : (cfg3 a).N - 1 + 1 = 43008 := by omega
  rw [acc_fold3, hN1]
  refine Cert.Spec.chunk_sum_range (Cert.Spec.edgeLoss U W IU IV) p3 (term3 a V c) fun i => ?_
  have ht : (⟨(pt3 a i.val).val, lt_of_lt_of_eq (pt3 a i.val).isLt N_3⟩ : Fin 43008) = i :=
    Fin.ext (show i.val % (cfg3 a).N = i.val from Nat.mod_eq_of_lt (by rw [hN]; exact i.isLt))
  unfold term3 Cert.Spec.edgeLoss Cert.Spec.rowDot
  refine congrArg Cert.Spec.lossE (Finset.sum_congr rfl fun d _ => ?_)
  exact congrArg₂ (· * ·)
    ((blkU3 a V c (pt3 a i.val) d (IU (Cert.Spec.chunkIdx p3 i)) (by rw [ht]; exact hIU i)).trans (hU _ d))
    ((blkV3 a V c (pt3 a i.val) d (IV (Cert.Spec.chunkIdx p3 i)) (by rw [ht]; exact hIV i)).trans (hW _ d))

end Cert.KernelIdeal.KValue

end
-- ==== Proof.OutI3.lean ====
import proofs.«425429_j48773648614109_2_alg».proof.Proof.DatI3
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg3 (F := F)).Adm)
  (V : (c : Dev nD) → (b : Ref sig .tc) → Buf (Elt F) ((c : Thread nD τ).loc b))

/-! ## The output window writes back once

Window 2's array is the one `[1, 1]` block; its block index is the same at every point, so the pipeline writes the
staging buffer back at the last point only, and that write covers the array. -/

/-- The output window's block index does not depend on the point. -/
theorem out_index3 (t t' : Fin (cfg3 a).N) : ((cfg3 a).win (2 : Fin 3)).index t = ((cfg3 a).win (2 : Fin 3)).index t' := rfl

/-- Window 2 is an output. -/
theorem out_isOut3 : ((cfg3 a).win (2 : Fin 3)).isOut = true := rfl

/-- The output window writes back at the last point and nowhere else: the next point's block index never differs. -/
theorem out_flush3 (t : Fin (cfg3 a).N) : ((cfg3 a).win (2 : Fin 3)).flush t = decide (t.val + 1 = (cfg3 a).N) := by
  unfold Pipeline.Window.flush
  rw [out_isOut3, Bool.true_and]
  have h : decide (∃ h : t.val + 1 < (cfg3 a).grid.N, ((cfg3 a).win (2 : Fin 3)).index ⟨t.val + 1, h⟩ ≠ ((cfg3 a).win (2 : Fin 3)).index t) = false :=
    decide_eq_false fun ⟨h, hne⟩ => hne (out_index3 a _ _)
  rw [h, Bool.or_false]

/-- A `[1, 1]` array has one index. -/
theorem out_sub3 : Subsingleton S1x1.Idx := ⟨fun i j => by
  funext x; apply Fin.ext; have hi := (i x).isLt; have hj := (j x).isLt
  have hs : S1x1.size x = 1 := by fin_cases x <;> rfl
  omega⟩

/-- The grid's last point. -/
def out_last3 : Fin (cfg3 a).N := ⟨(cfg3 a).N - 1, Nat.sub_lt (N_pos3 a) Nat.one_pos⟩

/-- THE REGION'S RESULT: after all the write-backs the output array holds what the body left in the staging
    buffer at the last point, the whole sum. The last point is the only one that writes back (`out_flush3`); what it
    writes is the block of that sum (the array has one index, so the block read back is the array), and its block
    covers the array. -/
theorem out_final3 (c : Dev nD) : (dat3 a V c).arrAt (2 : Fin 3) (cfg3 a).N = accAt3 a V c ((cfg3 a).N - 1) := by
  refine (dat3 a V c).arrAt_eq_of_cover (2 : Fin 3) (accAt3 a V c ((cfg3 a).N - 1)) (fun t hf => ?_) (fun i => ?_)
  · have ht : t.val + 1 = (cfg3 a).N := by rw [out_flush3] at hf; exact of_decide_eq_true hf
    funext y
    rw [View.read_apply, show (cfg3 a).N - 1 = t.val from by omega]
    show ((cfg3 a).win 2).cut ((cfg3 a).grid.coords t) ((dat3 a V c).after 2 t) y = _
    rw [afterO3]
    refine Eq.trans ?_ (cast_eq _ _).symm
    exact congrArg (accAt3 a V c t.val) (@Subsingleton.elim S1x1.Idx out_sub3 _ _)
  · have hN := N_pos3 a
    refine ⟨out_last3 a, ?_, ?_⟩
    · rw [out_flush3]; exact decide_eq_true (Nat.sub_add_cancel hN)
    · obtain ⟨j, hj⟩ := View.set_nonempty (v := (((cfg3 a).win 2).blk (out_last3 a)).view)
        (Nat.pos_of_ne_zero fun h0 => absurd ((((cfg3 a).win 2).xblock_numel_eq_zero_iff _).mp h0) (Nat.pos_iff_ne_zero.mp (block_pos3 2)))
      exact (@Subsingleton.elim S1x1.Idx out_sub3 j i) ▸ hj

/-! ## The input windows' arrays are never written -/

/-- Window 0's array holds its entry contents after any number of write-backs. -/
theorem arrAt_inU3 (c : Dev nD) (n : ℕ) : (dat3 a V c).arrAt (0 : Fin 3) n = V c (Pipeline.arrRef spec3 (0 : Fin 3)) :=
  ((dat3 a V c).arrAt_in (0 : Fin 3) rfl n).trans (A_eq3 a V c _)

/-- The same for window 1. -/
theorem arrAt_inV3 (c : Dev nD) (n : ℕ) : (dat3 a V c).arrAt (1 : Fin 3) n = V c (Pipeline.arrRef spec3 (1 : Fin 3)) :=
  ((dat3 a V c).arrAt_in (1 : Fin 3) rfl n).trans (A_eq3 a V c _)

end Cert.KernelIdeal.Gen

end
-- ==== Proof.OutValI3.lean ====
import proofs.«425429_j48773648614109_2_alg».proof.Proof.KValI3
import proofs.«425429_j48773648614109_2_alg».proof.Proof.OutI3
import proofs.«425429_j48773648614109_2_alg».proof.Proof.RecI3

/-!
# What one region leaves in its output array

The region's `[1,1]` output array is written once, at the last point, with the carried sum; so what the region leaves
there, read at its one index, is the sum of the edge losses over the region's 43008 edges.
-/

noncomputable section

namespace Cert.KernelIdeal.KValue

open Idealize.ShloMosaic Idealize.ShloMosaic.ValueIdx Idealize.ShloMosaic.TcCoe Idealize.SL.Sem
open Cert.KernelIdeal Cert.KernelIdeal.Gen

/-- What the region leaves in its output array, as a `[1,1]` vector of extended reals, from the admissible tables and
    the valuation at the region's entry. -/
abbrev oarr3 (adm : (pcfg3 (F := Ideal)).Adm) (Win : Dev nD → Valuation τ sig (Elt Ideal)) (c : Dev nD) :
    FVec Ideal S1x1 .f32 := outArr3 adm Win c

/-- THE REGION'S OUTPUT: when, at the region's entry, the two arrays are the embedding tables `U`, `W` with a unit
    middle axis, and the admissible tables hold the row numbers `IU`, `IV` of this region's edges, the output array's
    one entry is the sum of the edge losses over the region's 43008 edges. -/
theorem out_value3 (adm : (pcfg3 (F := Ideal)).Adm) (Win : Dev nD → Valuation τ sig (Elt Ideal)) (c : Dev nD)
    (U W : FVec Ideal Cert.Spec.Su .f32) (IU IV : Fin 344064 → Fin 1000000)
    (hU : ∀ (r : Fin 1000000) (d : Fin 64), uarr3 (vin3 Win) c (ValueIdx.ix3 r (0 : Fin 1) d) = U (ValueIdx.ix2 r d))
    (hW : ∀ (r : Fin 1000000) (d : Fin 64), varr3 (vin3 Win) c (ValueIdx.ix3 r (0 : Fin 1) d) = W (ValueIdx.ix2 r d))
    (hIU : ∀ i : Fin 43008, (IU (Cert.Spec.chunkIdx p3 i)).val = (adm.1 0 (ValueIdx.ix1 i)).toNat)
    (hIV : ∀ i : Fin 43008, (IV (Cert.Spec.chunkIdx p3 i)).val = (adm.1 1 (ValueIdx.ix1 i)).toNat) :
    oarr3 adm Win c (ValueIdx.ix2 (0 : Fin 1) (0 : Fin 1))
      = ∑ i : Fin 43008, Cert.Spec.edgeLoss U W IU IV (Cert.Spec.chunkIdx p3 i) := by
  have e : oarr3 adm Win c = accAt3 adm (vin3 Win) c ((cfg3 adm).N - 1) := out_final3 adm (vin3 Win) c
  rw [e]
  exact region_sum3 adm (vin3 Win) c U W IU IV hU hW hIU hIV

end Cert.KernelIdeal.KValue

end
-- ==== Proof.KValI4.lean ====
import proofs.«425429_j48773648614109_2_alg».proof.Proof.DatI4
import proofs.«425429_j48773648614109_2_alg».proof.Proof.Spec
import proofs.«425429_j48773648614109_2_alg».proof.Proof.KValLibI
import Idealize.ShloMosaic.PureOps.Ideal.Laws
import Idealize.ShloMosaic.Lib.ValueIdx
import Idealize.ShloMosaic.Lib.ValueLayout
import Idealize.ShloMosaic.Lib.Pipeline.Value

/-!
# What one region adds up

At every grid point the body reads one row of each embedding table (the rows its two prefetched tables name at that
point), takes the dot product over the 64 lanes, and adds `-log σ(score)`, computed in the softplus form, to a carried
`[1,1]` sum that the first point starts from zero. This module reads the body's arithmetic at its one index, reads the
two row blocks off their arrays, and concludes that the carried sum after the last point is the sum over the region's
43008 edges of the edge loss.
-/

noncomputable section

namespace Cert.KernelIdeal.KValue

open Idealize.ShloMosaic Idealize.ShloMosaic.ValueIdx Idealize.ShloMosaic.TcCoe Idealize.SL.Sem
open Cert.KernelIdeal Cert.KernelIdeal.Gen

/-! ## The body's arithmetic at its one index -/

/-- THE UPDATE PAYLOAD AT ITS ONE INDEX: the carried sum plus the edge loss of the two rows' dot product. -/
theorem pay2_apply4 (xu xv : Vec Ideal S1x1x64 .f32) (acc : Vec Ideal S1x1 .f32) :
    k4_pay2 (F := Ideal) xu xv acc (ValueIdx.ix2 (0 : Fin 1) (0 : Fin 1))
      = acc (ValueIdx.ix2 (0 : Fin 1) (0 : Fin 1))
        + Cert.Spec.lossE (∑ d : Fin 64, xu (ValueIdx.ix3 (0 : Fin 1) (0 : Fin 1) d) * xv (ValueIdx.ix3 (0 : Fin 1) (0 : Fin 1) d)) := by
  unfold k4_pay2
  refine (tail_apply _ acc _ _).trans ?_
  exact congrArg (fun s => acc (ValueIdx.ix2 (0 : Fin 1) (0 : Fin 1)) + Cert.Spec.lossE s) (laneSum xu xv _ _ _ _ _)

/-- The reset payload is the zero vector. -/
theorem pay1_apply4 : (k4_pay1 (F := Ideal)) (ValueIdx.ix2 (0 : Fin 1) (0 : Fin 1)) = 0 := by
  unfold k4_pay1
  refine (congrFun (shapeCast_self _ _) _).trans ?_
  exact Ideal.ofBits_zero_f32

/-! ## The index maps: which rows a point reads -/

/-- On this one-axis grid a point's coordinate is its number. -/
theorem coord4 (t : Fin grid4.N) : ((grid4.coords t) 0).val = t.val := by
  have hs : grid4.stride 0 = 1 := by decide
  have hlt : t.val < 43008 := lt_of_lt_of_eq t.isLt N_4
  show t.val / grid4.stride 0 % 43008 = t.val
  rw [hs, Nat.div_one, Nat.mod_eq_of_lt hlt]

/-- The first index map at grid coordinates: the row is the first table's word there, the other two block indices zero.
    The tables' contents are a variable here. -/
theorem idxU4 (pf : pre4.Contents (Elt Ideal)) (i : grid4.Coords) :
    cc4_transform_0 k4_off1_inb numel1_S1 pf i
      = ![(pf 0 (ValueIdx.ix1 (⟨(i 0).val, (i 0).isLt⟩ : Fin 43008))).toNat, 0, 0] := by
  have hoff : (k4_off1 i) 0 = (i 0).val := congrFun (k4_off1_eq i) 0
  unfold cc4_transform_0
  dsimp only
  have hw : pf.at 0 (Rect.unit (s := S43008) ![(Scalar.indexCast (BitVec.ofNat 32 (i 0).val)).toNat] S1.size (k4_off1_inb i)) numel1_S1
      = pf 0 (ValueIdx.ix1 (⟨(i 0).val, (i 0).isLt⟩ : Fin 43008)) := by
    refine congrArg (pf 0) (funext fun ax => Fin.ext ?_)
    match ax with
    | ⟨0, _⟩ =>
      show k4_off1 i 0 + 1 * 0 = (i 0).val
      omega
  rw [hw]
  rfl

/-- The second index map likewise, from the second table. -/
theorem idxV4 (pf : pre4.Contents (Elt Ideal)) (i : grid4.Coords) :
    cc4_transform_1 k4_off1_inb numel1_S1 pf i
      = ![(pf 1 (ValueIdx.ix1 (⟨(i 0).val, (i 0).isLt⟩ : Fin 43008))).toNat, 0, 0] := by
  have hoff : (k4_off1 i) 0 = (i 0).val := congrFun (k4_off1_eq i) 0
  unfold cc4_transform_1
  dsimp only
  have hw : pf.at 1 (Rect.unit (s := S43008) ![(Scalar.indexCast (BitVec.ofNat 32 (i 0).val)).toNat] S1.size (k4_off1_inb i)) numel1_S1
      = pf 1 (ValueIdx.ix1 (⟨(i 0).val, (i 0).isLt⟩ : Fin 43008)) := by
    refine congrArg (pf 1) (funext fun ax => Fin.ext ?_)
    match ax with
    | ⟨0, _⟩ =>
      show k4_off1 i 0 + 1 * 0 = (i 0).val
      omega
  rw [hw]
  rfl

/-- The first index map at the grid point numbered `t`. -/
theorem idxU_pt4 (pf : pre4.Contents (Elt Ideal)) (t : Fin grid4.N) :
    cc4_transform_0 k4_off1_inb numel1_S1 pf (grid4.coords t)
      = ![(pf 0 (ValueIdx.ix1 (⟨t.val, lt_of_lt_of_eq t.isLt N_4⟩ : Fin 43008))).toNat, 0, 0] := by
  rw [idxU4]
  have e : (⟨(grid4.coords t 0).val, (grid4.coords t 0).isLt⟩ : Fin 43008) = ⟨t.val, lt_of_lt_of_eq t.isLt N_4⟩ :=
    Fin.ext (coord4 t)
  rw [e]

/-- The second index map at the grid point numbered `t`. -/
theorem idxV_pt4 (pf : pre4.Contents (Elt Ideal)) (t : Fin grid4.N) :
    cc4_transform_1 k4_off1_inb numel1_S1 pf (grid4.coords t)
      = ![(pf 1 (ValueIdx.ix1 (⟨t.val, lt_of_lt_of_eq t.isLt N_4⟩ : Fin 43008))).toNat, 0, 0] := by
  rw [idxV4]
  have e : (⟨(grid4.coords t 0).val, (grid4.coords t 0).isLt⟩ : Fin 43008) = ⟨t.val, lt_of_lt_of_eq t.isLt N_4⟩ :=
    Fin.ext (coord4 t)
  rw [e]

/-! ## The two row blocks, read off their arrays -/

variable (a : (pcfg4 (F := Ideal)).Adm)
  (V : (c : Dev nD) → (b : Ref sig .tc) → Buf (Elt Ideal) ((c : Thread nD τ).loc b))

/-- The first window's block at a point: one row of the first embedding table. -/
abbrev ublk4 (c : Dev nD) (t : Fin (cfg4 a).N) : FVec Ideal S1x1x64 .f32 := iblk4 a V c (0 : Fin 3) t
/-- The first window's array: the first embedding table with a unit middle axis. -/
abbrev uarr4 (c : Dev nD) : FVec Ideal S1000000x1x64 .f32 := V c main_v6
/-- The second window's block at a point: one row of the second embedding table. -/
abbrev vblk4 (c : Dev nD) (t : Fin (cfg4 a).N) : FVec Ideal S1x1x64 .f32 := iblk4 a V c (1 : Fin 3) t
/-- The second window's array: the second embedding table with a unit middle axis. -/
abbrev varr4 (c : Dev nD) : FVec Ideal S1000000x1x64 .f32 := V c main_v7

/-- THE FIRST WINDOW'S BLOCK at point `t`, lane `d`: the array at the row the first table names at `t` (a block's
    element sits, on each axis, at block index × block size + its own coordinate). -/
theorem blkU4 (c : Dev nD) (t : Fin (cfg4 a).N) (d : Fin 64) (r : Fin 1000000)
    (hr : r.val = (a.1 0 (ValueIdx.ix1 (⟨t.val, lt_of_lt_of_eq t.isLt N_4⟩ : Fin 43008))).toNat) :
    ublk4 a V c t (ValueIdx.ix3 (0 : Fin 1) (0 : Fin 1) d) = uarr4 V c (ValueIdx.ix3 r (0 : Fin 1) d) := by
  show uarr4 V c ((((cfg4 a).win 0).blk t).view.emb (ValueIdx.ix3 (0 : Fin 1) (0 : Fin 1) d)) = _
  refine congrArg (uarr4 V c) (funext fun ax => Fin.ext ?_)
  have hidx : ((cfg4 a).win 0).index t
      = ![(a.1 0 (ValueIdx.ix1 (⟨t.val, lt_of_lt_of_eq t.isLt N_4⟩ : Fin 43008))).toNat, 0, 0] := idxU_pt4 a.1 t
  match ax with
  | ⟨0, _⟩ =>
    show ((cfg4 a).win 0).index t (0 : Fin 3) * 1 + 1 * 0 = r.val
    rw [hr, hidx]
    show (a.1 0 (ValueIdx.ix1 (⟨t.val, lt_of_lt_of_eq t.isLt N_4⟩ : Fin 43008))).toNat * 1 + 1 * 0 = _
    omega
  | ⟨1, _⟩ =>
    show ((cfg4 a).win 0).index t (1 : Fin 3) * 1 + 1 * 0 = 0
    rw [hidx]; rfl
  | ⟨2, _⟩ =>
    show ((cfg4 a).win 0).index t (2 : Fin 3) * 64 + 1 * d.val = d.val
    rw [hidx]; show 0 * 64 + 1 * d.val = d.val; omega

/-- THE SECOND WINDOW'S BLOCK at point `t`, lane `d`, likewise from the second table. -/
theorem blkV4 (c : Dev nD) (t : Fin (cfg4 a).N) (d : Fin 64) (r : Fin 1000000)
    (hr : r.val = (a.1 1 (ValueIdx.ix1 (⟨t.val, lt_of_lt_of_eq t.isLt N_4⟩ : Fin 43008))).toNat) :
    vblk4 a V c t (ValueIdx.ix3 (0 : Fin 1) (0 : Fin 1) d) = varr4 V c (ValueIdx.ix3 r (0 : Fin 1) d) := by
  show varr4 V c ((((cfg4 a).win 1).blk t).view.emb (ValueIdx.ix3 (0 : Fin 1) (0 : Fin 1) d)) = _
  refine congrArg (varr4 V c) (funext fun ax => Fin.ext ?_)
  have hidx : ((cfg4 a).win 1).index t
      = ![(a.1 1 (ValueIdx.ix1 (⟨t.val, lt_of_lt_of_eq t.isLt N_4⟩ : Fin 43008))).toNat, 0, 0] := idxV_pt4 a.1 t
  match ax with
  | ⟨0, _⟩ =>
    show ((cfg4 a).win 1).index t (0 : Fin 3) * 1 + 1 * 0 = r.val
    rw [hr, hidx]
    show (a.1 1 (ValueIdx.ix1 (⟨t.val, lt_of_lt_of_eq t.isLt N_4⟩ : Fin 43008))).toNat * 1 + 1 * 0 = _
    omega
  | ⟨1, _⟩ =>
    show ((cfg4 a).win 1).index t (1 : Fin 3) * 1 + 1 * 0 = 0
    rw [hidx]; rfl
  | ⟨2, _⟩ =>
    show ((cfg4 a).win 1).index t (2 : Fin 3) * 64 + 1 * d.val = d.val
    rw [hidx]; show 0 * 64 + 1 * d.val = d.val; omega

/-! ## The carried sum -/

/-- The term the point numbered `n` adds: the edge loss of the dot product of the two rows it reads. -/
def term4 (c : Dev nD) (n : ℕ) : EReal :=
  Cert.Spec.lossE (∑ d : Fin 64,
    ublk4 a V c (pt4 a n) (ValueIdx.ix3 (0 : Fin 1) (0 : Fin 1) d) * vblk4 a V c (pt4 a n) (ValueIdx.ix3 (0 : Fin 1) (0 : Fin 1) d))

/-- The carried sum after the point numbered `n` is the sum of the terms of the points up to `n`: the first point adds
    its term to the zero it stores, every later point adds its term to what the point before left. -/
theorem acc_fold4 (c : Dev nD) (n : ℕ) :
    accAt4 a V c n (ValueIdx.ix2 (0 : Fin 1) (0 : Fin 1)) = ∑ i ∈ Finset.range (n + 1), term4 a V c i :=
  Cert.Spec.fold_eq_sum (term4 a V c) (fun n => accAt4 a V c n (ValueIdx.ix2 (0 : Fin 1) (0 : Fin 1)))
    ((congrFun (accAt_zero4 a V c) (ValueIdx.ix2 (0 : Fin 1) (0 : Fin 1))).trans
      ((pay2_apply4 (ublk4 a V c (pt4 a 0)) (vblk4 a V c (pt4 a 0)) (k4_pay1 (F := Ideal))).trans
        (congrArg (· + term4 a V c 0) pay1_apply4)))
    (fun n => (congrFun (accAt_succ4 a V c n) (ValueIdx.ix2 (0 : Fin 1) (0 : Fin 1))).trans
      (pay2_apply4 (ublk4 a V c (pt4 a (n + 1))) (vblk4 a V c (pt4 a (n + 1))) (accAt4 a V c n)))
    n

/-- WHAT THE REGION LEAVES: when the two arrays are the embedding tables `U`, `W` with a unit middle axis and the two
    prefetched tables hold the row numbers `IU`, `IV` of this region's edges, the carried sum after the last point is the
    sum of the edge losses over the region's 43008 edges. The tables' contents stay a variable. -/
theorem region_sum4 (c : Dev nD) (U W : FVec Ideal Cert.Spec.Su .f32) (IU IV : Fin 344064 → Fin 1000000)
    (hU : ∀ (r : Fin 1000000) (d : Fin 64), uarr4 V c (ValueIdx.ix3 r (0 : Fin 1) d) = U (ValueIdx.ix2 r d))
    (hW : ∀ (r : Fin 1000000) (d : Fin 64), varr4 V c (ValueIdx.ix3 r (0 : Fin 1) d) = W (ValueIdx.ix2 r d))
    (hIU : ∀ i : Fin 43008, (IU (Cert.Spec.chunkIdx p4 i)).val = (a.1 0 (ValueIdx.ix1 i)).toNat)
    (hIV : ∀ i : Fin 43008, (IV (Cert.Spec.chunkIdx p4 i)).val = (a.1 1 (ValueIdx.ix1 i)).toNat) :
    accAt4 a V c ((cfg4 a).N - 1) (ValueIdx.ix2 (0 : Fin 1) (0 : Fin 1))
      = ∑ i : Fin 43008, Cert.Spec.edgeLoss U W IU IV (Cert.Spec.chunkIdx p4 i) := by
  have hN : (cfg4 a).N = 43008 := N_4
  have hN1 : (cfg4 a).N - 1 + 1 = 43008 := by omega
  rw [acc_fold4, hN1]
  refine Cert.Spec.chunk_sum_range (Cert.Spec.edgeLoss U W IU IV) p4 (term4 a V c) fun i => ?_
  have ht : (⟨(pt4 a i.val).val, lt_of_lt_of_eq (pt4 a i.val).isLt N_4⟩ : Fin 43008) = i :=
    Fin.ext (show i.val % (cfg4 a).N = i.val from Nat.mod_eq_of_lt (by rw [hN]; exact i.isLt))
  unfold term4 Cert.Spec.edgeLoss Cert.Spec.rowDot
  refine congrArg Cert.Spec.lossE (Finset.sum_congr rfl fun d _ => ?_)
  exact congrArg₂ (· * ·)
    ((blkU4 a V c (pt4 a i.val) d (IU (Cert.Spec.chunkIdx p4 i)) (by rw [ht]; exact hIU i)).trans (hU _ d))
    ((blkV4 a V c (pt4 a i.val) d (IV (Cert.Spec.chunkIdx p4 i)) (by rw [ht]; exact hIV i)).trans (hW _ d))

end Cert.KernelIdeal.KValue

end
-- ==== Proof.OutI4.lean ====
import proofs.«425429_j48773648614109_2_alg».proof.Proof.DatI4
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg4 (F := F)).Adm)
  (V : (c : Dev nD) → (b : Ref sig .tc) → Buf (Elt F) ((c : Thread nD τ).loc b))

/-! ## The output window writes back once

Window 2's array is the one `[1, 1]` block; its block index is the same at every point, so the pipeline writes the
staging buffer back at the last point only, and that write covers the array. -/

/-- The output window's block index does not depend on the point. -/
theorem out_index4 (t t' : Fin (cfg4 a).N) : ((cfg4 a).win (2 : Fin 3)).index t = ((cfg4 a).win (2 : Fin 3)).index t' := rfl

/-- Window 2 is an output. -/
theorem out_isOut4 : ((cfg4 a).win (2 : Fin 3)).isOut = true := rfl

/-- The output window writes back at the last point and nowhere else: the next point's block index never differs. -/
theorem out_flush4 (t : Fin (cfg4 a).N) : ((cfg4 a).win (2 : Fin 3)).flush t = decide (t.val + 1 = (cfg4 a).N) := by
  unfold Pipeline.Window.flush
  rw [out_isOut4, Bool.true_and]
  have h : decide (∃ h : t.val + 1 < (cfg4 a).grid.N, ((cfg4 a).win (2 : Fin 3)).index ⟨t.val + 1, h⟩ ≠ ((cfg4 a).win (2 : Fin 3)).index t) = false :=
    decide_eq_false fun ⟨h, hne⟩ => hne (out_index4 a _ _)
  rw [h, Bool.or_false]

/-- A `[1, 1]` array has one index. -/
theorem out_sub4 : Subsingleton S1x1.Idx := ⟨fun i j => by
  funext x; apply Fin.ext; have hi := (i x).isLt; have hj := (j x).isLt
  have hs : S1x1.size x = 1 := by fin_cases x <;> rfl
  omega⟩

/-- The grid's last point. -/
def out_last4 : Fin (cfg4 a).N := ⟨(cfg4 a).N - 1, Nat.sub_lt (N_pos4 a) Nat.one_pos⟩

/-- THE REGION'S RESULT: after all the write-backs the output array holds what the body left in the staging
    buffer at the last point, the whole sum. The last point is the only one that writes back (`out_flush4`); what it
    writes is the block of that sum (the array has one index, so the block read back is the array), and its block
    covers the array. -/
theorem out_final4 (c : Dev nD) : (dat4 a V c).arrAt (2 : Fin 3) (cfg4 a).N = accAt4 a V c ((cfg4 a).N - 1) := by
  refine (dat4 a V c).arrAt_eq_of_cover (2 : Fin 3) (accAt4 a V c ((cfg4 a).N - 1)) (fun t hf => ?_) (fun i => ?_)
  · have ht : t.val + 1 = (cfg4 a).N := by rw [out_flush4] at hf; exact of_decide_eq_true hf
    funext y
    rw [View.read_apply, show (cfg4 a).N - 1 = t.val from by omega]
    show ((cfg4 a).win 2).cut ((cfg4 a).grid.coords t) ((dat4 a V c).after 2 t) y = _
    rw [afterO4]
    refine Eq.trans ?_ (cast_eq _ _).symm
    exact congrArg (accAt4 a V c t.val) (@Subsingleton.elim S1x1.Idx out_sub4 _ _)
  · have hN := N_pos4 a
    refine ⟨out_last4 a, ?_, ?_⟩
    · rw [out_flush4]; exact decide_eq_true (Nat.sub_add_cancel hN)
    · obtain ⟨j, hj⟩ := View.set_nonempty (v := (((cfg4 a).win 2).blk (out_last4 a)).view)
        (Nat.pos_of_ne_zero fun h0 => absurd ((((cfg4 a).win 2).xblock_numel_eq_zero_iff _).mp h0) (Nat.pos_iff_ne_zero.mp (block_pos4 2)))
      exact (@Subsingleton.elim S1x1.Idx out_sub4 j i) ▸ hj

/-! ## The input windows' arrays are never written -/

/-- Window 0's array holds its entry contents after any number of write-backs. -/
theorem arrAt_inU4 (c : Dev nD) (n : ℕ) : (dat4 a V c).arrAt (0 : Fin 3) n = V c (Pipeline.arrRef spec4 (0 : Fin 3)) :=
  ((dat4 a V c).arrAt_in (0 : Fin 3) rfl n).trans (A_eq4 a V c _)

/-- The same for window 1. -/
theorem arrAt_inV4 (c : Dev nD) (n : ℕ) : (dat4 a V c).arrAt (1 : Fin 3) n = V c (Pipeline.arrRef spec4 (1 : Fin 3)) :=
  ((dat4 a V c).arrAt_in (1 : Fin 3) rfl n).trans (A_eq4 a V c _)

end Cert.KernelIdeal.Gen

end
-- ==== Proof.OutValI4.lean ====
import proofs.«425429_j48773648614109_2_alg».proof.Proof.KValI4
import proofs.«425429_j48773648614109_2_alg».proof.Proof.OutI4
import proofs.«425429_j48773648614109_2_alg».proof.Proof.RecI4

/-!
# What one region leaves in its output array

The region's `[1,1]` output array is written once, at the last point, with the carried sum; so what the region leaves
there, read at its one index, is the sum of the edge losses over the region's 43008 edges.
-/

noncomputable section

namespace Cert.KernelIdeal.KValue

open Idealize.ShloMosaic Idealize.ShloMosaic.ValueIdx Idealize.ShloMosaic.TcCoe Idealize.SL.Sem
open Cert.KernelIdeal Cert.KernelIdeal.Gen

/-- What the region leaves in its output array, as a `[1,1]` vector of extended reals, from the admissible tables and
    the valuation at the region's entry. -/
abbrev oarr4 (adm : (pcfg4 (F := Ideal)).Adm) (Win : Dev nD → Valuation τ sig (Elt Ideal)) (c : Dev nD) :
    FVec Ideal S1x1 .f32 := outArr4 adm Win c

/-- THE REGION'S OUTPUT: when, at the region's entry, the two arrays are the embedding tables `U`, `W` with a unit
    middle axis, and the admissible tables hold the row numbers `IU`, `IV` of this region's edges, the output array's
    one entry is the sum of the edge losses over the region's 43008 edges. -/
theorem out_value4 (adm : (pcfg4 (F := Ideal)).Adm) (Win : Dev nD → Valuation τ sig (Elt Ideal)) (c : Dev nD)
    (U W : FVec Ideal Cert.Spec.Su .f32) (IU IV : Fin 344064 → Fin 1000000)
    (hU : ∀ (r : Fin 1000000) (d : Fin 64), uarr4 (vin4 Win) c (ValueIdx.ix3 r (0 : Fin 1) d) = U (ValueIdx.ix2 r d))
    (hW : ∀ (r : Fin 1000000) (d : Fin 64), varr4 (vin4 Win) c (ValueIdx.ix3 r (0 : Fin 1) d) = W (ValueIdx.ix2 r d))
    (hIU : ∀ i : Fin 43008, (IU (Cert.Spec.chunkIdx p4 i)).val = (adm.1 0 (ValueIdx.ix1 i)).toNat)
    (hIV : ∀ i : Fin 43008, (IV (Cert.Spec.chunkIdx p4 i)).val = (adm.1 1 (ValueIdx.ix1 i)).toNat) :
    oarr4 adm Win c (ValueIdx.ix2 (0 : Fin 1) (0 : Fin 1))
      = ∑ i : Fin 43008, Cert.Spec.edgeLoss U W IU IV (Cert.Spec.chunkIdx p4 i) := by
  have e : oarr4 adm Win c = accAt4 adm (vin4 Win) c ((cfg4 adm).N - 1) := out_final4 adm (vin4 Win) c
  rw [e]
  exact region_sum4 adm (vin4 Win) c U W IU IV hU hW hIU hIV

end Cert.KernelIdeal.KValue

end
-- ==== Proof.KValI5.lean ====
import proofs.«425429_j48773648614109_2_alg».proof.Proof.DatI5
import proofs.«425429_j48773648614109_2_alg».proof.Proof.Spec
import proofs.«425429_j48773648614109_2_alg».proof.Proof.KValLibI
import Idealize.ShloMosaic.PureOps.Ideal.Laws
import Idealize.ShloMosaic.Lib.ValueIdx
import Idealize.ShloMosaic.Lib.ValueLayout
import Idealize.ShloMosaic.Lib.Pipeline.Value

/-!
# What one region adds up

At every grid point the body reads one row of each embedding table (the rows its two prefetched tables name at that
point), takes the dot product over the 64 lanes, and adds `-log σ(score)`, computed in the softplus form, to a carried
`[1,1]` sum that the first point starts from zero. This module reads the body's arithmetic at its one index, reads the
two row blocks off their arrays, and concludes that the carried sum after the last point is the sum over the region's
43008 edges of the edge loss.
-/

noncomputable section

namespace Cert.KernelIdeal.KValue

open Idealize.ShloMosaic Idealize.ShloMosaic.ValueIdx Idealize.ShloMosaic.TcCoe Idealize.SL.Sem
open Cert.KernelIdeal Cert.KernelIdeal.Gen

/-! ## The body's arithmetic at its one index -/

/-- THE UPDATE PAYLOAD AT ITS ONE INDEX: the carried sum plus the edge loss of the two rows' dot product. -/
theorem pay2_apply5 (xu xv : Vec Ideal S1x1x64 .f32) (acc : Vec Ideal S1x1 .f32) :
    k5_pay2 (F := Ideal) xu xv acc (ValueIdx.ix2 (0 : Fin 1) (0 : Fin 1))
      = acc (ValueIdx.ix2 (0 : Fin 1) (0 : Fin 1))
        + Cert.Spec.lossE (∑ d : Fin 64, xu (ValueIdx.ix3 (0 : Fin 1) (0 : Fin 1) d) * xv (ValueIdx.ix3 (0 : Fin 1) (0 : Fin 1) d)) := by
  unfold k5_pay2
  refine (tail_apply _ acc _ _).trans ?_
  exact congrArg (fun s => acc (ValueIdx.ix2 (0 : Fin 1) (0 : Fin 1)) + Cert.Spec.lossE s) (laneSum xu xv _ _ _ _ _)

/-- The reset payload is the zero vector. -/
theorem pay1_apply5 : (k5_pay1 (F := Ideal)) (ValueIdx.ix2 (0 : Fin 1) (0 : Fin 1)) = 0 := by
  unfold k5_pay1
  refine (congrFun (shapeCast_self _ _) _).trans ?_
  exact Ideal.ofBits_zero_f32

/-! ## The index maps: which rows a point reads -/

/-- On this one-axis grid a point's coordinate is its number. -/
theorem coord5 (t : Fin grid5.N) : ((grid5.coords t) 0).val = t.val := by
  have hs : grid5.stride 0 = 1 := by decide
  have hlt : t.val < 43008 := lt_of_lt_of_eq t.isLt N_5
  show t.val / grid5.stride 0 % 43008 = t.val
  rw [hs, Nat.div_one, Nat.mod_eq_of_lt hlt]

/-- The first index map at grid coordinates: the row is the first table's word there, the other two block indices zero.
    The tables' contents are a variable here. -/
theorem idxU5 (pf : pre5.Contents (Elt Ideal)) (i : grid5.Coords) :
    cc5_transform_0 k5_off1_inb numel1_S1 pf i
      = ![(pf 0 (ValueIdx.ix1 (⟨(i 0).val, (i 0).isLt⟩ : Fin 43008))).toNat, 0, 0] := by
  have hoff : (k5_off1 i) 0 = (i 0).val := congrFun (k5_off1_eq i) 0
  unfold cc5_transform_0
  dsimp only
  have hw : pf.at 0 (Rect.unit (s := S43008) ![(Scalar.indexCast (BitVec.ofNat 32 (i 0).val)).toNat] S1.size (k5_off1_inb i)) numel1_S1
      = pf 0 (ValueIdx.ix1 (⟨(i 0).val, (i 0).isLt⟩ : Fin 43008)) := by
    refine congrArg (pf 0) (funext fun ax => Fin.ext ?_)
    match ax with
    | ⟨0, _⟩ =>
      show k5_off1 i 0 + 1 * 0 = (i 0).val
      omega
  rw [hw]
  rfl

/-- The second index map likewise, from the second table. -/
theorem idxV5 (pf : pre5.Contents (Elt Ideal)) (i : grid5.Coords) :
    cc5_transform_1 k5_off1_inb numel1_S1 pf i
      = ![(pf 1 (ValueIdx.ix1 (⟨(i 0).val, (i 0).isLt⟩ : Fin 43008))).toNat, 0, 0] := by
  have hoff : (k5_off1 i) 0 = (i 0).val := congrFun (k5_off1_eq i) 0
  unfold cc5_transform_1
  dsimp only
  have hw : pf.at 1 (Rect.unit (s := S43008) ![(Scalar.indexCast (BitVec.ofNat 32 (i 0).val)).toNat] S1.size (k5_off1_inb i)) numel1_S1
      = pf 1 (ValueIdx.ix1 (⟨(i 0).val, (i 0).isLt⟩ : Fin 43008)) := by
    refine congrArg (pf 1) (funext fun ax => Fin.ext ?_)
    match ax with
    | ⟨0, _⟩ =>
      show k5_off1 i 0 + 1 * 0 = (i 0).val
      omega
  rw [hw]
  rfl

/-- The first index map at the grid point numbered `t`. -/
theorem idxU_pt5 (pf : pre5.Contents (Elt Ideal)) (t : Fin grid5.N) :
    cc5_transform_0 k5_off1_inb numel1_S1 pf (grid5.coords t)
      = ![(pf 0 (ValueIdx.ix1 (⟨t.val, lt_of_lt_of_eq t.isLt N_5⟩ : Fin 43008))).toNat, 0, 0] := by
  rw [idxU5]
  have e : (⟨(grid5.coords t 0).val, (grid5.coords t 0).isLt⟩ : Fin 43008) = ⟨t.val, lt_of_lt_of_eq t.isLt N_5⟩ :=
    Fin.ext (coord5 t)
  rw [e]

/-- The second index map at the grid point numbered `t`. -/
theorem idxV_pt5 (pf : pre5.Contents (Elt Ideal)) (t : Fin grid5.N) :
    cc5_transform_1 k5_off1_inb numel1_S1 pf (grid5.coords t)
      = ![(pf 1 (ValueIdx.ix1 (⟨t.val, lt_of_lt_of_eq t.isLt N_5⟩ : Fin 43008))).toNat, 0, 0] := by
  rw [idxV5]
  have e : (⟨(grid5.coords t 0).val, (grid5.coords t 0).isLt⟩ : Fin 43008) = ⟨t.val, lt_of_lt_of_eq t.isLt N_5⟩ :=
    Fin.ext (coord5 t)
  rw [e]

/-! ## The two row blocks, read off their arrays -/

variable (a : (pcfg5 (F := Ideal)).Adm)
  (V : (c : Dev nD) → (b : Ref sig .tc) → Buf (Elt Ideal) ((c : Thread nD τ).loc b))

/-- The first window's block at a point: one row of the first embedding table. -/
abbrev ublk5 (c : Dev nD) (t : Fin (cfg5 a).N) : FVec Ideal S1x1x64 .f32 := iblk5 a V c (0 : Fin 3) t
/-- The first window's array: the first embedding table with a unit middle axis. -/
abbrev uarr5 (c : Dev nD) : FVec Ideal S1000000x1x64 .f32 := V c main_v6
/-- The second window's block at a point: one row of the second embedding table. -/
abbrev vblk5 (c : Dev nD) (t : Fin (cfg5 a).N) : FVec Ideal S1x1x64 .f32 := iblk5 a V c (1 : Fin 3) t
/-- The second window's array: the second embedding table with a unit middle axis. -/
abbrev varr5 (c : Dev nD) : FVec Ideal S1000000x1x64 .f32 := V c main_v7

/-- THE FIRST WINDOW'S BLOCK at point `t`, lane `d`: the array at the row the first table names at `t` (a block's
    element sits, on each axis, at block index × block size + its own coordinate). -/
theorem blkU5 (c : Dev nD) (t : Fin (cfg5 a).N) (d : Fin 64) (r : Fin 1000000)
    (hr : r.val = (a.1 0 (ValueIdx.ix1 (⟨t.val, lt_of_lt_of_eq t.isLt N_5⟩ : Fin 43008))).toNat) :
    ublk5 a V c t (ValueIdx.ix3 (0 : Fin 1) (0 : Fin 1) d) = uarr5 V c (ValueIdx.ix3 r (0 : Fin 1) d) := by
  show uarr5 V c ((((cfg5 a).win 0).blk t).view.emb (ValueIdx.ix3 (0 : Fin 1) (0 : Fin 1) d)) = _
  refine congrArg (uarr5 V c) (funext fun ax => Fin.ext ?_)
  have hidx : ((cfg5 a).win 0).index t
      = ![(a.1 0 (ValueIdx.ix1 (⟨t.val, lt_of_lt_of_eq t.isLt N_5⟩ : Fin 43008))).toNat, 0, 0] := idxU_pt5 a.1 t
  match ax with
  | ⟨0, _⟩ =>
    show ((cfg5 a).win 0).index t (0 : Fin 3) * 1 + 1 * 0 = r.val
    rw [hr, hidx]
    show (a.1 0 (ValueIdx.ix1 (⟨t.val, lt_of_lt_of_eq t.isLt N_5⟩ : Fin 43008))).toNat * 1 + 1 * 0 = _
    omega
  | ⟨1, _⟩ =>
    show ((cfg5 a).win 0).index t (1 : Fin 3) * 1 + 1 * 0 = 0
    rw [hidx]; rfl
  | ⟨2, _⟩ =>
    show ((cfg5 a).win 0).index t (2 : Fin 3) * 64 + 1 * d.val = d.val
    rw [hidx]; show 0 * 64 + 1 * d.val = d.val; omega

/-- THE SECOND WINDOW'S BLOCK at point `t`, lane `d`, likewise from the second table. -/
theorem blkV5 (c : Dev nD) (t : Fin (cfg5 a).N) (d : Fin 64) (r : Fin 1000000)
    (hr : r.val = (a.1 1 (ValueIdx.ix1 (⟨t.val, lt_of_lt_of_eq t.isLt N_5⟩ : Fin 43008))).toNat) :
    vblk5 a V c t (ValueIdx.ix3 (0 : Fin 1) (0 : Fin 1) d) = varr5 V c (ValueIdx.ix3 r (0 : Fin 1) d) := by
  show varr5 V c ((((cfg5 a).win 1).blk t).view.emb (ValueIdx.ix3 (0 : Fin 1) (0 : Fin 1) d)) = _
  refine congrArg (varr5 V c) (funext fun ax => Fin.ext ?_)
  have hidx : ((cfg5 a).win 1).index t
      = ![(a.1 1 (ValueIdx.ix1 (⟨t.val, lt_of_lt_of_eq t.isLt N_5⟩ : Fin 43008))).toNat, 0, 0] := idxV_pt5 a.1 t
  match ax with
  | ⟨0, _⟩ =>
    show ((cfg5 a).win 1).index t (0 : Fin 3) * 1 + 1 * 0 = r.val
    rw [hr, hidx]
    show (a.1 1 (ValueIdx.ix1 (⟨t.val, lt_of_lt_of_eq t.isLt N_5⟩ : Fin 43008))).toNat * 1 + 1 * 0 = _
    omega
  | ⟨1, _⟩ =>
    show ((cfg5 a).win 1).index t (1 : Fin 3) * 1 + 1 * 0 = 0
    rw [hidx]; rfl
  | ⟨2, _⟩ =>
    show ((cfg5 a).win 1).index t (2 : Fin 3) * 64 + 1 * d.val = d.val
    rw [hidx]; show 0 * 64 + 1 * d.val = d.val; omega

/-! ## The carried sum -/

/-- The term the point numbered `n` adds: the edge loss of the dot product of the two rows it reads. -/
def term5 (c : Dev nD) (n : ℕ) : EReal :=
  Cert.Spec.lossE (∑ d : Fin 64,
    ublk5 a V c (pt5 a n) (ValueIdx.ix3 (0 : Fin 1) (0 : Fin 1) d) * vblk5 a V c (pt5 a n) (ValueIdx.ix3 (0 : Fin 1) (0 : Fin 1) d))

/-- The carried sum after the point numbered `n` is the sum of the terms of the points up to `n`: the first point adds
    its term to the zero it stores, every later point adds its term to what the point before left. -/
theorem acc_fold5 (c : Dev nD) (n : ℕ) :
    accAt5 a V c n (ValueIdx.ix2 (0 : Fin 1) (0 : Fin 1)) = ∑ i ∈ Finset.range (n + 1), term5 a V c i :=
  Cert.Spec.fold_eq_sum (term5 a V c) (fun n => accAt5 a V c n (ValueIdx.ix2 (0 : Fin 1) (0 : Fin 1)))
    ((congrFun (accAt_zero5 a V c) (ValueIdx.ix2 (0 : Fin 1) (0 : Fin 1))).trans
      ((pay2_apply5 (ublk5 a V c (pt5 a 0)) (vblk5 a V c (pt5 a 0)) (k5_pay1 (F := Ideal))).trans
        (congrArg (· + term5 a V c 0) pay1_apply5)))
    (fun n => (congrFun (accAt_succ5 a V c n) (ValueIdx.ix2 (0 : Fin 1) (0 : Fin 1))).trans
      (pay2_apply5 (ublk5 a V c (pt5 a (n + 1))) (vblk5 a V c (pt5 a (n + 1))) (accAt5 a V c n)))
    n

/-- WHAT THE REGION LEAVES: when the two arrays are the embedding tables `U`, `W` with a unit middle axis and the two
    prefetched tables hold the row numbers `IU`, `IV` of this region's edges, the carried sum after the last point is the
    sum of the edge losses over the region's 43008 edges. The tables' contents stay a variable. -/
theorem region_sum5 (c : Dev nD) (U W : FVec Ideal Cert.Spec.Su .f32) (IU IV : Fin 344064 → Fin 1000000)
    (hU : ∀ (r : Fin 1000000) (d : Fin 64), uarr5 V c (ValueIdx.ix3 r (0 : Fin 1) d) = U (ValueIdx.ix2 r d))
    (hW : ∀ (r : Fin 1000000) (d : Fin 64), varr5 V c (ValueIdx.ix3 r (0 : Fin 1) d) = W (ValueIdx.ix2 r d))
    (hIU : ∀ i : Fin 43008, (IU (Cert.Spec.chunkIdx p5 i)).val = (a.1 0 (ValueIdx.ix1 i)).toNat)
    (hIV : ∀ i : Fin 43008, (IV (Cert.Spec.chunkIdx p5 i)).val = (a.1 1 (ValueIdx.ix1 i)).toNat) :
    accAt5 a V c ((cfg5 a).N - 1) (ValueIdx.ix2 (0 : Fin 1) (0 : Fin 1))
      = ∑ i : Fin 43008, Cert.Spec.edgeLoss U W IU IV (Cert.Spec.chunkIdx p5 i) := by
  have hN : (cfg5 a).N = 43008 := N_5
  have hN1 : (cfg5 a).N - 1 + 1 = 43008 := by omega
  rw [acc_fold5, hN1]
  refine Cert.Spec.chunk_sum_range (Cert.Spec.edgeLoss U W IU IV) p5 (term5 a V c) fun i => ?_
  have ht : (⟨(pt5 a i.val).val, lt_of_lt_of_eq (pt5 a i.val).isLt N_5⟩ : Fin 43008) = i :=
    Fin.ext (show i.val % (cfg5 a).N = i.val from Nat.mod_eq_of_lt (by rw [hN]; exact i.isLt))
  unfold term5 Cert.Spec.edgeLoss Cert.Spec.rowDot
  refine congrArg Cert.Spec.lossE (Finset.sum_congr rfl fun d _ => ?_)
  exact congrArg₂ (· * ·)
    ((blkU5 a V c (pt5 a i.val) d (IU (Cert.Spec.chunkIdx p5 i)) (by rw [ht]; exact hIU i)).trans (hU _ d))
    ((blkV5 a V c (pt5 a i.val) d (IV (Cert.Spec.chunkIdx p5 i)) (by rw [ht]; exact hIV i)).trans (hW _ d))

end Cert.KernelIdeal.KValue

end
-- ==== Proof.OutI5.lean ====
import proofs.«425429_j48773648614109_2_alg».proof.Proof.DatI5
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg5 (F := F)).Adm)
  (V : (c : Dev nD) → (b : Ref sig .tc) → Buf (Elt F) ((c : Thread nD τ).loc b))

/-! ## The output window writes back once

Window 2's array is the one `[1, 1]` block; its block index is the same at every point, so the pipeline writes the
staging buffer back at the last point only, and that write covers the array. -/

/-- The output window's block index does not depend on the point. -/
theorem out_index5 (t t' : Fin (cfg5 a).N) : ((cfg5 a).win (2 : Fin 3)).index t = ((cfg5 a).win (2 : Fin 3)).index t' := rfl

/-- Window 2 is an output. -/
theorem out_isOut5 : ((cfg5 a).win (2 : Fin 3)).isOut = true := rfl

/-- The output window writes back at the last point and nowhere else: the next point's block index never differs. -/
theorem out_flush5 (t : Fin (cfg5 a).N) : ((cfg5 a).win (2 : Fin 3)).flush t = decide (t.val + 1 = (cfg5 a).N) := by
  unfold Pipeline.Window.flush
  rw [out_isOut5, Bool.true_and]
  have h : decide (∃ h : t.val + 1 < (cfg5 a).grid.N, ((cfg5 a).win (2 : Fin 3)).index ⟨t.val + 1, h⟩ ≠ ((cfg5 a).win (2 : Fin 3)).index t) = false :=
    decide_eq_false fun ⟨h, hne⟩ => hne (out_index5 a _ _)
  rw [h, Bool.or_false]

/-- A `[1, 1]` array has one index. -/
theorem out_sub5 : Subsingleton S1x1.Idx := ⟨fun i j => by
  funext x; apply Fin.ext; have hi := (i x).isLt; have hj := (j x).isLt
  have hs : S1x1.size x = 1 := by fin_cases x <;> rfl
  omega⟩

/-- The grid's last point. -/
def out_last5 : Fin (cfg5 a).N := ⟨(cfg5 a).N - 1, Nat.sub_lt (N_pos5 a) Nat.one_pos⟩

/-- THE REGION'S RESULT: after all the write-backs the output array holds what the body left in the staging
    buffer at the last point, the whole sum. The last point is the only one that writes back (`out_flush5`); what it
    writes is the block of that sum (the array has one index, so the block read back is the array), and its block
    covers the array. -/
theorem out_final5 (c : Dev nD) : (dat5 a V c).arrAt (2 : Fin 3) (cfg5 a).N = accAt5 a V c ((cfg5 a).N - 1) := by
  refine (dat5 a V c).arrAt_eq_of_cover (2 : Fin 3) (accAt5 a V c ((cfg5 a).N - 1)) (fun t hf => ?_) (fun i => ?_)
  · have ht : t.val + 1 = (cfg5 a).N := by rw [out_flush5] at hf; exact of_decide_eq_true hf
    funext y
    rw [View.read_apply, show (cfg5 a).N - 1 = t.val from by omega]
    show ((cfg5 a).win 2).cut ((cfg5 a).grid.coords t) ((dat5 a V c).after 2 t) y = _
    rw [afterO5]
    refine Eq.trans ?_ (cast_eq _ _).symm
    exact congrArg (accAt5 a V c t.val) (@Subsingleton.elim S1x1.Idx out_sub5 _ _)
  · have hN := N_pos5 a
    refine ⟨out_last5 a, ?_, ?_⟩
    · rw [out_flush5]; exact decide_eq_true (Nat.sub_add_cancel hN)
    · obtain ⟨j, hj⟩ := View.set_nonempty (v := (((cfg5 a).win 2).blk (out_last5 a)).view)
        (Nat.pos_of_ne_zero fun h0 => absurd ((((cfg5 a).win 2).xblock_numel_eq_zero_iff _).mp h0) (Nat.pos_iff_ne_zero.mp (block_pos5 2)))
      exact (@Subsingleton.elim S1x1.Idx out_sub5 j i) ▸ hj

/-! ## The input windows' arrays are never written -/

/-- Window 0's array holds its entry contents after any number of write-backs. -/
theorem arrAt_inU5 (c : Dev nD) (n : ℕ) : (dat5 a V c).arrAt (0 : Fin 3) n = V c (Pipeline.arrRef spec5 (0 : Fin 3)) :=
  ((dat5 a V c).arrAt_in (0 : Fin 3) rfl n).trans (A_eq5 a V c _)

/-- The same for window 1. -/
theorem arrAt_inV5 (c : Dev nD) (n : ℕ) : (dat5 a V c).arrAt (1 : Fin 3) n = V c (Pipeline.arrRef spec5 (1 : Fin 3)) :=
  ((dat5 a V c).arrAt_in (1 : Fin 3) rfl n).trans (A_eq5 a V c _)

end Cert.KernelIdeal.Gen

end
-- ==== Proof.OutValI5.lean ====
import proofs.«425429_j48773648614109_2_alg».proof.Proof.KValI5
import proofs.«425429_j48773648614109_2_alg».proof.Proof.OutI5
import proofs.«425429_j48773648614109_2_alg».proof.Proof.RecI5

/-!
# What one region leaves in its output array

The region's `[1,1]` output array is written once, at the last point, with the carried sum; so what the region leaves
there, read at its one index, is the sum of the edge losses over the region's 43008 edges.
-/

noncomputable section

namespace Cert.KernelIdeal.KValue

open Idealize.ShloMosaic Idealize.ShloMosaic.ValueIdx Idealize.ShloMosaic.TcCoe Idealize.SL.Sem
open Cert.KernelIdeal Cert.KernelIdeal.Gen

/-- What the region leaves in its output array, as a `[1,1]` vector of extended reals, from the admissible tables and
    the valuation at the region's entry. -/
abbrev oarr5 (adm : (pcfg5 (F := Ideal)).Adm) (Win : Dev nD → Valuation τ sig (Elt Ideal)) (c : Dev nD) :
    FVec Ideal S1x1 .f32 := outArr5 adm Win c

/-- THE REGION'S OUTPUT: when, at the region's entry, the two arrays are the embedding tables `U`, `W` with a unit
    middle axis, and the admissible tables hold the row numbers `IU`, `IV` of this region's edges, the output array's
    one entry is the sum of the edge losses over the region's 43008 edges. -/
theorem out_value5 (adm : (pcfg5 (F := Ideal)).Adm) (Win : Dev nD → Valuation τ sig (Elt Ideal)) (c : Dev nD)
    (U W : FVec Ideal Cert.Spec.Su .f32) (IU IV : Fin 344064 → Fin 1000000)
    (hU : ∀ (r : Fin 1000000) (d : Fin 64), uarr5 (vin5 Win) c (ValueIdx.ix3 r (0 : Fin 1) d) = U (ValueIdx.ix2 r d))
    (hW : ∀ (r : Fin 1000000) (d : Fin 64), varr5 (vin5 Win) c (ValueIdx.ix3 r (0 : Fin 1) d) = W (ValueIdx.ix2 r d))
    (hIU : ∀ i : Fin 43008, (IU (Cert.Spec.chunkIdx p5 i)).val = (adm.1 0 (ValueIdx.ix1 i)).toNat)
    (hIV : ∀ i : Fin 43008, (IV (Cert.Spec.chunkIdx p5 i)).val = (adm.1 1 (ValueIdx.ix1 i)).toNat) :
    oarr5 adm Win c (ValueIdx.ix2 (0 : Fin 1) (0 : Fin 1))
      = ∑ i : Fin 43008, Cert.Spec.edgeLoss U W IU IV (Cert.Spec.chunkIdx p5 i) := by
  have e : oarr5 adm Win c = accAt5 adm (vin5 Win) c ((cfg5 adm).N - 1) := out_final5 adm (vin5 Win) c
  rw [e]
  exact region_sum5 adm (vin5 Win) c U W IU IV hU hW hIU hIV

end Cert.KernelIdeal.KValue

end
-- ==== Proof.KValI6.lean ====
import proofs.«425429_j48773648614109_2_alg».proof.Proof.DatI6
import proofs.«425429_j48773648614109_2_alg».proof.Proof.Spec
import proofs.«425429_j48773648614109_2_alg».proof.Proof.KValLibI
import Idealize.ShloMosaic.PureOps.Ideal.Laws
import Idealize.ShloMosaic.Lib.ValueIdx
import Idealize.ShloMosaic.Lib.ValueLayout
import Idealize.ShloMosaic.Lib.Pipeline.Value

/-!
# What one region adds up

At every grid point the body reads one row of each embedding table (the rows its two prefetched tables name at that
point), takes the dot product over the 64 lanes, and adds `-log σ(score)`, computed in the softplus form, to a carried
`[1,1]` sum that the first point starts from zero. This module reads the body's arithmetic at its one index, reads the
two row blocks off their arrays, and concludes that the carried sum after the last point is the sum over the region's
43008 edges of the edge loss.
-/

noncomputable section

namespace Cert.KernelIdeal.KValue

open Idealize.ShloMosaic Idealize.ShloMosaic.ValueIdx Idealize.ShloMosaic.TcCoe Idealize.SL.Sem
open Cert.KernelIdeal Cert.KernelIdeal.Gen

/-! ## The body's arithmetic at its one index -/

/-- THE UPDATE PAYLOAD AT ITS ONE INDEX: the carried sum plus the edge loss of the two rows' dot product. -/
theorem pay2_apply6 (xu xv : Vec Ideal S1x1x64 .f32) (acc : Vec Ideal S1x1 .f32) :
    k6_pay2 (F := Ideal) xu xv acc (ValueIdx.ix2 (0 : Fin 1) (0 : Fin 1))
      = acc (ValueIdx.ix2 (0 : Fin 1) (0 : Fin 1))
        + Cert.Spec.lossE (∑ d : Fin 64, xu (ValueIdx.ix3 (0 : Fin 1) (0 : Fin 1) d) * xv (ValueIdx.ix3 (0 : Fin 1) (0 : Fin 1) d)) := by
  unfold k6_pay2
  refine (tail_apply _ acc _ _).trans ?_
  exact congrArg (fun s => acc (ValueIdx.ix2 (0 : Fin 1) (0 : Fin 1)) + Cert.Spec.lossE s) (laneSum xu xv _ _ _ _ _)

/-- The reset payload is the zero vector. -/
theorem pay1_apply6 : (k6_pay1 (F := Ideal)) (ValueIdx.ix2 (0 : Fin 1) (0 : Fin 1)) = 0 := by
  unfold k6_pay1
  refine (congrFun (shapeCast_self _ _) _).trans ?_
  exact Ideal.ofBits_zero_f32

/-! ## The index maps: which rows a point reads -/

/-- On this one-axis grid a point's coordinate is its number. -/
theorem coord6 (t : Fin grid6.N) : ((grid6.coords t) 0).val = t.val := by
  have hs : grid6.stride 0 = 1 := by decide
  have hlt : t.val < 43008 := lt_of_lt_of_eq t.isLt N_6
  show t.val / grid6.stride 0 % 43008 = t.val
  rw [hs, Nat.div_one, Nat.mod_eq_of_lt hlt]

/-- The first index map at grid coordinates: the row is the first table's word there, the other two block indices zero.
    The tables' contents are a variable here. -/
theorem idxU6 (pf : pre6.Contents (Elt Ideal)) (i : grid6.Coords) :
    cc6_transform_0 k6_off1_inb numel1_S1 pf i
      = ![(pf 0 (ValueIdx.ix1 (⟨(i 0).val, (i 0).isLt⟩ : Fin 43008))).toNat, 0, 0] := by
  have hoff : (k6_off1 i) 0 = (i 0).val := congrFun (k6_off1_eq i) 0
  unfold cc6_transform_0
  dsimp only
  have hw : pf.at 0 (Rect.unit (s := S43008) ![(Scalar.indexCast (BitVec.ofNat 32 (i 0).val)).toNat] S1.size (k6_off1_inb i)) numel1_S1
      = pf 0 (ValueIdx.ix1 (⟨(i 0).val, (i 0).isLt⟩ : Fin 43008)) := by
    refine congrArg (pf 0) (funext fun ax => Fin.ext ?_)
    match ax with
    | ⟨0, _⟩ =>
      show k6_off1 i 0 + 1 * 0 = (i 0).val
      omega
  rw [hw]
  rfl

/-- The second index map likewise, from the second table. -/
theorem idxV6 (pf : pre6.Contents (Elt Ideal)) (i : grid6.Coords) :
    cc6_transform_1 k6_off1_inb numel1_S1 pf i
      = ![(pf 1 (ValueIdx.ix1 (⟨(i 0).val, (i 0).isLt⟩ : Fin 43008))).toNat, 0, 0] := by
  have hoff : (k6_off1 i) 0 = (i 0).val := congrFun (k6_off1_eq i) 0
  unfold cc6_transform_1
  dsimp only
  have hw : pf.at 1 (Rect.unit (s := S43008) ![(Scalar.indexCast (BitVec.ofNat 32 (i 0).val)).toNat] S1.size (k6_off1_inb i)) numel1_S1
      = pf 1 (ValueIdx.ix1 (⟨(i 0).val, (i 0).isLt⟩ : Fin 43008)) := by
    refine congrArg (pf 1) (funext fun ax => Fin.ext ?_)
    match ax with
    | ⟨0, _⟩ =>
      show k6_off1 i 0 + 1 * 0 = (i 0).val
      omega
  rw [hw]
  rfl

/-- The first index map at the grid point numbered `t`. -/
theorem idxU_pt6 (pf : pre6.Contents (Elt Ideal)) (t : Fin grid6.N) :
    cc6_transform_0 k6_off1_inb numel1_S1 pf (grid6.coords t)
      = ![(pf 0 (ValueIdx.ix1 (⟨t.val, lt_of_lt_of_eq t.isLt N_6⟩ : Fin 43008))).toNat, 0, 0] := by
  rw [idxU6]
  have e : (⟨(grid6.coords t 0).val, (grid6.coords t 0).isLt⟩ : Fin 43008) = ⟨t.val, lt_of_lt_of_eq t.isLt N_6⟩ :=
    Fin.ext (coord6 t)
  rw [e]

/-- The second index map at the grid point numbered `t`. -/
theorem idxV_pt6 (pf : pre6.Contents (Elt Ideal)) (t : Fin grid6.N) :
    cc6_transform_1 k6_off1_inb numel1_S1 pf (grid6.coords t)
      = ![(pf 1 (ValueIdx.ix1 (⟨t.val, lt_of_lt_of_eq t.isLt N_6⟩ : Fin 43008))).toNat, 0, 0] := by
  rw [idxV6]
  have e : (⟨(grid6.coords t 0).val, (grid6.coords t 0).isLt⟩ : Fin 43008) = ⟨t.val, lt_of_lt_of_eq t.isLt N_6⟩ :=
    Fin.ext (coord6 t)
  rw [e]

/-! ## The two row blocks, read off their arrays -/

variable (a : (pcfg6 (F := Ideal)).Adm)
  (V : (c : Dev nD) → (b : Ref sig .tc) → Buf (Elt Ideal) ((c : Thread nD τ).loc b))

/-- The first window's block at a point: one row of the first embedding table. -/
abbrev ublk6 (c : Dev nD) (t : Fin (cfg6 a).N) : FVec Ideal S1x1x64 .f32 := iblk6 a V c (0 : Fin 3) t
/-- The first window's array: the first embedding table with a unit middle axis. -/
abbrev uarr6 (c : Dev nD) : FVec Ideal S1000000x1x64 .f32 := V c main_v6
/-- The second window's block at a point: one row of the second embedding table. -/
abbrev vblk6 (c : Dev nD) (t : Fin (cfg6 a).N) : FVec Ideal S1x1x64 .f32 := iblk6 a V c (1 : Fin 3) t
/-- The second window's array: the second embedding table with a unit middle axis. -/
abbrev varr6 (c : Dev nD) : FVec Ideal S1000000x1x64 .f32 := V c main_v7

/-- THE FIRST WINDOW'S BLOCK at point `t`, lane `d`: the array at the row the first table names at `t` (a block's
    element sits, on each axis, at block index × block size + its own coordinate). -/
theorem blkU6 (c : Dev nD) (t : Fin (cfg6 a).N) (d : Fin 64) (r : Fin 1000000)
    (hr : r.val = (a.1 0 (ValueIdx.ix1 (⟨t.val, lt_of_lt_of_eq t.isLt N_6⟩ : Fin 43008))).toNat) :
    ublk6 a V c t (ValueIdx.ix3 (0 : Fin 1) (0 : Fin 1) d) = uarr6 V c (ValueIdx.ix3 r (0 : Fin 1) d) := by
  show uarr6 V c ((((cfg6 a).win 0).blk t).view.emb (ValueIdx.ix3 (0 : Fin 1) (0 : Fin 1) d)) = _
  refine congrArg (uarr6 V c) (funext fun ax => Fin.ext ?_)
  have hidx : ((cfg6 a).win 0).index t
      = ![(a.1 0 (ValueIdx.ix1 (⟨t.val, lt_of_lt_of_eq t.isLt N_6⟩ : Fin 43008))).toNat, 0, 0] := idxU_pt6 a.1 t
  match ax with
  | ⟨0, _⟩ =>
    show ((cfg6 a).win 0).index t (0 : Fin 3) * 1 + 1 * 0 = r.val
    rw [hr, hidx]
    show (a.1 0 (ValueIdx.ix1 (⟨t.val, lt_of_lt_of_eq t.isLt N_6⟩ : Fin 43008))).toNat * 1 + 1 * 0 = _
    omega
  | ⟨1, _⟩ =>
    show ((cfg6 a).win 0).index t (1 : Fin 3) * 1 + 1 * 0 = 0
    rw [hidx]; rfl
  | ⟨2, _⟩ =>
    show ((cfg6 a).win 0).index t (2 : Fin 3) * 64 + 1 * d.val = d.val
    rw [hidx]; show 0 * 64 + 1 * d.val = d.val; omega

/-- THE SECOND WINDOW'S BLOCK at point `t`, lane `d`, likewise from the second table. -/
theorem blkV6 (c : Dev nD) (t : Fin (cfg6 a).N) (d : Fin 64) (r : Fin 1000000)
    (hr : r.val = (a.1 1 (ValueIdx.ix1 (⟨t.val, lt_of_lt_of_eq t.isLt N_6⟩ : Fin 43008))).toNat) :
    vblk6 a V c t (ValueIdx.ix3 (0 : Fin 1) (0 : Fin 1) d) = varr6 V c (ValueIdx.ix3 r (0 : Fin 1) d) := by
  show varr6 V c ((((cfg6 a).win 1).blk t).view.emb (ValueIdx.ix3 (0 : Fin 1) (0 : Fin 1) d)) = _
  refine congrArg (varr6 V c) (funext fun ax => Fin.ext ?_)
  have hidx : ((cfg6 a).win 1).index t
      = ![(a.1 1 (ValueIdx.ix1 (⟨t.val, lt_of_lt_of_eq t.isLt N_6⟩ : Fin 43008))).toNat, 0, 0] := idxV_pt6 a.1 t
  match ax with
  | ⟨0, _⟩ =>
    show ((cfg6 a).win 1).index t (0 : Fin 3) * 1 + 1 * 0 = r.val
    rw [hr, hidx]
    show (a.1 1 (ValueIdx.ix1 (⟨t.val, lt_of_lt_of_eq t.isLt N_6⟩ : Fin 43008))).toNat * 1 + 1 * 0 = _
    omega
  | ⟨1, _⟩ =>
    show ((cfg6 a).win 1).index t (1 : Fin 3) * 1 + 1 * 0 = 0
    rw [hidx]; rfl
  | ⟨2, _⟩ =>
    show ((cfg6 a).win 1).index t (2 : Fin 3) * 64 + 1 * d.val = d.val
    rw [hidx]; show 0 * 64 + 1 * d.val = d.val; omega

/-! ## The carried sum -/

/-- The term the point numbered `n` adds: the edge loss of the dot product of the two rows it reads. -/
def term6 (c : Dev nD) (n : ℕ) : EReal :=
  Cert.Spec.lossE (∑ d : Fin 64,
    ublk6 a V c (pt6 a n) (ValueIdx.ix3 (0 : Fin 1) (0 : Fin 1) d) * vblk6 a V c (pt6 a n) (ValueIdx.ix3 (0 : Fin 1) (0 : Fin 1) d))

/-- The carried sum after the point numbered `n` is the sum of the terms of the points up to `n`: the first point adds
    its term to the zero it stores, every later point adds its term to what the point before left. -/
theorem acc_fold6 (c : Dev nD) (n : ℕ) :
    accAt6 a V c n (ValueIdx.ix2 (0 : Fin 1) (0 : Fin 1)) = ∑ i ∈ Finset.range (n + 1), term6 a V c i :=
  Cert.Spec.fold_eq_sum (term6 a V c) (fun n => accAt6 a V c n (ValueIdx.ix2 (0 : Fin 1) (0 : Fin 1)))
    ((congrFun (accAt_zero6 a V c) (ValueIdx.ix2 (0 : Fin 1) (0 : Fin 1))).trans
      ((pay2_apply6 (ublk6 a V c (pt6 a 0)) (vblk6 a V c (pt6 a 0)) (k6_pay1 (F := Ideal))).trans
        (congrArg (· + term6 a V c 0) pay1_apply6)))
    (fun n => (congrFun (accAt_succ6 a V c n) (ValueIdx.ix2 (0 : Fin 1) (0 : Fin 1))).trans
      (pay2_apply6 (ublk6 a V c (pt6 a (n + 1))) (vblk6 a V c (pt6 a (n + 1))) (accAt6 a V c n)))
    n

/-- WHAT THE REGION LEAVES: when the two arrays are the embedding tables `U`, `W` with a unit middle axis and the two
    prefetched tables hold the row numbers `IU`, `IV` of this region's edges, the carried sum after the last point is the
    sum of the edge losses over the region's 43008 edges. The tables' contents stay a variable. -/
theorem region_sum6 (c : Dev nD) (U W : FVec Ideal Cert.Spec.Su .f32) (IU IV : Fin 344064 → Fin 1000000)
    (hU : ∀ (r : Fin 1000000) (d : Fin 64), uarr6 V c (ValueIdx.ix3 r (0 : Fin 1) d) = U (ValueIdx.ix2 r d))
    (hW : ∀ (r : Fin 1000000) (d : Fin 64), varr6 V c (ValueIdx.ix3 r (0 : Fin 1) d) = W (ValueIdx.ix2 r d))
    (hIU : ∀ i : Fin 43008, (IU (Cert.Spec.chunkIdx p6 i)).val = (a.1 0 (ValueIdx.ix1 i)).toNat)
    (hIV : ∀ i : Fin 43008, (IV (Cert.Spec.chunkIdx p6 i)).val = (a.1 1 (ValueIdx.ix1 i)).toNat) :
    accAt6 a V c ((cfg6 a).N - 1) (ValueIdx.ix2 (0 : Fin 1) (0 : Fin 1))
      = ∑ i : Fin 43008, Cert.Spec.edgeLoss U W IU IV (Cert.Spec.chunkIdx p6 i) := by
  have hN : (cfg6 a).N = 43008 := N_6
  have hN1 : (cfg6 a).N - 1 + 1 = 43008 := by omega
  rw [acc_fold6, hN1]
  refine Cert.Spec.chunk_sum_range (Cert.Spec.edgeLoss U W IU IV) p6 (term6 a V c) fun i => ?_
  have ht : (⟨(pt6 a i.val).val, lt_of_lt_of_eq (pt6 a i.val).isLt N_6⟩ : Fin 43008) = i :=
    Fin.ext (show i.val % (cfg6 a).N = i.val from Nat.mod_eq_of_lt (by rw [hN]; exact i.isLt))
  unfold term6 Cert.Spec.edgeLoss Cert.Spec.rowDot
  refine congrArg Cert.Spec.lossE (Finset.sum_congr rfl fun d _ => ?_)
  exact congrArg₂ (· * ·)
    ((blkU6 a V c (pt6 a i.val) d (IU (Cert.Spec.chunkIdx p6 i)) (by rw [ht]; exact hIU i)).trans (hU _ d))
    ((blkV6 a V c (pt6 a i.val) d (IV (Cert.Spec.chunkIdx p6 i)) (by rw [ht]; exact hIV i)).trans (hW _ d))

end Cert.KernelIdeal.KValue

end
-- ==== Proof.OutI6.lean ====
import proofs.«425429_j48773648614109_2_alg».proof.Proof.DatI6
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg6 (F := F)).Adm)
  (V : (c : Dev nD) → (b : Ref sig .tc) → Buf (Elt F) ((c : Thread nD τ).loc b))

/-! ## The output window writes back once

Window 2's array is the one `[1, 1]` block; its block index is the same at every point, so the pipeline writes the
staging buffer back at the last point only, and that write covers the array. -/

/-- The output window's block index does not depend on the point. -/
theorem out_index6 (t t' : Fin (cfg6 a).N) : ((cfg6 a).win (2 : Fin 3)).index t = ((cfg6 a).win (2 : Fin 3)).index t' := rfl

/-- Window 2 is an output. -/
theorem out_isOut6 : ((cfg6 a).win (2 : Fin 3)).isOut = true := rfl

/-- The output window writes back at the last point and nowhere else: the next point's block index never differs. -/
theorem out_flush6 (t : Fin (cfg6 a).N) : ((cfg6 a).win (2 : Fin 3)).flush t = decide (t.val + 1 = (cfg6 a).N) := by
  unfold Pipeline.Window.flush
  rw [out_isOut6, Bool.true_and]
  have h : decide (∃ h : t.val + 1 < (cfg6 a).grid.N, ((cfg6 a).win (2 : Fin 3)).index ⟨t.val + 1, h⟩ ≠ ((cfg6 a).win (2 : Fin 3)).index t) = false :=
    decide_eq_false fun ⟨h, hne⟩ => hne (out_index6 a _ _)
  rw [h, Bool.or_false]

/-- A `[1, 1]` array has one index. -/
theorem out_sub6 : Subsingleton S1x1.Idx := ⟨fun i j => by
  funext x; apply Fin.ext; have hi := (i x).isLt; have hj := (j x).isLt
  have hs : S1x1.size x = 1 := by fin_cases x <;> rfl
  omega⟩

/-- The grid's last point. -/
def out_last6 : Fin (cfg6 a).N := ⟨(cfg6 a).N - 1, Nat.sub_lt (N_pos6 a) Nat.one_pos⟩

/-- THE REGION'S RESULT: after all the write-backs the output array holds what the body left in the staging
    buffer at the last point, the whole sum. The last point is the only one that writes back (`out_flush6`); what it
    writes is the block of that sum (the array has one index, so the block read back is the array), and its block
    covers the array. -/
theorem out_final6 (c : Dev nD) : (dat6 a V c).arrAt (2 : Fin 3) (cfg6 a).N = accAt6 a V c ((cfg6 a).N - 1) := by
  refine (dat6 a V c).arrAt_eq_of_cover (2 : Fin 3) (accAt6 a V c ((cfg6 a).N - 1)) (fun t hf => ?_) (fun i => ?_)
  · have ht : t.val + 1 = (cfg6 a).N := by rw [out_flush6] at hf; exact of_decide_eq_true hf
    funext y
    rw [View.read_apply, show (cfg6 a).N - 1 = t.val from by omega]
    show ((cfg6 a).win 2).cut ((cfg6 a).grid.coords t) ((dat6 a V c).after 2 t) y = _
    rw [afterO6]
    refine Eq.trans ?_ (cast_eq _ _).symm
    exact congrArg (accAt6 a V c t.val) (@Subsingleton.elim S1x1.Idx out_sub6 _ _)
  · have hN := N_pos6 a
    refine ⟨out_last6 a, ?_, ?_⟩
    · rw [out_flush6]; exact decide_eq_true (Nat.sub_add_cancel hN)
    · obtain ⟨j, hj⟩ := View.set_nonempty (v := (((cfg6 a).win 2).blk (out_last6 a)).view)
        (Nat.pos_of_ne_zero fun h0 => absurd ((((cfg6 a).win 2).xblock_numel_eq_zero_iff _).mp h0) (Nat.pos_iff_ne_zero.mp (block_pos6 2)))
      exact (@Subsingleton.elim S1x1.Idx out_sub6 j i) ▸ hj

/-! ## The input windows' arrays are never written -/

/-- Window 0's array holds its entry contents after any number of write-backs. -/
theorem arrAt_inU6 (c : Dev nD) (n : ℕ) : (dat6 a V c).arrAt (0 : Fin 3) n = V c (Pipeline.arrRef spec6 (0 : Fin 3)) :=
  ((dat6 a V c).arrAt_in (0 : Fin 3) rfl n).trans (A_eq6 a V c _)

/-- The same for window 1. -/
theorem arrAt_inV6 (c : Dev nD) (n : ℕ) : (dat6 a V c).arrAt (1 : Fin 3) n = V c (Pipeline.arrRef spec6 (1 : Fin 3)) :=
  ((dat6 a V c).arrAt_in (1 : Fin 3) rfl n).trans (A_eq6 a V c _)

end Cert.KernelIdeal.Gen

end
-- ==== Proof.OutValI6.lean ====
import proofs.«425429_j48773648614109_2_alg».proof.Proof.KValI6
import proofs.«425429_j48773648614109_2_alg».proof.Proof.OutI6
import proofs.«425429_j48773648614109_2_alg».proof.Proof.RecI6

/-!
# What one region leaves in its output array

The region's `[1,1]` output array is written once, at the last point, with the carried sum; so what the region leaves
there, read at its one index, is the sum of the edge losses over the region's 43008 edges.
-/

noncomputable section

namespace Cert.KernelIdeal.KValue

open Idealize.ShloMosaic Idealize.ShloMosaic.ValueIdx Idealize.ShloMosaic.TcCoe Idealize.SL.Sem
open Cert.KernelIdeal Cert.KernelIdeal.Gen

/-- What the region leaves in its output array, as a `[1,1]` vector of extended reals, from the admissible tables and
    the valuation at the region's entry. -/
abbrev oarr6 (adm : (pcfg6 (F := Ideal)).Adm) (Win : Dev nD → Valuation τ sig (Elt Ideal)) (c : Dev nD) :
    FVec Ideal S1x1 .f32 := outArr6 adm Win c

/-- THE REGION'S OUTPUT: when, at the region's entry, the two arrays are the embedding tables `U`, `W` with a unit
    middle axis, and the admissible tables hold the row numbers `IU`, `IV` of this region's edges, the output array's
    one entry is the sum of the edge losses over the region's 43008 edges. -/
theorem out_value6 (adm : (pcfg6 (F := Ideal)).Adm) (Win : Dev nD → Valuation τ sig (Elt Ideal)) (c : Dev nD)
    (U W : FVec Ideal Cert.Spec.Su .f32) (IU IV : Fin 344064 → Fin 1000000)
    (hU : ∀ (r : Fin 1000000) (d : Fin 64), uarr6 (vin6 Win) c (ValueIdx.ix3 r (0 : Fin 1) d) = U (ValueIdx.ix2 r d))
    (hW : ∀ (r : Fin 1000000) (d : Fin 64), varr6 (vin6 Win) c (ValueIdx.ix3 r (0 : Fin 1) d) = W (ValueIdx.ix2 r d))
    (hIU : ∀ i : Fin 43008, (IU (Cert.Spec.chunkIdx p6 i)).val = (adm.1 0 (ValueIdx.ix1 i)).toNat)
    (hIV : ∀ i : Fin 43008, (IV (Cert.Spec.chunkIdx p6 i)).val = (adm.1 1 (ValueIdx.ix1 i)).toNat) :
    oarr6 adm Win c (ValueIdx.ix2 (0 : Fin 1) (0 : Fin 1))
      = ∑ i : Fin 43008, Cert.Spec.edgeLoss U W IU IV (Cert.Spec.chunkIdx p6 i) := by
  have e : oarr6 adm Win c = accAt6 adm (vin6 Win) c ((cfg6 adm).N - 1) := out_final6 adm (vin6 Win) c
  rw [e]
  exact region_sum6 adm (vin6 Win) c U W IU IV hU hW hIU hIV

end Cert.KernelIdeal.KValue

end
-- ==== Proof.KValI7.lean ====
import proofs.«425429_j48773648614109_2_alg».proof.Proof.DatI7
import proofs.«425429_j48773648614109_2_alg».proof.Proof.Spec
import proofs.«425429_j48773648614109_2_alg».proof.Proof.KValLibI
import Idealize.ShloMosaic.PureOps.Ideal.Laws
import Idealize.ShloMosaic.Lib.ValueIdx
import Idealize.ShloMosaic.Lib.ValueLayout
import Idealize.ShloMosaic.Lib.Pipeline.Value

/-!
# What one region adds up

At every grid point the body reads one row of each embedding table (the rows its two prefetched tables name at that
point), takes the dot product over the 64 lanes, and adds `-log σ(score)`, computed in the softplus form, to a carried
`[1,1]` sum that the first point starts from zero. This module reads the body's arithmetic at its one index, reads the
two row blocks off their arrays, and concludes that the carried sum after the last point is the sum over the region's
43008 edges of the edge loss.
-/

noncomputable section

namespace Cert.KernelIdeal.KValue

open Idealize.ShloMosaic Idealize.ShloMosaic.ValueIdx Idealize.ShloMosaic.TcCoe Idealize.SL.Sem
open Cert.KernelIdeal Cert.KernelIdeal.Gen

/-! ## The body's arithmetic at its one index -/

/-- THE UPDATE PAYLOAD AT ITS ONE INDEX: the carried sum plus the edge loss of the two rows' dot product. -/
theorem pay2_apply7 (xu xv : Vec Ideal S1x1x64 .f32) (acc : Vec Ideal S1x1 .f32) :
    k7_pay2 (F := Ideal) xu xv acc (ValueIdx.ix2 (0 : Fin 1) (0 : Fin 1))
      = acc (ValueIdx.ix2 (0 : Fin 1) (0 : Fin 1))
        + Cert.Spec.lossE (∑ d : Fin 64, xu (ValueIdx.ix3 (0 : Fin 1) (0 : Fin 1) d) * xv (ValueIdx.ix3 (0 : Fin 1) (0 : Fin 1) d)) := by
  unfold k7_pay2
  refine (tail_apply _ acc _ _).trans ?_
  exact congrArg (fun s => acc (ValueIdx.ix2 (0 : Fin 1) (0 : Fin 1)) + Cert.Spec.lossE s) (laneSum xu xv _ _ _ _ _)

/-- The reset payload is the zero vector. -/
theorem pay1_apply7 : (k7_pay1 (F := Ideal)) (ValueIdx.ix2 (0 : Fin 1) (0 : Fin 1)) = 0 := by
  unfold k7_pay1
  refine (congrFun (shapeCast_self _ _) _).trans ?_
  exact Ideal.ofBits_zero_f32

/-! ## The index maps: which rows a point reads -/

/-- On this one-axis grid a point's coordinate is its number. -/
theorem coord7 (t : Fin grid7.N) : ((grid7.coords t) 0).val = t.val := by
  have hs : grid7.stride 0 = 1 := by decide
  have hlt : t.val < 43008 := lt_of_lt_of_eq t.isLt N_7
  show t.val / grid7.stride 0 % 43008 = t.val
  rw [hs, Nat.div_one, Nat.mod_eq_of_lt hlt]

/-- The first index map at grid coordinates: the row is the first table's word there, the other two block indices zero.
    The tables' contents are a variable here. -/
theorem idxU7 (pf : pre7.Contents (Elt Ideal)) (i : grid7.Coords) :
    cc7_transform_0 k7_off1_inb numel1_S1 pf i
      = ![(pf 0 (ValueIdx.ix1 (⟨(i 0).val, (i 0).isLt⟩ : Fin 43008))).toNat, 0, 0] := by
  have hoff : (k7_off1 i) 0 = (i 0).val := congrFun (k7_off1_eq i) 0
  unfold cc7_transform_0
  dsimp only
  have hw : pf.at 0 (Rect.unit (s := S43008) ![(Scalar.indexCast (BitVec.ofNat 32 (i 0).val)).toNat] S1.size (k7_off1_inb i)) numel1_S1
      = pf 0 (ValueIdx.ix1 (⟨(i 0).val, (i 0).isLt⟩ : Fin 43008)) := by
    refine congrArg (pf 0) (funext fun ax => Fin.ext ?_)
    match ax with
    | ⟨0, _⟩ =>
      show k7_off1 i 0 + 1 * 0 = (i 0).val
      omega
  rw [hw]
  rfl

/-- The second index map likewise, from the second table. -/
theorem idxV7 (pf : pre7.Contents (Elt Ideal)) (i : grid7.Coords) :
    cc7_transform_1 k7_off1_inb numel1_S1 pf i
      = ![(pf 1 (ValueIdx.ix1 (⟨(i 0).val, (i 0).isLt⟩ : Fin 43008))).toNat, 0, 0] := by
  have hoff : (k7_off1 i) 0 = (i 0).val := congrFun (k7_off1_eq i) 0
  unfold cc7_transform_1
  dsimp only
  have hw : pf.at 1 (Rect.unit (s := S43008) ![(Scalar.indexCast (BitVec.ofNat 32 (i 0).val)).toNat] S1.size (k7_off1_inb i)) numel1_S1
      = pf 1 (ValueIdx.ix1 (⟨(i 0).val, (i 0).isLt⟩ : Fin 43008)) := by
    refine congrArg (pf 1) (funext fun ax => Fin.ext ?_)
    match ax with
    | ⟨0, _⟩ =>
      show k7_off1 i 0 + 1 * 0 = (i 0).val
      omega
  rw [hw]
  rfl

/-- The first index map at the grid point numbered `t`. -/
theorem idxU_pt7 (pf : pre7.Contents (Elt Ideal)) (t : Fin grid7.N) :
    cc7_transform_0 k7_off1_inb numel1_S1 pf (grid7.coords t)
      = ![(pf 0 (ValueIdx.ix1 (⟨t.val, lt_of_lt_of_eq t.isLt N_7⟩ : Fin 43008))).toNat, 0, 0] := by
  rw [idxU7]
  have e : (⟨(grid7.coords t 0).val, (grid7.coords t 0).isLt⟩ : Fin 43008) = ⟨t.val, lt_of_lt_of_eq t.isLt N_7⟩ :=
    Fin.ext (coord7 t)
  rw [e]

/-- The second index map at the grid point numbered `t`. -/
theorem idxV_pt7 (pf : pre7.Contents (Elt Ideal)) (t : Fin grid7.N) :
    cc7_transform_1 k7_off1_inb numel1_S1 pf (grid7.coords t)
      = ![(pf 1 (ValueIdx.ix1 (⟨t.val, lt_of_lt_of_eq t.isLt N_7⟩ : Fin 43008))).toNat, 0, 0] := by
  rw [idxV7]
  have e : (⟨(grid7.coords t 0).val, (grid7.coords t 0).isLt⟩ : Fin 43008) = ⟨t.val, lt_of_lt_of_eq t.isLt N_7⟩ :=
    Fin.ext (coord7 t)
  rw [e]

/-! ## The two row blocks, read off their arrays -/

variable (a : (pcfg7 (F := Ideal)).Adm)
  (V : (c : Dev nD) → (b : Ref sig .tc) → Buf (Elt Ideal) ((c : Thread nD τ).loc b))

/-- The first window's block at a point: one row of the first embedding table. -/
abbrev ublk7 (c : Dev nD) (t : Fin (cfg7 a).N) : FVec Ideal S1x1x64 .f32 := iblk7 a V c (0 : Fin 3) t
/-- The first window's array: the first embedding table with a unit middle axis. -/
abbrev uarr7 (c : Dev nD) : FVec Ideal S1000000x1x64 .f32 := V c main_v6
/-- The second window's block at a point: one row of the second embedding table. -/
abbrev vblk7 (c : Dev nD) (t : Fin (cfg7 a).N) : FVec Ideal S1x1x64 .f32 := iblk7 a V c (1 : Fin 3) t
/-- The second window's array: the second embedding table with a unit middle axis. -/
abbrev varr7 (c : Dev nD) : FVec Ideal S1000000x1x64 .f32 := V c main_v7

/-- THE FIRST WINDOW'S BLOCK at point `t`, lane `d`: the array at the row the first table names at `t` (a block's
    element sits, on each axis, at block index × block size + its own coordinate). -/
theorem blkU7 (c : Dev nD) (t : Fin (cfg7 a).N) (d : Fin 64) (r : Fin 1000000)
    (hr : r.val = (a.1 0 (ValueIdx.ix1 (⟨t.val, lt_of_lt_of_eq t.isLt N_7⟩ : Fin 43008))).toNat) :
    ublk7 a V c t (ValueIdx.ix3 (0 : Fin 1) (0 : Fin 1) d) = uarr7 V c (ValueIdx.ix3 r (0 : Fin 1) d) := by
  show uarr7 V c ((((cfg7 a).win 0).blk t).view.emb (ValueIdx.ix3 (0 : Fin 1) (0 : Fin 1) d)) = _
  refine congrArg (uarr7 V c) (funext fun ax => Fin.ext ?_)
  have hidx : ((cfg7 a).win 0).index t
      = ![(a.1 0 (ValueIdx.ix1 (⟨t.val, lt_of_lt_of_eq t.isLt N_7⟩ : Fin 43008))).toNat, 0, 0] := idxU_pt7 a.1 t
  match ax with
  | ⟨0, _⟩ =>
    show ((cfg7 a).win 0).index t (0 : Fin 3) * 1 + 1 * 0 = r.val
    rw [hr, hidx]
    show (a.1 0 (ValueIdx.ix1 (⟨t.val, lt_of_lt_of_eq t.isLt N_7⟩ : Fin 43008))).toNat * 1 + 1 * 0 = _
    omega
  | ⟨1, _⟩ =>
    show ((cfg7 a).win 0).index t (1 : Fin 3) * 1 + 1 * 0 = 0
    rw [hidx]; rfl
  | ⟨2, _⟩ =>
    show ((cfg7 a).win 0).index t (2 : Fin 3) * 64 + 1 * d.val = d.val
    rw [hidx]; show 0 * 64 + 1 * d.val = d.val; omega

/-- THE SECOND WINDOW'S BLOCK at point `t`, lane `d`, likewise from the second table. -/
theorem blkV7 (c : Dev nD) (t : Fin (cfg7 a).N) (d : Fin 64) (r : Fin 1000000)
    (hr : r.val = (a.1 1 (ValueIdx.ix1 (⟨t.val, lt_of_lt_of_eq t.isLt N_7⟩ : Fin 43008))).toNat) :
    vblk7 a V c t (ValueIdx.ix3 (0 : Fin 1) (0 : Fin 1) d) = varr7 V c (ValueIdx.ix3 r (0 : Fin 1) d) := by
  show varr7 V c ((((cfg7 a).win 1).blk t).view.emb (ValueIdx.ix3 (0 : Fin 1) (0 : Fin 1) d)) = _
  refine congrArg (varr7 V c) (funext fun ax => Fin.ext ?_)
  have hidx : ((cfg7 a).win 1).index t
      = ![(a.1 1 (ValueIdx.ix1 (⟨t.val, lt_of_lt_of_eq t.isLt N_7⟩ : Fin 43008))).toNat, 0, 0] := idxV_pt7 a.1 t
  match ax with
  | ⟨0, _⟩ =>
    show ((cfg7 a).win 1).index t (0 : Fin 3) * 1 + 1 * 0 = r.val
    rw [hr, hidx]
    show (a.1 1 (ValueIdx.ix1 (⟨t.val, lt_of_lt_of_eq t.isLt N_7⟩ : Fin 43008))).toNat * 1 + 1 * 0 = _
    omega
  | ⟨1, _⟩ =>
    show ((cfg7 a).win 1).index t (1 : Fin 3) * 1 + 1 * 0 = 0
    rw [hidx]; rfl
  | ⟨2, _⟩ =>
    show ((cfg7 a).win 1).index t (2 : Fin 3) * 64 + 1 * d.val = d.val
    rw [hidx]; show 0 * 64 + 1 * d.val = d.val; omega

/-! ## The carried sum -/

/-- The term the point numbered `n` adds: the edge loss of the dot product of the two rows it reads. -/
def term7 (c : Dev nD) (n : ℕ) : EReal :=
  Cert.Spec.lossE (∑ d : Fin 64,
    ublk7 a V c (pt7 a n) (ValueIdx.ix3 (0 : Fin 1) (0 : Fin 1) d) * vblk7 a V c (pt7 a n) (ValueIdx.ix3 (0 : Fin 1) (0 : Fin 1) d))

/-- The carried sum after the point numbered `n` is the sum of the terms of the points up to `n`: the first point adds
    its term to the zero it stores, every later point adds its term to what the point before left. -/
theorem acc_fold7 (c : Dev nD) (n : ℕ) :
    accAt7 a V c n (ValueIdx.ix2 (0 : Fin 1) (0 : Fin 1)) = ∑ i ∈ Finset.range (n + 1), term7 a V c i :=
  Cert.Spec.fold_eq_sum (term7 a V c) (fun n => accAt7 a V c n (ValueIdx.ix2 (0 : Fin 1) (0 : Fin 1)))
    ((congrFun (accAt_zero7 a V c) (ValueIdx.ix2 (0 : Fin 1) (0 : Fin 1))).trans
      ((pay2_apply7 (ublk7 a V c (pt7 a 0)) (vblk7 a V c (pt7 a 0)) (k7_pay1 (F := Ideal))).trans
        (congrArg (· + term7 a V c 0) pay1_apply7)))
    (fun n => (congrFun (accAt_succ7 a V c n) (ValueIdx.ix2 (0 : Fin 1) (0 : Fin 1))).trans
      (pay2_apply7 (ublk7 a V c (pt7 a (n + 1))) (vblk7 a V c (pt7 a (n + 1))) (accAt7 a V c n)))
    n

/-- WHAT THE REGION LEAVES: when the two arrays are the embedding tables `U`, `W` with a unit middle axis and the two
    prefetched tables hold the row numbers `IU`, `IV` of this region's edges, the carried sum after the last point is the
    sum of the edge losses over the region's 43008 edges. The tables' contents stay a variable. -/
theorem region_sum7 (c : Dev nD) (U W : FVec Ideal Cert.Spec.Su .f32) (IU IV : Fin 344064 → Fin 1000000)
    (hU : ∀ (r : Fin 1000000) (d : Fin 64), uarr7 V c (ValueIdx.ix3 r (0 : Fin 1) d) = U (ValueIdx.ix2 r d))
    (hW : ∀ (r : Fin 1000000) (d : Fin 64), varr7 V c (ValueIdx.ix3 r (0 : Fin 1) d) = W (ValueIdx.ix2 r d))
    (hIU : ∀ i : Fin 43008, (IU (Cert.Spec.chunkIdx p7 i)).val = (a.1 0 (ValueIdx.ix1 i)).toNat)
    (hIV : ∀ i : Fin 43008, (IV (Cert.Spec.chunkIdx p7 i)).val = (a.1 1 (ValueIdx.ix1 i)).toNat) :
    accAt7 a V c ((cfg7 a).N - 1) (ValueIdx.ix2 (0 : Fin 1) (0 : Fin 1))
      = ∑ i : Fin 43008, Cert.Spec.edgeLoss U W IU IV (Cert.Spec.chunkIdx p7 i) := by
  have hN : (cfg7 a).N = 43008 := N_7
  have hN1 : (cfg7 a).N - 1 + 1 = 43008 := by omega
  rw [acc_fold7, hN1]
  refine Cert.Spec.chunk_sum_range (Cert.Spec.edgeLoss U W IU IV) p7 (term7 a V c) fun i => ?_
  have ht : (⟨(pt7 a i.val).val, lt_of_lt_of_eq (pt7 a i.val).isLt N_7⟩ : Fin 43008) = i :=
    Fin.ext (show i.val % (cfg7 a).N = i.val from Nat.mod_eq_of_lt (by rw [hN]; exact i.isLt))
  unfold term7 Cert.Spec.edgeLoss Cert.Spec.rowDot
  refine congrArg Cert.Spec.lossE (Finset.sum_congr rfl fun d _ => ?_)
  exact congrArg₂ (· * ·)
    ((blkU7 a V c (pt7 a i.val) d (IU (Cert.Spec.chunkIdx p7 i)) (by rw [ht]; exact hIU i)).trans (hU _ d))
    ((blkV7 a V c (pt7 a i.val) d (IV (Cert.Spec.chunkIdx p7 i)) (by rw [ht]; exact hIV i)).trans (hW _ d))

end Cert.KernelIdeal.KValue

end
-- ==== Proof.OutI7.lean ====
import proofs.«425429_j48773648614109_2_alg».proof.Proof.DatI7
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (a : (pcfg7 (F := F)).Adm)
  (V : (c : Dev nD) → (b : Ref sig .tc) → Buf (Elt F) ((c : Thread nD τ).loc b))

/-! ## The output window writes back once

Window 2's array is the one `[1, 1]` block; its block index is the same at every point, so the pipeline writes the
staging buffer back at the last point only, and that write covers the array. -/

/-- The output window's block index does not depend on the point. -/
theorem out_index7 (t t' : Fin (cfg7 a).N) : ((cfg7 a).win (2 : Fin 3)).index t = ((cfg7 a).win (2 : Fin 3)).index t' := rfl

/-- Window 2 is an output. -/
theorem out_isOut7 : ((cfg7 a).win (2 : Fin 3)).isOut = true := rfl

/-- The output window writes back at the last point and nowhere else: the next point's block index never differs. -/
theorem out_flush7 (t : Fin (cfg7 a).N) : ((cfg7 a).win (2 : Fin 3)).flush t = decide (t.val + 1 = (cfg7 a).N) := by
  unfold Pipeline.Window.flush
  rw [out_isOut7, Bool.true_and]
  have h : decide (∃ h : t.val + 1 < (cfg7 a).grid.N, ((cfg7 a).win (2 : Fin 3)).index ⟨t.val + 1, h⟩ ≠ ((cfg7 a).win (2 : Fin 3)).index t) = false :=
    decide_eq_false fun ⟨h, hne⟩ => hne (out_index7 a _ _)
  rw [h, Bool.or_false]

/-- A `[1, 1]` array has one index. -/
theorem out_sub7 : Subsingleton S1x1.Idx := ⟨fun i j => by
  funext x; apply Fin.ext; have hi := (i x).isLt; have hj := (j x).isLt
  have hs : S1x1.size x = 1 := by fin_cases x <;> rfl
  omega⟩

/-- The grid's last point. -/
def out_last7 : Fin (cfg7 a).N := ⟨(cfg7 a).N - 1, Nat.sub_lt (N_pos7 a) Nat.one_pos⟩

/-- THE REGION'S RESULT: after all the write-backs the output array holds what the body left in the staging
    buffer at the last point, the whole sum. The last point is the only one that writes back (`out_flush7`); what it
    writes is the block of that sum (the array has one index, so the block read back is the array), and its block
    covers the array. -/
theorem out_final7 (c : Dev nD) : (dat7 a V c).arrAt (2 : Fin 3) (cfg7 a).N = accAt7 a V c ((cfg7 a).N - 1) := by
  refine (dat7 a V c).arrAt_eq_of_cover (2 : Fin 3) (accAt7 a V c ((cfg7 a).N - 1)) (fun t hf => ?_) (fun i => ?_)
  · have ht : t.val + 1 = (cfg7 a).N := by rw [out_flush7] at hf; exact of_decide_eq_true hf
    funext y
    rw [View.read_apply, show (cfg7 a).N - 1 = t.val from by omega]
    show ((cfg7 a).win 2).cut ((cfg7 a).grid.coords t) ((dat7 a V c).after 2 t) y = _
    rw [afterO7]
    refine Eq.trans ?_ (cast_eq _ _).symm
    exact congrArg (accAt7 a V c t.val) (@Subsingleton.elim S1x1.Idx out_sub7 _ _)
  · have hN := N_pos7 a
    refine ⟨out_last7 a, ?_, ?_⟩
    · rw [out_flush7]; exact decide_eq_true (Nat.sub_add_cancel hN)
    · obtain ⟨j, hj⟩ := View.set_nonempty (v := (((cfg7 a).win 2).blk (out_last7 a)).view)
        (Nat.pos_of_ne_zero fun h0 => absurd ((((cfg7 a).win 2).xblock_numel_eq_zero_iff _).mp h0) (Nat.pos_iff_ne_zero.mp (block_pos7 2)))
      exact (@Subsingleton.elim S1x1.Idx out_sub7 j i) ▸ hj

/-! ## The input windows' arrays are never written -/

/-- Window 0's array holds its entry contents after any number of write-backs. -/
theorem arrAt_inU7 (c : Dev nD) (n : ℕ) : (dat7 a V c).arrAt (0 : Fin 3) n = V c (Pipeline.arrRef spec7 (0 : Fin 3)) :=
  ((dat7 a V c).arrAt_in (0 : Fin 3) rfl n).trans (A_eq7 a V c _)

/-- The same for window 1. -/
theorem arrAt_inV7 (c : Dev nD) (n : ℕ) : (dat7 a V c).arrAt (1 : Fin 3) n = V c (Pipeline.arrRef spec7 (1 : Fin 3)) :=
  ((dat7 a V c).arrAt_in (1 : Fin 3) rfl n).trans (A_eq7 a V c _)

end Cert.KernelIdeal.Gen

end
-- ==== Proof.OutValI7.lean ====
import proofs.«425429_j48773648614109_2_alg».proof.Proof.KValI7
import proofs.«425429_j48773648614109_2_alg».proof.Proof.OutI7
import proofs.«425429_j48773648614109_2_alg».proof.Proof.RecI7

/-!
# What one region leaves in its output array

The region's `[1,1]` output array is written once, at the last point, with the carried sum; so what the region leaves
there, read at its one index, is the sum of the edge losses over the region's 43008 edges.
-/

noncomputable section

namespace Cert.KernelIdeal.KValue

open Idealize.ShloMosaic Idealize.ShloMosaic.ValueIdx Idealize.ShloMosaic.TcCoe Idealize.SL.Sem
open Cert.KernelIdeal Cert.KernelIdeal.Gen

/-- What the region leaves in its output array, as a `[1,1]` vector of extended reals, from the admissible tables and
    the valuation at the region's entry. -/
abbrev oarr7 (adm : (pcfg7 (F := Ideal)).Adm) (Win : Dev nD → Valuation τ sig (Elt Ideal)) (c : Dev nD) :
    FVec Ideal S1x1 .f32 := outArr7 adm Win c

/-- THE REGION'S OUTPUT: when, at the region's entry, the two arrays are the embedding tables `U`, `W` with a unit
    middle axis, and the admissible tables hold the row numbers `IU`, `IV` of this region's edges, the output array's
    one entry is the sum of the edge losses over the region's 43008 edges. -/
theorem out_value7 (adm : (pcfg7 (F := Ideal)).Adm) (Win : Dev nD → Valuation τ sig (Elt Ideal)) (c : Dev nD)
    (U W : FVec Ideal Cert.Spec.Su .f32) (IU IV : Fin 344064 → Fin 1000000)
    (hU : ∀ (r : Fin 1000000) (d : Fin 64), uarr7 (vin7 Win) c (ValueIdx.ix3 r (0 : Fin 1) d) = U (ValueIdx.ix2 r d))
    (hW : ∀ (r : Fin 1000000) (d : Fin 64), varr7 (vin7 Win) c (ValueIdx.ix3 r (0 : Fin 1) d) = W (ValueIdx.ix2 r d))
    (hIU : ∀ i : Fin 43008, (IU (Cert.Spec.chunkIdx p7 i)).val = (adm.1 0 (ValueIdx.ix1 i)).toNat)
    (hIV : ∀ i : Fin 43008, (IV (Cert.Spec.chunkIdx p7 i)).val = (adm.1 1 (ValueIdx.ix1 i)).toNat) :
    oarr7 adm Win c (ValueIdx.ix2 (0 : Fin 1) (0 : Fin 1))
      = ∑ i : Fin 43008, Cert.Spec.edgeLoss U W IU IV (Cert.Spec.chunkIdx p7 i) := by
  have e : oarr7 adm Win c = accAt7 adm (vin7 Win) c ((cfg7 adm).N - 1) := out_final7 adm (vin7 Win) c
  rw [e]
  exact region_sum7 adm (vin7 Win) c U W IU IV hU hW hIU hIV

end Cert.KernelIdeal.KValue

end
-- ==== Proof.KernelTotalI.lean ====
import proofs.«425429_j48773648614109_2_alg».proof.Proof.FamilyI
import proofs.«425429_j48773648614109_2_alg».proof.Proof.HostSumI
import proofs.«425429_j48773648614109_2_alg».proof.Proof.ArgsI
import proofs.«425429_j48773648614109_2_alg».proof.Proof.OutValI0
import proofs.«425429_j48773648614109_2_alg».proof.Proof.OutValI1
import proofs.«425429_j48773648614109_2_alg».proof.Proof.OutValI2
import proofs.«425429_j48773648614109_2_alg».proof.Proof.OutValI3
import proofs.«425429_j48773648614109_2_alg».proof.Proof.OutValI4
import proofs.«425429_j48773648614109_2_alg».proof.Proof.OutValI5
import proofs.«425429_j48773648614109_2_alg».proof.Proof.OutValI6
import proofs.«425429_j48773648614109_2_alg».proof.Proof.OutValI7

/-!
# The kernel's value

Each of the eight regions leaves, in its `[1,1]` output array, the sum of the edge losses over its own 43008 edges:
region `K` reads row `K` of the cut-up edge list and the two embedding tables as the first host stretch reshaped them.
The host adds the eight outputs, from zero, in order. Cutting a sum over all 344064 edges into eight consecutive runs of
43008 changes nothing (addition on the extended reals is a commutative monoid), so the result buffer holds the total
loss of the specification.
-/

noncomputable section

namespace Cert.KernelIdeal.KValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (h : IdxOk m)

/-! ## Each region's output

The admissible tables of region `K` are row `K` of the cut-up edge list, so word `i` of its first (second) table is the
first (second) table's row number of edge `43008 K + i`. -/

/-- The first region's output: the edge losses of edges 0 … 43007. -/
theorem out_total_v12 (c : Dev nD) :
    out_v12 (outs m h) c (ValueIdx.ix2 (0 : Fin 1) (0 : Fin 1))
      = ∑ i : Fin 43008, Cert.Spec.edgeLoss (embU m c) (embV m c) (edgU m c) (edgV m c) (Cert.Spec.chunkIdx 0 i) := by
  obtain rfl := dev_eq_zero c
  have e : out_v12 (outs m h) 0 = oarr0 (adms m h p0) (V1 m) 0 := (outs_0 m h 0).trans (o0_eq m h 0)
  rw [e]
  have hadm : (adms m h p0).1 = tbl0 m 0 := rfl
  have hIU : ∀ i : Fin 43008,
      (edgU m 0 (Cert.Spec.chunkIdx p0 i)).val = ((adms m h p0).1 0 (ValueIdx.ix1 i)).toNat := fun i => by
    rw [hadm, tbl0_apply_u m 0 i]
    exact edgU_chunk m h 0 0 i
  have hIV : ∀ i : Fin 43008,
      (edgV m 0 (Cert.Spec.chunkIdx p0 i)).val = ((adms m h p0).1 1 (ValueIdx.ix1 i)).toNat := fun i => by
    rw [hadm, tbl0_apply_v m 0 i]
    exact edgV_chunk m h 0 0 i
  exact out_value0 (adms m h p0) (V1 m) 0 (embU m 0) (embV m 0) (edgU m 0) (edgV m 0)
    (fun r d => tab6_V1 m 0 r d) (fun r d => tab7_V1 m 0 r d) hIU hIV

/-- The second region's output: the edge losses of the next 43008 edges. -/
theorem out_total_v19 (c : Dev nD) :
    out_v19 (outs m h) c (ValueIdx.ix2 (0 : Fin 1) (0 : Fin 1))
      = ∑ i : Fin 43008, Cert.Spec.edgeLoss (embU m c) (embV m c) (edgU m c) (edgV m c) (Cert.Spec.chunkIdx 1 i) := by
  obtain rfl := dev_eq_zero c
  have e : out_v19 (outs m h) 0 = oarr1 (adms m h p1) (V3 m (outs m h)) 0 := (outs_1 m h 0).trans (o1_eq m h 0)
  rw [e]
  have hadm : (adms m h p1).1 = tbl1 m 0 := rfl
  have hIU : ∀ i : Fin 43008,
      (edgU m 0 (Cert.Spec.chunkIdx p1 i)).val = ((adms m h p1).1 0 (ValueIdx.ix1 i)).toNat := fun i => by
    rw [hadm, tbl1_apply_u m 0 i]
    exact edgU_chunk m h 0 1 i
  have hIV : ∀ i : Fin 43008,
      (edgV m 0 (Cert.Spec.chunkIdx p1 i)).val = ((adms m h p1).1 1 (ValueIdx.ix1 i)).toNat := fun i => by
    rw [hadm, tbl1_apply_v m 0 i]
    exact edgV_chunk m h 0 1 i
  exact out_value1 (adms m h p1) (V3 m (outs m h)) 0 (embU m 0) (embV m 0) (edgU m 0) (edgV m 0)
    (fun r d => (congrFun (tab6_V3 m (outs m h) 0) _).trans (tab6_V1 m 0 r d))
    (fun r d => (congrFun (tab7_V3 m (outs m h) 0) _).trans (tab7_V1 m 0 r d)) hIU hIV

/-- The third region's output. -/
theorem out_total_v26 (c : Dev nD) :
    out_v26 (outs m h) c (ValueIdx.ix2 (0 : Fin 1) (0 : Fin 1))
      = ∑ i : Fin 43008, Cert.Spec.edgeLoss (embU m c) (embV m c) (edgU m c) (edgV m c) (Cert.Spec.chunkIdx 2 i) := by
  obtain rfl := dev_eq_zero c
  have e : out_v26 (outs m h) 0 = oarr2 (adms m h p2) (V5 m (outs m h)) 0 := (outs_2 m h 0).trans (o2_eq m h 0)
  rw [e]
  have hadm : (adms m h p2).1 = tbl2 m 0 := rfl
  have hIU : ∀ i : Fin 43008,
      (edgU m 0 (Cert.Spec.chunkIdx p2 i)).val = ((adms m h p2).1 0 (ValueIdx.ix1 i)).toNat := fun i => by
    rw [hadm, tbl2_apply_u m 0 i]
    exact edgU_chunk m h 0 2 i
  have hIV : ∀ i : Fin 43008,
      (edgV m 0 (Cert.Spec.chunkIdx p2 i)).val = ((adms m h p2).1 1 (ValueIdx.ix1 i)).toNat := fun i => by
    rw [hadm, tbl2_apply_v m 0 i]
    exact edgV_chunk m h 0 2 i
  exact out_value2 (adms m h p2) (V5 m (outs m h)) 0 (embU m 0) (embV m 0) (edgU m 0) (edgV m 0)
    (fun r d => (congrFun (tab6_V5 m (outs m h) 0) _).trans (tab6_V1 m 0 r d))
    (fun r d => (congrFun (tab7_V5 m (outs m h) 0) _).trans (tab7_V1 m 0 r d)) hIU hIV

/-- The fourth region's output. -/
theorem out_total_v33 (c : Dev nD) :
    out_v33 (outs m h) c (ValueIdx.ix2 (0 : Fin 1) (0 : Fin 1))
      = ∑ i : Fin 43008, Cert.Spec.edgeLoss (embU m c) (embV m c) (edgU m c) (edgV m c) (Cert.Spec.chunkIdx 3 i) := by
  obtain rfl := dev_eq_zero c
  have e : out_v33 (outs m h) 0 = oarr3 (adms m h p3) (V7 m (outs m h)) 0 := (outs_3 m h 0).trans (o3_eq m h 0)
  rw [e]
  have hadm : (adms m h p3).1 = tbl3 m 0 := rfl
  have hIU : ∀ i : Fin 43008,
      (edgU m 0 (Cert.Spec.chunkIdx p3 i)).val = ((adms m h p3).1 0 (ValueIdx.ix1 i)).toNat := fun i => by
    rw [hadm, tbl3_apply_u m 0 i]
    exact edgU_chunk m h 0 3 i
  have hIV : ∀ i : Fin 43008,
      (edgV m 0 (Cert.Spec.chunkIdx p3 i)).val = ((adms m h p3).1 1 (ValueIdx.ix1 i)).toNat := fun i => by
    rw [hadm, tbl3_apply_v m 0 i]
    exact edgV_chunk m h 0 3 i
  exact out_value3 (adms m h p3) (V7 m (outs m h)) 0 (embU m 0) (embV m 0) (edgU m 0) (edgV m 0)
    (fun r d => (congrFun (tab6_V7 m (outs m h) 0) _).trans (tab6_V1 m 0 r d))
    (fun r d => (congrFun (tab7_V7 m (outs m h) 0) _).trans (tab7_V1 m 0 r d)) hIU hIV

/-- The fifth region's output. -/
theorem out_total_v40 (c : Dev nD) :
    out_v40 (outs m h) c (ValueIdx.ix2 (0 : Fin 1) (0 : Fin 1))
      = ∑ i : Fin 43008, Cert.Spec.edgeLoss (embU m c) (embV m c) (edgU m c) (edgV m c) (Cert.Spec.chunkIdx 4 i) := by
  obtain rfl := dev_eq_zero c
  have e : out_v40 (outs m h) 0 = oarr4 (adms m h p4) (V9 m (outs m h)) 0 := (outs_4 m h 0).trans (o4_eq m h 0)
  rw [e]
  have hadm : (adms m h p4).1 = tbl4 m 0 := rfl
  have hIU : ∀ i : Fin 43008,
      (edgU m 0 (Cert.Spec.chunkIdx p4 i)).val = ((adms m h p4).1 0 (ValueIdx.ix1 i)).toNat := fun i => by
    rw [hadm, tbl4_apply_u m 0 i]
    exact edgU_chunk m h 0 4 i
  have hIV : ∀ i : Fin 43008,
      (edgV m 0 (Cert.Spec.chunkIdx p4 i)).val = ((adms m h p4).1 1 (ValueIdx.ix1 i)).toNat := fun i => by
    rw [hadm, tbl4_apply_v m 0 i]
    exact edgV_chunk m h 0 4 i
  exact out_value4 (adms m h p4) (V9 m (outs m h)) 0 (embU m 0) (embV m 0) (edgU m 0) (edgV m 0)
    (fun r d => (congrFun (tab6_V9 m (outs m h) 0) _).trans (tab6_V1 m 0 r d))
    (fun r d => (congrFun (tab7_V9 m (outs m h) 0) _).trans (tab7_V1 m 0 r d)) hIU hIV

/-- The sixth region's output. -/
theorem out_total_v47 (c : Dev nD) :
    out_v47 (outs m h) c (ValueIdx.ix2 (0 : Fin 1) (0 : Fin 1))
      = ∑ i : Fin 43008, Cert.Spec.edgeLoss (embU m c) (embV m c) (edgU m c) (edgV m c) (Cert.Spec.chunkIdx 5 i) := by
  obtain rfl := dev_eq_zero c
  have e : out_v47 (outs m h) 0 = oarr5 (adms m h p5) (V11 m (outs m h)) 0 := (outs_5 m h 0).trans (o5_eq m h 0)
  rw [e]
  have hadm : (adms m h p5).1 = tbl5 m 0 := rfl
  have hIU : ∀ i : Fin 43008,
      (edgU m 0 (Cert.Spec.chunkIdx p5 i)).val = ((adms m h p5).1 0 (ValueIdx.ix1 i)).toNat := fun i => by
    rw [hadm, tbl5_apply_u m 0 i]
    exact edgU_chunk m h 0 5 i
  have hIV : ∀ i : Fin 43008,
      (edgV m 0 (Cert.Spec.chunkIdx p5 i)).val = ((adms m h p5).1 1 (ValueIdx.ix1 i)).toNat := fun i => by
    rw [hadm, tbl5_apply_v m 0 i]
    exact edgV_chunk m h 0 5 i
  exact out_value5 (adms m h p5) (V11 m (outs m h)) 0 (embU m 0) (embV m 0) (edgU m 0) (edgV m 0)
    (fun r d => (congrFun (tab6_V11 m (outs m h) 0) _).trans (tab6_V1 m 0 r d))
    (fun r d => (congrFun (tab7_V11 m (outs m h) 0) _).trans (tab7_V1 m 0 r d)) hIU hIV

/-- The seventh region's output. -/
theorem out_total_v54 (c : Dev nD) :
    out_v54 (outs m h) c (ValueIdx.ix2 (0 : Fin 1) (0 : Fin 1))
      = ∑ i : Fin 43008, Cert.Spec.edgeLoss (embU m c) (embV m c) (edgU m c) (edgV m c) (Cert.Spec.chunkIdx 6 i) := by
  obtain rfl := dev_eq_zero c
  have e : out_v54 (outs m h) 0 = oarr6 (adms m h p6) (V13 m (outs m h)) 0 := (outs_6 m h 0).trans (o6_eq m h 0)
  rw [e]
  have hadm : (adms m h p6).1 = tbl6 m 0 := rfl
  have hIU : ∀ i : Fin 43008,
      (edgU m 0 (Cert.Spec.chunkIdx p6 i)).val = ((adms m h p6).1 0 (ValueIdx.ix1 i)).toNat := fun i => by
    rw [hadm, tbl6_apply_u m 0 i]
    exact edgU_chunk m h 0 6 i
  have hIV : ∀ i : Fin 43008,
      (edgV m 0 (Cert.Spec.chunkIdx p6 i)).val = ((adms m h p6).1 1 (ValueIdx.ix1 i)).toNat := fun i => by
    rw [hadm, tbl6_apply_v m 0 i]
    exact edgV_chunk m h 0 6 i
  exact out_value6 (adms m h p6) (V13 m (outs m h)) 0 (embU m 0) (embV m 0) (edgU m 0) (edgV m 0)
    (fun r d => (congrFun (tab6_V13 m (outs m h) 0) _).trans (tab6_V1 m 0 r d))
    (fun r d => (congrFun (tab7_V13 m (outs m h) 0) _).trans (tab7_V1 m 0 r d)) hIU hIV

/-- The eighth region's output. -/
theorem out_total_v61 (c : Dev nD) :
    out_v61 (outs m h) c (ValueIdx.ix2 (0 : Fin 1) (0 : Fin 1))
      = ∑ i : Fin 43008, Cert.Spec.edgeLoss (embU m c) (embV m c) (edgU m c) (edgV m c) (Cert.Spec.chunkIdx 7 i) := by
  obtain rfl := dev_eq_zero c
  have e : out_v61 (outs m h) 0 = oarr7 (adms m h p7) (V15 m (outs m h)) 0 := (outs_7 m h 0).trans (o7_eq m h 0)
  rw [e]
  have hadm : (adms m h p7).1 = tbl7 m 0 := rfl
  have hIU : ∀ i : Fin 43008,
      (edgU m 0 (Cert.Spec.chunkIdx p7 i)).val = ((adms m h p7).1 0 (ValueIdx.ix1 i)).toNat := fun i => by
    rw [hadm, tbl7_apply_u m 0 i]
    exact edgU_chunk m h 0 7 i
  have hIV : ∀ i : Fin 43008,
      (edgV m 0 (Cert.Spec.chunkIdx p7 i)).val = ((adms m h p7).1 1 (ValueIdx.ix1 i)).toNat := fun i => by
    rw [hadm, tbl7_apply_v m 0 i]
    exact edgV_chunk m h 0 7 i
  exact out_value7 (adms m h p7) (V15 m (outs m h)) 0 (embU m 0) (embV m 0) (edgU m 0) (edgV m 0)
    (fun r d => (congrFun (tab6_V15 m (outs m h) 0) _).trans (tab6_V1 m 0 r d))
    (fun r d => (congrFun (tab7_V15 m (outs m h) 0) _).trans (tab7_V1 m 0 r d)) hIU hIV

/-! ## The result -/

/-- THE KERNEL'S VALUE: with the regions' outputs the family the run leaves, the result buffer after the last host
    stretch holds the specification's total loss of the six arguments. -/
theorem kernel_total (c : Dev nD) :
    V17 m (outs m h) c main_v63
      = fun _ => Cert.Spec.total (m ((c.tc : Thread nD τ).loc main_arg4)) (m ((c.tc : Thread nD τ).loc main_arg5))
          (Cert.Spec.edges (m ((c.tc : Thread nD τ).loc main_arg0)) (m ((c.tc : Thread nD τ).loc main_arg2)))
          (Cert.Spec.edges (m ((c.tc : Thread nD τ).loc main_arg1)) (m ((c.tc : Thread nD τ).loc main_arg3))) := by
  refine (host_total m (outs m h) c).trans (funext fun _ => ?_)
  rw [out_total_v12 m h c, out_total_v19 m h c, out_total_v26 m h c, out_total_v33 m h c,
    out_total_v40 m h c, out_total_v47 m h c, out_total_v54 m h c, out_total_v61 m h c]
  exact Cert.Spec.total_chunks (Cert.Spec.edgeLoss (embU m c) (embV m c) (edgU m c) (edgV m c))

end Cert.KernelIdeal.KValue

end
-- ==== Proof.RefRunOps.lean ====
import proofs.«425429_j48773648614109_2_alg».proof.Proof.Gen.ReferenceIdeal
import Idealize.ShloMosaic.Lib.StableHlo.Run

/-! The reference program's @main as three consecutive straight lines of host operations
    (the outlined functions' operations written at their call sites over each call's own buffers):
    the gathers and dot products, the positive edges' log-sigmoid, the negative edges' log-sigmoid
    with the closing sums. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Both gathers of each edge kind, the products and the sums along the embedding axis: the 42 operations up to the negative edges' scores. -/
abbrev opsA : List (HloOp τ sig (Elt F)) :=
  [ nullary main_c (constantI S_ 32 0#32),
    unary main_c main_v0 (broadcastInDim S16384 ![] bcast_S_S16384),
    binary main_arg0 main_v0 main_v1 (cmpi .slt),
    nullary main_c_0 (constantI S_ 32 1000000#32),
    unary main_c_0 main_v2 (broadcastInDim S16384 ![] bcast_S_S16384),
    binary main_arg0 main_v2 main_v3 addi,
    ternary main_v1 main_v3 main_arg0 main_v4 select,
    unary main_v4 main_v5 (broadcastInDim S16384x1 ![0] bcast_S16384_S16384x1_0),
    binary main_arg4 main_v5 main_v6 (fun x i => Host.gather gather_S1000000x64_S16384x1_S16384x64_1_0_n_n_0_1_164 x i),
    nullary main_c_1 (constantI S_ 32 0#32),
    unary main_c_1 main_v7 (broadcastInDim S16384 ![] bcast_S_S16384),
    binary main_arg1 main_v7 main_v8 (cmpi .slt),
    nullary main_c_2 (constantI S_ 32 1000000#32),
    unary main_c_2 main_v9 (broadcastInDim S16384 ![] bcast_S_S16384),
    binary main_arg1 main_v9 main_v10 addi,
    ternary main_v8 main_v10 main_arg1 main_v11 select,
    unary main_v11 main_v12 (broadcastInDim S16384x1 ![0] bcast_S16384_S16384x1_0),
    binary main_arg5 main_v12 main_v13 (fun x i => Host.gather gather_S1000000x64_S16384x1_S16384x64_1_0_n_n_0_1_164 x i),
    binary main_v6 main_v13 main_v14 mulf,
    nullary main_cst (constant S_ .f32 0x00000000#32),
    binary main_v14 main_cst main_v15 (fun x v => Host.reduceAdd x v reducesTo_S16384x64_S16384_d1 h_S_),
    nullary main_c_3 (constantI S_ 32 0#32),
    unary main_c_3 main_v16 (broadcastInDim S16384x20 ![] bcast_S_S16384x20),
    binary main_arg2 main_v16 main_v17 (cmpi .slt),
    nullary main_c_4 (constantI S_ 32 1000000#32),
    unary main_c_4 main_v18 (broadcastInDim S16384x20 ![] bcast_S_S16384x20),
    binary main_arg2 main_v18 main_v19 addi,
    ternary main_v17 main_v19 main_arg2 main_v20 select,
    unary main_v20 main_v21 (broadcastInDim S16384x20x1 ![0, 1] bcast_S16384x20_S16384x20x1_0_1),
    binary main_arg4 main_v21 main_v22 (fun x i => Host.gather gather_S1000000x64_S16384x20x1_S16384x20x64_2_0_n_n_0_2_164 x i),
    nullary main_c_5 (constantI S_ 32 0#32),
    unary main_c_5 main_v23 (broadcastInDim S16384x20 ![] bcast_S_S16384x20),
    binary main_arg3 main_v23 main_v24 (cmpi .slt),
    nullary main_c_6 (constantI S_ 32 1000000#32),
    unary main_c_6 main_v25 (broadcastInDim S16384x20 ![] bcast_S_S16384x20),
    binary main_arg3 main_v25 main_v26 addi,
    ternary main_v24 main_v26 main_arg3 main_v27 select,
    unary main_v27 main_v28 (broadcastInDim S16384x20x1 ![0, 1] bcast_S16384x20_S16384x20x1_0_1),
    binary main_arg5 main_v28 main_v29 (fun x i => Host.gather gather_S1000000x64_S16384x20x1_S16384x20x64_2_0_n_n_0_2_164 x i),
    binary main_v22 main_v29 main_v30 mulf,
    nullary main_cst_7 (constant S_ .f32 0x00000000#32),
    binary main_v30 main_cst_7 main_v31 (fun x v => Host.reduceAdd x v reducesTo_S16384x20x64_S16384x20_d2 h_S_) ]

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

theorem opsA_fresh : ∀ op ∈ (opsA : List (HloOp τ sig (Elt F))), op.fresh = ∅ := by
  intro _ h; (repeat (cases h with | head => rfl | tail _ h => ?_)); exact nomatch h

/-- The positive edges' log-sigmoid (its operations and its softplus's, over that call's buffers) and the negation after it: 17 operations. -/
abbrev opsB : List (HloOp τ sig (Elt F)) :=
  [ TRef.unary (.of main_v15) main_call0.v0 Host.negf,
    TRef.nullary main_call0.call0.cst (constant S_ .f32 0x00000000#32),
    TRef.unary main_call0.call0.cst main_call0.call0.v0 (broadcastInDim S16384 ![] bcast_S_S16384),
    TRef.binary main_call0.v0 main_call0.call0.v0 main_call0.call0.v1 maximumf,
    TRef.unary main_call0.call0.cst main_call0.call0.v2 (broadcastInDim S16384 ![] bcast_S_S16384),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S16384 ![] bcast_S_S16384),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_v32 main_v33 Host.negf ]

theorem opsB_sub : (opsB : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub ..⟩

theorem opsB_fresh : ∀ op ∈ (opsB : List (HloOp τ sig (Elt F))), op.fresh = ∅ := by
  intro _ h; (repeat (cases h with | head => rfl | tail _ h => ?_)); exact nomatch h

/-- The negative edges' log-sigmoid, the sum over the negatives, the difference and the sum over the batch: 21 operations. -/
abbrev opsC : List (HloOp τ sig (Elt F)) :=
  [ TRef.unary (.of main_v31) main_call1.v0 Host.negf,
    TRef.nullary main_call1.call0.cst (constant S_ .f32 0x00000000#32),
    TRef.unary main_call1.call0.cst main_call1.call0.v0 (broadcastInDim S16384x20 ![] bcast_S_S16384x20),
    TRef.binary main_call1.v0 main_call1.call0.v0 main_call1.call0.v1 maximumf,
    TRef.unary main_call1.call0.cst main_call1.call0.v2 (broadcastInDim S16384x20 ![] bcast_S_S16384x20),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S16384x20 ![] bcast_S_S16384x20),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    nullary main_cst_8 (constant S_ .f32 0x00000000#32),
    binary main_v34 main_cst_8 main_v35 (fun x v => Host.reduceAdd x v reducesTo_S16384x20_S16384_d1 h_S_),
    binary main_v33 main_v35 main_v36 subf,
    nullary main_cst_9 (constant S_ .f32 0x00000000#32),
    binary main_v36 main_cst_9 main_v37 (fun x v => Host.reduceAdd x v reducesTo_S16384_S_d0 h_S_) ]

theorem opsC_sub : (opsC : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., binary_bufs_sub .., nullary_bufs_sub .., binary_bufs_sub ..⟩

theorem opsC_fresh : ∀ op ∈ (opsC : List (HloOp τ sig (Elt F))), op.fresh = ∅ := by
  intro _ h; (repeat (cases h with | head => rfl | tail _ h => ?_)); exact nomatch h

/-- @main's 80 operations, in order. -/
abbrev ops : List (HloOp τ sig (Elt F)) := opsA ++ (opsB ++ opsC)

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨opsA_sub, List.forall_append.2 ⟨opsB_sub, opsC_sub⟩⟩

theorem ops_fresh : ∀ op ∈ (ops : List (HloOp τ sig (Elt F))), op.fresh = ∅ := by
  intro op h
  rcases List.mem_append.1 h with h | h
  · exact opsA_fresh op h
  · rcases List.mem_append.1 h with h | h
    · exact opsB_fresh op h
    · exact opsC_fresh op h

end Cert.ReferenceIdeal.RefRun

end
-- ==== Proof.RefRunTerm.lean ====
import proofs.«425429_j48773648614109_2_alg».proof.Proof.Gen.ReferenceIdeal

/-! The reference's result as a composed term of its six argument arrays, stage by stage:
    the wrapped index tables, the dot products of the gathered rows, the log-sigmoid
    (minus the softplus of the negated score) of each, the sum over the negatives, the
    per-example loss and its sum over the batch. Each stage is the pure function the
    corresponding stretch of host operations computes. -/

noncomputable section

namespace Cert.ReferenceIdeal.RefRun

open Cert.ReferenceIdeal Cert.ReferenceIdeal.Gen Idealize.ShloMosaic Idealize.SL.Sem

variable {F : FTy → Type} [FloatOps F]

/-- The scalar float zero every reduction starts from and every softplus compares with. -/
def zeroS : (⟨S_, .f32⟩ : BufTy).Contents (Elt F) := constant S_ .f32 0x00000000#32

/-- A positive-edge index table with negative entries wrapped by the table length, as a column of start indices. -/
def idxP (p : (⟨S16384, .i32⟩ : BufTy).Contents (Elt F)) : (⟨S16384x1, .i32⟩ : BufTy).Contents (Elt F) :=
  broadcastInDim S16384x1 ![0] bcast_S16384_S16384x1_0
    (select (cmpi .slt p (broadcastInDim S16384 ![] bcast_S_S16384 (constantI S_ 32 0#32)))
      (addi p (broadcastInDim S16384 ![] bcast_S_S16384 (constantI S_ 32 1000000#32))) p)

/-- A negative-edge index table, wrapped likewise. -/
def idxN (p : (⟨S16384x20, .i32⟩ : BufTy).Contents (Elt F)) : (⟨S16384x20x1, .i32⟩ : BufTy).Contents (Elt F) :=
  broadcastInDim S16384x20x1 ![0, 1] bcast_S16384x20_S16384x20x1_0_1
    (select (cmpi .slt p (broadcastInDim S16384x20 ![] bcast_S_S16384x20 (constantI S_ 32 0#32)))
      (addi p (broadcastInDim S16384x20 ![] bcast_S_S16384x20 (constantI S_ 32 1000000#32))) p)

/-- The positive edges' scores: per example the dot product of the two gathered rows. -/
def scoreP (u v : (⟨S1000000x64, .f32⟩ : BufTy).Contents (Elt F)) (pu pv : (⟨S16384, .i32⟩ : BufTy).Contents (Elt F)) : (⟨S16384, .f32⟩ : BufTy).Contents (Elt F) :=
  Host.reduceAdd
    (mulf (Host.gather gather_S1000000x64_S16384x1_S16384x64_1_0_n_n_0_1_164 u (idxP pu))
      (Host.gather gather_S1000000x64_S16384x1_S16384x64_1_0_n_n_0_1_164 v (idxP pv)))
    zeroS reducesTo_S16384x64_S16384_d1 h_S_

/-- The negative edges' scores. -/
def scoreN (u v : (⟨S1000000x64, .f32⟩ : BufTy).Contents (Elt F)) (nu nv : (⟨S16384x20, .i32⟩ : BufTy).Contents (Elt F)) : (⟨S16384x20, .f32⟩ : BufTy).Contents (Elt F) :=
  Host.reduceAdd
    (mulf (Host.gather gather_S1000000x64_S16384x20x1_S16384x20x64_2_0_n_n_0_2_164 u (idxN nu))
      (Host.gather gather_S1000000x64_S16384x20x1_S16384x20x64_2_0_n_n_0_2_164 v (idxN nv)))
    zeroS reducesTo_S16384x20x64_S16384x20_d2 h_S_

/-- The zero vector a softplus over the batch compares with. -/
def zeroP : (⟨S16384, .f32⟩ : BufTy).Contents (Elt F) := broadcastInDim S16384 ![] bcast_S_S16384 zeroS
/-- The zero array a softplus over the negatives compares with. -/
def zeroN : (⟨S16384x20, .f32⟩ : BufTy).Contents (Elt F) := broadcastInDim S16384x20 ![] bcast_S_S16384x20 zeroS

/-- Softplus over the batch: `max x 0 + log1p (exp (-|x - 0|))`, and `x + 0` where `x - 0` is unordered with itself. -/
def softplusP (x : (⟨S16384, .f32⟩ : BufTy).Contents (Elt F)) : (⟨S16384, .f32⟩ : BufTy).Contents (Elt F) :=
  select (cmpf .une (subf x zeroP) (subf x zeroP)) (addf x zeroP)
    (addf (maximumf x zeroP) (Host.log1p (Host.exp (Host.negf (Host.absf (subf x zeroP))))))

/-- Softplus over the negatives. -/
def softplusN (x : (⟨S16384x20, .f32⟩ : BufTy).Contents (Elt F)) : (⟨S16384x20, .f32⟩ : BufTy).Contents (Elt F) :=
  select (cmpf .une (subf x zeroN) (subf x zeroN)) (addf x zeroN)
    (addf (maximumf x zeroN) (Host.log1p (Host.exp (Host.negf (Host.absf (subf x zeroN))))))

/-- Log-sigmoid over the batch: `-(softplus (-x))`. -/
def lsP (x : (⟨S16384, .f32⟩ : BufTy).Contents (Elt F)) : (⟨S16384, .f32⟩ : BufTy).Contents (Elt F) := Host.negf (softplusP (Host.negf x))
/-- Log-sigmoid over the negatives. -/
def lsN (x : (⟨S16384x20, .f32⟩ : BufTy).Contents (Elt F)) : (⟨S16384x20, .f32⟩ : BufTy).Contents (Elt F) := Host.negf (softplusN (Host.negf x))

/-- The sum over each example's negatives. -/
def sumN (y : (⟨S16384x20, .f32⟩ : BufTy).Contents (Elt F)) : (⟨S16384, .f32⟩ : BufTy).Contents (Elt F) := Host.reduceAdd y zeroS reducesTo_S16384x20_S16384_d1 h_S_

/-- The per-example loss from the two score arrays: `-(logσ sP) - Σ_k logσ sN`. -/
def lossV (sP : (⟨S16384, .f32⟩ : BufTy).Contents (Elt F)) (sN : (⟨S16384x20, .f32⟩ : BufTy).Contents (Elt F)) : (⟨S16384, .f32⟩ : BufTy).Contents (Elt F) :=
  subf (Host.negf (lsP sP)) (sumN (lsN sN))

/-- The sum over the batch. -/
def totalV (l : (⟨S16384, .f32⟩ : BufTy).Contents (Elt F)) : (⟨S_, .f32⟩ : BufTy).Contents (Elt F) := Host.reduceAdd l zeroS reducesTo_S16384_S_d0 h_S_

/-- The reference's result as a term of its arguments `pos_u, pos_v, neg_u, neg_v, u_emb, v_emb`. -/
def refOf (pu pv : (⟨S16384, .i32⟩ : BufTy).Contents (Elt F)) (nu nv : (⟨S16384x20, .i32⟩ : BufTy).Contents (Elt F)) (u v : (⟨S1000000x64, .f32⟩ : BufTy).Contents (Elt F)) : (⟨S_, .f32⟩ : BufTy).Contents (Elt F) :=
  totalV (lossV (scoreP u v pu pv) (scoreN u v nu nv))

/-- The reference's result on device `c` from launch memory `m`. -/
def refTerm (m : (ℓ : Loc nD τ sig) → Buf (Elt F) ℓ) (c : Dev nD) : (⟨S_, .f32⟩ : BufTy).Contents (Elt F) :=
  refOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

end Cert.ReferenceIdeal.RefRun

end
-- ==== Proof.RefRun.lean ====
import proofs.«425429_j48773648614109_2_alg».proof.Proof.RefRunOps
import proofs.«425429_j48773648614109_2_alg».proof.Proof.RefRunTerm
import Idealize.ShloMosaic.Lib.Pipeline.Frame

/-! The reference's run: every weakly fair execution of @main terminates with the result buffer at
    the composed term of the six arguments (`refTerm`) and the arguments unchanged. The fold of the
    80 operations over the launch contents is read stretch by stretch: what the first stretch leaves
    in the two score buffers, what the second makes of the positive scores, what the third makes of
    both. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## First stretch: the scores -/

/-- The positive scores' buffer after the first stretch. -/
theorem A_v15 (V : Valuation τ sig (Elt F)) :
    after opsA V (main_v15 : DevRef τ sig) = scoreP (V (main_arg4 : DevRef τ sig)) (V (main_arg5 : DevRef τ sig)) (V (main_arg0 : DevRef τ sig)) (V (main_arg1 : DevRef τ sig)) := by
  after_results_simp <;> rfl

/-- The negative scores' buffer after the first stretch. -/
theorem A_v31 (V : Valuation τ sig (Elt F)) :
    after opsA V (main_v31 : DevRef τ sig) = scoreN (V (main_arg4 : DevRef τ sig)) (V (main_arg5 : DevRef τ sig)) (V (main_arg2 : DevRef τ sig)) (V (main_arg3 : DevRef τ sig)) := by
  after_results_simp <;> rfl

/-- The first stretch writes no argument. -/
theorem A_args (V : Valuation τ sig (Elt F)) :
    after opsA V (main_arg0 : DevRef τ sig) = V (main_arg0 : DevRef τ sig)
      ∧ after opsA V (main_arg1 : DevRef τ sig) = V (main_arg1 : DevRef τ sig)
      ∧ after opsA V (main_arg2 : DevRef τ sig) = V (main_arg2 : DevRef τ sig)
      ∧ after opsA V (main_arg3 : DevRef τ sig) = V (main_arg3 : DevRef τ sig)
      ∧ after opsA V (main_arg4 : DevRef τ sig) = V (main_arg4 : DevRef τ sig)
      ∧ after opsA V (main_arg5 : DevRef τ sig) = V (main_arg5 : DevRef τ sig) := by
  refine ⟨?_, ?_, ?_, ?_, ?_, ?_⟩ <;> after_results_simp

/-! ## Second stretch: the positive edges' log-sigmoid, negated -/

/-- The negated log-sigmoid's buffer after the second stretch, from the positive scores before it. -/
theorem B_v33 (W : Valuation τ sig (Elt F)) :
    after opsB W (main_v33 : DevRef τ sig) = Host.negf (lsP (W (main_v15 : DevRef τ sig))) := by
  after_results_simp <;> rfl

/-- The second stretch leaves the negative scores alone. -/
theorem B_v31 (W : Valuation τ sig (Elt F)) :
    after opsB W (main_v31 : DevRef τ sig) = W (main_v31 : DevRef τ sig) := by
  after_results_simp

/-- The second stretch writes no argument. -/
theorem B_args (W : Valuation τ sig (Elt F)) :
    after opsB W (main_arg0 : DevRef τ sig) = W (main_arg0 : DevRef τ sig)
      ∧ after opsB W (main_arg1 : DevRef τ sig) = W (main_arg1 : DevRef τ sig)
      ∧ after opsB W (main_arg2 : DevRef τ sig) = W (main_arg2 : DevRef τ sig)
      ∧ after opsB W (main_arg3 : DevRef τ sig) = W (main_arg3 : DevRef τ sig)
      ∧ after opsB W (main_arg4 : DevRef τ sig) = W (main_arg4 : DevRef τ sig)
      ∧ after opsB W (main_arg5 : DevRef τ sig) = W (main_arg5 : DevRef τ sig) := by
  refine ⟨?_, ?_, ?_, ?_, ?_, ?_⟩ <;> after_results_simp

/-! ## Third stretch: the negative edges' log-sigmoid and the sums -/

/-- The result buffer after the third stretch, from the two buffers it reads. -/
theorem C_v37 (W : Valuation τ sig (Elt F)) :
    after opsC W (main_v37 : DevRef τ sig)
      = totalV (subf (W (main_v33 : DevRef τ sig)) (sumN (lsN (W (main_v31 : DevRef τ sig))))) := by
  after_results_simp <;> rfl

/-- The third stretch writes no argument. -/
theorem C_args (W : Valuation τ sig (Elt F)) :
    after opsC W (main_arg0 : DevRef τ sig) = W (main_arg0 : DevRef τ sig)
      ∧ after opsC W (main_arg1 : DevRef τ sig) = W (main_arg1 : DevRef τ sig)
      ∧ after opsC W (main_arg2 : DevRef τ sig) = W (main_arg2 : DevRef τ sig)
      ∧ after opsC W (main_arg3 : DevRef τ sig) = W (main_arg3 : DevRef τ sig)
      ∧ after opsC W (main_arg4 : DevRef τ sig) = W (main_arg4 : DevRef τ sig)
      ∧ after opsC W (main_arg5 : DevRef τ sig) = W (main_arg5 : DevRef τ sig) := by
  refine ⟨?_, ?_, ?_, ?_, ?_, ?_⟩ <;> after_results_simp

/-! ## The whole line -/

/-- The result buffer after all 80 operations: the composed term of the arguments. -/
theorem ops_v37 (V : Valuation τ sig (Elt F)) :
    after (opsA ++ (opsB ++ opsC)) V (main_v37 : DevRef τ sig)
      = refOf (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [StableHlo.after_append, StableHlo.after_append, C_v37, B_v33, B_v31, A_v15, A_v31]
  rfl

/-- No operation writes an argument. -/
theorem ops_args (V : Valuation τ sig (Elt F)) :
    after (opsA ++ (opsB ++ opsC)) V (main_arg0 : DevRef τ sig) = V (main_arg0 : DevRef τ sig)
      ∧ after (opsA ++ (opsB ++ opsC)) V (main_arg1 : DevRef τ sig) = V (main_arg1 : DevRef τ sig)
      ∧ after (opsA ++ (opsB ++ opsC)) V (main_arg2 : DevRef τ sig) = V (main_arg2 : DevRef τ sig)
      ∧ after (opsA ++ (opsB ++ opsC)) V (main_arg3 : DevRef τ sig) = V (main_arg3 : DevRef τ sig)
      ∧ after (opsA ++ (opsB ++ opsC)) V (main_arg4 : DevRef τ sig) = V (main_arg4 : DevRef τ sig)
      ∧ after (opsA ++ (opsB ++ opsC)) V (main_arg5 : DevRef τ sig) = V (main_arg5 : DevRef τ sig) := by
  obtain ⟨a0, a1, a2, a3, a4, a5⟩ := A_args V
  obtain ⟨b0, b1, b2, b3, b4, b5⟩ := B_args (after opsA V)
  obtain ⟨c0, c1, c2, c3, c4, c5⟩ := C_args (after opsB (after opsA V))
  simp only [StableHlo.after_append]
  exact ⟨c0.trans (b0.trans a0), c1.trans (b1.trans a1), c2.trans (b2.trans a2), c3.trans (b3.trans a3),
    c4.trans (b4.trans a4), c5.trans (b5.trans a5)⟩

/-- On every device, for any float values, from any memory with zero counters: every weakly fair execution of
    @main terminates with the result at `refTerm` of the launch memory and the six arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v37) = refTerm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      have ha := ops_args (launchContents m c)
      ⟨(h c main_v37).trans (ops_v37 (launchContents m c)),
        (h c main_arg0).trans ha.1, (h c main_arg1).trans ha.2.1, (h c main_arg2).trans ha.2.2.1,
        (h c main_arg3).trans ha.2.2.2.1, (h c main_arg4).trans ha.2.2.2.2.1, (h c main_arg5).trans ha.2.2.2.2.2⟩)
    (run_seq scopedRefs_eq scopedSems_eq defs main (fun _ => ops) main_eq (fun _ => ops_sub) m ρ (fun _ => ops_fresh))

/-- The same run with the result dropped: @main terminates and leaves its six arguments as they were. -/
theorem frame (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => (h c).2) (run m ρ)

end Cert.ReferenceIdeal.RefRun

end
-- ==== Proof.RefValue.lean ====
/-
  The reference's value. Its result term (RefRunTerm.lean: the wrapped index tables, the dot products
  of the gathered rows, the log-sigmoid of each score, the sum over each example's negatives, the
  per-example loss, the sum over the batch) is read at the ideal instance, one stage at a time at one
  index, and shown to be the total loss of Spec.lean over the edge list "positive entries, then
  negative entries row by row":
  * an index below a million is not negative, so the wrap of negative indices leaves it alone, and
    read signed and clamped into the table it is the row it names;
  * a gather of rows reads, at (example, column), the table at (that row, column), so the reduced
    product of two gathered rows is the dot product of the two rows;
  * the log-sigmoid of a score is minus its loss: no extended real differs from itself, so the guard
    of the softplus never fires;
  * finite tables make every loss a real number, for which minus minus the positive loss, less the
    sum from zero of minus the negative losses, summed over the examples, is the sum over all edges.
-/
import proofs.«425429_j48773648614109_2_alg».proof.Proof.RefRunTerm
import proofs.«425429_j48773648614109_2_alg».proof.Proof.Spec
import Idealize.ShloMosaic.Lib.ValueIdx
import Idealize.ShloMosaic.Lib.ValueIdxRank1
import Idealize.ShloMosaic.PureOps.Ideal.Laws
import Idealize.ShloMosaic.Lib.DynamicIndex
import Idealize.ShloMosaic.Lib.StableHlo.Predicate

noncomputable section

namespace Cert.ReferenceIdeal.RefVal

open Cert.ReferenceIdeal Cert.ReferenceIdeal.Gen Cert.ReferenceIdeal.RefRun Idealize.ShloMosaic Idealize.SL.Sem
open Idealize.ShloMosaic.ValueIdx
open scoped BigOperators

/-! ## Index tables -/

/-- A vector as a column reads, at (b, z), the vector at b. -/
theorem bcastP_apply {α : Type} (v : S16384.Idx → α) (b : Fin 16384) (z : Fin 1) :
    broadcastInDim S16384x1 ![0] bcast_S16384_S16384x1_0 v (ix2 b z) = v (ix1 b) := by
  simp only [broadcastInDim]
  congr 1
  funext a
  obtain rfl : a = 0 := Subsingleton.elim _ _
  apply Fin.ext
  split
  · next h1 => exact absurd h1 (by decide)
  · rfl

/-- A matrix as a stack of columns reads, at (b, k, z), the matrix at (b, k). -/
theorem bcastN_apply {α : Type} (v : S16384x20.Idx → α) (b : Fin 16384) (k : Fin 20) (z : Fin 1) :
    broadcastInDim S16384x20x1 ![0, 1] bcast_S16384x20_S16384x20x1_0_1 v (ix3 b k z) = v (ix2 b k) := by
  simp only [broadcastInDim]
  congr 1
  funext a
  apply Fin.ext
  match a with
  | ⟨0, _⟩ =>
    split
    · next h1 => change (16384 : Nat) = 1 at h1; omega
    · rfl
  | ⟨1, _⟩ =>
    split
    · next h1 => change (20 : Nat) = 1 at h1; omega
    · rfl

/-- The wrap of a negative index leaves an index below a million alone. -/
theorem wrap_apply {s : Shape} (h : S_.BroadcastsInDim s ![]) (p : IVec s 32) (j : s.Idx)
    (hp : (p j).toNat < 1000000) :
    select (cmpi .slt p (broadcastInDim s ![] h (constantI S_ 32 0#32)))
      (addi p (broadcastInDim s ![] h (constantI S_ 32 1000000#32))) p j = p j := by
  have h0 : broadcastInDim s ![] h (constantI S_ 32 0#32) = constantI s 32 0#32 := by
    funext i; rfl
  rw [h0]
  refine select_slt_zero_of_nonneg p _ p j ?_
  rw [StableHlo.Predicate.toInt_eq_toNat_of_lt (by omega)]
  omega

theorem idxP_apply (p : IVec S16384 32) (hp : ∀ j, (p j).toNat < 1000000) (b : Fin 16384) (z : Fin 1) :
    idxP (F := Ideal) p (ix2 b z) = p (ix1 b) := by
  unfold idxP
  rw [bcastP_apply]
  exact wrap_apply _ p (ix1 b) (hp _)

theorem idxN_apply (p : IVec S16384x20 32) (hp : ∀ j, (p j).toNat < 1000000) (b : Fin 16384) (k : Fin 20) (z : Fin 1) :
    idxN (F := Ideal) p (ix3 b k z) = p (ix2 b k) := by
  unfold idxN
  rw [bcastN_apply]
  exact wrap_apply _ p (ix2 b k) (hp _)

/-! ## The gathers at an index -/

theorem gP_op0 {w : Nat} (idx : IVec S16384x1 w) (b : Fin 16384) (c : Fin 64) :
    (gather_S1000000x64_S16384x1_S16384x64_1_0_n_n_0_1_164.operandIdx (ix2 b c) idx 0).val = min (idx (ix2 b 0)).toInt.toNat 999999 := by
  show gather_S1000000x64_S16384x1_S16384x64_1_0_n_n_0_1_164.start (ix2 b c) idx 0 + gather_S1000000x64_S16384x1_S16384x64_1_0_n_n_0_1_164.batchCoord (ix2 b c) 0 + gather_S1000000x64_S16384x1_S16384x64_1_0_n_n_0_1_164.offCoord (ix2 b c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S1000000x64_S16384x1_S16384x64_1_0_n_n_0_1_164.startIndexMap from List.mem_singleton.mpr rfl)]
  have hsi : gather_S1000000x64_S16384x1_S16384x64_1_0_n_n_0_1_164.siIdx (ix2 b c)
      ⟨List.idxOf (0 : Fin 2) gather_S1000000x64_S16384x1_S16384x64_1_0_n_n_0_1_164.startIndexMap, List.idxOf_lt_length_iff.2 (List.mem_singleton.mpr rfl)⟩ = ix2 b 0 := by
    funext e; refine Fin.ext ?_
    match e with
    | ⟨0, _⟩ => rfl
    | ⟨1, _⟩ => rfl
  rw [hsi]
  rfl

theorem gP_op1 {w : Nat} (idx : IVec S16384x1 w) (b : Fin 16384) (c : Fin 64) :
    (gather_S1000000x64_S16384x1_S16384x64_1_0_n_n_0_1_164.operandIdx (ix2 b c) idx 1).val = c.val := by
  show gather_S1000000x64_S16384x1_S16384x64_1_0_n_n_0_1_164.start (ix2 b c) idx 1 + gather_S1000000x64_S16384x1_S16384x64_1_0_n_n_0_1_164.batchCoord (ix2 b c) 1 + gather_S1000000x64_S16384x1_S16384x64_1_0_n_n_0_1_164.offCoord (ix2 b c) 1 = _
  rw [GatherDims.batchCoord_eq_zero _ _ _ List.not_mem_nil, Nat.add_zero]
  have hs : gather_S1000000x64_S16384x1_S16384x64_1_0_n_n_0_1_164.start (ix2 b c) idx 1 = 0 := by
    unfold GatherDims.start
    rw [dif_neg (by decide)]
  rw [hs, Nat.zero_add]
  rfl

theorem gN_op0 {w : Nat} (idx : IVec S16384x20x1 w) (b : Fin 16384) (k : Fin 20) (c : Fin 64) :
    (gather_S1000000x64_S16384x20x1_S16384x20x64_2_0_n_n_0_2_164.operandIdx (ix3 b k c) idx 0).val = min (idx (ix3 b k 0)).toInt.toNat 999999 := by
  show gather_S1000000x64_S16384x20x1_S16384x20x64_2_0_n_n_0_2_164.start (ix3 b k c) idx 0 + gather_S1000000x64_S16384x20x1_S16384x20x64_2_0_n_n_0_2_164.batchCoord (ix3 b k c) 0 + gather_S1000000x64_S16384x20x1_S16384x20x64_2_0_n_n_0_2_164.offCoord (ix3 b k c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S1000000x64_S16384x20x1_S16384x20x64_2_0_n_n_0_2_164.startIndexMap from List.mem_singleton.mpr rfl)]
  have hsi : gather_S1000000x64_S16384x20x1_S16384x20x64_2_0_n_n_0_2_164.siIdx (ix3 b k c)
      ⟨List.idxOf (0 : Fin 2) gather_S1000000x64_S16384x20x1_S16384x20x64_2_0_n_n_0_2_164.startIndexMap, List.idxOf_lt_length_iff.2 (List.mem_singleton.mpr rfl)⟩ = ix3 b k 0 := by
    funext e; refine Fin.ext ?_
    match e with
    | ⟨0, _⟩ => rfl
    | ⟨1, _⟩ => rfl
    | ⟨2, _⟩ => rfl
  rw [hsi]
  rfl

theorem gN_op1 {w : Nat} (idx : IVec S16384x20x1 w) (b : Fin 16384) (k : Fin 20) (c : Fin 64) :
    (gather_S1000000x64_S16384x20x1_S16384x20x64_2_0_n_n_0_2_164.operandIdx (ix3 b k c) idx 1).val = c.val := by
  show gather_S1000000x64_S16384x20x1_S16384x20x64_2_0_n_n_0_2_164.start (ix3 b k c) idx 1 + gather_S1000000x64_S16384x20x1_S16384x20x64_2_0_n_n_0_2_164.batchCoord (ix3 b k c) 1 + gather_S1000000x64_S16384x20x1_S16384x20x64_2_0_n_n_0_2_164.offCoord (ix3 b k c) 1 = _
  rw [GatherDims.batchCoord_eq_zero _ _ _ List.not_mem_nil, Nat.add_zero]
  have hs : gather_S1000000x64_S16384x20x1_S16384x20x64_2_0_n_n_0_2_164.start (ix3 b k c) idx 1 = 0 := by
    unfold GatherDims.start
    rw [dif_neg (by decide)]
  rw [hs, Nat.zero_add]
  rfl

/-- Row gather by a column of start indices, read at (b, c): the table at the start index of b (read
    signed, clamped into the table) and column c. -/
theorem gatherP_apply {α : Type} {w : Nat} (x : S1000000x64.Idx → α) (idx : IVec S16384x1 w) (b : Fin 16384) (c : Fin 64) :
    Host.gather gather_S1000000x64_S16384x1_S16384x64_1_0_n_n_0_1_164 x idx (ix2 b c) = x (ix2 ⟨min (idx (ix2 b 0)).toInt.toNat 999999, by omega⟩ c) := by
  unfold Host.gather
  congr 1
  funext a
  refine Fin.ext ?_
  match a with
  | ⟨0, _⟩ => exact gP_op0 idx b c
  | ⟨1, _⟩ => exact gP_op1 idx b c

/-- Row gather by a matrix of start indices, read at (b, k, c). -/
theorem gatherN_apply {α : Type} {w : Nat} (x : S1000000x64.Idx → α) (idx : IVec S16384x20x1 w) (b : Fin 16384) (k : Fin 20)
    (c : Fin 64) :
    Host.gather gather_S1000000x64_S16384x20x1_S16384x20x64_2_0_n_n_0_2_164 x idx (ix3 b k c) = x (ix2 ⟨min (idx (ix3 b k 0)).toInt.toNat 999999, by omega⟩ c) := by
  unfold Host.gather
  congr 1
  funext a
  refine Fin.ext ?_
  match a with
  | ⟨0, _⟩ => exact gN_op0 idx b k c
  | ⟨1, _⟩ => exact gN_op1 idx b k c

/-- A word below a million, read signed and clamped into the table, is the row it names. -/
theorem clamp_idx (w : BitVec 32) (h : w.toNat < 1000000) :
    (⟨min w.toInt.toNat 999999, by omega⟩ : Fin 1000000) = Spec.idxOf w := by
  apply Fin.ext
  rw [Spec.idxOf_val h]
  show min w.toInt.toNat 999999 = w.toNat
  rw [StableHlo.Predicate.toInt_eq_toNat_of_lt (by omega)]
  omega

/-- The same, for a word known through an equation. -/
theorem clamp_idx_of_eq (w w' : BitVec 32) (e : w = w') (h : w'.toNat < 1000000)
    (pf : min w.toInt.toNat 999999 < 1000000) :
    (⟨min w.toInt.toNat 999999, pf⟩ : Fin 1000000) = Spec.idxOf w' := by
  subst e
  exact clamp_idx w h

/-! ## Scores -/

theorem redP : S16384x64.Reduces [1] S16384 := by decide
theorem redN : S16384x20x64.Reduces [2] S16384x20 := by decide
theorem redS : S16384x20.Reduces [1] S16384 := by decide

theorem zeroS_first : zeroS (F := Ideal) (Shape.Idx.first h_S_) = 0 := by
  show Ideal.ofBits .f32 0x00000000#32 = 0
  exact Ideal.ofBits_zero_f32

theorem scoreP_apply (u v : FVec Ideal S1000000x64 .f32) (pu pv : IVec S16384 32)
    (hpu : ∀ j, (pu j).toNat < 1000000) (hpv : ∀ j, (pv j).toNat < 1000000) (b : Fin 16384) :
    scoreP (F := Ideal) u v pu pv (ix1 b) = Spec.rowDot u v (Spec.idxOf (pu (ix1 b))) (Spec.idxOf (pv (ix1 b))) := by
  unfold scoreP Host.reduceAdd
  rw [Ideal.hostReduceAdd_def, Ideal.hostReduceAdd_single _ redP, zeroS_first, zero_add]
  unfold Spec.rowDot
  show (∑ d : Fin 64, _) = _
  refine Finset.sum_congr rfl fun d _ => ?_
  have hl : redP.lift (ix1 b) d = ix2 b d := by
    funext a
    match a with
    | ⟨0, _⟩ => rfl
    | ⟨1, _⟩ => rfl
  rw [hl, mulf_apply, gatherP_apply, gatherP_apply,
    clamp_idx_of_eq _ _ (idxP_apply pu hpu b 0) (hpu _), clamp_idx_of_eq _ _ (idxP_apply pv hpv b 0) (hpv _)]

theorem scoreN_apply (u v : FVec Ideal S1000000x64 .f32) (nu nv : IVec S16384x20 32)
    (hnu : ∀ j, (nu j).toNat < 1000000) (hnv : ∀ j, (nv j).toNat < 1000000) (b : Fin 16384) (k : Fin 20) :
    scoreN (F := Ideal) u v nu nv (ix2 b k) = Spec.rowDot u v (Spec.idxOf (nu (ix2 b k))) (Spec.idxOf (nv (ix2 b k))) := by
  unfold scoreN Host.reduceAdd
  rw [Ideal.hostReduceAdd_def, Ideal.hostReduceAdd_single _ redN, zeroS_first, zero_add]
  unfold Spec.rowDot
  show (∑ d : Fin 64, _) = _
  refine Finset.sum_congr rfl fun d _ => ?_
  have hl : redN.lift (ix2 b k) d = ix3 b k d := by
    funext a
    match a with
    | ⟨0, _⟩ => rfl
    | ⟨1, _⟩ => rfl
    | ⟨2, _⟩ => rfl
  rw [hl, mulf_apply, gatherN_apply, gatherN_apply,
    clamp_idx_of_eq _ _ (idxN_apply nu hnu b k 0) (hnu _), clamp_idx_of_eq _ _ (idxN_apply nv hnv b k 0) (hnv _)]

/-! ## The log-sigmoid, pointwise -/

theorem zeroP_apply (j : S16384.Idx) : zeroP (F := Ideal) j = 0 := by
  unfold zeroP
  rw [StableHlo.Predicate.bcast_scalar _ h_S_]
  exact zeroS_first

theorem zeroN_apply (j : S16384x20.Idx) : zeroN (F := Ideal) j = 0 := by
  unfold zeroN
  rw [StableHlo.Predicate.bcast_scalar _ h_S_]
  exact zeroS_first

/-- The outlined log-sigmoid over the batch is minus the loss of the score, entry by entry: the
    "differs from itself" guard never fires, and what is left is the softplus of minus the score. -/
theorem lsP_apply (x : FVec Ideal S16384 .f32) (j : S16384.Idx) : lsP (F := Ideal) x j = -(Spec.lossE (x j)) := by
  unfold lsP softplusP
  show -(Scalar.select (Ideal.cmp .une (-(x j) - zeroP (F := Ideal) j) (-(x j) - zeroP (F := Ideal) j))
    (-(x j) + zeroP (F := Ideal) j)
    (max (-(x j)) (zeroP (F := Ideal) j)
      + Ideal.log1p (Ideal.exp (-(max (-(x j) - zeroP (F := Ideal) j) (-(-(x j) - zeroP (F := Ideal) j))))))) = _
  rw [zeroP_apply, Spec.cmp_une_self, select_zero, Spec.lossE_softplus]

theorem lsN_apply (x : FVec Ideal S16384x20 .f32) (j : S16384x20.Idx) : lsN (F := Ideal) x j = -(Spec.lossE (x j)) := by
  unfold lsN softplusN
  show -(Scalar.select (Ideal.cmp .une (-(x j) - zeroN (F := Ideal) j) (-(x j) - zeroN (F := Ideal) j))
    (-(x j) + zeroN (F := Ideal) j)
    (max (-(x j)) (zeroN (F := Ideal) j)
      + Ideal.log1p (Ideal.exp (-(max (-(x j) - zeroN (F := Ideal) j) (-(-(x j) - zeroN (F := Ideal) j))))))) = _
  rw [zeroN_apply, Spec.cmp_une_self, select_zero, Spec.lossE_softplus]

/-! ## The sums -/

theorem sumN_apply (y : FVec Ideal S16384x20 .f32) (b : Fin 16384) :
    sumN (F := Ideal) y (ix1 b) = 0 + ∑ k : Fin 20, y (ix2 b k) := by
  unfold sumN Host.reduceAdd
  rw [Ideal.hostReduceAdd_def, Ideal.hostReduceAdd_single _ redS, zeroS_first]
  refine congrArg (fun t => (0 : EReal) + t) ?_
  show (∑ k : Fin 20, _) = _
  refine Finset.sum_congr rfl fun k _ => ?_
  refine congrArg y ?_
  funext a
  match a with
  | ⟨0, _⟩ => rfl
  | ⟨1, _⟩ => rfl

theorem totalV_apply (l : FVec Ideal S16384 .f32) (j : S_.Idx) :
    totalV (F := Ideal) l j = 0 + ∑ b : Fin 16384, l (ix1 b) := by
  unfold totalV Host.reduceAdd
  rw [Ideal.hostReduceAdd_def, Ideal.hostReduceAdd_total _ (fun b => b.elim0), zeroS_first]
  refine congrArg (fun t => (0 : EReal) + t) ?_
  exact Fintype.sum_equiv idxEquiv1 _ _ (fun i => by rw [eq_ix1 i]; rfl)

/-! ## The reference's value -/

/-- Under the index range and finite tables, the reference's result is the total loss over the edge
    list "positive entries, then negative entries row by row". -/
theorem refOf_eq (pu pv : IVec S16384 32) (nu nv : IVec S16384x20 32) (u v : FVec Ideal S1000000x64 .f32)
    (hpu : ∀ j, (pu j).toNat < 1000000) (hpv : ∀ j, (pv j).toNat < 1000000)
    (hnu : ∀ j, (nu j).toNat < 1000000) (hnv : ∀ j, (nv j).toNat < 1000000)
    (hu : ∀ j, ∃ r : ℝ, u j = (r : EReal)) (hv : ∀ j, ∃ r : ℝ, v j = (r : EReal)) :
    refOf (F := Ideal) pu pv nu nv u v = fun _ => Spec.total u v (Spec.edges pu nu) (Spec.edges pv nv) := by
  funext j
  unfold refOf
  rw [totalV_apply]
  unfold Spec.total
  rw [← Spec.ref_total _ (Spec.edgeLoss_real u v hu hv _ _)]
  refine congrArg (fun t => (0 : EReal) + t) ?_
  refine Finset.sum_congr rfl fun b _ => ?_
  have hP : lsP (F := Ideal) (scoreP u v pu pv) (ix1 b)
      = -(Spec.edgeLoss u v (Spec.edges pu nu) (Spec.edges pv nv) (Spec.posIdx b)) := by
    rw [lsP_apply, scoreP_apply u v pu pv hpu hpv]
    unfold Spec.edgeLoss Spec.edges
    rw [Spec.edgeIdx_pos, Spec.edgeIdx_pos]
  have hN : ∀ k : Fin 20, lsN (F := Ideal) (scoreN u v nu nv) (ix2 b k)
      = -(Spec.edgeLoss u v (Spec.edges pu nu) (Spec.edges pv nv) (Spec.negIdx b k)) := by
    intro k
    rw [lsN_apply, scoreN_apply u v nu nv hnu hnv]
    unfold Spec.edgeLoss Spec.edges
    rw [Spec.edgeIdx_neg, Spec.edgeIdx_neg]
  unfold lossV
  show -(lsP (F := Ideal) (scoreP u v pu pv) (ix1 b)) - sumN (F := Ideal) (lsN (scoreN u v nu nv)) (ix1 b) = _
  rw [hP, sumN_apply, Finset.sum_congr rfl (fun k _ => hN k)]

/-- The same at a memory: the reference's result term on device c, under the index range and finite
    tables stated of the six argument arrays. -/
theorem refTerm_eq_of (m : (ℓ : Loc nD τ sig) → Buf (Elt Ideal) ℓ) (c : Dev nD)
    (h0 : ∀ j, ((m ((c.tc : Thread nD τ).loc main_arg0) : IVec S16384 32) j).toNat < 1000000)
    (h1 : ∀ j, ((m ((c.tc : Thread nD τ).loc main_arg1) : IVec S16384 32) j).toNat < 1000000)
    (h2 : ∀ j, ((m ((c.tc : Thread nD τ).loc main_arg2) : IVec S16384x20 32) j).toNat < 1000000)
    (h3 : ∀ j, ((m ((c.tc : Thread nD τ).loc main_arg3) : IVec S16384x20 32) j).toNat < 1000000)
    (h4 : ∀ j, ∃ r : ℝ, (m ((c.tc : Thread nD τ).loc main_arg4) : FVec Ideal S1000000x64 .f32) j = (r : EReal))
    (h5 : ∀ j, ∃ r : ℝ, (m ((c.tc : Thread nD τ).loc main_arg5) : FVec Ideal S1000000x64 .f32) j = (r : EReal)) :
    refTerm (F := Ideal) m c = fun _ =>
      Spec.total (m ((c.tc : Thread nD τ).loc main_arg4)) (m ((c.tc : Thread nD τ).loc main_arg5))
        (Spec.edges (m ((c.tc : Thread nD τ).loc main_arg0)) (m ((c.tc : Thread nD τ).loc main_arg2)))
        (Spec.edges (m ((c.tc : Thread nD τ).loc main_arg1)) (m ((c.tc : Thread nD τ).loc main_arg3))) :=
  refOf_eq _ _ _ _ _ _ h0 h1 h2 h3 h4 h5

end Cert.ReferenceIdeal.RefVal

end
-- ==== Proof.lean ====
/-
  The certificate of the edge-loss kernel against its jnp reference.

  Both programs compute, over the extended reals, the sum over all 344064 = 16384 + 16384·20 edges (u-row, v-row)
  of softplus(−⟨u, v⟩) = max(−s, 0) + log1p(exp(−|s|)) with s the 64-term dot product of the two embedding rows.
  The kernel lists the edges as concatenate(pos, reshape(neg)), cuts the list into eight chunks of 43008 and runs
  one pallas_call per chunk: a grid of 43008 points, the two rows fetched through scalar-prefetched index tables, a
  [1,1] scratch zeroed at the first point, increased by the edge's loss at every point and copied to the [1,1]
  output at the last; @main adds the eight outputs to zero, left to right. The reference gathers the rows on the
  host and sums −log_sigmoid(pos_b) − Σ_k log_sigmoid(neg_bk) over b. Addition of extended reals is commutative
  and associative, so the kernel's nested sums are the sum over all edges with no hypothesis; the reference's
  −(Σ_k −x_k) is Σ_k x_k because every loss is a real number once the embedding tables are finite.
  The precondition also keeps every index in [0, 1000000): the tables' words are block indices of the embedding
  arrays, so outside that range the kernel's row block lies outside its array.

  The three frames: each kernel region's proof data names the scratch after every point (a fold over the points'
  losses), its body is run in three control cases (first point, a middle point, last point), and the eight regions
  are chained through the host stretches between them; the reference is a straight line of host operations.
-/
import proofs.«425429_j48773648614109_2_alg».proof.Defs
import proofs.«425429_j48773648614109_2_alg».proof.Proof.Gen.Kernel
import proofs.«425429_j48773648614109_2_alg».proof.Proof.Gen.KernelIdeal
import proofs.«425429_j48773648614109_2_alg».proof.Proof.Gen.ReferenceIdeal
import proofs.«425429_j48773648614109_2_alg».proof.Proof.Gen.Pre_finite_inputs
import proofs.«425429_j48773648614109_2_alg».proof.Proof.FamilyK
import proofs.«425429_j48773648614109_2_alg».proof.Proof.PreK
import proofs.«425429_j48773648614109_2_alg».proof.Proof.FamilyI
import proofs.«425429_j48773648614109_2_alg».proof.Proof.PreI
import proofs.«425429_j48773648614109_2_alg».proof.Proof.FiniteI
import proofs.«425429_j48773648614109_2_alg».proof.Proof.KernelTotalI
import proofs.«425429_j48773648614109_2_alg».proof.Proof.RefRun
import proofs.«425429_j48773648614109_2_alg».proof.Proof.RefValue

noncomputable section

namespace Cert.Proof

open Idealize.ShloMosaic Idealize.SL.Sem

/-- The word-level kernel runs and leaves its arguments: the eight regions chained, at the tables the
    precondition makes admissible. -/
theorem frame_kernel : Cert.frame_Kernel :=
  fun m ρ hpre => Cert.Kernel.Gen.frame_all m (Cert.Kernel.Gen.pre_idx m hpre) ρ

/-- The same for the idealized kernel. -/
theorem frame_kernelIdeal : Cert.frame_KernelIdeal :=
  fun m ρ hpre => Cert.KernelIdeal.Gen.frame_all m (Cert.KernelIdeal.Gen.pre_idx m hpre) ρ

/-- The reference is a straight line of host operations: it runs from any memory and writes no argument. -/
theorem frame_reference : Cert.frame_ReferenceIdeal :=
  fun m ρ _ => Cert.ReferenceIdeal.RefRun.frame m ρ

/-- Both idealized programs end at the sum over all edges of the edge's loss. -/
theorem algebraic : Cert.algebraic_KernelIdeal_ReferenceIdeal := by
  intro m ρ m' ρ' hpre hagree
  have hidx := Cert.KernelIdeal.Gen.pre_idx m hpre
  refine ⟨fun c => fun _ => Cert.Spec.total
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (Cert.Spec.edges (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (Cert.Spec.edges (m ((c.tc : Thread Cert.KernelIdeal.nD Cert.KernelIdeal.τ).loc Cert.KernelIdeal.main_arg1))
        (m ((c.tc : Thread Cert.KernelIdeal.nD Cert.KernelIdeal.τ).loc Cert.KernelIdeal.main_arg3))), ?_, ?_⟩
  · -- the kernel: the value read off the last valuation is the sum over all edges
    refine (θ_run (Cert.KernelIdeal.defs (F := Ideal)) _ _).mono (fun r hr c => ?_)
      (Cert.KernelIdeal.Gen.value_all m hidx ρ)
    obtain ⟨h0, h1, h2, h3, h4, h5, hv⟩ := hr c
    exact ⟨hv.trans (Cert.KernelIdeal.KValue.kernel_total m hidx c), h0, h1, h2, h3, h4, h5⟩
  · -- the reference: its composed term, read at the agreeing arguments, is the same sum
    refine (θ_run (Cert.ReferenceIdeal.defs (F := Ideal)) _ _).mono (fun r hr c => ?_)
      (Cert.ReferenceIdeal.RefRun.run (F := Ideal) m' ρ')
    obtain ⟨hv, hargs⟩ := hr c
    obtain ⟨e0, e1, e2, e3, e4, e5⟩ := hagree c
    obtain ⟨b0, b1, b2, b3⟩ := Cert.KernelIdeal.Gen.pre_args m hpre c
    obtain ⟨f4, f5⟩ := Cert.KernelIdeal.Gen.pre_finite m hpre c
    refine ⟨hv.trans ?_, hargs⟩
    rw [Cert.ReferenceIdeal.RefVal.refTerm_eq_of m' c (by rw [e0]; exact b0) (by rw [e1]; exact b1)
      (by rw [e2]; exact b2) (by rw [e3]; exact b3) (by rw [e4]; exact f4) (by rw [e5]; exact f5),
      e0, e1, e2, e3, e4, e5]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
